-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x1 : Shape := ⟨2, ![16384, 1]⟩
abbrev S1000000x64 : Shape := ⟨2, ![1000000, 64]⟩
abbrev S100000x64 : Shape := ⟨2, ![100000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S16384x1 : S_.BroadcastsInDim S16384x1 (![] : Fin 0 → Fin S16384x1.rank)
  reducesTo_S16384x1_S_d0_1 : S16384x1.ReducesTo [0, 1] S_

variable [Facts]

def fn_part2 {F : FTy → Type} [FloatOps F] (main_v27 : IVec S_ 1) (main_v32 : IVec S16384x1 1) (main_c_12 : IVec S_ 1) : IVec S_ 1 :=
  let main_v33 : IVec S_ 1 := (fun x v => Host.reduce IntOp.andi x v reducesTo_S16384x1_S_d0_1 h_S_) main_v32 main_c_12
  let main_v34 : IVec S_ 1 := andi main_v27 main_v33
  main_v34

def fn_part1 {F : FTy → Type} [FloatOps F] (main_arg0 : IVec S16384x1 32) (main_arg1 : IVec S16384x1 32) (main_arg2 : IVec S16384x1 32) (main_v13 : IVec S_ 1) (main_v15 : IVec S16384x1 1) (main_c_5 : IVec S_ 32) : IVec S_ 1 :=
  let main_v16 : IVec S16384x1 32 := broadcastInDim S16384x1 ![] bcast_S_S16384x1 main_c_5
  let main_v17 : IVec S16384x1 1 := cmpi .sle main_arg0 main_v16
  let main_v18 : IVec S16384x1 1 := andi main_v15 main_v17
  let main_c_6 : IVec S_ 1 := constantI S_ 1 1#1
  let main_v19 : IVec S_ 1 := (fun x v => Host.reduce IntOp.andi x v reducesTo_S16384x1_S_d0_1 h_S_) main_v18 main_c_6
  let main_v20 : IVec S_ 1 := andi main_v13 main_v19
  let main_c_7 : IVec S_ 32 := constantI S_ 32 0#32
  let main_v21 : IVec S16384x1 32 := broadcastInDim S16384x1 ![] bcast_S_S16384x1 main_c_7
  let main_v22 : IVec S16384x1 1 := cmpi .sge main_arg1 main_v21
  let main_c_8 : IVec S_ 32 := constantI S_ 32 999999#32
  let main_v23 : IVec S16384x1 32 := broadcastInDim S16384x1 ![] bcast_S_S16384x1 main_c_8
  let main_v24 : IVec S16384x1 1 := cmpi .sle main_arg1 main_v23
  let main_v25 : IVec S16384x1 1 := andi main_v22 main_v24
  let main_c_9 : IVec S_ 1 := constantI S_ 1 1#1
  let main_v26 : IVec S_ 1 := (fun x v => Host.reduce IntOp.andi x v reducesTo_S16384x1_S_d0_1 h_S_) main_v25 main_c_9
  let main_v27 : IVec S_ 1 := andi main_v20 main_v26
  let main_c_10 : IVec S_ 32 := constantI S_ 32 0#32
  let main_v28 : IVec S16384x1 32 := broadcastInDim S16384x1 ![] bcast_S_S16384x1 main_c_10
  let main_v29 : IVec S16384x1 1 := cmpi .sge main_arg2 main_v28
  let main_c_11 : IVec S_ 32 := constantI S_ 32 99999#32
  let main_v30 : IVec S16384x1 32 := broadcastInDim S16384x1 ![] bcast_S_S16384x1 main_c_11
  let main_v31 : IVec S16384x1 1 := cmpi .sle main_arg2 main_v30
  let main_v32 : IVec S16384x1 1 := andi main_v29 main_v31
  let main_c_12 : IVec S_ 1 := constantI S_ 1 1#1
  fn_part2 (F := F) main_v27 main_v32 main_c_12

def fn {F : FTy → Type} [FloatOps F] (main_arg0 : IVec S16384x1 32) (main_arg1 : IVec S16384x1 32) (main_arg2 : IVec S16384x1 32) (main_arg3 : FVec F S1000000x64 .f32) (main_arg4 : FVec F S1000000x64 .f32) (main_arg5 : FVec F S100000x64 .f32) : IVec S_ 1 :=
  let main_v0 : FVec F S1000000x64 .f32 := Host.absf main_arg3
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg4
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S100000x64 .f32 := Host.absf main_arg5
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_c_4 : IVec S_ 32 := constantI S_ 32 0#32
  let main_v14 : IVec S16384x1 32 := broadcastInDim S16384x1 ![] bcast_S_S16384x1 main_c_4
  let main_v15 : IVec S16384x1 1 := cmpi .sge main_arg0 main_v14
  let main_c_5 : IVec S_ 32 := constantI S_ 32 999999#32
  fn_part1 (F := F) main_arg0 main_arg1 main_arg2 main_v13 main_v15 main_c_5
-- ==== Kernel.lean ====
abbrev S16384x1 : Shape := ⟨2, ![16384, 1]⟩
abbrev S1000000x64 : Shape := ⟨2, ![1000000, 64]⟩
abbrev S100000x64 : Shape := ⟨2, ![100000, 64]⟩
abbrev S128x128 : Shape := ⟨2, ![128, 128]⟩
abbrev S16384x64 : Shape := ⟨2, ![16384, 64]⟩
abbrev S4x128 : Shape := ⟨2, ![4, 128]⟩
abbrev S2x64x64 : Shape := ⟨3, ![2, 64, 64]⟩
abbrev S_ : Shape := ⟨0, ![]⟩
abbrev S1x16 : Shape := ⟨2, ![1, 16]⟩
abbrev S16 : Shape := ⟨1, ![16]⟩
abbrev S1 : Shape := ⟨1, ![1]⟩
abbrev S1x64x64 : Shape := ⟨3, ![1, 64, 64]⟩
abbrev S64x64 : Shape := ⟨2, ![64, 64]⟩
abbrev S1x64 : Shape := ⟨2, ![1, 64]⟩

abbrev nBuf : Table → Nat
  | .hbm => 12
  | .local .scVector .vmem => 4
  | _ => 0

abbrev bufTy : (tb : Table) → Fin (nBuf tb) → BufTy
  | .hbm, ⟨0, _⟩ => ⟨S16384x1, .i32⟩
  | .hbm, ⟨1, _⟩ => ⟨S16384x1, .i32⟩
  | .hbm, ⟨2, _⟩ => ⟨S16384x1, .i32⟩
  | .hbm, ⟨3, _⟩ => ⟨S1000000x64, .f32⟩
  | .hbm, ⟨4, _⟩ => ⟨S1000000x64, .f32⟩
  | .hbm, ⟨5, _⟩ => ⟨S100000x64, .f32⟩
  | .hbm, ⟨6, _⟩ => ⟨S128x128, .i32⟩
  | .hbm, ⟨7, _⟩ => ⟨S128x128, .i32⟩
  | .hbm, ⟨8, _⟩ => ⟨S128x128, .i32⟩
  | .hbm, ⟨9, _⟩ => ⟨S16384x64, .f32⟩
  | .hbm, ⟨10, _⟩ => ⟨S16384x64, .f32⟩
  | .hbm, ⟨11, _⟩ => ⟨S16384x64, .f32⟩
  | .local .scVector .vmem, ⟨0, _⟩ => ⟨S4x128, .i32⟩
  | .local .scVector .vmem, ⟨1, _⟩ => ⟨S4x128, .i32⟩
  | .local .scVector .vmem, ⟨2, _⟩ => ⟨S4x128, .i32⟩
  | .local .scVector .vmem, ⟨3, _⟩ => ⟨S2x64x64, .f32⟩
  | _, _ => ⟨S16384x1, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v0_scv : Ref sig .scVector := ⟨.hbm, 6, rfl⟩
abbrev main_v1_scv : Ref sig .scVector := ⟨.hbm, 7, rfl⟩
abbrev main_v2_scv : Ref sig .scVector := ⟨.hbm, 8, rfl⟩
abbrev main_arg3_scv : Ref sig .scVector := ⟨.hbm, 3, rfl⟩
abbrev main_arg4_scv : Ref sig .scVector := ⟨.hbm, 4, rfl⟩
abbrev main_arg5_scv : Ref sig .scVector := ⟨.hbm, 5, rfl⟩
abbrev main_v3_0_scv : Ref sig .scVector := ⟨.hbm, 9, rfl⟩
abbrev main_v3_1_scv : Ref sig .scVector := ⟨.hbm, 10, rfl⟩
abbrev main_v3_2_scv : Ref sig .scVector := ⟨.hbm, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32_15_r0 : BitVec 32 := 0#32
  ![v3.toNat, 0]
@[reducible] def k0_t1_loop : Scf.Loop 32 :=
  let c0_i32_2 : BitVec 32 := 0#32
  let c4_i32_3 : BitVec 32 := 4#32
  let v6 : BitVec 32 := Scalar.addi c0_i32_2 c4_i32_3
  let c1_i32 : BitVec 32 := 1#32
  ⟨c0_i32_2, v6, c1_i32⟩
def k0_off2 (k0_t1 : Fin k0_t1_loop.trips) : Fin 2 → Nat :=
  let c2_i32_15 : BitVec 32 := 2#32
  let c0_i32_2 : BitVec 32 := 0#32
  let c1_i32 : BitVec 32 := 1#32
  let arg25 : BitVec 32 := Scf.iv c0_i32_2 c1_i32 k0_t1
  let v9 : BitVec 32 := Scalar.muli c2_i32_15 arg25
  let c0_i32_16 : BitVec 32 := 0#32
  let v10 : BitVec 32 := Scalar.addi v9 c0_i32_16
  let c64_i32 : BitVec 32 := 64#32
  let v11 : BitVec 32 := Scalar.muli v10 c64_i32
  let c0_i32_17 : BitVec 32 := 0#32
  let v12 : BitVec 32 := Scalar.addi v11 c0_i32_17
  let c0_i32_18 : BitVec 32 := 0#32
  let v14 : BitVec 1 := Scalar.cmpi .sgt v12 c0_i32_18
  let v15 : BitVec 32 := Scalar.extui v14
  let c0_i32_19 : BitVec 32 := 0#32
  let v16 : BitVec 1 := Scalar.cmpi .slt v12 c0_i32_19
  let v17 : BitVec 32 := Scalar.extui v16
  let v18 : BitVec 32 := Scalar.subi v15 v17
  let c128_i32 : BitVec 32 := 128#32
  let c0_i32_20 : BitVec 32 := 0#32
  let v19 : BitVec 1 := Scalar.cmpi .sgt c128_i32 c0_i32_20
  let v20 : BitVec 32 := Scalar.extui v19
  let c0_i32_21 : BitVec 32 := 0#32
  let v21 : BitVec 1 := Scalar.cmpi .slt c128_i32 c0_i32_21
  let v22 : BitVec 32 := Scalar.extui v21
  let v23 : BitVec 32 := Scalar.subi v20 v22
  let v24 : BitVec 1 := Scalar.cmpi .ne v18 v23
  let v25 : BitVec 32 := Scalar.remsi v12 c128_i32
  let c0_i32_22 : BitVec 32 := 0#32
  let v26 : BitVec 1 := Scalar.cmpi .ne v25 c0_i32_22
  let v27 : BitVec 1 := Scalar.andi v24 v26
  let v13 : BitVec 32 := Scalar.divsi v12 c128_i32
  let c1_i32_23 : BitVec 32 := 1#32
  let v28 : BitVec 32 := Scalar.subi v13 c1_i32_23
  let v29 : BitVec 32 := Scalar.select v27 v28 v13
  let v42 : Index := Scalar.indexCast v29
  let c64_i32_24 : BitVec 32 := 64#32
  let v30 : BitVec 32 := Scalar.muli v10 c64_i32_24
  let c0_i32_25 : BitVec 32 := 0#32
  let v31 : BitVec 32 := Scalar.addi v30 c0_i32_25
  let c128_i32_26 : BitVec 32 := 128#32
  let c0_i32_27 : BitVec 32 := 0#32
  let v32 : BitVec 1 := Scalar.cmpi .eq c128_i32_26 c0_i32_27
  let c1_i32_28 : BitVec 32 := 1#32
  let v33 : BitVec 32 := Scalar.select v32 c1_i32_28 c128_i32_26
  let v34 : BitVec 32 := Scalar.remsi v31 v33
  let c0_i32_30 : BitVec 32 := 0#32
  let v36 : BitVec 1 := Scalar.cmpi .slt v34 c0_i32_30
  let c0_i32_31 : BitVec 32 := 0#32
  let v37 : BitVec 1 := Scalar.cmpi .slt v33 c0_i32_31
  let v38 : BitVec 1 := Scalar.xori v36 v37
  let c0_i32_29 : BitVec 32 := 0#32
  let v35 : BitVec 1 := Scalar.cmpi .ne v34 c0_i32_29
  let v39 : BitVec 1 := Scalar.andi v38 v35
  let v40 : BitVec 32 := Scalar.addi v34 v33
  let v41 : BitVec 32 := Scalar.select v39 v40 v34
  let v43 : Index := Scalar.indexCast v41
  ![v42.toNat, v43.toNat]
def k0_off3 (v47 : BitVec 32) : Fin 2 → Nat :=
  let c0_i32_37 : BitVec 32 := 0#32
  ![v47.toNat, 0]

def k0_off4 (v57 : BitVec 32) : Fin 2 → Nat :=
  let c0_i32_48 : BitVec 32 := 0#32
  ![v57.toNat, 0]

def k0_off5 (v67 : BitVec 32) : Fin 2 → Nat :=
  let c0_i32_59 : BitVec 32 := 0#32
  ![v67.toNat, 0]

def k0_off6 (v77 : BitVec 32) : Fin 2 → Nat :=
  let c0_i32_69 : BitVec 32 := 0#32
  ![v77.toNat, 0]

def k0_off7 (v87 : BitVec 32) : Fin 2 → Nat :=
  let c0_i32_80 : BitVec 32 := 0#32
  ![v87.toNat, 0]

def k0_off8 (v97 : BitVec 32) : Fin 2 → Nat :=
  let c0_i32_90 : BitVec 32 := 0#32
  ![v97.toNat, 0]

def k0_off9 (v107 : BitVec 32) : Fin 2 → Nat :=
  let c0_i32_100 : BitVec 32 := 0#32
  ![v107.toNat, 0]

def k0_off10 (v117 : BitVec 32) : Fin 2 → Nat :=
  let c0_i32_110 : BitVec 32 := 0#32
  ![v117.toNat, 0]

def k0_off11 (v127 : BitVec 32) : Fin 2 → Nat :=
  let c0_i32_120 : BitVec 32 := 0#32
  ![v127.toNat, 0]

def k0_off12 (v137 : BitVec 32) : Fin 2 → Nat :=
  let c0_i32_130 : BitVec 32 := 0#32
  ![v137.toNat, 0]

def k0_off13 (v147 : BitVec 32) : Fin 2 → Nat :=
  let c0_i32_140 : BitVec 32 := 0#32
  ![v147.toNat, 0]

def k0_off14 (v157 : BitVec 32) : Fin 2 → Nat :=
  let c0_i32_150 : BitVec 32 := 0#32
  ![v157.toNat, 0]

def k0_off15 (v167 : BitVec 32) : Fin 2 → Nat :=
  let c0_i32_160 : BitVec 32 := 0#32
  ![v167.toNat, 0]

def k0_off16 (v177 : BitVec 32) : Fin 2 → Nat :=
  let c0_i32_170 : BitVec 32 := 0#32
  ![v177.toNat, 0]

def k0_off17 (v187 : BitVec 32) : Fin 2 → Nat :=
  let c0_i32_180 : BitVec 32 := 0#32
  ![v187.toNat, 0]

def k0_off18 (v197 : BitVec 32) : Fin 2 → Nat :=
  let c0_i32_190 : BitVec 32 := 0#32
  ![v197.toNat, 0]

def k0_off19 (k0_t1 : Fin k0_t1_loop.trips) : Fin 2 → Nat :=
  let c2_i32_15 : BitVec 32 := 2#32
  let c0_i32_2 : BitVec 32 := 0#32
  let c1_i32 : BitVec 32 := 1#32
  let arg25 : BitVec 32 := Scf.iv c0_i32_2 c1_i32 k0_t1
  let v9 : BitVec 32 := Scalar.muli c2_i32_15 arg25
  let c0_i32_16 : BitVec 32 := 0#32
  let v10 : BitVec 32 := Scalar.addi v9 c0_i32_16
  let c64_i32_196 : BitVec 32 := 64#32
  let v206 : BitVec 32 := Scalar.muli v10 c64_i32_196
  let c16_i32 : BitVec 32 := 16#32
  let v207 : BitVec 32 := Scalar.addi v206 c16_i32
  let c0_i32_198 : BitVec 32 := 0#32
  let v209 : BitVec 1 := Scalar.cmpi .sgt v207 c0_i32_198
  let v210 : BitVec 32 := Scalar.extui v209
  let c0_i32_199 : BitVec 32 := 0#32
  let v211 : BitVec 1 := Scalar.cmpi .slt v207 c0_i32_199
  let v212 : BitVec 32 := Scalar.extui v211
  let v213 : BitVec 32 := Scalar.subi v210 v212
  let c128_i32_197 : BitVec 32 := 128#32
  let c0_i32_200 : BitVec 32 := 0#32
  let v214 : BitVec 1 := Scalar.cmpi .sgt c128_i32_197 c0_i32_200
  let v215 : BitVec 32 := Scalar.extui v214
  let c0_i32_201 : BitVec 32 := 0#32
  let v216 : BitVec 1 := Scalar.cmpi .slt c128_i32_197 c0_i32_201
  let v217 : BitVec 32 := Scalar.extui v216
  let v218 : BitVec 32 := Scalar.subi v215 v217
  let v219 : BitVec 1 := Scalar.cmpi .ne v213 v218
  let v220 : BitVec 32 := Scalar.remsi v207 c128_i32_197
  let c0_i32_202 : BitVec 32 := 0#32
  let v221 : BitVec 1 := Scalar.cmpi .ne v220 c0_i32_202
  let v222 : BitVec 1 := Scalar.andi v219 v221
  let v208 : BitVec 32 := Scalar.divsi v207 c128_i32_197
  let c1_i32_203 : BitVec 32 := 1#32
  let v223 : BitVec 32 := Scalar.subi v208 c1_i32_203
  let v224 : BitVec 32 := Scalar.select v222 v223 v208
  let v237 : Index := Scalar.indexCast v224
  let c64_i32_204 : BitVec 32 := 64#32
  let v225 : BitVec 32 := Scalar.muli v10 c64_i32_204
  let c16_i32_205 : BitVec 32 := 16#32
  let v226 : BitVec 32 := Scalar.addi v225 c16_i32_205
  let c128_i32_206 : BitVec 32 := 128#32
  let c0_i32_207 : BitVec 32 := 0#32
  let v227 : BitVec 1 := Scalar.cmpi .eq c128_i32_206 c0_i32_207
  let c1_i32_208 : BitVec 32 := 1#32
  let v228 : BitVec 32 := Scalar.select v227 c1_i32_208 c128_i32_206
  let v229 : BitVec 32 := Scalar.remsi v226 v228
  let c0_i32_210 : BitVec 32 := 0#32
  let v231 : BitVec 1 := Scalar.cmpi .slt v229 c0_i32_210
  let c0_i32_211 : BitVec 32 := 0#32
  let v232 : BitVec 1 := Scalar.cmpi .slt v228 c0_i32_211
  let v233 : BitVec 1 := Scalar.xori v231 v232
  let c0_i32_209 : BitVec 32 := 0#32
  let v230 : BitVec 1 := Scalar.cmpi .ne v229 c0_i32_209
  let v234 : BitVec 1 := Scalar.andi v233 v230
  let v235 : BitVec 32 := Scalar.addi v229 v228
  let v236 : BitVec 32 := Scalar.select v234 v235 v229
  let v238 : Index := Scalar.indexCast v236
  ![v237.toNat, v238.toNat]
def k0_off20 (v242 : BitVec 32) : Fin 2 → Nat :=
  let c0_i32_217 : BitVec 32 := 0#32
  ![v242.toNat, 0]

def k0_off21 (v252 : BitVec 32) : Fin 2 → Nat :=
  let c0_i32_227 : BitVec 32 := 0#32
  ![v252.toNat, 0]

def k0_off22 (v262 : BitVec 32) : Fin 2 → Nat :=
  let c0_i32_237 : BitVec 32 := 0#32
  ![v262.toNat, 0]

def k0_off23 (v272 : BitVec 32) : Fin 2 → Nat :=
  let c0_i32_247 : BitVec 32 := 0#32
  ![v272.toNat, 0]

def k0_off24 (v282 : BitVec 32) : Fin 2 → Nat :=
  let c0_i32_257 : BitVec 32 := 0#32
  ![v282.toNat, 0]

def k0_off25 (v292 : BitVec 32) : Fin 2 → Nat :=
  let c0_i32_267 : BitVec 32 := 0#32
  ![v292.toNat, 0]

def k0_off26 (v302 : BitVec 32) : Fin 2 → Nat :=
  let c0_i32_277 : BitVec 32 := 0#32
  ![v302.toNat, 0]

def k0_off27 (v312 : BitVec 32) : Fin 2 → Nat :=
  let c0_i32_287 : BitVec 32 := 0#32
  ![v312.toNat, 0]

def k0_off28 (v322 : BitVec 32) : Fin 2 → Nat :=
  let c0_i32_297 : BitVec 32 := 0#32
  ![v322.toNat, 0]

def k0_off29 (v332 : BitVec 32) : Fin 2 → Nat :=
  let c0_i32_307 : BitVec 32 := 0#32
  ![v332.toNat, 0]

def k0_off30 (v342 : BitVec 32) : Fin 2 → Nat :=
  let c0_i32_317 : BitVec 32 := 0#32
  ![v342.toNat, 0]

def k0_off31 (v352 : BitVec 32) : Fin 2 → Nat :=
  let c0_i32_327 : BitVec 32 := 0#32
  ![v352.toNat, 0]

def k0_off32 (v362 : BitVec 32) : Fin 2 → Nat :=
  let c0_i32_337 : BitVec 32 := 0#32
  ![v362.toNat, 0]

def k0_off33 (v372 : BitVec 32) : Fin 2 → Nat :=
  let c0_i32_347 : BitVec 32 := 0#32
  ![v372.toNat, 0]

def k0_off34 (v382 : BitVec 32) : Fin 2 → Nat :=
  let c0_i32_357 : BitVec 32 := 0#32
  ![v382.toNat, 0]

def k0_off35 (v392 : BitVec 32) : Fin 2 → Nat :=
  let c0_i32_367 : BitVec 32 := 0#32
  ![v392.toNat, 0]

def k0_off36 (k0_t1 : Fin k0_t1_loop.trips) : Fin 2 → Nat :=
  let c2_i32_15 : BitVec 32 := 2#32
  let c0_i32_2 : BitVec 32 := 0#32
  let c1_i32 : BitVec 32 := 1#32
  let arg25 : BitVec 32 := Scf.iv c0_i32_2 c1_i32 k0_t1
  let v9 : BitVec 32 := Scalar.muli c2_i32_15 arg25
  let c0_i32_16 : BitVec 32 := 0#32
  let v10 : BitVec 32 := Scalar.addi v9 c0_i32_16
  let c64_i32_373 : BitVec 32 := 64#32
  let v401 : BitVec 32 := Scalar.muli v10 c64_i32_373
  let c32_i32 : BitVec 32 := 32#32
  let v402 : BitVec 32 := Scalar.addi v401 c32_i32
  let c0_i32_375 : BitVec 32 := 0#32
  let v404 : BitVec 1 := Scalar.cmpi .sgt v402 c0_i32_375
  let v405 : BitVec 32 := Scalar.extui v404
  let c0_i32_376 : BitVec 32 := 0#32
  let v406 : BitVec 1 := Scalar.cmpi .slt v402 c0_i32_376
  let v407 : BitVec 32 := Scalar.extui v406
  let v408 : BitVec 32 := Scalar.subi v405 v407
  let c128_i32_374 : BitVec 32 := 128#32
  let c0_i32_377 : BitVec 32 := 0#32
  let v409 : BitVec 1 := Scalar.cmpi .sgt c128_i32_374 c0_i32_377
  let v410 : BitVec 32 := Scalar.extui v409
  let c0_i32_378 : BitVec 32 := 0#32
  let v411 : BitVec 1 := Scalar.cmpi .slt c128_i32_374 c0_i32_378
  let v412 : BitVec 32 := Scalar.extui v411
  let v413 : BitVec 32 := Scalar.subi v410 v412
  let v414 : BitVec 1 := Scalar.cmpi .ne v408 v413
  let v415 : BitVec 32 := Scalar.remsi v402 c128_i32_374
  let c0_i32_379 : BitVec 32 := 0#32
  let v416 : BitVec 1 := Scalar.cmpi .ne v415 c0_i32_379
  let v417 : BitVec 1 := Scalar.andi v414 v416
  let v403 : BitVec 32 := Scalar.divsi v402 c128_i32_374
  let c1_i32_380 : BitVec 32 := 1#32
  let v418 : BitVec 32 := Scalar.subi v403 c1_i32_380
  let v419 : BitVec 32 := Scalar.select v417 v418 v403
  let v432 : Index := Scalar.indexCast v419
  let c64_i32_381 : BitVec 32 := 64#32
  let v420 : BitVec 32 := Scalar.muli v10 c64_i32_381
  let c32_i32_382 : BitVec 32 := 32#32
  let v421 : BitVec 32 := Scalar.addi v420 c32_i32_382
  let c128_i32_383 : BitVec 32 := 128#32
  let c0_i32_384 : BitVec 32 := 0#32
  let v422 : BitVec 1 := Scalar.cmpi .eq c128_i32_383 c0_i32_384
  let c1_i32_385 : BitVec 32 := 1#32
  let v423 : BitVec 32 := Scalar.select v422 c1_i32_385 c128_i32_383
  let v424 : BitVec 32 := Scalar.remsi v421 v423
  let c0_i32_387 : BitVec 32 := 0#32
  let v426 : BitVec 1 := Scalar.cmpi .slt v424 c0_i32_387
  let c0_i32_388 : BitVec 32 := 0#32
  let v427 : BitVec 1 := Scalar.cmpi .slt v423 c0_i32_388
  let v428 : BitVec 1 := Scalar.xori v426 v427
  let c0_i32_386 : BitVec 32 := 0#32
  let v425 : BitVec 1 := Scalar.cmpi .ne v424 c0_i32_386
  let v429 : BitVec 1 := Scalar.andi v428 v425
  let v430 : BitVec 32 := Scalar.addi v424 v423
  let v431 : BitVec 32 := Scalar.select v429 v430 v424
  let v433 : Index := Scalar.indexCast v431
  ![v432.toNat, v433.toNat]
def k0_off37 (v437 : BitVec 32) : Fin 2 → Nat :=
  let c0_i32_394 : BitVec 32 := 0#32
  ![v437.toNat, 0]

def k0_off38 (v447 : BitVec 32) : Fin 2 → Nat :=
  let c0_i32_404 : BitVec 32 := 0#32
  ![v447.toNat, 0]

def k0_off39 (v457 : BitVec 32) : Fin 2 → Nat :=
  let c0_i32_414 : BitVec 32 := 0#32
  ![v457.toNat, 0]

def k0_off40 (v467 : BitVec 32) : Fin 2 → Nat :=
  let c0_i32_424 : BitVec 32 := 0#32
  ![v467.toNat, 0]

def k0_off41 (v477 : BitVec 32) : Fin 2 → Nat :=
  let c0_i32_434 : BitVec 32 := 0#32
  ![v477.toNat, 0]

def k0_off42 (v487 : BitVec 32) : Fin 2 → Nat :=
  let c0_i32_444 : BitVec 32 := 0#32
  ![v487.toNat, 0]

def k0_off43 (v497 : BitVec 32) : Fin 2 → Nat :=
  let c0_i32_454 : BitVec 32 := 0#32
  ![v497.toNat, 0]

def k0_off44 (v507 : BitVec 32) : Fin 2 → Nat :=
  let c0_i32_464 : BitVec 32 := 0#32
  ![v507.toNat, 0]

def k0_off45 (v517 : BitVec 32) : Fin 2 → Nat :=
  let c0_i32_474 : BitVec 32 := 0#32
  ![v517.toNat, 0]

def k0_off46 (v527 : BitVec 32) : Fin 2 → Nat :=
  let c0_i32_484 : BitVec 32 := 0#32
  ![v527.toNat, 0]

def k0_off47 (v537 : BitVec 32) : Fin 2 → Nat :=
  let c0_i32_494 : BitVec 32 := 0#32
  ![v537.toNat, 0]

def k0_off48 (v547 : BitVec 32) : Fin 2 → Nat :=
  let c0_i32_504 : BitVec 32 := 0#32
  ![v547.toNat, 0]

def k0_off49 (v557 : BitVec 32) : Fin 2 → Nat :=
  let c0_i32_514 : BitVec 32 := 0#32
  ![v557.toNat, 0]

def k0_off50 (v567 : BitVec 32) : Fin 2 → Nat :=
  let c0_i32_524 : BitVec 32 := 0#32
  ![v567.toNat, 0]

def k0_off51 (v577 : BitVec 32) : Fin 2 → Nat :=
  let c0_i32_534 : BitVec 32 := 0#32
  ![v577.toNat, 0]

def k0_off52 (v587 : BitVec 32) : Fin 2 → Nat :=
  let c0_i32_544 : BitVec 32 := 0#32
  ![v587.toNat, 0]

def k0_off53 (k0_t1 : Fin k0_t1_loop.trips) : Fin 2 → Nat :=
  let c2_i32_15 : BitVec 32 := 2#32
  let c0_i32_2 : BitVec 32 := 0#32
  let c1_i32 : BitVec 32 := 1#32
  let arg25 : BitVec 32 := Scf.iv c0_i32_2 c1_i32 k0_t1
  let v9 : BitVec 32 := Scalar.muli c2_i32_15 arg25
  let c0_i32_16 : BitVec 32 := 0#32
  let v10 : BitVec 32 := Scalar.addi v9 c0_i32_16
  let c64_i32_550 : BitVec 32 := 64#32
  let v596 : BitVec 32 := Scalar.muli v10 c64_i32_550
  let c48_i32 : BitVec 32 := 48#32
  let v597 : BitVec 32 := Scalar.addi v596 c48_i32
  let c0_i32_552 : BitVec 32 := 0#32
  let v599 : BitVec 1 := Scalar.cmpi .sgt v597 c0_i32_552
  let v600 : BitVec 32 := Scalar.extui v599
  let c0_i32_553 : BitVec 32 := 0#32
  let v601 : BitVec 1 := Scalar.cmpi .slt v597 c0_i32_553
  let v602 : BitVec 32 := Scalar.extui v601
  let v603 : BitVec 32 := Scalar.subi v600 v602
  let c128_i32_551 : BitVec 32 := 128#32
  let c0_i32_554 : BitVec 32 := 0#32
  let v604 : BitVec 1 := Scalar.cmpi .sgt c128_i32_551 c0_i32_554
  let v605 : BitVec 32 := Scalar.extui v604
  let c0_i32_555 : BitVec 32 := 0#32
  let v606 : BitVec 1 := Scalar.cmpi .slt c128_i32_551 c0_i32_555
  let v607 : BitVec 32 := Scalar.extui v606
  let v608 : BitVec 32 := Scalar.subi v605 v607
  let v609 : BitVec 1 := Scalar.cmpi .ne v603 v608
  let v610 : BitVec 32 := Scalar.remsi v597 c128_i32_551
  let c0_i32_556 : BitVec 32 := 0#32
  let v611 : BitVec 1 := Scalar.cmpi .ne v610 c0_i32_556
  let v612 : BitVec 1 := Scalar.andi v609 v611
  let v598 : BitVec 32 := Scalar.divsi v597 c128_i32_551
  let c1_i32_557 : BitVec 32 := 1#32
  let v613 : BitVec 32 := Scalar.subi v598 c1_i32_557
  let v614 : BitVec 32 := Scalar.select v612 v613 v598
  let v627 : Index := Scalar.indexCast v614
  let c64_i32_558 : BitVec 32 := 64#32
  let v615 : BitVec 32 := Scalar.muli v10 c64_i32_558
  let c48_i32_559 : BitVec 32 := 48#32
  let v616 : BitVec 32 := Scalar.addi v615 c48_i32_559
  let c128_i32_560 : BitVec 32 := 128#32
  let c0_i32_561 : BitVec 32 := 0#32
  let v617 : BitVec 1 := Scalar.cmpi .eq c128_i32_560 c0_i32_561
  let c1_i32_562 : BitVec 32 := 1#32
  let v618 : BitVec 32 := Scalar.select v617 c1_i32_562 c128_i32_560
  let v619 : BitVec 32 := Scalar.remsi v616 v618
  let c0_i32_564 : BitVec 32 := 0#32
  let v621 : BitVec 1 := Scalar.cmpi .slt v619 c0_i32_564
  let c0_i32_565 : BitVec 32 := 0#32
  let v622 : BitVec 1 := Scalar.cmpi .slt v618 c0_i32_565
  let v623 : BitVec 1 := Scalar.xori v621 v622
  let c0_i32_563 : BitVec 32 := 0#32
  let v620 : BitVec 1 := Scalar.cmpi .ne v619 c0_i32_563
  let v624 : BitVec 1 := Scalar.andi v623 v620
  let v625 : BitVec 32 := Scalar.addi v619 v618
  let v626 : BitVec 32 := Scalar.select v624 v625 v619
  let v628 : Index := Scalar.indexCast v626
  ![v627.toNat, v628.toNat]
def k0_off54 (v632 : BitVec 32) : Fin 2 → Nat :=
  let c0_i32_571 : BitVec 32 := 0#32
  ![v632.toNat, 0]

def k0_off55 (v642 : BitVec 32) : Fin 2 → Nat :=
  let c0_i32_581 : BitVec 32 := 0#32
  ![v642.toNat, 0]

def k0_off56 (v652 : BitVec 32) : Fin 2 → Nat :=
  let c0_i32_591 : BitVec 32 := 0#32
  ![v652.toNat, 0]

def k0_off57 (v662 : BitVec 32) : Fin 2 → Nat :=
  let c0_i32_601 : BitVec 32 := 0#32
  ![v662.toNat, 0]

def k0_off58 (v672 : BitVec 32) : Fin 2 → Nat :=
  let c0_i32_611 : BitVec 32 := 0#32
  ![v672.toNat, 0]

def k0_off59 (v682 : BitVec 32) : Fin 2 → Nat :=
  let c0_i32_621 : BitVec 32 := 0#32
  ![v682.toNat, 0]

def k0_off60 (v692 : BitVec 32) : Fin 2 → Nat :=
  let c0_i32_631 : BitVec 32 := 0#32
  ![v692.toNat, 0]

def k0_off61 (v702 : BitVec 32) : Fin 2 → Nat :=
  let c0_i32_641 : BitVec 32 := 0#32
  ![v702.toNat, 0]

def k0_off62 (v712 : BitVec 32) : Fin 2 → Nat :=
  let c0_i32_651 : BitVec 32 := 0#32
  ![v712.toNat, 0]

def k0_off63 (v722 : BitVec 32) : Fin 2 → Nat :=
  let c0_i32_661 : BitVec 32 := 0#32
  ![v722.toNat, 0]

def k0_off64 (v732 : BitVec 32) : Fin 2 → Nat :=
  let c0_i32_671 : BitVec 32 := 0#32
  ![v732.toNat, 0]

def k0_off65 (v742 : BitVec 32) : Fin 2 → Nat :=
  let c0_i32_681 : BitVec 32 := 0#32
  ![v742.toNat, 0]

def k0_off66 (v752 : BitVec 32) : Fin 2 → Nat :=
  let c0_i32_691 : BitVec 32 := 0#32
  ![v752.toNat, 0]

def k0_off67 (v762 : BitVec 32) : Fin 2 → Nat :=
  let c0_i32_701 : BitVec 32 := 0#32
  ![v762.toNat, 0]

def k0_off68 (v772 : BitVec 32) : Fin 2 → Nat :=
  let c0_i32_711 : BitVec 32 := 0#32
  ![v772.toNat, 0]

def k0_off69 (v782 : BitVec 32) : Fin 2 → Nat :=
  let c0_i32_721 : BitVec 32 := 0#32
  ![v782.toNat, 0]

def k0_off70 (k0_t1 : Fin k0_t1_loop.trips) : Fin 2 → Nat :=
  let c2_i32_727 : BitVec 32 := 2#32
  let c0_i32_2 : BitVec 32 := 0#32
  let c1_i32 : BitVec 32 := 1#32
  let arg25 : BitVec 32 := Scf.iv c0_i32_2 c1_i32 k0_t1
  let v791 : BitVec 32 := Scalar.muli c2_i32_727 arg25
  let c1_i32_728 : BitVec 32 := 1#32
  let v792 : BitVec 32 := Scalar.addi v791 c1_i32_728
  let c64_i32_729 : BitVec 32 := 64#32
  let v793 : BitVec 32 := Scalar.muli v792 c64_i32_729
  let c0_i32_730 : BitVec 32 := 0#32
  let v794 : BitVec 32 := Scalar.addi v793 c0_i32_730
  let c0_i32_732 : BitVec 32 := 0#32
  let v796 : BitVec 1 := Scalar.cmpi .sgt v794 c0_i32_732
  let v797 : BitVec 32 := Scalar.extui v796
  let c0_i32_733 : BitVec 32 := 0#32
  let v798 : BitVec 1 := Scalar.cmpi .slt v794 c0_i32_733
  let v799 : BitVec 32 := Scalar.extui v798
  let v800 : BitVec 32 := Scalar.subi v797 v799
  let c128_i32_731 : BitVec 32 := 128#32
  let c0_i32_734 : BitVec 32 := 0#32
  let v801 : BitVec 1 := Scalar.cmpi .sgt c128_i32_731 c0_i32_734
  let v802 : BitVec 32 := Scalar.extui v801
  let c0_i32_735 : BitVec 32 := 0#32
  let v803 : BitVec 1 := Scalar.cmpi .slt c128_i32_731 c0_i32_735
  let v804 : BitVec 32 := Scalar.extui v803
  let v805 : BitVec 32 := Scalar.subi v802 v804
  let v806 : BitVec 1 := Scalar.cmpi .ne v800 v805
  let v807 : BitVec 32 := Scalar.remsi v794 c128_i32_731
  let c0_i32_736 : BitVec 32 := 0#32
  let v808 : BitVec 1 := Scalar.cmpi .ne v807 c0_i32_736
  let v809 : BitVec 1 := Scalar.andi v806 v808
  let v795 : BitVec 32 := Scalar.divsi v794 c128_i32_731
  let c1_i32_737 : BitVec 32 := 1#32
  let v810 : BitVec 32 := Scalar.subi v795 c1_i32_737
  let v811 : BitVec 32 := Scalar.select v809 v810 v795
  let v824 : Index := Scalar.indexCast v811
  let c64_i32_738 : BitVec 32 := 64#32
  let v812 : BitVec 32 := Scalar.muli v792 c64_i32_738
  let c0_i32_739 : BitVec 32 := 0#32
  let v813 : BitVec 32 := Scalar.addi v812 c0_i32_739
  let c128_i32_740 : BitVec 32 := 128#32
  let c0_i32_741 : BitVec 32 := 0#32
  let v814 : BitVec 1 := Scalar.cmpi .eq c128_i32_740 c0_i32_741
  let c1_i32_742 : BitVec 32 := 1#32
  let v815 : BitVec 32 := Scalar.select v814 c1_i32_742 c128_i32_740
  let v816 : BitVec 32 := Scalar.remsi v813 v815
  let c0_i32_744 : BitVec 32 := 0#32
  let v818 : BitVec 1 := Scalar.cmpi .slt v816 c0_i32_744
  let c0_i32_745 : BitVec 32 := 0#32
  let v819 : BitVec 1 := Scalar.cmpi .slt v815 c0_i32_745
  let v820 : BitVec 1 := Scalar.xori v818 v819
  let c0_i32_743 : BitVec 32 := 0#32
  let v817 : BitVec 1 := Scalar.cmpi .ne v816 c0_i32_743
  let v821 : BitVec 1 := Scalar.andi v820 v817
  let v822 : BitVec 32 := Scalar.addi v816 v815
  let v823 : BitVec 32 := Scalar.select v821 v822 v816
  let v825 : Index := Scalar.indexCast v823
  ![v824.toNat, v825.toNat]
def k0_off71 (v829 : BitVec 32) : Fin 2 → Nat :=
  let c0_i32_751 : BitVec 32 := 0#32
  ![v829.toNat, 0]

def k0_off72 (v839 : BitVec 32) : Fin 2 → Nat :=
  let c0_i32_762 : BitVec 32 := 0#32
  ![v839.toNat, 0]

def k0_off73 (v849 : BitVec 32) : Fin 2 → Nat :=
  let c0_i32_773 : BitVec 32 := 0#32
  ![v849.toNat, 0]

def k0_off74 (v859 : BitVec 32) : Fin 2 → Nat :=
  let c0_i32_784 : BitVec 32 := 0#32
  ![v859.toNat, 0]

def k0_off75 (v869 : BitVec 32) : Fin 2 → Nat :=
  let c0_i32_795 : BitVec 32 := 0#32
  ![v869.toNat, 0]

def k0_off76 (v879 : BitVec 32) : Fin 2 → Nat :=
  let c0_i32_806 : BitVec 32 := 0#32
  ![v879.toNat, 0]

def k0_off77 (v889 : BitVec 32) : Fin 2 → Nat :=
  let c0_i32_817 : BitVec 32 := 0#32
  ![v889.toNat, 0]

def k0_off78 (v899 : BitVec 32) : Fin 2 → Nat :=
  let c0_i32_828 : BitVec 32 := 0#32
  ![v899.toNat, 0]

def k0_off79 (v909 : BitVec 32) : Fin 2 → Nat :=
  let c0_i32_839 : BitVec 32 := 0#32
  ![v909.toNat, 0]

def k0_off80 (v919 : BitVec 32) : Fin 2 → Nat :=
  let c0_i32_850 : BitVec 32 := 0#32
  ![v919.toNat, 0]

def k0_off81 (v929 : BitVec 32) : Fin 2 → Nat :=
  let c0_i32_861 : BitVec 32 := 0#32
  ![v929.toNat, 0]

def k0_off82 (v939 : BitVec 32) : Fin 2 → Nat :=
  let c0_i32_872 : BitVec 32 := 0#32
  ![v939.toNat, 0]

def k0_off83 (v949 : BitVec 32) : Fin 2 → Nat :=
  let c0_i32_883 : BitVec 32 := 0#32
  ![v949.toNat, 0]

def k0_off84 (v959 : BitVec 32) : Fin 2 → Nat :=
  let c0_i32_894 : BitVec 32 := 0#32
  ![v959.toNat, 0]

def k0_off85 (v969 : BitVec 32) : Fin 2 → Nat :=
  let c0_i32_905 : BitVec 32 := 0#32
  ![v969.toNat, 0]

def k0_off86 (v979 : BitVec 32) : Fin 2 → Nat :=
  let c0_i32_916 : BitVec 32 := 0#32
  ![v979.toNat, 0]

def k0_off87 (k0_t1 : Fin k0_t1_loop.trips) : Fin 2 → Nat :=
  let c2_i32_727 : BitVec 32 := 2#32
  let c0_i32_2 : BitVec 32 := 0#32
  let c1_i32 : BitVec 32 := 1#32
  let arg25 : BitVec 32 := Scf.iv c0_i32_2 c1_i32 k0_t1
  let v791 : BitVec 32 := Scalar.muli c2_i32_727 arg25
  let c1_i32_728 : BitVec 32 := 1#32
  let v792 : BitVec 32 := Scalar.addi v791 c1_i32_728
  let c64_i32_922 : BitVec 32 := 64#32
  let v988 : BitVec 32 := Scalar.muli v792 c64_i32_922
  let c16_i32_923 : BitVec 32 := 16#32
  let v989 : BitVec 32 := Scalar.addi v988 c16_i32_923
  let c0_i32_925 : BitVec 32 := 0#32
  let v991 : BitVec 1 := Scalar.cmpi .sgt v989 c0_i32_925
  let v992 : BitVec 32 := Scalar.extui v991
  let c0_i32_926 : BitVec 32 := 0#32
  let v993 : BitVec 1 := Scalar.cmpi .slt v989 c0_i32_926
  let v994 : BitVec 32 := Scalar.extui v993
  let v995 : BitVec 32 := Scalar.subi v992 v994
  let c128_i32_924 : BitVec 32 := 128#32
  let c0_i32_927 : BitVec 32 := 0#32
  let v996 : BitVec 1 := Scalar.cmpi .sgt c128_i32_924 c0_i32_927
  let v997 : BitVec 32 := Scalar.extui v996
  let c0_i32_928 : BitVec 32 := 0#32
  let v998 : BitVec 1 := Scalar.cmpi .slt c128_i32_924 c0_i32_928
  let v999 : BitVec 32 := Scalar.extui v998
  let v1000 : BitVec 32 := Scalar.subi v997 v999
  let v1001 : BitVec 1 := Scalar.cmpi .ne v995 v1000
  let v1002 : BitVec 32 := Scalar.remsi v989 c128_i32_924
  let c0_i32_929 : BitVec 32 := 0#32
  let v1003 : BitVec 1 := Scalar.cmpi .ne v1002 c0_i32_929
  let v1004 : BitVec 1 := Scalar.andi v1001 v1003
  let v990 : BitVec 32 := Scalar.divsi v989 c128_i32_924
  let c1_i32_930 : BitVec 32 := 1#32
  let v1005 : BitVec 32 := Scalar.subi v990 c1_i32_930
  let v1006 : BitVec 32 := Scalar.select v1004 v1005 v990
  let v1019 : Index := Scalar.indexCast v1006
  let c64_i32_931 : BitVec 32 := 64#32
  let v1007 : BitVec 32 := Scalar.muli v792 c64_i32_931
  let c16_i32_932 : BitVec 32 := 16#32
  let v1008 : BitVec 32 := Scalar.addi v1007 c16_i32_932
  let c128_i32_933 : BitVec 32 := 128#32
  let c0_i32_934 : BitVec 32 := 0#32
  let v1009 : BitVec 1 := Scalar.cmpi .eq c128_i32_933 c0_i32_934
  let c1_i32_935 : BitVec 32 := 1#32
  let v1010 : BitVec 32 := Scalar.select v1009 c1_i32_935 c128_i32_933
  let v1011 : BitVec 32 := Scalar.remsi v1008 v1010
  let c0_i32_937 : BitVec 32 := 0#32
  let v1013 : BitVec 1 := Scalar.cmpi .slt v1011 c0_i32_937
  let c0_i32_938 : BitVec 32 := 0#32
  let v1014 : BitVec 1 := Scalar.cmpi .slt v1010 c0_i32_938
  let v1015 : BitVec 1 := Scalar.xori v1013 v1014
  let c0_i32_936 : BitVec 32 := 0#32
  let v1012 : BitVec 1 := Scalar.cmpi .ne v1011 c0_i32_936
  let v1016 : BitVec 1 := Scalar.andi v1015 v1012
  let v1017 : BitVec 32 := Scalar.addi v1011 v1010
  let v1018 : BitVec 32 := Scalar.select v1016 v1017 v1011
  let v1020 : Index := Scalar.indexCast v1018
  ![v1019.toNat, v1020.toNat]
def k0_off88 (v1024 : BitVec 32) : Fin 2 → Nat :=
  let c0_i32_944 : BitVec 32 := 0#32
  ![v1024.toNat, 0]

def k0_off89 (v1034 : BitVec 32) : Fin 2 → Nat :=
  let c0_i32_955 : BitVec 32 := 0#32
  ![v1034.toNat, 0]

def k0_off90 (v1044 : BitVec 32) : Fin 2 → Nat :=
  let c0_i32_966 : BitVec 32 := 0#32
  ![v1044.toNat, 0]

def k0_off91 (v1054 : BitVec 32) : Fin 2 → Nat :=
  let c0_i32_977 : BitVec 32 := 0#32
  ![v1054.toNat, 0]

def k0_off92 (v1064 : BitVec 32) : Fin 2 → Nat :=
  let c0_i32_988 : BitVec 32 := 0#32
  ![v1064.toNat, 0]

def k0_off93 (v1074 : BitVec 32) : Fin 2 → Nat :=
  let c0_i32_999 : BitVec 32 := 0#32
  ![v1074.toNat, 0]

def k0_off94 (v1084 : BitVec 32) : Fin 2 → Nat :=
  let c0_i32_1010 : BitVec 32 := 0#32
  ![v1084.toNat, 0]

def k0_off95 (v1094 : BitVec 32) : Fin 2 → Nat :=
  let c0_i32_1021 : BitVec 32 := 0#32
  ![v1094.toNat, 0]

def k0_off96 (v1104 : BitVec 32) : Fin 2 → Nat :=
  let c0_i32_1032 : BitVec 32 := 0#32
  ![v1104.toNat, 0]

def k0_off97 (v1114 : BitVec 32) : Fin 2 → Nat :=
  let c0_i32_1043 : BitVec 32 := 0#32
  ![v1114.toNat, 0]

def k0_off98 (v1124 : BitVec 32) : Fin 2 → Nat :=
  let c0_i32_1054 : BitVec 32 := 0#32
  ![v1124.toNat, 0]

def k0_off99 (v1134 : BitVec 32) : Fin 2 → Nat :=
  let c0_i32_1065 : BitVec 32 := 0#32
  ![v1134.toNat, 0]

def k0_off100 (v1144 : BitVec 32) : Fin 2 → Nat :=
  let c0_i32_1076 : BitVec 32 := 0#32
  ![v1144.toNat, 0]

def k0_off101 (v1154 : BitVec 32) : Fin 2 → Nat :=
  let c0_i32_1087 : BitVec 32 := 0#32
  ![v1154.toNat, 0]

def k0_off102 (v1164 : BitVec 32) : Fin 2 → Nat :=
  let c0_i32_1098 : BitVec 32 := 0#32
  ![v1164.toNat, 0]

def k0_off103 (v1174 : BitVec 32) : Fin 2 → Nat :=
  let c0_i32_1109 : BitVec 32 := 0#32
  ![v1174.toNat, 0]

def k0_off104 (k0_t1 : Fin k0_t1_loop.trips) : Fin 2 → Nat :=
  let c2_i32_727 : BitVec 32 := 2#32
  let c0_i32_2 : BitVec 32 := 0#32
  let c1_i32 : BitVec 32 := 1#32
  let arg25 : BitVec 32 := Scf.iv c0_i32_2 c1_i32 k0_t1
  let v791 : BitVec 32 := Scalar.muli c2_i32_727 arg25
  let c1_i32_728 : BitVec 32 := 1#32
  let v792 : BitVec 32 := Scalar.addi v791 c1_i32_728
  let c64_i32_1115 : BitVec 32 := 64#32
  let v1183 : BitVec 32 := Scalar.muli v792 c64_i32_1115
  let c32_i32_1116 : BitVec 32 := 32#32
  let v1184 : BitVec 32 := Scalar.addi v1183 c32_i32_1116
  let c0_i32_1118 : BitVec 32 := 0#32
  let v1186 : BitVec 1 := Scalar.cmpi .sgt v1184 c0_i32_1118
  let v1187 : BitVec 32 := Scalar.extui v1186
  let c0_i32_1119 : BitVec 32 := 0#32
  let v1188 : BitVec 1 := Scalar.cmpi .slt v1184 c0_i32_1119
  let v1189 : BitVec 32 := Scalar.extui v1188
  let v1190 : BitVec 32 := Scalar.subi v1187 v1189
  let c128_i32_1117 : BitVec 32 := 128#32
  let c0_i32_1120 : BitVec 32 := 0#32
  let v1191 : BitVec 1 := Scalar.cmpi .sgt c128_i32_1117 c0_i32_1120
  let v1192 : BitVec 32 := Scalar.extui v1191
  let c0_i32_1121 : BitVec 32 := 0#32
  let v1193 : BitVec 1 := Scalar.cmpi .slt c128_i32_1117 c0_i32_1121
  let v1194 : BitVec 32 := Scalar.extui v1193
  let v1195 : BitVec 32 := Scalar.subi v1192 v1194
  let v1196 : BitVec 1 := Scalar.cmpi .ne v1190 v1195
  let v1197 : BitVec 32 := Scalar.remsi v1184 c128_i32_1117
  let c0_i32_1122 : BitVec 32 := 0#32
  let v1198 : BitVec 1 := Scalar.cmpi .ne v1197 c0_i32_1122
  let v1199 : BitVec 1 := Scalar.andi v1196 v1198
  let v1185 : BitVec 32 := Scalar.divsi v1184 c128_i32_1117
  let c1_i32_1123 : BitVec 32 := 1#32
  let v1200 : BitVec 32 := Scalar.subi v1185 c1_i32_1123
  let v1201 : BitVec 32 := Scalar.select v1199 v1200 v1185
  let v1214 : Index := Scalar.indexCast v1201
  let c64_i32_1124 : BitVec 32 := 64#32
  let v1202 : BitVec 32 := Scalar.muli v792 c64_i32_1124
  let c32_i32_1125 : BitVec 32 := 32#32
  let v1203 : BitVec 32 := Scalar.addi v1202 c32_i32_1125
  let c128_i32_1126 : BitVec 32 := 128#32
  let c0_i32_1127 : BitVec 32 := 0#32
  let v1204 : BitVec 1 := Scalar.cmpi .eq c128_i32_1126 c0_i32_1127
  let c1_i32_1128 : BitVec 32 := 1#32
  let v1205 : BitVec 32 := Scalar.select v1204 c1_i32_1128 c128_i32_1126
  let v1206 : BitVec 32 := Scalar.remsi v1203 v1205
  let c0_i32_1130 : BitVec 32 := 0#32
  let v1208 : BitVec 1 := Scalar.cmpi .slt v1206 c0_i32_1130
  let c0_i32_1131 : BitVec 32 := 0#32
  let v1209 : BitVec 1 := Scalar.cmpi .slt v1205 c0_i32_1131
  let v1210 : BitVec 1 := Scalar.xori v1208 v1209
  let c0_i32_1129 : BitVec 32 := 0#32
  let v1207 : BitVec 1 := Scalar.cmpi .ne v1206 c0_i32_1129
  let v1211 : BitVec 1 := Scalar.andi v1210 v1207
  let v1212 : BitVec 32 := Scalar.addi v1206 v1205
  let v1213 : BitVec 32 := Scalar.select v1211 v1212 v1206
  let v1215 : Index := Scalar.indexCast v1213
  ![v1214.toNat, v1215.toNat]
def k0_off105 (v1219 : BitVec 32) : Fin 2 → Nat :=
  let c0_i32_1137 : BitVec 32 := 0#32
  ![v1219.toNat, 0]

def k0_off106 (v1229 : BitVec 32) : Fin 2 → Nat :=
  let c0_i32_1148 : BitVec 32 := 0#32
  ![v1229.toNat, 0]

def k0_off107 (v1239 : BitVec 32) : Fin 2 → Nat :=
  let c0_i32_1159 : BitVec 32 := 0#32
  ![v1239.toNat, 0]

def k0_off108 (v1249 : BitVec 32) : Fin 2 → Nat :=
  let c0_i32_1170 : BitVec 32 := 0#32
  ![v1249.toNat, 0]

def k0_off109 (v1259 : BitVec 32) : Fin 2 → Nat :=
  let c0_i32_1181 : BitVec 32 := 0#32
  ![v1259.toNat, 0]

def k0_off110 (v1269 : BitVec 32) : Fin 2 → Nat :=
  let c0_i32_1192 : BitVec 32 := 0#32
  ![v1269.toNat, 0]

def k0_off111 (v1279 : BitVec 32) : Fin 2 → Nat :=
  let c0_i32_1203 : BitVec 32 := 0#32
  ![v1279.toNat, 0]

def k0_off112 (v1289 : BitVec 32) : Fin 2 → Nat :=
  let c0_i32_1214 : BitVec 32 := 0#32
  ![v1289.toNat, 0]

def k0_off113 (v1299 : BitVec 32) : Fin 2 → Nat :=
  let c0_i32_1225 : BitVec 32 := 0#32
  ![v1299.toNat, 0]

def k0_off114 (v1309 : BitVec 32) : Fin 2 → Nat :=
  let c0_i32_1236 : BitVec 32 := 0#32
  ![v1309.toNat, 0]

def k0_off115 (v1319 : BitVec 32) : Fin 2 → Nat :=
  let c0_i32_1247 : BitVec 32 := 0#32
  ![v1319.toNat, 0]

def k0_off116 (v1329 : BitVec 32) : Fin 2 → Nat :=
  let c0_i32_1258 : BitVec 32 := 0#32
  ![v1329.toNat, 0]

def k0_off117 (v1339 : BitVec 32) : Fin 2 → Nat :=
  let c0_i32_1269 : BitVec 32 := 0#32
  ![v1339.toNat, 0]

def k0_off118 (v1349 : BitVec 32) : Fin 2 → Nat :=
  let c0_i32_1280 : BitVec 32 := 0#32
  ![v1349.toNat, 0]

def k0_off119 (v1359 : BitVec 32) : Fin 2 → Nat :=
  let c0_i32_1291 : BitVec 32 := 0#32
  ![v1359.toNat, 0]

def k0_off120 (v1369 : BitVec 32) : Fin 2 → Nat :=
  let c0_i32_1302 : BitVec 32 := 0#32
  ![v1369.toNat, 0]

def k0_off121 (k0_t1 : Fin k0_t1_loop.trips) : Fin 2 → Nat :=
  let c2_i32_727 : BitVec 32 := 2#32
  let c0_i32_2 : BitVec 32 := 0#32
  let c1_i32 : BitVec 32 := 1#32
  let arg25 : BitVec 32 := Scf.iv c0_i32_2 c1_i32 k0_t1
  let v791 : BitVec 32 := Scalar.muli c2_i32_727 arg25
  let c1_i32_728 : BitVec 32 := 1#32
  let v792 : BitVec 32 := Scalar.addi v791 c1_i32_728
  let c64_i32_1308 : BitVec 32 := 64#32
  let v1378 : BitVec 32 := Scalar.muli v792 c64_i32_1308
  let c48_i32_1309 : BitVec 32 := 48#32
  let v1379 : BitVec 32 := Scalar.addi v1378 c48_i32_1309
  let c0_i32_1311 : BitVec 32 := 0#32
  let v1381 : BitVec 1 := Scalar.cmpi .sgt v1379 c0_i32_1311
  let v1382 : BitVec 32 := Scalar.extui v1381
  let c0_i32_1312 : BitVec 32 := 0#32
  let v1383 : BitVec 1 := Scalar.cmpi .slt v1379 c0_i32_1312
  let v1384 : BitVec 32 := Scalar.extui v1383
  let v1385 : BitVec 32 := Scalar.subi v1382 v1384
  let c128_i32_1310 : BitVec 32 := 128#32
  let c0_i32_1313 : BitVec 32 := 0#32
  let v1386 : BitVec 1 := Scalar.cmpi .sgt c128_i32_1310 c0_i32_1313
  let v1387 : BitVec 32 := Scalar.extui v1386
  let c0_i32_1314 : BitVec 32 := 0#32
  let v1388 : BitVec 1 := Scalar.cmpi .slt c128_i32_1310 c0_i32_1314
  let v1389 : BitVec 32 := Scalar.extui v1388
  let v1390 : BitVec 32 := Scalar.subi v1387 v1389
  let v1391 : BitVec 1 := Scalar.cmpi .ne v1385 v1390
  let v1392 : BitVec 32 := Scalar.remsi v1379 c128_i32_1310
  let c0_i32_1315 : BitVec 32 := 0#32
  let v1393 : BitVec 1 := Scalar.cmpi .ne v1392 c0_i32_1315
  let v1394 : BitVec 1 := Scalar.andi v1391 v1393
  let v1380 : BitVec 32 := Scalar.divsi v1379 c128_i32_1310
  let c1_i32_1316 : BitVec 32 := 1#32
  let v1395 : BitVec 32 := Scalar.subi v1380 c1_i32_1316
  let v1396 : BitVec 32 := Scalar.select v1394 v1395 v1380
  let v1409 : Index := Scalar.indexCast v1396
  let c64_i32_1317 : BitVec 32 := 64#32
  let v1397 : BitVec 32 := Scalar.muli v792 c64_i32_1317
  let c48_i32_1318 : BitVec 32 := 48#32
  let v1398 : BitVec 32 := Scalar.addi v1397 c48_i32_1318
  let c128_i32_1319 : BitVec 32 := 128#32
  let c0_i32_1320 : BitVec 32 := 0#32
  let v1399 : BitVec 1 := Scalar.cmpi .eq c128_i32_1319 c0_i32_1320
  let c1_i32_1321 : BitVec 32 := 1#32
  let v1400 : BitVec 32 := Scalar.select v1399 c1_i32_1321 c128_i32_1319
  let v1401 : BitVec 32 := Scalar.remsi v1398 v1400
  let c0_i32_1323 : BitVec 32 := 0#32
  let v1403 : BitVec 1 := Scalar.cmpi .slt v1401 c0_i32_1323
  let c0_i32_1324 : BitVec 32 := 0#32
  let v1404 : BitVec 1 := Scalar.cmpi .slt v1400 c0_i32_1324
  let v1405 : BitVec 1 := Scalar.xori v1403 v1404
  let c0_i32_1322 : BitVec 32 := 0#32
  let v1402 : BitVec 1 := Scalar.cmpi .ne v1401 c0_i32_1322
  let v1406 : BitVec 1 := Scalar.andi v1405 v1402
  let v1407 : BitVec 32 := Scalar.addi v1401 v1400
  let v1408 : BitVec 32 := Scalar.select v1406 v1407 v1401
  let v1410 : Index := Scalar.indexCast v1408
  ![v1409.toNat, v1410.toNat]
def k0_off122 (v1414 : BitVec 32) : Fin 2 → Nat :=
  let c0_i32_1330 : BitVec 32 := 0#32
  ![v1414.toNat, 0]

def k0_off123 (v1424 : BitVec 32) : Fin 2 → Nat :=
  let c0_i32_1341 : BitVec 32 := 0#32
  ![v1424.toNat, 0]

def k0_off124 (v1434 : BitVec 32) : Fin 2 → Nat :=
  let c0_i32_1352 : BitVec 32 := 0#32
  ![v1434.toNat, 0]

def k0_off125 (v1444 : BitVec 32) : Fin 2 → Nat :=
  let c0_i32_1363 : BitVec 32 := 0#32
  ![v1444.toNat, 0]

def k0_off126 (v1454 : BitVec 32) : Fin 2 → Nat :=
  let c0_i32_1374 : BitVec 32 := 0#32
  ![v1454.toNat, 0]

def k0_off127 (v1464 : BitVec 32) : Fin 2 → Nat :=
  let c0_i32_1385 : BitVec 32 := 0#32
  ![v1464.toNat, 0]

def k0_off128 (v1474 : BitVec 32) : Fin 2 → Nat :=
  let c0_i32_1396 : BitVec 32 := 0#32
  ![v1474.toNat, 0]

def k0_off129 (v1484 : BitVec 32) : Fin 2 → Nat :=
  let c0_i32_1407 : BitVec 32 := 0#32
  ![v1484.toNat, 0]

def k0_off130 (v1494 : BitVec 32) : Fin 2 → Nat :=
  let c0_i32_1418 : BitVec 32 := 0#32
  ![v1494.toNat, 0]

def k0_off131 (v1504 : BitVec 32) : Fin 2 → Nat :=
  let c0_i32_1429 : BitVec 32 := 0#32
  ![v1504.toNat, 0]

def k0_off132 (v1514 : BitVec 32) : Fin 2 → Nat :=
  let c0_i32_1440 : BitVec 32 := 0#32
  ![v1514.toNat, 0]

def k0_off133 (v1524 : BitVec 32) : Fin 2 → Nat :=
  let c0_i32_1451 : BitVec 32 := 0#32
  ![v1524.toNat, 0]

def k0_off134 (v1534 : BitVec 32) : Fin 2 → Nat :=
  let c0_i32_1462 : BitVec 32 := 0#32
  ![v1534.toNat, 0]

def k0_off135 (v1544 : BitVec 32) : Fin 2 → Nat :=
  let c0_i32_1473 : BitVec 32 := 0#32
  ![v1544.toNat, 0]

def k0_off136 (v1554 : BitVec 32) : Fin 2 → Nat :=
  let c0_i32_1484 : BitVec 32 := 0#32
  ![v1554.toNat, 0]

def k0_off137 (v1564 : BitVec 32) : Fin 2 → Nat :=
  let c0_i32_1495 : BitVec 32 := 0#32
  ![v1564.toNat, 0]

def k0_chk128 (v1564 : BitVec 32) : Prop :=
  (∀ a, (k0_off137 v1564) a + S1x64.size a ≤ S1000000x64.size a)
instance k0_chk128.dec : ∀ (v1564 : BitVec 32), Decidable (k0_chk128 v1564) := fun v1564 => decidable_of_iff' _ (Iff.of_eq (k0_chk128.eq_1 v1564))
theorem k0_off137_inb : ∀ (v1564 : BitVec 32) (k0_hw128 : k0_chk128 v1564), ∀ a, (k0_off137 v1564) a + S1x64.size a ≤ S1000000x64.size a := fun v1564 k0_hw128 => k0_hw128

def k0_off138 (v47 : BitVec 32) : Fin 2 → Nat :=
  let c0_i32_1508 : BitVec 32 := 0#32
  ![v47.toNat, 0]

def k0_chk1 (v47 : BitVec 32) : Prop :=
  (∀ a, (k0_off3 v47) a + S1x64.size a ≤ S1000000x64.size a) ∧
  (∀ a, (k0_off138 v47) a + S1x64.size a ≤ S1000000x64.size a)
instance k0_chk1.dec : ∀ (v47 : BitVec 32), Decidable (k0_chk1 v47) := fun v47 => decidable_of_iff' _ (Iff.of_eq (k0_chk1.eq_1 v47))
theorem k0_off3_inb : ∀ (v47 : BitVec 32) (k0_hw1 : k0_chk1 v47), ∀ a, (k0_off3 v47) a + S1x64.size a ≤ S1000000x64.size a := fun v47 k0_hw1 => k0_hw1.1
theorem k0_off138_inb : ∀ (v47 : BitVec 32) (k0_hw1 : k0_chk1 v47), ∀ a, (k0_off138 v47) a + S1x64.size a ≤ S1000000x64.size a := fun v47 k0_hw1 => k0_hw1.2

def k0_off139 (v57 : BitVec 32) : Fin 2 → Nat :=
  let c0_i32_1519 : BitVec 32 := 0#32
  ![v57.toNat, 0]

def k0_chk2 (v57 : BitVec 32) : Prop :=
  (∀ a, (k0_off4 v57) a + S1x64.size a ≤ S1000000x64.size a) ∧
  (∀ a, (k0_off139 v57) a + S1x64.size a ≤ S1000000x64.size a)
instance k0_chk2.dec : ∀ (v57 : BitVec 32), Decidable (k0_chk2 v57) := fun v57 => decidable_of_iff' _ (Iff.of_eq (k0_chk2.eq_1 v57))
theorem k0_off4_inb : ∀ (v57 : BitVec 32) (k0_hw2 : k0_chk2 v57), ∀ a, (k0_off4 v57) a + S1x64.size a ≤ S1000000x64.size a := fun v57 k0_hw2 => k0_hw2.1
theorem k0_off139_inb : ∀ (v57 : BitVec 32) (k0_hw2 : k0_chk2 v57), ∀ a, (k0_off139 v57) a + S1x64.size a ≤ S1000000x64.size a := fun v57 k0_hw2 => k0_hw2.2

def k0_off140 (v67 : BitVec 32) : Fin 2 → Nat :=
  let c0_i32_1530 : BitVec 32 := 0#32
  ![v67.toNat, 0]

def k0_chk3 (v67 : BitVec 32) : Prop :=
  (∀ a, (k0_off5 v67) a + S1x64.size a ≤ S1000000x64.size a) ∧
  (∀ a, (k0_off140 v67) a + S1x64.size a ≤ S1000000x64.size a)
instance k0_chk3.dec : ∀ (v67 : BitVec 32), Decidable (k0_chk3 v67) := fun v67 => decidable_of_iff' _ (Iff.of_eq (k0_chk3.eq_1 v67))
theorem k0_off5_inb : ∀ (v67 : BitVec 32) (k0_hw3 : k0_chk3 v67), ∀ a, (k0_off5 v67) a + S1x64.size a ≤ S1000000x64.size a := fun v67 k0_hw3 => k0_hw3.1
theorem k0_off140_inb : ∀ (v67 : BitVec 32) (k0_hw3 : k0_chk3 v67), ∀ a, (k0_off140 v67) a + S1x64.size a ≤ S1000000x64.size a := fun v67 k0_hw3 => k0_hw3.2

def k0_off141 (v77 : BitVec 32) : Fin 2 → Nat :=
  let c0_i32_1541 : BitVec 32 := 0#32
  ![v77.toNat, 0]

def k0_chk4 (v77 : BitVec 32) : Prop :=
  (∀ a, (k0_off6 v77) a + S1x64.size a ≤ S1000000x64.size a) ∧
  (∀ a, (k0_off141 v77) a + S1x64.size a ≤ S1000000x64.size a)
instance k0_chk4.dec : ∀ (v77 : BitVec 32), Decidable (k0_chk4 v77) := fun v77 => decidable_of_iff' _ (Iff.of_eq (k0_chk4.eq_1 v77))
theorem k0_off6_inb : ∀ (v77 : BitVec 32) (k0_hw4 : k0_chk4 v77), ∀ a, (k0_off6 v77) a + S1x64.size a ≤ S1000000x64.size a := fun v77 k0_hw4 => k0_hw4.1
theorem k0_off141_inb : ∀ (v77 : BitVec 32) (k0_hw4 : k0_chk4 v77), ∀ a, (k0_off141 v77) a + S1x64.size a ≤ S1000000x64.size a := fun v77 k0_hw4 => k0_hw4.2

def k0_off142 (v87 : BitVec 32) : Fin 2 → Nat :=
  let c0_i32_1552 : BitVec 32 := 0#32
  ![v87.toNat, 0]

def k0_chk5 (v87 : BitVec 32) : Prop :=
  (∀ a, (k0_off7 v87) a + S1x64.size a ≤ S1000000x64.size a) ∧
  (∀ a, (k0_off142 v87) a + S1x64.size a ≤ S1000000x64.size a)
instance k0_chk5.dec : ∀ (v87 : BitVec 32), Decidable (k0_chk5 v87) := fun v87 => decidable_of_iff' _ (Iff.of_eq (k0_chk5.eq_1 v87))
theorem k0_off7_inb : ∀ (v87 : BitVec 32) (k0_hw5 : k0_chk5 v87), ∀ a, (k0_off7 v87) a + S1x64.size a ≤ S1000000x64.size a := fun v87 k0_hw5 => k0_hw5.1
theorem k0_off142_inb : ∀ (v87 : BitVec 32) (k0_hw5 : k0_chk5 v87), ∀ a, (k0_off142 v87) a + S1x64.size a ≤ S1000000x64.size a := fun v87 k0_hw5 => k0_hw5.2

def k0_off143 (v97 : BitVec 32) : Fin 2 → Nat :=
  let c0_i32_1563 : BitVec 32 := 0#32
  ![v97.toNat, 0]

def k0_chk6 (v97 : BitVec 32) : Prop :=
  (∀ a, (k0_off8 v97) a + S1x64.size a ≤ S1000000x64.size a) ∧
  (∀ a, (k0_off143 v97) a + S1x64.size a ≤ S1000000x64.size a)
instance k0_chk6.dec : ∀ (v97 : BitVec 32), Decidable (k0_chk6 v97) := fun v97 => decidable_of_iff' _ (Iff.of_eq (k0_chk6.eq_1 v97))
theorem k0_off8_inb : ∀ (v97 : BitVec 32) (k0_hw6 : k0_chk6 v97), ∀ a, (k0_off8 v97) a + S1x64.size a ≤ S1000000x64.size a := fun v97 k0_hw6 => k0_hw6.1
theorem k0_off143_inb : ∀ (v97 : BitVec 32) (k0_hw6 : k0_chk6 v97), ∀ a, (k0_off143 v97) a + S1x64.size a ≤ S1000000x64.size a := fun v97 k0_hw6 => k0_hw6.2

def k0_off144 (v107 : BitVec 32) : Fin 2 → Nat :=
  let c0_i32_1574 : BitVec 32 := 0#32
  ![v107.toNat, 0]

def k0_chk7 (v107 : BitVec 32) : Prop :=
  (∀ a, (k0_off9 v107) a + S1x64.size a ≤ S1000000x64.size a) ∧
  (∀ a, (k0_off144 v107) a + S1x64.size a ≤ S1000000x64.size a)
instance k0_chk7.dec : ∀ (v107 : BitVec 32), Decidable (k0_chk7 v107) := fun v107 => decidable_of_iff' _ (Iff.of_eq (k0_chk7.eq_1 v107))
theorem k0_off9_inb : ∀ (v107 : BitVec 32) (k0_hw7 : k0_chk7 v107), ∀ a, (k0_off9 v107) a + S1x64.size a ≤ S1000000x64.size a := fun v107 k0_hw7 => k0_hw7.1
theorem k0_off144_inb : ∀ (v107 : BitVec 32) (k0_hw7 : k0_chk7 v107), ∀ a, (k0_off144 v107) a + S1x64.size a ≤ S1000000x64.size a := fun v107 k0_hw7 => k0_hw7.2

def k0_off145 (v117 : BitVec 32) : Fin 2 → Nat :=
  let c0_i32_1585 : BitVec 32 := 0#32
  ![v117.toNat, 0]

def k0_chk8 (v117 : BitVec 32) : Prop :=
  (∀ a, (k0_off10 v117) a + S1x64.size a ≤ S1000000x64.size a) ∧
  (∀ a, (k0_off145 v117) a + S1x64.size a ≤ S1000000x64.size a)
instance k0_chk8.dec : ∀ (v117 : BitVec 32), Decidable (k0_chk8 v117) := fun v117 => decidable_of_iff' _ (Iff.of_eq (k0_chk8.eq_1 v117))
theorem k0_off10_inb : ∀ (v117 : BitVec 32) (k0_hw8 : k0_chk8 v117), ∀ a, (k0_off10 v117) a + S1x64.size a ≤ S1000000x64.size a := fun v117 k0_hw8 => k0_hw8.1
theorem k0_off145_inb : ∀ (v117 : BitVec 32) (k0_hw8 : k0_chk8 v117), ∀ a, (k0_off145 v117) a + S1x64.size a ≤ S1000000x64.size a := fun v117 k0_hw8 => k0_hw8.2

def k0_off146 (v127 : BitVec 32) : Fin 2 → Nat :=
  let c0_i32_1596 : BitVec 32 := 0#32
  ![v127.toNat, 0]

def k0_chk9 (v127 : BitVec 32) : Prop :=
  (∀ a, (k0_off11 v127) a + S1x64.size a ≤ S1000000x64.size a) ∧
  (∀ a, (k0_off146 v127) a + S1x64.size a ≤ S1000000x64.size a)
instance k0_chk9.dec : ∀ (v127 : BitVec 32), Decidable (k0_chk9 v127) := fun v127 => decidable_of_iff' _ (Iff.of_eq (k0_chk9.eq_1 v127))
theorem k0_off11_inb : ∀ (v127 : BitVec 32) (k0_hw9 : k0_chk9 v127), ∀ a, (k0_off11 v127) a + S1x64.size a ≤ S1000000x64.size a := fun v127 k0_hw9 => k0_hw9.1
theorem k0_off146_inb : ∀ (v127 : BitVec 32) (k0_hw9 : k0_chk9 v127), ∀ a, (k0_off146 v127) a + S1x64.size a ≤ S1000000x64.size a := fun v127 k0_hw9 => k0_hw9.2

def k0_off147 (v137 : BitVec 32) : Fin 2 → Nat :=
  let c0_i32_1607 : BitVec 32 := 0#32
  ![v137.toNat, 0]

def k0_chk10 (v137 : BitVec 32) : Prop :=
  (∀ a, (k0_off12 v137) a + S1x64.size a ≤ S1000000x64.size a) ∧
  (∀ a, (k0_off147 v137) a + S1x64.size a ≤ S1000000x64.size a)
instance k0_chk10.dec : ∀ (v137 : BitVec 32), Decidable (k0_chk10 v137) := fun v137 => decidable_of_iff' _ (Iff.of_eq (k0_chk10.eq_1 v137))
theorem k0_off12_inb : ∀ (v137 : BitVec 32) (k0_hw10 : k0_chk10 v137), ∀ a, (k0_off12 v137) a + S1x64.size a ≤ S1000000x64.size a := fun v137 k0_hw10 => k0_hw10.1
theorem k0_off147_inb : ∀ (v137 : BitVec 32) (k0_hw10 : k0_chk10 v137), ∀ a, (k0_off147 v137) a + S1x64.size a ≤ S1000000x64.size a := fun v137 k0_hw10 => k0_hw10.2

def k0_off148 (v147 : BitVec 32) : Fin 2 → Nat :=
  let c0_i32_1618 : BitVec 32 := 0#32
  ![v147.toNat, 0]

def k0_chk11 (v147 : BitVec 32) : Prop :=
  (∀ a, (k0_off13 v147) a + S1x64.size a ≤ S1000000x64.size a) ∧
  (∀ a, (k0_off148 v147) a + S1x64.size a ≤ S1000000x64.size a)
instance k0_chk11.dec : ∀ (v147 : BitVec 32), Decidable (k0_chk11 v147) := fun v147 => decidable_of_iff' _ (Iff.of_eq (k0_chk11.eq_1 v147))
theorem k0_off13_inb : ∀ (v147 : BitVec 32) (k0_hw11 : k0_chk11 v147), ∀ a, (k0_off13 v147) a + S1x64.size a ≤ S1000000x64.size a := fun v147 k0_hw11 => k0_hw11.1
theorem k0_off148_inb : ∀ (v147 : BitVec 32) (k0_hw11 : k0_chk11 v147), ∀ a, (k0_off148 v147) a + S1x64.size a ≤ S1000000x64.size a := fun v147 k0_hw11 => k0_hw11.2

def k0_off149 (v157 : BitVec 32) : Fin 2 → Nat :=
  let c0_i32_1629 : BitVec 32 := 0#32
  ![v157.toNat, 0]

def k0_chk12 (v157 : BitVec 32) : Prop :=
  (∀ a, (k0_off14 v157) a + S1x64.size a ≤ S1000000x64.size a) ∧
  (∀ a, (k0_off149 v157) a + S1x64.size a ≤ S1000000x64.size a)
instance k0_chk12.dec : ∀ (v157 : BitVec 32), Decidable (k0_chk12 v157) := fun v157 => decidable_of_iff' _ (Iff.of_eq (k0_chk12.eq_1 v157))
theorem k0_off14_inb : ∀ (v157 : BitVec 32) (k0_hw12 : k0_chk12 v157), ∀ a, (k0_off14 v157) a + S1x64.size a ≤ S1000000x64.size a := fun v157 k0_hw12 => k0_hw12.1
theorem k0_off149_inb : ∀ (v157 : BitVec 32) (k0_hw12 : k0_chk12 v157), ∀ a, (k0_off149 v157) a + S1x64.size a ≤ S1000000x64.size a := fun v157 k0_hw12 => k0_hw12.2

def k0_off150 (v167 : BitVec 32) : Fin 2 → Nat :=
  let c0_i32_1640 : BitVec 32 := 0#32
  ![v167.toNat, 0]

def k0_chk13 (v167 : BitVec 32) : Prop :=
  (∀ a, (k0_off15 v167) a + S1x64.size a ≤ S1000000x64.size a) ∧
  (∀ a, (k0_off150 v167) a + S1x64.size a ≤ S1000000x64.size a)
instance k0_chk13.dec : ∀ (v167 : BitVec 32), Decidable (k0_chk13 v167) := fun v167 => decidable_of_iff' _ (Iff.of_eq (k0_chk13.eq_1 v167))
theorem k0_off15_inb : ∀ (v167 : BitVec 32) (k0_hw13 : k0_chk13 v167), ∀ a, (k0_off15 v167) a + S1x64.size a ≤ S1000000x64.size a := fun v167 k0_hw13 => k0_hw13.1
theorem k0_off150_inb : ∀ (v167 : BitVec 32) (k0_hw13 : k0_chk13 v167), ∀ a, (k0_off150 v167) a + S1x64.size a ≤ S1000000x64.size a := fun v167 k0_hw13 => k0_hw13.2

def k0_off151 (v177 : BitVec 32) : Fin 2 → Nat :=
  let c0_i32_1651 : BitVec 32 := 0#32
  ![v177.toNat, 0]

def k0_chk14 (v177 : BitVec 32) : Prop :=
  (∀ a, (k0_off16 v177) a + S1x64.size a ≤ S1000000x64.size a) ∧
  (∀ a, (k0_off151 v177) a + S1x64.size a ≤ S1000000x64.size a)
instance k0_chk14.dec : ∀ (v177 : BitVec 32), Decidable (k0_chk14 v177) := fun v177 => decidable_of_iff' _ (Iff.of_eq (k0_chk14.eq_1 v177))
theorem k0_off16_inb : ∀ (v177 : BitVec 32) (k0_hw14 : k0_chk14 v177), ∀ a, (k0_off16 v177) a + S1x64.size a ≤ S1000000x64.size a := fun v177 k0_hw14 => k0_hw14.1
theorem k0_off151_inb : ∀ (v177 : BitVec 32) (k0_hw14 : k0_chk14 v177), ∀ a, (k0_off151 v177) a + S1x64.size a ≤ S1000000x64.size a := fun v177 k0_hw14 => k0_hw14.2

def k0_off152 (v187 : BitVec 32) : Fin 2 → Nat :=
  let c0_i32_1662 : BitVec 32 := 0#32
  ![v187.toNat, 0]

def k0_chk15 (v187 : BitVec 32) : Prop :=
  (∀ a, (k0_off17 v187) a + S1x64.size a ≤ S1000000x64.size a) ∧
  (∀ a, (k0_off152 v187) a + S1x64.size a ≤ S1000000x64.size a)
instance k0_chk15.dec : ∀ (v187 : BitVec 32), Decidable (k0_chk15 v187) := fun v187 => decidable_of_iff' _ (Iff.of_eq (k0_chk15.eq_1 v187))
theorem k0_off17_inb : ∀ (v187 : BitVec 32) (k0_hw15 : k0_chk15 v187), ∀ a, (k0_off17 v187) a + S1x64.size a ≤ S1000000x64.size a := fun v187 k0_hw15 => k0_hw15.1
theorem k0_off152_inb : ∀ (v187 : BitVec 32) (k0_hw15 : k0_chk15 v187), ∀ a, (k0_off152 v187) a + S1x64.size a ≤ S1000000x64.size a := fun v187 k0_hw15 => k0_hw15.2

def k0_off153 (v197 : BitVec 32) : Fin 2 → Nat :=
  let c0_i32_1673 : BitVec 32 := 0#32
  ![v197.toNat, 0]

def k0_chk16 (v197 : BitVec 32) : Prop :=
  (∀ a, (k0_off18 v197) a + S1x64.size a ≤ S1000000x64.size a) ∧
  (∀ a, (k0_off153 v197) a + S1x64.size a ≤ S1000000x64.size a)
instance k0_chk16.dec : ∀ (v197 : BitVec 32), Decidable (k0_chk16 v197) := fun v197 => decidable_of_iff' _ (Iff.of_eq (k0_chk16.eq_1 v197))
theorem k0_off18_inb : ∀ (v197 : BitVec 32) (k0_hw16 : k0_chk16 v197), ∀ a, (k0_off18 v197) a + S1x64.size a ≤ S1000000x64.size a := fun v197 k0_hw16 => k0_hw16.1
theorem k0_off153_inb : ∀ (v197 : BitVec 32) (k0_hw16 : k0_chk16 v197), ∀ a, (k0_off153 v197) a + S1x64.size a ≤ S1000000x64.size a := fun v197 k0_hw16 => k0_hw16.2

def k0_off154 (v242 : BitVec 32) : Fin 2 → Nat :=
  let c0_i32_1684 : BitVec 32 := 0#32
  ![v242.toNat, 0]

def k0_chk17 (v242 : BitVec 32) : Prop :=
  (∀ a, (k0_off20 v242) a + S1x64.size a ≤ S1000000x64.size a) ∧
  (∀ a, (k0_off154 v242) a + S1x64.size a ≤ S1000000x64.size a)
instance k0_chk17.dec : ∀ (v242 : BitVec 32), Decidable (k0_chk17 v242) := fun v242 => decidable_of_iff' _ (Iff.of_eq (k0_chk17.eq_1 v242))
theorem k0_off20_inb : ∀ (v242 : BitVec 32) (k0_hw17 : k0_chk17 v242), ∀ a, (k0_off20 v242) a + S1x64.size a ≤ S1000000x64.size a := fun v242 k0_hw17 => k0_hw17.1
theorem k0_off154_inb : ∀ (v242 : BitVec 32) (k0_hw17 : k0_chk17 v242), ∀ a, (k0_off154 v242) a + S1x64.size a ≤ S1000000x64.size a := fun v242 k0_hw17 => k0_hw17.2

def k0_off155 (v252 : BitVec 32) : Fin 2 → Nat :=
  let c0_i32_1695 : BitVec 32 := 0#32
  ![v252.toNat, 0]

def k0_chk18 (v252 : BitVec 32) : Prop :=
  (∀ a, (k0_off21 v252) a + S1x64.size a ≤ S1000000x64.size a) ∧
  (∀ a, (k0_off155 v252) a + S1x64.size a ≤ S1000000x64.size a)
instance k0_chk18.dec : ∀ (v252 : BitVec 32), Decidable (k0_chk18 v252) := fun v252 => decidable_of_iff' _ (Iff.of_eq (k0_chk18.eq_1 v252))
theorem k0_off21_inb : ∀ (v252 : BitVec 32) (k0_hw18 : k0_chk18 v252), ∀ a, (k0_off21 v252) a + S1x64.size a ≤ S1000000x64.size a := fun v252 k0_hw18 => k0_hw18.1
theorem k0_off155_inb : ∀ (v252 : BitVec 32) (k0_hw18 : k0_chk18 v252), ∀ a, (k0_off155 v252) a + S1x64.size a ≤ S1000000x64.size a := fun v252 k0_hw18 => k0_hw18.2

def k0_off156 (v262 : BitVec 32) : Fin 2 → Nat :=
  let c0_i32_1706 : BitVec 32 := 0#32
  ![v262.toNat, 0]

def k0_chk19 (v262 : BitVec 32) : Prop :=
  (∀ a, (k0_off22 v262) a + S1x64.size a ≤ S1000000x64.size a) ∧
  (∀ a, (k0_off156 v262) a + S1x64.size a ≤ S1000000x64.size a)
instance k0_chk19.dec : ∀ (v262 : BitVec 32), Decidable (k0_chk19 v262) := fun v262 => decidable_of_iff' _ (Iff.of_eq (k0_chk19.eq_1 v262))
theorem k0_off22_inb : ∀ (v262 : BitVec 32) (k0_hw19 : k0_chk19 v262), ∀ a, (k0_off22 v262) a + S1x64.size a ≤ S1000000x64.size a := fun v262 k0_hw19 => k0_hw19.1
theorem k0_off156_inb : ∀ (v262 : BitVec 32) (k0_hw19 : k0_chk19 v262), ∀ a, (k0_off156 v262) a + S1x64.size a ≤ S1000000x64.size a := fun v262 k0_hw19 => k0_hw19.2

def k0_off157 (v272 : BitVec 32) : Fin 2 → Nat :=
  let c0_i32_1717 : BitVec 32 := 0#32
  ![v272.toNat, 0]

def k0_chk20 (v272 : BitVec 32) : Prop :=
  (∀ a, (k0_off23 v272) a + S1x64.size a ≤ S1000000x64.size a) ∧
  (∀ a, (k0_off157 v272) a + S1x64.size a ≤ S1000000x64.size a)
instance k0_chk20.dec : ∀ (v272 : BitVec 32), Decidable (k0_chk20 v272) := fun v272 => decidable_of_iff' _ (Iff.of_eq (k0_chk20.eq_1 v272))
theorem k0_off23_inb : ∀ (v272 : BitVec 32) (k0_hw20 : k0_chk20 v272), ∀ a, (k0_off23 v272) a + S1x64.size a ≤ S1000000x64.size a := fun v272 k0_hw20 => k0_hw20.1
theorem k0_off157_inb : ∀ (v272 : BitVec 32) (k0_hw20 : k0_chk20 v272), ∀ a, (k0_off157 v272) a + S1x64.size a ≤ S1000000x64.size a := fun v272 k0_hw20 => k0_hw20.2

def k0_off158 (v282 : BitVec 32) : Fin 2 → Nat :=
  let c0_i32_1728 : BitVec 32 := 0#32
  ![v282.toNat, 0]

def k0_chk21 (v282 : BitVec 32) : Prop :=
  (∀ a, (k0_off24 v282) a + S1x64.size a ≤ S1000000x64.size a) ∧
  (∀ a, (k0_off158 v282) a + S1x64.size a ≤ S1000000x64.size a)
instance k0_chk21.dec : ∀ (v282 : BitVec 32), Decidable (k0_chk21 v282) := fun v282 => decidable_of_iff' _ (Iff.of_eq (k0_chk21.eq_1 v282))
theorem k0_off24_inb : ∀ (v282 : BitVec 32) (k0_hw21 : k0_chk21 v282), ∀ a, (k0_off24 v282) a + S1x64.size a ≤ S1000000x64.size a := fun v282 k0_hw21 => k0_hw21.1
theorem k0_off158_inb : ∀ (v282 : BitVec 32) (k0_hw21 : k0_chk21 v282), ∀ a, (k0_off158 v282) a + S1x64.size a ≤ S1000000x64.size a := fun v282 k0_hw21 => k0_hw21.2

def k0_off159 (v292 : BitVec 32) : Fin 2 → Nat :=
  let c0_i32_1739 : BitVec 32 := 0#32
  ![v292.toNat, 0]

def k0_chk22 (v292 : BitVec 32) : Prop :=
  (∀ a, (k0_off25 v292) a + S1x64.size a ≤ S1000000x64.size a) ∧
  (∀ a, (k0_off159 v292) a + S1x64.size a ≤ S1000000x64.size a)
instance k0_chk22.dec : ∀ (v292 : BitVec 32), Decidable (k0_chk22 v292) := fun v292 => decidable_of_iff' _ (Iff.of_eq (k0_chk22.eq_1 v292))
theorem k0_off25_inb : ∀ (v292 : BitVec 32) (k0_hw22 : k0_chk22 v292), ∀ a, (k0_off25 v292) a + S1x64.size a ≤ S1000000x64.size a := fun v292 k0_hw22 => k0_hw22.1
theorem k0_off159_inb : ∀ (v292 : BitVec 32) (k0_hw22 : k0_chk22 v292), ∀ a, (k0_off159 v292) a + S1x64.size a ≤ S1000000x64.size a := fun v292 k0_hw22 => k0_hw22.2

def k0_off160 (v302 : BitVec 32) : Fin 2 → Nat :=
  let c0_i32_1750 : BitVec 32 := 0#32
  ![v302.toNat, 0]

def k0_chk23 (v302 : BitVec 32) : Prop :=
  (∀ a, (k0_off26 v302) a + S1x64.size a ≤ S1000000x64.size a) ∧
  (∀ a, (k0_off160 v302) a + S1x64.size a ≤ S1000000x64.size a)
instance k0_chk23.dec : ∀ (v302 : BitVec 32), Decidable (k0_chk23 v302) := fun v302 => decidable_of_iff' _ (Iff.of_eq (k0_chk23.eq_1 v302))
theorem k0_off26_inb : ∀ (v302 : BitVec 32) (k0_hw23 : k0_chk23 v302), ∀ a, (k0_off26 v302) a + S1x64.size a ≤ S1000000x64.size a := fun v302 k0_hw23 => k0_hw23.1
theorem k0_off160_inb : ∀ (v302 : BitVec 32) (k0_hw23 : k0_chk23 v302), ∀ a, (k0_off160 v302) a + S1x64.size a ≤ S1000000x64.size a := fun v302 k0_hw23 => k0_hw23.2

def k0_off161 (v312 : BitVec 32) : Fin 2 → Nat :=
  let c0_i32_1761 : BitVec 32 := 0#32
  ![v312.toNat, 0]

def k0_chk24 (v312 : BitVec 32) : Prop :=
  (∀ a, (k0_off27 v312) a + S1x64.size a ≤ S1000000x64.size a) ∧
  (∀ a, (k0_off161 v312) a + S1x64.size a ≤ S1000000x64.size a)
instance k0_chk24.dec : ∀ (v312 : BitVec 32), Decidable (k0_chk24 v312) := fun v312 => decidable_of_iff' _ (Iff.of_eq (k0_chk24.eq_1 v312))
theorem k0_off27_inb : ∀ (v312 : BitVec 32) (k0_hw24 : k0_chk24 v312), ∀ a, (k0_off27 v312) a + S1x64.size a ≤ S1000000x64.size a := fun v312 k0_hw24 => k0_hw24.1
theorem k0_off161_inb : ∀ (v312 : BitVec 32) (k0_hw24 : k0_chk24 v312), ∀ a, (k0_off161 v312) a + S1x64.size a ≤ S1000000x64.size a := fun v312 k0_hw24 => k0_hw24.2

def k0_off162 (v322 : BitVec 32) : Fin 2 → Nat :=
  let c0_i32_1772 : BitVec 32 := 0#32
  ![v322.toNat, 0]

def k0_chk25 (v322 : BitVec 32) : Prop :=
  (∀ a, (k0_off28 v322) a + S1x64.size a ≤ S1000000x64.size a) ∧
  (∀ a, (k0_off162 v322) a + S1x64.size a ≤ S1000000x64.size a)
instance k0_chk25.dec : ∀ (v322 : BitVec 32), Decidable (k0_chk25 v322) := fun v322 => decidable_of_iff' _ (Iff.of_eq (k0_chk25.eq_1 v322))
theorem k0_off28_inb : ∀ (v322 : BitVec 32) (k0_hw25 : k0_chk25 v322), ∀ a, (k0_off28 v322) a + S1x64.size a ≤ S1000000x64.size a := fun v322 k0_hw25 => k0_hw25.1
theorem k0_off162_inb : ∀ (v322 : BitVec 32) (k0_hw25 : k0_chk25 v322), ∀ a, (k0_off162 v322) a + S1x64.size a ≤ S1000000x64.size a := fun v322 k0_hw25 => k0_hw25.2

def k0_off163 (v332 : BitVec 32) : Fin 2 → Nat :=
  let c0_i32_1783 : BitVec 32 := 0#32
  ![v332.toNat, 0]

def k0_chk26 (v332 : BitVec 32) : Prop :=
  (∀ a, (k0_off29 v332) a + S1x64.size a ≤ S1000000x64.size a) ∧
  (∀ a, (k0_off163 v332) a + S1x64.size a ≤ S1000000x64.size a)
instance k0_chk26.dec : ∀ (v332 : BitVec 32), Decidable (k0_chk26 v332) := fun v332 => decidable_of_iff' _ (Iff.of_eq (k0_chk26.eq_1 v332))
theorem k0_off29_inb : ∀ (v332 : BitVec 32) (k0_hw26 : k0_chk26 v332), ∀ a, (k0_off29 v332) a + S1x64.size a ≤ S1000000x64.size a := fun v332 k0_hw26 => k0_hw26.1
theorem k0_off163_inb : ∀ (v332 : BitVec 32) (k0_hw26 : k0_chk26 v332), ∀ a, (k0_off163 v332) a + S1x64.size a ≤ S1000000x64.size a := fun v332 k0_hw26 => k0_hw26.2

def k0_off164 (v342 : BitVec 32) : Fin 2 → Nat :=
  let c0_i32_1794 : BitVec 32 := 0#32
  ![v342.toNat, 0]

def k0_chk27 (v342 : BitVec 32) : Prop :=
  (∀ a, (k0_off30 v342) a + S1x64.size a ≤ S1000000x64.size a) ∧
  (∀ a, (k0_off164 v342) a + S1x64.size a ≤ S1000000x64.size a)
instance k0_chk27.dec : ∀ (v342 : BitVec 32), Decidable (k0_chk27 v342) := fun v342 => decidable_of_iff' _ (Iff.of_eq (k0_chk27.eq_1 v342))
theorem k0_off30_inb : ∀ (v342 : BitVec 32) (k0_hw27 : k0_chk27 v342), ∀ a, (k0_off30 v342) a + S1x64.size a ≤ S1000000x64.size a := fun v342 k0_hw27 => k0_hw27.1
theorem k0_off164_inb : ∀ (v342 : BitVec 32) (k0_hw27 : k0_chk27 v342), ∀ a, (k0_off164 v342) a + S1x64.size a ≤ S1000000x64.size a := fun v342 k0_hw27 => k0_hw27.2

def k0_off165 (v352 : BitVec 32) : Fin 2 → Nat :=
  let c0_i32_1805 : BitVec 32 := 0#32
  ![v352.toNat, 0]

def k0_chk28 (v352 : BitVec 32) : Prop :=
  (∀ a, (k0_off31 v352) a + S1x64.size a ≤ S1000000x64.size a) ∧
  (∀ a, (k0_off165 v352) a + S1x64.size a ≤ S1000000x64.size a)
instance k0_chk28.dec : ∀ (v352 : BitVec 32), Decidable (k0_chk28 v352) := fun v352 => decidable_of_iff' _ (Iff.of_eq (k0_chk28.eq_1 v352))
theorem k0_off31_inb : ∀ (v352 : BitVec 32) (k0_hw28 : k0_chk28 v352), ∀ a, (k0_off31 v352) a + S1x64.size a ≤ S1000000x64.size a := fun v352 k0_hw28 => k0_hw28.1
theorem k0_off165_inb : ∀ (v352 : BitVec 32) (k0_hw28 : k0_chk28 v352), ∀ a, (k0_off165 v352) a + S1x64.size a ≤ S1000000x64.size a := fun v352 k0_hw28 => k0_hw28.2

def k0_off166 (v362 : BitVec 32) : Fin 2 → Nat :=
  let c0_i32_1816 : BitVec 32 := 0#32
  ![v362.toNat, 0]

def k0_chk29 (v362 : BitVec 32) : Prop :=
  (∀ a, (k0_off32 v362) a + S1x64.size a ≤ S1000000x64.size a) ∧
  (∀ a, (k0_off166 v362) a + S1x64.size a ≤ S1000000x64.size a)
instance k0_chk29.dec : ∀ (v362 : BitVec 32), Decidable (k0_chk29 v362) := fun v362 => decidable_of_iff' _ (Iff.of_eq (k0_chk29.eq_1 v362))
theorem k0_off32_inb : ∀ (v362 : BitVec 32) (k0_hw29 : k0_chk29 v362), ∀ a, (k0_off32 v362) a + S1x64.size a ≤ S1000000x64.size a := fun v362 k0_hw29 => k0_hw29.1
theorem k0_off166_inb : ∀ (v362 : BitVec 32) (k0_hw29 : k0_chk29 v362), ∀ a, (k0_off166 v362) a + S1x64.size a ≤ S1000000x64.size a := fun v362 k0_hw29 => k0_hw29.2

def k0_off167 (v372 : BitVec 32) : Fin 2 → Nat :=
  let c0_i32_1827 : BitVec 32 := 0#32
  ![v372.toNat, 0]

def k0_chk30 (v372 : BitVec 32) : Prop :=
  (∀ a, (k0_off33 v372) a + S1x64.size a ≤ S1000000x64.size a) ∧
  (∀ a, (k0_off167 v372) a + S1x64.size a ≤ S1000000x64.size a)
instance k0_chk30.dec : ∀ (v372 : BitVec 32), Decidable (k0_chk30 v372) := fun v372 => decidable_of_iff' _ (Iff.of_eq (k0_chk30.eq_1 v372))
theorem k0_off33_inb : ∀ (v372 : BitVec 32) (k0_hw30 : k0_chk30 v372), ∀ a, (k0_off33 v372) a + S1x64.size a ≤ S1000000x64.size a := fun v372 k0_hw30 => k0_hw30.1
theorem k0_off167_inb : ∀ (v372 : BitVec 32) (k0_hw30 : k0_chk30 v372), ∀ a, (k0_off167 v372) a + S1x64.size a ≤ S1000000x64.size a := fun v372 k0_hw30 => k0_hw30.2

def k0_off168 (v382 : BitVec 32) : Fin 2 → Nat :=
  let c0_i32_1838 : BitVec 32 := 0#32
  ![v382.toNat, 0]

def k0_chk31 (v382 : BitVec 32) : Prop :=
  (∀ a, (k0_off34 v382) a + S1x64.size a ≤ S1000000x64.size a) ∧
  (∀ a, (k0_off168 v382) a + S1x64.size a ≤ S1000000x64.size a)
instance k0_chk31.dec : ∀ (v382 : BitVec 32), Decidable (k0_chk31 v382) := fun v382 => decidable_of_iff' _ (Iff.of_eq (k0_chk31.eq_1 v382))
theorem k0_off34_inb : ∀ (v382 : BitVec 32) (k0_hw31 : k0_chk31 v382), ∀ a, (k0_off34 v382) a + S1x64.size a ≤ S1000000x64.size a := fun v382 k0_hw31 => k0_hw31.1
theorem k0_off168_inb : ∀ (v382 : BitVec 32) (k0_hw31 : k0_chk31 v382), ∀ a, (k0_off168 v382) a + S1x64.size a ≤ S1000000x64.size a := fun v382 k0_hw31 => k0_hw31.2

def k0_off169 (v392 : BitVec 32) : Fin 2 → Nat :=
  let c0_i32_1849 : BitVec 32 := 0#32
  ![v392.toNat, 0]

def k0_chk32 (v392 : BitVec 32) : Prop :=
  (∀ a, (k0_off35 v392) a + S1x64.size a ≤ S1000000x64.size a) ∧
  (∀ a, (k0_off169 v392) a + S1x64.size a ≤ S1000000x64.size a)
instance k0_chk32.dec : ∀ (v392 : BitVec 32), Decidable (k0_chk32 v392) := fun v392 => decidable_of_iff' _ (Iff.of_eq (k0_chk32.eq_1 v392))
theorem k0_off35_inb : ∀ (v392 : BitVec 32) (k0_hw32 : k0_chk32 v392), ∀ a, (k0_off35 v392) a + S1x64.size a ≤ S1000000x64.size a := fun v392 k0_hw32 => k0_hw32.1
theorem k0_off169_inb : ∀ (v392 : BitVec 32) (k0_hw32 : k0_chk32 v392), ∀ a, (k0_off169 v392) a + S1x64.size a ≤ S1000000x64.size a := fun v392 k0_hw32 => k0_hw32.2

def k0_off170 (v437 : BitVec 32) : Fin 2 → Nat :=
  let c0_i32_1860 : BitVec 32 := 0#32
  ![v437.toNat, 0]

def k0_chk33 (v437 : BitVec 32) : Prop :=
  (∀ a, (k0_off37 v437) a + S1x64.size a ≤ S1000000x64.size a) ∧
  (∀ a, (k0_off170 v437) a + S1x64.size a ≤ S1000000x64.size a)
instance k0_chk33.dec : ∀ (v437 : BitVec 32), Decidable (k0_chk33 v437) := fun v437 => decidable_of_iff' _ (Iff.of_eq (k0_chk33.eq_1 v437))
theorem k0_off37_inb : ∀ (v437 : BitVec 32) (k0_hw33 : k0_chk33 v437), ∀ a, (k0_off37 v437) a + S1x64.size a ≤ S1000000x64.size a := fun v437 k0_hw33 => k0_hw33.1
theorem k0_off170_inb : ∀ (v437 : BitVec 32) (k0_hw33 : k0_chk33 v437), ∀ a, (k0_off170 v437) a + S1x64.size a ≤ S1000000x64.size a := fun v437 k0_hw33 => k0_hw33.2

def k0_off171 (v447 : BitVec 32) : Fin 2 → Nat :=
  let c0_i32_1871 : BitVec 32 := 0#32
  ![v447.toNat, 0]

def k0_chk34 (v447 : BitVec 32) : Prop :=
  (∀ a, (k0_off38 v447) a + S1x64.size a ≤ S1000000x64.size a) ∧
  (∀ a, (k0_off171 v447) a + S1x64.size a ≤ S1000000x64.size a)
instance k0_chk34.dec : ∀ (v447 : BitVec 32), Decidable (k0_chk34 v447) := fun v447 => decidable_of_iff' _ (Iff.of_eq (k0_chk34.eq_1 v447))
theorem k0_off38_inb : ∀ (v447 : BitVec 32) (k0_hw34 : k0_chk34 v447), ∀ a, (k0_off38 v447) a + S1x64.size a ≤ S1000000x64.size a := fun v447 k0_hw34 => k0_hw34.1
theorem k0_off171_inb : ∀ (v447 : BitVec 32) (k0_hw34 : k0_chk34 v447), ∀ a, (k0_off171 v447) a + S1x64.size a ≤ S1000000x64.size a := fun v447 k0_hw34 => k0_hw34.2

def k0_off172 (v457 : BitVec 32) : Fin 2 → Nat :=
  let c0_i32_1882 : BitVec 32 := 0#32
  ![v457.toNat, 0]

def k0_chk35 (v457 : BitVec 32) : Prop :=
  (∀ a, (k0_off39 v457) a + S1x64.size a ≤ S1000000x64.size a) ∧
  (∀ a, (k0_off172 v457) a + S1x64.size a ≤ S1000000x64.size a)
instance k0_chk35.dec : ∀ (v457 : BitVec 32), Decidable (k0_chk35 v457) := fun v457 => decidable_of_iff' _ (Iff.of_eq (k0_chk35.eq_1 v457))
theorem k0_off39_inb : ∀ (v457 : BitVec 32) (k0_hw35 : k0_chk35 v457), ∀ a, (k0_off39 v457) a + S1x64.size a ≤ S1000000x64.size a := fun v457 k0_hw35 => k0_hw35.1
theorem k0_off172_inb : ∀ (v457 : BitVec 32) (k0_hw35 : k0_chk35 v457), ∀ a, (k0_off172 v457) a + S1x64.size a ≤ S1000000x64.size a := fun v457 k0_hw35 => k0_hw35.2

def k0_off173 (v467 : BitVec 32) : Fin 2 → Nat :=
  let c0_i32_1893 : BitVec 32 := 0#32
  ![v467.toNat, 0]

def k0_chk36 (v467 : BitVec 32) : Prop :=
  (∀ a, (k0_off40 v467) a + S1x64.size a ≤ S1000000x64.size a) ∧
  (∀ a, (k0_off173 v467) a + S1x64.size a ≤ S1000000x64.size a)
instance k0_chk36.dec : ∀ (v467 : BitVec 32), Decidable (k0_chk36 v467) := fun v467 => decidable_of_iff' _ (Iff.of_eq (k0_chk36.eq_1 v467))
theorem k0_off40_inb : ∀ (v467 : BitVec 32) (k0_hw36 : k0_chk36 v467), ∀ a, (k0_off40 v467) a + S1x64.size a ≤ S1000000x64.size a := fun v467 k0_hw36 => k0_hw36.1
theorem k0_off173_inb : ∀ (v467 : BitVec 32) (k0_hw36 : k0_chk36 v467), ∀ a, (k0_off173 v467) a + S1x64.size a ≤ S1000000x64.size a := fun v467 k0_hw36 => k0_hw36.2

def k0_off174 (v477 : BitVec 32) : Fin 2 → Nat :=
  let c0_i32_1904 : BitVec 32 := 0#32
  ![v477.toNat, 0]

def k0_chk37 (v477 : BitVec 32) : Prop :=
  (∀ a, (k0_off41 v477) a + S1x64.size a ≤ S1000000x64.size a) ∧
  (∀ a, (k0_off174 v477) a + S1x64.size a ≤ S1000000x64.size a)
instance k0_chk37.dec : ∀ (v477 : BitVec 32), Decidable (k0_chk37 v477) := fun v477 => decidable_of_iff' _ (Iff.of_eq (k0_chk37.eq_1 v477))
theorem k0_off41_inb : ∀ (v477 : BitVec 32) (k0_hw37 : k0_chk37 v477), ∀ a, (k0_off41 v477) a + S1x64.size a ≤ S1000000x64.size a := fun v477 k0_hw37 => k0_hw37.1
theorem k0_off174_inb : ∀ (v477 : BitVec 32) (k0_hw37 : k0_chk37 v477), ∀ a, (k0_off174 v477) a + S1x64.size a ≤ S1000000x64.size a := fun v477 k0_hw37 => k0_hw37.2

def k0_off175 (v487 : BitVec 32) : Fin 2 → Nat :=
  let c0_i32_1915 : BitVec 32 := 0#32
  ![v487.toNat, 0]

def k0_chk38 (v487 : BitVec 32) : Prop :=
  (∀ a, (k0_off42 v487) a + S1x64.size a ≤ S1000000x64.size a) ∧
  (∀ a, (k0_off175 v487) a + S1x64.size a ≤ S1000000x64.size a)
instance k0_chk38.dec : ∀ (v487 : BitVec 32), Decidable (k0_chk38 v487) := fun v487 => decidable_of_iff' _ (Iff.of_eq (k0_chk38.eq_1 v487))
theorem k0_off42_inb : ∀ (v487 : BitVec 32) (k0_hw38 : k0_chk38 v487), ∀ a, (k0_off42 v487) a + S1x64.size a ≤ S1000000x64.size a := fun v487 k0_hw38 => k0_hw38.1
theorem k0_off175_inb : ∀ (v487 : BitVec 32) (k0_hw38 : k0_chk38 v487), ∀ a, (k0_off175 v487) a + S1x64.size a ≤ S1000000x64.size a := fun v487 k0_hw38 => k0_hw38.2

def k0_off176 (v497 : BitVec 32) : Fin 2 → Nat :=
  let c0_i32_1926 : BitVec 32 := 0#32
  ![v497.toNat, 0]

def k0_chk39 (v497 : BitVec 32) : Prop :=
  (∀ a, (k0_off43 v497) a + S1x64.size a ≤ S1000000x64.size a) ∧
  (∀ a, (k0_off176 v497) a + S1x64.size a ≤ S1000000x64.size a)
instance k0_chk39.dec : ∀ (v497 : BitVec 32), Decidable (k0_chk39 v497) := fun v497 => decidable_of_iff' _ (Iff.of_eq (k0_chk39.eq_1 v497))
theorem k0_off43_inb : ∀ (v497 : BitVec 32) (k0_hw39 : k0_chk39 v497), ∀ a, (k0_off43 v497) a + S1x64.size a ≤ S1000000x64.size a := fun v497 k0_hw39 => k0_hw39.1
theorem k0_off176_inb : ∀ (v497 : BitVec 32) (k0_hw39 : k0_chk39 v497), ∀ a, (k0_off176 v497) a + S1x64.size a ≤ S1000000x64.size a := fun v497 k0_hw39 => k0_hw39.2

def k0_off177 (v507 : BitVec 32) : Fin 2 → Nat :=
  let c0_i32_1937 : BitVec 32 := 0#32
  ![v507.toNat, 0]

def k0_chk40 (v507 : BitVec 32) : Prop :=
  (∀ a, (k0_off44 v507) a + S1x64.size a ≤ S1000000x64.size a) ∧
  (∀ a, (k0_off177 v507) a + S1x64.size a ≤ S1000000x64.size a)
instance k0_chk40.dec : ∀ (v507 : BitVec 32), Decidable (k0_chk40 v507) := fun v507 => decidable_of_iff' _ (Iff.of_eq (k0_chk40.eq_1 v507))
theorem k0_off44_inb : ∀ (v507 : BitVec 32) (k0_hw40 : k0_chk40 v507), ∀ a, (k0_off44 v507) a + S1x64.size a ≤ S1000000x64.size a := fun v507 k0_hw40 => k0_hw40.1
theorem k0_off177_inb : ∀ (v507 : BitVec 32) (k0_hw40 : k0_chk40 v507), ∀ a, (k0_off177 v507) a + S1x64.size a ≤ S1000000x64.size a := fun v507 k0_hw40 => k0_hw40.2

def k0_off178 (v517 : BitVec 32) : Fin 2 → Nat :=
  let c0_i32_1948 : BitVec 32 := 0#32
  ![v517.toNat, 0]

def k0_chk41 (v517 : BitVec 32) : Prop :=
  (∀ a, (k0_off45 v517) a + S1x64.size a ≤ S1000000x64.size a) ∧
  (∀ a, (k0_off178 v517) a + S1x64.size a ≤ S1000000x64.size a)
instance k0_chk41.dec : ∀ (v517 : BitVec 32), Decidable (k0_chk41 v517) := fun v517 => decidable_of_iff' _ (Iff.of_eq (k0_chk41.eq_1 v517))
theorem k0_off45_inb : ∀ (v517 : BitVec 32) (k0_hw41 : k0_chk41 v517), ∀ a, (k0_off45 v517) a + S1x64.size a ≤ S1000000x64.size a := fun v517 k0_hw41 => k0_hw41.1
theorem k0_off178_inb : ∀ (v517 : BitVec 32) (k0_hw41 : k0_chk41 v517), ∀ a, (k0_off178 v517) a + S1x64.size a ≤ S1000000x64.size a := fun v517 k0_hw41 => k0_hw41.2

def k0_off179 (v527 : BitVec 32) : Fin 2 → Nat :=
  let c0_i32_1959 : BitVec 32 := 0#32
  ![v527.toNat, 0]

def k0_chk42 (v527 : BitVec 32) : Prop :=
  (∀ a, (k0_off46 v527) a + S1x64.size a ≤ S1000000x64.size a) ∧
  (∀ a, (k0_off179 v527) a + S1x64.size a ≤ S1000000x64.size a)
instance k0_chk42.dec : ∀ (v527 : BitVec 32), Decidable (k0_chk42 v527) := fun v527 => decidable_of_iff' _ (Iff.of_eq (k0_chk42.eq_1 v527))
theorem k0_off46_inb : ∀ (v527 : BitVec 32) (k0_hw42 : k0_chk42 v527), ∀ a, (k0_off46 v527) a + S1x64.size a ≤ S1000000x64.size a := fun v527 k0_hw42 => k0_hw42.1
theorem k0_off179_inb : ∀ (v527 : BitVec 32) (k0_hw42 : k0_chk42 v527), ∀ a, (k0_off179 v527) a + S1x64.size a ≤ S1000000x64.size a := fun v527 k0_hw42 => k0_hw42.2

def k0_off180 (v537 : BitVec 32) : Fin 2 → Nat :=
  let c0_i32_1970 : BitVec 32 := 0#32
  ![v537.toNat, 0]

def k0_chk43 (v537 : BitVec 32) : Prop :=
  (∀ a, (k0_off47 v537) a + S1x64.size a ≤ S1000000x64.size a) ∧
  (∀ a, (k0_off180 v537) a + S1x64.size a ≤ S1000000x64.size a)
instance k0_chk43.dec : ∀ (v537 : BitVec 32), Decidable (k0_chk43 v537) := fun v537 => decidable_of_iff' _ (Iff.of_eq (k0_chk43.eq_1 v537))
theorem k0_off47_inb : ∀ (v537 : BitVec 32) (k0_hw43 : k0_chk43 v537), ∀ a, (k0_off47 v537) a + S1x64.size a ≤ S1000000x64.size a := fun v537 k0_hw43 => k0_hw43.1
theorem k0_off180_inb : ∀ (v537 : BitVec 32) (k0_hw43 : k0_chk43 v537), ∀ a, (k0_off180 v537) a + S1x64.size a ≤ S1000000x64.size a := fun v537 k0_hw43 => k0_hw43.2

def k0_off181 (v547 : BitVec 32) : Fin 2 → Nat :=
  let c0_i32_1981 : BitVec 32 := 0#32
  ![v547.toNat, 0]

def k0_chk44 (v547 : BitVec 32) : Prop :=
  (∀ a, (k0_off48 v547) a + S1x64.size a ≤ S1000000x64.size a) ∧
  (∀ a, (k0_off181 v547) a + S1x64.size a ≤ S1000000x64.size a)
instance k0_chk44.dec : ∀ (v547 : BitVec 32), Decidable (k0_chk44 v547) := fun v547 => decidable_of_iff' _ (Iff.of_eq (k0_chk44.eq_1 v547))
theorem k0_off48_inb : ∀ (v547 : BitVec 32) (k0_hw44 : k0_chk44 v547), ∀ a, (k0_off48 v547) a + S1x64.size a ≤ S1000000x64.size a := fun v547 k0_hw44 => k0_hw44.1
theorem k0_off181_inb : ∀ (v547 : BitVec 32) (k0_hw44 : k0_chk44 v547), ∀ a, (k0_off181 v547) a + S1x64.size a ≤ S1000000x64.size a := fun v547 k0_hw44 => k0_hw44.2

def k0_off182 (v557 : BitVec 32) : Fin 2 → Nat :=
  let c0_i32_1992 : BitVec 32 := 0#32
  ![v557.toNat, 0]

def k0_chk45 (v557 : BitVec 32) : Prop :=
  (∀ a, (k0_off49 v557) a + S1x64.size a ≤ S1000000x64.size a) ∧
  (∀ a, (k0_off182 v557) a + S1x64.size a ≤ S1000000x64.size a)
instance k0_chk45.dec : ∀ (v557 : BitVec 32), Decidable (k0_chk45 v557) := fun v557 => decidable_of_iff' _ (Iff.of_eq (k0_chk45.eq_1 v557))
theorem k0_off49_inb : ∀ (v557 : BitVec 32) (k0_hw45 : k0_chk45 v557), ∀ a, (k0_off49 v557) a + S1x64.size a ≤ S1000000x64.size a := fun v557 k0_hw45 => k0_hw45.1
theorem k0_off182_inb : ∀ (v557 : BitVec 32) (k0_hw45 : k0_chk45 v557), ∀ a, (k0_off182 v557) a + S1x64.size a ≤ S1000000x64.size a := fun v557 k0_hw45 => k0_hw45.2

def k0_off183 (v567 : BitVec 32) : Fin 2 → Nat :=
  let c0_i32_2003 : BitVec 32 := 0#32
  ![v567.toNat, 0]

def k0_chk46 (v567 : BitVec 32) : Prop :=
  (∀ a, (k0_off50 v567) a + S1x64.size a ≤ S1000000x64.size a) ∧
  (∀ a, (k0_off183 v567) a + S1x64.size a ≤ S1000000x64.size a)
instance k0_chk46.dec : ∀ (v567 : BitVec 32), Decidable (k0_chk46 v567) := fun v567 => decidable_of_iff' _ (Iff.of_eq (k0_chk46.eq_1 v567))
theorem k0_off50_inb : ∀ (v567 : BitVec 32) (k0_hw46 : k0_chk46 v567), ∀ a, (k0_off50 v567) a + S1x64.size a ≤ S1000000x64.size a := fun v567 k0_hw46 => k0_hw46.1
theorem k0_off183_inb : ∀ (v567 : BitVec 32) (k0_hw46 : k0_chk46 v567), ∀ a, (k0_off183 v567) a + S1x64.size a ≤ S1000000x64.size a := fun v567 k0_hw46 => k0_hw46.2

def k0_off184 (v577 : BitVec 32) : Fin 2 → Nat :=
  let c0_i32_2014 : BitVec 32 := 0#32
  ![v577.toNat, 0]

def k0_chk47 (v577 : BitVec 32) : Prop :=
  (∀ a, (k0_off51 v577) a + S1x64.size a ≤ S1000000x64.size a) ∧
  (∀ a, (k0_off184 v577) a + S1x64.size a ≤ S1000000x64.size a)
instance k0_chk47.dec : ∀ (v577 : BitVec 32), Decidable (k0_chk47 v577) := fun v577 => decidable_of_iff' _ (Iff.of_eq (k0_chk47.eq_1 v577))
theorem k0_off51_inb : ∀ (v577 : BitVec 32) (k0_hw47 : k0_chk47 v577), ∀ a, (k0_off51 v577) a + S1x64.size a ≤ S1000000x64.size a := fun v577 k0_hw47 => k0_hw47.1
theorem k0_off184_inb : ∀ (v577 : BitVec 32) (k0_hw47 : k0_chk47 v577), ∀ a, (k0_off184 v577) a + S1x64.size a ≤ S1000000x64.size a := fun v577 k0_hw47 => k0_hw47.2

def k0_off185 (v587 : BitVec 32) : Fin 2 → Nat :=
  let c0_i32_2025 : BitVec 32 := 0#32
  ![v587.toNat, 0]

def k0_chk48 (v587 : BitVec 32) : Prop :=
  (∀ a, (k0_off52 v587) a + S1x64.size a ≤ S1000000x64.size a) ∧
  (∀ a, (k0_off185 v587) a + S1x64.size a ≤ S1000000x64.size a)
instance k0_chk48.dec : ∀ (v587 : BitVec 32), Decidable (k0_chk48 v587) := fun v587 => decidable_of_iff' _ (Iff.of_eq (k0_chk48.eq_1 v587))
theorem k0_off52_inb : ∀ (v587 : BitVec 32) (k0_hw48 : k0_chk48 v587), ∀ a, (k0_off52 v587) a + S1x64.size a ≤ S1000000x64.size a := fun v587 k0_hw48 => k0_hw48.1
theorem k0_off185_inb : ∀ (v587 : BitVec 32) (k0_hw48 : k0_chk48 v587), ∀ a, (k0_off185 v587) a + S1x64.size a ≤ S1000000x64.size a := fun v587 k0_hw48 => k0_hw48.2

def k0_off186 (v632 : BitVec 32) : Fin 2 → Nat :=
  let c0_i32_2036 : BitVec 32 := 0#32
  ![v632.toNat, 0]

def k0_chk49 (v632 : BitVec 32) : Prop :=
  (∀ a, (k0_off54 v632) a + S1x64.size a ≤ S1000000x64.size a) ∧
  (∀ a, (k0_off186 v632) a + S1x64.size a ≤ S1000000x64.size a)
instance k0_chk49.dec : ∀ (v632 : BitVec 32), Decidable (k0_chk49 v632) := fun v632 => decidable_of_iff' _ (Iff.of_eq (k0_chk49.eq_1 v632))
theorem k0_off54_inb : ∀ (v632 : BitVec 32) (k0_hw49 : k0_chk49 v632), ∀ a, (k0_off54 v632) a + S1x64.size a ≤ S1000000x64.size a := fun v632 k0_hw49 => k0_hw49.1
theorem k0_off186_inb : ∀ (v632 : BitVec 32) (k0_hw49 : k0_chk49 v632), ∀ a, (k0_off186 v632) a + S1x64.size a ≤ S1000000x64.size a := fun v632 k0_hw49 => k0_hw49.2

def k0_off187 (v642 : BitVec 32) : Fin 2 → Nat :=
  let c0_i32_2047 : BitVec 32 := 0#32
  ![v642.toNat, 0]

def k0_chk50 (v642 : BitVec 32) : Prop :=
  (∀ a, (k0_off55 v642) a + S1x64.size a ≤ S1000000x64.size a) ∧
  (∀ a, (k0_off187 v642) a + S1x64.size a ≤ S1000000x64.size a)
instance k0_chk50.dec : ∀ (v642 : BitVec 32), Decidable (k0_chk50 v642) := fun v642 => decidable_of_iff' _ (Iff.of_eq (k0_chk50.eq_1 v642))
theorem k0_off55_inb : ∀ (v642 : BitVec 32) (k0_hw50 : k0_chk50 v642), ∀ a, (k0_off55 v642) a + S1x64.size a ≤ S1000000x64.size a := fun v642 k0_hw50 => k0_hw50.1
theorem k0_off187_inb : ∀ (v642 : BitVec 32) (k0_hw50 : k0_chk50 v642), ∀ a, (k0_off187 v642) a + S1x64.size a ≤ S1000000x64.size a := fun v642 k0_hw50 => k0_hw50.2

def k0_off188 (v652 : BitVec 32) : Fin 2 → Nat :=
  let c0_i32_2058 : BitVec 32 := 0#32
  ![v652.toNat, 0]

def k0_chk51 (v652 : BitVec 32) : Prop :=
  (∀ a, (k0_off56 v652) a + S1x64.size a ≤ S1000000x64.size a) ∧
  (∀ a, (k0_off188 v652) a + S1x64.size a ≤ S1000000x64.size a)
instance k0_chk51.dec : ∀ (v652 : BitVec 32), Decidable (k0_chk51 v652) := fun v652 => decidable_of_iff' _ (Iff.of_eq (k0_chk51.eq_1 v652))
theorem k0_off56_inb : ∀ (v652 : BitVec 32) (k0_hw51 : k0_chk51 v652), ∀ a, (k0_off56 v652) a + S1x64.size a ≤ S1000000x64.size a := fun v652 k0_hw51 => k0_hw51.1
theorem k0_off188_inb : ∀ (v652 : BitVec 32) (k0_hw51 : k0_chk51 v652), ∀ a, (k0_off188 v652) a + S1x64.size a ≤ S1000000x64.size a := fun v652 k0_hw51 => k0_hw51.2

def k0_off189 (v662 : BitVec 32) : Fin 2 → Nat :=
  let c0_i32_2069 : BitVec 32 := 0#32
  ![v662.toNat, 0]

def k0_chk52 (v662 : BitVec 32) : Prop :=
  (∀ a, (k0_off57 v662) a + S1x64.size a ≤ S1000000x64.size a) ∧
  (∀ a, (k0_off189 v662) a + S1x64.size a ≤ S1000000x64.size a)
instance k0_chk52.dec : ∀ (v662 : BitVec 32), Decidable (k0_chk52 v662) := fun v662 => decidable_of_iff' _ (Iff.of_eq (k0_chk52.eq_1 v662))
theorem k0_off57_inb : ∀ (v662 : BitVec 32) (k0_hw52 : k0_chk52 v662), ∀ a, (k0_off57 v662) a + S1x64.size a ≤ S1000000x64.size a := fun v662 k0_hw52 => k0_hw52.1
theorem k0_off189_inb : ∀ (v662 : BitVec 32) (k0_hw52 : k0_chk52 v662), ∀ a, (k0_off189 v662) a + S1x64.size a ≤ S1000000x64.size a := fun v662 k0_hw52 => k0_hw52.2

def k0_off190 (v672 : BitVec 32) : Fin 2 → Nat :=
  let c0_i32_2080 : BitVec 32 := 0#32
  ![v672.toNat, 0]

def k0_chk53 (v672 : BitVec 32) : Prop :=
  (∀ a, (k0_off58 v672) a + S1x64.size a ≤ S1000000x64.size a) ∧
  (∀ a, (k0_off190 v672) a + S1x64.size a ≤ S1000000x64.size a)
instance k0_chk53.dec : ∀ (v672 : BitVec 32), Decidable (k0_chk53 v672) := fun v672 => decidable_of_iff' _ (Iff.of_eq (k0_chk53.eq_1 v672))
theorem k0_off58_inb : ∀ (v672 : BitVec 32) (k0_hw53 : k0_chk53 v672), ∀ a, (k0_off58 v672) a + S1x64.size a ≤ S1000000x64.size a := fun v672 k0_hw53 => k0_hw53.1
theorem k0_off190_inb : ∀ (v672 : BitVec 32) (k0_hw53 : k0_chk53 v672), ∀ a, (k0_off190 v672) a + S1x64.size a ≤ S1000000x64.size a := fun v672 k0_hw53 => k0_hw53.2

def k0_off191 (v682 : BitVec 32) : Fin 2 → Nat :=
  let c0_i32_2091 : BitVec 32 := 0#32
  ![v682.toNat, 0]

def k0_chk54 (v682 : BitVec 32) : Prop :=
  (∀ a, (k0_off59 v682) a + S1x64.size a ≤ S1000000x64.size a) ∧
  (∀ a, (k0_off191 v682) a + S1x64.size a ≤ S1000000x64.size a)
instance k0_chk54.dec : ∀ (v682 : BitVec 32), Decidable (k0_chk54 v682) := fun v682 => decidable_of_iff' _ (Iff.of_eq (k0_chk54.eq_1 v682))
theorem k0_off59_inb : ∀ (v682 : BitVec 32) (k0_hw54 : k0_chk54 v682), ∀ a, (k0_off59 v682) a + S1x64.size a ≤ S1000000x64.size a := fun v682 k0_hw54 => k0_hw54.1
theorem k0_off191_inb : ∀ (v682 : BitVec 32) (k0_hw54 : k0_chk54 v682), ∀ a, (k0_off191 v682) a + S1x64.size a ≤ S1000000x64.size a := fun v682 k0_hw54 => k0_hw54.2

def k0_off192 (v692 : BitVec 32) : Fin 2 → Nat :=
  let c0_i32_2102 : BitVec 32 := 0#32
  ![v692.toNat, 0]

def k0_chk55 (v692 : BitVec 32) : Prop :=
  (∀ a, (k0_off60 v692) a + S1x64.size a ≤ S1000000x64.size a) ∧
  (∀ a, (k0_off192 v692) a + S1x64.size a ≤ S1000000x64.size a)
instance k0_chk55.dec : ∀ (v692 : BitVec 32), Decidable (k0_chk55 v692) := fun v692 => decidable_of_iff' _ (Iff.of_eq (k0_chk55.eq_1 v692))
theorem k0_off60_inb : ∀ (v692 : BitVec 32) (k0_hw55 : k0_chk55 v692), ∀ a, (k0_off60 v692) a + S1x64.size a ≤ S1000000x64.size a := fun v692 k0_hw55 => k0_hw55.1
theorem k0_off192_inb : ∀ (v692 : BitVec 32) (k0_hw55 : k0_chk55 v692), ∀ a, (k0_off192 v692) a + S1x64.size a ≤ S1000000x64.size a := fun v692 k0_hw55 => k0_hw55.2

def k0_off193 (v702 : BitVec 32) : Fin 2 → Nat :=
  let c0_i32_2113 : BitVec 32 := 0#32
  ![v702.toNat, 0]

def k0_chk56 (v702 : BitVec 32) : Prop :=
  (∀ a, (k0_off61 v702) a + S1x64.size a ≤ S1000000x64.size a) ∧
  (∀ a, (k0_off193 v702) a + S1x64.size a ≤ S1000000x64.size a)
instance k0_chk56.dec : ∀ (v702 : BitVec 32), Decidable (k0_chk56 v702) := fun v702 => decidable_of_iff' _ (Iff.of_eq (k0_chk56.eq_1 v702))
theorem k0_off61_inb : ∀ (v702 : BitVec 32) (k0_hw56 : k0_chk56 v702), ∀ a, (k0_off61 v702) a + S1x64.size a ≤ S1000000x64.size a := fun v702 k0_hw56 => k0_hw56.1
theorem k0_off193_inb : ∀ (v702 : BitVec 32) (k0_hw56 : k0_chk56 v702), ∀ a, (k0_off193 v702) a + S1x64.size a ≤ S1000000x64.size a := fun v702 k0_hw56 => k0_hw56.2

def k0_off194 (v712 : BitVec 32) : Fin 2 → Nat :=
  let c0_i32_2124 : BitVec 32 := 0#32
  ![v712.toNat, 0]

def k0_chk57 (v712 : BitVec 32) : Prop :=
  (∀ a, (k0_off62 v712) a + S1x64.size a ≤ S1000000x64.size a) ∧
  (∀ a, (k0_off194 v712) a + S1x64.size a ≤ S1000000x64.size a)
instance k0_chk57.dec : ∀ (v712 : BitVec 32), Decidable (k0_chk57 v712) := fun v712 => decidable_of_iff' _ (Iff.of_eq (k0_chk57.eq_1 v712))
theorem k0_off62_inb : ∀ (v712 : BitVec 32) (k0_hw57 : k0_chk57 v712), ∀ a, (k0_off62 v712) a + S1x64.size a ≤ S1000000x64.size a := fun v712 k0_hw57 => k0_hw57.1
theorem k0_off194_inb : ∀ (v712 : BitVec 32) (k0_hw57 : k0_chk57 v712), ∀ a, (k0_off194 v712) a + S1x64.size a ≤ S1000000x64.size a := fun v712 k0_hw57 => k0_hw57.2

def k0_off195 (v722 : BitVec 32) : Fin 2 → Nat :=
  let c0_i32_2135 : BitVec 32 := 0#32
  ![v722.toNat, 0]

def k0_chk58 (v722 : BitVec 32) : Prop :=
  (∀ a, (k0_off63 v722) a + S1x64.size a ≤ S1000000x64.size a) ∧
  (∀ a, (k0_off195 v722) a + S1x64.size a ≤ S1000000x64.size a)
instance k0_chk58.dec : ∀ (v722 : BitVec 32), Decidable (k0_chk58 v722) := fun v722 => decidable_of_iff' _ (Iff.of_eq (k0_chk58.eq_1 v722))
theorem k0_off63_inb : ∀ (v722 : BitVec 32) (k0_hw58 : k0_chk58 v722), ∀ a, (k0_off63 v722) a + S1x64.size a ≤ S1000000x64.size a := fun v722 k0_hw58 => k0_hw58.1
theorem k0_off195_inb : ∀ (v722 : BitVec 32) (k0_hw58 : k0_chk58 v722), ∀ a, (k0_off195 v722) a + S1x64.size a ≤ S1000000x64.size a := fun v722 k0_hw58 => k0_hw58.2

def k0_off196 (v732 : BitVec 32) : Fin 2 → Nat :=
  let c0_i32_2146 : BitVec 32 := 0#32
  ![v732.toNat, 0]

def k0_chk59 (v732 : BitVec 32) : Prop :=
  (∀ a, (k0_off64 v732) a + S1x64.size a ≤ S1000000x64.size a) ∧
  (∀ a, (k0_off196 v732) a + S1x64.size a ≤ S1000000x64.size a)
instance k0_chk59.dec : ∀ (v732 : BitVec 32), Decidable (k0_chk59 v732) := fun v732 => decidable_of_iff' _ (Iff.of_eq (k0_chk59.eq_1 v732))
theorem k0_off64_inb : ∀ (v732 : BitVec 32) (k0_hw59 : k0_chk59 v732), ∀ a, (k0_off64 v732) a + S1x64.size a ≤ S1000000x64.size a := fun v732 k0_hw59 => k0_hw59.1
theorem k0_off196_inb : ∀ (v732 : BitVec 32) (k0_hw59 : k0_chk59 v732), ∀ a, (k0_off196 v732) a + S1x64.size a ≤ S1000000x64.size a := fun v732 k0_hw59 => k0_hw59.2

def k0_off197 (v742 : BitVec 32) : Fin 2 → Nat :=
  let c0_i32_2157 : BitVec 32 := 0#32
  ![v742.toNat, 0]

def k0_chk60 (v742 : BitVec 32) : Prop :=
  (∀ a, (k0_off65 v742) a + S1x64.size a ≤ S1000000x64.size a) ∧
  (∀ a, (k0_off197 v742) a + S1x64.size a ≤ S1000000x64.size a)
instance k0_chk60.dec : ∀ (v742 : BitVec 32), Decidable (k0_chk60 v742) := fun v742 => decidable_of_iff' _ (Iff.of_eq (k0_chk60.eq_1 v742))
theorem k0_off65_inb : ∀ (v742 : BitVec 32) (k0_hw60 : k0_chk60 v742), ∀ a, (k0_off65 v742) a + S1x64.size a ≤ S1000000x64.size a := fun v742 k0_hw60 => k0_hw60.1
theorem k0_off197_inb : ∀ (v742 : BitVec 32) (k0_hw60 : k0_chk60 v742), ∀ a, (k0_off197 v742) a + S1x64.size a ≤ S1000000x64.size a := fun v742 k0_hw60 => k0_hw60.2

def k0_off198 (v752 : BitVec 32) : Fin 2 → Nat :=
  let c0_i32_2168 : BitVec 32 := 0#32
  ![v752.toNat, 0]

def k0_chk61 (v752 : BitVec 32) : Prop :=
  (∀ a, (k0_off66 v752) a + S1x64.size a ≤ S1000000x64.size a) ∧
  (∀ a, (k0_off198 v752) a + S1x64.size a ≤ S1000000x64.size a)
instance k0_chk61.dec : ∀ (v752 : BitVec 32), Decidable (k0_chk61 v752) := fun v752 => decidable_of_iff' _ (Iff.of_eq (k0_chk61.eq_1 v752))
theorem k0_off66_inb : ∀ (v752 : BitVec 32) (k0_hw61 : k0_chk61 v752), ∀ a, (k0_off66 v752) a + S1x64.size a ≤ S1000000x64.size a := fun v752 k0_hw61 => k0_hw61.1
theorem k0_off198_inb : ∀ (v752 : BitVec 32) (k0_hw61 : k0_chk61 v752), ∀ a, (k0_off198 v752) a + S1x64.size a ≤ S1000000x64.size a := fun v752 k0_hw61 => k0_hw61.2

def k0_off199 (v762 : BitVec 32) : Fin 2 → Nat :=
  let c0_i32_2179 : BitVec 32 := 0#32
  ![v762.toNat, 0]

def k0_chk62 (v762 : BitVec 32) : Prop :=
  (∀ a, (k0_off67 v762) a + S1x64.size a ≤ S1000000x64.size a) ∧
  (∀ a, (k0_off199 v762) a + S1x64.size a ≤ S1000000x64.size a)
instance k0_chk62.dec : ∀ (v762 : BitVec 32), Decidable (k0_chk62 v762) := fun v762 => decidable_of_iff' _ (Iff.of_eq (k0_chk62.eq_1 v762))
theorem k0_off67_inb : ∀ (v762 : BitVec 32) (k0_hw62 : k0_chk62 v762), ∀ a, (k0_off67 v762) a + S1x64.size a ≤ S1000000x64.size a := fun v762 k0_hw62 => k0_hw62.1
theorem k0_off199_inb : ∀ (v762 : BitVec 32) (k0_hw62 : k0_chk62 v762), ∀ a, (k0_off199 v762) a + S1x64.size a ≤ S1000000x64.size a := fun v762 k0_hw62 => k0_hw62.2

def k0_off200 (v772 : BitVec 32) : Fin 2 → Nat :=
  let c0_i32_2190 : BitVec 32 := 0#32
  ![v772.toNat, 0]

def k0_chk63 (v772 : BitVec 32) : Prop :=
  (∀ a, (k0_off68 v772) a + S1x64.size a ≤ S1000000x64.size a) ∧
  (∀ a, (k0_off200 v772) a + S1x64.size a ≤ S1000000x64.size a)
instance k0_chk63.dec : ∀ (v772 : BitVec 32), Decidable (k0_chk63 v772) := fun v772 => decidable_of_iff' _ (Iff.of_eq (k0_chk63.eq_1 v772))
theorem k0_off68_inb : ∀ (v772 : BitVec 32) (k0_hw63 : k0_chk63 v772), ∀ a, (k0_off68 v772) a + S1x64.size a ≤ S1000000x64.size a := fun v772 k0_hw63 => k0_hw63.1
theorem k0_off200_inb : ∀ (v772 : BitVec 32) (k0_hw63 : k0_chk63 v772), ∀ a, (k0_off200 v772) a + S1x64.size a ≤ S1000000x64.size a := fun v772 k0_hw63 => k0_hw63.2

def k0_off201 (v782 : BitVec 32) : Fin 2 → Nat :=
  let c0_i32_2201 : BitVec 32 := 0#32
  ![v782.toNat, 0]

def k0_chk64 (v782 : BitVec 32) : Prop :=
  (∀ a, (k0_off69 v782) a + S1x64.size a ≤ S1000000x64.size a) ∧
  (∀ a, (k0_off201 v782) a + S1x64.size a ≤ S1000000x64.size a)
instance k0_chk64.dec : ∀ (v782 : BitVec 32), Decidable (k0_chk64 v782) := fun v782 => decidable_of_iff' _ (Iff.of_eq (k0_chk64.eq_1 v782))
theorem k0_off69_inb : ∀ (v782 : BitVec 32) (k0_hw64 : k0_chk64 v782), ∀ a, (k0_off69 v782) a + S1x64.size a ≤ S1000000x64.size a := fun v782 k0_hw64 => k0_hw64.1
theorem k0_off201_inb : ∀ (v782 : BitVec 32) (k0_hw64 : k0_chk64 v782), ∀ a, (k0_off201 v782) a + S1x64.size a ≤ S1000000x64.size a := fun v782 k0_hw64 => k0_hw64.2

def k0_off202 (i : grid0.Coords) (k0_t1 : Fin k0_t1_loop.trips) (c0_i32_1502 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_1501 : BitVec 32 := 2#32
  let c0_i32_2 : BitVec 32 := 0#32
  let c1_i32 : BitVec 32 := 1#32
  let arg25 : BitVec 32 := Scf.iv c0_i32_2 c1_i32 k0_t1
  let v1573 : BitVec 32 := Scalar.muli c2_i32_1501 arg25
  let v1574 : BitVec 32 := Scalar.addi v1573 c0_i32_1502
  let c64_i32_2207 : BitVec 32 := 64#32
  let v2087 : BitVec 32 := Scalar.muli v1574 c64_i32_2207
  let v2088 : BitVec 32 := Scalar.addi v2 v2087
  let c0_i32_2211 : BitVec 32 := 0#32
  ![v2088.toNat, 0]
def k0_off203 (v829 : BitVec 32) : Fin 2 → Nat :=
  let c0_i32_2222 : BitVec 32 := 0#32
  ![v829.toNat, 0]

def k0_chk65 (v829 : BitVec 32) : Prop :=
  (∀ a, (k0_off71 v829) a + S1x64.size a ≤ S1000000x64.size a) ∧
  (∀ a, (k0_off203 v829) a + S1x64.size a ≤ S1000000x64.size a)
instance k0_chk65.dec : ∀ (v829 : BitVec 32), Decidable (k0_chk65 v829) := fun v829 => decidable_of_iff' _ (Iff.of_eq (k0_chk65.eq_1 v829))
theorem k0_off71_inb : ∀ (v829 : BitVec 32) (k0_hw65 : k0_chk65 v829), ∀ a, (k0_off71 v829) a + S1x64.size a ≤ S1000000x64.size a := fun v829 k0_hw65 => k0_hw65.1
theorem k0_off203_inb : ∀ (v829 : BitVec 32) (k0_hw65 : k0_chk65 v829), ∀ a, (k0_off203 v829) a + S1x64.size a ≤ S1000000x64.size a := fun v829 k0_hw65 => k0_hw65.2

def k0_off204 (v839 : BitVec 32) : Fin 2 → Nat :=
  let c0_i32_2233 : BitVec 32 := 0#32
  ![v839.toNat, 0]

def k0_chk66 (v839 : BitVec 32) : Prop :=
  (∀ a, (k0_off72 v839) a + S1x64.size a ≤ S1000000x64.size a) ∧
  (∀ a, (k0_off204 v839) a + S1x64.size a ≤ S1000000x64.size a)
instance k0_chk66.dec : ∀ (v839 : BitVec 32), Decidable (k0_chk66 v839) := fun v839 => decidable_of_iff' _ (Iff.of_eq (k0_chk66.eq_1 v839))
theorem k0_off72_inb : ∀ (v839 : BitVec 32) (k0_hw66 : k0_chk66 v839), ∀ a, (k0_off72 v839) a + S1x64.size a ≤ S1000000x64.size a := fun v839 k0_hw66 => k0_hw66.1
theorem k0_off204_inb : ∀ (v839 : BitVec 32) (k0_hw66 : k0_chk66 v839), ∀ a, (k0_off204 v839) a + S1x64.size a ≤ S1000000x64.size a := fun v839 k0_hw66 => k0_hw66.2

def k0_off205 (v849 : BitVec 32) : Fin 2 → Nat :=
  let c0_i32_2244 : BitVec 32 := 0#32
  ![v849.toNat, 0]

def k0_chk67 (v849 : BitVec 32) : Prop :=
  (∀ a, (k0_off73 v849) a + S1x64.size a ≤ S1000000x64.size a) ∧
  (∀ a, (k0_off205 v849) a + S1x64.size a ≤ S1000000x64.size a)
instance k0_chk67.dec : ∀ (v849 : BitVec 32), Decidable (k0_chk67 v849) := fun v849 => decidable_of_iff' _ (Iff.of_eq (k0_chk67.eq_1 v849))
theorem k0_off73_inb : ∀ (v849 : BitVec 32) (k0_hw67 : k0_chk67 v849), ∀ a, (k0_off73 v849) a + S1x64.size a ≤ S1000000x64.size a := fun v849 k0_hw67 => k0_hw67.1
theorem k0_off205_inb : ∀ (v849 : BitVec 32) (k0_hw67 : k0_chk67 v849), ∀ a, (k0_off205 v849) a + S1x64.size a ≤ S1000000x64.size a := fun v849 k0_hw67 => k0_hw67.2

def k0_off206 (v859 : BitVec 32) : Fin 2 → Nat :=
  let c0_i32_2255 : BitVec 32 := 0#32
  ![v859.toNat, 0]

def k0_chk68 (v859 : BitVec 32) : Prop :=
  (∀ a, (k0_off74 v859) a + S1x64.size a ≤ S1000000x64.size a) ∧
  (∀ a, (k0_off206 v859) a + S1x64.size a ≤ S1000000x64.size a)
instance k0_chk68.dec : ∀ (v859 : BitVec 32), Decidable (k0_chk68 v859) := fun v859 => decidable_of_iff' _ (Iff.of_eq (k0_chk68.eq_1 v859))
theorem k0_off74_inb : ∀ (v859 : BitVec 32) (k0_hw68 : k0_chk68 v859), ∀ a, (k0_off74 v859) a + S1x64.size a ≤ S1000000x64.size a := fun v859 k0_hw68 => k0_hw68.1
theorem k0_off206_inb : ∀ (v859 : BitVec 32) (k0_hw68 : k0_chk68 v859), ∀ a, (k0_off206 v859) a + S1x64.size a ≤ S1000000x64.size a := fun v859 k0_hw68 => k0_hw68.2

def k0_off207 (v869 : BitVec 32) : Fin 2 → Nat :=
  let c0_i32_2266 : BitVec 32 := 0#32
  ![v869.toNat, 0]

def k0_chk69 (v869 : BitVec 32) : Prop :=
  (∀ a, (k0_off75 v869) a + S1x64.size a ≤ S1000000x64.size a) ∧
  (∀ a, (k0_off207 v869) a + S1x64.size a ≤ S1000000x64.size a)
instance k0_chk69.dec : ∀ (v869 : BitVec 32), Decidable (k0_chk69 v869) := fun v869 => decidable_of_iff' _ (Iff.of_eq (k0_chk69.eq_1 v869))
theorem k0_off75_inb : ∀ (v869 : BitVec 32) (k0_hw69 : k0_chk69 v869), ∀ a, (k0_off75 v869) a + S1x64.size a ≤ S1000000x64.size a := fun v869 k0_hw69 => k0_hw69.1
theorem k0_off207_inb : ∀ (v869 : BitVec 32) (k0_hw69 : k0_chk69 v869), ∀ a, (k0_off207 v869) a + S1x64.size a ≤ S1000000x64.size a := fun v869 k0_hw69 => k0_hw69.2

def k0_off208 (v879 : BitVec 32) : Fin 2 → Nat :=
  let c0_i32_2277 : BitVec 32 := 0#32
  ![v879.toNat, 0]

def k0_chk70 (v879 : BitVec 32) : Prop :=
  (∀ a, (k0_off76 v879) a + S1x64.size a ≤ S1000000x64.size a) ∧
  (∀ a, (k0_off208 v879) a + S1x64.size a ≤ S1000000x64.size a)
instance k0_chk70.dec : ∀ (v879 : BitVec 32), Decidable (k0_chk70 v879) := fun v879 => decidable_of_iff' _ (Iff.of_eq (k0_chk70.eq_1 v879))
theorem k0_off76_inb : ∀ (v879 : BitVec 32) (k0_hw70 : k0_chk70 v879), ∀ a, (k0_off76 v879) a + S1x64.size a ≤ S1000000x64.size a := fun v879 k0_hw70 => k0_hw70.1
theorem k0_off208_inb : ∀ (v879 : BitVec 32) (k0_hw70 : k0_chk70 v879), ∀ a, (k0_off208 v879) a + S1x64.size a ≤ S1000000x64.size a := fun v879 k0_hw70 => k0_hw70.2

def k0_off209 (v889 : BitVec 32) : Fin 2 → Nat :=
  let c0_i32_2288 : BitVec 32 := 0#32
  ![v889.toNat, 0]

def k0_chk71 (v889 : BitVec 32) : Prop :=
  (∀ a, (k0_off77 v889) a + S1x64.size a ≤ S1000000x64.size a) ∧
  (∀ a, (k0_off209 v889) a + S1x64.size a ≤ S1000000x64.size a)
instance k0_chk71.dec : ∀ (v889 : BitVec 32), Decidable (k0_chk71 v889) := fun v889 => decidable_of_iff' _ (Iff.of_eq (k0_chk71.eq_1 v889))
theorem k0_off77_inb : ∀ (v889 : BitVec 32) (k0_hw71 : k0_chk71 v889), ∀ a, (k0_off77 v889) a + S1x64.size a ≤ S1000000x64.size a := fun v889 k0_hw71 => k0_hw71.1
theorem k0_off209_inb : ∀ (v889 : BitVec 32) (k0_hw71 : k0_chk71 v889), ∀ a, (k0_off209 v889) a + S1x64.size a ≤ S1000000x64.size a := fun v889 k0_hw71 => k0_hw71.2

def k0_off210 (v899 : BitVec 32) : Fin 2 → Nat :=
  let c0_i32_2299 : BitVec 32 := 0#32
  ![v899.toNat, 0]

def k0_chk72 (v899 : BitVec 32) : Prop :=
  (∀ a, (k0_off78 v899) a + S1x64.size a ≤ S1000000x64.size a) ∧
  (∀ a, (k0_off210 v899) a + S1x64.size a ≤ S1000000x64.size a)
instance k0_chk72.dec : ∀ (v899 : BitVec 32), Decidable (k0_chk72 v899) := fun v899 => decidable_of_iff' _ (Iff.of_eq (k0_chk72.eq_1 v899))
theorem k0_off78_inb : ∀ (v899 : BitVec 32) (k0_hw72 : k0_chk72 v899), ∀ a, (k0_off78 v899) a + S1x64.size a ≤ S1000000x64.size a := fun v899 k0_hw72 => k0_hw72.1
theorem k0_off210_inb : ∀ (v899 : BitVec 32) (k0_hw72 : k0_chk72 v899), ∀ a, (k0_off210 v899) a + S1x64.size a ≤ S1000000x64.size a := fun v899 k0_hw72 => k0_hw72.2

def k0_off211 (v909 : BitVec 32) : Fin 2 → Nat :=
  let c0_i32_2310 : BitVec 32 := 0#32
  ![v909.toNat, 0]

def k0_chk73 (v909 : BitVec 32) : Prop :=
  (∀ a, (k0_off79 v909) a + S1x64.size a ≤ S1000000x64.size a) ∧
  (∀ a, (k0_off211 v909) a + S1x64.size a ≤ S1000000x64.size a)
instance k0_chk73.dec : ∀ (v909 : BitVec 32), Decidable (k0_chk73 v909) := fun v909 => decidable_of_iff' _ (Iff.of_eq (k0_chk73.eq_1 v909))
theorem k0_off79_inb : ∀ (v909 : BitVec 32) (k0_hw73 : k0_chk73 v909), ∀ a, (k0_off79 v909) a + S1x64.size a ≤ S1000000x64.size a := fun v909 k0_hw73 => k0_hw73.1
theorem k0_off211_inb : ∀ (v909 : BitVec 32) (k0_hw73 : k0_chk73 v909), ∀ a, (k0_off211 v909) a + S1x64.size a ≤ S1000000x64.size a := fun v909 k0_hw73 => k0_hw73.2

def k0_off212 (v919 : BitVec 32) : Fin 2 → Nat :=
  let c0_i32_2321 : BitVec 32 := 0#32
  ![v919.toNat, 0]

def k0_chk74 (v919 : BitVec 32) : Prop :=
  (∀ a, (k0_off80 v919) a + S1x64.size a ≤ S1000000x64.size a) ∧
  (∀ a, (k0_off212 v919) a + S1x64.size a ≤ S1000000x64.size a)
instance k0_chk74.dec : ∀ (v919 : BitVec 32), Decidable (k0_chk74 v919) := fun v919 => decidable_of_iff' _ (Iff.of_eq (k0_chk74.eq_1 v919))
theorem k0_off80_inb : ∀ (v919 : BitVec 32) (k0_hw74 : k0_chk74 v919), ∀ a, (k0_off80 v919) a + S1x64.size a ≤ S1000000x64.size a := fun v919 k0_hw74 => k0_hw74.1
theorem k0_off212_inb : ∀ (v919 : BitVec 32) (k0_hw74 : k0_chk74 v919), ∀ a, (k0_off212 v919) a + S1x64.size a ≤ S1000000x64.size a := fun v919 k0_hw74 => k0_hw74.2

def k0_off213 (v929 : BitVec 32) : Fin 2 → Nat :=
  let c0_i32_2332 : BitVec 32 := 0#32
  ![v929.toNat, 0]

def k0_chk75 (v929 : BitVec 32) : Prop :=
  (∀ a, (k0_off81 v929) a + S1x64.size a ≤ S1000000x64.size a) ∧
  (∀ a, (k0_off213 v929) a + S1x64.size a ≤ S1000000x64.size a)
instance k0_chk75.dec : ∀ (v929 : BitVec 32), Decidable (k0_chk75 v929) := fun v929 => decidable_of_iff' _ (Iff.of_eq (k0_chk75.eq_1 v929))
theorem k0_off81_inb : ∀ (v929 : BitVec 32) (k0_hw75 : k0_chk75 v929), ∀ a, (k0_off81 v929) a + S1x64.size a ≤ S1000000x64.size a := fun v929 k0_hw75 => k0_hw75.1
theorem k0_off213_inb : ∀ (v929 : BitVec 32) (k0_hw75 : k0_chk75 v929), ∀ a, (k0_off213 v929) a + S1x64.size a ≤ S1000000x64.size a := fun v929 k0_hw75 => k0_hw75.2

def k0_off214 (v939 : BitVec 32) : Fin 2 → Nat :=
  let c0_i32_2343 : BitVec 32 := 0#32
  ![v939.toNat, 0]

def k0_chk76 (v939 : BitVec 32) : Prop :=
  (∀ a, (k0_off82 v939) a + S1x64.size a ≤ S1000000x64.size a) ∧
  (∀ a, (k0_off214 v939) a + S1x64.size a ≤ S1000000x64.size a)
instance k0_chk76.dec : ∀ (v939 : BitVec 32), Decidable (k0_chk76 v939) := fun v939 => decidable_of_iff' _ (Iff.of_eq (k0_chk76.eq_1 v939))
theorem k0_off82_inb : ∀ (v939 : BitVec 32) (k0_hw76 : k0_chk76 v939), ∀ a, (k0_off82 v939) a + S1x64.size a ≤ S1000000x64.size a := fun v939 k0_hw76 => k0_hw76.1
theorem k0_off214_inb : ∀ (v939 : BitVec 32) (k0_hw76 : k0_chk76 v939), ∀ a, (k0_off214 v939) a + S1x64.size a ≤ S1000000x64.size a := fun v939 k0_hw76 => k0_hw76.2

def k0_off215 (v949 : BitVec 32) : Fin 2 → Nat :=
  let c0_i32_2354 : BitVec 32 := 0#32
  ![v949.toNat, 0]

def k0_chk77 (v949 : BitVec 32) : Prop :=
  (∀ a, (k0_off83 v949) a + S1x64.size a ≤ S1000000x64.size a) ∧
  (∀ a, (k0_off215 v949) a + S1x64.size a ≤ S1000000x64.size a)
instance k0_chk77.dec : ∀ (v949 : BitVec 32), Decidable (k0_chk77 v949) := fun v949 => decidable_of_iff' _ (Iff.of_eq (k0_chk77.eq_1 v949))
theorem k0_off83_inb : ∀ (v949 : BitVec 32) (k0_hw77 : k0_chk77 v949), ∀ a, (k0_off83 v949) a + S1x64.size a ≤ S1000000x64.size a := fun v949 k0_hw77 => k0_hw77.1
theorem k0_off215_inb : ∀ (v949 : BitVec 32) (k0_hw77 : k0_chk77 v949), ∀ a, (k0_off215 v949) a + S1x64.size a ≤ S1000000x64.size a := fun v949 k0_hw77 => k0_hw77.2

def k0_off216 (v959 : BitVec 32) : Fin 2 → Nat :=
  let c0_i32_2365 : BitVec 32 := 0#32
  ![v959.toNat, 0]

def k0_chk78 (v959 : BitVec 32) : Prop :=
  (∀ a, (k0_off84 v959) a + S1x64.size a ≤ S1000000x64.size a) ∧
  (∀ a, (k0_off216 v959) a + S1x64.size a ≤ S1000000x64.size a)
instance k0_chk78.dec : ∀ (v959 : BitVec 32), Decidable (k0_chk78 v959) := fun v959 => decidable_of_iff' _ (Iff.of_eq (k0_chk78.eq_1 v959))
theorem k0_off84_inb : ∀ (v959 : BitVec 32) (k0_hw78 : k0_chk78 v959), ∀ a, (k0_off84 v959) a + S1x64.size a ≤ S1000000x64.size a := fun v959 k0_hw78 => k0_hw78.1
theorem k0_off216_inb : ∀ (v959 : BitVec 32) (k0_hw78 : k0_chk78 v959), ∀ a, (k0_off216 v959) a + S1x64.size a ≤ S1000000x64.size a := fun v959 k0_hw78 => k0_hw78.2

def k0_off217 (v969 : BitVec 32) : Fin 2 → Nat :=
  let c0_i32_2376 : BitVec 32 := 0#32
  ![v969.toNat, 0]

def k0_chk79 (v969 : BitVec 32) : Prop :=
  (∀ a, (k0_off85 v969) a + S1x64.size a ≤ S1000000x64.size a) ∧
  (∀ a, (k0_off217 v969) a + S1x64.size a ≤ S1000000x64.size a)
instance k0_chk79.dec : ∀ (v969 : BitVec 32), Decidable (k0_chk79 v969) := fun v969 => decidable_of_iff' _ (Iff.of_eq (k0_chk79.eq_1 v969))
theorem k0_off85_inb : ∀ (v969 : BitVec 32) (k0_hw79 : k0_chk79 v969), ∀ a, (k0_off85 v969) a + S1x64.size a ≤ S1000000x64.size a := fun v969 k0_hw79 => k0_hw79.1
theorem k0_off217_inb : ∀ (v969 : BitVec 32) (k0_hw79 : k0_chk79 v969), ∀ a, (k0_off217 v969) a + S1x64.size a ≤ S1000000x64.size a := fun v969 k0_hw79 => k0_hw79.2

def k0_off218 (v979 : BitVec 32) : Fin 2 → Nat :=
  let c0_i32_2387 : BitVec 32 := 0#32
  ![v979.toNat, 0]

def k0_chk80 (v979 : BitVec 32) : Prop :=
  (∀ a, (k0_off86 v979) a + S1x64.size a ≤ S1000000x64.size a) ∧
  (∀ a, (k0_off218 v979) a + S1x64.size a ≤ S1000000x64.size a)
instance k0_chk80.dec : ∀ (v979 : BitVec 32), Decidable (k0_chk80 v979) := fun v979 => decidable_of_iff' _ (Iff.of_eq (k0_chk80.eq_1 v979))
theorem k0_off86_inb : ∀ (v979 : BitVec 32) (k0_hw80 : k0_chk80 v979), ∀ a, (k0_off86 v979) a + S1x64.size a ≤ S1000000x64.size a := fun v979 k0_hw80 => k0_hw80.1
theorem k0_off218_inb : ∀ (v979 : BitVec 32) (k0_hw80 : k0_chk80 v979), ∀ a, (k0_off218 v979) a + S1x64.size a ≤ S1000000x64.size a := fun v979 k0_hw80 => k0_hw80.2

def k0_off219 (v1024 : BitVec 32) : Fin 2 → Nat :=
  let c0_i32_2398 : BitVec 32 := 0#32
  ![v1024.toNat, 0]

def k0_chk81 (v1024 : BitVec 32) : Prop :=
  (∀ a, (k0_off88 v1024) a + S1x64.size a ≤ S1000000x64.size a) ∧
  (∀ a, (k0_off219 v1024) a + S1x64.size a ≤ S1000000x64.size a)
instance k0_chk81.dec : ∀ (v1024 : BitVec 32), Decidable (k0_chk81 v1024) := fun v1024 => decidable_of_iff' _ (Iff.of_eq (k0_chk81.eq_1 v1024))
theorem k0_off88_inb : ∀ (v1024 : BitVec 32) (k0_hw81 : k0_chk81 v1024), ∀ a, (k0_off88 v1024) a + S1x64.size a ≤ S1000000x64.size a := fun v1024 k0_hw81 => k0_hw81.1
theorem k0_off219_inb : ∀ (v1024 : BitVec 32) (k0_hw81 : k0_chk81 v1024), ∀ a, (k0_off219 v1024) a + S1x64.size a ≤ S1000000x64.size a := fun v1024 k0_hw81 => k0_hw81.2

def k0_off220 (v1034 : BitVec 32) : Fin 2 → Nat :=
  let c0_i32_2409 : BitVec 32 := 0#32
  ![v1034.toNat, 0]

def k0_chk82 (v1034 : BitVec 32) : Prop :=
  (∀ a, (k0_off89 v1034) a + S1x64.size a ≤ S1000000x64.size a) ∧
  (∀ a, (k0_off220 v1034) a + S1x64.size a ≤ S1000000x64.size a)
instance k0_chk82.dec : ∀ (v1034 : BitVec 32), Decidable (k0_chk82 v1034) := fun v1034 => decidable_of_iff' _ (Iff.of_eq (k0_chk82.eq_1 v1034))
theorem k0_off89_inb : ∀ (v1034 : BitVec 32) (k0_hw82 : k0_chk82 v1034), ∀ a, (k0_off89 v1034) a + S1x64.size a ≤ S1000000x64.size a := fun v1034 k0_hw82 => k0_hw82.1
theorem k0_off220_inb : ∀ (v1034 : BitVec 32) (k0_hw82 : k0_chk82 v1034), ∀ a, (k0_off220 v1034) a + S1x64.size a ≤ S1000000x64.size a := fun v1034 k0_hw82 => k0_hw82.2

def k0_off221 (v1044 : BitVec 32) : Fin 2 → Nat :=
  let c0_i32_2420 : BitVec 32 := 0#32
  ![v1044.toNat, 0]

def k0_chk83 (v1044 : BitVec 32) : Prop :=
  (∀ a, (k0_off90 v1044) a + S1x64.size a ≤ S1000000x64.size a) ∧
  (∀ a, (k0_off221 v1044) a + S1x64.size a ≤ S1000000x64.size a)
instance k0_chk83.dec : ∀ (v1044 : BitVec 32), Decidable (k0_chk83 v1044) := fun v1044 => decidable_of_iff' _ (Iff.of_eq (k0_chk83.eq_1 v1044))
theorem k0_off90_inb : ∀ (v1044 : BitVec 32) (k0_hw83 : k0_chk83 v1044), ∀ a, (k0_off90 v1044) a + S1x64.size a ≤ S1000000x64.size a := fun v1044 k0_hw83 => k0_hw83.1
theorem k0_off221_inb : ∀ (v1044 : BitVec 32) (k0_hw83 : k0_chk83 v1044), ∀ a, (k0_off221 v1044) a + S1x64.size a ≤ S1000000x64.size a := fun v1044 k0_hw83 => k0_hw83.2

def k0_off222 (v1054 : BitVec 32) : Fin 2 → Nat :=
  let c0_i32_2431 : BitVec 32 := 0#32
  ![v1054.toNat, 0]

def k0_chk84 (v1054 : BitVec 32) : Prop :=
  (∀ a, (k0_off91 v1054) a + S1x64.size a ≤ S1000000x64.size a) ∧
  (∀ a, (k0_off222 v1054) a + S1x64.size a ≤ S1000000x64.size a)
instance k0_chk84.dec : ∀ (v1054 : BitVec 32), Decidable (k0_chk84 v1054) := fun v1054 => decidable_of_iff' _ (Iff.of_eq (k0_chk84.eq_1 v1054))
theorem k0_off91_inb : ∀ (v1054 : BitVec 32) (k0_hw84 : k0_chk84 v1054), ∀ a, (k0_off91 v1054) a + S1x64.size a ≤ S1000000x64.size a := fun v1054 k0_hw84 => k0_hw84.1
theorem k0_off222_inb : ∀ (v1054 : BitVec 32) (k0_hw84 : k0_chk84 v1054), ∀ a, (k0_off222 v1054) a + S1x64.size a ≤ S1000000x64.size a := fun v1054 k0_hw84 => k0_hw84.2

def k0_off223 (v1064 : BitVec 32) : Fin 2 → Nat :=
  let c0_i32_2442 : BitVec 32 := 0#32
  ![v1064.toNat, 0]

def k0_chk85 (v1064 : BitVec 32) : Prop :=
  (∀ a, (k0_off92 v1064) a + S1x64.size a ≤ S1000000x64.size a) ∧
  (∀ a, (k0_off223 v1064) a + S1x64.size a ≤ S1000000x64.size a)
instance k0_chk85.dec : ∀ (v1064 : BitVec 32), Decidable (k0_chk85 v1064) := fun v1064 => decidable_of_iff' _ (Iff.of_eq (k0_chk85.eq_1 v1064))
theorem k0_off92_inb : ∀ (v1064 : BitVec 32) (k0_hw85 : k0_chk85 v1064), ∀ a, (k0_off92 v1064) a + S1x64.size a ≤ S1000000x64.size a := fun v1064 k0_hw85 => k0_hw85.1
theorem k0_off223_inb : ∀ (v1064 : BitVec 32) (k0_hw85 : k0_chk85 v1064), ∀ a, (k0_off223 v1064) a + S1x64.size a ≤ S1000000x64.size a := fun v1064 k0_hw85 => k0_hw85.2

def k0_off224 (v1074 : BitVec 32) : Fin 2 → Nat :=
  let c0_i32_2453 : BitVec 32 := 0#32
  ![v1074.toNat, 0]

def k0_chk86 (v1074 : BitVec 32) : Prop :=
  (∀ a, (k0_off93 v1074) a + S1x64.size a ≤ S1000000x64.size a) ∧
  (∀ a, (k0_off224 v1074) a + S1x64.size a ≤ S1000000x64.size a)
instance k0_chk86.dec : ∀ (v1074 : BitVec 32), Decidable (k0_chk86 v1074) := fun v1074 => decidable_of_iff' _ (Iff.of_eq (k0_chk86.eq_1 v1074))
theorem k0_off93_inb : ∀ (v1074 : BitVec 32) (k0_hw86 : k0_chk86 v1074), ∀ a, (k0_off93 v1074) a + S1x64.size a ≤ S1000000x64.size a := fun v1074 k0_hw86 => k0_hw86.1
theorem k0_off224_inb : ∀ (v1074 : BitVec 32) (k0_hw86 : k0_chk86 v1074), ∀ a, (k0_off224 v1074) a + S1x64.size a ≤ S1000000x64.size a := fun v1074 k0_hw86 => k0_hw86.2

def k0_off225 (v1084 : BitVec 32) : Fin 2 → Nat :=
  let c0_i32_2464 : BitVec 32 := 0#32
  ![v1084.toNat, 0]

def k0_chk87 (v1084 : BitVec 32) : Prop :=
  (∀ a, (k0_off94 v1084) a + S1x64.size a ≤ S1000000x64.size a) ∧
  (∀ a, (k0_off225 v1084) a + S1x64.size a ≤ S1000000x64.size a)
instance k0_chk87.dec : ∀ (v1084 : BitVec 32), Decidable (k0_chk87 v1084) := fun v1084 => decidable_of_iff' _ (Iff.of_eq (k0_chk87.eq_1 v1084))
theorem k0_off94_inb : ∀ (v1084 : BitVec 32) (k0_hw87 : k0_chk87 v1084), ∀ a, (k0_off94 v1084) a + S1x64.size a ≤ S1000000x64.size a := fun v1084 k0_hw87 => k0_hw87.1
theorem k0_off225_inb : ∀ (v1084 : BitVec 32) (k0_hw87 : k0_chk87 v1084), ∀ a, (k0_off225 v1084) a + S1x64.size a ≤ S1000000x64.size a := fun v1084 k0_hw87 => k0_hw87.2

def k0_off226 (v1094 : BitVec 32) : Fin 2 → Nat :=
  let c0_i32_2475 : BitVec 32 := 0#32
  ![v1094.toNat, 0]

def k0_chk88 (v1094 : BitVec 32) : Prop :=
  (∀ a, (k0_off95 v1094) a + S1x64.size a ≤ S1000000x64.size a) ∧
  (∀ a, (k0_off226 v1094) a + S1x64.size a ≤ S1000000x64.size a)
instance k0_chk88.dec : ∀ (v1094 : BitVec 32), Decidable (k0_chk88 v1094) := fun v1094 => decidable_of_iff' _ (Iff.of_eq (k0_chk88.eq_1 v1094))
theorem k0_off95_inb : ∀ (v1094 : BitVec 32) (k0_hw88 : k0_chk88 v1094), ∀ a, (k0_off95 v1094) a + S1x64.size a ≤ S1000000x64.size a := fun v1094 k0_hw88 => k0_hw88.1
theorem k0_off226_inb : ∀ (v1094 : BitVec 32) (k0_hw88 : k0_chk88 v1094), ∀ a, (k0_off226 v1094) a + S1x64.size a ≤ S1000000x64.size a := fun v1094 k0_hw88 => k0_hw88.2

def k0_off227 (v1104 : BitVec 32) : Fin 2 → Nat :=
  let c0_i32_2486 : BitVec 32 := 0#32
  ![v1104.toNat, 0]

def k0_chk89 (v1104 : BitVec 32) : Prop :=
  (∀ a, (k0_off96 v1104) a + S1x64.size a ≤ S1000000x64.size a) ∧
  (∀ a, (k0_off227 v1104) a + S1x64.size a ≤ S1000000x64.size a)
instance k0_chk89.dec : ∀ (v1104 : BitVec 32), Decidable (k0_chk89 v1104) := fun v1104 => decidable_of_iff' _ (Iff.of_eq (k0_chk89.eq_1 v1104))
theorem k0_off96_inb : ∀ (v1104 : BitVec 32) (k0_hw89 : k0_chk89 v1104), ∀ a, (k0_off96 v1104) a + S1x64.size a ≤ S1000000x64.size a := fun v1104 k0_hw89 => k0_hw89.1
theorem k0_off227_inb : ∀ (v1104 : BitVec 32) (k0_hw89 : k0_chk89 v1104), ∀ a, (k0_off227 v1104) a + S1x64.size a ≤ S1000000x64.size a := fun v1104 k0_hw89 => k0_hw89.2

def k0_off228 (v1114 : BitVec 32) : Fin 2 → Nat :=
  let c0_i32_2497 : BitVec 32 := 0#32
  ![v1114.toNat, 0]

def k0_chk90 (v1114 : BitVec 32) : Prop :=
  (∀ a, (k0_off97 v1114) a + S1x64.size a ≤ S1000000x64.size a) ∧
  (∀ a, (k0_off228 v1114) a + S1x64.size a ≤ S1000000x64.size a)
instance k0_chk90.dec : ∀ (v1114 : BitVec 32), Decidable (k0_chk90 v1114) := fun v1114 => decidable_of_iff' _ (Iff.of_eq (k0_chk90.eq_1 v1114))
theorem k0_off97_inb : ∀ (v1114 : BitVec 32) (k0_hw90 : k0_chk90 v1114), ∀ a, (k0_off97 v1114) a + S1x64.size a ≤ S1000000x64.size a := fun v1114 k0_hw90 => k0_hw90.1
theorem k0_off228_inb : ∀ (v1114 : BitVec 32) (k0_hw90 : k0_chk90 v1114), ∀ a, (k0_off228 v1114) a + S1x64.size a ≤ S1000000x64.size a := fun v1114 k0_hw90 => k0_hw90.2

def k0_off229 (v1124 : BitVec 32) : Fin 2 → Nat :=
  let c0_i32_2508 : BitVec 32 := 0#32
  ![v1124.toNat, 0]

def k0_chk91 (v1124 : BitVec 32) : Prop :=
  (∀ a, (k0_off98 v1124) a + S1x64.size a ≤ S1000000x64.size a) ∧
  (∀ a, (k0_off229 v1124) a + S1x64.size a ≤ S1000000x64.size a)
instance k0_chk91.dec : ∀ (v1124 : BitVec 32), Decidable (k0_chk91 v1124) := fun v1124 => decidable_of_iff' _ (Iff.of_eq (k0_chk91.eq_1 v1124))
theorem k0_off98_inb : ∀ (v1124 : BitVec 32) (k0_hw91 : k0_chk91 v1124), ∀ a, (k0_off98 v1124) a + S1x64.size a ≤ S1000000x64.size a := fun v1124 k0_hw91 => k0_hw91.1
theorem k0_off229_inb : ∀ (v1124 : BitVec 32) (k0_hw91 : k0_chk91 v1124), ∀ a, (k0_off229 v1124) a + S1x64.size a ≤ S1000000x64.size a := fun v1124 k0_hw91 => k0_hw91.2

def k0_off230 (v1134 : BitVec 32) : Fin 2 → Nat :=
  let c0_i32_2519 : BitVec 32 := 0#32
  ![v1134.toNat, 0]

def k0_chk92 (v1134 : BitVec 32) : Prop :=
  (∀ a, (k0_off99 v1134) a + S1x64.size a ≤ S1000000x64.size a) ∧
  (∀ a, (k0_off230 v1134) a + S1x64.size a ≤ S1000000x64.size a)
instance k0_chk92.dec : ∀ (v1134 : BitVec 32), Decidable (k0_chk92 v1134) := fun v1134 => decidable_of_iff' _ (Iff.of_eq (k0_chk92.eq_1 v1134))
theorem k0_off99_inb : ∀ (v1134 : BitVec 32) (k0_hw92 : k0_chk92 v1134), ∀ a, (k0_off99 v1134) a + S1x64.size a ≤ S1000000x64.size a := fun v1134 k0_hw92 => k0_hw92.1
theorem k0_off230_inb : ∀ (v1134 : BitVec 32) (k0_hw92 : k0_chk92 v1134), ∀ a, (k0_off230 v1134) a + S1x64.size a ≤ S1000000x64.size a := fun v1134 k0_hw92 => k0_hw92.2

def k0_off231 (v1144 : BitVec 32) : Fin 2 → Nat :=
  let c0_i32_2530 : BitVec 32 := 0#32
  ![v1144.toNat, 0]

def k0_chk93 (v1144 : BitVec 32) : Prop :=
  (∀ a, (k0_off100 v1144) a + S1x64.size a ≤ S1000000x64.size a) ∧
  (∀ a, (k0_off231 v1144) a + S1x64.size a ≤ S1000000x64.size a)
instance k0_chk93.dec : ∀ (v1144 : BitVec 32), Decidable (k0_chk93 v1144) := fun v1144 => decidable_of_iff' _ (Iff.of_eq (k0_chk93.eq_1 v1144))
theorem k0_off100_inb : ∀ (v1144 : BitVec 32) (k0_hw93 : k0_chk93 v1144), ∀ a, (k0_off100 v1144) a + S1x64.size a ≤ S1000000x64.size a := fun v1144 k0_hw93 => k0_hw93.1
theorem k0_off231_inb : ∀ (v1144 : BitVec 32) (k0_hw93 : k0_chk93 v1144), ∀ a, (k0_off231 v1144) a + S1x64.size a ≤ S1000000x64.size a := fun v1144 k0_hw93 => k0_hw93.2

def k0_off232 (v1154 : BitVec 32) : Fin 2 → Nat :=
  let c0_i32_2541 : BitVec 32 := 0#32
  ![v1154.toNat, 0]

def k0_chk94 (v1154 : BitVec 32) : Prop :=
  (∀ a, (k0_off101 v1154) a + S1x64.size a ≤ S1000000x64.size a) ∧
  (∀ a, (k0_off232 v1154) a + S1x64.size a ≤ S1000000x64.size a)
instance k0_chk94.dec : ∀ (v1154 : BitVec 32), Decidable (k0_chk94 v1154) := fun v1154 => decidable_of_iff' _ (Iff.of_eq (k0_chk94.eq_1 v1154))
theorem k0_off101_inb : ∀ (v1154 : BitVec 32) (k0_hw94 : k0_chk94 v1154), ∀ a, (k0_off101 v1154) a + S1x64.size a ≤ S1000000x64.size a := fun v1154 k0_hw94 => k0_hw94.1
theorem k0_off232_inb : ∀ (v1154 : BitVec 32) (k0_hw94 : k0_chk94 v1154), ∀ a, (k0_off232 v1154) a + S1x64.size a ≤ S1000000x64.size a := fun v1154 k0_hw94 => k0_hw94.2

def k0_off233 (v1164 : BitVec 32) : Fin 2 → Nat :=
  let c0_i32_2552 : BitVec 32 := 0#32
  ![v1164.toNat, 0]

def k0_chk95 (v1164 : BitVec 32) : Prop :=
  (∀ a, (k0_off102 v1164) a + S1x64.size a ≤ S1000000x64.size a) ∧
  (∀ a, (k0_off233 v1164) a + S1x64.size a ≤ S1000000x64.size a)
instance k0_chk95.dec : ∀ (v1164 : BitVec 32), Decidable (k0_chk95 v1164) := fun v1164 => decidable_of_iff' _ (Iff.of_eq (k0_chk95.eq_1 v1164))
theorem k0_off102_inb : ∀ (v1164 : BitVec 32) (k0_hw95 : k0_chk95 v1164), ∀ a, (k0_off102 v1164) a + S1x64.size a ≤ S1000000x64.size a := fun v1164 k0_hw95 => k0_hw95.1
theorem k0_off233_inb : ∀ (v1164 : BitVec 32) (k0_hw95 : k0_chk95 v1164), ∀ a, (k0_off233 v1164) a + S1x64.size a ≤ S1000000x64.size a := fun v1164 k0_hw95 => k0_hw95.2

def k0_off234 (v1174 : BitVec 32) : Fin 2 → Nat :=
  let c0_i32_2563 : BitVec 32 := 0#32
  ![v1174.toNat, 0]

def k0_chk96 (v1174 : BitVec 32) : Prop :=
  (∀ a, (k0_off103 v1174) a + S1x64.size a ≤ S1000000x64.size a) ∧
  (∀ a, (k0_off234 v1174) a + S1x64.size a ≤ S1000000x64.size a)
instance k0_chk96.dec : ∀ (v1174 : BitVec 32), Decidable (k0_chk96 v1174) := fun v1174 => decidable_of_iff' _ (Iff.of_eq (k0_chk96.eq_1 v1174))
theorem k0_off103_inb : ∀ (v1174 : BitVec 32) (k0_hw96 : k0_chk96 v1174), ∀ a, (k0_off103 v1174) a + S1x64.size a ≤ S1000000x64.size a := fun v1174 k0_hw96 => k0_hw96.1
theorem k0_off234_inb : ∀ (v1174 : BitVec 32) (k0_hw96 : k0_chk96 v1174), ∀ a, (k0_off234 v1174) a + S1x64.size a ≤ S1000000x64.size a := fun v1174 k0_hw96 => k0_hw96.2

def k0_off235 (v1219 : BitVec 32) : Fin 2 → Nat :=
  let c0_i32_2574 : BitVec 32 := 0#32
  ![v1219.toNat, 0]

def k0_chk97 (v1219 : BitVec 32) : Prop :=
  (∀ a, (k0_off105 v1219) a + S1x64.size a ≤ S1000000x64.size a) ∧
  (∀ a, (k0_off235 v1219) a + S1x64.size a ≤ S1000000x64.size a)
instance k0_chk97.dec : ∀ (v1219 : BitVec 32), Decidable (k0_chk97 v1219) := fun v1219 => decidable_of_iff' _ (Iff.of_eq (k0_chk97.eq_1 v1219))
theorem k0_off105_inb : ∀ (v1219 : BitVec 32) (k0_hw97 : k0_chk97 v1219), ∀ a, (k0_off105 v1219) a + S1x64.size a ≤ S1000000x64.size a := fun v1219 k0_hw97 => k0_hw97.1
theorem k0_off235_inb : ∀ (v1219 : BitVec 32) (k0_hw97 : k0_chk97 v1219), ∀ a, (k0_off235 v1219) a + S1x64.size a ≤ S1000000x64.size a := fun v1219 k0_hw97 => k0_hw97.2

def k0_off236 (v1229 : BitVec 32) : Fin 2 → Nat :=
  let c0_i32_2585 : BitVec 32 := 0#32
  ![v1229.toNat, 0]

def k0_chk98 (v1229 : BitVec 32) : Prop :=
  (∀ a, (k0_off106 v1229) a + S1x64.size a ≤ S1000000x64.size a) ∧
  (∀ a, (k0_off236 v1229) a + S1x64.size a ≤ S1000000x64.size a)
instance k0_chk98.dec : ∀ (v1229 : BitVec 32), Decidable (k0_chk98 v1229) := fun v1229 => decidable_of_iff' _ (Iff.of_eq (k0_chk98.eq_1 v1229))
theorem k0_off106_inb : ∀ (v1229 : BitVec 32) (k0_hw98 : k0_chk98 v1229), ∀ a, (k0_off106 v1229) a + S1x64.size a ≤ S1000000x64.size a := fun v1229 k0_hw98 => k0_hw98.1
theorem k0_off236_inb : ∀ (v1229 : BitVec 32) (k0_hw98 : k0_chk98 v1229), ∀ a, (k0_off236 v1229) a + S1x64.size a ≤ S1000000x64.size a := fun v1229 k0_hw98 => k0_hw98.2

def k0_off237 (v1239 : BitVec 32) : Fin 2 → Nat :=
  let c0_i32_2596 : BitVec 32 := 0#32
  ![v1239.toNat, 0]

def k0_chk99 (v1239 : BitVec 32) : Prop :=
  (∀ a, (k0_off107 v1239) a + S1x64.size a ≤ S1000000x64.size a) ∧
  (∀ a, (k0_off237 v1239) a + S1x64.size a ≤ S1000000x64.size a)
instance k0_chk99.dec : ∀ (v1239 : BitVec 32), Decidable (k0_chk99 v1239) := fun v1239 => decidable_of_iff' _ (Iff.of_eq (k0_chk99.eq_1 v1239))
theorem k0_off107_inb : ∀ (v1239 : BitVec 32) (k0_hw99 : k0_chk99 v1239), ∀ a, (k0_off107 v1239) a + S1x64.size a ≤ S1000000x64.size a := fun v1239 k0_hw99 => k0_hw99.1
theorem k0_off237_inb : ∀ (v1239 : BitVec 32) (k0_hw99 : k0_chk99 v1239), ∀ a, (k0_off237 v1239) a + S1x64.size a ≤ S1000000x64.size a := fun v1239 k0_hw99 => k0_hw99.2

def k0_off238 (v1249 : BitVec 32) : Fin 2 → Nat :=
  let c0_i32_2607 : BitVec 32 := 0#32
  ![v1249.toNat, 0]

def k0_chk100 (v1249 : BitVec 32) : Prop :=
  (∀ a, (k0_off108 v1249) a + S1x64.size a ≤ S1000000x64.size a) ∧
  (∀ a, (k0_off238 v1249) a + S1x64.size a ≤ S1000000x64.size a)
instance k0_chk100.dec : ∀ (v1249 : BitVec 32), Decidable (k0_chk100 v1249) := fun v1249 => decidable_of_iff' _ (Iff.of_eq (k0_chk100.eq_1 v1249))
theorem k0_off108_inb : ∀ (v1249 : BitVec 32) (k0_hw100 : k0_chk100 v1249), ∀ a, (k0_off108 v1249) a + S1x64.size a ≤ S1000000x64.size a := fun v1249 k0_hw100 => k0_hw100.1
theorem k0_off238_inb : ∀ (v1249 : BitVec 32) (k0_hw100 : k0_chk100 v1249), ∀ a, (k0_off238 v1249) a + S1x64.size a ≤ S1000000x64.size a := fun v1249 k0_hw100 => k0_hw100.2

def k0_off239 (v1259 : BitVec 32) : Fin 2 → Nat :=
  let c0_i32_2618 : BitVec 32 := 0#32
  ![v1259.toNat, 0]

def k0_chk101 (v1259 : BitVec 32) : Prop :=
  (∀ a, (k0_off109 v1259) a + S1x64.size a ≤ S1000000x64.size a) ∧
  (∀ a, (k0_off239 v1259) a + S1x64.size a ≤ S1000000x64.size a)
instance k0_chk101.dec : ∀ (v1259 : BitVec 32), Decidable (k0_chk101 v1259) := fun v1259 => decidable_of_iff' _ (Iff.of_eq (k0_chk101.eq_1 v1259))
theorem k0_off109_inb : ∀ (v1259 : BitVec 32) (k0_hw101 : k0_chk101 v1259), ∀ a, (k0_off109 v1259) a + S1x64.size a ≤ S1000000x64.size a := fun v1259 k0_hw101 => k0_hw101.1
theorem k0_off239_inb : ∀ (v1259 : BitVec 32) (k0_hw101 : k0_chk101 v1259), ∀ a, (k0_off239 v1259) a + S1x64.size a ≤ S1000000x64.size a := fun v1259 k0_hw101 => k0_hw101.2

def k0_off240 (v1269 : BitVec 32) : Fin 2 → Nat :=
  let c0_i32_2629 : BitVec 32 := 0#32
  ![v1269.toNat, 0]

def k0_chk102 (v1269 : BitVec 32) : Prop :=
  (∀ a, (k0_off110 v1269) a + S1x64.size a ≤ S1000000x64.size a) ∧
  (∀ a, (k0_off240 v1269) a + S1x64.size a ≤ S1000000x64.size a)
instance k0_chk102.dec : ∀ (v1269 : BitVec 32), Decidable (k0_chk102 v1269) := fun v1269 => decidable_of_iff' _ (Iff.of_eq (k0_chk102.eq_1 v1269))
theorem k0_off110_inb : ∀ (v1269 : BitVec 32) (k0_hw102 : k0_chk102 v1269), ∀ a, (k0_off110 v1269) a + S1x64.size a ≤ S1000000x64.size a := fun v1269 k0_hw102 => k0_hw102.1
theorem k0_off240_inb : ∀ (v1269 : BitVec 32) (k0_hw102 : k0_chk102 v1269), ∀ a, (k0_off240 v1269) a + S1x64.size a ≤ S1000000x64.size a := fun v1269 k0_hw102 => k0_hw102.2

def k0_off241 (v1279 : BitVec 32) : Fin 2 → Nat :=
  let c0_i32_2640 : BitVec 32 := 0#32
  ![v1279.toNat, 0]

def k0_chk103 (v1279 : BitVec 32) : Prop :=
  (∀ a, (k0_off111 v1279) a + S1x64.size a ≤ S1000000x64.size a) ∧
  (∀ a, (k0_off241 v1279) a + S1x64.size a ≤ S1000000x64.size a)
instance k0_chk103.dec : ∀ (v1279 : BitVec 32), Decidable (k0_chk103 v1279) := fun v1279 => decidable_of_iff' _ (Iff.of_eq (k0_chk103.eq_1 v1279))
theorem k0_off111_inb : ∀ (v1279 : BitVec 32) (k0_hw103 : k0_chk103 v1279), ∀ a, (k0_off111 v1279) a + S1x64.size a ≤ S1000000x64.size a := fun v1279 k0_hw103 => k0_hw103.1
theorem k0_off241_inb : ∀ (v1279 : BitVec 32) (k0_hw103 : k0_chk103 v1279), ∀ a, (k0_off241 v1279) a + S1x64.size a ≤ S1000000x64.size a := fun v1279 k0_hw103 => k0_hw103.2

def k0_off242 (v1289 : BitVec 32) : Fin 2 → Nat :=
  let c0_i32_2651 : BitVec 32 := 0#32
  ![v1289.toNat, 0]

def k0_chk104 (v1289 : BitVec 32) : Prop :=
  (∀ a, (k0_off112 v1289) a + S1x64.size a ≤ S1000000x64.size a) ∧
  (∀ a, (k0_off242 v1289) a + S1x64.size a ≤ S1000000x64.size a)
instance k0_chk104.dec : ∀ (v1289 : BitVec 32), Decidable (k0_chk104 v1289) := fun v1289 => decidable_of_iff' _ (Iff.of_eq (k0_chk104.eq_1 v1289))
theorem k0_off112_inb : ∀ (v1289 : BitVec 32) (k0_hw104 : k0_chk104 v1289), ∀ a, (k0_off112 v1289) a + S1x64.size a ≤ S1000000x64.size a := fun v1289 k0_hw104 => k0_hw104.1
theorem k0_off242_inb : ∀ (v1289 : BitVec 32) (k0_hw104 : k0_chk104 v1289), ∀ a, (k0_off242 v1289) a + S1x64.size a ≤ S1000000x64.size a := fun v1289 k0_hw104 => k0_hw104.2

def k0_off243 (v1299 : BitVec 32) : Fin 2 → Nat :=
  let c0_i32_2662 : BitVec 32 := 0#32
  ![v1299.toNat, 0]

def k0_chk105 (v1299 : BitVec 32) : Prop :=
  (∀ a, (k0_off113 v1299) a + S1x64.size a ≤ S1000000x64.size a) ∧
  (∀ a, (k0_off243 v1299) a + S1x64.size a ≤ S1000000x64.size a)
instance k0_chk105.dec : ∀ (v1299 : BitVec 32), Decidable (k0_chk105 v1299) := fun v1299 => decidable_of_iff' _ (Iff.of_eq (k0_chk105.eq_1 v1299))
theorem k0_off113_inb : ∀ (v1299 : BitVec 32) (k0_hw105 : k0_chk105 v1299), ∀ a, (k0_off113 v1299) a + S1x64.size a ≤ S1000000x64.size a := fun v1299 k0_hw105 => k0_hw105.1
theorem k0_off243_inb : ∀ (v1299 : BitVec 32) (k0_hw105 : k0_chk105 v1299), ∀ a, (k0_off243 v1299) a + S1x64.size a ≤ S1000000x64.size a := fun v1299 k0_hw105 => k0_hw105.2

def k0_off244 (v1309 : BitVec 32) : Fin 2 → Nat :=
  let c0_i32_2673 : BitVec 32 := 0#32
  ![v1309.toNat, 0]

def k0_chk106 (v1309 : BitVec 32) : Prop :=
  (∀ a, (k0_off114 v1309) a + S1x64.size a ≤ S1000000x64.size a) ∧
  (∀ a, (k0_off244 v1309) a + S1x64.size a ≤ S1000000x64.size a)
instance k0_chk106.dec : ∀ (v1309 : BitVec 32), Decidable (k0_chk106 v1309) := fun v1309 => decidable_of_iff' _ (Iff.of_eq (k0_chk106.eq_1 v1309))
theorem k0_off114_inb : ∀ (v1309 : BitVec 32) (k0_hw106 : k0_chk106 v1309), ∀ a, (k0_off114 v1309) a + S1x64.size a ≤ S1000000x64.size a := fun v1309 k0_hw106 => k0_hw106.1
theorem k0_off244_inb : ∀ (v1309 : BitVec 32) (k0_hw106 : k0_chk106 v1309), ∀ a, (k0_off244 v1309) a + S1x64.size a ≤ S1000000x64.size a := fun v1309 k0_hw106 => k0_hw106.2

def k0_off245 (v1319 : BitVec 32) : Fin 2 → Nat :=
  let c0_i32_2684 : BitVec 32 := 0#32
  ![v1319.toNat, 0]

def k0_chk107 (v1319 : BitVec 32) : Prop :=
  (∀ a, (k0_off115 v1319) a + S1x64.size a ≤ S1000000x64.size a) ∧
  (∀ a, (k0_off245 v1319) a + S1x64.size a ≤ S1000000x64.size a)
instance k0_chk107.dec : ∀ (v1319 : BitVec 32), Decidable (k0_chk107 v1319) := fun v1319 => decidable_of_iff' _ (Iff.of_eq (k0_chk107.eq_1 v1319))
theorem k0_off115_inb : ∀ (v1319 : BitVec 32) (k0_hw107 : k0_chk107 v1319), ∀ a, (k0_off115 v1319) a + S1x64.size a ≤ S1000000x64.size a := fun v1319 k0_hw107 => k0_hw107.1
theorem k0_off245_inb : ∀ (v1319 : BitVec 32) (k0_hw107 : k0_chk107 v1319), ∀ a, (k0_off245 v1319) a + S1x64.size a ≤ S1000000x64.size a := fun v1319 k0_hw107 => k0_hw107.2

def k0_off246 (v1329 : BitVec 32) : Fin 2 → Nat :=
  let c0_i32_2695 : BitVec 32 := 0#32
  ![v1329.toNat, 0]

def k0_chk108 (v1329 : BitVec 32) : Prop :=
  (∀ a, (k0_off116 v1329) a + S1x64.size a ≤ S1000000x64.size a) ∧
  (∀ a, (k0_off246 v1329) a + S1x64.size a ≤ S1000000x64.size a)
instance k0_chk108.dec : ∀ (v1329 : BitVec 32), Decidable (k0_chk108 v1329) := fun v1329 => decidable_of_iff' _ (Iff.of_eq (k0_chk108.eq_1 v1329))
theorem k0_off116_inb : ∀ (v1329 : BitVec 32) (k0_hw108 : k0_chk108 v1329), ∀ a, (k0_off116 v1329) a + S1x64.size a ≤ S1000000x64.size a := fun v1329 k0_hw108 => k0_hw108.1
theorem k0_off246_inb : ∀ (v1329 : BitVec 32) (k0_hw108 : k0_chk108 v1329), ∀ a, (k0_off246 v1329) a + S1x64.size a ≤ S1000000x64.size a := fun v1329 k0_hw108 => k0_hw108.2

def k0_off247 (v1339 : BitVec 32) : Fin 2 → Nat :=
  let c0_i32_2706 : BitVec 32 := 0#32
  ![v1339.toNat, 0]

def k0_chk109 (v1339 : BitVec 32) : Prop :=
  (∀ a, (k0_off117 v1339) a + S1x64.size a ≤ S1000000x64.size a) ∧
  (∀ a, (k0_off247 v1339) a + S1x64.size a ≤ S1000000x64.size a)
instance k0_chk109.dec : ∀ (v1339 : BitVec 32), Decidable (k0_chk109 v1339) := fun v1339 => decidable_of_iff' _ (Iff.of_eq (k0_chk109.eq_1 v1339))
theorem k0_off117_inb : ∀ (v1339 : BitVec 32) (k0_hw109 : k0_chk109 v1339), ∀ a, (k0_off117 v1339) a + S1x64.size a ≤ S1000000x64.size a := fun v1339 k0_hw109 => k0_hw109.1
theorem k0_off247_inb : ∀ (v1339 : BitVec 32) (k0_hw109 : k0_chk109 v1339), ∀ a, (k0_off247 v1339) a + S1x64.size a ≤ S1000000x64.size a := fun v1339 k0_hw109 => k0_hw109.2

def k0_off248 (v1349 : BitVec 32) : Fin 2 → Nat :=
  let c0_i32_2717 : BitVec 32 := 0#32
  ![v1349.toNat, 0]

def k0_chk110 (v1349 : BitVec 32) : Prop :=
  (∀ a, (k0_off118 v1349) a + S1x64.size a ≤ S1000000x64.size a) ∧
  (∀ a, (k0_off248 v1349) a + S1x64.size a ≤ S1000000x64.size a)
instance k0_chk110.dec : ∀ (v1349 : BitVec 32), Decidable (k0_chk110 v1349) := fun v1349 => decidable_of_iff' _ (Iff.of_eq (k0_chk110.eq_1 v1349))
theorem k0_off118_inb : ∀ (v1349 : BitVec 32) (k0_hw110 : k0_chk110 v1349), ∀ a, (k0_off118 v1349) a + S1x64.size a ≤ S1000000x64.size a := fun v1349 k0_hw110 => k0_hw110.1
theorem k0_off248_inb : ∀ (v1349 : BitVec 32) (k0_hw110 : k0_chk110 v1349), ∀ a, (k0_off248 v1349) a + S1x64.size a ≤ S1000000x64.size a := fun v1349 k0_hw110 => k0_hw110.2

def k0_off249 (v1359 : BitVec 32) : Fin 2 → Nat :=
  let c0_i32_2728 : BitVec 32 := 0#32
  ![v1359.toNat, 0]

def k0_chk111 (v1359 : BitVec 32) : Prop :=
  (∀ a, (k0_off119 v1359) a + S1x64.size a ≤ S1000000x64.size a) ∧
  (∀ a, (k0_off249 v1359) a + S1x64.size a ≤ S1000000x64.size a)
instance k0_chk111.dec : ∀ (v1359 : BitVec 32), Decidable (k0_chk111 v1359) := fun v1359 => decidable_of_iff' _ (Iff.of_eq (k0_chk111.eq_1 v1359))
theorem k0_off119_inb : ∀ (v1359 : BitVec 32) (k0_hw111 : k0_chk111 v1359), ∀ a, (k0_off119 v1359) a + S1x64.size a ≤ S1000000x64.size a := fun v1359 k0_hw111 => k0_hw111.1
theorem k0_off249_inb : ∀ (v1359 : BitVec 32) (k0_hw111 : k0_chk111 v1359), ∀ a, (k0_off249 v1359) a + S1x64.size a ≤ S1000000x64.size a := fun v1359 k0_hw111 => k0_hw111.2

def k0_off250 (v1369 : BitVec 32) : Fin 2 → Nat :=
  let c0_i32_2739 : BitVec 32 := 0#32
  ![v1369.toNat, 0]

def k0_chk112 (v1369 : BitVec 32) : Prop :=
  (∀ a, (k0_off120 v1369) a + S1x64.size a ≤ S1000000x64.size a) ∧
  (∀ a, (k0_off250 v1369) a + S1x64.size a ≤ S1000000x64.size a)
instance k0_chk112.dec : ∀ (v1369 : BitVec 32), Decidable (k0_chk112 v1369) := fun v1369 => decidable_of_iff' _ (Iff.of_eq (k0_chk112.eq_1 v1369))
theorem k0_off120_inb : ∀ (v1369 : BitVec 32) (k0_hw112 : k0_chk112 v1369), ∀ a, (k0_off120 v1369) a + S1x64.size a ≤ S1000000x64.size a := fun v1369 k0_hw112 => k0_hw112.1
theorem k0_off250_inb : ∀ (v1369 : BitVec 32) (k0_hw112 : k0_chk112 v1369), ∀ a, (k0_off250 v1369) a + S1x64.size a ≤ S1000000x64.size a := fun v1369 k0_hw112 => k0_hw112.2

def k0_off251 (v1414 : BitVec 32) : Fin 2 → Nat :=
  let c0_i32_2750 : BitVec 32 := 0#32
  ![v1414.toNat, 0]

def k0_chk113 (v1414 : BitVec 32) : Prop :=
  (∀ a, (k0_off122 v1414) a + S1x64.size a ≤ S1000000x64.size a) ∧
  (∀ a, (k0_off251 v1414) a + S1x64.size a ≤ S1000000x64.size a)
instance k0_chk113.dec : ∀ (v1414 : BitVec 32), Decidable (k0_chk113 v1414) := fun v1414 => decidable_of_iff' _ (Iff.of_eq (k0_chk113.eq_1 v1414))
theorem k0_off122_inb : ∀ (v1414 : BitVec 32) (k0_hw113 : k0_chk113 v1414), ∀ a, (k0_off122 v1414) a + S1x64.size a ≤ S1000000x64.size a := fun v1414 k0_hw113 => k0_hw113.1
theorem k0_off251_inb : ∀ (v1414 : BitVec 32) (k0_hw113 : k0_chk113 v1414), ∀ a, (k0_off251 v1414) a + S1x64.size a ≤ S1000000x64.size a := fun v1414 k0_hw113 => k0_hw113.2

def k0_off252 (v1424 : BitVec 32) : Fin 2 → Nat :=
  let c0_i32_2761 : BitVec 32 := 0#32
  ![v1424.toNat, 0]

def k0_chk114 (v1424 : BitVec 32) : Prop :=
  (∀ a, (k0_off123 v1424) a + S1x64.size a ≤ S1000000x64.size a) ∧
  (∀ a, (k0_off252 v1424) a + S1x64.size a ≤ S1000000x64.size a)
instance k0_chk114.dec : ∀ (v1424 : BitVec 32), Decidable (k0_chk114 v1424) := fun v1424 => decidable_of_iff' _ (Iff.of_eq (k0_chk114.eq_1 v1424))
theorem k0_off123_inb : ∀ (v1424 : BitVec 32) (k0_hw114 : k0_chk114 v1424), ∀ a, (k0_off123 v1424) a + S1x64.size a ≤ S1000000x64.size a := fun v1424 k0_hw114 => k0_hw114.1
theorem k0_off252_inb : ∀ (v1424 : BitVec 32) (k0_hw114 : k0_chk114 v1424), ∀ a, (k0_off252 v1424) a + S1x64.size a ≤ S1000000x64.size a := fun v1424 k0_hw114 => k0_hw114.2

def k0_off253 (v1434 : BitVec 32) : Fin 2 → Nat :=
  let c0_i32_2772 : BitVec 32 := 0#32
  ![v1434.toNat, 0]

def k0_chk115 (v1434 : BitVec 32) : Prop :=
  (∀ a, (k0_off124 v1434) a + S1x64.size a ≤ S1000000x64.size a) ∧
  (∀ a, (k0_off253 v1434) a + S1x64.size a ≤ S1000000x64.size a)
instance k0_chk115.dec : ∀ (v1434 : BitVec 32), Decidable (k0_chk115 v1434) := fun v1434 => decidable_of_iff' _ (Iff.of_eq (k0_chk115.eq_1 v1434))
theorem k0_off124_inb : ∀ (v1434 : BitVec 32) (k0_hw115 : k0_chk115 v1434), ∀ a, (k0_off124 v1434) a + S1x64.size a ≤ S1000000x64.size a := fun v1434 k0_hw115 => k0_hw115.1
theorem k0_off253_inb : ∀ (v1434 : BitVec 32) (k0_hw115 : k0_chk115 v1434), ∀ a, (k0_off253 v1434) a + S1x64.size a ≤ S1000000x64.size a := fun v1434 k0_hw115 => k0_hw115.2

def k0_off254 (v1444 : BitVec 32) : Fin 2 → Nat :=
  let c0_i32_2783 : BitVec 32 := 0#32
  ![v1444.toNat, 0]

def k0_chk116 (v1444 : BitVec 32) : Prop :=
  (∀ a, (k0_off125 v1444) a + S1x64.size a ≤ S1000000x64.size a) ∧
  (∀ a, (k0_off254 v1444) a + S1x64.size a ≤ S1000000x64.size a)
instance k0_chk116.dec : ∀ (v1444 : BitVec 32), Decidable (k0_chk116 v1444) := fun v1444 => decidable_of_iff' _ (Iff.of_eq (k0_chk116.eq_1 v1444))
theorem k0_off125_inb : ∀ (v1444 : BitVec 32) (k0_hw116 : k0_chk116 v1444), ∀ a, (k0_off125 v1444) a + S1x64.size a ≤ S1000000x64.size a := fun v1444 k0_hw116 => k0_hw116.1
theorem k0_off254_inb : ∀ (v1444 : BitVec 32) (k0_hw116 : k0_chk116 v1444), ∀ a, (k0_off254 v1444) a + S1x64.size a ≤ S1000000x64.size a := fun v1444 k0_hw116 => k0_hw116.2

def k0_off255 (v1454 : BitVec 32) : Fin 2 → Nat :=
  let c0_i32_2794 : BitVec 32 := 0#32
  ![v1454.toNat, 0]

def k0_chk117 (v1454 : BitVec 32) : Prop :=
  (∀ a, (k0_off126 v1454) a + S1x64.size a ≤ S1000000x64.size a) ∧
  (∀ a, (k0_off255 v1454) a + S1x64.size a ≤ S1000000x64.size a)
instance k0_chk117.dec : ∀ (v1454 : BitVec 32), Decidable (k0_chk117 v1454) := fun v1454 => decidable_of_iff' _ (Iff.of_eq (k0_chk117.eq_1 v1454))
theorem k0_off126_inb : ∀ (v1454 : BitVec 32) (k0_hw117 : k0_chk117 v1454), ∀ a, (k0_off126 v1454) a + S1x64.size a ≤ S1000000x64.size a := fun v1454 k0_hw117 => k0_hw117.1
theorem k0_off255_inb : ∀ (v1454 : BitVec 32) (k0_hw117 : k0_chk117 v1454), ∀ a, (k0_off255 v1454) a + S1x64.size a ≤ S1000000x64.size a := fun v1454 k0_hw117 => k0_hw117.2

def k0_off256 (v1464 : BitVec 32) : Fin 2 → Nat :=
  let c0_i32_2805 : BitVec 32 := 0#32
  ![v1464.toNat, 0]

def k0_chk118 (v1464 : BitVec 32) : Prop :=
  (∀ a, (k0_off127 v1464) a + S1x64.size a ≤ S1000000x64.size a) ∧
  (∀ a, (k0_off256 v1464) a + S1x64.size a ≤ S1000000x64.size a)
instance k0_chk118.dec : ∀ (v1464 : BitVec 32), Decidable (k0_chk118 v1464) := fun v1464 => decidable_of_iff' _ (Iff.of_eq (k0_chk118.eq_1 v1464))
theorem k0_off127_inb : ∀ (v1464 : BitVec 32) (k0_hw118 : k0_chk118 v1464), ∀ a, (k0_off127 v1464) a + S1x64.size a ≤ S1000000x64.size a := fun v1464 k0_hw118 => k0_hw118.1
theorem k0_off256_inb : ∀ (v1464 : BitVec 32) (k0_hw118 : k0_chk118 v1464), ∀ a, (k0_off256 v1464) a + S1x64.size a ≤ S1000000x64.size a := fun v1464 k0_hw118 => k0_hw118.2

def k0_off257 (v1474 : BitVec 32) : Fin 2 → Nat :=
  let c0_i32_2816 : BitVec 32 := 0#32
  ![v1474.toNat, 0]

def k0_chk119 (v1474 : BitVec 32) : Prop :=
  (∀ a, (k0_off128 v1474) a + S1x64.size a ≤ S1000000x64.size a) ∧
  (∀ a, (k0_off257 v1474) a + S1x64.size a ≤ S1000000x64.size a)
instance k0_chk119.dec : ∀ (v1474 : BitVec 32), Decidable (k0_chk119 v1474) := fun v1474 => decidable_of_iff' _ (Iff.of_eq (k0_chk119.eq_1 v1474))
theorem k0_off128_inb : ∀ (v1474 : BitVec 32) (k0_hw119 : k0_chk119 v1474), ∀ a, (k0_off128 v1474) a + S1x64.size a ≤ S1000000x64.size a := fun v1474 k0_hw119 => k0_hw119.1
theorem k0_off257_inb : ∀ (v1474 : BitVec 32) (k0_hw119 : k0_chk119 v1474), ∀ a, (k0_off257 v1474) a + S1x64.size a ≤ S1000000x64.size a := fun v1474 k0_hw119 => k0_hw119.2

def k0_off258 (v1484 : BitVec 32) : Fin 2 → Nat :=
  let c0_i32_2827 : BitVec 32 := 0#32
  ![v1484.toNat, 0]

def k0_chk120 (v1484 : BitVec 32) : Prop :=
  (∀ a, (k0_off129 v1484) a + S1x64.size a ≤ S1000000x64.size a) ∧
  (∀ a, (k0_off258 v1484) a + S1x64.size a ≤ S1000000x64.size a)
instance k0_chk120.dec : ∀ (v1484 : BitVec 32), Decidable (k0_chk120 v1484) := fun v1484 => decidable_of_iff' _ (Iff.of_eq (k0_chk120.eq_1 v1484))
theorem k0_off129_inb : ∀ (v1484 : BitVec 32) (k0_hw120 : k0_chk120 v1484), ∀ a, (k0_off129 v1484) a + S1x64.size a ≤ S1000000x64.size a := fun v1484 k0_hw120 => k0_hw120.1
theorem k0_off258_inb : ∀ (v1484 : BitVec 32) (k0_hw120 : k0_chk120 v1484), ∀ a, (k0_off258 v1484) a + S1x64.size a ≤ S1000000x64.size a := fun v1484 k0_hw120 => k0_hw120.2

def k0_off259 (v1494 : BitVec 32) : Fin 2 → Nat :=
  let c0_i32_2838 : BitVec 32 := 0#32
  ![v1494.toNat, 0]

def k0_chk121 (v1494 : BitVec 32) : Prop :=
  (∀ a, (k0_off130 v1494) a + S1x64.size a ≤ S1000000x64.size a) ∧
  (∀ a, (k0_off259 v1494) a + S1x64.size a ≤ S1000000x64.size a)
instance k0_chk121.dec : ∀ (v1494 : BitVec 32), Decidable (k0_chk121 v1494) := fun v1494 => decidable_of_iff' _ (Iff.of_eq (k0_chk121.eq_1 v1494))
theorem k0_off130_inb : ∀ (v1494 : BitVec 32) (k0_hw121 : k0_chk121 v1494), ∀ a, (k0_off130 v1494) a + S1x64.size a ≤ S1000000x64.size a := fun v1494 k0_hw121 => k0_hw121.1
theorem k0_off259_inb : ∀ (v1494 : BitVec 32) (k0_hw121 : k0_chk121 v1494), ∀ a, (k0_off259 v1494) a + S1x64.size a ≤ S1000000x64.size a := fun v1494 k0_hw121 => k0_hw121.2

def k0_off260 (v1504 : BitVec 32) : Fin 2 → Nat :=
  let c0_i32_2849 : BitVec 32 := 0#32
  ![v1504.toNat, 0]

def k0_chk122 (v1504 : BitVec 32) : Prop :=
  (∀ a, (k0_off131 v1504) a + S1x64.size a ≤ S1000000x64.size a) ∧
  (∀ a, (k0_off260 v1504) a + S1x64.size a ≤ S1000000x64.size a)
instance k0_chk122.dec : ∀ (v1504 : BitVec 32), Decidable (k0_chk122 v1504) := fun v1504 => decidable_of_iff' _ (Iff.of_eq (k0_chk122.eq_1 v1504))
theorem k0_off131_inb : ∀ (v1504 : BitVec 32) (k0_hw122 : k0_chk122 v1504), ∀ a, (k0_off131 v1504) a + S1x64.size a ≤ S1000000x64.size a := fun v1504 k0_hw122 => k0_hw122.1
theorem k0_off260_inb : ∀ (v1504 : BitVec 32) (k0_hw122 : k0_chk122 v1504), ∀ a, (k0_off260 v1504) a + S1x64.size a ≤ S1000000x64.size a := fun v1504 k0_hw122 => k0_hw122.2

def k0_off261 (v1514 : BitVec 32) : Fin 2 → Nat :=
  let c0_i32_2860 : BitVec 32 := 0#32
  ![v1514.toNat, 0]

def k0_chk123 (v1514 : BitVec 32) : Prop :=
  (∀ a, (k0_off132 v1514) a + S1x64.size a ≤ S1000000x64.size a) ∧
  (∀ a, (k0_off261 v1514) a + S1x64.size a ≤ S1000000x64.size a)
instance k0_chk123.dec : ∀ (v1514 : BitVec 32), Decidable (k0_chk123 v1514) := fun v1514 => decidable_of_iff' _ (Iff.of_eq (k0_chk123.eq_1 v1514))
theorem k0_off132_inb : ∀ (v1514 : BitVec 32) (k0_hw123 : k0_chk123 v1514), ∀ a, (k0_off132 v1514) a + S1x64.size a ≤ S1000000x64.size a := fun v1514 k0_hw123 => k0_hw123.1
theorem k0_off261_inb : ∀ (v1514 : BitVec 32) (k0_hw123 : k0_chk123 v1514), ∀ a, (k0_off261 v1514) a + S1x64.size a ≤ S1000000x64.size a := fun v1514 k0_hw123 => k0_hw123.2

def k0_off262 (v1524 : BitVec 32) : Fin 2 → Nat :=
  let c0_i32_2871 : BitVec 32 := 0#32
  ![v1524.toNat, 0]

def k0_chk124 (v1524 : BitVec 32) : Prop :=
  (∀ a, (k0_off133 v1524) a + S1x64.size a ≤ S1000000x64.size a) ∧
  (∀ a, (k0_off262 v1524) a + S1x64.size a ≤ S1000000x64.size a)
instance k0_chk124.dec : ∀ (v1524 : BitVec 32), Decidable (k0_chk124 v1524) := fun v1524 => decidable_of_iff' _ (Iff.of_eq (k0_chk124.eq_1 v1524))
theorem k0_off133_inb : ∀ (v1524 : BitVec 32) (k0_hw124 : k0_chk124 v1524), ∀ a, (k0_off133 v1524) a + S1x64.size a ≤ S1000000x64.size a := fun v1524 k0_hw124 => k0_hw124.1
theorem k0_off262_inb : ∀ (v1524 : BitVec 32) (k0_hw124 : k0_chk124 v1524), ∀ a, (k0_off262 v1524) a + S1x64.size a ≤ S1000000x64.size a := fun v1524 k0_hw124 => k0_hw124.2

def k0_off263 (v1534 : BitVec 32) : Fin 2 → Nat :=
  let c0_i32_2882 : BitVec 32 := 0#32
  ![v1534.toNat, 0]

def k0_chk125 (v1534 : BitVec 32) : Prop :=
  (∀ a, (k0_off134 v1534) a + S1x64.size a ≤ S1000000x64.size a) ∧
  (∀ a, (k0_off263 v1534) a + S1x64.size a ≤ S1000000x64.size a)
instance k0_chk125.dec : ∀ (v1534 : BitVec 32), Decidable (k0_chk125 v1534) := fun v1534 => decidable_of_iff' _ (Iff.of_eq (k0_chk125.eq_1 v1534))
theorem k0_off134_inb : ∀ (v1534 : BitVec 32) (k0_hw125 : k0_chk125 v1534), ∀ a, (k0_off134 v1534) a + S1x64.size a ≤ S1000000x64.size a := fun v1534 k0_hw125 => k0_hw125.1
theorem k0_off263_inb : ∀ (v1534 : BitVec 32) (k0_hw125 : k0_chk125 v1534), ∀ a, (k0_off263 v1534) a + S1x64.size a ≤ S1000000x64.size a := fun v1534 k0_hw125 => k0_hw125.2

def k0_off264 (v1544 : BitVec 32) : Fin 2 → Nat :=
  let c0_i32_2893 : BitVec 32 := 0#32
  ![v1544.toNat, 0]

def k0_chk126 (v1544 : BitVec 32) : Prop :=
  (∀ a, (k0_off135 v1544) a + S1x64.size a ≤ S1000000x64.size a) ∧
  (∀ a, (k0_off264 v1544) a + S1x64.size a ≤ S1000000x64.size a)
instance k0_chk126.dec : ∀ (v1544 : BitVec 32), Decidable (k0_chk126 v1544) := fun v1544 => decidable_of_iff' _ (Iff.of_eq (k0_chk126.eq_1 v1544))
theorem k0_off135_inb : ∀ (v1544 : BitVec 32) (k0_hw126 : k0_chk126 v1544), ∀ a, (k0_off135 v1544) a + S1x64.size a ≤ S1000000x64.size a := fun v1544 k0_hw126 => k0_hw126.1
theorem k0_off264_inb : ∀ (v1544 : BitVec 32) (k0_hw126 : k0_chk126 v1544), ∀ a, (k0_off264 v1544) a + S1x64.size a ≤ S1000000x64.size a := fun v1544 k0_hw126 => k0_hw126.2

def k0_off265 (v1554 : BitVec 32) : Fin 2 → Nat :=
  let c0_i32_2904 : BitVec 32 := 0#32
  ![v1554.toNat, 0]

def k0_chk127 (v1554 : BitVec 32) : Prop :=
  (∀ a, (k0_off136 v1554) a + S1x64.size a ≤ S1000000x64.size a) ∧
  (∀ a, (k0_off265 v1554) a + S1x64.size a ≤ S1000000x64.size a)
instance k0_chk127.dec : ∀ (v1554 : BitVec 32), Decidable (k0_chk127 v1554) := fun v1554 => decidable_of_iff' _ (Iff.of_eq (k0_chk127.eq_1 v1554))
theorem k0_off136_inb : ∀ (v1554 : BitVec 32) (k0_hw127 : k0_chk127 v1554), ∀ a, (k0_off136 v1554) a + S1x64.size a ≤ S1000000x64.size a := fun v1554 k0_hw127 => k0_hw127.1
theorem k0_off265_inb : ∀ (v1554 : BitVec 32) (k0_hw127 : k0_chk127 v1554), ∀ a, (k0_off265 v1554) a + S1x64.size a ≤ S1000000x64.size a := fun v1554 k0_hw127 => k0_hw127.2

@[reducible] def k0_t2_loop : Scf.Loop 32 :=
  let c0_i32_6 : BitVec 32 := 0#32
  let c4_i32_7 : BitVec 32 := 4#32
  let v7 : BitVec 32 := Scalar.addi c0_i32_6 c4_i32_7
  let c1_i32_8 : BitVec 32 := 1#32
  ⟨c0_i32_6, v7, c1_i32_8⟩
def k0_off266 (k0_t2 : Fin k0_t2_loop.trips) : Fin 2 → Nat :=
  let c2_i32_15 : BitVec 32 := 2#32
  let c0_i32_6 : BitVec 32 := 0#32
  let c1_i32_8 : BitVec 32 := 1#32
  let arg25 : BitVec 32 := Scf.iv c0_i32_6 c1_i32_8 k0_t2
  let v9 : BitVec 32 := Scalar.muli c2_i32_15 arg25
  let c0_i32_16 : BitVec 32 := 0#32
  let v10 : BitVec 32 := Scalar.addi v9 c0_i32_16
  let c64_i32 : BitVec 32 := 64#32
  let v11 : BitVec 32 := Scalar.muli v10 c64_i32
  let c0_i32_17 : BitVec 32 := 0#32
  let v12 : BitVec 32 := Scalar.addi v11 c0_i32_17
  let c0_i32_18 : BitVec 32 := 0#32
  let v14 : BitVec 1 := Scalar.cmpi .sgt v12 c0_i32_18
  let v15 : BitVec 32 := Scalar.extui v14
  let c0_i32_19 : BitVec 32 := 0#32
  let v16 : BitVec 1 := Scalar.cmpi .slt v12 c0_i32_19
  let v17 : BitVec 32 := Scalar.extui v16
  let v18 : BitVec 32 := Scalar.subi v15 v17
  let c128_i32 : BitVec 32 := 128#32
  let c0_i32_20 : BitVec 32 := 0#32
  let v19 : BitVec 1 := Scalar.cmpi .sgt c128_i32 c0_i32_20
  let v20 : BitVec 32 := Scalar.extui v19
  let c0_i32_21 : BitVec 32 := 0#32
  let v21 : BitVec 1 := Scalar.cmpi .slt c128_i32 c0_i32_21
  let v22 : BitVec 32 := Scalar.extui v21
  let v23 : BitVec 32 := Scalar.subi v20 v22
  let v24 : BitVec 1 := Scalar.cmpi .ne v18 v23
  let v25 : BitVec 32 := Scalar.remsi v12 c128_i32
  let c0_i32_22 : BitVec 32 := 0#32
  let v26 : BitVec 1 := Scalar.cmpi .ne v25 c0_i32_22
  let v27 : BitVec 1 := Scalar.andi v24 v26
  let v13 : BitVec 32 := Scalar.divsi v12 c128_i32
  let c1_i32_23 : BitVec 32 := 1#32
  let v28 : BitVec 32 := Scalar.subi v13 c1_i32_23
  let v29 : BitVec 32 := Scalar.select v27 v28 v13
  let v42 : Index := Scalar.indexCast v29
  let c64_i32_24 : BitVec 32 := 64#32
  let v30 : BitVec 32 := Scalar.muli v10 c64_i32_24
  let c0_i32_25 : BitVec 32 := 0#32
  let v31 : BitVec 32 := Scalar.addi v30 c0_i32_25
  let c128_i32_26 : BitVec 32 := 128#32
  let c0_i32_27 : BitVec 32 := 0#32
  let v32 : BitVec 1 := Scalar.cmpi .eq c128_i32_26 c0_i32_27
  let c1_i32_28 : BitVec 32 := 1#32
  let v33 : BitVec 32 := Scalar.select v32 c1_i32_28 c128_i32_26
  let v34 : BitVec 32 := Scalar.remsi v31 v33
  let c0_i32_30 : BitVec 32 := 0#32
  let v36 : BitVec 1 := Scalar.cmpi .slt v34 c0_i32_30
  let c0_i32_31 : BitVec 32 := 0#32
  let v37 : BitVec 1 := Scalar.cmpi .slt v33 c0_i32_31
  let v38 : BitVec 1 := Scalar.xori v36 v37
  let c0_i32_29 : BitVec 32 := 0#32
  let v35 : BitVec 1 := Scalar.cmpi .ne v34 c0_i32_29
  let v39 : BitVec 1 := Scalar.andi v38 v35
  let v40 : BitVec 32 := Scalar.addi v34 v33
  let v41 : BitVec 32 := Scalar.select v39 v40 v34
  let v43 : Index := Scalar.indexCast v41
  ![v42.toNat, v43.toNat]
def k0_off267 (v47 : BitVec 32) : Fin 2 → Nat :=
  let c0_i32_37 : BitVec 32 := 0#32
  ![v47.toNat, 0]

def k0_off268 (v57 : BitVec 32) : Fin 2 → Nat :=
  let c0_i32_48 : BitVec 32 := 0#32
  ![v57.toNat, 0]

def k0_off269 (v67 : BitVec 32) : Fin 2 → Nat :=
  let c0_i32_59 : BitVec 32 := 0#32
  ![v67.toNat, 0]

def k0_off270 (v77 : BitVec 32) : Fin 2 → Nat :=
  let c0_i32_69 : BitVec 32 := 0#32
  ![v77.toNat, 0]

def k0_off271 (v87 : BitVec 32) : Fin 2 → Nat :=
  let c0_i32_80 : BitVec 32 := 0#32
  ![v87.toNat, 0]

def k0_off272 (v97 : BitVec 32) : Fin 2 → Nat :=
  let c0_i32_90 : BitVec 32 := 0#32
  ![v97.toNat, 0]

def k0_off273 (v107 : BitVec 32) : Fin 2 → Nat :=
  let c0_i32_100 : BitVec 32 := 0#32
  ![v107.toNat, 0]

def k0_off274 (v117 : BitVec 32) : Fin 2 → Nat :=
  let c0_i32_110 : BitVec 32 := 0#32
  ![v117.toNat, 0]

def k0_off275 (v127 : BitVec 32) : Fin 2 → Nat :=
  let c0_i32_120 : BitVec 32 := 0#32
  ![v127.toNat, 0]

def k0_off276 (v137 : BitVec 32) : Fin 2 → Nat :=
  let c0_i32_130 : BitVec 32 := 0#32
  ![v137.toNat, 0]

def k0_off277 (v147 : BitVec 32) : Fin 2 → Nat :=
  let c0_i32_140 : BitVec 32 := 0#32
  ![v147.toNat, 0]

def k0_off278 (v157 : BitVec 32) : Fin 2 → Nat :=
  let c0_i32_150 : BitVec 32 := 0#32
  ![v157.toNat, 0]

def k0_off279 (v167 : BitVec 32) : Fin 2 → Nat :=
  let c0_i32_160 : BitVec 32 := 0#32
  ![v167.toNat, 0]

def k0_off280 (v177 : BitVec 32) : Fin 2 → Nat :=
  let c0_i32_170 : BitVec 32 := 0#32
  ![v177.toNat, 0]

def k0_off281 (v187 : BitVec 32) : Fin 2 → Nat :=
  let c0_i32_180 : BitVec 32 := 0#32
  ![v187.toNat, 0]

def k0_off282 (v197 : BitVec 32) : Fin 2 → Nat :=
  let c0_i32_190 : BitVec 32 := 0#32
  ![v197.toNat, 0]

def k0_off283 (k0_t2 : Fin k0_t2_loop.trips) : Fin 2 → Nat :=
  let c2_i32_15 : BitVec 32 := 2#32
  let c0_i32_6 : BitVec 32 := 0#32
  let c1_i32_8 : BitVec 32 := 1#32
  let arg25 : BitVec 32 := Scf.iv c0_i32_6 c1_i32_8 k0_t2
  let v9 : BitVec 32 := Scalar.muli c2_i32_15 arg25
  let c0_i32_16 : BitVec 32 := 0#32
  let v10 : BitVec 32 := Scalar.addi v9 c0_i32_16
  let c64_i32_196 : BitVec 32 := 64#32
  let v206 : BitVec 32 := Scalar.muli v10 c64_i32_196
  let c16_i32 : BitVec 32 := 16#32
  let v207 : BitVec 32 := Scalar.addi v206 c16_i32
  let c0_i32_198 : BitVec 32 := 0#32
  let v209 : BitVec 1 := Scalar.cmpi .sgt v207 c0_i32_198
  let v210 : BitVec 32 := Scalar.extui v209
  let c0_i32_199 : BitVec 32 := 0#32
  let v211 : BitVec 1 := Scalar.cmpi .slt v207 c0_i32_199
  let v212 : BitVec 32 := Scalar.extui v211
  let v213 : BitVec 32 := Scalar.subi v210 v212
  let c128_i32_197 : BitVec 32 := 128#32
  let c0_i32_200 : BitVec 32 := 0#32
  let v214 : BitVec 1 := Scalar.cmpi .sgt c128_i32_197 c0_i32_200
  let v215 : BitVec 32 := Scalar.extui v214
  let c0_i32_201 : BitVec 32 := 0#32
  let v216 : BitVec 1 := Scalar.cmpi .slt c128_i32_197 c0_i32_201
  let v217 : BitVec 32 := Scalar.extui v216
  let v218 : BitVec 32 := Scalar.subi v215 v217
  let v219 : BitVec 1 := Scalar.cmpi .ne v213 v218
  let v220 : BitVec 32 := Scalar.remsi v207 c128_i32_197
  let c0_i32_202 : BitVec 32 := 0#32
  let v221 : BitVec 1 := Scalar.cmpi .ne v220 c0_i32_202
  let v222 : BitVec 1 := Scalar.andi v219 v221
  let v208 : BitVec 32 := Scalar.divsi v207 c128_i32_197
  let c1_i32_203 : BitVec 32 := 1#32
  let v223 : BitVec 32 := Scalar.subi v208 c1_i32_203
  let v224 : BitVec 32 := Scalar.select v222 v223 v208
  let v237 : Index := Scalar.indexCast v224
  let c64_i32_204 : BitVec 32 := 64#32
  let v225 : BitVec 32 := Scalar.muli v10 c64_i32_204
  let c16_i32_205 : BitVec 32 := 16#32
  let v226 : BitVec 32 := Scalar.addi v225 c16_i32_205
  let c128_i32_206 : BitVec 32 := 128#32
  let c0_i32_207 : BitVec 32 := 0#32
  let v227 : BitVec 1 := Scalar.cmpi .eq c128_i32_206 c0_i32_207
  let c1_i32_208 : BitVec 32 := 1#32
  let v228 : BitVec 32 := Scalar.select v227 c1_i32_208 c128_i32_206
  let v229 : BitVec 32 := Scalar.remsi v226 v228
  let c0_i32_210 : BitVec 32 := 0#32
  let v231 : BitVec 1 := Scalar.cmpi .slt v229 c0_i32_210
  let c0_i32_211 : BitVec 32 := 0#32
  let v232 : BitVec 1 := Scalar.cmpi .slt v228 c0_i32_211
  let v233 : BitVec 1 := Scalar.xori v231 v232
  let c0_i32_209 : BitVec 32 := 0#32
  let v230 : BitVec 1 := Scalar.cmpi .ne v229 c0_i32_209
  let v234 : BitVec 1 := Scalar.andi v233 v230
  let v235 : BitVec 32 := Scalar.addi v229 v228
  let v236 : BitVec 32 := Scalar.select v234 v235 v229
  let v238 : Index := Scalar.indexCast v236
  ![v237.toNat, v238.toNat]
def k0_off284 (v242 : BitVec 32) : Fin 2 → Nat :=
  let c0_i32_217 : BitVec 32 := 0#32
  ![v242.toNat, 0]

def k0_off285 (v252 : BitVec 32) : Fin 2 → Nat :=
  let c0_i32_227 : BitVec 32 := 0#32
  ![v252.toNat, 0]

def k0_off286 (v262 : BitVec 32) : Fin 2 → Nat :=
  let c0_i32_237 : BitVec 32 := 0#32
  ![v262.toNat, 0]

def k0_off287 (v272 : BitVec 32) : Fin 2 → Nat :=
  let c0_i32_247 : BitVec 32 := 0#32
  ![v272.toNat, 0]

def k0_off288 (v282 : BitVec 32) : Fin 2 → Nat :=
  let c0_i32_257 : BitVec 32 := 0#32
  ![v282.toNat, 0]

def k0_off289 (v292 : BitVec 32) : Fin 2 → Nat :=
  let c0_i32_267 : BitVec 32 := 0#32
  ![v292.toNat, 0]

def k0_off290 (v302 : BitVec 32) : Fin 2 → Nat :=
  let c0_i32_277 : BitVec 32 := 0#32
  ![v302.toNat, 0]

def k0_off291 (v312 : BitVec 32) : Fin 2 → Nat :=
  let c0_i32_287 : BitVec 32 := 0#32
  ![v312.toNat, 0]

def k0_off292 (v322 : BitVec 32) : Fin 2 → Nat :=
  let c0_i32_297 : BitVec 32 := 0#32
  ![v322.toNat, 0]

def k0_off293 (v332 : BitVec 32) : Fin 2 → Nat :=
  let c0_i32_307 : BitVec 32 := 0#32
  ![v332.toNat, 0]

def k0_off294 (v342 : BitVec 32) : Fin 2 → Nat :=
  let c0_i32_317 : BitVec 32 := 0#32
  ![v342.toNat, 0]

def k0_off295 (v352 : BitVec 32) : Fin 2 → Nat :=
  let c0_i32_327 : BitVec 32 := 0#32
  ![v352.toNat, 0]

def k0_off296 (v362 : BitVec 32) : Fin 2 → Nat :=
  let c0_i32_337 : BitVec 32 := 0#32
  ![v362.toNat, 0]

def k0_off297 (v372 : BitVec 32) : Fin 2 → Nat :=
  let c0_i32_347 : BitVec 32 := 0#32
  ![v372.toNat, 0]

def k0_off298 (v382 : BitVec 32) : Fin 2 → Nat :=
  let c0_i32_357 : BitVec 32 := 0#32
  ![v382.toNat, 0]

def k0_off299 (v392 : BitVec 32) : Fin 2 → Nat :=
  let c0_i32_367 : BitVec 32 := 0#32
  ![v392.toNat, 0]

def k0_off300 (k0_t2 : Fin k0_t2_loop.trips) : Fin 2 → Nat :=
  let c2_i32_15 : BitVec 32 := 2#32
  let c0_i32_6 : BitVec 32 := 0#32
  let c1_i32_8 : BitVec 32 := 1#32
  let arg25 : BitVec 32 := Scf.iv c0_i32_6 c1_i32_8 k0_t2
  let v9 : BitVec 32 := Scalar.muli c2_i32_15 arg25
  let c0_i32_16 : BitVec 32 := 0#32
  let v10 : BitVec 32 := Scalar.addi v9 c0_i32_16
  let c64_i32_373 : BitVec 32 := 64#32
  let v401 : BitVec 32 := Scalar.muli v10 c64_i32_373
  let c32_i32 : BitVec 32 := 32#32
  let v402 : BitVec 32 := Scalar.addi v401 c32_i32
  let c0_i32_375 : BitVec 32 := 0#32
  let v404 : BitVec 1 := Scalar.cmpi .sgt v402 c0_i32_375
  let v405 : BitVec 32 := Scalar.extui v404
  let c0_i32_376 : BitVec 32 := 0#32
  let v406 : BitVec 1 := Scalar.cmpi .slt v402 c0_i32_376
  let v407 : BitVec 32 := Scalar.extui v406
  let v408 : BitVec 32 := Scalar.subi v405 v407
  let c128_i32_374 : BitVec 32 := 128#32
  let c0_i32_377 : BitVec 32 := 0#32
  let v409 : BitVec 1 := Scalar.cmpi .sgt c128_i32_374 c0_i32_377
  let v410 : BitVec 32 := Scalar.extui v409
  let c0_i32_378 : BitVec 32 := 0#32
  let v411 : BitVec 1 := Scalar.cmpi .slt c128_i32_374 c0_i32_378
  let v412 : BitVec 32 := Scalar.extui v411
  let v413 : BitVec 32 := Scalar.subi v410 v412
  let v414 : BitVec 1 := Scalar.cmpi .ne v408 v413
  let v415 : BitVec 32 := Scalar.remsi v402 c128_i32_374
  let c0_i32_379 : BitVec 32 := 0#32
  let v416 : BitVec 1 := Scalar.cmpi .ne v415 c0_i32_379
  let v417 : BitVec 1 := Scalar.andi v414 v416
  let v403 : BitVec 32 := Scalar.divsi v402 c128_i32_374
  let c1_i32_380 : BitVec 32 := 1#32
  let v418 : BitVec 32 := Scalar.subi v403 c1_i32_380
  let v419 : BitVec 32 := Scalar.select v417 v418 v403
  let v432 : Index := Scalar.indexCast v419
  let c64_i32_381 : BitVec 32 := 64#32
  let v420 : BitVec 32 := Scalar.muli v10 c64_i32_381
  let c32_i32_382 : BitVec 32 := 32#32
  let v421 : BitVec 32 := Scalar.addi v420 c32_i32_382
  let c128_i32_383 : BitVec 32 := 128#32
  let c0_i32_384 : BitVec 32 := 0#32
  let v422 : BitVec 1 := Scalar.cmpi .eq c128_i32_383 c0_i32_384
  let c1_i32_385 : BitVec 32 := 1#32
  let v423 : BitVec 32 := Scalar.select v422 c1_i32_385 c128_i32_383
  let v424 : BitVec 32 := Scalar.remsi v421 v423
  let c0_i32_387 : BitVec 32 := 0#32
  let v426 : BitVec 1 := Scalar.cmpi .slt v424 c0_i32_387
  let c0_i32_388 : BitVec 32 := 0#32
  let v427 : BitVec 1 := Scalar.cmpi .slt v423 c0_i32_388
  let v428 : BitVec 1 := Scalar.xori v426 v427
  let c0_i32_386 : BitVec 32 := 0#32
  let v425 : BitVec 1 := Scalar.cmpi .ne v424 c0_i32_386
  let v429 : BitVec 1 := Scalar.andi v428 v425
  let v430 : BitVec 32 := Scalar.addi v424 v423
  let v431 : BitVec 32 := Scalar.select v429 v430 v424
  let v433 : Index := Scalar.indexCast v431
  ![v432.toNat, v433.toNat]
def k0_off301 (v437 : BitVec 32) : Fin 2 → Nat :=
  let c0_i32_394 : BitVec 32 := 0#32
  ![v437.toNat, 0]

def k0_off302 (v447 : BitVec 32) : Fin 2 → Nat :=
  let c0_i32_404 : BitVec 32 := 0#32
  ![v447.toNat, 0]

def k0_off303 (v457 : BitVec 32) : Fin 2 → Nat :=
  let c0_i32_414 : BitVec 32 := 0#32
  ![v457.toNat, 0]

def k0_off304 (v467 : BitVec 32) : Fin 2 → Nat :=
  let c0_i32_424 : BitVec 32 := 0#32
  ![v467.toNat, 0]

def k0_off305 (v477 : BitVec 32) : Fin 2 → Nat :=
  let c0_i32_434 : BitVec 32 := 0#32
  ![v477.toNat, 0]

def k0_off306 (v487 : BitVec 32) : Fin 2 → Nat :=
  let c0_i32_444 : BitVec 32 := 0#32
  ![v487.toNat, 0]

def k0_off307 (v497 : BitVec 32) : Fin 2 → Nat :=
  let c0_i32_454 : BitVec 32 := 0#32
  ![v497.toNat, 0]

def k0_off308 (v507 : BitVec 32) : Fin 2 → Nat :=
  let c0_i32_464 : BitVec 32 := 0#32
  ![v507.toNat, 0]

def k0_off309 (v517 : BitVec 32) : Fin 2 → Nat :=
  let c0_i32_474 : BitVec 32 := 0#32
  ![v517.toNat, 0]

def k0_off310 (v527 : BitVec 32) : Fin 2 → Nat :=
  let c0_i32_484 : BitVec 32 := 0#32
  ![v527.toNat, 0]

def k0_off311 (v537 : BitVec 32) : Fin 2 → Nat :=
  let c0_i32_494 : BitVec 32 := 0#32
  ![v537.toNat, 0]

def k0_off312 (v547 : BitVec 32) : Fin 2 → Nat :=
  let c0_i32_504 : BitVec 32 := 0#32
  ![v547.toNat, 0]

def k0_off313 (v557 : BitVec 32) : Fin 2 → Nat :=
  let c0_i32_514 : BitVec 32 := 0#32
  ![v557.toNat, 0]

def k0_off314 (v567 : BitVec 32) : Fin 2 → Nat :=
  let c0_i32_524 : BitVec 32 := 0#32
  ![v567.toNat, 0]

def k0_off315 (v577 : BitVec 32) : Fin 2 → Nat :=
  let c0_i32_534 : BitVec 32 := 0#32
  ![v577.toNat, 0]

def k0_off316 (v587 : BitVec 32) : Fin 2 → Nat :=
  let c0_i32_544 : BitVec 32 := 0#32
  ![v587.toNat, 0]

def k0_off317 (k0_t2 : Fin k0_t2_loop.trips) : Fin 2 → Nat :=
  let c2_i32_15 : BitVec 32 := 2#32
  let c0_i32_6 : BitVec 32 := 0#32
  let c1_i32_8 : BitVec 32 := 1#32
  let arg25 : BitVec 32 := Scf.iv c0_i32_6 c1_i32_8 k0_t2
  let v9 : BitVec 32 := Scalar.muli c2_i32_15 arg25
  let c0_i32_16 : BitVec 32 := 0#32
  let v10 : BitVec 32 := Scalar.addi v9 c0_i32_16
  let c64_i32_550 : BitVec 32 := 64#32
  let v596 : BitVec 32 := Scalar.muli v10 c64_i32_550
  let c48_i32 : BitVec 32 := 48#32
  let v597 : BitVec 32 := Scalar.addi v596 c48_i32
  let c0_i32_552 : BitVec 32 := 0#32
  let v599 : BitVec 1 := Scalar.cmpi .sgt v597 c0_i32_552
  let v600 : BitVec 32 := Scalar.extui v599
  let c0_i32_553 : BitVec 32 := 0#32
  let v601 : BitVec 1 := Scalar.cmpi .slt v597 c0_i32_553
  let v602 : BitVec 32 := Scalar.extui v601
  let v603 : BitVec 32 := Scalar.subi v600 v602
  let c128_i32_551 : BitVec 32 := 128#32
  let c0_i32_554 : BitVec 32 := 0#32
  let v604 : BitVec 1 := Scalar.cmpi .sgt c128_i32_551 c0_i32_554
  let v605 : BitVec 32 := Scalar.extui v604
  let c0_i32_555 : BitVec 32 := 0#32
  let v606 : BitVec 1 := Scalar.cmpi .slt c128_i32_551 c0_i32_555
  let v607 : BitVec 32 := Scalar.extui v606
  let v608 : BitVec 32 := Scalar.subi v605 v607
  let v609 : BitVec 1 := Scalar.cmpi .ne v603 v608
  let v610 : BitVec 32 := Scalar.remsi v597 c128_i32_551
  let c0_i32_556 : BitVec 32 := 0#32
  let v611 : BitVec 1 := Scalar.cmpi .ne v610 c0_i32_556
  let v612 : BitVec 1 := Scalar.andi v609 v611
  let v598 : BitVec 32 := Scalar.divsi v597 c128_i32_551
  let c1_i32_557 : BitVec 32 := 1#32
  let v613 : BitVec 32 := Scalar.subi v598 c1_i32_557
  let v614 : BitVec 32 := Scalar.select v612 v613 v598
  let v627 : Index := Scalar.indexCast v614
  let c64_i32_558 : BitVec 32 := 64#32
  let v615 : BitVec 32 := Scalar.muli v10 c64_i32_558
  let c48_i32_559 : BitVec 32 := 48#32
  let v616 : BitVec 32 := Scalar.addi v615 c48_i32_559
  let c128_i32_560 : BitVec 32 := 128#32
  let c0_i32_561 : BitVec 32 := 0#32
  let v617 : BitVec 1 := Scalar.cmpi .eq c128_i32_560 c0_i32_561
  let c1_i32_562 : BitVec 32 := 1#32
  let v618 : BitVec 32 := Scalar.select v617 c1_i32_562 c128_i32_560
  let v619 : BitVec 32 := Scalar.remsi v616 v618
  let c0_i32_564 : BitVec 32 := 0#32
  let v621 : BitVec 1 := Scalar.cmpi .slt v619 c0_i32_564
  let c0_i32_565 : BitVec 32 := 0#32
  let v622 : BitVec 1 := Scalar.cmpi .slt v618 c0_i32_565
  let v623 : BitVec 1 := Scalar.xori v621 v622
  let c0_i32_563 : BitVec 32 := 0#32
  let v620 : BitVec 1 := Scalar.cmpi .ne v619 c0_i32_563
  let v624 : BitVec 1 := Scalar.andi v623 v620
  let v625 : BitVec 32 := Scalar.addi v619 v618
  let v626 : BitVec 32 := Scalar.select v624 v625 v619
  let v628 : Index := Scalar.indexCast v626
  ![v627.toNat, v628.toNat]
def k0_off318 (v632 : BitVec 32) : Fin 2 → Nat :=
  let c0_i32_571 : BitVec 32 := 0#32
  ![v632.toNat, 0]

def k0_off319 (v642 : BitVec 32) : Fin 2 → Nat :=
  let c0_i32_581 : BitVec 32 := 0#32
  ![v642.toNat, 0]

def k0_off320 (v652 : BitVec 32) : Fin 2 → Nat :=
  let c0_i32_591 : BitVec 32 := 0#32
  ![v652.toNat, 0]

def k0_off321 (v662 : BitVec 32) : Fin 2 → Nat :=
  let c0_i32_601 : BitVec 32 := 0#32
  ![v662.toNat, 0]

def k0_off322 (v672 : BitVec 32) : Fin 2 → Nat :=
  let c0_i32_611 : BitVec 32 := 0#32
  ![v672.toNat, 0]

def k0_off323 (v682 : BitVec 32) : Fin 2 → Nat :=
  let c0_i32_621 : BitVec 32 := 0#32
  ![v682.toNat, 0]

def k0_off324 (v692 : BitVec 32) : Fin 2 → Nat :=
  let c0_i32_631 : BitVec 32 := 0#32
  ![v692.toNat, 0]

def k0_off325 (v702 : BitVec 32) : Fin 2 → Nat :=
  let c0_i32_641 : BitVec 32 := 0#32
  ![v702.toNat, 0]

def k0_off326 (v712 : BitVec 32) : Fin 2 → Nat :=
  let c0_i32_651 : BitVec 32 := 0#32
  ![v712.toNat, 0]

def k0_off327 (v722 : BitVec 32) : Fin 2 → Nat :=
  let c0_i32_661 : BitVec 32 := 0#32
  ![v722.toNat, 0]

def k0_off328 (v732 : BitVec 32) : Fin 2 → Nat :=
  let c0_i32_671 : BitVec 32 := 0#32
  ![v732.toNat, 0]

def k0_off329 (v742 : BitVec 32) : Fin 2 → Nat :=
  let c0_i32_681 : BitVec 32 := 0#32
  ![v742.toNat, 0]

def k0_off330 (v752 : BitVec 32) : Fin 2 → Nat :=
  let c0_i32_691 : BitVec 32 := 0#32
  ![v752.toNat, 0]

def k0_off331 (v762 : BitVec 32) : Fin 2 → Nat :=
  let c0_i32_701 : BitVec 32 := 0#32
  ![v762.toNat, 0]

def k0_off332 (v772 : BitVec 32) : Fin 2 → Nat :=
  let c0_i32_711 : BitVec 32 := 0#32
  ![v772.toNat, 0]

def k0_off333 (v782 : BitVec 32) : Fin 2 → Nat :=
  let c0_i32_721 : BitVec 32 := 0#32
  ![v782.toNat, 0]

def k0_off334 (k0_t2 : Fin k0_t2_loop.trips) : Fin 2 → Nat :=
  let c2_i32_727 : BitVec 32 := 2#32
  let c0_i32_6 : BitVec 32 := 0#32
  let c1_i32_8 : BitVec 32 := 1#32
  let arg25 : BitVec 32 := Scf.iv c0_i32_6 c1_i32_8 k0_t2
  let v791 : BitVec 32 := Scalar.muli c2_i32_727 arg25
  let c1_i32_728 : BitVec 32 := 1#32
  let v792 : BitVec 32 := Scalar.addi v791 c1_i32_728
  let c64_i32_729 : BitVec 32 := 64#32
  let v793 : BitVec 32 := Scalar.muli v792 c64_i32_729
  let c0_i32_730 : BitVec 32 := 0#32
  let v794 : BitVec 32 := Scalar.addi v793 c0_i32_730
  let c0_i32_732 : BitVec 32 := 0#32
  let v796 : BitVec 1 := Scalar.cmpi .sgt v794 c0_i32_732
  let v797 : BitVec 32 := Scalar.extui v796
  let c0_i32_733 : BitVec 32 := 0#32
  let v798 : BitVec 1 := Scalar.cmpi .slt v794 c0_i32_733
  let v799 : BitVec 32 := Scalar.extui v798
  let v800 : BitVec 32 := Scalar.subi v797 v799
  let c128_i32_731 : BitVec 32 := 128#32
  let c0_i32_734 : BitVec 32 := 0#32
  let v801 : BitVec 1 := Scalar.cmpi .sgt c128_i32_731 c0_i32_734
  let v802 : BitVec 32 := Scalar.extui v801
  let c0_i32_735 : BitVec 32 := 0#32
  let v803 : BitVec 1 := Scalar.cmpi .slt c128_i32_731 c0_i32_735
  let v804 : BitVec 32 := Scalar.extui v803
  let v805 : BitVec 32 := Scalar.subi v802 v804
  let v806 : BitVec 1 := Scalar.cmpi .ne v800 v805
  let v807 : BitVec 32 := Scalar.remsi v794 c128_i32_731
  let c0_i32_736 : BitVec 32 := 0#32
  let v808 : BitVec 1 := Scalar.cmpi .ne v807 c0_i32_736
  let v809 : BitVec 1 := Scalar.andi v806 v808
  let v795 : BitVec 32 := Scalar.divsi v794 c128_i32_731
  let c1_i32_737 : BitVec 32 := 1#32
  let v810 : BitVec 32 := Scalar.subi v795 c1_i32_737
  let v811 : BitVec 32 := Scalar.select v809 v810 v795
  let v824 : Index := Scalar.indexCast v811
  let c64_i32_738 : BitVec 32 := 64#32
  let v812 : BitVec 32 := Scalar.muli v792 c64_i32_738
  let c0_i32_739 : BitVec 32 := 0#32
  let v813 : BitVec 32 := Scalar.addi v812 c0_i32_739
  let c128_i32_740 : BitVec 32 := 128#32
  let c0_i32_741 : BitVec 32 := 0#32
  let v814 : BitVec 1 := Scalar.cmpi .eq c128_i32_740 c0_i32_741
  let c1_i32_742 : BitVec 32 := 1#32
  let v815 : BitVec 32 := Scalar.select v814 c1_i32_742 c128_i32_740
  let v816 : BitVec 32 := Scalar.remsi v813 v815
  let c0_i32_744 : BitVec 32 := 0#32
  let v818 : BitVec 1 := Scalar.cmpi .slt v816 c0_i32_744
  let c0_i32_745 : BitVec 32 := 0#32
  let v819 : BitVec 1 := Scalar.cmpi .slt v815 c0_i32_745
  let v820 : BitVec 1 := Scalar.xori v818 v819
  let c0_i32_743 : BitVec 32 := 0#32
  let v817 : BitVec 1 := Scalar.cmpi .ne v816 c0_i32_743
  let v821 : BitVec 1 := Scalar.andi v820 v817
  let v822 : BitVec 32 := Scalar.addi v816 v815
  let v823 : BitVec 32 := Scalar.select v821 v822 v816
  let v825 : Index := Scalar.indexCast v823
  ![v824.toNat, v825.toNat]
def k0_off335 (v829 : BitVec 32) : Fin 2 → Nat :=
  let c0_i32_751 : BitVec 32 := 0#32
  ![v829.toNat, 0]

def k0_off336 (v839 : BitVec 32) : Fin 2 → Nat :=
  let c0_i32_762 : BitVec 32 := 0#32
  ![v839.toNat, 0]

def k0_off337 (v849 : BitVec 32) : Fin 2 → Nat :=
  let c0_i32_773 : BitVec 32 := 0#32
  ![v849.toNat, 0]

def k0_off338 (v859 : BitVec 32) : Fin 2 → Nat :=
  let c0_i32_784 : BitVec 32 := 0#32
  ![v859.toNat, 0]

def k0_off339 (v869 : BitVec 32) : Fin 2 → Nat :=
  let c0_i32_795 : BitVec 32 := 0#32
  ![v869.toNat, 0]

def k0_off340 (v879 : BitVec 32) : Fin 2 → Nat :=
  let c0_i32_806 : BitVec 32 := 0#32
  ![v879.toNat, 0]

def k0_off341 (v889 : BitVec 32) : Fin 2 → Nat :=
  let c0_i32_817 : BitVec 32 := 0#32
  ![v889.toNat, 0]

def k0_off342 (v899 : BitVec 32) : Fin 2 → Nat :=
  let c0_i32_828 : BitVec 32 := 0#32
  ![v899.toNat, 0]

def k0_off343 (v909 : BitVec 32) : Fin 2 → Nat :=
  let c0_i32_839 : BitVec 32 := 0#32
  ![v909.toNat, 0]

def k0_off344 (v919 : BitVec 32) : Fin 2 → Nat :=
  let c0_i32_850 : BitVec 32 := 0#32
  ![v919.toNat, 0]

def k0_off345 (v929 : BitVec 32) : Fin 2 → Nat :=
  let c0_i32_861 : BitVec 32 := 0#32
  ![v929.toNat, 0]

def k0_off346 (v939 : BitVec 32) : Fin 2 → Nat :=
  let c0_i32_872 : BitVec 32 := 0#32
  ![v939.toNat, 0]

def k0_off347 (v949 : BitVec 32) : Fin 2 → Nat :=
  let c0_i32_883 : BitVec 32 := 0#32
  ![v949.toNat, 0]

def k0_off348 (v959 : BitVec 32) : Fin 2 → Nat :=
  let c0_i32_894 : BitVec 32 := 0#32
  ![v959.toNat, 0]

def k0_off349 (v969 : BitVec 32) : Fin 2 → Nat :=
  let c0_i32_905 : BitVec 32 := 0#32
  ![v969.toNat, 0]

def k0_off350 (v979 : BitVec 32) : Fin 2 → Nat :=
  let c0_i32_916 : BitVec 32 := 0#32
  ![v979.toNat, 0]

def k0_off351 (k0_t2 : Fin k0_t2_loop.trips) : Fin 2 → Nat :=
  let c2_i32_727 : BitVec 32 := 2#32
  let c0_i32_6 : BitVec 32 := 0#32
  let c1_i32_8 : BitVec 32 := 1#32
  let arg25 : BitVec 32 := Scf.iv c0_i32_6 c1_i32_8 k0_t2
  let v791 : BitVec 32 := Scalar.muli c2_i32_727 arg25
  let c1_i32_728 : BitVec 32 := 1#32
  let v792 : BitVec 32 := Scalar.addi v791 c1_i32_728
  let c64_i32_922 : BitVec 32 := 64#32
  let v988 : BitVec 32 := Scalar.muli v792 c64_i32_922
  let c16_i32_923 : BitVec 32 := 16#32
  let v989 : BitVec 32 := Scalar.addi v988 c16_i32_923
  let c0_i32_925 : BitVec 32 := 0#32
  let v991 : BitVec 1 := Scalar.cmpi .sgt v989 c0_i32_925
  let v992 : BitVec 32 := Scalar.extui v991
  let c0_i32_926 : BitVec 32 := 0#32
  let v993 : BitVec 1 := Scalar.cmpi .slt v989 c0_i32_926
  let v994 : BitVec 32 := Scalar.extui v993
  let v995 : BitVec 32 := Scalar.subi v992 v994
  let c128_i32_924 : BitVec 32 := 128#32
  let c0_i32_927 : BitVec 32 := 0#32
  let v996 : BitVec 1 := Scalar.cmpi .sgt c128_i32_924 c0_i32_927
  let v997 : BitVec 32 := Scalar.extui v996
  let c0_i32_928 : BitVec 32 := 0#32
  let v998 : BitVec 1 := Scalar.cmpi .slt c128_i32_924 c0_i32_928
  let v999 : BitVec 32 := Scalar.extui v998
  let v1000 : BitVec 32 := Scalar.subi v997 v999
  let v1001 : BitVec 1 := Scalar.cmpi .ne v995 v1000
  let v1002 : BitVec 32 := Scalar.remsi v989 c128_i32_924
  let c0_i32_929 : BitVec 32 := 0#32
  let v1003 : BitVec 1 := Scalar.cmpi .ne v1002 c0_i32_929
  let v1004 : BitVec 1 := Scalar.andi v1001 v1003
  let v990 : BitVec 32 := Scalar.divsi v989 c128_i32_924
  let c1_i32_930 : BitVec 32 := 1#32
  let v1005 : BitVec 32 := Scalar.subi v990 c1_i32_930
  let v1006 : BitVec 32 := Scalar.select v1004 v1005 v990
  let v1019 : Index := Scalar.indexCast v1006
  let c64_i32_931 : BitVec 32 := 64#32
  let v1007 : BitVec 32 := Scalar.muli v792 c64_i32_931
  let c16_i32_932 : BitVec 32 := 16#32
  let v1008 : BitVec 32 := Scalar.addi v1007 c16_i32_932
  let c128_i32_933 : BitVec 32 := 128#32
  let c0_i32_934 : BitVec 32 := 0#32
  let v1009 : BitVec 1 := Scalar.cmpi .eq c128_i32_933 c0_i32_934
  let c1_i32_935 : BitVec 32 := 1#32
  let v1010 : BitVec 32 := Scalar.select v1009 c1_i32_935 c128_i32_933
  let v1011 : BitVec 32 := Scalar.remsi v1008 v1010
  let c0_i32_937 : BitVec 32 := 0#32
  let v1013 : BitVec 1 := Scalar.cmpi .slt v1011 c0_i32_937
  let c0_i32_938 : BitVec 32 := 0#32
  let v1014 : BitVec 1 := Scalar.cmpi .slt v1010 c0_i32_938
  let v1015 : BitVec 1 := Scalar.xori v1013 v1014
  let c0_i32_936 : BitVec 32 := 0#32
  let v1012 : BitVec 1 := Scalar.cmpi .ne v1011 c0_i32_936
  let v1016 : BitVec 1 := Scalar.andi v1015 v1012
  let v1017 : BitVec 32 := Scalar.addi v1011 v1010
  let v1018 : BitVec 32 := Scalar.select v1016 v1017 v1011
  let v1020 : Index := Scalar.indexCast v1018
  ![v1019.toNat, v1020.toNat]
def k0_off352 (v1024 : BitVec 32) : Fin 2 → Nat :=
  let c0_i32_944 : BitVec 32 := 0#32
  ![v1024.toNat, 0]

def k0_off353 (v1034 : BitVec 32) : Fin 2 → Nat :=
  let c0_i32_955 : BitVec 32 := 0#32
  ![v1034.toNat, 0]

def k0_off354 (v1044 : BitVec 32) : Fin 2 → Nat :=
  let c0_i32_966 : BitVec 32 := 0#32
  ![v1044.toNat, 0]

def k0_off355 (v1054 : BitVec 32) : Fin 2 → Nat :=
  let c0_i32_977 : BitVec 32 := 0#32
  ![v1054.toNat, 0]

def k0_off356 (v1064 : BitVec 32) : Fin 2 → Nat :=
  let c0_i32_988 : BitVec 32 := 0#32
  ![v1064.toNat, 0]

def k0_off357 (v1074 : BitVec 32) : Fin 2 → Nat :=
  let c0_i32_999 : BitVec 32 := 0#32
  ![v1074.toNat, 0]

def k0_off358 (v1084 : BitVec 32) : Fin 2 → Nat :=
  let c0_i32_1010 : BitVec 32 := 0#32
  ![v1084.toNat, 0]

def k0_off359 (v1094 : BitVec 32) : Fin 2 → Nat :=
  let c0_i32_1021 : BitVec 32 := 0#32
  ![v1094.toNat, 0]

def k0_off360 (v1104 : BitVec 32) : Fin 2 → Nat :=
  let c0_i32_1032 : BitVec 32 := 0#32
  ![v1104.toNat, 0]

def k0_off361 (v1114 : BitVec 32) : Fin 2 → Nat :=
  let c0_i32_1043 : BitVec 32 := 0#32
  ![v1114.toNat, 0]

def k0_off362 (v1124 : BitVec 32) : Fin 2 → Nat :=
  let c0_i32_1054 : BitVec 32 := 0#32
  ![v1124.toNat, 0]

def k0_off363 (v1134 : BitVec 32) : Fin 2 → Nat :=
  let c0_i32_1065 : BitVec 32 := 0#32
  ![v1134.toNat, 0]

def k0_off364 (v1144 : BitVec 32) : Fin 2 → Nat :=
  let c0_i32_1076 : BitVec 32 := 0#32
  ![v1144.toNat, 0]

def k0_off365 (v1154 : BitVec 32) : Fin 2 → Nat :=
  let c0_i32_1087 : BitVec 32 := 0#32
  ![v1154.toNat, 0]

def k0_off366 (v1164 : BitVec 32) : Fin 2 → Nat :=
  let c0_i32_1098 : BitVec 32 := 0#32
  ![v1164.toNat, 0]

def k0_off367 (v1174 : BitVec 32) : Fin 2 → Nat :=
  let c0_i32_1109 : BitVec 32 := 0#32
  ![v1174.toNat, 0]

def k0_off368 (k0_t2 : Fin k0_t2_loop.trips) : Fin 2 → Nat :=
  let c2_i32_727 : BitVec 32 := 2#32
  let c0_i32_6 : BitVec 32 := 0#32
  let c1_i32_8 : BitVec 32 := 1#32
  let arg25 : BitVec 32 := Scf.iv c0_i32_6 c1_i32_8 k0_t2
  let v791 : BitVec 32 := Scalar.muli c2_i32_727 arg25
  let c1_i32_728 : BitVec 32 := 1#32
  let v792 : BitVec 32 := Scalar.addi v791 c1_i32_728
  let c64_i32_1115 : BitVec 32 := 64#32
  let v1183 : BitVec 32 := Scalar.muli v792 c64_i32_1115
  let c32_i32_1116 : BitVec 32 := 32#32
  let v1184 : BitVec 32 := Scalar.addi v1183 c32_i32_1116
  let c0_i32_1118 : BitVec 32 := 0#32
  let v1186 : BitVec 1 := Scalar.cmpi .sgt v1184 c0_i32_1118
  let v1187 : BitVec 32 := Scalar.extui v1186
  let c0_i32_1119 : BitVec 32 := 0#32
  let v1188 : BitVec 1 := Scalar.cmpi .slt v1184 c0_i32_1119
  let v1189 : BitVec 32 := Scalar.extui v1188
  let v1190 : BitVec 32 := Scalar.subi v1187 v1189
  let c128_i32_1117 : BitVec 32 := 128#32
  let c0_i32_1120 : BitVec 32 := 0#32
  let v1191 : BitVec 1 := Scalar.cmpi .sgt c128_i32_1117 c0_i32_1120
  let v1192 : BitVec 32 := Scalar.extui v1191
  let c0_i32_1121 : BitVec 32 := 0#32
  let v1193 : BitVec 1 := Scalar.cmpi .slt c128_i32_1117 c0_i32_1121
  let v1194 : BitVec 32 := Scalar.extui v1193
  let v1195 : BitVec 32 := Scalar.subi v1192 v1194
  let v1196 : BitVec 1 := Scalar.cmpi .ne v1190 v1195
  let v1197 : BitVec 32 := Scalar.remsi v1184 c128_i32_1117
  let c0_i32_1122 : BitVec 32 := 0#32
  let v1198 : BitVec 1 := Scalar.cmpi .ne v1197 c0_i32_1122
  let v1199 : BitVec 1 := Scalar.andi v1196 v1198
  let v1185 : BitVec 32 := Scalar.divsi v1184 c128_i32_1117
  let c1_i32_1123 : BitVec 32 := 1#32
  let v1200 : BitVec 32 := Scalar.subi v1185 c1_i32_1123
  let v1201 : BitVec 32 := Scalar.select v1199 v1200 v1185
  let v1214 : Index := Scalar.indexCast v1201
  let c64_i32_1124 : BitVec 32 := 64#32
  let v1202 : BitVec 32 := Scalar.muli v792 c64_i32_1124
  let c32_i32_1125 : BitVec 32 := 32#32
  let v1203 : BitVec 32 := Scalar.addi v1202 c32_i32_1125
  let c128_i32_1126 : BitVec 32 := 128#32
  let c0_i32_1127 : BitVec 32 := 0#32
  let v1204 : BitVec 1 := Scalar.cmpi .eq c128_i32_1126 c0_i32_1127
  let c1_i32_1128 : BitVec 32 := 1#32
  let v1205 : BitVec 32 := Scalar.select v1204 c1_i32_1128 c128_i32_1126
  let v1206 : BitVec 32 := Scalar.remsi v1203 v1205
  let c0_i32_1130 : BitVec 32 := 0#32
  let v1208 : BitVec 1 := Scalar.cmpi .slt v1206 c0_i32_1130
  let c0_i32_1131 : BitVec 32 := 0#32
  let v1209 : BitVec 1 := Scalar.cmpi .slt v1205 c0_i32_1131
  let v1210 : BitVec 1 := Scalar.xori v1208 v1209
  let c0_i32_1129 : BitVec 32 := 0#32
  let v1207 : BitVec 1 := Scalar.cmpi .ne v1206 c0_i32_1129
  let v1211 : BitVec 1 := Scalar.andi v1210 v1207
  let v1212 : BitVec 32 := Scalar.addi v1206 v1205
  let v1213 : BitVec 32 := Scalar.select v1211 v1212 v1206
  let v1215 : Index := Scalar.indexCast v1213
  ![v1214.toNat, v1215.toNat]
def k0_off369 (v1219 : BitVec 32) : Fin 2 → Nat :=
  let c0_i32_1137 : BitVec 32 := 0#32
  ![v1219.toNat, 0]

def k0_off370 (v1229 : BitVec 32) : Fin 2 → Nat :=
  let c0_i32_1148 : BitVec 32 := 0#32
  ![v1229.toNat, 0]

def k0_off371 (v1239 : BitVec 32) : Fin 2 → Nat :=
  let c0_i32_1159 : BitVec 32 := 0#32
  ![v1239.toNat, 0]

def k0_off372 (v1249 : BitVec 32) : Fin 2 → Nat :=
  let c0_i32_1170 : BitVec 32 := 0#32
  ![v1249.toNat, 0]

def k0_off373 (v1259 : BitVec 32) : Fin 2 → Nat :=
  let c0_i32_1181 : BitVec 32 := 0#32
  ![v1259.toNat, 0]

def k0_off374 (v1269 : BitVec 32) : Fin 2 → Nat :=
  let c0_i32_1192 : BitVec 32 := 0#32
  ![v1269.toNat, 0]

def k0_off375 (v1279 : BitVec 32) : Fin 2 → Nat :=
  let c0_i32_1203 : BitVec 32 := 0#32
  ![v1279.toNat, 0]

def k0_off376 (v1289 : BitVec 32) : Fin 2 → Nat :=
  let c0_i32_1214 : BitVec 32 := 0#32
  ![v1289.toNat, 0]

def k0_off377 (v1299 : BitVec 32) : Fin 2 → Nat :=
  let c0_i32_1225 : BitVec 32 := 0#32
  ![v1299.toNat, 0]

def k0_off378 (v1309 : BitVec 32) : Fin 2 → Nat :=
  let c0_i32_1236 : BitVec 32 := 0#32
  ![v1309.toNat, 0]

def k0_off379 (v1319 : BitVec 32) : Fin 2 → Nat :=
  let c0_i32_1247 : BitVec 32 := 0#32
  ![v1319.toNat, 0]

def k0_off380 (v1329 : BitVec 32) : Fin 2 → Nat :=
  let c0_i32_1258 : BitVec 32 := 0#32
  ![v1329.toNat, 0]

def k0_off381 (v1339 : BitVec 32) : Fin 2 → Nat :=
  let c0_i32_1269 : BitVec 32 := 0#32
  ![v1339.toNat, 0]

def k0_off382 (v1349 : BitVec 32) : Fin 2 → Nat :=
  let c0_i32_1280 : BitVec 32 := 0#32
  ![v1349.toNat, 0]

def k0_off383 (v1359 : BitVec 32) : Fin 2 → Nat :=
  let c0_i32_1291 : BitVec 32 := 0#32
  ![v1359.toNat, 0]

def k0_off384 (v1369 : BitVec 32) : Fin 2 → Nat :=
  let c0_i32_1302 : BitVec 32 := 0#32
  ![v1369.toNat, 0]

def k0_off385 (k0_t2 : Fin k0_t2_loop.trips) : Fin 2 → Nat :=
  let c2_i32_727 : BitVec 32 := 2#32
  let c0_i32_6 : BitVec 32 := 0#32
  let c1_i32_8 : BitVec 32 := 1#32
  let arg25 : BitVec 32 := Scf.iv c0_i32_6 c1_i32_8 k0_t2
  let v791 : BitVec 32 := Scalar.muli c2_i32_727 arg25
  let c1_i32_728 : BitVec 32 := 1#32
  let v792 : BitVec 32 := Scalar.addi v791 c1_i32_728
  let c64_i32_1308 : BitVec 32 := 64#32
  let v1378 : BitVec 32 := Scalar.muli v792 c64_i32_1308
  let c48_i32_1309 : BitVec 32 := 48#32
  let v1379 : BitVec 32 := Scalar.addi v1378 c48_i32_1309
  let c0_i32_1311 : BitVec 32 := 0#32
  let v1381 : BitVec 1 := Scalar.cmpi .sgt v1379 c0_i32_1311
  let v1382 : BitVec 32 := Scalar.extui v1381
  let c0_i32_1312 : BitVec 32 := 0#32
  let v1383 : BitVec 1 := Scalar.cmpi .slt v1379 c0_i32_1312
  let v1384 : BitVec 32 := Scalar.extui v1383
  let v1385 : BitVec 32 := Scalar.subi v1382 v1384
  let c128_i32_1310 : BitVec 32 := 128#32
  let c0_i32_1313 : BitVec 32 := 0#32
  let v1386 : BitVec 1 := Scalar.cmpi .sgt c128_i32_1310 c0_i32_1313
  let v1387 : BitVec 32 := Scalar.extui v1386
  let c0_i32_1314 : BitVec 32 := 0#32
  let v1388 : BitVec 1 := Scalar.cmpi .slt c128_i32_1310 c0_i32_1314
  let v1389 : BitVec 32 := Scalar.extui v1388
  let v1390 : BitVec 32 := Scalar.subi v1387 v1389
  let v1391 : BitVec 1 := Scalar.cmpi .ne v1385 v1390
  let v1392 : BitVec 32 := Scalar.remsi v1379 c128_i32_1310
  let c0_i32_1315 : BitVec 32 := 0#32
  let v1393 : BitVec 1 := Scalar.cmpi .ne v1392 c0_i32_1315
  let v1394 : BitVec 1 := Scalar.andi v1391 v1393
  let v1380 : BitVec 32 := Scalar.divsi v1379 c128_i32_1310
  let c1_i32_1316 : BitVec 32 := 1#32
  let v1395 : BitVec 32 := Scalar.subi v1380 c1_i32_1316
  let v1396 : BitVec 32 := Scalar.select v1394 v1395 v1380
  let v1409 : Index := Scalar.indexCast v1396
  let c64_i32_1317 : BitVec 32 := 64#32
  let v1397 : BitVec 32 := Scalar.muli v792 c64_i32_1317
  let c48_i32_1318 : BitVec 32 := 48#32
  let v1398 : BitVec 32 := Scalar.addi v1397 c48_i32_1318
  let c128_i32_1319 : BitVec 32 := 128#32
  let c0_i32_1320 : BitVec 32 := 0#32
  let v1399 : BitVec 1 := Scalar.cmpi .eq c128_i32_1319 c0_i32_1320
  let c1_i32_1321 : BitVec 32 := 1#32
  let v1400 : BitVec 32 := Scalar.select v1399 c1_i32_1321 c128_i32_1319
  let v1401 : BitVec 32 := Scalar.remsi v1398 v1400
  let c0_i32_1323 : BitVec 32 := 0#32
  let v1403 : BitVec 1 := Scalar.cmpi .slt v1401 c0_i32_1323
  let c0_i32_1324 : BitVec 32 := 0#32
  let v1404 : BitVec 1 := Scalar.cmpi .slt v1400 c0_i32_1324
  let v1405 : BitVec 1 := Scalar.xori v1403 v1404
  let c0_i32_1322 : BitVec 32 := 0#32
  let v1402 : BitVec 1 := Scalar.cmpi .ne v1401 c0_i32_1322
  let v1406 : BitVec 1 := Scalar.andi v1405 v1402
  let v1407 : BitVec 32 := Scalar.addi v1401 v1400
  let v1408 : BitVec 32 := Scalar.select v1406 v1407 v1401
  let v1410 : Index := Scalar.indexCast v1408
  ![v1409.toNat, v1410.toNat]
def k0_off386 (v1414 : BitVec 32) : Fin 2 → Nat :=
  let c0_i32_1330 : BitVec 32 := 0#32
  ![v1414.toNat, 0]

def k0_off387 (v1424 : BitVec 32) : Fin 2 → Nat :=
  let c0_i32_1341 : BitVec 32 := 0#32
  ![v1424.toNat, 0]

def k0_off388 (v1434 : BitVec 32) : Fin 2 → Nat :=
  let c0_i32_1352 : BitVec 32 := 0#32
  ![v1434.toNat, 0]

def k0_off389 (v1444 : BitVec 32) : Fin 2 → Nat :=
  let c0_i32_1363 : BitVec 32 := 0#32
  ![v1444.toNat, 0]

def k0_off390 (v1454 : BitVec 32) : Fin 2 → Nat :=
  let c0_i32_1374 : BitVec 32 := 0#32
  ![v1454.toNat, 0]

def k0_off391 (v1464 : BitVec 32) : Fin 2 → Nat :=
  let c0_i32_1385 : BitVec 32 := 0#32
  ![v1464.toNat, 0]

def k0_off392 (v1474 : BitVec 32) : Fin 2 → Nat :=
  let c0_i32_1396 : BitVec 32 := 0#32
  ![v1474.toNat, 0]

def k0_off393 (v1484 : BitVec 32) : Fin 2 → Nat :=
  let c0_i32_1407 : BitVec 32 := 0#32
  ![v1484.toNat, 0]

def k0_off394 (v1494 : BitVec 32) : Fin 2 → Nat :=
  let c0_i32_1418 : BitVec 32 := 0#32
  ![v1494.toNat, 0]

def k0_off395 (v1504 : BitVec 32) : Fin 2 → Nat :=
  let c0_i32_1429 : BitVec 32 := 0#32
  ![v1504.toNat, 0]

def k0_off396 (v1514 : BitVec 32) : Fin 2 → Nat :=
  let c0_i32_1440 : BitVec 32 := 0#32
  ![v1514.toNat, 0]

def k0_off397 (v1524 : BitVec 32) : Fin 2 → Nat :=
  let c0_i32_1451 : BitVec 32 := 0#32
  ![v1524.toNat, 0]

def k0_off398 (v1534 : BitVec 32) : Fin 2 → Nat :=
  let c0_i32_1462 : BitVec 32 := 0#32
  ![v1534.toNat, 0]

def k0_off399 (v1544 : BitVec 32) : Fin 2 → Nat :=
  let c0_i32_1473 : BitVec 32 := 0#32
  ![v1544.toNat, 0]

def k0_off400 (v1554 : BitVec 32) : Fin 2 → Nat :=
  let c0_i32_1484 : BitVec 32 := 0#32
  ![v1554.toNat, 0]

def k0_off401 (v1564 : BitVec 32) : Fin 2 → Nat :=
  let c0_i32_1495 : BitVec 32 := 0#32
  ![v1564.toNat, 0]

def k0_chk256 (v1564 : BitVec 32) : Prop :=
  (∀ a, (k0_off401 v1564) a + S1x64.size a ≤ S1000000x64.size a)
instance k0_chk256.dec : ∀ (v1564 : BitVec 32), Decidable (k0_chk256 v1564) := fun v1564 => decidable_of_iff' _ (Iff.of_eq (k0_chk256.eq_1 v1564))
theorem k0_off401_inb : ∀ (v1564 : BitVec 32) (k0_hw256 : k0_chk256 v1564), ∀ a, (k0_off401 v1564) a + S1x64.size a ≤ S1000000x64.size a := fun v1564 k0_hw256 => k0_hw256

def k0_off402 (v47 : BitVec 32) : Fin 2 → Nat :=
  let c0_i32_1508 : BitVec 32 := 0#32
  ![v47.toNat, 0]

def k0_chk129 (v47 : BitVec 32) : Prop :=
  (∀ a, (k0_off267 v47) a + S1x64.size a ≤ S1000000x64.size a) ∧
  (∀ a, (k0_off402 v47) a + S1x64.size a ≤ S1000000x64.size a)
instance k0_chk129.dec : ∀ (v47 : BitVec 32), Decidable (k0_chk129 v47) := fun v47 => decidable_of_iff' _ (Iff.of_eq (k0_chk129.eq_1 v47))
theorem k0_off267_inb : ∀ (v47 : BitVec 32) (k0_hw129 : k0_chk129 v47), ∀ a, (k0_off267 v47) a + S1x64.size a ≤ S1000000x64.size a := fun v47 k0_hw129 => k0_hw129.1
theorem k0_off402_inb : ∀ (v47 : BitVec 32) (k0_hw129 : k0_chk129 v47), ∀ a, (k0_off402 v47) a + S1x64.size a ≤ S1000000x64.size a := fun v47 k0_hw129 => k0_hw129.2

def k0_off403 (v57 : BitVec 32) : Fin 2 → Nat :=
  let c0_i32_1519 : BitVec 32 := 0#32
  ![v57.toNat, 0]

def k0_chk130 (v57 : BitVec 32) : Prop :=
  (∀ a, (k0_off268 v57) a + S1x64.size a ≤ S1000000x64.size a) ∧
  (∀ a, (k0_off403 v57) a + S1x64.size a ≤ S1000000x64.size a)
instance k0_chk130.dec : ∀ (v57 : BitVec 32), Decidable (k0_chk130 v57) := fun v57 => decidable_of_iff' _ (Iff.of_eq (k0_chk130.eq_1 v57))
theorem k0_off268_inb : ∀ (v57 : BitVec 32) (k0_hw130 : k0_chk130 v57), ∀ a, (k0_off268 v57) a + S1x64.size a ≤ S1000000x64.size a := fun v57 k0_hw130 => k0_hw130.1
theorem k0_off403_inb : ∀ (v57 : BitVec 32) (k0_hw130 : k0_chk130 v57), ∀ a, (k0_off403 v57) a + S1x64.size a ≤ S1000000x64.size a := fun v57 k0_hw130 => k0_hw130.2

def k0_off404 (v67 : BitVec 32) : Fin 2 → Nat :=
  let c0_i32_1530 : BitVec 32 := 0#32
  ![v67.toNat, 0]

def k0_chk131 (v67 : BitVec 32) : Prop :=
  (∀ a, (k0_off269 v67) a + S1x64.size a ≤ S1000000x64.size a) ∧
  (∀ a, (k0_off404 v67) a + S1x64.size a ≤ S1000000x64.size a)
instance k0_chk131.dec : ∀ (v67 : BitVec 32), Decidable (k0_chk131 v67) := fun v67 => decidable_of_iff' _ (Iff.of_eq (k0_chk131.eq_1 v67))
theorem k0_off269_inb : ∀ (v67 : BitVec 32) (k0_hw131 : k0_chk131 v67), ∀ a, (k0_off269 v67) a + S1x64.size a ≤ S1000000x64.size a := fun v67 k0_hw131 => k0_hw131.1
theorem k0_off404_inb : ∀ (v67 : BitVec 32) (k0_hw131 : k0_chk131 v67), ∀ a, (k0_off404 v67) a + S1x64.size a ≤ S1000000x64.size a := fun v67 k0_hw131 => k0_hw131.2

def k0_off405 (v77 : BitVec 32) : Fin 2 → Nat :=
  let c0_i32_1541 : BitVec 32 := 0#32
  ![v77.toNat, 0]

def k0_chk132 (v77 : BitVec 32) : Prop :=
  (∀ a, (k0_off270 v77) a + S1x64.size a ≤ S1000000x64.size a) ∧
  (∀ a, (k0_off405 v77) a + S1x64.size a ≤ S1000000x64.size a)
instance k0_chk132.dec : ∀ (v77 : BitVec 32), Decidable (k0_chk132 v77) := fun v77 => decidable_of_iff' _ (Iff.of_eq (k0_chk132.eq_1 v77))
theorem k0_off270_inb : ∀ (v77 : BitVec 32) (k0_hw132 : k0_chk132 v77), ∀ a, (k0_off270 v77) a + S1x64.size a ≤ S1000000x64.size a := fun v77 k0_hw132 => k0_hw132.1
theorem k0_off405_inb : ∀ (v77 : BitVec 32) (k0_hw132 : k0_chk132 v77), ∀ a, (k0_off405 v77) a + S1x64.size a ≤ S1000000x64.size a := fun v77 k0_hw132 => k0_hw132.2

def k0_off406 (v87 : BitVec 32) : Fin 2 → Nat :=
  let c0_i32_1552 : BitVec 32 := 0#32
  ![v87.toNat, 0]

def k0_chk133 (v87 : BitVec 32) : Prop :=
  (∀ a, (k0_off271 v87) a + S1x64.size a ≤ S1000000x64.size a) ∧
  (∀ a, (k0_off406 v87) a + S1x64.size a ≤ S1000000x64.size a)
instance k0_chk133.dec : ∀ (v87 : BitVec 32), Decidable (k0_chk133 v87) := fun v87 => decidable_of_iff' _ (Iff.of_eq (k0_chk133.eq_1 v87))
theorem k0_off271_inb : ∀ (v87 : BitVec 32) (k0_hw133 : k0_chk133 v87), ∀ a, (k0_off271 v87) a + S1x64.size a ≤ S1000000x64.size a := fun v87 k0_hw133 => k0_hw133.1
theorem k0_off406_inb : ∀ (v87 : BitVec 32) (k0_hw133 : k0_chk133 v87), ∀ a, (k0_off406 v87) a + S1x64.size a ≤ S1000000x64.size a := fun v87 k0_hw133 => k0_hw133.2

def k0_off407 (v97 : BitVec 32) : Fin 2 → Nat :=
  let c0_i32_1563 : BitVec 32 := 0#32
  ![v97.toNat, 0]

def k0_chk134 (v97 : BitVec 32) : Prop :=
  (∀ a, (k0_off272 v97) a + S1x64.size a ≤ S1000000x64.size a) ∧
  (∀ a, (k0_off407 v97) a + S1x64.size a ≤ S1000000x64.size a)
instance k0_chk134.dec : ∀ (v97 : BitVec 32), Decidable (k0_chk134 v97) := fun v97 => decidable_of_iff' _ (Iff.of_eq (k0_chk134.eq_1 v97))
theorem k0_off272_inb : ∀ (v97 : BitVec 32) (k0_hw134 : k0_chk134 v97), ∀ a, (k0_off272 v97) a + S1x64.size a ≤ S1000000x64.size a := fun v97 k0_hw134 => k0_hw134.1
theorem k0_off407_inb : ∀ (v97 : BitVec 32) (k0_hw134 : k0_chk134 v97), ∀ a, (k0_off407 v97) a + S1x64.size a ≤ S1000000x64.size a := fun v97 k0_hw134 => k0_hw134.2

def k0_off408 (v107 : BitVec 32) : Fin 2 → Nat :=
  let c0_i32_1574 : BitVec 32 := 0#32
  ![v107.toNat, 0]

def k0_chk135 (v107 : BitVec 32) : Prop :=
  (∀ a, (k0_off273 v107) a + S1x64.size a ≤ S1000000x64.size a) ∧
  (∀ a, (k0_off408 v107) a + S1x64.size a ≤ S1000000x64.size a)
instance k0_chk135.dec : ∀ (v107 : BitVec 32), Decidable (k0_chk135 v107) := fun v107 => decidable_of_iff' _ (Iff.of_eq (k0_chk135.eq_1 v107))
theorem k0_off273_inb : ∀ (v107 : BitVec 32) (k0_hw135 : k0_chk135 v107), ∀ a, (k0_off273 v107) a + S1x64.size a ≤ S1000000x64.size a := fun v107 k0_hw135 => k0_hw135.1
theorem k0_off408_inb : ∀ (v107 : BitVec 32) (k0_hw135 : k0_chk135 v107), ∀ a, (k0_off408 v107) a + S1x64.size a ≤ S1000000x64.size a := fun v107 k0_hw135 => k0_hw135.2

def k0_off409 (v117 : BitVec 32) : Fin 2 → Nat :=
  let c0_i32_1585 : BitVec 32 := 0#32
  ![v117.toNat, 0]

def k0_chk136 (v117 : BitVec 32) : Prop :=
  (∀ a, (k0_off274 v117) a + S1x64.size a ≤ S1000000x64.size a) ∧
  (∀ a, (k0_off409 v117) a + S1x64.size a ≤ S1000000x64.size a)
instance k0_chk136.dec : ∀ (v117 : BitVec 32), Decidable (k0_chk136 v117) := fun v117 => decidable_of_iff' _ (Iff.of_eq (k0_chk136.eq_1 v117))
theorem k0_off274_inb : ∀ (v117 : BitVec 32) (k0_hw136 : k0_chk136 v117), ∀ a, (k0_off274 v117) a + S1x64.size a ≤ S1000000x64.size a := fun v117 k0_hw136 => k0_hw136.1
theorem k0_off409_inb : ∀ (v117 : BitVec 32) (k0_hw136 : k0_chk136 v117), ∀ a, (k0_off409 v117) a + S1x64.size a ≤ S1000000x64.size a := fun v117 k0_hw136 => k0_hw136.2

def k0_off410 (v127 : BitVec 32) : Fin 2 → Nat :=
  let c0_i32_1596 : BitVec 32 := 0#32
  ![v127.toNat, 0]

def k0_chk137 (v127 : BitVec 32) : Prop :=
  (∀ a, (k0_off275 v127) a + S1x64.size a ≤ S1000000x64.size a) ∧
  (∀ a, (k0_off410 v127) a + S1x64.size a ≤ S1000000x64.size a)
instance k0_chk137.dec : ∀ (v127 : BitVec 32), Decidable (k0_chk137 v127) := fun v127 => decidable_of_iff' _ (Iff.of_eq (k0_chk137.eq_1 v127))
theorem k0_off275_inb : ∀ (v127 : BitVec 32) (k0_hw137 : k0_chk137 v127), ∀ a, (k0_off275 v127) a + S1x64.size a ≤ S1000000x64.size a := fun v127 k0_hw137 => k0_hw137.1
theorem k0_off410_inb : ∀ (v127 : BitVec 32) (k0_hw137 : k0_chk137 v127), ∀ a, (k0_off410 v127) a + S1x64.size a ≤ S1000000x64.size a := fun v127 k0_hw137 => k0_hw137.2

def k0_off411 (v137 : BitVec 32) : Fin 2 → Nat :=
  let c0_i32_1607 : BitVec 32 := 0#32
  ![v137.toNat, 0]

def k0_chk138 (v137 : BitVec 32) : Prop :=
  (∀ a, (k0_off276 v137) a + S1x64.size a ≤ S1000000x64.size a) ∧
  (∀ a, (k0_off411 v137) a + S1x64.size a ≤ S1000000x64.size a)
instance k0_chk138.dec : ∀ (v137 : BitVec 32), Decidable (k0_chk138 v137) := fun v137 => decidable_of_iff' _ (Iff.of_eq (k0_chk138.eq_1 v137))
theorem k0_off276_inb : ∀ (v137 : BitVec 32) (k0_hw138 : k0_chk138 v137), ∀ a, (k0_off276 v137) a + S1x64.size a ≤ S1000000x64.size a := fun v137 k0_hw138 => k0_hw138.1
theorem k0_off411_inb : ∀ (v137 : BitVec 32) (k0_hw138 : k0_chk138 v137), ∀ a, (k0_off411 v137) a + S1x64.size a ≤ S1000000x64.size a := fun v137 k0_hw138 => k0_hw138.2

def k0_off412 (v147 : BitVec 32) : Fin 2 → Nat :=
  let c0_i32_1618 : BitVec 32 := 0#32
  ![v147.toNat, 0]

def k0_chk139 (v147 : BitVec 32) : Prop :=
  (∀ a, (k0_off277 v147) a + S1x64.size a ≤ S1000000x64.size a) ∧
  (∀ a, (k0_off412 v147) a + S1x64.size a ≤ S1000000x64.size a)
instance k0_chk139.dec : ∀ (v147 : BitVec 32), Decidable (k0_chk139 v147) := fun v147 => decidable_of_iff' _ (Iff.of_eq (k0_chk139.eq_1 v147))
theorem k0_off277_inb : ∀ (v147 : BitVec 32) (k0_hw139 : k0_chk139 v147), ∀ a, (k0_off277 v147) a + S1x64.size a ≤ S1000000x64.size a := fun v147 k0_hw139 => k0_hw139.1
theorem k0_off412_inb : ∀ (v147 : BitVec 32) (k0_hw139 : k0_chk139 v147), ∀ a, (k0_off412 v147) a + S1x64.size a ≤ S1000000x64.size a := fun v147 k0_hw139 => k0_hw139.2

def k0_off413 (v157 : BitVec 32) : Fin 2 → Nat :=
  let c0_i32_1629 : BitVec 32 := 0#32
  ![v157.toNat, 0]

def k0_chk140 (v157 : BitVec 32) : Prop :=
  (∀ a, (k0_off278 v157) a + S1x64.size a ≤ S1000000x64.size a) ∧
  (∀ a, (k0_off413 v157) a + S1x64.size a ≤ S1000000x64.size a)
instance k0_chk140.dec : ∀ (v157 : BitVec 32), Decidable (k0_chk140 v157) := fun v157 => decidable_of_iff' _ (Iff.of_eq (k0_chk140.eq_1 v157))
theorem k0_off278_inb : ∀ (v157 : BitVec 32) (k0_hw140 : k0_chk140 v157), ∀ a, (k0_off278 v157) a + S1x64.size a ≤ S1000000x64.size a := fun v157 k0_hw140 => k0_hw140.1
theorem k0_off413_inb : ∀ (v157 : BitVec 32) (k0_hw140 : k0_chk140 v157), ∀ a, (k0_off413 v157) a + S1x64.size a ≤ S1000000x64.size a := fun v157 k0_hw140 => k0_hw140.2

def k0_off414 (v167 : BitVec 32) : Fin 2 → Nat :=
  let c0_i32_1640 : BitVec 32 := 0#32
  ![v167.toNat, 0]

def k0_chk141 (v167 : BitVec 32) : Prop :=
  (∀ a, (k0_off279 v167) a + S1x64.size a ≤ S1000000x64.size a) ∧
  (∀ a, (k0_off414 v167) a + S1x64.size a ≤ S1000000x64.size a)
instance k0_chk141.dec : ∀ (v167 : BitVec 32), Decidable (k0_chk141 v167) := fun v167 => decidable_of_iff' _ (Iff.of_eq (k0_chk141.eq_1 v167))
theorem k0_off279_inb : ∀ (v167 : BitVec 32) (k0_hw141 : k0_chk141 v167), ∀ a, (k0_off279 v167) a + S1x64.size a ≤ S1000000x64.size a := fun v167 k0_hw141 => k0_hw141.1
theorem k0_off414_inb : ∀ (v167 : BitVec 32) (k0_hw141 : k0_chk141 v167), ∀ a, (k0_off414 v167) a + S1x64.size a ≤ S1000000x64.size a := fun v167 k0_hw141 => k0_hw141.2

def k0_off415 (v177 : BitVec 32) : Fin 2 → Nat :=
  let c0_i32_1651 : BitVec 32 := 0#32
  ![v177.toNat, 0]

def k0_chk142 (v177 : BitVec 32) : Prop :=
  (∀ a, (k0_off280 v177) a + S1x64.size a ≤ S1000000x64.size a) ∧
  (∀ a, (k0_off415 v177) a + S1x64.size a ≤ S1000000x64.size a)
instance k0_chk142.dec : ∀ (v177 : BitVec 32), Decidable (k0_chk142 v177) := fun v177 => decidable_of_iff' _ (Iff.of_eq (k0_chk142.eq_1 v177))
theorem k0_off280_inb : ∀ (v177 : BitVec 32) (k0_hw142 : k0_chk142 v177), ∀ a, (k0_off280 v177) a + S1x64.size a ≤ S1000000x64.size a := fun v177 k0_hw142 => k0_hw142.1
theorem k0_off415_inb : ∀ (v177 : BitVec 32) (k0_hw142 : k0_chk142 v177), ∀ a, (k0_off415 v177) a + S1x64.size a ≤ S1000000x64.size a := fun v177 k0_hw142 => k0_hw142.2

def k0_off416 (v187 : BitVec 32) : Fin 2 → Nat :=
  let c0_i32_1662 : BitVec 32 := 0#32
  ![v187.toNat, 0]

def k0_chk143 (v187 : BitVec 32) : Prop :=
  (∀ a, (k0_off281 v187) a + S1x64.size a ≤ S1000000x64.size a) ∧
  (∀ a, (k0_off416 v187) a + S1x64.size a ≤ S1000000x64.size a)
instance k0_chk143.dec : ∀ (v187 : BitVec 32), Decidable (k0_chk143 v187) := fun v187 => decidable_of_iff' _ (Iff.of_eq (k0_chk143.eq_1 v187))
theorem k0_off281_inb : ∀ (v187 : BitVec 32) (k0_hw143 : k0_chk143 v187), ∀ a, (k0_off281 v187) a + S1x64.size a ≤ S1000000x64.size a := fun v187 k0_hw143 => k0_hw143.1
theorem k0_off416_inb : ∀ (v187 : BitVec 32) (k0_hw143 : k0_chk143 v187), ∀ a, (k0_off416 v187) a + S1x64.size a ≤ S1000000x64.size a := fun v187 k0_hw143 => k0_hw143.2

def k0_off417 (v197 : BitVec 32) : Fin 2 → Nat :=
  let c0_i32_1673 : BitVec 32 := 0#32
  ![v197.toNat, 0]

def k0_chk144 (v197 : BitVec 32) : Prop :=
  (∀ a, (k0_off282 v197) a + S1x64.size a ≤ S1000000x64.size a) ∧
  (∀ a, (k0_off417 v197) a + S1x64.size a ≤ S1000000x64.size a)
instance k0_chk144.dec : ∀ (v197 : BitVec 32), Decidable (k0_chk144 v197) := fun v197 => decidable_of_iff' _ (Iff.of_eq (k0_chk144.eq_1 v197))
theorem k0_off282_inb : ∀ (v197 : BitVec 32) (k0_hw144 : k0_chk144 v197), ∀ a, (k0_off282 v197) a + S1x64.size a ≤ S1000000x64.size a := fun v197 k0_hw144 => k0_hw144.1
theorem k0_off417_inb : ∀ (v197 : BitVec 32) (k0_hw144 : k0_chk144 v197), ∀ a, (k0_off417 v197) a + S1x64.size a ≤ S1000000x64.size a := fun v197 k0_hw144 => k0_hw144.2

def k0_off418 (v242 : BitVec 32) : Fin 2 → Nat :=
  let c0_i32_1684 : BitVec 32 := 0#32
  ![v242.toNat, 0]

def k0_chk145 (v242 : BitVec 32) : Prop :=
  (∀ a, (k0_off284 v242) a + S1x64.size a ≤ S1000000x64.size a) ∧
  (∀ a, (k0_off418 v242) a + S1x64.size a ≤ S1000000x64.size a)
instance k0_chk145.dec : ∀ (v242 : BitVec 32), Decidable (k0_chk145 v242) := fun v242 => decidable_of_iff' _ (Iff.of_eq (k0_chk145.eq_1 v242))
theorem k0_off284_inb : ∀ (v242 : BitVec 32) (k0_hw145 : k0_chk145 v242), ∀ a, (k0_off284 v242) a + S1x64.size a ≤ S1000000x64.size a := fun v242 k0_hw145 => k0_hw145.1
theorem k0_off418_inb : ∀ (v242 : BitVec 32) (k0_hw145 : k0_chk145 v242), ∀ a, (k0_off418 v242) a + S1x64.size a ≤ S1000000x64.size a := fun v242 k0_hw145 => k0_hw145.2

def k0_off419 (v252 : BitVec 32) : Fin 2 → Nat :=
  let c0_i32_1695 : BitVec 32 := 0#32
  ![v252.toNat, 0]

def k0_chk146 (v252 : BitVec 32) : Prop :=
  (∀ a, (k0_off285 v252) a + S1x64.size a ≤ S1000000x64.size a) ∧
  (∀ a, (k0_off419 v252) a + S1x64.size a ≤ S1000000x64.size a)
instance k0_chk146.dec : ∀ (v252 : BitVec 32), Decidable (k0_chk146 v252) := fun v252 => decidable_of_iff' _ (Iff.of_eq (k0_chk146.eq_1 v252))
theorem k0_off285_inb : ∀ (v252 : BitVec 32) (k0_hw146 : k0_chk146 v252), ∀ a, (k0_off285 v252) a + S1x64.size a ≤ S1000000x64.size a := fun v252 k0_hw146 => k0_hw146.1
theorem k0_off419_inb : ∀ (v252 : BitVec 32) (k0_hw146 : k0_chk146 v252), ∀ a, (k0_off419 v252) a + S1x64.size a ≤ S1000000x64.size a := fun v252 k0_hw146 => k0_hw146.2

def k0_off420 (v262 : BitVec 32) : Fin 2 → Nat :=
  let c0_i32_1706 : BitVec 32 := 0#32
  ![v262.toNat, 0]

def k0_chk147 (v262 : BitVec 32) : Prop :=
  (∀ a, (k0_off286 v262) a + S1x64.size a ≤ S1000000x64.size a) ∧
  (∀ a, (k0_off420 v262) a + S1x64.size a ≤ S1000000x64.size a)
instance k0_chk147.dec : ∀ (v262 : BitVec 32), Decidable (k0_chk147 v262) := fun v262 => decidable_of_iff' _ (Iff.of_eq (k0_chk147.eq_1 v262))
theorem k0_off286_inb : ∀ (v262 : BitVec 32) (k0_hw147 : k0_chk147 v262), ∀ a, (k0_off286 v262) a + S1x64.size a ≤ S1000000x64.size a := fun v262 k0_hw147 => k0_hw147.1
theorem k0_off420_inb : ∀ (v262 : BitVec 32) (k0_hw147 : k0_chk147 v262), ∀ a, (k0_off420 v262) a + S1x64.size a ≤ S1000000x64.size a := fun v262 k0_hw147 => k0_hw147.2

def k0_off421 (v272 : BitVec 32) : Fin 2 → Nat :=
  let c0_i32_1717 : BitVec 32 := 0#32
  ![v272.toNat, 0]

def k0_chk148 (v272 : BitVec 32) : Prop :=
  (∀ a, (k0_off287 v272) a + S1x64.size a ≤ S1000000x64.size a) ∧
  (∀ a, (k0_off421 v272) a + S1x64.size a ≤ S1000000x64.size a)
instance k0_chk148.dec : ∀ (v272 : BitVec 32), Decidable (k0_chk148 v272) := fun v272 => decidable_of_iff' _ (Iff.of_eq (k0_chk148.eq_1 v272))
theorem k0_off287_inb : ∀ (v272 : BitVec 32) (k0_hw148 : k0_chk148 v272), ∀ a, (k0_off287 v272) a + S1x64.size a ≤ S1000000x64.size a := fun v272 k0_hw148 => k0_hw148.1
theorem k0_off421_inb : ∀ (v272 : BitVec 32) (k0_hw148 : k0_chk148 v272), ∀ a, (k0_off421 v272) a + S1x64.size a ≤ S1000000x64.size a := fun v272 k0_hw148 => k0_hw148.2

def k0_off422 (v282 : BitVec 32) : Fin 2 → Nat :=
  let c0_i32_1728 : BitVec 32 := 0#32
  ![v282.toNat, 0]

def k0_chk149 (v282 : BitVec 32) : Prop :=
  (∀ a, (k0_off288 v282) a + S1x64.size a ≤ S1000000x64.size a) ∧
  (∀ a, (k0_off422 v282) a + S1x64.size a ≤ S1000000x64.size a)
instance k0_chk149.dec : ∀ (v282 : BitVec 32), Decidable (k0_chk149 v282) := fun v282 => decidable_of_iff' _ (Iff.of_eq (k0_chk149.eq_1 v282))
theorem k0_off288_inb : ∀ (v282 : BitVec 32) (k0_hw149 : k0_chk149 v282), ∀ a, (k0_off288 v282) a + S1x64.size a ≤ S1000000x64.size a := fun v282 k0_hw149 => k0_hw149.1
theorem k0_off422_inb : ∀ (v282 : BitVec 32) (k0_hw149 : k0_chk149 v282), ∀ a, (k0_off422 v282) a + S1x64.size a ≤ S1000000x64.size a := fun v282 k0_hw149 => k0_hw149.2

def k0_off423 (v292 : BitVec 32) : Fin 2 → Nat :=
  let c0_i32_1739 : BitVec 32 := 0#32
  ![v292.toNat, 0]

def k0_chk150 (v292 : BitVec 32) : Prop :=
  (∀ a, (k0_off289 v292) a + S1x64.size a ≤ S1000000x64.size a) ∧
  (∀ a, (k0_off423 v292) a + S1x64.size a ≤ S1000000x64.size a)
instance k0_chk150.dec : ∀ (v292 : BitVec 32), Decidable (k0_chk150 v292) := fun v292 => decidable_of_iff' _ (Iff.of_eq (k0_chk150.eq_1 v292))
theorem k0_off289_inb : ∀ (v292 : BitVec 32) (k0_hw150 : k0_chk150 v292), ∀ a, (k0_off289 v292) a + S1x64.size a ≤ S1000000x64.size a := fun v292 k0_hw150 => k0_hw150.1
theorem k0_off423_inb : ∀ (v292 : BitVec 32) (k0_hw150 : k0_chk150 v292), ∀ a, (k0_off423 v292) a + S1x64.size a ≤ S1000000x64.size a := fun v292 k0_hw150 => k0_hw150.2

def k0_off424 (v302 : BitVec 32) : Fin 2 → Nat :=
  let c0_i32_1750 : BitVec 32 := 0#32
  ![v302.toNat, 0]

def k0_chk151 (v302 : BitVec 32) : Prop :=
  (∀ a, (k0_off290 v302) a + S1x64.size a ≤ S1000000x64.size a) ∧
  (∀ a, (k0_off424 v302) a + S1x64.size a ≤ S1000000x64.size a)
instance k0_chk151.dec : ∀ (v302 : BitVec 32), Decidable (k0_chk151 v302) := fun v302 => decidable_of_iff' _ (Iff.of_eq (k0_chk151.eq_1 v302))
theorem k0_off290_inb : ∀ (v302 : BitVec 32) (k0_hw151 : k0_chk151 v302), ∀ a, (k0_off290 v302) a + S1x64.size a ≤ S1000000x64.size a := fun v302 k0_hw151 => k0_hw151.1
theorem k0_off424_inb : ∀ (v302 : BitVec 32) (k0_hw151 : k0_chk151 v302), ∀ a, (k0_off424 v302) a + S1x64.size a ≤ S1000000x64.size a := fun v302 k0_hw151 => k0_hw151.2

def k0_off425 (v312 : BitVec 32) : Fin 2 → Nat :=
  let c0_i32_1761 : BitVec 32 := 0#32
  ![v312.toNat, 0]

def k0_chk152 (v312 : BitVec 32) : Prop :=
  (∀ a, (k0_off291 v312) a + S1x64.size a ≤ S1000000x64.size a) ∧
  (∀ a, (k0_off425 v312) a + S1x64.size a ≤ S1000000x64.size a)
instance k0_chk152.dec : ∀ (v312 : BitVec 32), Decidable (k0_chk152 v312) := fun v312 => decidable_of_iff' _ (Iff.of_eq (k0_chk152.eq_1 v312))
theorem k0_off291_inb : ∀ (v312 : BitVec 32) (k0_hw152 : k0_chk152 v312), ∀ a, (k0_off291 v312) a + S1x64.size a ≤ S1000000x64.size a := fun v312 k0_hw152 => k0_hw152.1
theorem k0_off425_inb : ∀ (v312 : BitVec 32) (k0_hw152 : k0_chk152 v312), ∀ a, (k0_off425 v312) a + S1x64.size a ≤ S1000000x64.size a := fun v312 k0_hw152 => k0_hw152.2

def k0_off426 (v322 : BitVec 32) : Fin 2 → Nat :=
  let c0_i32_1772 : BitVec 32 := 0#32
  ![v322.toNat, 0]

def k0_chk153 (v322 : BitVec 32) : Prop :=
  (∀ a, (k0_off292 v322) a + S1x64.size a ≤ S1000000x64.size a) ∧
  (∀ a, (k0_off426 v322) a + S1x64.size a ≤ S1000000x64.size a)
instance k0_chk153.dec : ∀ (v322 : BitVec 32), Decidable (k0_chk153 v322) := fun v322 => decidable_of_iff' _ (Iff.of_eq (k0_chk153.eq_1 v322))
theorem k0_off292_inb : ∀ (v322 : BitVec 32) (k0_hw153 : k0_chk153 v322), ∀ a, (k0_off292 v322) a + S1x64.size a ≤ S1000000x64.size a := fun v322 k0_hw153 => k0_hw153.1
theorem k0_off426_inb : ∀ (v322 : BitVec 32) (k0_hw153 : k0_chk153 v322), ∀ a, (k0_off426 v322) a + S1x64.size a ≤ S1000000x64.size a := fun v322 k0_hw153 => k0_hw153.2

def k0_off427 (v332 : BitVec 32) : Fin 2 → Nat :=
  let c0_i32_1783 : BitVec 32 := 0#32
  ![v332.toNat, 0]

def k0_chk154 (v332 : BitVec 32) : Prop :=
  (∀ a, (k0_off293 v332) a + S1x64.size a ≤ S1000000x64.size a) ∧
  (∀ a, (k0_off427 v332) a + S1x64.size a ≤ S1000000x64.size a)
instance k0_chk154.dec : ∀ (v332 : BitVec 32), Decidable (k0_chk154 v332) := fun v332 => decidable_of_iff' _ (Iff.of_eq (k0_chk154.eq_1 v332))
theorem k0_off293_inb : ∀ (v332 : BitVec 32) (k0_hw154 : k0_chk154 v332), ∀ a, (k0_off293 v332) a + S1x64.size a ≤ S1000000x64.size a := fun v332 k0_hw154 => k0_hw154.1
theorem k0_off427_inb : ∀ (v332 : BitVec 32) (k0_hw154 : k0_chk154 v332), ∀ a, (k0_off427 v332) a + S1x64.size a ≤ S1000000x64.size a := fun v332 k0_hw154 => k0_hw154.2

def k0_off428 (v342 : BitVec 32) : Fin 2 → Nat :=
  let c0_i32_1794 : BitVec 32 := 0#32
  ![v342.toNat, 0]

def k0_chk155 (v342 : BitVec 32) : Prop :=
  (∀ a, (k0_off294 v342) a + S1x64.size a ≤ S1000000x64.size a) ∧
  (∀ a, (k0_off428 v342) a + S1x64.size a ≤ S1000000x64.size a)
instance k0_chk155.dec : ∀ (v342 : BitVec 32), Decidable (k0_chk155 v342) := fun v342 => decidable_of_iff' _ (Iff.of_eq (k0_chk155.eq_1 v342))
theorem k0_off294_inb : ∀ (v342 : BitVec 32) (k0_hw155 : k0_chk155 v342), ∀ a, (k0_off294 v342) a + S1x64.size a ≤ S1000000x64.size a := fun v342 k0_hw155 => k0_hw155.1
theorem k0_off428_inb : ∀ (v342 : BitVec 32) (k0_hw155 : k0_chk155 v342), ∀ a, (k0_off428 v342) a + S1x64.size a ≤ S1000000x64.size a := fun v342 k0_hw155 => k0_hw155.2

def k0_off429 (v352 : BitVec 32) : Fin 2 → Nat :=
  let c0_i32_1805 : BitVec 32 := 0#32
  ![v352.toNat, 0]

def k0_chk156 (v352 : BitVec 32) : Prop :=
  (∀ a, (k0_off295 v352) a + S1x64.size a ≤ S1000000x64.size a) ∧
  (∀ a, (k0_off429 v352) a + S1x64.size a ≤ S1000000x64.size a)
instance k0_chk156.dec : ∀ (v352 : BitVec 32), Decidable (k0_chk156 v352) := fun v352 => decidable_of_iff' _ (Iff.of_eq (k0_chk156.eq_1 v352))
theorem k0_off295_inb : ∀ (v352 : BitVec 32) (k0_hw156 : k0_chk156 v352), ∀ a, (k0_off295 v352) a + S1x64.size a ≤ S1000000x64.size a := fun v352 k0_hw156 => k0_hw156.1
theorem k0_off429_inb : ∀ (v352 : BitVec 32) (k0_hw156 : k0_chk156 v352), ∀ a, (k0_off429 v352) a + S1x64.size a ≤ S1000000x64.size a := fun v352 k0_hw156 => k0_hw156.2

def k0_off430 (v362 : BitVec 32) : Fin 2 → Nat :=
  let c0_i32_1816 : BitVec 32 := 0#32
  ![v362.toNat, 0]

def k0_chk157 (v362 : BitVec 32) : Prop :=
  (∀ a, (k0_off296 v362) a + S1x64.size a ≤ S1000000x64.size a) ∧
  (∀ a, (k0_off430 v362) a + S1x64.size a ≤ S1000000x64.size a)
instance k0_chk157.dec : ∀ (v362 : BitVec 32), Decidable (k0_chk157 v362) := fun v362 => decidable_of_iff' _ (Iff.of_eq (k0_chk157.eq_1 v362))
theorem k0_off296_inb : ∀ (v362 : BitVec 32) (k0_hw157 : k0_chk157 v362), ∀ a, (k0_off296 v362) a + S1x64.size a ≤ S1000000x64.size a := fun v362 k0_hw157 => k0_hw157.1
theorem k0_off430_inb : ∀ (v362 : BitVec 32) (k0_hw157 : k0_chk157 v362), ∀ a, (k0_off430 v362) a + S1x64.size a ≤ S1000000x64.size a := fun v362 k0_hw157 => k0_hw157.2

def k0_off431 (v372 : BitVec 32) : Fin 2 → Nat :=
  let c0_i32_1827 : BitVec 32 := 0#32
  ![v372.toNat, 0]

def k0_chk158 (v372 : BitVec 32) : Prop :=
  (∀ a, (k0_off297 v372) a + S1x64.size a ≤ S1000000x64.size a) ∧
  (∀ a, (k0_off431 v372) a + S1x64.size a ≤ S1000000x64.size a)
instance k0_chk158.dec : ∀ (v372 : BitVec 32), Decidable (k0_chk158 v372) := fun v372 => decidable_of_iff' _ (Iff.of_eq (k0_chk158.eq_1 v372))
theorem k0_off297_inb : ∀ (v372 : BitVec 32) (k0_hw158 : k0_chk158 v372), ∀ a, (k0_off297 v372) a + S1x64.size a ≤ S1000000x64.size a := fun v372 k0_hw158 => k0_hw158.1
theorem k0_off431_inb : ∀ (v372 : BitVec 32) (k0_hw158 : k0_chk158 v372), ∀ a, (k0_off431 v372) a + S1x64.size a ≤ S1000000x64.size a := fun v372 k0_hw158 => k0_hw158.2

def k0_off432 (v382 : BitVec 32) : Fin 2 → Nat :=
  let c0_i32_1838 : BitVec 32 := 0#32
  ![v382.toNat, 0]

def k0_chk159 (v382 : BitVec 32) : Prop :=
  (∀ a, (k0_off298 v382) a + S1x64.size a ≤ S1000000x64.size a) ∧
  (∀ a, (k0_off432 v382) a + S1x64.size a ≤ S1000000x64.size a)
instance k0_chk159.dec : ∀ (v382 : BitVec 32), Decidable (k0_chk159 v382) := fun v382 => decidable_of_iff' _ (Iff.of_eq (k0_chk159.eq_1 v382))
theorem k0_off298_inb : ∀ (v382 : BitVec 32) (k0_hw159 : k0_chk159 v382), ∀ a, (k0_off298 v382) a + S1x64.size a ≤ S1000000x64.size a := fun v382 k0_hw159 => k0_hw159.1
theorem k0_off432_inb : ∀ (v382 : BitVec 32) (k0_hw159 : k0_chk159 v382), ∀ a, (k0_off432 v382) a + S1x64.size a ≤ S1000000x64.size a := fun v382 k0_hw159 => k0_hw159.2

def k0_off433 (v392 : BitVec 32) : Fin 2 → Nat :=
  let c0_i32_1849 : BitVec 32 := 0#32
  ![v392.toNat, 0]

def k0_chk160 (v392 : BitVec 32) : Prop :=
  (∀ a, (k0_off299 v392) a + S1x64.size a ≤ S1000000x64.size a) ∧
  (∀ a, (k0_off433 v392) a + S1x64.size a ≤ S1000000x64.size a)
instance k0_chk160.dec : ∀ (v392 : BitVec 32), Decidable (k0_chk160 v392) := fun v392 => decidable_of_iff' _ (Iff.of_eq (k0_chk160.eq_1 v392))
theorem k0_off299_inb : ∀ (v392 : BitVec 32) (k0_hw160 : k0_chk160 v392), ∀ a, (k0_off299 v392) a + S1x64.size a ≤ S1000000x64.size a := fun v392 k0_hw160 => k0_hw160.1
theorem k0_off433_inb : ∀ (v392 : BitVec 32) (k0_hw160 : k0_chk160 v392), ∀ a, (k0_off433 v392) a + S1x64.size a ≤ S1000000x64.size a := fun v392 k0_hw160 => k0_hw160.2

def k0_off434 (v437 : BitVec 32) : Fin 2 → Nat :=
  let c0_i32_1860 : BitVec 32 := 0#32
  ![v437.toNat, 0]

def k0_chk161 (v437 : BitVec 32) : Prop :=
  (∀ a, (k0_off301 v437) a + S1x64.size a ≤ S1000000x64.size a) ∧
  (∀ a, (k0_off434 v437) a + S1x64.size a ≤ S1000000x64.size a)
instance k0_chk161.dec : ∀ (v437 : BitVec 32), Decidable (k0_chk161 v437) := fun v437 => decidable_of_iff' _ (Iff.of_eq (k0_chk161.eq_1 v437))
theorem k0_off301_inb : ∀ (v437 : BitVec 32) (k0_hw161 : k0_chk161 v437), ∀ a, (k0_off301 v437) a + S1x64.size a ≤ S1000000x64.size a := fun v437 k0_hw161 => k0_hw161.1
theorem k0_off434_inb : ∀ (v437 : BitVec 32) (k0_hw161 : k0_chk161 v437), ∀ a, (k0_off434 v437) a + S1x64.size a ≤ S1000000x64.size a := fun v437 k0_hw161 => k0_hw161.2

def k0_off435 (v447 : BitVec 32) : Fin 2 → Nat :=
  let c0_i32_1871 : BitVec 32 := 0#32
  ![v447.toNat, 0]

def k0_chk162 (v447 : BitVec 32) : Prop :=
  (∀ a, (k0_off302 v447) a + S1x64.size a ≤ S1000000x64.size a) ∧
  (∀ a, (k0_off435 v447) a + S1x64.size a ≤ S1000000x64.size a)
instance k0_chk162.dec : ∀ (v447 : BitVec 32), Decidable (k0_chk162 v447) := fun v447 => decidable_of_iff' _ (Iff.of_eq (k0_chk162.eq_1 v447))
theorem k0_off302_inb : ∀ (v447 : BitVec 32) (k0_hw162 : k0_chk162 v447), ∀ a, (k0_off302 v447) a + S1x64.size a ≤ S1000000x64.size a := fun v447 k0_hw162 => k0_hw162.1
theorem k0_off435_inb : ∀ (v447 : BitVec 32) (k0_hw162 : k0_chk162 v447), ∀ a, (k0_off435 v447) a + S1x64.size a ≤ S1000000x64.size a := fun v447 k0_hw162 => k0_hw162.2

def k0_off436 (v457 : BitVec 32) : Fin 2 → Nat :=
  let c0_i32_1882 : BitVec 32 := 0#32
  ![v457.toNat, 0]

def k0_chk163 (v457 : BitVec 32) : Prop :=
  (∀ a, (k0_off303 v457) a + S1x64.size a ≤ S1000000x64.size a) ∧
  (∀ a, (k0_off436 v457) a + S1x64.size a ≤ S1000000x64.size a)
instance k0_chk163.dec : ∀ (v457 : BitVec 32), Decidable (k0_chk163 v457) := fun v457 => decidable_of_iff' _ (Iff.of_eq (k0_chk163.eq_1 v457))
theorem k0_off303_inb : ∀ (v457 : BitVec 32) (k0_hw163 : k0_chk163 v457), ∀ a, (k0_off303 v457) a + S1x64.size a ≤ S1000000x64.size a := fun v457 k0_hw163 => k0_hw163.1
theorem k0_off436_inb : ∀ (v457 : BitVec 32) (k0_hw163 : k0_chk163 v457), ∀ a, (k0_off436 v457) a + S1x64.size a ≤ S1000000x64.size a := fun v457 k0_hw163 => k0_hw163.2

def k0_off437 (v467 : BitVec 32) : Fin 2 → Nat :=
  let c0_i32_1893 : BitVec 32 := 0#32
  ![v467.toNat, 0]

def k0_chk164 (v467 : BitVec 32) : Prop :=
  (∀ a, (k0_off304 v467) a + S1x64.size a ≤ S1000000x64.size a) ∧
  (∀ a, (k0_off437 v467) a + S1x64.size a ≤ S1000000x64.size a)
instance k0_chk164.dec : ∀ (v467 : BitVec 32), Decidable (k0_chk164 v467) := fun v467 => decidable_of_iff' _ (Iff.of_eq (k0_chk164.eq_1 v467))
theorem k0_off304_inb : ∀ (v467 : BitVec 32) (k0_hw164 : k0_chk164 v467), ∀ a, (k0_off304 v467) a + S1x64.size a ≤ S1000000x64.size a := fun v467 k0_hw164 => k0_hw164.1
theorem k0_off437_inb : ∀ (v467 : BitVec 32) (k0_hw164 : k0_chk164 v467), ∀ a, (k0_off437 v467) a + S1x64.size a ≤ S1000000x64.size a := fun v467 k0_hw164 => k0_hw164.2

def k0_off438 (v477 : BitVec 32) : Fin 2 → Nat :=
  let c0_i32_1904 : BitVec 32 := 0#32
  ![v477.toNat, 0]

def k0_chk165 (v477 : BitVec 32) : Prop :=
  (∀ a, (k0_off305 v477) a + S1x64.size a ≤ S1000000x64.size a) ∧
  (∀ a, (k0_off438 v477) a + S1x64.size a ≤ S1000000x64.size a)
instance k0_chk165.dec : ∀ (v477 : BitVec 32), Decidable (k0_chk165 v477) := fun v477 => decidable_of_iff' _ (Iff.of_eq (k0_chk165.eq_1 v477))
theorem k0_off305_inb : ∀ (v477 : BitVec 32) (k0_hw165 : k0_chk165 v477), ∀ a, (k0_off305 v477) a + S1x64.size a ≤ S1000000x64.size a := fun v477 k0_hw165 => k0_hw165.1
theorem k0_off438_inb : ∀ (v477 : BitVec 32) (k0_hw165 : k0_chk165 v477), ∀ a, (k0_off438 v477) a + S1x64.size a ≤ S1000000x64.size a := fun v477 k0_hw165 => k0_hw165.2

def k0_off439 (v487 : BitVec 32) : Fin 2 → Nat :=
  let c0_i32_1915 : BitVec 32 := 0#32
  ![v487.toNat, 0]

def k0_chk166 (v487 : BitVec 32) : Prop :=
  (∀ a, (k0_off306 v487) a + S1x64.size a ≤ S1000000x64.size a) ∧
  (∀ a, (k0_off439 v487) a + S1x64.size a ≤ S1000000x64.size a)
instance k0_chk166.dec : ∀ (v487 : BitVec 32), Decidable (k0_chk166 v487) := fun v487 => decidable_of_iff' _ (Iff.of_eq (k0_chk166.eq_1 v487))
theorem k0_off306_inb : ∀ (v487 : BitVec 32) (k0_hw166 : k0_chk166 v487), ∀ a, (k0_off306 v487) a + S1x64.size a ≤ S1000000x64.size a := fun v487 k0_hw166 => k0_hw166.1
theorem k0_off439_inb : ∀ (v487 : BitVec 32) (k0_hw166 : k0_chk166 v487), ∀ a, (k0_off439 v487) a + S1x64.size a ≤ S1000000x64.size a := fun v487 k0_hw166 => k0_hw166.2

def k0_off440 (v497 : BitVec 32) : Fin 2 → Nat :=
  let c0_i32_1926 : BitVec 32 := 0#32
  ![v497.toNat, 0]

def k0_chk167 (v497 : BitVec 32) : Prop :=
  (∀ a, (k0_off307 v497) a + S1x64.size a ≤ S1000000x64.size a) ∧
  (∀ a, (k0_off440 v497) a + S1x64.size a ≤ S1000000x64.size a)
instance k0_chk167.dec : ∀ (v497 : BitVec 32), Decidable (k0_chk167 v497) := fun v497 => decidable_of_iff' _ (Iff.of_eq (k0_chk167.eq_1 v497))
theorem k0_off307_inb : ∀ (v497 : BitVec 32) (k0_hw167 : k0_chk167 v497), ∀ a, (k0_off307 v497) a + S1x64.size a ≤ S1000000x64.size a := fun v497 k0_hw167 => k0_hw167.1
theorem k0_off440_inb : ∀ (v497 : BitVec 32) (k0_hw167 : k0_chk167 v497), ∀ a, (k0_off440 v497) a + S1x64.size a ≤ S1000000x64.size a := fun v497 k0_hw167 => k0_hw167.2

def k0_off441 (v507 : BitVec 32) : Fin 2 → Nat :=
  let c0_i32_1937 : BitVec 32 := 0#32
  ![v507.toNat, 0]

def k0_chk168 (v507 : BitVec 32) : Prop :=
  (∀ a, (k0_off308 v507) a + S1x64.size a ≤ S1000000x64.size a) ∧
  (∀ a, (k0_off441 v507) a + S1x64.size a ≤ S1000000x64.size a)
instance k0_chk168.dec : ∀ (v507 : BitVec 32), Decidable (k0_chk168 v507) := fun v507 => decidable_of_iff' _ (Iff.of_eq (k0_chk168.eq_1 v507))
theorem k0_off308_inb : ∀ (v507 : BitVec 32) (k0_hw168 : k0_chk168 v507), ∀ a, (k0_off308 v507) a + S1x64.size a ≤ S1000000x64.size a := fun v507 k0_hw168 => k0_hw168.1
theorem k0_off441_inb : ∀ (v507 : BitVec 32) (k0_hw168 : k0_chk168 v507), ∀ a, (k0_off441 v507) a + S1x64.size a ≤ S1000000x64.size a := fun v507 k0_hw168 => k0_hw168.2

def k0_off442 (v517 : BitVec 32) : Fin 2 → Nat :=
  let c0_i32_1948 : BitVec 32 := 0#32
  ![v517.toNat, 0]

def k0_chk169 (v517 : BitVec 32) : Prop :=
  (∀ a, (k0_off309 v517) a + S1x64.size a ≤ S1000000x64.size a) ∧
  (∀ a, (k0_off442 v517) a + S1x64.size a ≤ S1000000x64.size a)
instance k0_chk169.dec : ∀ (v517 : BitVec 32), Decidable (k0_chk169 v517) := fun v517 => decidable_of_iff' _ (Iff.of_eq (k0_chk169.eq_1 v517))
theorem k0_off309_inb : ∀ (v517 : BitVec 32) (k0_hw169 : k0_chk169 v517), ∀ a, (k0_off309 v517) a + S1x64.size a ≤ S1000000x64.size a := fun v517 k0_hw169 => k0_hw169.1
theorem k0_off442_inb : ∀ (v517 : BitVec 32) (k0_hw169 : k0_chk169 v517), ∀ a, (k0_off442 v517) a + S1x64.size a ≤ S1000000x64.size a := fun v517 k0_hw169 => k0_hw169.2

def k0_off443 (v527 : BitVec 32) : Fin 2 → Nat :=
  let c0_i32_1959 : BitVec 32 := 0#32
  ![v527.toNat, 0]

def k0_chk170 (v527 : BitVec 32) : Prop :=
  (∀ a, (k0_off310 v527) a + S1x64.size a ≤ S1000000x64.size a) ∧
  (∀ a, (k0_off443 v527) a + S1x64.size a ≤ S1000000x64.size a)
instance k0_chk170.dec : ∀ (v527 : BitVec 32), Decidable (k0_chk170 v527) := fun v527 => decidable_of_iff' _ (Iff.of_eq (k0_chk170.eq_1 v527))
theorem k0_off310_inb : ∀ (v527 : BitVec 32) (k0_hw170 : k0_chk170 v527), ∀ a, (k0_off310 v527) a + S1x64.size a ≤ S1000000x64.size a := fun v527 k0_hw170 => k0_hw170.1
theorem k0_off443_inb : ∀ (v527 : BitVec 32) (k0_hw170 : k0_chk170 v527), ∀ a, (k0_off443 v527) a + S1x64.size a ≤ S1000000x64.size a := fun v527 k0_hw170 => k0_hw170.2

def k0_off444 (v537 : BitVec 32) : Fin 2 → Nat :=
  let c0_i32_1970 : BitVec 32 := 0#32
  ![v537.toNat, 0]

def k0_chk171 (v537 : BitVec 32) : Prop :=
  (∀ a, (k0_off311 v537) a + S1x64.size a ≤ S1000000x64.size a) ∧
  (∀ a, (k0_off444 v537) a + S1x64.size a ≤ S1000000x64.size a)
instance k0_chk171.dec : ∀ (v537 : BitVec 32), Decidable (k0_chk171 v537) := fun v537 => decidable_of_iff' _ (Iff.of_eq (k0_chk171.eq_1 v537))
theorem k0_off311_inb : ∀ (v537 : BitVec 32) (k0_hw171 : k0_chk171 v537), ∀ a, (k0_off311 v537) a + S1x64.size a ≤ S1000000x64.size a := fun v537 k0_hw171 => k0_hw171.1
theorem k0_off444_inb : ∀ (v537 : BitVec 32) (k0_hw171 : k0_chk171 v537), ∀ a, (k0_off444 v537) a + S1x64.size a ≤ S1000000x64.size a := fun v537 k0_hw171 => k0_hw171.2

def k0_off445 (v547 : BitVec 32) : Fin 2 → Nat :=
  let c0_i32_1981 : BitVec 32 := 0#32
  ![v547.toNat, 0]

def k0_chk172 (v547 : BitVec 32) : Prop :=
  (∀ a, (k0_off312 v547) a + S1x64.size a ≤ S1000000x64.size a) ∧
  (∀ a, (k0_off445 v547) a + S1x64.size a ≤ S1000000x64.size a)
instance k0_chk172.dec : ∀ (v547 : BitVec 32), Decidable (k0_chk172 v547) := fun v547 => decidable_of_iff' _ (Iff.of_eq (k0_chk172.eq_1 v547))
theorem k0_off312_inb : ∀ (v547 : BitVec 32) (k0_hw172 : k0_chk172 v547), ∀ a, (k0_off312 v547) a + S1x64.size a ≤ S1000000x64.size a := fun v547 k0_hw172 => k0_hw172.1
theorem k0_off445_inb : ∀ (v547 : BitVec 32) (k0_hw172 : k0_chk172 v547), ∀ a, (k0_off445 v547) a + S1x64.size a ≤ S1000000x64.size a := fun v547 k0_hw172 => k0_hw172.2

def k0_off446 (v557 : BitVec 32) : Fin 2 → Nat :=
  let c0_i32_1992 : BitVec 32 := 0#32
  ![v557.toNat, 0]

def k0_chk173 (v557 : BitVec 32) : Prop :=
  (∀ a, (k0_off313 v557) a + S1x64.size a ≤ S1000000x64.size a) ∧
  (∀ a, (k0_off446 v557) a + S1x64.size a ≤ S1000000x64.size a)
instance k0_chk173.dec : ∀ (v557 : BitVec 32), Decidable (k0_chk173 v557) := fun v557 => decidable_of_iff' _ (Iff.of_eq (k0_chk173.eq_1 v557))
theorem k0_off313_inb : ∀ (v557 : BitVec 32) (k0_hw173 : k0_chk173 v557), ∀ a, (k0_off313 v557) a + S1x64.size a ≤ S1000000x64.size a := fun v557 k0_hw173 => k0_hw173.1
theorem k0_off446_inb : ∀ (v557 : BitVec 32) (k0_hw173 : k0_chk173 v557), ∀ a, (k0_off446 v557) a + S1x64.size a ≤ S1000000x64.size a := fun v557 k0_hw173 => k0_hw173.2

def k0_off447 (v567 : BitVec 32) : Fin 2 → Nat :=
  let c0_i32_2003 : BitVec 32 := 0#32
  ![v567.toNat, 0]

def k0_chk174 (v567 : BitVec 32) : Prop :=
  (∀ a, (k0_off314 v567) a + S1x64.size a ≤ S1000000x64.size a) ∧
  (∀ a, (k0_off447 v567) a + S1x64.size a ≤ S1000000x64.size a)
instance k0_chk174.dec : ∀ (v567 : BitVec 32), Decidable (k0_chk174 v567) := fun v567 => decidable_of_iff' _ (Iff.of_eq (k0_chk174.eq_1 v567))
theorem k0_off314_inb : ∀ (v567 : BitVec 32) (k0_hw174 : k0_chk174 v567), ∀ a, (k0_off314 v567) a + S1x64.size a ≤ S1000000x64.size a := fun v567 k0_hw174 => k0_hw174.1
theorem k0_off447_inb : ∀ (v567 : BitVec 32) (k0_hw174 : k0_chk174 v567), ∀ a, (k0_off447 v567) a + S1x64.size a ≤ S1000000x64.size a := fun v567 k0_hw174 => k0_hw174.2

def k0_off448 (v577 : BitVec 32) : Fin 2 → Nat :=
  let c0_i32_2014 : BitVec 32 := 0#32
  ![v577.toNat, 0]

def k0_chk175 (v577 : BitVec 32) : Prop :=
  (∀ a, (k0_off315 v577) a + S1x64.size a ≤ S1000000x64.size a) ∧
  (∀ a, (k0_off448 v577) a + S1x64.size a ≤ S1000000x64.size a)
instance k0_chk175.dec : ∀ (v577 : BitVec 32), Decidable (k0_chk175 v577) := fun v577 => decidable_of_iff' _ (Iff.of_eq (k0_chk175.eq_1 v577))
theorem k0_off315_inb : ∀ (v577 : BitVec 32) (k0_hw175 : k0_chk175 v577), ∀ a, (k0_off315 v577) a + S1x64.size a ≤ S1000000x64.size a := fun v577 k0_hw175 => k0_hw175.1
theorem k0_off448_inb : ∀ (v577 : BitVec 32) (k0_hw175 : k0_chk175 v577), ∀ a, (k0_off448 v577) a + S1x64.size a ≤ S1000000x64.size a := fun v577 k0_hw175 => k0_hw175.2

def k0_off449 (v587 : BitVec 32) : Fin 2 → Nat :=
  let c0_i32_2025 : BitVec 32 := 0#32
  ![v587.toNat, 0]

def k0_chk176 (v587 : BitVec 32) : Prop :=
  (∀ a, (k0_off316 v587) a + S1x64.size a ≤ S1000000x64.size a) ∧
  (∀ a, (k0_off449 v587) a + S1x64.size a ≤ S1000000x64.size a)
instance k0_chk176.dec : ∀ (v587 : BitVec 32), Decidable (k0_chk176 v587) := fun v587 => decidable_of_iff' _ (Iff.of_eq (k0_chk176.eq_1 v587))
theorem k0_off316_inb : ∀ (v587 : BitVec 32) (k0_hw176 : k0_chk176 v587), ∀ a, (k0_off316 v587) a + S1x64.size a ≤ S1000000x64.size a := fun v587 k0_hw176 => k0_hw176.1
theorem k0_off449_inb : ∀ (v587 : BitVec 32) (k0_hw176 : k0_chk176 v587), ∀ a, (k0_off449 v587) a + S1x64.size a ≤ S1000000x64.size a := fun v587 k0_hw176 => k0_hw176.2

def k0_off450 (v632 : BitVec 32) : Fin 2 → Nat :=
  let c0_i32_2036 : BitVec 32 := 0#32
  ![v632.toNat, 0]

def k0_chk177 (v632 : BitVec 32) : Prop :=
  (∀ a, (k0_off318 v632) a + S1x64.size a ≤ S1000000x64.size a) ∧
  (∀ a, (k0_off450 v632) a + S1x64.size a ≤ S1000000x64.size a)
instance k0_chk177.dec : ∀ (v632 : BitVec 32), Decidable (k0_chk177 v632) := fun v632 => decidable_of_iff' _ (Iff.of_eq (k0_chk177.eq_1 v632))
theorem k0_off318_inb : ∀ (v632 : BitVec 32) (k0_hw177 : k0_chk177 v632), ∀ a, (k0_off318 v632) a + S1x64.size a ≤ S1000000x64.size a := fun v632 k0_hw177 => k0_hw177.1
theorem k0_off450_inb : ∀ (v632 : BitVec 32) (k0_hw177 : k0_chk177 v632), ∀ a, (k0_off450 v632) a + S1x64.size a ≤ S1000000x64.size a := fun v632 k0_hw177 => k0_hw177.2

def k0_off451 (v642 : BitVec 32) : Fin 2 → Nat :=
  let c0_i32_2047 : BitVec 32 := 0#32
  ![v642.toNat, 0]

def k0_chk178 (v642 : BitVec 32) : Prop :=
  (∀ a, (k0_off319 v642) a + S1x64.size a ≤ S1000000x64.size a) ∧
  (∀ a, (k0_off451 v642) a + S1x64.size a ≤ S1000000x64.size a)
instance k0_chk178.dec : ∀ (v642 : BitVec 32), Decidable (k0_chk178 v642) := fun v642 => decidable_of_iff' _ (Iff.of_eq (k0_chk178.eq_1 v642))
theorem k0_off319_inb : ∀ (v642 : BitVec 32) (k0_hw178 : k0_chk178 v642), ∀ a, (k0_off319 v642) a + S1x64.size a ≤ S1000000x64.size a := fun v642 k0_hw178 => k0_hw178.1
theorem k0_off451_inb : ∀ (v642 : BitVec 32) (k0_hw178 : k0_chk178 v642), ∀ a, (k0_off451 v642) a + S1x64.size a ≤ S1000000x64.size a := fun v642 k0_hw178 => k0_hw178.2

def k0_off452 (v652 : BitVec 32) : Fin 2 → Nat :=
  let c0_i32_2058 : BitVec 32 := 0#32
  ![v652.toNat, 0]

def k0_chk179 (v652 : BitVec 32) : Prop :=
  (∀ a, (k0_off320 v652) a + S1x64.size a ≤ S1000000x64.size a) ∧
  (∀ a, (k0_off452 v652) a + S1x64.size a ≤ S1000000x64.size a)
instance k0_chk179.dec : ∀ (v652 : BitVec 32), Decidable (k0_chk179 v652) := fun v652 => decidable_of_iff' _ (Iff.of_eq (k0_chk179.eq_1 v652))
theorem k0_off320_inb : ∀ (v652 : BitVec 32) (k0_hw179 : k0_chk179 v652), ∀ a, (k0_off320 v652) a + S1x64.size a ≤ S1000000x64.size a := fun v652 k0_hw179 => k0_hw179.1
theorem k0_off452_inb : ∀ (v652 : BitVec 32) (k0_hw179 : k0_chk179 v652), ∀ a, (k0_off452 v652) a + S1x64.size a ≤ S1000000x64.size a := fun v652 k0_hw179 => k0_hw179.2

def k0_off453 (v662 : BitVec 32) : Fin 2 → Nat :=
  let c0_i32_2069 : BitVec 32 := 0#32
  ![v662.toNat, 0]

def k0_chk180 (v662 : BitVec 32) : Prop :=
  (∀ a, (k0_off321 v662) a + S1x64.size a ≤ S1000000x64.size a) ∧
  (∀ a, (k0_off453 v662) a + S1x64.size a ≤ S1000000x64.size a)
instance k0_chk180.dec : ∀ (v662 : BitVec 32), Decidable (k0_chk180 v662) := fun v662 => decidable_of_iff' _ (Iff.of_eq (k0_chk180.eq_1 v662))
theorem k0_off321_inb : ∀ (v662 : BitVec 32) (k0_hw180 : k0_chk180 v662), ∀ a, (k0_off321 v662) a + S1x64.size a ≤ S1000000x64.size a := fun v662 k0_hw180 => k0_hw180.1
theorem k0_off453_inb : ∀ (v662 : BitVec 32) (k0_hw180 : k0_chk180 v662), ∀ a, (k0_off453 v662) a + S1x64.size a ≤ S1000000x64.size a := fun v662 k0_hw180 => k0_hw180.2

def k0_off454 (v672 : BitVec 32) : Fin 2 → Nat :=
  let c0_i32_2080 : BitVec 32 := 0#32
  ![v672.toNat, 0]

def k0_chk181 (v672 : BitVec 32) : Prop :=
  (∀ a, (k0_off322 v672) a + S1x64.size a ≤ S1000000x64.size a) ∧
  (∀ a, (k0_off454 v672) a + S1x64.size a ≤ S1000000x64.size a)
instance k0_chk181.dec : ∀ (v672 : BitVec 32), Decidable (k0_chk181 v672) := fun v672 => decidable_of_iff' _ (Iff.of_eq (k0_chk181.eq_1 v672))
theorem k0_off322_inb : ∀ (v672 : BitVec 32) (k0_hw181 : k0_chk181 v672), ∀ a, (k0_off322 v672) a + S1x64.size a ≤ S1000000x64.size a := fun v672 k0_hw181 => k0_hw181.1
theorem k0_off454_inb : ∀ (v672 : BitVec 32) (k0_hw181 : k0_chk181 v672), ∀ a, (k0_off454 v672) a + S1x64.size a ≤ S1000000x64.size a := fun v672 k0_hw181 => k0_hw181.2

def k0_off455 (v682 : BitVec 32) : Fin 2 → Nat :=
  let c0_i32_2091 : BitVec 32 := 0#32
  ![v682.toNat, 0]

def k0_chk182 (v682 : BitVec 32) : Prop :=
  (∀ a, (k0_off323 v682) a + S1x64.size a ≤ S1000000x64.size a) ∧
  (∀ a, (k0_off455 v682) a + S1x64.size a ≤ S1000000x64.size a)
instance k0_chk182.dec : ∀ (v682 : BitVec 32), Decidable (k0_chk182 v682) := fun v682 => decidable_of_iff' _ (Iff.of_eq (k0_chk182.eq_1 v682))
theorem k0_off323_inb : ∀ (v682 : BitVec 32) (k0_hw182 : k0_chk182 v682), ∀ a, (k0_off323 v682) a + S1x64.size a ≤ S1000000x64.size a := fun v682 k0_hw182 => k0_hw182.1
theorem k0_off455_inb : ∀ (v682 : BitVec 32) (k0_hw182 : k0_chk182 v682), ∀ a, (k0_off455 v682) a + S1x64.size a ≤ S1000000x64.size a := fun v682 k0_hw182 => k0_hw182.2

def k0_off456 (v692 : BitVec 32) : Fin 2 → Nat :=
  let c0_i32_2102 : BitVec 32 := 0#32
  ![v692.toNat, 0]

def k0_chk183 (v692 : BitVec 32) : Prop :=
  (∀ a, (k0_off324 v692) a + S1x64.size a ≤ S1000000x64.size a) ∧
  (∀ a, (k0_off456 v692) a + S1x64.size a ≤ S1000000x64.size a)
instance k0_chk183.dec : ∀ (v692 : BitVec 32), Decidable (k0_chk183 v692) := fun v692 => decidable_of_iff' _ (Iff.of_eq (k0_chk183.eq_1 v692))
theorem k0_off324_inb : ∀ (v692 : BitVec 32) (k0_hw183 : k0_chk183 v692), ∀ a, (k0_off324 v692) a + S1x64.size a ≤ S1000000x64.size a := fun v692 k0_hw183 => k0_hw183.1
theorem k0_off456_inb : ∀ (v692 : BitVec 32) (k0_hw183 : k0_chk183 v692), ∀ a, (k0_off456 v692) a + S1x64.size a ≤ S1000000x64.size a := fun v692 k0_hw183 => k0_hw183.2

def k0_off457 (v702 : BitVec 32) : Fin 2 → Nat :=
  let c0_i32_2113 : BitVec 32 := 0#32
  ![v702.toNat, 0]

def k0_chk184 (v702 : BitVec 32) : Prop :=
  (∀ a, (k0_off325 v702) a + S1x64.size a ≤ S1000000x64.size a) ∧
  (∀ a, (k0_off457 v702) a + S1x64.size a ≤ S1000000x64.size a)
instance k0_chk184.dec : ∀ (v702 : BitVec 32), Decidable (k0_chk184 v702) := fun v702 => decidable_of_iff' _ (Iff.of_eq (k0_chk184.eq_1 v702))
theorem k0_off325_inb : ∀ (v702 : BitVec 32) (k0_hw184 : k0_chk184 v702), ∀ a, (k0_off325 v702) a + S1x64.size a ≤ S1000000x64.size a := fun v702 k0_hw184 => k0_hw184.1
theorem k0_off457_inb : ∀ (v702 : BitVec 32) (k0_hw184 : k0_chk184 v702), ∀ a, (k0_off457 v702) a + S1x64.size a ≤ S1000000x64.size a := fun v702 k0_hw184 => k0_hw184.2

def k0_off458 (v712 : BitVec 32) : Fin 2 → Nat :=
  let c0_i32_2124 : BitVec 32 := 0#32
  ![v712.toNat, 0]

def k0_chk185 (v712 : BitVec 32) : Prop :=
  (∀ a, (k0_off326 v712) a + S1x64.size a ≤ S1000000x64.size a) ∧
  (∀ a, (k0_off458 v712) a + S1x64.size a ≤ S1000000x64.size a)
instance k0_chk185.dec : ∀ (v712 : BitVec 32), Decidable (k0_chk185 v712) := fun v712 => decidable_of_iff' _ (Iff.of_eq (k0_chk185.eq_1 v712))
theorem k0_off326_inb : ∀ (v712 : BitVec 32) (k0_hw185 : k0_chk185 v712), ∀ a, (k0_off326 v712) a + S1x64.size a ≤ S1000000x64.size a := fun v712 k0_hw185 => k0_hw185.1
theorem k0_off458_inb : ∀ (v712 : BitVec 32) (k0_hw185 : k0_chk185 v712), ∀ a, (k0_off458 v712) a + S1x64.size a ≤ S1000000x64.size a := fun v712 k0_hw185 => k0_hw185.2

def k0_off459 (v722 : BitVec 32) : Fin 2 → Nat :=
  let c0_i32_2135 : BitVec 32 := 0#32
  ![v722.toNat, 0]

def k0_chk186 (v722 : BitVec 32) : Prop :=
  (∀ a, (k0_off327 v722) a + S1x64.size a ≤ S1000000x64.size a) ∧
  (∀ a, (k0_off459 v722) a + S1x64.size a ≤ S1000000x64.size a)
instance k0_chk186.dec : ∀ (v722 : BitVec 32), Decidable (k0_chk186 v722) := fun v722 => decidable_of_iff' _ (Iff.of_eq (k0_chk186.eq_1 v722))
theorem k0_off327_inb : ∀ (v722 : BitVec 32) (k0_hw186 : k0_chk186 v722), ∀ a, (k0_off327 v722) a + S1x64.size a ≤ S1000000x64.size a := fun v722 k0_hw186 => k0_hw186.1
theorem k0_off459_inb : ∀ (v722 : BitVec 32) (k0_hw186 : k0_chk186 v722), ∀ a, (k0_off459 v722) a + S1x64.size a ≤ S1000000x64.size a := fun v722 k0_hw186 => k0_hw186.2

def k0_off460 (v732 : BitVec 32) : Fin 2 → Nat :=
  let c0_i32_2146 : BitVec 32 := 0#32
  ![v732.toNat, 0]

def k0_chk187 (v732 : BitVec 32) : Prop :=
  (∀ a, (k0_off328 v732) a + S1x64.size a ≤ S1000000x64.size a) ∧
  (∀ a, (k0_off460 v732) a + S1x64.size a ≤ S1000000x64.size a)
instance k0_chk187.dec : ∀ (v732 : BitVec 32), Decidable (k0_chk187 v732) := fun v732 => decidable_of_iff' _ (Iff.of_eq (k0_chk187.eq_1 v732))
theorem k0_off328_inb : ∀ (v732 : BitVec 32) (k0_hw187 : k0_chk187 v732), ∀ a, (k0_off328 v732) a + S1x64.size a ≤ S1000000x64.size a := fun v732 k0_hw187 => k0_hw187.1
theorem k0_off460_inb : ∀ (v732 : BitVec 32) (k0_hw187 : k0_chk187 v732), ∀ a, (k0_off460 v732) a + S1x64.size a ≤ S1000000x64.size a := fun v732 k0_hw187 => k0_hw187.2

def k0_off461 (v742 : BitVec 32) : Fin 2 → Nat :=
  let c0_i32_2157 : BitVec 32 := 0#32
  ![v742.toNat, 0]

def k0_chk188 (v742 : BitVec 32) : Prop :=
  (∀ a, (k0_off329 v742) a + S1x64.size a ≤ S1000000x64.size a) ∧
  (∀ a, (k0_off461 v742) a + S1x64.size a ≤ S1000000x64.size a)
instance k0_chk188.dec : ∀ (v742 : BitVec 32), Decidable (k0_chk188 v742) := fun v742 => decidable_of_iff' _ (Iff.of_eq (k0_chk188.eq_1 v742))
theorem k0_off329_inb : ∀ (v742 : BitVec 32) (k0_hw188 : k0_chk188 v742), ∀ a, (k0_off329 v742) a + S1x64.size a ≤ S1000000x64.size a := fun v742 k0_hw188 => k0_hw188.1
theorem k0_off461_inb : ∀ (v742 : BitVec 32) (k0_hw188 : k0_chk188 v742), ∀ a, (k0_off461 v742) a + S1x64.size a ≤ S1000000x64.size a := fun v742 k0_hw188 => k0_hw188.2

def k0_off462 (v752 : BitVec 32) : Fin 2 → Nat :=
  let c0_i32_2168 : BitVec 32 := 0#32
  ![v752.toNat, 0]

def k0_chk189 (v752 : BitVec 32) : Prop :=
  (∀ a, (k0_off330 v752) a + S1x64.size a ≤ S1000000x64.size a) ∧
  (∀ a, (k0_off462 v752) a + S1x64.size a ≤ S1000000x64.size a)
instance k0_chk189.dec : ∀ (v752 : BitVec 32), Decidable (k0_chk189 v752) := fun v752 => decidable_of_iff' _ (Iff.of_eq (k0_chk189.eq_1 v752))
theorem k0_off330_inb : ∀ (v752 : BitVec 32) (k0_hw189 : k0_chk189 v752), ∀ a, (k0_off330 v752) a + S1x64.size a ≤ S1000000x64.size a := fun v752 k0_hw189 => k0_hw189.1
theorem k0_off462_inb : ∀ (v752 : BitVec 32) (k0_hw189 : k0_chk189 v752), ∀ a, (k0_off462 v752) a + S1x64.size a ≤ S1000000x64.size a := fun v752 k0_hw189 => k0_hw189.2

def k0_off463 (v762 : BitVec 32) : Fin 2 → Nat :=
  let c0_i32_2179 : BitVec 32 := 0#32
  ![v762.toNat, 0]

def k0_chk190 (v762 : BitVec 32) : Prop :=
  (∀ a, (k0_off331 v762) a + S1x64.size a ≤ S1000000x64.size a) ∧
  (∀ a, (k0_off463 v762) a + S1x64.size a ≤ S1000000x64.size a)
instance k0_chk190.dec : ∀ (v762 : BitVec 32), Decidable (k0_chk190 v762) := fun v762 => decidable_of_iff' _ (Iff.of_eq (k0_chk190.eq_1 v762))
theorem k0_off331_inb : ∀ (v762 : BitVec 32) (k0_hw190 : k0_chk190 v762), ∀ a, (k0_off331 v762) a + S1x64.size a ≤ S1000000x64.size a := fun v762 k0_hw190 => k0_hw190.1
theorem k0_off463_inb : ∀ (v762 : BitVec 32) (k0_hw190 : k0_chk190 v762), ∀ a, (k0_off463 v762) a + S1x64.size a ≤ S1000000x64.size a := fun v762 k0_hw190 => k0_hw190.2

def k0_off464 (v772 : BitVec 32) : Fin 2 → Nat :=
  let c0_i32_2190 : BitVec 32 := 0#32
  ![v772.toNat, 0]

def k0_chk191 (v772 : BitVec 32) : Prop :=
  (∀ a, (k0_off332 v772) a + S1x64.size a ≤ S1000000x64.size a) ∧
  (∀ a, (k0_off464 v772) a + S1x64.size a ≤ S1000000x64.size a)
instance k0_chk191.dec : ∀ (v772 : BitVec 32), Decidable (k0_chk191 v772) := fun v772 => decidable_of_iff' _ (Iff.of_eq (k0_chk191.eq_1 v772))
theorem k0_off332_inb : ∀ (v772 : BitVec 32) (k0_hw191 : k0_chk191 v772), ∀ a, (k0_off332 v772) a + S1x64.size a ≤ S1000000x64.size a := fun v772 k0_hw191 => k0_hw191.1
theorem k0_off464_inb : ∀ (v772 : BitVec 32) (k0_hw191 : k0_chk191 v772), ∀ a, (k0_off464 v772) a + S1x64.size a ≤ S1000000x64.size a := fun v772 k0_hw191 => k0_hw191.2

def k0_off465 (v782 : BitVec 32) : Fin 2 → Nat :=
  let c0_i32_2201 : BitVec 32 := 0#32
  ![v782.toNat, 0]

def k0_chk192 (v782 : BitVec 32) : Prop :=
  (∀ a, (k0_off333 v782) a + S1x64.size a ≤ S1000000x64.size a) ∧
  (∀ a, (k0_off465 v782) a + S1x64.size a ≤ S1000000x64.size a)
instance k0_chk192.dec : ∀ (v782 : BitVec 32), Decidable (k0_chk192 v782) := fun v782 => decidable_of_iff' _ (Iff.of_eq (k0_chk192.eq_1 v782))
theorem k0_off333_inb : ∀ (v782 : BitVec 32) (k0_hw192 : k0_chk192 v782), ∀ a, (k0_off333 v782) a + S1x64.size a ≤ S1000000x64.size a := fun v782 k0_hw192 => k0_hw192.1
theorem k0_off465_inb : ∀ (v782 : BitVec 32) (k0_hw192 : k0_chk192 v782), ∀ a, (k0_off465 v782) a + S1x64.size a ≤ S1000000x64.size a := fun v782 k0_hw192 => k0_hw192.2

def k0_off466 (i : grid0.Coords) (k0_t2 : Fin k0_t2_loop.trips) (c0_i32_1502 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_1501 : BitVec 32 := 2#32
  let c0_i32_6 : BitVec 32 := 0#32
  let c1_i32_8 : BitVec 32 := 1#32
  let arg25 : BitVec 32 := Scf.iv c0_i32_6 c1_i32_8 k0_t2
  let v1573 : BitVec 32 := Scalar.muli c2_i32_1501 arg25
  let v1574 : BitVec 32 := Scalar.addi v1573 c0_i32_1502
  let c64_i32_2207 : BitVec 32 := 64#32
  let v2087 : BitVec 32 := Scalar.muli v1574 c64_i32_2207
  let v2088 : BitVec 32 := Scalar.addi v2 v2087
  let c0_i32_2211 : BitVec 32 := 0#32
  ![v2088.toNat, 0]
def k0_off467 (v829 : BitVec 32) : Fin 2 → Nat :=
  let c0_i32_2222 : BitVec 32 := 0#32
  ![v829.toNat, 0]

def k0_chk193 (v829 : BitVec 32) : Prop :=
  (∀ a, (k0_off335 v829) a + S1x64.size a ≤ S1000000x64.size a) ∧
  (∀ a, (k0_off467 v829) a + S1x64.size a ≤ S1000000x64.size a)
instance k0_chk193.dec : ∀ (v829 : BitVec 32), Decidable (k0_chk193 v829) := fun v829 => decidable_of_iff' _ (Iff.of_eq (k0_chk193.eq_1 v829))
theorem k0_off335_inb : ∀ (v829 : BitVec 32) (k0_hw193 : k0_chk193 v829), ∀ a, (k0_off335 v829) a + S1x64.size a ≤ S1000000x64.size a := fun v829 k0_hw193 => k0_hw193.1
theorem k0_off467_inb : ∀ (v829 : BitVec 32) (k0_hw193 : k0_chk193 v829), ∀ a, (k0_off467 v829) a + S1x64.size a ≤ S1000000x64.size a := fun v829 k0_hw193 => k0_hw193.2

def k0_off468 (v839 : BitVec 32) : Fin 2 → Nat :=
  let c0_i32_2233 : BitVec 32 := 0#32
  ![v839.toNat, 0]

def k0_chk194 (v839 : BitVec 32) : Prop :=
  (∀ a, (k0_off336 v839) a + S1x64.size a ≤ S1000000x64.size a) ∧
  (∀ a, (k0_off468 v839) a + S1x64.size a ≤ S1000000x64.size a)
instance k0_chk194.dec : ∀ (v839 : BitVec 32), Decidable (k0_chk194 v839) := fun v839 => decidable_of_iff' _ (Iff.of_eq (k0_chk194.eq_1 v839))
theorem k0_off336_inb : ∀ (v839 : BitVec 32) (k0_hw194 : k0_chk194 v839), ∀ a, (k0_off336 v839) a + S1x64.size a ≤ S1000000x64.size a := fun v839 k0_hw194 => k0_hw194.1
theorem k0_off468_inb : ∀ (v839 : BitVec 32) (k0_hw194 : k0_chk194 v839), ∀ a, (k0_off468 v839) a + S1x64.size a ≤ S1000000x64.size a := fun v839 k0_hw194 => k0_hw194.2

def k0_off469 (v849 : BitVec 32) : Fin 2 → Nat :=
  let c0_i32_2244 : BitVec 32 := 0#32
  ![v849.toNat, 0]

def k0_chk195 (v849 : BitVec 32) : Prop :=
  (∀ a, (k0_off337 v849) a + S1x64.size a ≤ S1000000x64.size a) ∧
  (∀ a, (k0_off469 v849) a + S1x64.size a ≤ S1000000x64.size a)
instance k0_chk195.dec : ∀ (v849 : BitVec 32), Decidable (k0_chk195 v849) := fun v849 => decidable_of_iff' _ (Iff.of_eq (k0_chk195.eq_1 v849))
theorem k0_off337_inb : ∀ (v849 : BitVec 32) (k0_hw195 : k0_chk195 v849), ∀ a, (k0_off337 v849) a + S1x64.size a ≤ S1000000x64.size a := fun v849 k0_hw195 => k0_hw195.1
theorem k0_off469_inb : ∀ (v849 : BitVec 32) (k0_hw195 : k0_chk195 v849), ∀ a, (k0_off469 v849) a + S1x64.size a ≤ S1000000x64.size a := fun v849 k0_hw195 => k0_hw195.2

def k0_off470 (v859 : BitVec 32) : Fin 2 → Nat :=
  let c0_i32_2255 : BitVec 32 := 0#32
  ![v859.toNat, 0]

def k0_chk196 (v859 : BitVec 32) : Prop :=
  (∀ a, (k0_off338 v859) a + S1x64.size a ≤ S1000000x64.size a) ∧
  (∀ a, (k0_off470 v859) a + S1x64.size a ≤ S1000000x64.size a)
instance k0_chk196.dec : ∀ (v859 : BitVec 32), Decidable (k0_chk196 v859) := fun v859 => decidable_of_iff' _ (Iff.of_eq (k0_chk196.eq_1 v859))
theorem k0_off338_inb : ∀ (v859 : BitVec 32) (k0_hw196 : k0_chk196 v859), ∀ a, (k0_off338 v859) a + S1x64.size a ≤ S1000000x64.size a := fun v859 k0_hw196 => k0_hw196.1
theorem k0_off470_inb : ∀ (v859 : BitVec 32) (k0_hw196 : k0_chk196 v859), ∀ a, (k0_off470 v859) a + S1x64.size a ≤ S1000000x64.size a := fun v859 k0_hw196 => k0_hw196.2

def k0_off471 (v869 : BitVec 32) : Fin 2 → Nat :=
  let c0_i32_2266 : BitVec 32 := 0#32
  ![v869.toNat, 0]

def k0_chk197 (v869 : BitVec 32) : Prop :=
  (∀ a, (k0_off339 v869) a + S1x64.size a ≤ S1000000x64.size a) ∧
  (∀ a, (k0_off471 v869) a + S1x64.size a ≤ S1000000x64.size a)
instance k0_chk197.dec : ∀ (v869 : BitVec 32), Decidable (k0_chk197 v869) := fun v869 => decidable_of_iff' _ (Iff.of_eq (k0_chk197.eq_1 v869))
theorem k0_off339_inb : ∀ (v869 : BitVec 32) (k0_hw197 : k0_chk197 v869), ∀ a, (k0_off339 v869) a + S1x64.size a ≤ S1000000x64.size a := fun v869 k0_hw197 => k0_hw197.1
theorem k0_off471_inb : ∀ (v869 : BitVec 32) (k0_hw197 : k0_chk197 v869), ∀ a, (k0_off471 v869) a + S1x64.size a ≤ S1000000x64.size a := fun v869 k0_hw197 => k0_hw197.2

def k0_off472 (v879 : BitVec 32) : Fin 2 → Nat :=
  let c0_i32_2277 : BitVec 32 := 0#32
  ![v879.toNat, 0]

def k0_chk198 (v879 : BitVec 32) : Prop :=
  (∀ a, (k0_off340 v879) a + S1x64.size a ≤ S1000000x64.size a) ∧
  (∀ a, (k0_off472 v879) a + S1x64.size a ≤ S1000000x64.size a)
instance k0_chk198.dec : ∀ (v879 : BitVec 32), Decidable (k0_chk198 v879) := fun v879 => decidable_of_iff' _ (Iff.of_eq (k0_chk198.eq_1 v879))
theorem k0_off340_inb : ∀ (v879 : BitVec 32) (k0_hw198 : k0_chk198 v879), ∀ a, (k0_off340 v879) a + S1x64.size a ≤ S1000000x64.size a := fun v879 k0_hw198 => k0_hw198.1
theorem k0_off472_inb : ∀ (v879 : BitVec 32) (k0_hw198 : k0_chk198 v879), ∀ a, (k0_off472 v879) a + S1x64.size a ≤ S1000000x64.size a := fun v879 k0_hw198 => k0_hw198.2

def k0_off473 (v889 : BitVec 32) : Fin 2 → Nat :=
  let c0_i32_2288 : BitVec 32 := 0#32
  ![v889.toNat, 0]

def k0_chk199 (v889 : BitVec 32) : Prop :=
  (∀ a, (k0_off341 v889) a + S1x64.size a ≤ S1000000x64.size a) ∧
  (∀ a, (k0_off473 v889) a + S1x64.size a ≤ S1000000x64.size a)
instance k0_chk199.dec : ∀ (v889 : BitVec 32), Decidable (k0_chk199 v889) := fun v889 => decidable_of_iff' _ (Iff.of_eq (k0_chk199.eq_1 v889))
theorem k0_off341_inb : ∀ (v889 : BitVec 32) (k0_hw199 : k0_chk199 v889), ∀ a, (k0_off341 v889) a + S1x64.size a ≤ S1000000x64.size a := fun v889 k0_hw199 => k0_hw199.1
theorem k0_off473_inb : ∀ (v889 : BitVec 32) (k0_hw199 : k0_chk199 v889), ∀ a, (k0_off473 v889) a + S1x64.size a ≤ S1000000x64.size a := fun v889 k0_hw199 => k0_hw199.2

def k0_off474 (v899 : BitVec 32) : Fin 2 → Nat :=
  let c0_i32_2299 : BitVec 32 := 0#32
  ![v899.toNat, 0]

def k0_chk200 (v899 : BitVec 32) : Prop :=
  (∀ a, (k0_off342 v899) a + S1x64.size a ≤ S1000000x64.size a) ∧
  (∀ a, (k0_off474 v899) a + S1x64.size a ≤ S1000000x64.size a)
instance k0_chk200.dec : ∀ (v899 : BitVec 32), Decidable (k0_chk200 v899) := fun v899 => decidable_of_iff' _ (Iff.of_eq (k0_chk200.eq_1 v899))
theorem k0_off342_inb : ∀ (v899 : BitVec 32) (k0_hw200 : k0_chk200 v899), ∀ a, (k0_off342 v899) a + S1x64.size a ≤ S1000000x64.size a := fun v899 k0_hw200 => k0_hw200.1
theorem k0_off474_inb : ∀ (v899 : BitVec 32) (k0_hw200 : k0_chk200 v899), ∀ a, (k0_off474 v899) a + S1x64.size a ≤ S1000000x64.size a := fun v899 k0_hw200 => k0_hw200.2

def k0_off475 (v909 : BitVec 32) : Fin 2 → Nat :=
  let c0_i32_2310 : BitVec 32 := 0#32
  ![v909.toNat, 0]

def k0_chk201 (v909 : BitVec 32) : Prop :=
  (∀ a, (k0_off343 v909) a + S1x64.size a ≤ S1000000x64.size a) ∧
  (∀ a, (k0_off475 v909) a + S1x64.size a ≤ S1000000x64.size a)
instance k0_chk201.dec : ∀ (v909 : BitVec 32), Decidable (k0_chk201 v909) := fun v909 => decidable_of_iff' _ (Iff.of_eq (k0_chk201.eq_1 v909))
theorem k0_off343_inb : ∀ (v909 : BitVec 32) (k0_hw201 : k0_chk201 v909), ∀ a, (k0_off343 v909) a + S1x64.size a ≤ S1000000x64.size a := fun v909 k0_hw201 => k0_hw201.1
theorem k0_off475_inb : ∀ (v909 : BitVec 32) (k0_hw201 : k0_chk201 v909), ∀ a, (k0_off475 v909) a + S1x64.size a ≤ S1000000x64.size a := fun v909 k0_hw201 => k0_hw201.2

def k0_off476 (v919 : BitVec 32) : Fin 2 → Nat :=
  let c0_i32_2321 : BitVec 32 := 0#32
  ![v919.toNat, 0]

def k0_chk202 (v919 : BitVec 32) : Prop :=
  (∀ a, (k0_off344 v919) a + S1x64.size a ≤ S1000000x64.size a) ∧
  (∀ a, (k0_off476 v919) a + S1x64.size a ≤ S1000000x64.size a)
instance k0_chk202.dec : ∀ (v919 : BitVec 32), Decidable (k0_chk202 v919) := fun v919 => decidable_of_iff' _ (Iff.of_eq (k0_chk202.eq_1 v919))
theorem k0_off344_inb : ∀ (v919 : BitVec 32) (k0_hw202 : k0_chk202 v919), ∀ a, (k0_off344 v919) a + S1x64.size a ≤ S1000000x64.size a := fun v919 k0_hw202 => k0_hw202.1
theorem k0_off476_inb : ∀ (v919 : BitVec 32) (k0_hw202 : k0_chk202 v919), ∀ a, (k0_off476 v919) a + S1x64.size a ≤ S1000000x64.size a := fun v919 k0_hw202 => k0_hw202.2

def k0_off477 (v929 : BitVec 32) : Fin 2 → Nat :=
  let c0_i32_2332 : BitVec 32 := 0#32
  ![v929.toNat, 0]

def k0_chk203 (v929 : BitVec 32) : Prop :=
  (∀ a, (k0_off345 v929) a + S1x64.size a ≤ S1000000x64.size a) ∧
  (∀ a, (k0_off477 v929) a + S1x64.size a ≤ S1000000x64.size a)
instance k0_chk203.dec : ∀ (v929 : BitVec 32), Decidable (k0_chk203 v929) := fun v929 => decidable_of_iff' _ (Iff.of_eq (k0_chk203.eq_1 v929))
theorem k0_off345_inb : ∀ (v929 : BitVec 32) (k0_hw203 : k0_chk203 v929), ∀ a, (k0_off345 v929) a + S1x64.size a ≤ S1000000x64.size a := fun v929 k0_hw203 => k0_hw203.1
theorem k0_off477_inb : ∀ (v929 : BitVec 32) (k0_hw203 : k0_chk203 v929), ∀ a, (k0_off477 v929) a + S1x64.size a ≤ S1000000x64.size a := fun v929 k0_hw203 => k0_hw203.2

def k0_off478 (v939 : BitVec 32) : Fin 2 → Nat :=
  let c0_i32_2343 : BitVec 32 := 0#32
  ![v939.toNat, 0]

def k0_chk204 (v939 : BitVec 32) : Prop :=
  (∀ a, (k0_off346 v939) a + S1x64.size a ≤ S1000000x64.size a) ∧
  (∀ a, (k0_off478 v939) a + S1x64.size a ≤ S1000000x64.size a)
instance k0_chk204.dec : ∀ (v939 : BitVec 32), Decidable (k0_chk204 v939) := fun v939 => decidable_of_iff' _ (Iff.of_eq (k0_chk204.eq_1 v939))
theorem k0_off346_inb : ∀ (v939 : BitVec 32) (k0_hw204 : k0_chk204 v939), ∀ a, (k0_off346 v939) a + S1x64.size a ≤ S1000000x64.size a := fun v939 k0_hw204 => k0_hw204.1
theorem k0_off478_inb : ∀ (v939 : BitVec 32) (k0_hw204 : k0_chk204 v939), ∀ a, (k0_off478 v939) a + S1x64.size a ≤ S1000000x64.size a := fun v939 k0_hw204 => k0_hw204.2

def k0_off479 (v949 : BitVec 32) : Fin 2 → Nat :=
  let c0_i32_2354 : BitVec 32 := 0#32
  ![v949.toNat, 0]

def k0_chk205 (v949 : BitVec 32) : Prop :=
  (∀ a, (k0_off347 v949) a + S1x64.size a ≤ S1000000x64.size a) ∧
  (∀ a, (k0_off479 v949) a + S1x64.size a ≤ S1000000x64.size a)
instance k0_chk205.dec : ∀ (v949 : BitVec 32), Decidable (k0_chk205 v949) := fun v949 => decidable_of_iff' _ (Iff.of_eq (k0_chk205.eq_1 v949))
theorem k0_off347_inb : ∀ (v949 : BitVec 32) (k0_hw205 : k0_chk205 v949), ∀ a, (k0_off347 v949) a + S1x64.size a ≤ S1000000x64.size a := fun v949 k0_hw205 => k0_hw205.1
theorem k0_off479_inb : ∀ (v949 : BitVec 32) (k0_hw205 : k0_chk205 v949), ∀ a, (k0_off479 v949) a + S1x64.size a ≤ S1000000x64.size a := fun v949 k0_hw205 => k0_hw205.2

def k0_off480 (v959 : BitVec 32) : Fin 2 → Nat :=
  let c0_i32_2365 : BitVec 32 := 0#32
  ![v959.toNat, 0]

def k0_chk206 (v959 : BitVec 32) : Prop :=
  (∀ a, (k0_off348 v959) a + S1x64.size a ≤ S1000000x64.size a) ∧
  (∀ a, (k0_off480 v959) a + S1x64.size a ≤ S1000000x64.size a)
instance k0_chk206.dec : ∀ (v959 : BitVec 32), Decidable (k0_chk206 v959) := fun v959 => decidable_of_iff' _ (Iff.of_eq (k0_chk206.eq_1 v959))
theorem k0_off348_inb : ∀ (v959 : BitVec 32) (k0_hw206 : k0_chk206 v959), ∀ a, (k0_off348 v959) a + S1x64.size a ≤ S1000000x64.size a := fun v959 k0_hw206 => k0_hw206.1
theorem k0_off480_inb : ∀ (v959 : BitVec 32) (k0_hw206 : k0_chk206 v959), ∀ a, (k0_off480 v959) a + S1x64.size a ≤ S1000000x64.size a := fun v959 k0_hw206 => k0_hw206.2

def k0_off481 (v969 : BitVec 32) : Fin 2 → Nat :=
  let c0_i32_2376 : BitVec 32 := 0#32
  ![v969.toNat, 0]

def k0_chk207 (v969 : BitVec 32) : Prop :=
  (∀ a, (k0_off349 v969) a + S1x64.size a ≤ S1000000x64.size a) ∧
  (∀ a, (k0_off481 v969) a + S1x64.size a ≤ S1000000x64.size a)
instance k0_chk207.dec : ∀ (v969 : BitVec 32), Decidable (k0_chk207 v969) := fun v969 => decidable_of_iff' _ (Iff.of_eq (k0_chk207.eq_1 v969))
theorem k0_off349_inb : ∀ (v969 : BitVec 32) (k0_hw207 : k0_chk207 v969), ∀ a, (k0_off349 v969) a + S1x64.size a ≤ S1000000x64.size a := fun v969 k0_hw207 => k0_hw207.1
theorem k0_off481_inb : ∀ (v969 : BitVec 32) (k0_hw207 : k0_chk207 v969), ∀ a, (k0_off481 v969) a + S1x64.size a ≤ S1000000x64.size a := fun v969 k0_hw207 => k0_hw207.2

def k0_off482 (v979 : BitVec 32) : Fin 2 → Nat :=
  let c0_i32_2387 : BitVec 32 := 0#32
  ![v979.toNat, 0]

def k0_chk208 (v979 : BitVec 32) : Prop :=
  (∀ a, (k0_off350 v979) a + S1x64.size a ≤ S1000000x64.size a) ∧
  (∀ a, (k0_off482 v979) a + S1x64.size a ≤ S1000000x64.size a)
instance k0_chk208.dec : ∀ (v979 : BitVec 32), Decidable (k0_chk208 v979) := fun v979 => decidable_of_iff' _ (Iff.of_eq (k0_chk208.eq_1 v979))
theorem k0_off350_inb : ∀ (v979 : BitVec 32) (k0_hw208 : k0_chk208 v979), ∀ a, (k0_off350 v979) a + S1x64.size a ≤ S1000000x64.size a := fun v979 k0_hw208 => k0_hw208.1
theorem k0_off482_inb : ∀ (v979 : BitVec 32) (k0_hw208 : k0_chk208 v979), ∀ a, (k0_off482 v979) a + S1x64.size a ≤ S1000000x64.size a := fun v979 k0_hw208 => k0_hw208.2

def k0_off483 (v1024 : BitVec 32) : Fin 2 → Nat :=
  let c0_i32_2398 : BitVec 32 := 0#32
  ![v1024.toNat, 0]

def k0_chk209 (v1024 : BitVec 32) : Prop :=
  (∀ a, (k0_off352 v1024) a + S1x64.size a ≤ S1000000x64.size a) ∧
  (∀ a, (k0_off483 v1024) a + S1x64.size a ≤ S1000000x64.size a)
instance k0_chk209.dec : ∀ (v1024 : BitVec 32), Decidable (k0_chk209 v1024) := fun v1024 => decidable_of_iff' _ (Iff.of_eq (k0_chk209.eq_1 v1024))
theorem k0_off352_inb : ∀ (v1024 : BitVec 32) (k0_hw209 : k0_chk209 v1024), ∀ a, (k0_off352 v1024) a + S1x64.size a ≤ S1000000x64.size a := fun v1024 k0_hw209 => k0_hw209.1
theorem k0_off483_inb : ∀ (v1024 : BitVec 32) (k0_hw209 : k0_chk209 v1024), ∀ a, (k0_off483 v1024) a + S1x64.size a ≤ S1000000x64.size a := fun v1024 k0_hw209 => k0_hw209.2

def k0_off484 (v1034 : BitVec 32) : Fin 2 → Nat :=
  let c0_i32_2409 : BitVec 32 := 0#32
  ![v1034.toNat, 0]

def k0_chk210 (v1034 : BitVec 32) : Prop :=
  (∀ a, (k0_off353 v1034) a + S1x64.size a ≤ S1000000x64.size a) ∧
  (∀ a, (k0_off484 v1034) a + S1x64.size a ≤ S1000000x64.size a)
instance k0_chk210.dec : ∀ (v1034 : BitVec 32), Decidable (k0_chk210 v1034) := fun v1034 => decidable_of_iff' _ (Iff.of_eq (k0_chk210.eq_1 v1034))
theorem k0_off353_inb : ∀ (v1034 : BitVec 32) (k0_hw210 : k0_chk210 v1034), ∀ a, (k0_off353 v1034) a + S1x64.size a ≤ S1000000x64.size a := fun v1034 k0_hw210 => k0_hw210.1
theorem k0_off484_inb : ∀ (v1034 : BitVec 32) (k0_hw210 : k0_chk210 v1034), ∀ a, (k0_off484 v1034) a + S1x64.size a ≤ S1000000x64.size a := fun v1034 k0_hw210 => k0_hw210.2

def k0_off485 (v1044 : BitVec 32) : Fin 2 → Nat :=
  let c0_i32_2420 : BitVec 32 := 0#32
  ![v1044.toNat, 0]

def k0_chk211 (v1044 : BitVec 32) : Prop :=
  (∀ a, (k0_off354 v1044) a + S1x64.size a ≤ S1000000x64.size a) ∧
  (∀ a, (k0_off485 v1044) a + S1x64.size a ≤ S1000000x64.size a)
instance k0_chk211.dec : ∀ (v1044 : BitVec 32), Decidable (k0_chk211 v1044) := fun v1044 => decidable_of_iff' _ (Iff.of_eq (k0_chk211.eq_1 v1044))
theorem k0_off354_inb : ∀ (v1044 : BitVec 32) (k0_hw211 : k0_chk211 v1044), ∀ a, (k0_off354 v1044) a + S1x64.size a ≤ S1000000x64.size a := fun v1044 k0_hw211 => k0_hw211.1
theorem k0_off485_inb : ∀ (v1044 : BitVec 32) (k0_hw211 : k0_chk211 v1044), ∀ a, (k0_off485 v1044) a + S1x64.size a ≤ S1000000x64.size a := fun v1044 k0_hw211 => k0_hw211.2

def k0_off486 (v1054 : BitVec 32) : Fin 2 → Nat :=
  let c0_i32_2431 : BitVec 32 := 0#32
  ![v1054.toNat, 0]

def k0_chk212 (v1054 : BitVec 32) : Prop :=
  (∀ a, (k0_off355 v1054) a + S1x64.size a ≤ S1000000x64.size a) ∧
  (∀ a, (k0_off486 v1054) a + S1x64.size a ≤ S1000000x64.size a)
instance k0_chk212.dec : ∀ (v1054 : BitVec 32), Decidable (k0_chk212 v1054) := fun v1054 => decidable_of_iff' _ (Iff.of_eq (k0_chk212.eq_1 v1054))
theorem k0_off355_inb : ∀ (v1054 : BitVec 32) (k0_hw212 : k0_chk212 v1054), ∀ a, (k0_off355 v1054) a + S1x64.size a ≤ S1000000x64.size a := fun v1054 k0_hw212 => k0_hw212.1
theorem k0_off486_inb : ∀ (v1054 : BitVec 32) (k0_hw212 : k0_chk212 v1054), ∀ a, (k0_off486 v1054) a + S1x64.size a ≤ S1000000x64.size a := fun v1054 k0_hw212 => k0_hw212.2

def k0_off487 (v1064 : BitVec 32) : Fin 2 → Nat :=
  let c0_i32_2442 : BitVec 32 := 0#32
  ![v1064.toNat, 0]

def k0_chk213 (v1064 : BitVec 32) : Prop :=
  (∀ a, (k0_off356 v1064) a + S1x64.size a ≤ S1000000x64.size a) ∧
  (∀ a, (k0_off487 v1064) a + S1x64.size a ≤ S1000000x64.size a)
instance k0_chk213.dec : ∀ (v1064 : BitVec 32), Decidable (k0_chk213 v1064) := fun v1064 => decidable_of_iff' _ (Iff.of_eq (k0_chk213.eq_1 v1064))
theorem k0_off356_inb : ∀ (v1064 : BitVec 32) (k0_hw213 : k0_chk213 v1064), ∀ a, (k0_off356 v1064) a + S1x64.size a ≤ S1000000x64.size a := fun v1064 k0_hw213 => k0_hw213.1
theorem k0_off487_inb : ∀ (v1064 : BitVec 32) (k0_hw213 : k0_chk213 v1064), ∀ a, (k0_off487 v1064) a + S1x64.size a ≤ S1000000x64.size a := fun v1064 k0_hw213 => k0_hw213.2

def k0_off488 (v1074 : BitVec 32) : Fin 2 → Nat :=
  let c0_i32_2453 : BitVec 32 := 0#32
  ![v1074.toNat, 0]

def k0_chk214 (v1074 : BitVec 32) : Prop :=
  (∀ a, (k0_off357 v1074) a + S1x64.size a ≤ S1000000x64.size a) ∧
  (∀ a, (k0_off488 v1074) a + S1x64.size a ≤ S1000000x64.size a)
instance k0_chk214.dec : ∀ (v1074 : BitVec 32), Decidable (k0_chk214 v1074) := fun v1074 => decidable_of_iff' _ (Iff.of_eq (k0_chk214.eq_1 v1074))
theorem k0_off357_inb : ∀ (v1074 : BitVec 32) (k0_hw214 : k0_chk214 v1074), ∀ a, (k0_off357 v1074) a + S1x64.size a ≤ S1000000x64.size a := fun v1074 k0_hw214 => k0_hw214.1
theorem k0_off488_inb : ∀ (v1074 : BitVec 32) (k0_hw214 : k0_chk214 v1074), ∀ a, (k0_off488 v1074) a + S1x64.size a ≤ S1000000x64.size a := fun v1074 k0_hw214 => k0_hw214.2

def k0_off489 (v1084 : BitVec 32) : Fin 2 → Nat :=
  let c0_i32_2464 : BitVec 32 := 0#32
  ![v1084.toNat, 0]

def k0_chk215 (v1084 : BitVec 32) : Prop :=
  (∀ a, (k0_off358 v1084) a + S1x64.size a ≤ S1000000x64.size a) ∧
  (∀ a, (k0_off489 v1084) a + S1x64.size a ≤ S1000000x64.size a)
instance k0_chk215.dec : ∀ (v1084 : BitVec 32), Decidable (k0_chk215 v1084) := fun v1084 => decidable_of_iff' _ (Iff.of_eq (k0_chk215.eq_1 v1084))
theorem k0_off358_inb : ∀ (v1084 : BitVec 32) (k0_hw215 : k0_chk215 v1084), ∀ a, (k0_off358 v1084) a + S1x64.size a ≤ S1000000x64.size a := fun v1084 k0_hw215 => k0_hw215.1
theorem k0_off489_inb : ∀ (v1084 : BitVec 32) (k0_hw215 : k0_chk215 v1084), ∀ a, (k0_off489 v1084) a + S1x64.size a ≤ S1000000x64.size a := fun v1084 k0_hw215 => k0_hw215.2

def k0_off490 (v1094 : BitVec 32) : Fin 2 → Nat :=
  let c0_i32_2475 : BitVec 32 := 0#32
  ![v1094.toNat, 0]

def k0_chk216 (v1094 : BitVec 32) : Prop :=
  (∀ a, (k0_off359 v1094) a + S1x64.size a ≤ S1000000x64.size a) ∧
  (∀ a, (k0_off490 v1094) a + S1x64.size a ≤ S1000000x64.size a)
instance k0_chk216.dec : ∀ (v1094 : BitVec 32), Decidable (k0_chk216 v1094) := fun v1094 => decidable_of_iff' _ (Iff.of_eq (k0_chk216.eq_1 v1094))
theorem k0_off359_inb : ∀ (v1094 : BitVec 32) (k0_hw216 : k0_chk216 v1094), ∀ a, (k0_off359 v1094) a + S1x64.size a ≤ S1000000x64.size a := fun v1094 k0_hw216 => k0_hw216.1
theorem k0_off490_inb : ∀ (v1094 : BitVec 32) (k0_hw216 : k0_chk216 v1094), ∀ a, (k0_off490 v1094) a + S1x64.size a ≤ S1000000x64.size a := fun v1094 k0_hw216 => k0_hw216.2

def k0_off491 (v1104 : BitVec 32) : Fin 2 → Nat :=
  let c0_i32_2486 : BitVec 32 := 0#32
  ![v1104.toNat, 0]

def k0_chk217 (v1104 : BitVec 32) : Prop :=
  (∀ a, (k0_off360 v1104) a + S1x64.size a ≤ S1000000x64.size a) ∧
  (∀ a, (k0_off491 v1104) a + S1x64.size a ≤ S1000000x64.size a)
instance k0_chk217.dec : ∀ (v1104 : BitVec 32), Decidable (k0_chk217 v1104) := fun v1104 => decidable_of_iff' _ (Iff.of_eq (k0_chk217.eq_1 v1104))
theorem k0_off360_inb : ∀ (v1104 : BitVec 32) (k0_hw217 : k0_chk217 v1104), ∀ a, (k0_off360 v1104) a + S1x64.size a ≤ S1000000x64.size a := fun v1104 k0_hw217 => k0_hw217.1
theorem k0_off491_inb : ∀ (v1104 : BitVec 32) (k0_hw217 : k0_chk217 v1104), ∀ a, (k0_off491 v1104) a + S1x64.size a ≤ S1000000x64.size a := fun v1104 k0_hw217 => k0_hw217.2

def k0_off492 (v1114 : BitVec 32) : Fin 2 → Nat :=
  let c0_i32_2497 : BitVec 32 := 0#32
  ![v1114.toNat, 0]

def k0_chk218 (v1114 : BitVec 32) : Prop :=
  (∀ a, (k0_off361 v1114) a + S1x64.size a ≤ S1000000x64.size a) ∧
  (∀ a, (k0_off492 v1114) a + S1x64.size a ≤ S1000000x64.size a)
instance k0_chk218.dec : ∀ (v1114 : BitVec 32), Decidable (k0_chk218 v1114) := fun v1114 => decidable_of_iff' _ (Iff.of_eq (k0_chk218.eq_1 v1114))
theorem k0_off361_inb : ∀ (v1114 : BitVec 32) (k0_hw218 : k0_chk218 v1114), ∀ a, (k0_off361 v1114) a + S1x64.size a ≤ S1000000x64.size a := fun v1114 k0_hw218 => k0_hw218.1
theorem k0_off492_inb : ∀ (v1114 : BitVec 32) (k0_hw218 : k0_chk218 v1114), ∀ a, (k0_off492 v1114) a + S1x64.size a ≤ S1000000x64.size a := fun v1114 k0_hw218 => k0_hw218.2

def k0_off493 (v1124 : BitVec 32) : Fin 2 → Nat :=
  let c0_i32_2508 : BitVec 32 := 0#32
  ![v1124.toNat, 0]

def k0_chk219 (v1124 : BitVec 32) : Prop :=
  (∀ a, (k0_off362 v1124) a + S1x64.size a ≤ S1000000x64.size a) ∧
  (∀ a, (k0_off493 v1124) a + S1x64.size a ≤ S1000000x64.size a)
instance k0_chk219.dec : ∀ (v1124 : BitVec 32), Decidable (k0_chk219 v1124) := fun v1124 => decidable_of_iff' _ (Iff.of_eq (k0_chk219.eq_1 v1124))
theorem k0_off362_inb : ∀ (v1124 : BitVec 32) (k0_hw219 : k0_chk219 v1124), ∀ a, (k0_off362 v1124) a + S1x64.size a ≤ S1000000x64.size a := fun v1124 k0_hw219 => k0_hw219.1
theorem k0_off493_inb : ∀ (v1124 : BitVec 32) (k0_hw219 : k0_chk219 v1124), ∀ a, (k0_off493 v1124) a + S1x64.size a ≤ S1000000x64.size a := fun v1124 k0_hw219 => k0_hw219.2

def k0_off494 (v1134 : BitVec 32) : Fin 2 → Nat :=
  let c0_i32_2519 : BitVec 32 := 0#32
  ![v1134.toNat, 0]

def k0_chk220 (v1134 : BitVec 32) : Prop :=
  (∀ a, (k0_off363 v1134) a + S1x64.size a ≤ S1000000x64.size a) ∧
  (∀ a, (k0_off494 v1134) a + S1x64.size a ≤ S1000000x64.size a)
instance k0_chk220.dec : ∀ (v1134 : BitVec 32), Decidable (k0_chk220 v1134) := fun v1134 => decidable_of_iff' _ (Iff.of_eq (k0_chk220.eq_1 v1134))
theorem k0_off363_inb : ∀ (v1134 : BitVec 32) (k0_hw220 : k0_chk220 v1134), ∀ a, (k0_off363 v1134) a + S1x64.size a ≤ S1000000x64.size a := fun v1134 k0_hw220 => k0_hw220.1
theorem k0_off494_inb : ∀ (v1134 : BitVec 32) (k0_hw220 : k0_chk220 v1134), ∀ a, (k0_off494 v1134) a + S1x64.size a ≤ S1000000x64.size a := fun v1134 k0_hw220 => k0_hw220.2

def k0_off495 (v1144 : BitVec 32) : Fin 2 → Nat :=
  let c0_i32_2530 : BitVec 32 := 0#32
  ![v1144.toNat, 0]

def k0_chk221 (v1144 : BitVec 32) : Prop :=
  (∀ a, (k0_off364 v1144) a + S1x64.size a ≤ S1000000x64.size a) ∧
  (∀ a, (k0_off495 v1144) a + S1x64.size a ≤ S1000000x64.size a)
instance k0_chk221.dec : ∀ (v1144 : BitVec 32), Decidable (k0_chk221 v1144) := fun v1144 => decidable_of_iff' _ (Iff.of_eq (k0_chk221.eq_1 v1144))
theorem k0_off364_inb : ∀ (v1144 : BitVec 32) (k0_hw221 : k0_chk221 v1144), ∀ a, (k0_off364 v1144) a + S1x64.size a ≤ S1000000x64.size a := fun v1144 k0_hw221 => k0_hw221.1
theorem k0_off495_inb : ∀ (v1144 : BitVec 32) (k0_hw221 : k0_chk221 v1144), ∀ a, (k0_off495 v1144) a + S1x64.size a ≤ S1000000x64.size a := fun v1144 k0_hw221 => k0_hw221.2

def k0_off496 (v1154 : BitVec 32) : Fin 2 → Nat :=
  let c0_i32_2541 : BitVec 32 := 0#32
  ![v1154.toNat, 0]

def k0_chk222 (v1154 : BitVec 32) : Prop :=
  (∀ a, (k0_off365 v1154) a + S1x64.size a ≤ S1000000x64.size a) ∧
  (∀ a, (k0_off496 v1154) a + S1x64.size a ≤ S1000000x64.size a)
instance k0_chk222.dec : ∀ (v1154 : BitVec 32), Decidable (k0_chk222 v1154) := fun v1154 => decidable_of_iff' _ (Iff.of_eq (k0_chk222.eq_1 v1154))
theorem k0_off365_inb : ∀ (v1154 : BitVec 32) (k0_hw222 : k0_chk222 v1154), ∀ a, (k0_off365 v1154) a + S1x64.size a ≤ S1000000x64.size a := fun v1154 k0_hw222 => k0_hw222.1
theorem k0_off496_inb : ∀ (v1154 : BitVec 32) (k0_hw222 : k0_chk222 v1154), ∀ a, (k0_off496 v1154) a + S1x64.size a ≤ S1000000x64.size a := fun v1154 k0_hw222 => k0_hw222.2

def k0_off497 (v1164 : BitVec 32) : Fin 2 → Nat :=
  let c0_i32_2552 : BitVec 32 := 0#32
  ![v1164.toNat, 0]

def k0_chk223 (v1164 : BitVec 32) : Prop :=
  (∀ a, (k0_off366 v1164) a + S1x64.size a ≤ S1000000x64.size a) ∧
  (∀ a, (k0_off497 v1164) a + S1x64.size a ≤ S1000000x64.size a)
instance k0_chk223.dec : ∀ (v1164 : BitVec 32), Decidable (k0_chk223 v1164) := fun v1164 => decidable_of_iff' _ (Iff.of_eq (k0_chk223.eq_1 v1164))
theorem k0_off366_inb : ∀ (v1164 : BitVec 32) (k0_hw223 : k0_chk223 v1164), ∀ a, (k0_off366 v1164) a + S1x64.size a ≤ S1000000x64.size a := fun v1164 k0_hw223 => k0_hw223.1
theorem k0_off497_inb : ∀ (v1164 : BitVec 32) (k0_hw223 : k0_chk223 v1164), ∀ a, (k0_off497 v1164) a + S1x64.size a ≤ S1000000x64.size a := fun v1164 k0_hw223 => k0_hw223.2

def k0_off498 (v1174 : BitVec 32) : Fin 2 → Nat :=
  let c0_i32_2563 : BitVec 32 := 0#32
  ![v1174.toNat, 0]

def k0_chk224 (v1174 : BitVec 32) : Prop :=
  (∀ a, (k0_off367 v1174) a + S1x64.size a ≤ S1000000x64.size a) ∧
  (∀ a, (k0_off498 v1174) a + S1x64.size a ≤ S1000000x64.size a)
instance k0_chk224.dec : ∀ (v1174 : BitVec 32), Decidable (k0_chk224 v1174) := fun v1174 => decidable_of_iff' _ (Iff.of_eq (k0_chk224.eq_1 v1174))
theorem k0_off367_inb : ∀ (v1174 : BitVec 32) (k0_hw224 : k0_chk224 v1174), ∀ a, (k0_off367 v1174) a + S1x64.size a ≤ S1000000x64.size a := fun v1174 k0_hw224 => k0_hw224.1
theorem k0_off498_inb : ∀ (v1174 : BitVec 32) (k0_hw224 : k0_chk224 v1174), ∀ a, (k0_off498 v1174) a + S1x64.size a ≤ S1000000x64.size a := fun v1174 k0_hw224 => k0_hw224.2

def k0_off499 (v1219 : BitVec 32) : Fin 2 → Nat :=
  let c0_i32_2574 : BitVec 32 := 0#32
  ![v1219.toNat, 0]

def k0_chk225 (v1219 : BitVec 32) : Prop :=
  (∀ a, (k0_off369 v1219) a + S1x64.size a ≤ S1000000x64.size a) ∧
  (∀ a, (k0_off499 v1219) a + S1x64.size a ≤ S1000000x64.size a)
instance k0_chk225.dec : ∀ (v1219 : BitVec 32), Decidable (k0_chk225 v1219) := fun v1219 => decidable_of_iff' _ (Iff.of_eq (k0_chk225.eq_1 v1219))
theorem k0_off369_inb : ∀ (v1219 : BitVec 32) (k0_hw225 : k0_chk225 v1219), ∀ a, (k0_off369 v1219) a + S1x64.size a ≤ S1000000x64.size a := fun v1219 k0_hw225 => k0_hw225.1
theorem k0_off499_inb : ∀ (v1219 : BitVec 32) (k0_hw225 : k0_chk225 v1219), ∀ a, (k0_off499 v1219) a + S1x64.size a ≤ S1000000x64.size a := fun v1219 k0_hw225 => k0_hw225.2

def k0_off500 (v1229 : BitVec 32) : Fin 2 → Nat :=
  let c0_i32_2585 : BitVec 32 := 0#32
  ![v1229.toNat, 0]

def k0_chk226 (v1229 : BitVec 32) : Prop :=
  (∀ a, (k0_off370 v1229) a + S1x64.size a ≤ S1000000x64.size a) ∧
  (∀ a, (k0_off500 v1229) a + S1x64.size a ≤ S1000000x64.size a)
instance k0_chk226.dec : ∀ (v1229 : BitVec 32), Decidable (k0_chk226 v1229) := fun v1229 => decidable_of_iff' _ (Iff.of_eq (k0_chk226.eq_1 v1229))
theorem k0_off370_inb : ∀ (v1229 : BitVec 32) (k0_hw226 : k0_chk226 v1229), ∀ a, (k0_off370 v1229) a + S1x64.size a ≤ S1000000x64.size a := fun v1229 k0_hw226 => k0_hw226.1
theorem k0_off500_inb : ∀ (v1229 : BitVec 32) (k0_hw226 : k0_chk226 v1229), ∀ a, (k0_off500 v1229) a + S1x64.size a ≤ S1000000x64.size a := fun v1229 k0_hw226 => k0_hw226.2

def k0_off501 (v1239 : BitVec 32) : Fin 2 → Nat :=
  let c0_i32_2596 : BitVec 32 := 0#32
  ![v1239.toNat, 0]

def k0_chk227 (v1239 : BitVec 32) : Prop :=
  (∀ a, (k0_off371 v1239) a + S1x64.size a ≤ S1000000x64.size a) ∧
  (∀ a, (k0_off501 v1239) a + S1x64.size a ≤ S1000000x64.size a)
instance k0_chk227.dec : ∀ (v1239 : BitVec 32), Decidable (k0_chk227 v1239) := fun v1239 => decidable_of_iff' _ (Iff.of_eq (k0_chk227.eq_1 v1239))
theorem k0_off371_inb : ∀ (v1239 : BitVec 32) (k0_hw227 : k0_chk227 v1239), ∀ a, (k0_off371 v1239) a + S1x64.size a ≤ S1000000x64.size a := fun v1239 k0_hw227 => k0_hw227.1
theorem k0_off501_inb : ∀ (v1239 : BitVec 32) (k0_hw227 : k0_chk227 v1239), ∀ a, (k0_off501 v1239) a + S1x64.size a ≤ S1000000x64.size a := fun v1239 k0_hw227 => k0_hw227.2

def k0_off502 (v1249 : BitVec 32) : Fin 2 → Nat :=
  let c0_i32_2607 : BitVec 32 := 0#32
  ![v1249.toNat, 0]

def k0_chk228 (v1249 : BitVec 32) : Prop :=
  (∀ a, (k0_off372 v1249) a + S1x64.size a ≤ S1000000x64.size a) ∧
  (∀ a, (k0_off502 v1249) a + S1x64.size a ≤ S1000000x64.size a)
instance k0_chk228.dec : ∀ (v1249 : BitVec 32), Decidable (k0_chk228 v1249) := fun v1249 => decidable_of_iff' _ (Iff.of_eq (k0_chk228.eq_1 v1249))
theorem k0_off372_inb : ∀ (v1249 : BitVec 32) (k0_hw228 : k0_chk228 v1249), ∀ a, (k0_off372 v1249) a + S1x64.size a ≤ S1000000x64.size a := fun v1249 k0_hw228 => k0_hw228.1
theorem k0_off502_inb : ∀ (v1249 : BitVec 32) (k0_hw228 : k0_chk228 v1249), ∀ a, (k0_off502 v1249) a + S1x64.size a ≤ S1000000x64.size a := fun v1249 k0_hw228 => k0_hw228.2

def k0_off503 (v1259 : BitVec 32) : Fin 2 → Nat :=
  let c0_i32_2618 : BitVec 32 := 0#32
  ![v1259.toNat, 0]

def k0_chk229 (v1259 : BitVec 32) : Prop :=
  (∀ a, (k0_off373 v1259) a + S1x64.size a ≤ S1000000x64.size a) ∧
  (∀ a, (k0_off503 v1259) a + S1x64.size a ≤ S1000000x64.size a)
instance k0_chk229.dec : ∀ (v1259 : BitVec 32), Decidable (k0_chk229 v1259) := fun v1259 => decidable_of_iff' _ (Iff.of_eq (k0_chk229.eq_1 v1259))
theorem k0_off373_inb : ∀ (v1259 : BitVec 32) (k0_hw229 : k0_chk229 v1259), ∀ a, (k0_off373 v1259) a + S1x64.size a ≤ S1000000x64.size a := fun v1259 k0_hw229 => k0_hw229.1
theorem k0_off503_inb : ∀ (v1259 : BitVec 32) (k0_hw229 : k0_chk229 v1259), ∀ a, (k0_off503 v1259) a + S1x64.size a ≤ S1000000x64.size a := fun v1259 k0_hw229 => k0_hw229.2

def k0_off504 (v1269 : BitVec 32) : Fin 2 → Nat :=
  let c0_i32_2629 : BitVec 32 := 0#32
  ![v1269.toNat, 0]

def k0_chk230 (v1269 : BitVec 32) : Prop :=
  (∀ a, (k0_off374 v1269) a + S1x64.size a ≤ S1000000x64.size a) ∧
  (∀ a, (k0_off504 v1269) a + S1x64.size a ≤ S1000000x64.size a)
instance k0_chk230.dec : ∀ (v1269 : BitVec 32), Decidable (k0_chk230 v1269) := fun v1269 => decidable_of_iff' _ (Iff.of_eq (k0_chk230.eq_1 v1269))
theorem k0_off374_inb : ∀ (v1269 : BitVec 32) (k0_hw230 : k0_chk230 v1269), ∀ a, (k0_off374 v1269) a + S1x64.size a ≤ S1000000x64.size a := fun v1269 k0_hw230 => k0_hw230.1
theorem k0_off504_inb : ∀ (v1269 : BitVec 32) (k0_hw230 : k0_chk230 v1269), ∀ a, (k0_off504 v1269) a + S1x64.size a ≤ S1000000x64.size a := fun v1269 k0_hw230 => k0_hw230.2

def k0_off505 (v1279 : BitVec 32) : Fin 2 → Nat :=
  let c0_i32_2640 : BitVec 32 := 0#32
  ![v1279.toNat, 0]

def k0_chk231 (v1279 : BitVec 32) : Prop :=
  (∀ a, (k0_off375 v1279) a + S1x64.size a ≤ S1000000x64.size a) ∧
  (∀ a, (k0_off505 v1279) a + S1x64.size a ≤ S1000000x64.size a)
instance k0_chk231.dec : ∀ (v1279 : BitVec 32), Decidable (k0_chk231 v1279) := fun v1279 => decidable_of_iff' _ (Iff.of_eq (k0_chk231.eq_1 v1279))
theorem k0_off375_inb : ∀ (v1279 : BitVec 32) (k0_hw231 : k0_chk231 v1279), ∀ a, (k0_off375 v1279) a + S1x64.size a ≤ S1000000x64.size a := fun v1279 k0_hw231 => k0_hw231.1
theorem k0_off505_inb : ∀ (v1279 : BitVec 32) (k0_hw231 : k0_chk231 v1279), ∀ a, (k0_off505 v1279) a + S1x64.size a ≤ S1000000x64.size a := fun v1279 k0_hw231 => k0_hw231.2

def k0_off506 (v1289 : BitVec 32) : Fin 2 → Nat :=
  let c0_i32_2651 : BitVec 32 := 0#32
  ![v1289.toNat, 0]

def k0_chk232 (v1289 : BitVec 32) : Prop :=
  (∀ a, (k0_off376 v1289) a + S1x64.size a ≤ S1000000x64.size a) ∧
  (∀ a, (k0_off506 v1289) a + S1x64.size a ≤ S1000000x64.size a)
instance k0_chk232.dec : ∀ (v1289 : BitVec 32), Decidable (k0_chk232 v1289) := fun v1289 => decidable_of_iff' _ (Iff.of_eq (k0_chk232.eq_1 v1289))
theorem k0_off376_inb : ∀ (v1289 : BitVec 32) (k0_hw232 : k0_chk232 v1289), ∀ a, (k0_off376 v1289) a + S1x64.size a ≤ S1000000x64.size a := fun v1289 k0_hw232 => k0_hw232.1
theorem k0_off506_inb : ∀ (v1289 : BitVec 32) (k0_hw232 : k0_chk232 v1289), ∀ a, (k0_off506 v1289) a + S1x64.size a ≤ S1000000x64.size a := fun v1289 k0_hw232 => k0_hw232.2

def k0_off507 (v1299 : BitVec 32) : Fin 2 → Nat :=
  let c0_i32_2662 : BitVec 32 := 0#32
  ![v1299.toNat, 0]

def k0_chk233 (v1299 : BitVec 32) : Prop :=
  (∀ a, (k0_off377 v1299) a + S1x64.size a ≤ S1000000x64.size a) ∧
  (∀ a, (k0_off507 v1299) a + S1x64.size a ≤ S1000000x64.size a)
instance k0_chk233.dec : ∀ (v1299 : BitVec 32), Decidable (k0_chk233 v1299) := fun v1299 => decidable_of_iff' _ (Iff.of_eq (k0_chk233.eq_1 v1299))
theorem k0_off377_inb : ∀ (v1299 : BitVec 32) (k0_hw233 : k0_chk233 v1299), ∀ a, (k0_off377 v1299) a + S1x64.size a ≤ S1000000x64.size a := fun v1299 k0_hw233 => k0_hw233.1
theorem k0_off507_inb : ∀ (v1299 : BitVec 32) (k0_hw233 : k0_chk233 v1299), ∀ a, (k0_off507 v1299) a + S1x64.size a ≤ S1000000x64.size a := fun v1299 k0_hw233 => k0_hw233.2

def k0_off508 (v1309 : BitVec 32) : Fin 2 → Nat :=
  let c0_i32_2673 : BitVec 32 := 0#32
  ![v1309.toNat, 0]

def k0_chk234 (v1309 : BitVec 32) : Prop :=
  (∀ a, (k0_off378 v1309) a + S1x64.size a ≤ S1000000x64.size a) ∧
  (∀ a, (k0_off508 v1309) a + S1x64.size a ≤ S1000000x64.size a)
instance k0_chk234.dec : ∀ (v1309 : BitVec 32), Decidable (k0_chk234 v1309) := fun v1309 => decidable_of_iff' _ (Iff.of_eq (k0_chk234.eq_1 v1309))
theorem k0_off378_inb : ∀ (v1309 : BitVec 32) (k0_hw234 : k0_chk234 v1309), ∀ a, (k0_off378 v1309) a + S1x64.size a ≤ S1000000x64.size a := fun v1309 k0_hw234 => k0_hw234.1
theorem k0_off508_inb : ∀ (v1309 : BitVec 32) (k0_hw234 : k0_chk234 v1309), ∀ a, (k0_off508 v1309) a + S1x64.size a ≤ S1000000x64.size a := fun v1309 k0_hw234 => k0_hw234.2

def k0_off509 (v1319 : BitVec 32) : Fin 2 → Nat :=
  let c0_i32_2684 : BitVec 32 := 0#32
  ![v1319.toNat, 0]

def k0_chk235 (v1319 : BitVec 32) : Prop :=
  (∀ a, (k0_off379 v1319) a + S1x64.size a ≤ S1000000x64.size a) ∧
  (∀ a, (k0_off509 v1319) a + S1x64.size a ≤ S1000000x64.size a)
instance k0_chk235.dec : ∀ (v1319 : BitVec 32), Decidable (k0_chk235 v1319) := fun v1319 => decidable_of_iff' _ (Iff.of_eq (k0_chk235.eq_1 v1319))
theorem k0_off379_inb : ∀ (v1319 : BitVec 32) (k0_hw235 : k0_chk235 v1319), ∀ a, (k0_off379 v1319) a + S1x64.size a ≤ S1000000x64.size a := fun v1319 k0_hw235 => k0_hw235.1
theorem k0_off509_inb : ∀ (v1319 : BitVec 32) (k0_hw235 : k0_chk235 v1319), ∀ a, (k0_off509 v1319) a + S1x64.size a ≤ S1000000x64.size a := fun v1319 k0_hw235 => k0_hw235.2

def k0_off510 (v1329 : BitVec 32) : Fin 2 → Nat :=
  let c0_i32_2695 : BitVec 32 := 0#32
  ![v1329.toNat, 0]

def k0_chk236 (v1329 : BitVec 32) : Prop :=
  (∀ a, (k0_off380 v1329) a + S1x64.size a ≤ S1000000x64.size a) ∧
  (∀ a, (k0_off510 v1329) a + S1x64.size a ≤ S1000000x64.size a)
instance k0_chk236.dec : ∀ (v1329 : BitVec 32), Decidable (k0_chk236 v1329) := fun v1329 => decidable_of_iff' _ (Iff.of_eq (k0_chk236.eq_1 v1329))
theorem k0_off380_inb : ∀ (v1329 : BitVec 32) (k0_hw236 : k0_chk236 v1329), ∀ a, (k0_off380 v1329) a + S1x64.size a ≤ S1000000x64.size a := fun v1329 k0_hw236 => k0_hw236.1
theorem k0_off510_inb : ∀ (v1329 : BitVec 32) (k0_hw236 : k0_chk236 v1329), ∀ a, (k0_off510 v1329) a + S1x64.size a ≤ S1000000x64.size a := fun v1329 k0_hw236 => k0_hw236.2

def k0_off511 (v1339 : BitVec 32) : Fin 2 → Nat :=
  let c0_i32_2706 : BitVec 32 := 0#32
  ![v1339.toNat, 0]

def k0_chk237 (v1339 : BitVec 32) : Prop :=
  (∀ a, (k0_off381 v1339) a + S1x64.size a ≤ S1000000x64.size a) ∧
  (∀ a, (k0_off511 v1339) a + S1x64.size a ≤ S1000000x64.size a)
instance k0_chk237.dec : ∀ (v1339 : BitVec 32), Decidable (k0_chk237 v1339) := fun v1339 => decidable_of_iff' _ (Iff.of_eq (k0_chk237.eq_1 v1339))
theorem k0_off381_inb : ∀ (v1339 : BitVec 32) (k0_hw237 : k0_chk237 v1339), ∀ a, (k0_off381 v1339) a + S1x64.size a ≤ S1000000x64.size a := fun v1339 k0_hw237 => k0_hw237.1
theorem k0_off511_inb : ∀ (v1339 : BitVec 32) (k0_hw237 : k0_chk237 v1339), ∀ a, (k0_off511 v1339) a + S1x64.size a ≤ S1000000x64.size a := fun v1339 k0_hw237 => k0_hw237.2

def k0_off512 (v1349 : BitVec 32) : Fin 2 → Nat :=
  let c0_i32_2717 : BitVec 32 := 0#32
  ![v1349.toNat, 0]

def k0_chk238 (v1349 : BitVec 32) : Prop :=
  (∀ a, (k0_off382 v1349) a + S1x64.size a ≤ S1000000x64.size a) ∧
  (∀ a, (k0_off512 v1349) a + S1x64.size a ≤ S1000000x64.size a)
instance k0_chk238.dec : ∀ (v1349 : BitVec 32), Decidable (k0_chk238 v1349) := fun v1349 => decidable_of_iff' _ (Iff.of_eq (k0_chk238.eq_1 v1349))
theorem k0_off382_inb : ∀ (v1349 : BitVec 32) (k0_hw238 : k0_chk238 v1349), ∀ a, (k0_off382 v1349) a + S1x64.size a ≤ S1000000x64.size a := fun v1349 k0_hw238 => k0_hw238.1
theorem k0_off512_inb : ∀ (v1349 : BitVec 32) (k0_hw238 : k0_chk238 v1349), ∀ a, (k0_off512 v1349) a + S1x64.size a ≤ S1000000x64.size a := fun v1349 k0_hw238 => k0_hw238.2

def k0_off513 (v1359 : BitVec 32) : Fin 2 → Nat :=
  let c0_i32_2728 : BitVec 32 := 0#32
  ![v1359.toNat, 0]

def k0_chk239 (v1359 : BitVec 32) : Prop :=
  (∀ a, (k0_off383 v1359) a + S1x64.size a ≤ S1000000x64.size a) ∧
  (∀ a, (k0_off513 v1359) a + S1x64.size a ≤ S1000000x64.size a)
instance k0_chk239.dec : ∀ (v1359 : BitVec 32), Decidable (k0_chk239 v1359) := fun v1359 => decidable_of_iff' _ (Iff.of_eq (k0_chk239.eq_1 v1359))
theorem k0_off383_inb : ∀ (v1359 : BitVec 32) (k0_hw239 : k0_chk239 v1359), ∀ a, (k0_off383 v1359) a + S1x64.size a ≤ S1000000x64.size a := fun v1359 k0_hw239 => k0_hw239.1
theorem k0_off513_inb : ∀ (v1359 : BitVec 32) (k0_hw239 : k0_chk239 v1359), ∀ a, (k0_off513 v1359) a + S1x64.size a ≤ S1000000x64.size a := fun v1359 k0_hw239 => k0_hw239.2

def k0_off514 (v1369 : BitVec 32) : Fin 2 → Nat :=
  let c0_i32_2739 : BitVec 32 := 0#32
  ![v1369.toNat, 0]

def k0_chk240 (v1369 : BitVec 32) : Prop :=
  (∀ a, (k0_off384 v1369) a + S1x64.size a ≤ S1000000x64.size a) ∧
  (∀ a, (k0_off514 v1369) a + S1x64.size a ≤ S1000000x64.size a)
instance k0_chk240.dec : ∀ (v1369 : BitVec 32), Decidable (k0_chk240 v1369) := fun v1369 => decidable_of_iff' _ (Iff.of_eq (k0_chk240.eq_1 v1369))
theorem k0_off384_inb : ∀ (v1369 : BitVec 32) (k0_hw240 : k0_chk240 v1369), ∀ a, (k0_off384 v1369) a + S1x64.size a ≤ S1000000x64.size a := fun v1369 k0_hw240 => k0_hw240.1
theorem k0_off514_inb : ∀ (v1369 : BitVec 32) (k0_hw240 : k0_chk240 v1369), ∀ a, (k0_off514 v1369) a + S1x64.size a ≤ S1000000x64.size a := fun v1369 k0_hw240 => k0_hw240.2

def k0_off515 (v1414 : BitVec 32) : Fin 2 → Nat :=
  let c0_i32_2750 : BitVec 32 := 0#32
  ![v1414.toNat, 0]

def k0_chk241 (v1414 : BitVec 32) : Prop :=
  (∀ a, (k0_off386 v1414) a + S1x64.size a ≤ S1000000x64.size a) ∧
  (∀ a, (k0_off515 v1414) a + S1x64.size a ≤ S1000000x64.size a)
instance k0_chk241.dec : ∀ (v1414 : BitVec 32), Decidable (k0_chk241 v1414) := fun v1414 => decidable_of_iff' _ (Iff.of_eq (k0_chk241.eq_1 v1414))
theorem k0_off386_inb : ∀ (v1414 : BitVec 32) (k0_hw241 : k0_chk241 v1414), ∀ a, (k0_off386 v1414) a + S1x64.size a ≤ S1000000x64.size a := fun v1414 k0_hw241 => k0_hw241.1
theorem k0_off515_inb : ∀ (v1414 : BitVec 32) (k0_hw241 : k0_chk241 v1414), ∀ a, (k0_off515 v1414) a + S1x64.size a ≤ S1000000x64.size a := fun v1414 k0_hw241 => k0_hw241.2

def k0_off516 (v1424 : BitVec 32) : Fin 2 → Nat :=
  let c0_i32_2761 : BitVec 32 := 0#32
  ![v1424.toNat, 0]

def k0_chk242 (v1424 : BitVec 32) : Prop :=
  (∀ a, (k0_off387 v1424) a + S1x64.size a ≤ S1000000x64.size a) ∧
  (∀ a, (k0_off516 v1424) a + S1x64.size a ≤ S1000000x64.size a)
instance k0_chk242.dec : ∀ (v1424 : BitVec 32), Decidable (k0_chk242 v1424) := fun v1424 => decidable_of_iff' _ (Iff.of_eq (k0_chk242.eq_1 v1424))
theorem k0_off387_inb : ∀ (v1424 : BitVec 32) (k0_hw242 : k0_chk242 v1424), ∀ a, (k0_off387 v1424) a + S1x64.size a ≤ S1000000x64.size a := fun v1424 k0_hw242 => k0_hw242.1
theorem k0_off516_inb : ∀ (v1424 : BitVec 32) (k0_hw242 : k0_chk242 v1424), ∀ a, (k0_off516 v1424) a + S1x64.size a ≤ S1000000x64.size a := fun v1424 k0_hw242 => k0_hw242.2

def k0_off517 (v1434 : BitVec 32) : Fin 2 → Nat :=
  let c0_i32_2772 : BitVec 32 := 0#32
  ![v1434.toNat, 0]

def k0_chk243 (v1434 : BitVec 32) : Prop :=
  (∀ a, (k0_off388 v1434) a + S1x64.size a ≤ S1000000x64.size a) ∧
  (∀ a, (k0_off517 v1434) a + S1x64.size a ≤ S1000000x64.size a)
instance k0_chk243.dec : ∀ (v1434 : BitVec 32), Decidable (k0_chk243 v1434) := fun v1434 => decidable_of_iff' _ (Iff.of_eq (k0_chk243.eq_1 v1434))
theorem k0_off388_inb : ∀ (v1434 : BitVec 32) (k0_hw243 : k0_chk243 v1434), ∀ a, (k0_off388 v1434) a + S1x64.size a ≤ S1000000x64.size a := fun v1434 k0_hw243 => k0_hw243.1
theorem k0_off517_inb : ∀ (v1434 : BitVec 32) (k0_hw243 : k0_chk243 v1434), ∀ a, (k0_off517 v1434) a + S1x64.size a ≤ S1000000x64.size a := fun v1434 k0_hw243 => k0_hw243.2

def k0_off518 (v1444 : BitVec 32) : Fin 2 → Nat :=
  let c0_i32_2783 : BitVec 32 := 0#32
  ![v1444.toNat, 0]

def k0_chk244 (v1444 : BitVec 32) : Prop :=
  (∀ a, (k0_off389 v1444) a + S1x64.size a ≤ S1000000x64.size a) ∧
  (∀ a, (k0_off518 v1444) a + S1x64.size a ≤ S1000000x64.size a)
instance k0_chk244.dec : ∀ (v1444 : BitVec 32), Decidable (k0_chk244 v1444) := fun v1444 => decidable_of_iff' _ (Iff.of_eq (k0_chk244.eq_1 v1444))
theorem k0_off389_inb : ∀ (v1444 : BitVec 32) (k0_hw244 : k0_chk244 v1444), ∀ a, (k0_off389 v1444) a + S1x64.size a ≤ S1000000x64.size a := fun v1444 k0_hw244 => k0_hw244.1
theorem k0_off518_inb : ∀ (v1444 : BitVec 32) (k0_hw244 : k0_chk244 v1444), ∀ a, (k0_off518 v1444) a + S1x64.size a ≤ S1000000x64.size a := fun v1444 k0_hw244 => k0_hw244.2

def k0_off519 (v1454 : BitVec 32) : Fin 2 → Nat :=
  let c0_i32_2794 : BitVec 32 := 0#32
  ![v1454.toNat, 0]

def k0_chk245 (v1454 : BitVec 32) : Prop :=
  (∀ a, (k0_off390 v1454) a + S1x64.size a ≤ S1000000x64.size a) ∧
  (∀ a, (k0_off519 v1454) a + S1x64.size a ≤ S1000000x64.size a)
instance k0_chk245.dec : ∀ (v1454 : BitVec 32), Decidable (k0_chk245 v1454) := fun v1454 => decidable_of_iff' _ (Iff.of_eq (k0_chk245.eq_1 v1454))
theorem k0_off390_inb : ∀ (v1454 : BitVec 32) (k0_hw245 : k0_chk245 v1454), ∀ a, (k0_off390 v1454) a + S1x64.size a ≤ S1000000x64.size a := fun v1454 k0_hw245 => k0_hw245.1
theorem k0_off519_inb : ∀ (v1454 : BitVec 32) (k0_hw245 : k0_chk245 v1454), ∀ a, (k0_off519 v1454) a + S1x64.size a ≤ S1000000x64.size a := fun v1454 k0_hw245 => k0_hw245.2

def k0_off520 (v1464 : BitVec 32) : Fin 2 → Nat :=
  let c0_i32_2805 : BitVec 32 := 0#32
  ![v1464.toNat, 0]

def k0_chk246 (v1464 : BitVec 32) : Prop :=
  (∀ a, (k0_off391 v1464) a + S1x64.size a ≤ S1000000x64.size a) ∧
  (∀ a, (k0_off520 v1464) a + S1x64.size a ≤ S1000000x64.size a)
instance k0_chk246.dec : ∀ (v1464 : BitVec 32), Decidable (k0_chk246 v1464) := fun v1464 => decidable_of_iff' _ (Iff.of_eq (k0_chk246.eq_1 v1464))
theorem k0_off391_inb : ∀ (v1464 : BitVec 32) (k0_hw246 : k0_chk246 v1464), ∀ a, (k0_off391 v1464) a + S1x64.size a ≤ S1000000x64.size a := fun v1464 k0_hw246 => k0_hw246.1
theorem k0_off520_inb : ∀ (v1464 : BitVec 32) (k0_hw246 : k0_chk246 v1464), ∀ a, (k0_off520 v1464) a + S1x64.size a ≤ S1000000x64.size a := fun v1464 k0_hw246 => k0_hw246.2

def k0_off521 (v1474 : BitVec 32) : Fin 2 → Nat :=
  let c0_i32_2816 : BitVec 32 := 0#32
  ![v1474.toNat, 0]

def k0_chk247 (v1474 : BitVec 32) : Prop :=
  (∀ a, (k0_off392 v1474) a + S1x64.size a ≤ S1000000x64.size a) ∧
  (∀ a, (k0_off521 v1474) a + S1x64.size a ≤ S1000000x64.size a)
instance k0_chk247.dec : ∀ (v1474 : BitVec 32), Decidable (k0_chk247 v1474) := fun v1474 => decidable_of_iff' _ (Iff.of_eq (k0_chk247.eq_1 v1474))
theorem k0_off392_inb : ∀ (v1474 : BitVec 32) (k0_hw247 : k0_chk247 v1474), ∀ a, (k0_off392 v1474) a + S1x64.size a ≤ S1000000x64.size a := fun v1474 k0_hw247 => k0_hw247.1
theorem k0_off521_inb : ∀ (v1474 : BitVec 32) (k0_hw247 : k0_chk247 v1474), ∀ a, (k0_off521 v1474) a + S1x64.size a ≤ S1000000x64.size a := fun v1474 k0_hw247 => k0_hw247.2

def k0_off522 (v1484 : BitVec 32) : Fin 2 → Nat :=
  let c0_i32_2827 : BitVec 32 := 0#32
  ![v1484.toNat, 0]

def k0_chk248 (v1484 : BitVec 32) : Prop :=
  (∀ a, (k0_off393 v1484) a + S1x64.size a ≤ S1000000x64.size a) ∧
  (∀ a, (k0_off522 v1484) a + S1x64.size a ≤ S1000000x64.size a)
instance k0_chk248.dec : ∀ (v1484 : BitVec 32), Decidable (k0_chk248 v1484) := fun v1484 => decidable_of_iff' _ (Iff.of_eq (k0_chk248.eq_1 v1484))
theorem k0_off393_inb : ∀ (v1484 : BitVec 32) (k0_hw248 : k0_chk248 v1484), ∀ a, (k0_off393 v1484) a + S1x64.size a ≤ S1000000x64.size a := fun v1484 k0_hw248 => k0_hw248.1
theorem k0_off522_inb : ∀ (v1484 : BitVec 32) (k0_hw248 : k0_chk248 v1484), ∀ a, (k0_off522 v1484) a + S1x64.size a ≤ S1000000x64.size a := fun v1484 k0_hw248 => k0_hw248.2

def k0_off523 (v1494 : BitVec 32) : Fin 2 → Nat :=
  let c0_i32_2838 : BitVec 32 := 0#32
  ![v1494.toNat, 0]

def k0_chk249 (v1494 : BitVec 32) : Prop :=
  (∀ a, (k0_off394 v1494) a + S1x64.size a ≤ S1000000x64.size a) ∧
  (∀ a, (k0_off523 v1494) a + S1x64.size a ≤ S1000000x64.size a)
instance k0_chk249.dec : ∀ (v1494 : BitVec 32), Decidable (k0_chk249 v1494) := fun v1494 => decidable_of_iff' _ (Iff.of_eq (k0_chk249.eq_1 v1494))
theorem k0_off394_inb : ∀ (v1494 : BitVec 32) (k0_hw249 : k0_chk249 v1494), ∀ a, (k0_off394 v1494) a + S1x64.size a ≤ S1000000x64.size a := fun v1494 k0_hw249 => k0_hw249.1
theorem k0_off523_inb : ∀ (v1494 : BitVec 32) (k0_hw249 : k0_chk249 v1494), ∀ a, (k0_off523 v1494) a + S1x64.size a ≤ S1000000x64.size a := fun v1494 k0_hw249 => k0_hw249.2

def k0_off524 (v1504 : BitVec 32) : Fin 2 → Nat :=
  let c0_i32_2849 : BitVec 32 := 0#32
  ![v1504.toNat, 0]

def k0_chk250 (v1504 : BitVec 32) : Prop :=
  (∀ a, (k0_off395 v1504) a + S1x64.size a ≤ S1000000x64.size a) ∧
  (∀ a, (k0_off524 v1504) a + S1x64.size a ≤ S1000000x64.size a)
instance k0_chk250.dec : ∀ (v1504 : BitVec 32), Decidable (k0_chk250 v1504) := fun v1504 => decidable_of_iff' _ (Iff.of_eq (k0_chk250.eq_1 v1504))
theorem k0_off395_inb : ∀ (v1504 : BitVec 32) (k0_hw250 : k0_chk250 v1504), ∀ a, (k0_off395 v1504) a + S1x64.size a ≤ S1000000x64.size a := fun v1504 k0_hw250 => k0_hw250.1
theorem k0_off524_inb : ∀ (v1504 : BitVec 32) (k0_hw250 : k0_chk250 v1504), ∀ a, (k0_off524 v1504) a + S1x64.size a ≤ S1000000x64.size a := fun v1504 k0_hw250 => k0_hw250.2

def k0_off525 (v1514 : BitVec 32) : Fin 2 → Nat :=
  let c0_i32_2860 : BitVec 32 := 0#32
  ![v1514.toNat, 0]

def k0_chk251 (v1514 : BitVec 32) : Prop :=
  (∀ a, (k0_off396 v1514) a + S1x64.size a ≤ S1000000x64.size a) ∧
  (∀ a, (k0_off525 v1514) a + S1x64.size a ≤ S1000000x64.size a)
instance k0_chk251.dec : ∀ (v1514 : BitVec 32), Decidable (k0_chk251 v1514) := fun v1514 => decidable_of_iff' _ (Iff.of_eq (k0_chk251.eq_1 v1514))
theorem k0_off396_inb : ∀ (v1514 : BitVec 32) (k0_hw251 : k0_chk251 v1514), ∀ a, (k0_off396 v1514) a + S1x64.size a ≤ S1000000x64.size a := fun v1514 k0_hw251 => k0_hw251.1
theorem k0_off525_inb : ∀ (v1514 : BitVec 32) (k0_hw251 : k0_chk251 v1514), ∀ a, (k0_off525 v1514) a + S1x64.size a ≤ S1000000x64.size a := fun v1514 k0_hw251 => k0_hw251.2

def k0_off526 (v1524 : BitVec 32) : Fin 2 → Nat :=
  let c0_i32_2871 : BitVec 32 := 0#32
  ![v1524.toNat, 0]

def k0_chk252 (v1524 : BitVec 32) : Prop :=
  (∀ a, (k0_off397 v1524) a + S1x64.size a ≤ S1000000x64.size a) ∧
  (∀ a, (k0_off526 v1524) a + S1x64.size a ≤ S1000000x64.size a)
instance k0_chk252.dec : ∀ (v1524 : BitVec 32), Decidable (k0_chk252 v1524) := fun v1524 => decidable_of_iff' _ (Iff.of_eq (k0_chk252.eq_1 v1524))
theorem k0_off397_inb : ∀ (v1524 : BitVec 32) (k0_hw252 : k0_chk252 v1524), ∀ a, (k0_off397 v1524) a + S1x64.size a ≤ S1000000x64.size a := fun v1524 k0_hw252 => k0_hw252.1
theorem k0_off526_inb : ∀ (v1524 : BitVec 32) (k0_hw252 : k0_chk252 v1524), ∀ a, (k0_off526 v1524) a + S1x64.size a ≤ S1000000x64.size a := fun v1524 k0_hw252 => k0_hw252.2

def k0_off527 (v1534 : BitVec 32) : Fin 2 → Nat :=
  let c0_i32_2882 : BitVec 32 := 0#32
  ![v1534.toNat, 0]

def k0_chk253 (v1534 : BitVec 32) : Prop :=
  (∀ a, (k0_off398 v1534) a + S1x64.size a ≤ S1000000x64.size a) ∧
  (∀ a, (k0_off527 v1534) a + S1x64.size a ≤ S1000000x64.size a)
instance k0_chk253.dec : ∀ (v1534 : BitVec 32), Decidable (k0_chk253 v1534) := fun v1534 => decidable_of_iff' _ (Iff.of_eq (k0_chk253.eq_1 v1534))
theorem k0_off398_inb : ∀ (v1534 : BitVec 32) (k0_hw253 : k0_chk253 v1534), ∀ a, (k0_off398 v1534) a + S1x64.size a ≤ S1000000x64.size a := fun v1534 k0_hw253 => k0_hw253.1
theorem k0_off527_inb : ∀ (v1534 : BitVec 32) (k0_hw253 : k0_chk253 v1534), ∀ a, (k0_off527 v1534) a + S1x64.size a ≤ S1000000x64.size a := fun v1534 k0_hw253 => k0_hw253.2

def k0_off528 (v1544 : BitVec 32) : Fin 2 → Nat :=
  let c0_i32_2893 : BitVec 32 := 0#32
  ![v1544.toNat, 0]

def k0_chk254 (v1544 : BitVec 32) : Prop :=
  (∀ a, (k0_off399 v1544) a + S1x64.size a ≤ S1000000x64.size a) ∧
  (∀ a, (k0_off528 v1544) a + S1x64.size a ≤ S1000000x64.size a)
instance k0_chk254.dec : ∀ (v1544 : BitVec 32), Decidable (k0_chk254 v1544) := fun v1544 => decidable_of_iff' _ (Iff.of_eq (k0_chk254.eq_1 v1544))
theorem k0_off399_inb : ∀ (v1544 : BitVec 32) (k0_hw254 : k0_chk254 v1544), ∀ a, (k0_off399 v1544) a + S1x64.size a ≤ S1000000x64.size a := fun v1544 k0_hw254 => k0_hw254.1
theorem k0_off528_inb : ∀ (v1544 : BitVec 32) (k0_hw254 : k0_chk254 v1544), ∀ a, (k0_off528 v1544) a + S1x64.size a ≤ S1000000x64.size a := fun v1544 k0_hw254 => k0_hw254.2

def k0_off529 (v1554 : BitVec 32) : Fin 2 → Nat :=
  let c0_i32_2904 : BitVec 32 := 0#32
  ![v1554.toNat, 0]

def k0_chk255 (v1554 : BitVec 32) : Prop :=
  (∀ a, (k0_off400 v1554) a + S1x64.size a ≤ S1000000x64.size a) ∧
  (∀ a, (k0_off529 v1554) a + S1x64.size a ≤ S1000000x64.size a)
instance k0_chk255.dec : ∀ (v1554 : BitVec 32), Decidable (k0_chk255 v1554) := fun v1554 => decidable_of_iff' _ (Iff.of_eq (k0_chk255.eq_1 v1554))
theorem k0_off400_inb : ∀ (v1554 : BitVec 32) (k0_hw255 : k0_chk255 v1554), ∀ a, (k0_off400 v1554) a + S1x64.size a ≤ S1000000x64.size a := fun v1554 k0_hw255 => k0_hw255.1
theorem k0_off529_inb : ∀ (v1554 : BitVec 32) (k0_hw255 : k0_chk255 v1554), ∀ a, (k0_off529 v1554) a + S1x64.size a ≤ S1000000x64.size a := fun v1554 k0_hw255 => k0_hw255.2

@[reducible] def k0_t3_loop : Scf.Loop 32 :=
  let c0_i32_11 : BitVec 32 := 0#32
  let c4_i32_12 : BitVec 32 := 4#32
  let v8 : BitVec 32 := Scalar.addi c0_i32_11 c4_i32_12
  let c1_i32_13 : BitVec 32 := 1#32
  ⟨c0_i32_11, v8, c1_i32_13⟩
def k0_off530 (k0_t3 : Fin k0_t3_loop.trips) : Fin 2 → Nat :=
  let c2_i32_15 : BitVec 32 := 2#32
  let c0_i32_11 : BitVec 32 := 0#32
  let c1_i32_13 : BitVec 32 := 1#32
  let arg25 : BitVec 32 := Scf.iv c0_i32_11 c1_i32_13 k0_t3
  let v9 : BitVec 32 := Scalar.muli c2_i32_15 arg25
  let c0_i32_16 : BitVec 32 := 0#32
  let v10 : BitVec 32 := Scalar.addi v9 c0_i32_16
  let c64_i32 : BitVec 32 := 64#32
  let v11 : BitVec 32 := Scalar.muli v10 c64_i32
  let c0_i32_17 : BitVec 32 := 0#32
  let v12 : BitVec 32 := Scalar.addi v11 c0_i32_17
  let c0_i32_18 : BitVec 32 := 0#32
  let v14 : BitVec 1 := Scalar.cmpi .sgt v12 c0_i32_18
  let v15 : BitVec 32 := Scalar.extui v14
  let c0_i32_19 : BitVec 32 := 0#32
  let v16 : BitVec 1 := Scalar.cmpi .slt v12 c0_i32_19
  let v17 : BitVec 32 := Scalar.extui v16
  let v18 : BitVec 32 := Scalar.subi v15 v17
  let c128_i32 : BitVec 32 := 128#32
  let c0_i32_20 : BitVec 32 := 0#32
  let v19 : BitVec 1 := Scalar.cmpi .sgt c128_i32 c0_i32_20
  let v20 : BitVec 32 := Scalar.extui v19
  let c0_i32_21 : BitVec 32 := 0#32
  let v21 : BitVec 1 := Scalar.cmpi .slt c128_i32 c0_i32_21
  let v22 : BitVec 32 := Scalar.extui v21
  let v23 : BitVec 32 := Scalar.subi v20 v22
  let v24 : BitVec 1 := Scalar.cmpi .ne v18 v23
  let v25 : BitVec 32 := Scalar.remsi v12 c128_i32
  let c0_i32_22 : BitVec 32 := 0#32
  let v26 : BitVec 1 := Scalar.cmpi .ne v25 c0_i32_22
  let v27 : BitVec 1 := Scalar.andi v24 v26
  let v13 : BitVec 32 := Scalar.divsi v12 c128_i32
  let c1_i32_23 : BitVec 32 := 1#32
  let v28 : BitVec 32 := Scalar.subi v13 c1_i32_23
  let v29 : BitVec 32 := Scalar.select v27 v28 v13
  let v42 : Index := Scalar.indexCast v29
  let c64_i32_24 : BitVec 32 := 64#32
  let v30 : BitVec 32 := Scalar.muli v10 c64_i32_24
  let c0_i32_25 : BitVec 32 := 0#32
  let v31 : BitVec 32 := Scalar.addi v30 c0_i32_25
  let c128_i32_26 : BitVec 32 := 128#32
  let c0_i32_27 : BitVec 32 := 0#32
  let v32 : BitVec 1 := Scalar.cmpi .eq c128_i32_26 c0_i32_27
  let c1_i32_28 : BitVec 32 := 1#32
  let v33 : BitVec 32 := Scalar.select v32 c1_i32_28 c128_i32_26
  let v34 : BitVec 32 := Scalar.remsi v31 v33
  let c0_i32_30 : BitVec 32 := 0#32
  let v36 : BitVec 1 := Scalar.cmpi .slt v34 c0_i32_30
  let c0_i32_31 : BitVec 32 := 0#32
  let v37 : BitVec 1 := Scalar.cmpi .slt v33 c0_i32_31
  let v38 : BitVec 1 := Scalar.xori v36 v37
  let c0_i32_29 : BitVec 32 := 0#32
  let v35 : BitVec 1 := Scalar.cmpi .ne v34 c0_i32_29
  let v39 : BitVec 1 := Scalar.andi v38 v35
  let v40 : BitVec 32 := Scalar.addi v34 v33
  let v41 : BitVec 32 := Scalar.select v39 v40 v34
  let v43 : Index := Scalar.indexCast v41
  ![v42.toNat, v43.toNat]
def k0_off531 (v47 : BitVec 32) : Fin 2 → Nat :=
  let c0_i32_37 : BitVec 32 := 0#32
  ![v47.toNat, 0]

def k0_off532 (v57 : BitVec 32) : Fin 2 → Nat :=
  let c0_i32_48 : BitVec 32 := 0#32
  ![v57.toNat, 0]

def k0_off533 (v67 : BitVec 32) : Fin 2 → Nat :=
  let c0_i32_59 : BitVec 32 := 0#32
  ![v67.toNat, 0]

def k0_off534 (v77 : BitVec 32) : Fin 2 → Nat :=
  let c0_i32_69 : BitVec 32 := 0#32
  ![v77.toNat, 0]

def k0_off535 (v87 : BitVec 32) : Fin 2 → Nat :=
  let c0_i32_80 : BitVec 32 := 0#32
  ![v87.toNat, 0]

def k0_off536 (v97 : BitVec 32) : Fin 2 → Nat :=
  let c0_i32_90 : BitVec 32 := 0#32
  ![v97.toNat, 0]

def k0_off537 (v107 : BitVec 32) : Fin 2 → Nat :=
  let c0_i32_100 : BitVec 32 := 0#32
  ![v107.toNat, 0]

def k0_off538 (v117 : BitVec 32) : Fin 2 → Nat :=
  let c0_i32_110 : BitVec 32 := 0#32
  ![v117.toNat, 0]

def k0_off539 (v127 : BitVec 32) : Fin 2 → Nat :=
  let c0_i32_120 : BitVec 32 := 0#32
  ![v127.toNat, 0]

def k0_off540 (v137 : BitVec 32) : Fin 2 → Nat :=
  let c0_i32_130 : BitVec 32 := 0#32
  ![v137.toNat, 0]

def k0_off541 (v147 : BitVec 32) : Fin 2 → Nat :=
  let c0_i32_140 : BitVec 32 := 0#32
  ![v147.toNat, 0]

def k0_off542 (v157 : BitVec 32) : Fin 2 → Nat :=
  let c0_i32_150 : BitVec 32 := 0#32
  ![v157.toNat, 0]

def k0_off543 (v167 : BitVec 32) : Fin 2 → Nat :=
  let c0_i32_160 : BitVec 32 := 0#32
  ![v167.toNat, 0]

def k0_off544 (v177 : BitVec 32) : Fin 2 → Nat :=
  let c0_i32_170 : BitVec 32 := 0#32
  ![v177.toNat, 0]

def k0_off545 (v187 : BitVec 32) : Fin 2 → Nat :=
  let c0_i32_180 : BitVec 32 := 0#32
  ![v187.toNat, 0]

def k0_off546 (v197 : BitVec 32) : Fin 2 → Nat :=
  let c0_i32_190 : BitVec 32 := 0#32
  ![v197.toNat, 0]

def k0_off547 (k0_t3 : Fin k0_t3_loop.trips) : Fin 2 → Nat :=
  let c2_i32_15 : BitVec 32 := 2#32
  let c0_i32_11 : BitVec 32 := 0#32
  let c1_i32_13 : BitVec 32 := 1#32
  let arg25 : BitVec 32 := Scf.iv c0_i32_11 c1_i32_13 k0_t3
  let v9 : BitVec 32 := Scalar.muli c2_i32_15 arg25
  let c0_i32_16 : BitVec 32 := 0#32
  let v10 : BitVec 32 := Scalar.addi v9 c0_i32_16
  let c64_i32_196 : BitVec 32 := 64#32
  let v206 : BitVec 32 := Scalar.muli v10 c64_i32_196
  let c16_i32 : BitVec 32 := 16#32
  let v207 : BitVec 32 := Scalar.addi v206 c16_i32
  let c0_i32_198 : BitVec 32 := 0#32
  let v209 : BitVec 1 := Scalar.cmpi .sgt v207 c0_i32_198
  let v210 : BitVec 32 := Scalar.extui v209
  let c0_i32_199 : BitVec 32 := 0#32
  let v211 : BitVec 1 := Scalar.cmpi .slt v207 c0_i32_199
  let v212 : BitVec 32 := Scalar.extui v211
  let v213 : BitVec 32 := Scalar.subi v210 v212
  let c128_i32_197 : BitVec 32 := 128#32
  let c0_i32_200 : BitVec 32 := 0#32
  let v214 : BitVec 1 := Scalar.cmpi .sgt c128_i32_197 c0_i32_200
  let v215 : BitVec 32 := Scalar.extui v214
  let c0_i32_201 : BitVec 32 := 0#32
  let v216 : BitVec 1 := Scalar.cmpi .slt c128_i32_197 c0_i32_201
  let v217 : BitVec 32 := Scalar.extui v216
  let v218 : BitVec 32 := Scalar.subi v215 v217
  let v219 : BitVec 1 := Scalar.cmpi .ne v213 v218
  let v220 : BitVec 32 := Scalar.remsi v207 c128_i32_197
  let c0_i32_202 : BitVec 32 := 0#32
  let v221 : BitVec 1 := Scalar.cmpi .ne v220 c0_i32_202
  let v222 : BitVec 1 := Scalar.andi v219 v221
  let v208 : BitVec 32 := Scalar.divsi v207 c128_i32_197
  let c1_i32_203 : BitVec 32 := 1#32
  let v223 : BitVec 32 := Scalar.subi v208 c1_i32_203
  let v224 : BitVec 32 := Scalar.select v222 v223 v208
  let v237 : Index := Scalar.indexCast v224
  let c64_i32_204 : BitVec 32 := 64#32
  let v225 : BitVec 32 := Scalar.muli v10 c64_i32_204
  let c16_i32_205 : BitVec 32 := 16#32
  let v226 : BitVec 32 := Scalar.addi v225 c16_i32_205
  let c128_i32_206 : BitVec 32 := 128#32
  let c0_i32_207 : BitVec 32 := 0#32
  let v227 : BitVec 1 := Scalar.cmpi .eq c128_i32_206 c0_i32_207
  let c1_i32_208 : BitVec 32 := 1#32
  let v228 : BitVec 32 := Scalar.select v227 c1_i32_208 c128_i32_206
  let v229 : BitVec 32 := Scalar.remsi v226 v228
  let c0_i32_210 : BitVec 32 := 0#32
  let v231 : BitVec 1 := Scalar.cmpi .slt v229 c0_i32_210
  let c0_i32_211 : BitVec 32 := 0#32
  let v232 : BitVec 1 := Scalar.cmpi .slt v228 c0_i32_211
  let v233 : BitVec 1 := Scalar.xori v231 v232
  let c0_i32_209 : BitVec 32 := 0#32
  let v230 : BitVec 1 := Scalar.cmpi .ne v229 c0_i32_209
  let v234 : BitVec 1 := Scalar.andi v233 v230
  let v235 : BitVec 32 := Scalar.addi v229 v228
  let v236 : BitVec 32 := Scalar.select v234 v235 v229
  let v238 : Index := Scalar.indexCast v236
  ![v237.toNat, v238.toNat]
def k0_off548 (v242 : BitVec 32) : Fin 2 → Nat :=
  let c0_i32_217 : BitVec 32 := 0#32
  ![v242.toNat, 0]

def k0_off549 (v252 : BitVec 32) : Fin 2 → Nat :=
  let c0_i32_227 : BitVec 32 := 0#32
  ![v252.toNat, 0]

def k0_off550 (v262 : BitVec 32) : Fin 2 → Nat :=
  let c0_i32_237 : BitVec 32 := 0#32
  ![v262.toNat, 0]

def k0_off551 (v272 : BitVec 32) : Fin 2 → Nat :=
  let c0_i32_247 : BitVec 32 := 0#32
  ![v272.toNat, 0]

def k0_off552 (v282 : BitVec 32) : Fin 2 → Nat :=
  let c0_i32_257 : BitVec 32 := 0#32
  ![v282.toNat, 0]

def k0_off553 (v292 : BitVec 32) : Fin 2 → Nat :=
  let c0_i32_267 : BitVec 32 := 0#32
  ![v292.toNat, 0]

def k0_off554 (v302 : BitVec 32) : Fin 2 → Nat :=
  let c0_i32_277 : BitVec 32 := 0#32
  ![v302.toNat, 0]

def k0_off555 (v312 : BitVec 32) : Fin 2 → Nat :=
  let c0_i32_287 : BitVec 32 := 0#32
  ![v312.toNat, 0]

def k0_off556 (v322 : BitVec 32) : Fin 2 → Nat :=
  let c0_i32_297 : BitVec 32 := 0#32
  ![v322.toNat, 0]

def k0_off557 (v332 : BitVec 32) : Fin 2 → Nat :=
  let c0_i32_307 : BitVec 32 := 0#32
  ![v332.toNat, 0]

def k0_off558 (v342 : BitVec 32) : Fin 2 → Nat :=
  let c0_i32_317 : BitVec 32 := 0#32
  ![v342.toNat, 0]

def k0_off559 (v352 : BitVec 32) : Fin 2 → Nat :=
  let c0_i32_327 : BitVec 32 := 0#32
  ![v352.toNat, 0]

def k0_off560 (v362 : BitVec 32) : Fin 2 → Nat :=
  let c0_i32_337 : BitVec 32 := 0#32
  ![v362.toNat, 0]

def k0_off561 (v372 : BitVec 32) : Fin 2 → Nat :=
  let c0_i32_347 : BitVec 32 := 0#32
  ![v372.toNat, 0]

def k0_off562 (v382 : BitVec 32) : Fin 2 → Nat :=
  let c0_i32_357 : BitVec 32 := 0#32
  ![v382.toNat, 0]

def k0_off563 (v392 : BitVec 32) : Fin 2 → Nat :=
  let c0_i32_367 : BitVec 32 := 0#32
  ![v392.toNat, 0]

def k0_off564 (k0_t3 : Fin k0_t3_loop.trips) : Fin 2 → Nat :=
  let c2_i32_15 : BitVec 32 := 2#32
  let c0_i32_11 : BitVec 32 := 0#32
  let c1_i32_13 : BitVec 32 := 1#32
  let arg25 : BitVec 32 := Scf.iv c0_i32_11 c1_i32_13 k0_t3
  let v9 : BitVec 32 := Scalar.muli c2_i32_15 arg25
  let c0_i32_16 : BitVec 32 := 0#32
  let v10 : BitVec 32 := Scalar.addi v9 c0_i32_16
  let c64_i32_373 : BitVec 32 := 64#32
  let v401 : BitVec 32 := Scalar.muli v10 c64_i32_373
  let c32_i32 : BitVec 32 := 32#32
  let v402 : BitVec 32 := Scalar.addi v401 c32_i32
  let c0_i32_375 : BitVec 32 := 0#32
  let v404 : BitVec 1 := Scalar.cmpi .sgt v402 c0_i32_375
  let v405 : BitVec 32 := Scalar.extui v404
  let c0_i32_376 : BitVec 32 := 0#32
  let v406 : BitVec 1 := Scalar.cmpi .slt v402 c0_i32_376
  let v407 : BitVec 32 := Scalar.extui v406
  let v408 : BitVec 32 := Scalar.subi v405 v407
  let c128_i32_374 : BitVec 32 := 128#32
  let c0_i32_377 : BitVec 32 := 0#32
  let v409 : BitVec 1 := Scalar.cmpi .sgt c128_i32_374 c0_i32_377
  let v410 : BitVec 32 := Scalar.extui v409
  let c0_i32_378 : BitVec 32 := 0#32
  let v411 : BitVec 1 := Scalar.cmpi .slt c128_i32_374 c0_i32_378
  let v412 : BitVec 32 := Scalar.extui v411
  let v413 : BitVec 32 := Scalar.subi v410 v412
  let v414 : BitVec 1 := Scalar.cmpi .ne v408 v413
  let v415 : BitVec 32 := Scalar.remsi v402 c128_i32_374
  let c0_i32_379 : BitVec 32 := 0#32
  let v416 : BitVec 1 := Scalar.cmpi .ne v415 c0_i32_379
  let v417 : BitVec 1 := Scalar.andi v414 v416
  let v403 : BitVec 32 := Scalar.divsi v402 c128_i32_374
  let c1_i32_380 : BitVec 32 := 1#32
  let v418 : BitVec 32 := Scalar.subi v403 c1_i32_380
  let v419 : BitVec 32 := Scalar.select v417 v418 v403
  let v432 : Index := Scalar.indexCast v419
  let c64_i32_381 : BitVec 32 := 64#32
  let v420 : BitVec 32 := Scalar.muli v10 c64_i32_381
  let c32_i32_382 : BitVec 32 := 32#32
  let v421 : BitVec 32 := Scalar.addi v420 c32_i32_382
  let c128_i32_383 : BitVec 32 := 128#32
  let c0_i32_384 : BitVec 32 := 0#32
  let v422 : BitVec 1 := Scalar.cmpi .eq c128_i32_383 c0_i32_384
  let c1_i32_385 : BitVec 32 := 1#32
  let v423 : BitVec 32 := Scalar.select v422 c1_i32_385 c128_i32_383
  let v424 : BitVec 32 := Scalar.remsi v421 v423
  let c0_i32_387 : BitVec 32 := 0#32
  let v426 : BitVec 1 := Scalar.cmpi .slt v424 c0_i32_387
  let c0_i32_388 : BitVec 32 := 0#32
  let v427 : BitVec 1 := Scalar.cmpi .slt v423 c0_i32_388
  let v428 : BitVec 1 := Scalar.xori v426 v427
  let c0_i32_386 : BitVec 32 := 0#32
  let v425 : BitVec 1 := Scalar.cmpi .ne v424 c0_i32_386
  let v429 : BitVec 1 := Scalar.andi v428 v425
  let v430 : BitVec 32 := Scalar.addi v424 v423
  let v431 : BitVec 32 := Scalar.select v429 v430 v424
  let v433 : Index := Scalar.indexCast v431
  ![v432.toNat, v433.toNat]
def k0_off565 (v437 : BitVec 32) : Fin 2 → Nat :=
  let c0_i32_394 : BitVec 32 := 0#32
  ![v437.toNat, 0]

def k0_off566 (v447 : BitVec 32) : Fin 2 → Nat :=
  let c0_i32_404 : BitVec 32 := 0#32
  ![v447.toNat, 0]

def k0_off567 (v457 : BitVec 32) : Fin 2 → Nat :=
  let c0_i32_414 : BitVec 32 := 0#32
  ![v457.toNat, 0]

def k0_off568 (v467 : BitVec 32) : Fin 2 → Nat :=
  let c0_i32_424 : BitVec 32 := 0#32
  ![v467.toNat, 0]

def k0_off569 (v477 : BitVec 32) : Fin 2 → Nat :=
  let c0_i32_434 : BitVec 32 := 0#32
  ![v477.toNat, 0]

def k0_off570 (v487 : BitVec 32) : Fin 2 → Nat :=
  let c0_i32_444 : BitVec 32 := 0#32
  ![v487.toNat, 0]

def k0_off571 (v497 : BitVec 32) : Fin 2 → Nat :=
  let c0_i32_454 : BitVec 32 := 0#32
  ![v497.toNat, 0]

def k0_off572 (v507 : BitVec 32) : Fin 2 → Nat :=
  let c0_i32_464 : BitVec 32 := 0#32
  ![v507.toNat, 0]

def k0_off573 (v517 : BitVec 32) : Fin 2 → Nat :=
  let c0_i32_474 : BitVec 32 := 0#32
  ![v517.toNat, 0]

def k0_off574 (v527 : BitVec 32) : Fin 2 → Nat :=
  let c0_i32_484 : BitVec 32 := 0#32
  ![v527.toNat, 0]

def k0_off575 (v537 : BitVec 32) : Fin 2 → Nat :=
  let c0_i32_494 : BitVec 32 := 0#32
  ![v537.toNat, 0]

def k0_off576 (v547 : BitVec 32) : Fin 2 → Nat :=
  let c0_i32_504 : BitVec 32 := 0#32
  ![v547.toNat, 0]

def k0_off577 (v557 : BitVec 32) : Fin 2 → Nat :=
  let c0_i32_514 : BitVec 32 := 0#32
  ![v557.toNat, 0]

def k0_off578 (v567 : BitVec 32) : Fin 2 → Nat :=
  let c0_i32_524 : BitVec 32 := 0#32
  ![v567.toNat, 0]

def k0_off579 (v577 : BitVec 32) : Fin 2 → Nat :=
  let c0_i32_534 : BitVec 32 := 0#32
  ![v577.toNat, 0]

def k0_off580 (v587 : BitVec 32) : Fin 2 → Nat :=
  let c0_i32_544 : BitVec 32 := 0#32
  ![v587.toNat, 0]

def k0_off581 (k0_t3 : Fin k0_t3_loop.trips) : Fin 2 → Nat :=
  let c2_i32_15 : BitVec 32 := 2#32
  let c0_i32_11 : BitVec 32 := 0#32
  let c1_i32_13 : BitVec 32 := 1#32
  let arg25 : BitVec 32 := Scf.iv c0_i32_11 c1_i32_13 k0_t3
  let v9 : BitVec 32 := Scalar.muli c2_i32_15 arg25
  let c0_i32_16 : BitVec 32 := 0#32
  let v10 : BitVec 32 := Scalar.addi v9 c0_i32_16
  let c64_i32_550 : BitVec 32 := 64#32
  let v596 : BitVec 32 := Scalar.muli v10 c64_i32_550
  let c48_i32 : BitVec 32 := 48#32
  let v597 : BitVec 32 := Scalar.addi v596 c48_i32
  let c0_i32_552 : BitVec 32 := 0#32
  let v599 : BitVec 1 := Scalar.cmpi .sgt v597 c0_i32_552
  let v600 : BitVec 32 := Scalar.extui v599
  let c0_i32_553 : BitVec 32 := 0#32
  let v601 : BitVec 1 := Scalar.cmpi .slt v597 c0_i32_553
  let v602 : BitVec 32 := Scalar.extui v601
  let v603 : BitVec 32 := Scalar.subi v600 v602
  let c128_i32_551 : BitVec 32 := 128#32
  let c0_i32_554 : BitVec 32 := 0#32
  let v604 : BitVec 1 := Scalar.cmpi .sgt c128_i32_551 c0_i32_554
  let v605 : BitVec 32 := Scalar.extui v604
  let c0_i32_555 : BitVec 32 := 0#32
  let v606 : BitVec 1 := Scalar.cmpi .slt c128_i32_551 c0_i32_555
  let v607 : BitVec 32 := Scalar.extui v606
  let v608 : BitVec 32 := Scalar.subi v605 v607
  let v609 : BitVec 1 := Scalar.cmpi .ne v603 v608
  let v610 : BitVec 32 := Scalar.remsi v597 c128_i32_551
  let c0_i32_556 : BitVec 32 := 0#32
  let v611 : BitVec 1 := Scalar.cmpi .ne v610 c0_i32_556
  let v612 : BitVec 1 := Scalar.andi v609 v611
  let v598 : BitVec 32 := Scalar.divsi v597 c128_i32_551
  let c1_i32_557 : BitVec 32 := 1#32
  let v613 : BitVec 32 := Scalar.subi v598 c1_i32_557
  let v614 : BitVec 32 := Scalar.select v612 v613 v598
  let v627 : Index := Scalar.indexCast v614
  let c64_i32_558 : BitVec 32 := 64#32
  let v615 : BitVec 32 := Scalar.muli v10 c64_i32_558
  let c48_i32_559 : BitVec 32 := 48#32
  let v616 : BitVec 32 := Scalar.addi v615 c48_i32_559
  let c128_i32_560 : BitVec 32 := 128#32
  let c0_i32_561 : BitVec 32 := 0#32
  let v617 : BitVec 1 := Scalar.cmpi .eq c128_i32_560 c0_i32_561
  let c1_i32_562 : BitVec 32 := 1#32
  let v618 : BitVec 32 := Scalar.select v617 c1_i32_562 c128_i32_560
  let v619 : BitVec 32 := Scalar.remsi v616 v618
  let c0_i32_564 : BitVec 32 := 0#32
  let v621 : BitVec 1 := Scalar.cmpi .slt v619 c0_i32_564
  let c0_i32_565 : BitVec 32 := 0#32
  let v622 : BitVec 1 := Scalar.cmpi .slt v618 c0_i32_565
  let v623 : BitVec 1 := Scalar.xori v621 v622
  let c0_i32_563 : BitVec 32 := 0#32
  let v620 : BitVec 1 := Scalar.cmpi .ne v619 c0_i32_563
  let v624 : BitVec 1 := Scalar.andi v623 v620
  let v625 : BitVec 32 := Scalar.addi v619 v618
  let v626 : BitVec 32 := Scalar.select v624 v625 v619
  let v628 : Index := Scalar.indexCast v626
  ![v627.toNat, v628.toNat]
def k0_off582 (v632 : BitVec 32) : Fin 2 → Nat :=
  let c0_i32_571 : BitVec 32 := 0#32
  ![v632.toNat, 0]

def k0_off583 (v642 : BitVec 32) : Fin 2 → Nat :=
  let c0_i32_581 : BitVec 32 := 0#32
  ![v642.toNat, 0]

def k0_off584 (v652 : BitVec 32) : Fin 2 → Nat :=
  let c0_i32_591 : BitVec 32 := 0#32
  ![v652.toNat, 0]

def k0_off585 (v662 : BitVec 32) : Fin 2 → Nat :=
  let c0_i32_601 : BitVec 32 := 0#32
  ![v662.toNat, 0]

def k0_off586 (v672 : BitVec 32) : Fin 2 → Nat :=
  let c0_i32_611 : BitVec 32 := 0#32
  ![v672.toNat, 0]

def k0_off587 (v682 : BitVec 32) : Fin 2 → Nat :=
  let c0_i32_621 : BitVec 32 := 0#32
  ![v682.toNat, 0]

def k0_off588 (v692 : BitVec 32) : Fin 2 → Nat :=
  let c0_i32_631 : BitVec 32 := 0#32
  ![v692.toNat, 0]

def k0_off589 (v702 : BitVec 32) : Fin 2 → Nat :=
  let c0_i32_641 : BitVec 32 := 0#32
  ![v702.toNat, 0]

def k0_off590 (v712 : BitVec 32) : Fin 2 → Nat :=
  let c0_i32_651 : BitVec 32 := 0#32
  ![v712.toNat, 0]

def k0_off591 (v722 : BitVec 32) : Fin 2 → Nat :=
  let c0_i32_661 : BitVec 32 := 0#32
  ![v722.toNat, 0]

def k0_off592 (v732 : BitVec 32) : Fin 2 → Nat :=
  let c0_i32_671 : BitVec 32 := 0#32
  ![v732.toNat, 0]

def k0_off593 (v742 : BitVec 32) : Fin 2 → Nat :=
  let c0_i32_681 : BitVec 32 := 0#32
  ![v742.toNat, 0]

def k0_off594 (v752 : BitVec 32) : Fin 2 → Nat :=
  let c0_i32_691 : BitVec 32 := 0#32
  ![v752.toNat, 0]

def k0_off595 (v762 : BitVec 32) : Fin 2 → Nat :=
  let c0_i32_701 : BitVec 32 := 0#32
  ![v762.toNat, 0]

def k0_off596 (v772 : BitVec 32) : Fin 2 → Nat :=
  let c0_i32_711 : BitVec 32 := 0#32
  ![v772.toNat, 0]

def k0_off597 (v782 : BitVec 32) : Fin 2 → Nat :=
  let c0_i32_721 : BitVec 32 := 0#32
  ![v782.toNat, 0]

def k0_off598 (k0_t3 : Fin k0_t3_loop.trips) : Fin 2 → Nat :=
  let c2_i32_727 : BitVec 32 := 2#32
  let c0_i32_11 : BitVec 32 := 0#32
  let c1_i32_13 : BitVec 32 := 1#32
  let arg25 : BitVec 32 := Scf.iv c0_i32_11 c1_i32_13 k0_t3
  let v791 : BitVec 32 := Scalar.muli c2_i32_727 arg25
  let c1_i32_728 : BitVec 32 := 1#32
  let v792 : BitVec 32 := Scalar.addi v791 c1_i32_728
  let c64_i32_729 : BitVec 32 := 64#32
  let v793 : BitVec 32 := Scalar.muli v792 c64_i32_729
  let c0_i32_730 : BitVec 32 := 0#32
  let v794 : BitVec 32 := Scalar.addi v793 c0_i32_730
  let c0_i32_732 : BitVec 32 := 0#32
  let v796 : BitVec 1 := Scalar.cmpi .sgt v794 c0_i32_732
  let v797 : BitVec 32 := Scalar.extui v796
  let c0_i32_733 : BitVec 32 := 0#32
  let v798 : BitVec 1 := Scalar.cmpi .slt v794 c0_i32_733
  let v799 : BitVec 32 := Scalar.extui v798
  let v800 : BitVec 32 := Scalar.subi v797 v799
  let c128_i32_731 : BitVec 32 := 128#32
  let c0_i32_734 : BitVec 32 := 0#32
  let v801 : BitVec 1 := Scalar.cmpi .sgt c128_i32_731 c0_i32_734
  let v802 : BitVec 32 := Scalar.extui v801
  let c0_i32_735 : BitVec 32 := 0#32
  let v803 : BitVec 1 := Scalar.cmpi .slt c128_i32_731 c0_i32_735
  let v804 : BitVec 32 := Scalar.extui v803
  let v805 : BitVec 32 := Scalar.subi v802 v804
  let v806 : BitVec 1 := Scalar.cmpi .ne v800 v805
  let v807 : BitVec 32 := Scalar.remsi v794 c128_i32_731
  let c0_i32_736 : BitVec 32 := 0#32
  let v808 : BitVec 1 := Scalar.cmpi .ne v807 c0_i32_736
  let v809 : BitVec 1 := Scalar.andi v806 v808
  let v795 : BitVec 32 := Scalar.divsi v794 c128_i32_731
  let c1_i32_737 : BitVec 32 := 1#32
  let v810 : BitVec 32 := Scalar.subi v795 c1_i32_737
  let v811 : BitVec 32 := Scalar.select v809 v810 v795
  let v824 : Index := Scalar.indexCast v811
  let c64_i32_738 : BitVec 32 := 64#32
  let v812 : BitVec 32 := Scalar.muli v792 c64_i32_738
  let c0_i32_739 : BitVec 32 := 0#32
  let v813 : BitVec 32 := Scalar.addi v812 c0_i32_739
  let c128_i32_740 : BitVec 32 := 128#32
  let c0_i32_741 : BitVec 32 := 0#32
  let v814 : BitVec 1 := Scalar.cmpi .eq c128_i32_740 c0_i32_741
  let c1_i32_742 : BitVec 32 := 1#32
  let v815 : BitVec 32 := Scalar.select v814 c1_i32_742 c128_i32_740
  let v816 : BitVec 32 := Scalar.remsi v813 v815
  let c0_i32_744 : BitVec 32 := 0#32
  let v818 : BitVec 1 := Scalar.cmpi .slt v816 c0_i32_744
  let c0_i32_745 : BitVec 32 := 0#32
  let v819 : BitVec 1 := Scalar.cmpi .slt v815 c0_i32_745
  let v820 : BitVec 1 := Scalar.xori v818 v819
  let c0_i32_743 : BitVec 32 := 0#32
  let v817 : BitVec 1 := Scalar.cmpi .ne v816 c0_i32_743
  let v821 : BitVec 1 := Scalar.andi v820 v817
  let v822 : BitVec 32 := Scalar.addi v816 v815
  let v823 : BitVec 32 := Scalar.select v821 v822 v816
  let v825 : Index := Scalar.indexCast v823
  ![v824.toNat, v825.toNat]
def k0_off599 (v829 : BitVec 32) : Fin 2 → Nat :=
  let c0_i32_751 : BitVec 32 := 0#32
  ![v829.toNat, 0]

def k0_off600 (v839 : BitVec 32) : Fin 2 → Nat :=
  let c0_i32_762 : BitVec 32 := 0#32
  ![v839.toNat, 0]

def k0_off601 (v849 : BitVec 32) : Fin 2 → Nat :=
  let c0_i32_773 : BitVec 32 := 0#32
  ![v849.toNat, 0]

def k0_off602 (v859 : BitVec 32) : Fin 2 → Nat :=
  let c0_i32_784 : BitVec 32 := 0#32
  ![v859.toNat, 0]

def k0_off603 (v869 : BitVec 32) : Fin 2 → Nat :=
  let c0_i32_795 : BitVec 32 := 0#32
  ![v869.toNat, 0]

def k0_off604 (v879 : BitVec 32) : Fin 2 → Nat :=
  let c0_i32_806 : BitVec 32 := 0#32
  ![v879.toNat, 0]

def k0_off605 (v889 : BitVec 32) : Fin 2 → Nat :=
  let c0_i32_817 : BitVec 32 := 0#32
  ![v889.toNat, 0]

def k0_off606 (v899 : BitVec 32) : Fin 2 → Nat :=
  let c0_i32_828 : BitVec 32 := 0#32
  ![v899.toNat, 0]

def k0_off607 (v909 : BitVec 32) : Fin 2 → Nat :=
  let c0_i32_839 : BitVec 32 := 0#32
  ![v909.toNat, 0]

def k0_off608 (v919 : BitVec 32) : Fin 2 → Nat :=
  let c0_i32_850 : BitVec 32 := 0#32
  ![v919.toNat, 0]

def k0_off609 (v929 : BitVec 32) : Fin 2 → Nat :=
  let c0_i32_861 : BitVec 32 := 0#32
  ![v929.toNat, 0]

def k0_off610 (v939 : BitVec 32) : Fin 2 → Nat :=
  let c0_i32_872 : BitVec 32 := 0#32
  ![v939.toNat, 0]

def k0_off611 (v949 : BitVec 32) : Fin 2 → Nat :=
  let c0_i32_883 : BitVec 32 := 0#32
  ![v949.toNat, 0]

def k0_off612 (v959 : BitVec 32) : Fin 2 → Nat :=
  let c0_i32_894 : BitVec 32 := 0#32
  ![v959.toNat, 0]

def k0_off613 (v969 : BitVec 32) : Fin 2 → Nat :=
  let c0_i32_905 : BitVec 32 := 0#32
  ![v969.toNat, 0]

def k0_off614 (v979 : BitVec 32) : Fin 2 → Nat :=
  let c0_i32_916 : BitVec 32 := 0#32
  ![v979.toNat, 0]

def k0_off615 (k0_t3 : Fin k0_t3_loop.trips) : Fin 2 → Nat :=
  let c2_i32_727 : BitVec 32 := 2#32
  let c0_i32_11 : BitVec 32 := 0#32
  let c1_i32_13 : BitVec 32 := 1#32
  let arg25 : BitVec 32 := Scf.iv c0_i32_11 c1_i32_13 k0_t3
  let v791 : BitVec 32 := Scalar.muli c2_i32_727 arg25
  let c1_i32_728 : BitVec 32 := 1#32
  let v792 : BitVec 32 := Scalar.addi v791 c1_i32_728
  let c64_i32_922 : BitVec 32 := 64#32
  let v988 : BitVec 32 := Scalar.muli v792 c64_i32_922
  let c16_i32_923 : BitVec 32 := 16#32
  let v989 : BitVec 32 := Scalar.addi v988 c16_i32_923
  let c0_i32_925 : BitVec 32 := 0#32
  let v991 : BitVec 1 := Scalar.cmpi .sgt v989 c0_i32_925
  let v992 : BitVec 32 := Scalar.extui v991
  let c0_i32_926 : BitVec 32 := 0#32
  let v993 : BitVec 1 := Scalar.cmpi .slt v989 c0_i32_926
  let v994 : BitVec 32 := Scalar.extui v993
  let v995 : BitVec 32 := Scalar.subi v992 v994
  let c128_i32_924 : BitVec 32 := 128#32
  let c0_i32_927 : BitVec 32 := 0#32
  let v996 : BitVec 1 := Scalar.cmpi .sgt c128_i32_924 c0_i32_927
  let v997 : BitVec 32 := Scalar.extui v996
  let c0_i32_928 : BitVec 32 := 0#32
  let v998 : BitVec 1 := Scalar.cmpi .slt c128_i32_924 c0_i32_928
  let v999 : BitVec 32 := Scalar.extui v998
  let v1000 : BitVec 32 := Scalar.subi v997 v999
  let v1001 : BitVec 1 := Scalar.cmpi .ne v995 v1000
  let v1002 : BitVec 32 := Scalar.remsi v989 c128_i32_924
  let c0_i32_929 : BitVec 32 := 0#32
  let v1003 : BitVec 1 := Scalar.cmpi .ne v1002 c0_i32_929
  let v1004 : BitVec 1 := Scalar.andi v1001 v1003
  let v990 : BitVec 32 := Scalar.divsi v989 c128_i32_924
  let c1_i32_930 : BitVec 32 := 1#32
  let v1005 : BitVec 32 := Scalar.subi v990 c1_i32_930
  let v1006 : BitVec 32 := Scalar.select v1004 v1005 v990
  let v1019 : Index := Scalar.indexCast v1006
  let c64_i32_931 : BitVec 32 := 64#32
  let v1007 : BitVec 32 := Scalar.muli v792 c64_i32_931
  let c16_i32_932 : BitVec 32 := 16#32
  let v1008 : BitVec 32 := Scalar.addi v1007 c16_i32_932
  let c128_i32_933 : BitVec 32 := 128#32
  let c0_i32_934 : BitVec 32 := 0#32
  let v1009 : BitVec 1 := Scalar.cmpi .eq c128_i32_933 c0_i32_934
  let c1_i32_935 : BitVec 32 := 1#32
  let v1010 : BitVec 32 := Scalar.select v1009 c1_i32_935 c128_i32_933
  let v1011 : BitVec 32 := Scalar.remsi v1008 v1010
  let c0_i32_937 : BitVec 32 := 0#32
  let v1013 : BitVec 1 := Scalar.cmpi .slt v1011 c0_i32_937
  let c0_i32_938 : BitVec 32 := 0#32
  let v1014 : BitVec 1 := Scalar.cmpi .slt v1010 c0_i32_938
  let v1015 : BitVec 1 := Scalar.xori v1013 v1014
  let c0_i32_936 : BitVec 32 := 0#32
  let v1012 : BitVec 1 := Scalar.cmpi .ne v1011 c0_i32_936
  let v1016 : BitVec 1 := Scalar.andi v1015 v1012
  let v1017 : BitVec 32 := Scalar.addi v1011 v1010
  let v1018 : BitVec 32 := Scalar.select v1016 v1017 v1011
  let v1020 : Index := Scalar.indexCast v1018
  ![v1019.toNat, v1020.toNat]
def k0_off616 (v1024 : BitVec 32) : Fin 2 → Nat :=
  let c0_i32_944 : BitVec 32 := 0#32
  ![v1024.toNat, 0]

def k0_off617 (v1034 : BitVec 32) : Fin 2 → Nat :=
  let c0_i32_955 : BitVec 32 := 0#32
  ![v1034.toNat, 0]

def k0_off618 (v1044 : BitVec 32) : Fin 2 → Nat :=
  let c0_i32_966 : BitVec 32 := 0#32
  ![v1044.toNat, 0]

def k0_off619 (v1054 : BitVec 32) : Fin 2 → Nat :=
  let c0_i32_977 : BitVec 32 := 0#32
  ![v1054.toNat, 0]

def k0_off620 (v1064 : BitVec 32) : Fin 2 → Nat :=
  let c0_i32_988 : BitVec 32 := 0#32
  ![v1064.toNat, 0]

def k0_off621 (v1074 : BitVec 32) : Fin 2 → Nat :=
  let c0_i32_999 : BitVec 32 := 0#32
  ![v1074.toNat, 0]

def k0_off622 (v1084 : BitVec 32) : Fin 2 → Nat :=
  let c0_i32_1010 : BitVec 32 := 0#32
  ![v1084.toNat, 0]

def k0_off623 (v1094 : BitVec 32) : Fin 2 → Nat :=
  let c0_i32_1021 : BitVec 32 := 0#32
  ![v1094.toNat, 0]

def k0_off624 (v1104 : BitVec 32) : Fin 2 → Nat :=
  let c0_i32_1032 : BitVec 32 := 0#32
  ![v1104.toNat, 0]

def k0_off625 (v1114 : BitVec 32) : Fin 2 → Nat :=
  let c0_i32_1043 : BitVec 32 := 0#32
  ![v1114.toNat, 0]

def k0_off626 (v1124 : BitVec 32) : Fin 2 → Nat :=
  let c0_i32_1054 : BitVec 32 := 0#32
  ![v1124.toNat, 0]

def k0_off627 (v1134 : BitVec 32) : Fin 2 → Nat :=
  let c0_i32_1065 : BitVec 32 := 0#32
  ![v1134.toNat, 0]

def k0_off628 (v1144 : BitVec 32) : Fin 2 → Nat :=
  let c0_i32_1076 : BitVec 32 := 0#32
  ![v1144.toNat, 0]

def k0_off629 (v1154 : BitVec 32) : Fin 2 → Nat :=
  let c0_i32_1087 : BitVec 32 := 0#32
  ![v1154.toNat, 0]

def k0_off630 (v1164 : BitVec 32) : Fin 2 → Nat :=
  let c0_i32_1098 : BitVec 32 := 0#32
  ![v1164.toNat, 0]

def k0_off631 (v1174 : BitVec 32) : Fin 2 → Nat :=
  let c0_i32_1109 : BitVec 32 := 0#32
  ![v1174.toNat, 0]

def k0_off632 (k0_t3 : Fin k0_t3_loop.trips) : Fin 2 → Nat :=
  let c2_i32_727 : BitVec 32 := 2#32
  let c0_i32_11 : BitVec 32 := 0#32
  let c1_i32_13 : BitVec 32 := 1#32
  let arg25 : BitVec 32 := Scf.iv c0_i32_11 c1_i32_13 k0_t3
  let v791 : BitVec 32 := Scalar.muli c2_i32_727 arg25
  let c1_i32_728 : BitVec 32 := 1#32
  let v792 : BitVec 32 := Scalar.addi v791 c1_i32_728
  let c64_i32_1115 : BitVec 32 := 64#32
  let v1183 : BitVec 32 := Scalar.muli v792 c64_i32_1115
  let c32_i32_1116 : BitVec 32 := 32#32
  let v1184 : BitVec 32 := Scalar.addi v1183 c32_i32_1116
  let c0_i32_1118 : BitVec 32 := 0#32
  let v1186 : BitVec 1 := Scalar.cmpi .sgt v1184 c0_i32_1118
  let v1187 : BitVec 32 := Scalar.extui v1186
  let c0_i32_1119 : BitVec 32 := 0#32
  let v1188 : BitVec 1 := Scalar.cmpi .slt v1184 c0_i32_1119
  let v1189 : BitVec 32 := Scalar.extui v1188
  let v1190 : BitVec 32 := Scalar.subi v1187 v1189
  let c128_i32_1117 : BitVec 32 := 128#32
  let c0_i32_1120 : BitVec 32 := 0#32
  let v1191 : BitVec 1 := Scalar.cmpi .sgt c128_i32_1117 c0_i32_1120
  let v1192 : BitVec 32 := Scalar.extui v1191
  let c0_i32_1121 : BitVec 32 := 0#32
  let v1193 : BitVec 1 := Scalar.cmpi .slt c128_i32_1117 c0_i32_1121
  let v1194 : BitVec 32 := Scalar.extui v1193
  let v1195 : BitVec 32 := Scalar.subi v1192 v1194
  let v1196 : BitVec 1 := Scalar.cmpi .ne v1190 v1195
  let v1197 : BitVec 32 := Scalar.remsi v1184 c128_i32_1117
  let c0_i32_1122 : BitVec 32 := 0#32
  let v1198 : BitVec 1 := Scalar.cmpi .ne v1197 c0_i32_1122
  let v1199 : BitVec 1 := Scalar.andi v1196 v1198
  let v1185 : BitVec 32 := Scalar.divsi v1184 c128_i32_1117
  let c1_i32_1123 : BitVec 32 := 1#32
  let v1200 : BitVec 32 := Scalar.subi v1185 c1_i32_1123
  let v1201 : BitVec 32 := Scalar.select v1199 v1200 v1185
  let v1214 : Index := Scalar.indexCast v1201
  let c64_i32_1124 : BitVec 32 := 64#32
  let v1202 : BitVec 32 := Scalar.muli v792 c64_i32_1124
  let c32_i32_1125 : BitVec 32 := 32#32
  let v1203 : BitVec 32 := Scalar.addi v1202 c32_i32_1125
  let c128_i32_1126 : BitVec 32 := 128#32
  let c0_i32_1127 : BitVec 32 := 0#32
  let v1204 : BitVec 1 := Scalar.cmpi .eq c128_i32_1126 c0_i32_1127
  let c1_i32_1128 : BitVec 32 := 1#32
  let v1205 : BitVec 32 := Scalar.select v1204 c1_i32_1128 c128_i32_1126
  let v1206 : BitVec 32 := Scalar.remsi v1203 v1205
  let c0_i32_1130 : BitVec 32 := 0#32
  let v1208 : BitVec 1 := Scalar.cmpi .slt v1206 c0_i32_1130
  let c0_i32_1131 : BitVec 32 := 0#32
  let v1209 : BitVec 1 := Scalar.cmpi .slt v1205 c0_i32_1131
  let v1210 : BitVec 1 := Scalar.xori v1208 v1209
  let c0_i32_1129 : BitVec 32 := 0#32
  let v1207 : BitVec 1 := Scalar.cmpi .ne v1206 c0_i32_1129
  let v1211 : BitVec 1 := Scalar.andi v1210 v1207
  let v1212 : BitVec 32 := Scalar.addi v1206 v1205
  let v1213 : BitVec 32 := Scalar.select v1211 v1212 v1206
  let v1215 : Index := Scalar.indexCast v1213
  ![v1214.toNat, v1215.toNat]
def k0_off633 (v1219 : BitVec 32) : Fin 2 → Nat :=
  let c0_i32_1137 : BitVec 32 := 0#32
  ![v1219.toNat, 0]

def k0_off634 (v1229 : BitVec 32) : Fin 2 → Nat :=
  let c0_i32_1148 : BitVec 32 := 0#32
  ![v1229.toNat, 0]

def k0_off635 (v1239 : BitVec 32) : Fin 2 → Nat :=
  let c0_i32_1159 : BitVec 32 := 0#32
  ![v1239.toNat, 0]

def k0_off636 (v1249 : BitVec 32) : Fin 2 → Nat :=
  let c0_i32_1170 : BitVec 32 := 0#32
  ![v1249.toNat, 0]

def k0_off637 (v1259 : BitVec 32) : Fin 2 → Nat :=
  let c0_i32_1181 : BitVec 32 := 0#32
  ![v1259.toNat, 0]

def k0_off638 (v1269 : BitVec 32) : Fin 2 → Nat :=
  let c0_i32_1192 : BitVec 32 := 0#32
  ![v1269.toNat, 0]

def k0_off639 (v1279 : BitVec 32) : Fin 2 → Nat :=
  let c0_i32_1203 : BitVec 32 := 0#32
  ![v1279.toNat, 0]

def k0_off640 (v1289 : BitVec 32) : Fin 2 → Nat :=
  let c0_i32_1214 : BitVec 32 := 0#32
  ![v1289.toNat, 0]

def k0_off641 (v1299 : BitVec 32) : Fin 2 → Nat :=
  let c0_i32_1225 : BitVec 32 := 0#32
  ![v1299.toNat, 0]

def k0_off642 (v1309 : BitVec 32) : Fin 2 → Nat :=
  let c0_i32_1236 : BitVec 32 := 0#32
  ![v1309.toNat, 0]

def k0_off643 (v1319 : BitVec 32) : Fin 2 → Nat :=
  let c0_i32_1247 : BitVec 32 := 0#32
  ![v1319.toNat, 0]

def k0_off644 (v1329 : BitVec 32) : Fin 2 → Nat :=
  let c0_i32_1258 : BitVec 32 := 0#32
  ![v1329.toNat, 0]

def k0_off645 (v1339 : BitVec 32) : Fin 2 → Nat :=
  let c0_i32_1269 : BitVec 32 := 0#32
  ![v1339.toNat, 0]

def k0_off646 (v1349 : BitVec 32) : Fin 2 → Nat :=
  let c0_i32_1280 : BitVec 32 := 0#32
  ![v1349.toNat, 0]

def k0_off647 (v1359 : BitVec 32) : Fin 2 → Nat :=
  let c0_i32_1291 : BitVec 32 := 0#32
  ![v1359.toNat, 0]

def k0_off648 (v1369 : BitVec 32) : Fin 2 → Nat :=
  let c0_i32_1302 : BitVec 32 := 0#32
  ![v1369.toNat, 0]

def k0_off649 (k0_t3 : Fin k0_t3_loop.trips) : Fin 2 → Nat :=
  let c2_i32_727 : BitVec 32 := 2#32
  let c0_i32_11 : BitVec 32 := 0#32
  let c1_i32_13 : BitVec 32 := 1#32
  let arg25 : BitVec 32 := Scf.iv c0_i32_11 c1_i32_13 k0_t3
  let v791 : BitVec 32 := Scalar.muli c2_i32_727 arg25
  let c1_i32_728 : BitVec 32 := 1#32
  let v792 : BitVec 32 := Scalar.addi v791 c1_i32_728
  let c64_i32_1308 : BitVec 32 := 64#32
  let v1378 : BitVec 32 := Scalar.muli v792 c64_i32_1308
  let c48_i32_1309 : BitVec 32 := 48#32
  let v1379 : BitVec 32 := Scalar.addi v1378 c48_i32_1309
  let c0_i32_1311 : BitVec 32 := 0#32
  let v1381 : BitVec 1 := Scalar.cmpi .sgt v1379 c0_i32_1311
  let v1382 : BitVec 32 := Scalar.extui v1381
  let c0_i32_1312 : BitVec 32 := 0#32
  let v1383 : BitVec 1 := Scalar.cmpi .slt v1379 c0_i32_1312
  let v1384 : BitVec 32 := Scalar.extui v1383
  let v1385 : BitVec 32 := Scalar.subi v1382 v1384
  let c128_i32_1310 : BitVec 32 := 128#32
  let c0_i32_1313 : BitVec 32 := 0#32
  let v1386 : BitVec 1 := Scalar.cmpi .sgt c128_i32_1310 c0_i32_1313
  let v1387 : BitVec 32 := Scalar.extui v1386
  let c0_i32_1314 : BitVec 32 := 0#32
  let v1388 : BitVec 1 := Scalar.cmpi .slt c128_i32_1310 c0_i32_1314
  let v1389 : BitVec 32 := Scalar.extui v1388
  let v1390 : BitVec 32 := Scalar.subi v1387 v1389
  let v1391 : BitVec 1 := Scalar.cmpi .ne v1385 v1390
  let v1392 : BitVec 32 := Scalar.remsi v1379 c128_i32_1310
  let c0_i32_1315 : BitVec 32 := 0#32
  let v1393 : BitVec 1 := Scalar.cmpi .ne v1392 c0_i32_1315
  let v1394 : BitVec 1 := Scalar.andi v1391 v1393
  let v1380 : BitVec 32 := Scalar.divsi v1379 c128_i32_1310
  let c1_i32_1316 : BitVec 32 := 1#32
  let v1395 : BitVec 32 := Scalar.subi v1380 c1_i32_1316
  let v1396 : BitVec 32 := Scalar.select v1394 v1395 v1380
  let v1409 : Index := Scalar.indexCast v1396
  let c64_i32_1317 : BitVec 32 := 64#32
  let v1397 : BitVec 32 := Scalar.muli v792 c64_i32_1317
  let c48_i32_1318 : BitVec 32 := 48#32
  let v1398 : BitVec 32 := Scalar.addi v1397 c48_i32_1318
  let c128_i32_1319 : BitVec 32 := 128#32
  let c0_i32_1320 : BitVec 32 := 0#32
  let v1399 : BitVec 1 := Scalar.cmpi .eq c128_i32_1319 c0_i32_1320
  let c1_i32_1321 : BitVec 32 := 1#32
  let v1400 : BitVec 32 := Scalar.select v1399 c1_i32_1321 c128_i32_1319
  let v1401 : BitVec 32 := Scalar.remsi v1398 v1400
  let c0_i32_1323 : BitVec 32 := 0#32
  let v1403 : BitVec 1 := Scalar.cmpi .slt v1401 c0_i32_1323
  let c0_i32_1324 : BitVec 32 := 0#32
  let v1404 : BitVec 1 := Scalar.cmpi .slt v1400 c0_i32_1324
  let v1405 : BitVec 1 := Scalar.xori v1403 v1404
  let c0_i32_1322 : BitVec 32 := 0#32
  let v1402 : BitVec 1 := Scalar.cmpi .ne v1401 c0_i32_1322
  let v1406 : BitVec 1 := Scalar.andi v1405 v1402
  let v1407 : BitVec 32 := Scalar.addi v1401 v1400
  let v1408 : BitVec 32 := Scalar.select v1406 v1407 v1401
  let v1410 : Index := Scalar.indexCast v1408
  ![v1409.toNat, v1410.toNat]
def k0_off650 (v1414 : BitVec 32) : Fin 2 → Nat :=
  let c0_i32_1330 : BitVec 32 := 0#32
  ![v1414.toNat, 0]

def k0_off651 (v1424 : BitVec 32) : Fin 2 → Nat :=
  let c0_i32_1341 : BitVec 32 := 0#32
  ![v1424.toNat, 0]

def k0_off652 (v1434 : BitVec 32) : Fin 2 → Nat :=
  let c0_i32_1352 : BitVec 32 := 0#32
  ![v1434.toNat, 0]

def k0_off653 (v1444 : BitVec 32) : Fin 2 → Nat :=
  let c0_i32_1363 : BitVec 32 := 0#32
  ![v1444.toNat, 0]

def k0_off654 (v1454 : BitVec 32) : Fin 2 → Nat :=
  let c0_i32_1374 : BitVec 32 := 0#32
  ![v1454.toNat, 0]

def k0_off655 (v1464 : BitVec 32) : Fin 2 → Nat :=
  let c0_i32_1385 : BitVec 32 := 0#32
  ![v1464.toNat, 0]

def k0_off656 (v1474 : BitVec 32) : Fin 2 → Nat :=
  let c0_i32_1396 : BitVec 32 := 0#32
  ![v1474.toNat, 0]

def k0_off657 (v1484 : BitVec 32) : Fin 2 → Nat :=
  let c0_i32_1407 : BitVec 32 := 0#32
  ![v1484.toNat, 0]

def k0_off658 (v1494 : BitVec 32) : Fin 2 → Nat :=
  let c0_i32_1418 : BitVec 32 := 0#32
  ![v1494.toNat, 0]

def k0_off659 (v1504 : BitVec 32) : Fin 2 → Nat :=
  let c0_i32_1429 : BitVec 32 := 0#32
  ![v1504.toNat, 0]

def k0_off660 (v1514 : BitVec 32) : Fin 2 → Nat :=
  let c0_i32_1440 : BitVec 32 := 0#32
  ![v1514.toNat, 0]

def k0_off661 (v1524 : BitVec 32) : Fin 2 → Nat :=
  let c0_i32_1451 : BitVec 32 := 0#32
  ![v1524.toNat, 0]

def k0_off662 (v1534 : BitVec 32) : Fin 2 → Nat :=
  let c0_i32_1462 : BitVec 32 := 0#32
  ![v1534.toNat, 0]

def k0_off663 (v1544 : BitVec 32) : Fin 2 → Nat :=
  let c0_i32_1473 : BitVec 32 := 0#32
  ![v1544.toNat, 0]

def k0_off664 (v1554 : BitVec 32) : Fin 2 → Nat :=
  let c0_i32_1484 : BitVec 32 := 0#32
  ![v1554.toNat, 0]

def k0_off665 (v1564 : BitVec 32) : Fin 2 → Nat :=
  let c0_i32_1495 : BitVec 32 := 0#32
  ![v1564.toNat, 0]

def k0_chk384 (v1564 : BitVec 32) : Prop :=
  (∀ a, (k0_off665 v1564) a + S1x64.size a ≤ S100000x64.size a)
instance k0_chk384.dec : ∀ (v1564 : BitVec 32), Decidable (k0_chk384 v1564) := fun v1564 => decidable_of_iff' _ (Iff.of_eq (k0_chk384.eq_1 v1564))
theorem k0_off665_inb : ∀ (v1564 : BitVec 32) (k0_hw384 : k0_chk384 v1564), ∀ a, (k0_off665 v1564) a + S1x64.size a ≤ S100000x64.size a := fun v1564 k0_hw384 => k0_hw384

def k0_off666 (v47 : BitVec 32) : Fin 2 → Nat :=
  let c0_i32_1508 : BitVec 32 := 0#32
  ![v47.toNat, 0]

def k0_chk257 (v47 : BitVec 32) : Prop :=
  (∀ a, (k0_off531 v47) a + S1x64.size a ≤ S100000x64.size a) ∧
  (∀ a, (k0_off666 v47) a + S1x64.size a ≤ S100000x64.size a)
instance k0_chk257.dec : ∀ (v47 : BitVec 32), Decidable (k0_chk257 v47) := fun v47 => decidable_of_iff' _ (Iff.of_eq (k0_chk257.eq_1 v47))
theorem k0_off531_inb : ∀ (v47 : BitVec 32) (k0_hw257 : k0_chk257 v47), ∀ a, (k0_off531 v47) a + S1x64.size a ≤ S100000x64.size a := fun v47 k0_hw257 => k0_hw257.1
theorem k0_off666_inb : ∀ (v47 : BitVec 32) (k0_hw257 : k0_chk257 v47), ∀ a, (k0_off666 v47) a + S1x64.size a ≤ S100000x64.size a := fun v47 k0_hw257 => k0_hw257.2

def k0_off667 (v57 : BitVec 32) : Fin 2 → Nat :=
  let c0_i32_1519 : BitVec 32 := 0#32
  ![v57.toNat, 0]

def k0_chk258 (v57 : BitVec 32) : Prop :=
  (∀ a, (k0_off532 v57) a + S1x64.size a ≤ S100000x64.size a) ∧
  (∀ a, (k0_off667 v57) a + S1x64.size a ≤ S100000x64.size a)
instance k0_chk258.dec : ∀ (v57 : BitVec 32), Decidable (k0_chk258 v57) := fun v57 => decidable_of_iff' _ (Iff.of_eq (k0_chk258.eq_1 v57))
theorem k0_off532_inb : ∀ (v57 : BitVec 32) (k0_hw258 : k0_chk258 v57), ∀ a, (k0_off532 v57) a + S1x64.size a ≤ S100000x64.size a := fun v57 k0_hw258 => k0_hw258.1
theorem k0_off667_inb : ∀ (v57 : BitVec 32) (k0_hw258 : k0_chk258 v57), ∀ a, (k0_off667 v57) a + S1x64.size a ≤ S100000x64.size a := fun v57 k0_hw258 => k0_hw258.2

def k0_off668 (v67 : BitVec 32) : Fin 2 → Nat :=
  let c0_i32_1530 : BitVec 32 := 0#32
  ![v67.toNat, 0]

def k0_chk259 (v67 : BitVec 32) : Prop :=
  (∀ a, (k0_off533 v67) a + S1x64.size a ≤ S100000x64.size a) ∧
  (∀ a, (k0_off668 v67) a + S1x64.size a ≤ S100000x64.size a)
instance k0_chk259.dec : ∀ (v67 : BitVec 32), Decidable (k0_chk259 v67) := fun v67 => decidable_of_iff' _ (Iff.of_eq (k0_chk259.eq_1 v67))
theorem k0_off533_inb : ∀ (v67 : BitVec 32) (k0_hw259 : k0_chk259 v67), ∀ a, (k0_off533 v67) a + S1x64.size a ≤ S100000x64.size a := fun v67 k0_hw259 => k0_hw259.1
theorem k0_off668_inb : ∀ (v67 : BitVec 32) (k0_hw259 : k0_chk259 v67), ∀ a, (k0_off668 v67) a + S1x64.size a ≤ S100000x64.size a := fun v67 k0_hw259 => k0_hw259.2

def k0_off669 (v77 : BitVec 32) : Fin 2 → Nat :=
  let c0_i32_1541 : BitVec 32 := 0#32
  ![v77.toNat, 0]

def k0_chk260 (v77 : BitVec 32) : Prop :=
  (∀ a, (k0_off534 v77) a + S1x64.size a ≤ S100000x64.size a) ∧
  (∀ a, (k0_off669 v77) a + S1x64.size a ≤ S100000x64.size a)
instance k0_chk260.dec : ∀ (v77 : BitVec 32), Decidable (k0_chk260 v77) := fun v77 => decidable_of_iff' _ (Iff.of_eq (k0_chk260.eq_1 v77))
theorem k0_off534_inb : ∀ (v77 : BitVec 32) (k0_hw260 : k0_chk260 v77), ∀ a, (k0_off534 v77) a + S1x64.size a ≤ S100000x64.size a := fun v77 k0_hw260 => k0_hw260.1
theorem k0_off669_inb : ∀ (v77 : BitVec 32) (k0_hw260 : k0_chk260 v77), ∀ a, (k0_off669 v77) a + S1x64.size a ≤ S100000x64.size a := fun v77 k0_hw260 => k0_hw260.2

def k0_off670 (v87 : BitVec 32) : Fin 2 → Nat :=
  let c0_i32_1552 : BitVec 32 := 0#32
  ![v87.toNat, 0]

def k0_chk261 (v87 : BitVec 32) : Prop :=
  (∀ a, (k0_off535 v87) a + S1x64.size a ≤ S100000x64.size a) ∧
  (∀ a, (k0_off670 v87) a + S1x64.size a ≤ S100000x64.size a)
instance k0_chk261.dec : ∀ (v87 : BitVec 32), Decidable (k0_chk261 v87) := fun v87 => decidable_of_iff' _ (Iff.of_eq (k0_chk261.eq_1 v87))
theorem k0_off535_inb : ∀ (v87 : BitVec 32) (k0_hw261 : k0_chk261 v87), ∀ a, (k0_off535 v87) a + S1x64.size a ≤ S100000x64.size a := fun v87 k0_hw261 => k0_hw261.1
theorem k0_off670_inb : ∀ (v87 : BitVec 32) (k0_hw261 : k0_chk261 v87), ∀ a, (k0_off670 v87) a + S1x64.size a ≤ S100000x64.size a := fun v87 k0_hw261 => k0_hw261.2

def k0_off671 (v97 : BitVec 32) : Fin 2 → Nat :=
  let c0_i32_1563 : BitVec 32 := 0#32
  ![v97.toNat, 0]

def k0_chk262 (v97 : BitVec 32) : Prop :=
  (∀ a, (k0_off536 v97) a + S1x64.size a ≤ S100000x64.size a) ∧
  (∀ a, (k0_off671 v97) a + S1x64.size a ≤ S100000x64.size a)
instance k0_chk262.dec : ∀ (v97 : BitVec 32), Decidable (k0_chk262 v97) := fun v97 => decidable_of_iff' _ (Iff.of_eq (k0_chk262.eq_1 v97))
theorem k0_off536_inb : ∀ (v97 : BitVec 32) (k0_hw262 : k0_chk262 v97), ∀ a, (k0_off536 v97) a + S1x64.size a ≤ S100000x64.size a := fun v97 k0_hw262 => k0_hw262.1
theorem k0_off671_inb : ∀ (v97 : BitVec 32) (k0_hw262 : k0_chk262 v97), ∀ a, (k0_off671 v97) a + S1x64.size a ≤ S100000x64.size a := fun v97 k0_hw262 => k0_hw262.2

def k0_off672 (v107 : BitVec 32) : Fin 2 → Nat :=
  let c0_i32_1574 : BitVec 32 := 0#32
  ![v107.toNat, 0]

def k0_chk263 (v107 : BitVec 32) : Prop :=
  (∀ a, (k0_off537 v107) a + S1x64.size a ≤ S100000x64.size a) ∧
  (∀ a, (k0_off672 v107) a + S1x64.size a ≤ S100000x64.size a)
instance k0_chk263.dec : ∀ (v107 : BitVec 32), Decidable (k0_chk263 v107) := fun v107 => decidable_of_iff' _ (Iff.of_eq (k0_chk263.eq_1 v107))
theorem k0_off537_inb : ∀ (v107 : BitVec 32) (k0_hw263 : k0_chk263 v107), ∀ a, (k0_off537 v107) a + S1x64.size a ≤ S100000x64.size a := fun v107 k0_hw263 => k0_hw263.1
theorem k0_off672_inb : ∀ (v107 : BitVec 32) (k0_hw263 : k0_chk263 v107), ∀ a, (k0_off672 v107) a + S1x64.size a ≤ S100000x64.size a := fun v107 k0_hw263 => k0_hw263.2

def k0_off673 (v117 : BitVec 32) : Fin 2 → Nat :=
  let c0_i32_1585 : BitVec 32 := 0#32
  ![v117.toNat, 0]

def k0_chk264 (v117 : BitVec 32) : Prop :=
  (∀ a, (k0_off538 v117) a + S1x64.size a ≤ S100000x64.size a) ∧
  (∀ a, (k0_off673 v117) a + S1x64.size a ≤ S100000x64.size a)
instance k0_chk264.dec : ∀ (v117 : BitVec 32), Decidable (k0_chk264 v117) := fun v117 => decidable_of_iff' _ (Iff.of_eq (k0_chk264.eq_1 v117))
theorem k0_off538_inb : ∀ (v117 : BitVec 32) (k0_hw264 : k0_chk264 v117), ∀ a, (k0_off538 v117) a + S1x64.size a ≤ S100000x64.size a := fun v117 k0_hw264 => k0_hw264.1
theorem k0_off673_inb : ∀ (v117 : BitVec 32) (k0_hw264 : k0_chk264 v117), ∀ a, (k0_off673 v117) a + S1x64.size a ≤ S100000x64.size a := fun v117 k0_hw264 => k0_hw264.2

def k0_off674 (v127 : BitVec 32) : Fin 2 → Nat :=
  let c0_i32_1596 : BitVec 32 := 0#32
  ![v127.toNat, 0]

def k0_chk265 (v127 : BitVec 32) : Prop :=
  (∀ a, (k0_off539 v127) a + S1x64.size a ≤ S100000x64.size a) ∧
  (∀ a, (k0_off674 v127) a + S1x64.size a ≤ S100000x64.size a)
instance k0_chk265.dec : ∀ (v127 : BitVec 32), Decidable (k0_chk265 v127) := fun v127 => decidable_of_iff' _ (Iff.of_eq (k0_chk265.eq_1 v127))
theorem k0_off539_inb : ∀ (v127 : BitVec 32) (k0_hw265 : k0_chk265 v127), ∀ a, (k0_off539 v127) a + S1x64.size a ≤ S100000x64.size a := fun v127 k0_hw265 => k0_hw265.1
theorem k0_off674_inb : ∀ (v127 : BitVec 32) (k0_hw265 : k0_chk265 v127), ∀ a, (k0_off674 v127) a + S1x64.size a ≤ S100000x64.size a := fun v127 k0_hw265 => k0_hw265.2

def k0_off675 (v137 : BitVec 32) : Fin 2 → Nat :=
  let c0_i32_1607 : BitVec 32 := 0#32
  ![v137.toNat, 0]

def k0_chk266 (v137 : BitVec 32) : Prop :=
  (∀ a, (k0_off540 v137) a + S1x64.size a ≤ S100000x64.size a) ∧
  (∀ a, (k0_off675 v137) a + S1x64.size a ≤ S100000x64.size a)
instance k0_chk266.dec : ∀ (v137 : BitVec 32), Decidable (k0_chk266 v137) := fun v137 => decidable_of_iff' _ (Iff.of_eq (k0_chk266.eq_1 v137))
theorem k0_off540_inb : ∀ (v137 : BitVec 32) (k0_hw266 : k0_chk266 v137), ∀ a, (k0_off540 v137) a + S1x64.size a ≤ S100000x64.size a := fun v137 k0_hw266 => k0_hw266.1
theorem k0_off675_inb : ∀ (v137 : BitVec 32) (k0_hw266 : k0_chk266 v137), ∀ a, (k0_off675 v137) a + S1x64.size a ≤ S100000x64.size a := fun v137 k0_hw266 => k0_hw266.2

def k0_off676 (v147 : BitVec 32) : Fin 2 → Nat :=
  let c0_i32_1618 : BitVec 32 := 0#32
  ![v147.toNat, 0]

def k0_chk267 (v147 : BitVec 32) : Prop :=
  (∀ a, (k0_off541 v147) a + S1x64.size a ≤ S100000x64.size a) ∧
  (∀ a, (k0_off676 v147) a + S1x64.size a ≤ S100000x64.size a)
instance k0_chk267.dec : ∀ (v147 : BitVec 32), Decidable (k0_chk267 v147) := fun v147 => decidable_of_iff' _ (Iff.of_eq (k0_chk267.eq_1 v147))
theorem k0_off541_inb : ∀ (v147 : BitVec 32) (k0_hw267 : k0_chk267 v147), ∀ a, (k0_off541 v147) a + S1x64.size a ≤ S100000x64.size a := fun v147 k0_hw267 => k0_hw267.1
theorem k0_off676_inb : ∀ (v147 : BitVec 32) (k0_hw267 : k0_chk267 v147), ∀ a, (k0_off676 v147) a + S1x64.size a ≤ S100000x64.size a := fun v147 k0_hw267 => k0_hw267.2

def k0_off677 (v157 : BitVec 32) : Fin 2 → Nat :=
  let c0_i32_1629 : BitVec 32 := 0#32
  ![v157.toNat, 0]

def k0_chk268 (v157 : BitVec 32) : Prop :=
  (∀ a, (k0_off542 v157) a + S1x64.size a ≤ S100000x64.size a) ∧
  (∀ a, (k0_off677 v157) a + S1x64.size a ≤ S100000x64.size a)
instance k0_chk268.dec : ∀ (v157 : BitVec 32), Decidable (k0_chk268 v157) := fun v157 => decidable_of_iff' _ (Iff.of_eq (k0_chk268.eq_1 v157))
theorem k0_off542_inb : ∀ (v157 : BitVec 32) (k0_hw268 : k0_chk268 v157), ∀ a, (k0_off542 v157) a + S1x64.size a ≤ S100000x64.size a := fun v157 k0_hw268 => k0_hw268.1
theorem k0_off677_inb : ∀ (v157 : BitVec 32) (k0_hw268 : k0_chk268 v157), ∀ a, (k0_off677 v157) a + S1x64.size a ≤ S100000x64.size a := fun v157 k0_hw268 => k0_hw268.2

def k0_off678 (v167 : BitVec 32) : Fin 2 → Nat :=
  let c0_i32_1640 : BitVec 32 := 0#32
  ![v167.toNat, 0]

def k0_chk269 (v167 : BitVec 32) : Prop :=
  (∀ a, (k0_off543 v167) a + S1x64.size a ≤ S100000x64.size a) ∧
  (∀ a, (k0_off678 v167) a + S1x64.size a ≤ S100000x64.size a)
instance k0_chk269.dec : ∀ (v167 : BitVec 32), Decidable (k0_chk269 v167) := fun v167 => decidable_of_iff' _ (Iff.of_eq (k0_chk269.eq_1 v167))
theorem k0_off543_inb : ∀ (v167 : BitVec 32) (k0_hw269 : k0_chk269 v167), ∀ a, (k0_off543 v167) a + S1x64.size a ≤ S100000x64.size a := fun v167 k0_hw269 => k0_hw269.1
theorem k0_off678_inb : ∀ (v167 : BitVec 32) (k0_hw269 : k0_chk269 v167), ∀ a, (k0_off678 v167) a + S1x64.size a ≤ S100000x64.size a := fun v167 k0_hw269 => k0_hw269.2

def k0_off679 (v177 : BitVec 32) : Fin 2 → Nat :=
  let c0_i32_1651 : BitVec 32 := 0#32
  ![v177.toNat, 0]

def k0_chk270 (v177 : BitVec 32) : Prop :=
  (∀ a, (k0_off544 v177) a + S1x64.size a ≤ S100000x64.size a) ∧
  (∀ a, (k0_off679 v177) a + S1x64.size a ≤ S100000x64.size a)
instance k0_chk270.dec : ∀ (v177 : BitVec 32), Decidable (k0_chk270 v177) := fun v177 => decidable_of_iff' _ (Iff.of_eq (k0_chk270.eq_1 v177))
theorem k0_off544_inb : ∀ (v177 : BitVec 32) (k0_hw270 : k0_chk270 v177), ∀ a, (k0_off544 v177) a + S1x64.size a ≤ S100000x64.size a := fun v177 k0_hw270 => k0_hw270.1
theorem k0_off679_inb : ∀ (v177 : BitVec 32) (k0_hw270 : k0_chk270 v177), ∀ a, (k0_off679 v177) a + S1x64.size a ≤ S100000x64.size a := fun v177 k0_hw270 => k0_hw270.2

def k0_off680 (v187 : BitVec 32) : Fin 2 → Nat :=
  let c0_i32_1662 : BitVec 32 := 0#32
  ![v187.toNat, 0]

def k0_chk271 (v187 : BitVec 32) : Prop :=
  (∀ a, (k0_off545 v187) a + S1x64.size a ≤ S100000x64.size a) ∧
  (∀ a, (k0_off680 v187) a + S1x64.size a ≤ S100000x64.size a)
instance k0_chk271.dec : ∀ (v187 : BitVec 32), Decidable (k0_chk271 v187) := fun v187 => decidable_of_iff' _ (Iff.of_eq (k0_chk271.eq_1 v187))
theorem k0_off545_inb : ∀ (v187 : BitVec 32) (k0_hw271 : k0_chk271 v187), ∀ a, (k0_off545 v187) a + S1x64.size a ≤ S100000x64.size a := fun v187 k0_hw271 => k0_hw271.1
theorem k0_off680_inb : ∀ (v187 : BitVec 32) (k0_hw271 : k0_chk271 v187), ∀ a, (k0_off680 v187) a + S1x64.size a ≤ S100000x64.size a := fun v187 k0_hw271 => k0_hw271.2

def k0_off681 (v197 : BitVec 32) : Fin 2 → Nat :=
  let c0_i32_1673 : BitVec 32 := 0#32
  ![v197.toNat, 0]

def k0_chk272 (v197 : BitVec 32) : Prop :=
  (∀ a, (k0_off546 v197) a + S1x64.size a ≤ S100000x64.size a) ∧
  (∀ a, (k0_off681 v197) a + S1x64.size a ≤ S100000x64.size a)
instance k0_chk272.dec : ∀ (v197 : BitVec 32), Decidable (k0_chk272 v197) := fun v197 => decidable_of_iff' _ (Iff.of_eq (k0_chk272.eq_1 v197))
theorem k0_off546_inb : ∀ (v197 : BitVec 32) (k0_hw272 : k0_chk272 v197), ∀ a, (k0_off546 v197) a + S1x64.size a ≤ S100000x64.size a := fun v197 k0_hw272 => k0_hw272.1
theorem k0_off681_inb : ∀ (v197 : BitVec 32) (k0_hw272 : k0_chk272 v197), ∀ a, (k0_off681 v197) a + S1x64.size a ≤ S100000x64.size a := fun v197 k0_hw272 => k0_hw272.2

def k0_off682 (v242 : BitVec 32) : Fin 2 → Nat :=
  let c0_i32_1684 : BitVec 32 := 0#32
  ![v242.toNat, 0]

def k0_chk273 (v242 : BitVec 32) : Prop :=
  (∀ a, (k0_off548 v242) a + S1x64.size a ≤ S100000x64.size a) ∧
  (∀ a, (k0_off682 v242) a + S1x64.size a ≤ S100000x64.size a)
instance k0_chk273.dec : ∀ (v242 : BitVec 32), Decidable (k0_chk273 v242) := fun v242 => decidable_of_iff' _ (Iff.of_eq (k0_chk273.eq_1 v242))
theorem k0_off548_inb : ∀ (v242 : BitVec 32) (k0_hw273 : k0_chk273 v242), ∀ a, (k0_off548 v242) a + S1x64.size a ≤ S100000x64.size a := fun v242 k0_hw273 => k0_hw273.1
theorem k0_off682_inb : ∀ (v242 : BitVec 32) (k0_hw273 : k0_chk273 v242), ∀ a, (k0_off682 v242) a + S1x64.size a ≤ S100000x64.size a := fun v242 k0_hw273 => k0_hw273.2

def k0_off683 (v252 : BitVec 32) : Fin 2 → Nat :=
  let c0_i32_1695 : BitVec 32 := 0#32
  ![v252.toNat, 0]

def k0_chk274 (v252 : BitVec 32) : Prop :=
  (∀ a, (k0_off549 v252) a + S1x64.size a ≤ S100000x64.size a) ∧
  (∀ a, (k0_off683 v252) a + S1x64.size a ≤ S100000x64.size a)
instance k0_chk274.dec : ∀ (v252 : BitVec 32), Decidable (k0_chk274 v252) := fun v252 => decidable_of_iff' _ (Iff.of_eq (k0_chk274.eq_1 v252))
theorem k0_off549_inb : ∀ (v252 : BitVec 32) (k0_hw274 : k0_chk274 v252), ∀ a, (k0_off549 v252) a + S1x64.size a ≤ S100000x64.size a := fun v252 k0_hw274 => k0_hw274.1
theorem k0_off683_inb : ∀ (v252 : BitVec 32) (k0_hw274 : k0_chk274 v252), ∀ a, (k0_off683 v252) a + S1x64.size a ≤ S100000x64.size a := fun v252 k0_hw274 => k0_hw274.2

def k0_off684 (v262 : BitVec 32) : Fin 2 → Nat :=
  let c0_i32_1706 : BitVec 32 := 0#32
  ![v262.toNat, 0]

def k0_chk275 (v262 : BitVec 32) : Prop :=
  (∀ a, (k0_off550 v262) a + S1x64.size a ≤ S100000x64.size a) ∧
  (∀ a, (k0_off684 v262) a + S1x64.size a ≤ S100000x64.size a)
instance k0_chk275.dec : ∀ (v262 : BitVec 32), Decidable (k0_chk275 v262) := fun v262 => decidable_of_iff' _ (Iff.of_eq (k0_chk275.eq_1 v262))
theorem k0_off550_inb : ∀ (v262 : BitVec 32) (k0_hw275 : k0_chk275 v262), ∀ a, (k0_off550 v262) a + S1x64.size a ≤ S100000x64.size a := fun v262 k0_hw275 => k0_hw275.1
theorem k0_off684_inb : ∀ (v262 : BitVec 32) (k0_hw275 : k0_chk275 v262), ∀ a, (k0_off684 v262) a + S1x64.size a ≤ S100000x64.size a := fun v262 k0_hw275 => k0_hw275.2

def k0_off685 (v272 : BitVec 32) : Fin 2 → Nat :=
  let c0_i32_1717 : BitVec 32 := 0#32
  ![v272.toNat, 0]

def k0_chk276 (v272 : BitVec 32) : Prop :=
  (∀ a, (k0_off551 v272) a + S1x64.size a ≤ S100000x64.size a) ∧
  (∀ a, (k0_off685 v272) a + S1x64.size a ≤ S100000x64.size a)
instance k0_chk276.dec : ∀ (v272 : BitVec 32), Decidable (k0_chk276 v272) := fun v272 => decidable_of_iff' _ (Iff.of_eq (k0_chk276.eq_1 v272))
theorem k0_off551_inb : ∀ (v272 : BitVec 32) (k0_hw276 : k0_chk276 v272), ∀ a, (k0_off551 v272) a + S1x64.size a ≤ S100000x64.size a := fun v272 k0_hw276 => k0_hw276.1
theorem k0_off685_inb : ∀ (v272 : BitVec 32) (k0_hw276 : k0_chk276 v272), ∀ a, (k0_off685 v272) a + S1x64.size a ≤ S100000x64.size a := fun v272 k0_hw276 => k0_hw276.2

def k0_off686 (v282 : BitVec 32) : Fin 2 → Nat :=
  let c0_i32_1728 : BitVec 32 := 0#32
  ![v282.toNat, 0]

def k0_chk277 (v282 : BitVec 32) : Prop :=
  (∀ a, (k0_off552 v282) a + S1x64.size a ≤ S100000x64.size a) ∧
  (∀ a, (k0_off686 v282) a + S1x64.size a ≤ S100000x64.size a)
instance k0_chk277.dec : ∀ (v282 : BitVec 32), Decidable (k0_chk277 v282) := fun v282 => decidable_of_iff' _ (Iff.of_eq (k0_chk277.eq_1 v282))
theorem k0_off552_inb : ∀ (v282 : BitVec 32) (k0_hw277 : k0_chk277 v282), ∀ a, (k0_off552 v282) a + S1x64.size a ≤ S100000x64.size a := fun v282 k0_hw277 => k0_hw277.1
theorem k0_off686_inb : ∀ (v282 : BitVec 32) (k0_hw277 : k0_chk277 v282), ∀ a, (k0_off686 v282) a + S1x64.size a ≤ S100000x64.size a := fun v282 k0_hw277 => k0_hw277.2

def k0_off687 (v292 : BitVec 32) : Fin 2 → Nat :=
  let c0_i32_1739 : BitVec 32 := 0#32
  ![v292.toNat, 0]

def k0_chk278 (v292 : BitVec 32) : Prop :=
  (∀ a, (k0_off553 v292) a + S1x64.size a ≤ S100000x64.size a) ∧
  (∀ a, (k0_off687 v292) a + S1x64.size a ≤ S100000x64.size a)
instance k0_chk278.dec : ∀ (v292 : BitVec 32), Decidable (k0_chk278 v292) := fun v292 => decidable_of_iff' _ (Iff.of_eq (k0_chk278.eq_1 v292))
theorem k0_off553_inb : ∀ (v292 : BitVec 32) (k0_hw278 : k0_chk278 v292), ∀ a, (k0_off553 v292) a + S1x64.size a ≤ S100000x64.size a := fun v292 k0_hw278 => k0_hw278.1
theorem k0_off687_inb : ∀ (v292 : BitVec 32) (k0_hw278 : k0_chk278 v292), ∀ a, (k0_off687 v292) a + S1x64.size a ≤ S100000x64.size a := fun v292 k0_hw278 => k0_hw278.2

def k0_off688 (v302 : BitVec 32) : Fin 2 → Nat :=
  let c0_i32_1750 : BitVec 32 := 0#32
  ![v302.toNat, 0]

def k0_chk279 (v302 : BitVec 32) : Prop :=
  (∀ a, (k0_off554 v302) a + S1x64.size a ≤ S100000x64.size a) ∧
  (∀ a, (k0_off688 v302) a + S1x64.size a ≤ S100000x64.size a)
instance k0_chk279.dec : ∀ (v302 : BitVec 32), Decidable (k0_chk279 v302) := fun v302 => decidable_of_iff' _ (Iff.of_eq (k0_chk279.eq_1 v302))
theorem k0_off554_inb : ∀ (v302 : BitVec 32) (k0_hw279 : k0_chk279 v302), ∀ a, (k0_off554 v302) a + S1x64.size a ≤ S100000x64.size a := fun v302 k0_hw279 => k0_hw279.1
theorem k0_off688_inb : ∀ (v302 : BitVec 32) (k0_hw279 : k0_chk279 v302), ∀ a, (k0_off688 v302) a + S1x64.size a ≤ S100000x64.size a := fun v302 k0_hw279 => k0_hw279.2

def k0_off689 (v312 : BitVec 32) : Fin 2 → Nat :=
  let c0_i32_1761 : BitVec 32 := 0#32
  ![v312.toNat, 0]

def k0_chk280 (v312 : BitVec 32) : Prop :=
  (∀ a, (k0_off555 v312) a + S1x64.size a ≤ S100000x64.size a) ∧
  (∀ a, (k0_off689 v312) a + S1x64.size a ≤ S100000x64.size a)
instance k0_chk280.dec : ∀ (v312 : BitVec 32), Decidable (k0_chk280 v312) := fun v312 => decidable_of_iff' _ (Iff.of_eq (k0_chk280.eq_1 v312))
theorem k0_off555_inb : ∀ (v312 : BitVec 32) (k0_hw280 : k0_chk280 v312), ∀ a, (k0_off555 v312) a + S1x64.size a ≤ S100000x64.size a := fun v312 k0_hw280 => k0_hw280.1
theorem k0_off689_inb : ∀ (v312 : BitVec 32) (k0_hw280 : k0_chk280 v312), ∀ a, (k0_off689 v312) a + S1x64.size a ≤ S100000x64.size a := fun v312 k0_hw280 => k0_hw280.2

def k0_off690 (v322 : BitVec 32) : Fin 2 → Nat :=
  let c0_i32_1772 : BitVec 32 := 0#32
  ![v322.toNat, 0]

def k0_chk281 (v322 : BitVec 32) : Prop :=
  (∀ a, (k0_off556 v322) a + S1x64.size a ≤ S100000x64.size a) ∧
  (∀ a, (k0_off690 v322) a + S1x64.size a ≤ S100000x64.size a)
instance k0_chk281.dec : ∀ (v322 : BitVec 32), Decidable (k0_chk281 v322) := fun v322 => decidable_of_iff' _ (Iff.of_eq (k0_chk281.eq_1 v322))
theorem k0_off556_inb : ∀ (v322 : BitVec 32) (k0_hw281 : k0_chk281 v322), ∀ a, (k0_off556 v322) a + S1x64.size a ≤ S100000x64.size a := fun v322 k0_hw281 => k0_hw281.1
theorem k0_off690_inb : ∀ (v322 : BitVec 32) (k0_hw281 : k0_chk281 v322), ∀ a, (k0_off690 v322) a + S1x64.size a ≤ S100000x64.size a := fun v322 k0_hw281 => k0_hw281.2

def k0_off691 (v332 : BitVec 32) : Fin 2 → Nat :=
  let c0_i32_1783 : BitVec 32 := 0#32
  ![v332.toNat, 0]

def k0_chk282 (v332 : BitVec 32) : Prop :=
  (∀ a, (k0_off557 v332) a + S1x64.size a ≤ S100000x64.size a) ∧
  (∀ a, (k0_off691 v332) a + S1x64.size a ≤ S100000x64.size a)
instance k0_chk282.dec : ∀ (v332 : BitVec 32), Decidable (k0_chk282 v332) := fun v332 => decidable_of_iff' _ (Iff.of_eq (k0_chk282.eq_1 v332))
theorem k0_off557_inb : ∀ (v332 : BitVec 32) (k0_hw282 : k0_chk282 v332), ∀ a, (k0_off557 v332) a + S1x64.size a ≤ S100000x64.size a := fun v332 k0_hw282 => k0_hw282.1
theorem k0_off691_inb : ∀ (v332 : BitVec 32) (k0_hw282 : k0_chk282 v332), ∀ a, (k0_off691 v332) a + S1x64.size a ≤ S100000x64.size a := fun v332 k0_hw282 => k0_hw282.2

def k0_off692 (v342 : BitVec 32) : Fin 2 → Nat :=
  let c0_i32_1794 : BitVec 32 := 0#32
  ![v342.toNat, 0]

def k0_chk283 (v342 : BitVec 32) : Prop :=
  (∀ a, (k0_off558 v342) a + S1x64.size a ≤ S100000x64.size a) ∧
  (∀ a, (k0_off692 v342) a + S1x64.size a ≤ S100000x64.size a)
instance k0_chk283.dec : ∀ (v342 : BitVec 32), Decidable (k0_chk283 v342) := fun v342 => decidable_of_iff' _ (Iff.of_eq (k0_chk283.eq_1 v342))
theorem k0_off558_inb : ∀ (v342 : BitVec 32) (k0_hw283 : k0_chk283 v342), ∀ a, (k0_off558 v342) a + S1x64.size a ≤ S100000x64.size a := fun v342 k0_hw283 => k0_hw283.1
theorem k0_off692_inb : ∀ (v342 : BitVec 32) (k0_hw283 : k0_chk283 v342), ∀ a, (k0_off692 v342) a + S1x64.size a ≤ S100000x64.size a := fun v342 k0_hw283 => k0_hw283.2

def k0_off693 (v352 : BitVec 32) : Fin 2 → Nat :=
  let c0_i32_1805 : BitVec 32 := 0#32
  ![v352.toNat, 0]

def k0_chk284 (v352 : BitVec 32) : Prop :=
  (∀ a, (k0_off559 v352) a + S1x64.size a ≤ S100000x64.size a) ∧
  (∀ a, (k0_off693 v352) a + S1x64.size a ≤ S100000x64.size a)
instance k0_chk284.dec : ∀ (v352 : BitVec 32), Decidable (k0_chk284 v352) := fun v352 => decidable_of_iff' _ (Iff.of_eq (k0_chk284.eq_1 v352))
theorem k0_off559_inb : ∀ (v352 : BitVec 32) (k0_hw284 : k0_chk284 v352), ∀ a, (k0_off559 v352) a + S1x64.size a ≤ S100000x64.size a := fun v352 k0_hw284 => k0_hw284.1
theorem k0_off693_inb : ∀ (v352 : BitVec 32) (k0_hw284 : k0_chk284 v352), ∀ a, (k0_off693 v352) a + S1x64.size a ≤ S100000x64.size a := fun v352 k0_hw284 => k0_hw284.2

def k0_off694 (v362 : BitVec 32) : Fin 2 → Nat :=
  let c0_i32_1816 : BitVec 32 := 0#32
  ![v362.toNat, 0]

def k0_chk285 (v362 : BitVec 32) : Prop :=
  (∀ a, (k0_off560 v362) a + S1x64.size a ≤ S100000x64.size a) ∧
  (∀ a, (k0_off694 v362) a + S1x64.size a ≤ S100000x64.size a)
instance k0_chk285.dec : ∀ (v362 : BitVec 32), Decidable (k0_chk285 v362) := fun v362 => decidable_of_iff' _ (Iff.of_eq (k0_chk285.eq_1 v362))
theorem k0_off560_inb : ∀ (v362 : BitVec 32) (k0_hw285 : k0_chk285 v362), ∀ a, (k0_off560 v362) a + S1x64.size a ≤ S100000x64.size a := fun v362 k0_hw285 => k0_hw285.1
theorem k0_off694_inb : ∀ (v362 : BitVec 32) (k0_hw285 : k0_chk285 v362), ∀ a, (k0_off694 v362) a + S1x64.size a ≤ S100000x64.size a := fun v362 k0_hw285 => k0_hw285.2

def k0_off695 (v372 : BitVec 32) : Fin 2 → Nat :=
  let c0_i32_1827 : BitVec 32 := 0#32
  ![v372.toNat, 0]

def k0_chk286 (v372 : BitVec 32) : Prop :=
  (∀ a, (k0_off561 v372) a + S1x64.size a ≤ S100000x64.size a) ∧
  (∀ a, (k0_off695 v372) a + S1x64.size a ≤ S100000x64.size a)
instance k0_chk286.dec : ∀ (v372 : BitVec 32), Decidable (k0_chk286 v372) := fun v372 => decidable_of_iff' _ (Iff.of_eq (k0_chk286.eq_1 v372))
theorem k0_off561_inb : ∀ (v372 : BitVec 32) (k0_hw286 : k0_chk286 v372), ∀ a, (k0_off561 v372) a + S1x64.size a ≤ S100000x64.size a := fun v372 k0_hw286 => k0_hw286.1
theorem k0_off695_inb : ∀ (v372 : BitVec 32) (k0_hw286 : k0_chk286 v372), ∀ a, (k0_off695 v372) a + S1x64.size a ≤ S100000x64.size a := fun v372 k0_hw286 => k0_hw286.2

def k0_off696 (v382 : BitVec 32) : Fin 2 → Nat :=
  let c0_i32_1838 : BitVec 32 := 0#32
  ![v382.toNat, 0]

def k0_chk287 (v382 : BitVec 32) : Prop :=
  (∀ a, (k0_off562 v382) a + S1x64.size a ≤ S100000x64.size a) ∧
  (∀ a, (k0_off696 v382) a + S1x64.size a ≤ S100000x64.size a)
instance k0_chk287.dec : ∀ (v382 : BitVec 32), Decidable (k0_chk287 v382) := fun v382 => decidable_of_iff' _ (Iff.of_eq (k0_chk287.eq_1 v382))
theorem k0_off562_inb : ∀ (v382 : BitVec 32) (k0_hw287 : k0_chk287 v382), ∀ a, (k0_off562 v382) a + S1x64.size a ≤ S100000x64.size a := fun v382 k0_hw287 => k0_hw287.1
theorem k0_off696_inb : ∀ (v382 : BitVec 32) (k0_hw287 : k0_chk287 v382), ∀ a, (k0_off696 v382) a + S1x64.size a ≤ S100000x64.size a := fun v382 k0_hw287 => k0_hw287.2

def k0_off697 (v392 : BitVec 32) : Fin 2 → Nat :=
  let c0_i32_1849 : BitVec 32 := 0#32
  ![v392.toNat, 0]

def k0_chk288 (v392 : BitVec 32) : Prop :=
  (∀ a, (k0_off563 v392) a + S1x64.size a ≤ S100000x64.size a) ∧
  (∀ a, (k0_off697 v392) a + S1x64.size a ≤ S100000x64.size a)
instance k0_chk288.dec : ∀ (v392 : BitVec 32), Decidable (k0_chk288 v392) := fun v392 => decidable_of_iff' _ (Iff.of_eq (k0_chk288.eq_1 v392))
theorem k0_off563_inb : ∀ (v392 : BitVec 32) (k0_hw288 : k0_chk288 v392), ∀ a, (k0_off563 v392) a + S1x64.size a ≤ S100000x64.size a := fun v392 k0_hw288 => k0_hw288.1
theorem k0_off697_inb : ∀ (v392 : BitVec 32) (k0_hw288 : k0_chk288 v392), ∀ a, (k0_off697 v392) a + S1x64.size a ≤ S100000x64.size a := fun v392 k0_hw288 => k0_hw288.2

def k0_off698 (v437 : BitVec 32) : Fin 2 → Nat :=
  let c0_i32_1860 : BitVec 32 := 0#32
  ![v437.toNat, 0]

def k0_chk289 (v437 : BitVec 32) : Prop :=
  (∀ a, (k0_off565 v437) a + S1x64.size a ≤ S100000x64.size a) ∧
  (∀ a, (k0_off698 v437) a + S1x64.size a ≤ S100000x64.size a)
instance k0_chk289.dec : ∀ (v437 : BitVec 32), Decidable (k0_chk289 v437) := fun v437 => decidable_of_iff' _ (Iff.of_eq (k0_chk289.eq_1 v437))
theorem k0_off565_inb : ∀ (v437 : BitVec 32) (k0_hw289 : k0_chk289 v437), ∀ a, (k0_off565 v437) a + S1x64.size a ≤ S100000x64.size a := fun v437 k0_hw289 => k0_hw289.1
theorem k0_off698_inb : ∀ (v437 : BitVec 32) (k0_hw289 : k0_chk289 v437), ∀ a, (k0_off698 v437) a + S1x64.size a ≤ S100000x64.size a := fun v437 k0_hw289 => k0_hw289.2

def k0_off699 (v447 : BitVec 32) : Fin 2 → Nat :=
  let c0_i32_1871 : BitVec 32 := 0#32
  ![v447.toNat, 0]

def k0_chk290 (v447 : BitVec 32) : Prop :=
  (∀ a, (k0_off566 v447) a + S1x64.size a ≤ S100000x64.size a) ∧
  (∀ a, (k0_off699 v447) a + S1x64.size a ≤ S100000x64.size a)
instance k0_chk290.dec : ∀ (v447 : BitVec 32), Decidable (k0_chk290 v447) := fun v447 => decidable_of_iff' _ (Iff.of_eq (k0_chk290.eq_1 v447))
theorem k0_off566_inb : ∀ (v447 : BitVec 32) (k0_hw290 : k0_chk290 v447), ∀ a, (k0_off566 v447) a + S1x64.size a ≤ S100000x64.size a := fun v447 k0_hw290 => k0_hw290.1
theorem k0_off699_inb : ∀ (v447 : BitVec 32) (k0_hw290 : k0_chk290 v447), ∀ a, (k0_off699 v447) a + S1x64.size a ≤ S100000x64.size a := fun v447 k0_hw290 => k0_hw290.2

def k0_off700 (v457 : BitVec 32) : Fin 2 → Nat :=
  let c0_i32_1882 : BitVec 32 := 0#32
  ![v457.toNat, 0]

def k0_chk291 (v457 : BitVec 32) : Prop :=
  (∀ a, (k0_off567 v457) a + S1x64.size a ≤ S100000x64.size a) ∧
  (∀ a, (k0_off700 v457) a + S1x64.size a ≤ S100000x64.size a)
instance k0_chk291.dec : ∀ (v457 : BitVec 32), Decidable (k0_chk291 v457) := fun v457 => decidable_of_iff' _ (Iff.of_eq (k0_chk291.eq_1 v457))
theorem k0_off567_inb : ∀ (v457 : BitVec 32) (k0_hw291 : k0_chk291 v457), ∀ a, (k0_off567 v457) a + S1x64.size a ≤ S100000x64.size a := fun v457 k0_hw291 => k0_hw291.1
theorem k0_off700_inb : ∀ (v457 : BitVec 32) (k0_hw291 : k0_chk291 v457), ∀ a, (k0_off700 v457) a + S1x64.size a ≤ S100000x64.size a := fun v457 k0_hw291 => k0_hw291.2

def k0_off701 (v467 : BitVec 32) : Fin 2 → Nat :=
  let c0_i32_1893 : BitVec 32 := 0#32
  ![v467.toNat, 0]

def k0_chk292 (v467 : BitVec 32) : Prop :=
  (∀ a, (k0_off568 v467) a + S1x64.size a ≤ S100000x64.size a) ∧
  (∀ a, (k0_off701 v467) a + S1x64.size a ≤ S100000x64.size a)
instance k0_chk292.dec : ∀ (v467 : BitVec 32), Decidable (k0_chk292 v467) := fun v467 => decidable_of_iff' _ (Iff.of_eq (k0_chk292.eq_1 v467))
theorem k0_off568_inb : ∀ (v467 : BitVec 32) (k0_hw292 : k0_chk292 v467), ∀ a, (k0_off568 v467) a + S1x64.size a ≤ S100000x64.size a := fun v467 k0_hw292 => k0_hw292.1
theorem k0_off701_inb : ∀ (v467 : BitVec 32) (k0_hw292 : k0_chk292 v467), ∀ a, (k0_off701 v467) a + S1x64.size a ≤ S100000x64.size a := fun v467 k0_hw292 => k0_hw292.2

def k0_off702 (v477 : BitVec 32) : Fin 2 → Nat :=
  let c0_i32_1904 : BitVec 32 := 0#32
  ![v477.toNat, 0]

def k0_chk293 (v477 : BitVec 32) : Prop :=
  (∀ a, (k0_off569 v477) a + S1x64.size a ≤ S100000x64.size a) ∧
  (∀ a, (k0_off702 v477) a + S1x64.size a ≤ S100000x64.size a)
instance k0_chk293.dec : ∀ (v477 : BitVec 32), Decidable (k0_chk293 v477) := fun v477 => decidable_of_iff' _ (Iff.of_eq (k0_chk293.eq_1 v477))
theorem k0_off569_inb : ∀ (v477 : BitVec 32) (k0_hw293 : k0_chk293 v477), ∀ a, (k0_off569 v477) a + S1x64.size a ≤ S100000x64.size a := fun v477 k0_hw293 => k0_hw293.1
theorem k0_off702_inb : ∀ (v477 : BitVec 32) (k0_hw293 : k0_chk293 v477), ∀ a, (k0_off702 v477) a + S1x64.size a ≤ S100000x64.size a := fun v477 k0_hw293 => k0_hw293.2

def k0_off703 (v487 : BitVec 32) : Fin 2 → Nat :=
  let c0_i32_1915 : BitVec 32 := 0#32
  ![v487.toNat, 0]

def k0_chk294 (v487 : BitVec 32) : Prop :=
  (∀ a, (k0_off570 v487) a + S1x64.size a ≤ S100000x64.size a) ∧
  (∀ a, (k0_off703 v487) a + S1x64.size a ≤ S100000x64.size a)
instance k0_chk294.dec : ∀ (v487 : BitVec 32), Decidable (k0_chk294 v487) := fun v487 => decidable_of_iff' _ (Iff.of_eq (k0_chk294.eq_1 v487))
theorem k0_off570_inb : ∀ (v487 : BitVec 32) (k0_hw294 : k0_chk294 v487), ∀ a, (k0_off570 v487) a + S1x64.size a ≤ S100000x64.size a := fun v487 k0_hw294 => k0_hw294.1
theorem k0_off703_inb : ∀ (v487 : BitVec 32) (k0_hw294 : k0_chk294 v487), ∀ a, (k0_off703 v487) a + S1x64.size a ≤ S100000x64.size a := fun v487 k0_hw294 => k0_hw294.2

def k0_off704 (v497 : BitVec 32) : Fin 2 → Nat :=
  let c0_i32_1926 : BitVec 32 := 0#32
  ![v497.toNat, 0]

def k0_chk295 (v497 : BitVec 32) : Prop :=
  (∀ a, (k0_off571 v497) a + S1x64.size a ≤ S100000x64.size a) ∧
  (∀ a, (k0_off704 v497) a + S1x64.size a ≤ S100000x64.size a)
instance k0_chk295.dec : ∀ (v497 : BitVec 32), Decidable (k0_chk295 v497) := fun v497 => decidable_of_iff' _ (Iff.of_eq (k0_chk295.eq_1 v497))
theorem k0_off571_inb : ∀ (v497 : BitVec 32) (k0_hw295 : k0_chk295 v497), ∀ a, (k0_off571 v497) a + S1x64.size a ≤ S100000x64.size a := fun v497 k0_hw295 => k0_hw295.1
theorem k0_off704_inb : ∀ (v497 : BitVec 32) (k0_hw295 : k0_chk295 v497), ∀ a, (k0_off704 v497) a + S1x64.size a ≤ S100000x64.size a := fun v497 k0_hw295 => k0_hw295.2

def k0_off705 (v507 : BitVec 32) : Fin 2 → Nat :=
  let c0_i32_1937 : BitVec 32 := 0#32
  ![v507.toNat, 0]

def k0_chk296 (v507 : BitVec 32) : Prop :=
  (∀ a, (k0_off572 v507) a + S1x64.size a ≤ S100000x64.size a) ∧
  (∀ a, (k0_off705 v507) a + S1x64.size a ≤ S100000x64.size a)
instance k0_chk296.dec : ∀ (v507 : BitVec 32), Decidable (k0_chk296 v507) := fun v507 => decidable_of_iff' _ (Iff.of_eq (k0_chk296.eq_1 v507))
theorem k0_off572_inb : ∀ (v507 : BitVec 32) (k0_hw296 : k0_chk296 v507), ∀ a, (k0_off572 v507) a + S1x64.size a ≤ S100000x64.size a := fun v507 k0_hw296 => k0_hw296.1
theorem k0_off705_inb : ∀ (v507 : BitVec 32) (k0_hw296 : k0_chk296 v507), ∀ a, (k0_off705 v507) a + S1x64.size a ≤ S100000x64.size a := fun v507 k0_hw296 => k0_hw296.2

def k0_off706 (v517 : BitVec 32) : Fin 2 → Nat :=
  let c0_i32_1948 : BitVec 32 := 0#32
  ![v517.toNat, 0]

def k0_chk297 (v517 : BitVec 32) : Prop :=
  (∀ a, (k0_off573 v517) a + S1x64.size a ≤ S100000x64.size a) ∧
  (∀ a, (k0_off706 v517) a + S1x64.size a ≤ S100000x64.size a)
instance k0_chk297.dec : ∀ (v517 : BitVec 32), Decidable (k0_chk297 v517) := fun v517 => decidable_of_iff' _ (Iff.of_eq (k0_chk297.eq_1 v517))
theorem k0_off573_inb : ∀ (v517 : BitVec 32) (k0_hw297 : k0_chk297 v517), ∀ a, (k0_off573 v517) a + S1x64.size a ≤ S100000x64.size a := fun v517 k0_hw297 => k0_hw297.1
theorem k0_off706_inb : ∀ (v517 : BitVec 32) (k0_hw297 : k0_chk297 v517), ∀ a, (k0_off706 v517) a + S1x64.size a ≤ S100000x64.size a := fun v517 k0_hw297 => k0_hw297.2

def k0_off707 (v527 : BitVec 32) : Fin 2 → Nat :=
  let c0_i32_1959 : BitVec 32 := 0#32
  ![v527.toNat, 0]

def k0_chk298 (v527 : BitVec 32) : Prop :=
  (∀ a, (k0_off574 v527) a + S1x64.size a ≤ S100000x64.size a) ∧
  (∀ a, (k0_off707 v527) a + S1x64.size a ≤ S100000x64.size a)
instance k0_chk298.dec : ∀ (v527 : BitVec 32), Decidable (k0_chk298 v527) := fun v527 => decidable_of_iff' _ (Iff.of_eq (k0_chk298.eq_1 v527))
theorem k0_off574_inb : ∀ (v527 : BitVec 32) (k0_hw298 : k0_chk298 v527), ∀ a, (k0_off574 v527) a + S1x64.size a ≤ S100000x64.size a := fun v527 k0_hw298 => k0_hw298.1
theorem k0_off707_inb : ∀ (v527 : BitVec 32) (k0_hw298 : k0_chk298 v527), ∀ a, (k0_off707 v527) a + S1x64.size a ≤ S100000x64.size a := fun v527 k0_hw298 => k0_hw298.2

def k0_off708 (v537 : BitVec 32) : Fin 2 → Nat :=
  let c0_i32_1970 : BitVec 32 := 0#32
  ![v537.toNat, 0]

def k0_chk299 (v537 : BitVec 32) : Prop :=
  (∀ a, (k0_off575 v537) a + S1x64.size a ≤ S100000x64.size a) ∧
  (∀ a, (k0_off708 v537) a + S1x64.size a ≤ S100000x64.size a)
instance k0_chk299.dec : ∀ (v537 : BitVec 32), Decidable (k0_chk299 v537) := fun v537 => decidable_of_iff' _ (Iff.of_eq (k0_chk299.eq_1 v537))
theorem k0_off575_inb : ∀ (v537 : BitVec 32) (k0_hw299 : k0_chk299 v537), ∀ a, (k0_off575 v537) a + S1x64.size a ≤ S100000x64.size a := fun v537 k0_hw299 => k0_hw299.1
theorem k0_off708_inb : ∀ (v537 : BitVec 32) (k0_hw299 : k0_chk299 v537), ∀ a, (k0_off708 v537) a + S1x64.size a ≤ S100000x64.size a := fun v537 k0_hw299 => k0_hw299.2

def k0_off709 (v547 : BitVec 32) : Fin 2 → Nat :=
  let c0_i32_1981 : BitVec 32 := 0#32
  ![v547.toNat, 0]

def k0_chk300 (v547 : BitVec 32) : Prop :=
  (∀ a, (k0_off576 v547) a + S1x64.size a ≤ S100000x64.size a) ∧
  (∀ a, (k0_off709 v547) a + S1x64.size a ≤ S100000x64.size a)
instance k0_chk300.dec : ∀ (v547 : BitVec 32), Decidable (k0_chk300 v547) := fun v547 => decidable_of_iff' _ (Iff.of_eq (k0_chk300.eq_1 v547))
theorem k0_off576_inb : ∀ (v547 : BitVec 32) (k0_hw300 : k0_chk300 v547), ∀ a, (k0_off576 v547) a + S1x64.size a ≤ S100000x64.size a := fun v547 k0_hw300 => k0_hw300.1
theorem k0_off709_inb : ∀ (v547 : BitVec 32) (k0_hw300 : k0_chk300 v547), ∀ a, (k0_off709 v547) a + S1x64.size a ≤ S100000x64.size a := fun v547 k0_hw300 => k0_hw300.2

def k0_off710 (v557 : BitVec 32) : Fin 2 → Nat :=
  let c0_i32_1992 : BitVec 32 := 0#32
  ![v557.toNat, 0]

def k0_chk301 (v557 : BitVec 32) : Prop :=
  (∀ a, (k0_off577 v557) a + S1x64.size a ≤ S100000x64.size a) ∧
  (∀ a, (k0_off710 v557) a + S1x64.size a ≤ S100000x64.size a)
instance k0_chk301.dec : ∀ (v557 : BitVec 32), Decidable (k0_chk301 v557) := fun v557 => decidable_of_iff' _ (Iff.of_eq (k0_chk301.eq_1 v557))
theorem k0_off577_inb : ∀ (v557 : BitVec 32) (k0_hw301 : k0_chk301 v557), ∀ a, (k0_off577 v557) a + S1x64.size a ≤ S100000x64.size a := fun v557 k0_hw301 => k0_hw301.1
theorem k0_off710_inb : ∀ (v557 : BitVec 32) (k0_hw301 : k0_chk301 v557), ∀ a, (k0_off710 v557) a + S1x64.size a ≤ S100000x64.size a := fun v557 k0_hw301 => k0_hw301.2

def k0_off711 (v567 : BitVec 32) : Fin 2 → Nat :=
  let c0_i32_2003 : BitVec 32 := 0#32
  ![v567.toNat, 0]

def k0_chk302 (v567 : BitVec 32) : Prop :=
  (∀ a, (k0_off578 v567) a + S1x64.size a ≤ S100000x64.size a) ∧
  (∀ a, (k0_off711 v567) a + S1x64.size a ≤ S100000x64.size a)
instance k0_chk302.dec : ∀ (v567 : BitVec 32), Decidable (k0_chk302 v567) := fun v567 => decidable_of_iff' _ (Iff.of_eq (k0_chk302.eq_1 v567))
theorem k0_off578_inb : ∀ (v567 : BitVec 32) (k0_hw302 : k0_chk302 v567), ∀ a, (k0_off578 v567) a + S1x64.size a ≤ S100000x64.size a := fun v567 k0_hw302 => k0_hw302.1
theorem k0_off711_inb : ∀ (v567 : BitVec 32) (k0_hw302 : k0_chk302 v567), ∀ a, (k0_off711 v567) a + S1x64.size a ≤ S100000x64.size a := fun v567 k0_hw302 => k0_hw302.2

def k0_off712 (v577 : BitVec 32) : Fin 2 → Nat :=
  let c0_i32_2014 : BitVec 32 := 0#32
  ![v577.toNat, 0]

def k0_chk303 (v577 : BitVec 32) : Prop :=
  (∀ a, (k0_off579 v577) a + S1x64.size a ≤ S100000x64.size a) ∧
  (∀ a, (k0_off712 v577) a + S1x64.size a ≤ S100000x64.size a)
instance k0_chk303.dec : ∀ (v577 : BitVec 32), Decidable (k0_chk303 v577) := fun v577 => decidable_of_iff' _ (Iff.of_eq (k0_chk303.eq_1 v577))
theorem k0_off579_inb : ∀ (v577 : BitVec 32) (k0_hw303 : k0_chk303 v577), ∀ a, (k0_off579 v577) a + S1x64.size a ≤ S100000x64.size a := fun v577 k0_hw303 => k0_hw303.1
theorem k0_off712_inb : ∀ (v577 : BitVec 32) (k0_hw303 : k0_chk303 v577), ∀ a, (k0_off712 v577) a + S1x64.size a ≤ S100000x64.size a := fun v577 k0_hw303 => k0_hw303.2

def k0_off713 (v587 : BitVec 32) : Fin 2 → Nat :=
  let c0_i32_2025 : BitVec 32 := 0#32
  ![v587.toNat, 0]

def k0_chk304 (v587 : BitVec 32) : Prop :=
  (∀ a, (k0_off580 v587) a + S1x64.size a ≤ S100000x64.size a) ∧
  (∀ a, (k0_off713 v587) a + S1x64.size a ≤ S100000x64.size a)
instance k0_chk304.dec : ∀ (v587 : BitVec 32), Decidable (k0_chk304 v587) := fun v587 => decidable_of_iff' _ (Iff.of_eq (k0_chk304.eq_1 v587))
theorem k0_off580_inb : ∀ (v587 : BitVec 32) (k0_hw304 : k0_chk304 v587), ∀ a, (k0_off580 v587) a + S1x64.size a ≤ S100000x64.size a := fun v587 k0_hw304 => k0_hw304.1
theorem k0_off713_inb : ∀ (v587 : BitVec 32) (k0_hw304 : k0_chk304 v587), ∀ a, (k0_off713 v587) a + S1x64.size a ≤ S100000x64.size a := fun v587 k0_hw304 => k0_hw304.2

def k0_off714 (v632 : BitVec 32) : Fin 2 → Nat :=
  let c0_i32_2036 : BitVec 32 := 0#32
  ![v632.toNat, 0]

def k0_chk305 (v632 : BitVec 32) : Prop :=
  (∀ a, (k0_off582 v632) a + S1x64.size a ≤ S100000x64.size a) ∧
  (∀ a, (k0_off714 v632) a + S1x64.size a ≤ S100000x64.size a)
instance k0_chk305.dec : ∀ (v632 : BitVec 32), Decidable (k0_chk305 v632) := fun v632 => decidable_of_iff' _ (Iff.of_eq (k0_chk305.eq_1 v632))
theorem k0_off582_inb : ∀ (v632 : BitVec 32) (k0_hw305 : k0_chk305 v632), ∀ a, (k0_off582 v632) a + S1x64.size a ≤ S100000x64.size a := fun v632 k0_hw305 => k0_hw305.1
theorem k0_off714_inb : ∀ (v632 : BitVec 32) (k0_hw305 : k0_chk305 v632), ∀ a, (k0_off714 v632) a + S1x64.size a ≤ S100000x64.size a := fun v632 k0_hw305 => k0_hw305.2

def k0_off715 (v642 : BitVec 32) : Fin 2 → Nat :=
  let c0_i32_2047 : BitVec 32 := 0#32
  ![v642.toNat, 0]

def k0_chk306 (v642 : BitVec 32) : Prop :=
  (∀ a, (k0_off583 v642) a + S1x64.size a ≤ S100000x64.size a) ∧
  (∀ a, (k0_off715 v642) a + S1x64.size a ≤ S100000x64.size a)
instance k0_chk306.dec : ∀ (v642 : BitVec 32), Decidable (k0_chk306 v642) := fun v642 => decidable_of_iff' _ (Iff.of_eq (k0_chk306.eq_1 v642))
theorem k0_off583_inb : ∀ (v642 : BitVec 32) (k0_hw306 : k0_chk306 v642), ∀ a, (k0_off583 v642) a + S1x64.size a ≤ S100000x64.size a := fun v642 k0_hw306 => k0_hw306.1
theorem k0_off715_inb : ∀ (v642 : BitVec 32) (k0_hw306 : k0_chk306 v642), ∀ a, (k0_off715 v642) a + S1x64.size a ≤ S100000x64.size a := fun v642 k0_hw306 => k0_hw306.2

def k0_off716 (v652 : BitVec 32) : Fin 2 → Nat :=
  let c0_i32_2058 : BitVec 32 := 0#32
  ![v652.toNat, 0]

def k0_chk307 (v652 : BitVec 32) : Prop :=
  (∀ a, (k0_off584 v652) a + S1x64.size a ≤ S100000x64.size a) ∧
  (∀ a, (k0_off716 v652) a + S1x64.size a ≤ S100000x64.size a)
instance k0_chk307.dec : ∀ (v652 : BitVec 32), Decidable (k0_chk307 v652) := fun v652 => decidable_of_iff' _ (Iff.of_eq (k0_chk307.eq_1 v652))
theorem k0_off584_inb : ∀ (v652 : BitVec 32) (k0_hw307 : k0_chk307 v652), ∀ a, (k0_off584 v652) a + S1x64.size a ≤ S100000x64.size a := fun v652 k0_hw307 => k0_hw307.1
theorem k0_off716_inb : ∀ (v652 : BitVec 32) (k0_hw307 : k0_chk307 v652), ∀ a, (k0_off716 v652) a + S1x64.size a ≤ S100000x64.size a := fun v652 k0_hw307 => k0_hw307.2

def k0_off717 (v662 : BitVec 32) : Fin 2 → Nat :=
  let c0_i32_2069 : BitVec 32 := 0#32
  ![v662.toNat, 0]

def k0_chk308 (v662 : BitVec 32) : Prop :=
  (∀ a, (k0_off585 v662) a + S1x64.size a ≤ S100000x64.size a) ∧
  (∀ a, (k0_off717 v662) a + S1x64.size a ≤ S100000x64.size a)
instance k0_chk308.dec : ∀ (v662 : BitVec 32), Decidable (k0_chk308 v662) := fun v662 => decidable_of_iff' _ (Iff.of_eq (k0_chk308.eq_1 v662))
theorem k0_off585_inb : ∀ (v662 : BitVec 32) (k0_hw308 : k0_chk308 v662), ∀ a, (k0_off585 v662) a + S1x64.size a ≤ S100000x64.size a := fun v662 k0_hw308 => k0_hw308.1
theorem k0_off717_inb : ∀ (v662 : BitVec 32) (k0_hw308 : k0_chk308 v662), ∀ a, (k0_off717 v662) a + S1x64.size a ≤ S100000x64.size a := fun v662 k0_hw308 => k0_hw308.2

def k0_off718 (v672 : BitVec 32) : Fin 2 → Nat :=
  let c0_i32_2080 : BitVec 32 := 0#32
  ![v672.toNat, 0]

def k0_chk309 (v672 : BitVec 32) : Prop :=
  (∀ a, (k0_off586 v672) a + S1x64.size a ≤ S100000x64.size a) ∧
  (∀ a, (k0_off718 v672) a + S1x64.size a ≤ S100000x64.size a)
instance k0_chk309.dec : ∀ (v672 : BitVec 32), Decidable (k0_chk309 v672) := fun v672 => decidable_of_iff' _ (Iff.of_eq (k0_chk309.eq_1 v672))
theorem k0_off586_inb : ∀ (v672 : BitVec 32) (k0_hw309 : k0_chk309 v672), ∀ a, (k0_off586 v672) a + S1x64.size a ≤ S100000x64.size a := fun v672 k0_hw309 => k0_hw309.1
theorem k0_off718_inb : ∀ (v672 : BitVec 32) (k0_hw309 : k0_chk309 v672), ∀ a, (k0_off718 v672) a + S1x64.size a ≤ S100000x64.size a := fun v672 k0_hw309 => k0_hw309.2

def k0_off719 (v682 : BitVec 32) : Fin 2 → Nat :=
  let c0_i32_2091 : BitVec 32 := 0#32
  ![v682.toNat, 0]

def k0_chk310 (v682 : BitVec 32) : Prop :=
  (∀ a, (k0_off587 v682) a + S1x64.size a ≤ S100000x64.size a) ∧
  (∀ a, (k0_off719 v682) a + S1x64.size a ≤ S100000x64.size a)
instance k0_chk310.dec : ∀ (v682 : BitVec 32), Decidable (k0_chk310 v682) := fun v682 => decidable_of_iff' _ (Iff.of_eq (k0_chk310.eq_1 v682))
theorem k0_off587_inb : ∀ (v682 : BitVec 32) (k0_hw310 : k0_chk310 v682), ∀ a, (k0_off587 v682) a + S1x64.size a ≤ S100000x64.size a := fun v682 k0_hw310 => k0_hw310.1
theorem k0_off719_inb : ∀ (v682 : BitVec 32) (k0_hw310 : k0_chk310 v682), ∀ a, (k0_off719 v682) a + S1x64.size a ≤ S100000x64.size a := fun v682 k0_hw310 => k0_hw310.2

def k0_off720 (v692 : BitVec 32) : Fin 2 → Nat :=
  let c0_i32_2102 : BitVec 32 := 0#32
  ![v692.toNat, 0]

def k0_chk311 (v692 : BitVec 32) : Prop :=
  (∀ a, (k0_off588 v692) a + S1x64.size a ≤ S100000x64.size a) ∧
  (∀ a, (k0_off720 v692) a + S1x64.size a ≤ S100000x64.size a)
instance k0_chk311.dec : ∀ (v692 : BitVec 32), Decidable (k0_chk311 v692) := fun v692 => decidable_of_iff' _ (Iff.of_eq (k0_chk311.eq_1 v692))
theorem k0_off588_inb : ∀ (v692 : BitVec 32) (k0_hw311 : k0_chk311 v692), ∀ a, (k0_off588 v692) a + S1x64.size a ≤ S100000x64.size a := fun v692 k0_hw311 => k0_hw311.1
theorem k0_off720_inb : ∀ (v692 : BitVec 32) (k0_hw311 : k0_chk311 v692), ∀ a, (k0_off720 v692) a + S1x64.size a ≤ S100000x64.size a := fun v692 k0_hw311 => k0_hw311.2

def k0_off721 (v702 : BitVec 32) : Fin 2 → Nat :=
  let c0_i32_2113 : BitVec 32 := 0#32
  ![v702.toNat, 0]

def k0_chk312 (v702 : BitVec 32) : Prop :=
  (∀ a, (k0_off589 v702) a + S1x64.size a ≤ S100000x64.size a) ∧
  (∀ a, (k0_off721 v702) a + S1x64.size a ≤ S100000x64.size a)
instance k0_chk312.dec : ∀ (v702 : BitVec 32), Decidable (k0_chk312 v702) := fun v702 => decidable_of_iff' _ (Iff.of_eq (k0_chk312.eq_1 v702))
theorem k0_off589_inb : ∀ (v702 : BitVec 32) (k0_hw312 : k0_chk312 v702), ∀ a, (k0_off589 v702) a + S1x64.size a ≤ S100000x64.size a := fun v702 k0_hw312 => k0_hw312.1
theorem k0_off721_inb : ∀ (v702 : BitVec 32) (k0_hw312 : k0_chk312 v702), ∀ a, (k0_off721 v702) a + S1x64.size a ≤ S100000x64.size a := fun v702 k0_hw312 => k0_hw312.2

def k0_off722 (v712 : BitVec 32) : Fin 2 → Nat :=
  let c0_i32_2124 : BitVec 32 := 0#32
  ![v712.toNat, 0]

def k0_chk313 (v712 : BitVec 32) : Prop :=
  (∀ a, (k0_off590 v712) a + S1x64.size a ≤ S100000x64.size a) ∧
  (∀ a, (k0_off722 v712) a + S1x64.size a ≤ S100000x64.size a)
instance k0_chk313.dec : ∀ (v712 : BitVec 32), Decidable (k0_chk313 v712) := fun v712 => decidable_of_iff' _ (Iff.of_eq (k0_chk313.eq_1 v712))
theorem k0_off590_inb : ∀ (v712 : BitVec 32) (k0_hw313 : k0_chk313 v712), ∀ a, (k0_off590 v712) a + S1x64.size a ≤ S100000x64.size a := fun v712 k0_hw313 => k0_hw313.1
theorem k0_off722_inb : ∀ (v712 : BitVec 32) (k0_hw313 : k0_chk313 v712), ∀ a, (k0_off722 v712) a + S1x64.size a ≤ S100000x64.size a := fun v712 k0_hw313 => k0_hw313.2

def k0_off723 (v722 : BitVec 32) : Fin 2 → Nat :=
  let c0_i32_2135 : BitVec 32 := 0#32
  ![v722.toNat, 0]

def k0_chk314 (v722 : BitVec 32) : Prop :=
  (∀ a, (k0_off591 v722) a + S1x64.size a ≤ S100000x64.size a) ∧
  (∀ a, (k0_off723 v722) a + S1x64.size a ≤ S100000x64.size a)
instance k0_chk314.dec : ∀ (v722 : BitVec 32), Decidable (k0_chk314 v722) := fun v722 => decidable_of_iff' _ (Iff.of_eq (k0_chk314.eq_1 v722))
theorem k0_off591_inb : ∀ (v722 : BitVec 32) (k0_hw314 : k0_chk314 v722), ∀ a, (k0_off591 v722) a + S1x64.size a ≤ S100000x64.size a := fun v722 k0_hw314 => k0_hw314.1
theorem k0_off723_inb : ∀ (v722 : BitVec 32) (k0_hw314 : k0_chk314 v722), ∀ a, (k0_off723 v722) a + S1x64.size a ≤ S100000x64.size a := fun v722 k0_hw314 => k0_hw314.2

def k0_off724 (v732 : BitVec 32) : Fin 2 → Nat :=
  let c0_i32_2146 : BitVec 32 := 0#32
  ![v732.toNat, 0]

def k0_chk315 (v732 : BitVec 32) : Prop :=
  (∀ a, (k0_off592 v732) a + S1x64.size a ≤ S100000x64.size a) ∧
  (∀ a, (k0_off724 v732) a + S1x64.size a ≤ S100000x64.size a)
instance k0_chk315.dec : ∀ (v732 : BitVec 32), Decidable (k0_chk315 v732) := fun v732 => decidable_of_iff' _ (Iff.of_eq (k0_chk315.eq_1 v732))
theorem k0_off592_inb : ∀ (v732 : BitVec 32) (k0_hw315 : k0_chk315 v732), ∀ a, (k0_off592 v732) a + S1x64.size a ≤ S100000x64.size a := fun v732 k0_hw315 => k0_hw315.1
theorem k0_off724_inb : ∀ (v732 : BitVec 32) (k0_hw315 : k0_chk315 v732), ∀ a, (k0_off724 v732) a + S1x64.size a ≤ S100000x64.size a := fun v732 k0_hw315 => k0_hw315.2

def k0_off725 (v742 : BitVec 32) : Fin 2 → Nat :=
  let c0_i32_2157 : BitVec 32 := 0#32
  ![v742.toNat, 0]

def k0_chk316 (v742 : BitVec 32) : Prop :=
  (∀ a, (k0_off593 v742) a + S1x64.size a ≤ S100000x64.size a) ∧
  (∀ a, (k0_off725 v742) a + S1x64.size a ≤ S100000x64.size a)
instance k0_chk316.dec : ∀ (v742 : BitVec 32), Decidable (k0_chk316 v742) := fun v742 => decidable_of_iff' _ (Iff.of_eq (k0_chk316.eq_1 v742))
theorem k0_off593_inb : ∀ (v742 : BitVec 32) (k0_hw316 : k0_chk316 v742), ∀ a, (k0_off593 v742) a + S1x64.size a ≤ S100000x64.size a := fun v742 k0_hw316 => k0_hw316.1
theorem k0_off725_inb : ∀ (v742 : BitVec 32) (k0_hw316 : k0_chk316 v742), ∀ a, (k0_off725 v742) a + S1x64.size a ≤ S100000x64.size a := fun v742 k0_hw316 => k0_hw316.2

def k0_off726 (v752 : BitVec 32) : Fin 2 → Nat :=
  let c0_i32_2168 : BitVec 32 := 0#32
  ![v752.toNat, 0]

def k0_chk317 (v752 : BitVec 32) : Prop :=
  (∀ a, (k0_off594 v752) a + S1x64.size a ≤ S100000x64.size a) ∧
  (∀ a, (k0_off726 v752) a + S1x64.size a ≤ S100000x64.size a)
instance k0_chk317.dec : ∀ (v752 : BitVec 32), Decidable (k0_chk317 v752) := fun v752 => decidable_of_iff' _ (Iff.of_eq (k0_chk317.eq_1 v752))
theorem k0_off594_inb : ∀ (v752 : BitVec 32) (k0_hw317 : k0_chk317 v752), ∀ a, (k0_off594 v752) a + S1x64.size a ≤ S100000x64.size a := fun v752 k0_hw317 => k0_hw317.1
theorem k0_off726_inb : ∀ (v752 : BitVec 32) (k0_hw317 : k0_chk317 v752), ∀ a, (k0_off726 v752) a + S1x64.size a ≤ S100000x64.size a := fun v752 k0_hw317 => k0_hw317.2

def k0_off727 (v762 : BitVec 32) : Fin 2 → Nat :=
  let c0_i32_2179 : BitVec 32 := 0#32
  ![v762.toNat, 0]

def k0_chk318 (v762 : BitVec 32) : Prop :=
  (∀ a, (k0_off595 v762) a + S1x64.size a ≤ S100000x64.size a) ∧
  (∀ a, (k0_off727 v762) a + S1x64.size a ≤ S100000x64.size a)
instance k0_chk318.dec : ∀ (v762 : BitVec 32), Decidable (k0_chk318 v762) := fun v762 => decidable_of_iff' _ (Iff.of_eq (k0_chk318.eq_1 v762))
theorem k0_off595_inb : ∀ (v762 : BitVec 32) (k0_hw318 : k0_chk318 v762), ∀ a, (k0_off595 v762) a + S1x64.size a ≤ S100000x64.size a := fun v762 k0_hw318 => k0_hw318.1
theorem k0_off727_inb : ∀ (v762 : BitVec 32) (k0_hw318 : k0_chk318 v762), ∀ a, (k0_off727 v762) a + S1x64.size a ≤ S100000x64.size a := fun v762 k0_hw318 => k0_hw318.2

def k0_off728 (v772 : BitVec 32) : Fin 2 → Nat :=
  let c0_i32_2190 : BitVec 32 := 0#32
  ![v772.toNat, 0]

def k0_chk319 (v772 : BitVec 32) : Prop :=
  (∀ a, (k0_off596 v772) a + S1x64.size a ≤ S100000x64.size a) ∧
  (∀ a, (k0_off728 v772) a + S1x64.size a ≤ S100000x64.size a)
instance k0_chk319.dec : ∀ (v772 : BitVec 32), Decidable (k0_chk319 v772) := fun v772 => decidable_of_iff' _ (Iff.of_eq (k0_chk319.eq_1 v772))
theorem k0_off596_inb : ∀ (v772 : BitVec 32) (k0_hw319 : k0_chk319 v772), ∀ a, (k0_off596 v772) a + S1x64.size a ≤ S100000x64.size a := fun v772 k0_hw319 => k0_hw319.1
theorem k0_off728_inb : ∀ (v772 : BitVec 32) (k0_hw319 : k0_chk319 v772), ∀ a, (k0_off728 v772) a + S1x64.size a ≤ S100000x64.size a := fun v772 k0_hw319 => k0_hw319.2

def k0_off729 (v782 : BitVec 32) : Fin 2 → Nat :=
  let c0_i32_2201 : BitVec 32 := 0#32
  ![v782.toNat, 0]

def k0_chk320 (v782 : BitVec 32) : Prop :=
  (∀ a, (k0_off597 v782) a + S1x64.size a ≤ S100000x64.size a) ∧
  (∀ a, (k0_off729 v782) a + S1x64.size a ≤ S100000x64.size a)
instance k0_chk320.dec : ∀ (v782 : BitVec 32), Decidable (k0_chk320 v782) := fun v782 => decidable_of_iff' _ (Iff.of_eq (k0_chk320.eq_1 v782))
theorem k0_off597_inb : ∀ (v782 : BitVec 32) (k0_hw320 : k0_chk320 v782), ∀ a, (k0_off597 v782) a + S1x64.size a ≤ S100000x64.size a := fun v782 k0_hw320 => k0_hw320.1
theorem k0_off729_inb : ∀ (v782 : BitVec 32) (k0_hw320 : k0_chk320 v782), ∀ a, (k0_off729 v782) a + S1x64.size a ≤ S100000x64.size a := fun v782 k0_hw320 => k0_hw320.2

def k0_off730 (i : grid0.Coords) (k0_t3 : Fin k0_t3_loop.trips) (c0_i32_1502 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_1501 : BitVec 32 := 2#32
  let c0_i32_11 : BitVec 32 := 0#32
  let c1_i32_13 : BitVec 32 := 1#32
  let arg25 : BitVec 32 := Scf.iv c0_i32_11 c1_i32_13 k0_t3
  let v1573 : BitVec 32 := Scalar.muli c2_i32_1501 arg25
  let v1574 : BitVec 32 := Scalar.addi v1573 c0_i32_1502
  let c64_i32_2207 : BitVec 32 := 64#32
  let v2087 : BitVec 32 := Scalar.muli v1574 c64_i32_2207
  let v2088 : BitVec 32 := Scalar.addi v2 v2087
  let c0_i32_2211 : BitVec 32 := 0#32
  ![v2088.toNat, 0]
def k0_off731 (v829 : BitVec 32) : Fin 2 → Nat :=
  let c0_i32_2222 : BitVec 32 := 0#32
  ![v829.toNat, 0]

def k0_chk321 (v829 : BitVec 32) : Prop :=
  (∀ a, (k0_off599 v829) a + S1x64.size a ≤ S100000x64.size a) ∧
  (∀ a, (k0_off731 v829) a + S1x64.size a ≤ S100000x64.size a)
instance k0_chk321.dec : ∀ (v829 : BitVec 32), Decidable (k0_chk321 v829) := fun v829 => decidable_of_iff' _ (Iff.of_eq (k0_chk321.eq_1 v829))
theorem k0_off599_inb : ∀ (v829 : BitVec 32) (k0_hw321 : k0_chk321 v829), ∀ a, (k0_off599 v829) a + S1x64.size a ≤ S100000x64.size a := fun v829 k0_hw321 => k0_hw321.1
theorem k0_off731_inb : ∀ (v829 : BitVec 32) (k0_hw321 : k0_chk321 v829), ∀ a, (k0_off731 v829) a + S1x64.size a ≤ S100000x64.size a := fun v829 k0_hw321 => k0_hw321.2

def k0_off732 (v839 : BitVec 32) : Fin 2 → Nat :=
  let c0_i32_2233 : BitVec 32 := 0#32
  ![v839.toNat, 0]

def k0_chk322 (v839 : BitVec 32) : Prop :=
  (∀ a, (k0_off600 v839) a + S1x64.size a ≤ S100000x64.size a) ∧
  (∀ a, (k0_off732 v839) a + S1x64.size a ≤ S100000x64.size a)
instance k0_chk322.dec : ∀ (v839 : BitVec 32), Decidable (k0_chk322 v839) := fun v839 => decidable_of_iff' _ (Iff.of_eq (k0_chk322.eq_1 v839))
theorem k0_off600_inb : ∀ (v839 : BitVec 32) (k0_hw322 : k0_chk322 v839), ∀ a, (k0_off600 v839) a + S1x64.size a ≤ S100000x64.size a := fun v839 k0_hw322 => k0_hw322.1
theorem k0_off732_inb : ∀ (v839 : BitVec 32) (k0_hw322 : k0_chk322 v839), ∀ a, (k0_off732 v839) a + S1x64.size a ≤ S100000x64.size a := fun v839 k0_hw322 => k0_hw322.2

def k0_off733 (v849 : BitVec 32) : Fin 2 → Nat :=
  let c0_i32_2244 : BitVec 32 := 0#32
  ![v849.toNat, 0]

def k0_chk323 (v849 : BitVec 32) : Prop :=
  (∀ a, (k0_off601 v849) a + S1x64.size a ≤ S100000x64.size a) ∧
  (∀ a, (k0_off733 v849) a + S1x64.size a ≤ S100000x64.size a)
instance k0_chk323.dec : ∀ (v849 : BitVec 32), Decidable (k0_chk323 v849) := fun v849 => decidable_of_iff' _ (Iff.of_eq (k0_chk323.eq_1 v849))
theorem k0_off601_inb : ∀ (v849 : BitVec 32) (k0_hw323 : k0_chk323 v849), ∀ a, (k0_off601 v849) a + S1x64.size a ≤ S100000x64.size a := fun v849 k0_hw323 => k0_hw323.1
theorem k0_off733_inb : ∀ (v849 : BitVec 32) (k0_hw323 : k0_chk323 v849), ∀ a, (k0_off733 v849) a + S1x64.size a ≤ S100000x64.size a := fun v849 k0_hw323 => k0_hw323.2

def k0_off734 (v859 : BitVec 32) : Fin 2 → Nat :=
  let c0_i32_2255 : BitVec 32 := 0#32
  ![v859.toNat, 0]

def k0_chk324 (v859 : BitVec 32) : Prop :=
  (∀ a, (k0_off602 v859) a + S1x64.size a ≤ S100000x64.size a) ∧
  (∀ a, (k0_off734 v859) a + S1x64.size a ≤ S100000x64.size a)
instance k0_chk324.dec : ∀ (v859 : BitVec 32), Decidable (k0_chk324 v859) := fun v859 => decidable_of_iff' _ (Iff.of_eq (k0_chk324.eq_1 v859))
theorem k0_off602_inb : ∀ (v859 : BitVec 32) (k0_hw324 : k0_chk324 v859), ∀ a, (k0_off602 v859) a + S1x64.size a ≤ S100000x64.size a := fun v859 k0_hw324 => k0_hw324.1
theorem k0_off734_inb : ∀ (v859 : BitVec 32) (k0_hw324 : k0_chk324 v859), ∀ a, (k0_off734 v859) a + S1x64.size a ≤ S100000x64.size a := fun v859 k0_hw324 => k0_hw324.2

def k0_off735 (v869 : BitVec 32) : Fin 2 → Nat :=
  let c0_i32_2266 : BitVec 32 := 0#32
  ![v869.toNat, 0]

def k0_chk325 (v869 : BitVec 32) : Prop :=
  (∀ a, (k0_off603 v869) a + S1x64.size a ≤ S100000x64.size a) ∧
  (∀ a, (k0_off735 v869) a + S1x64.size a ≤ S100000x64.size a)
instance k0_chk325.dec : ∀ (v869 : BitVec 32), Decidable (k0_chk325 v869) := fun v869 => decidable_of_iff' _ (Iff.of_eq (k0_chk325.eq_1 v869))
theorem k0_off603_inb : ∀ (v869 : BitVec 32) (k0_hw325 : k0_chk325 v869), ∀ a, (k0_off603 v869) a + S1x64.size a ≤ S100000x64.size a := fun v869 k0_hw325 => k0_hw325.1
theorem k0_off735_inb : ∀ (v869 : BitVec 32) (k0_hw325 : k0_chk325 v869), ∀ a, (k0_off735 v869) a + S1x64.size a ≤ S100000x64.size a := fun v869 k0_hw325 => k0_hw325.2

def k0_off736 (v879 : BitVec 32) : Fin 2 → Nat :=
  let c0_i32_2277 : BitVec 32 := 0#32
  ![v879.toNat, 0]

def k0_chk326 (v879 : BitVec 32) : Prop :=
  (∀ a, (k0_off604 v879) a + S1x64.size a ≤ S100000x64.size a) ∧
  (∀ a, (k0_off736 v879) a + S1x64.size a ≤ S100000x64.size a)
instance k0_chk326.dec : ∀ (v879 : BitVec 32), Decidable (k0_chk326 v879) := fun v879 => decidable_of_iff' _ (Iff.of_eq (k0_chk326.eq_1 v879))
theorem k0_off604_inb : ∀ (v879 : BitVec 32) (k0_hw326 : k0_chk326 v879), ∀ a, (k0_off604 v879) a + S1x64.size a ≤ S100000x64.size a := fun v879 k0_hw326 => k0_hw326.1
theorem k0_off736_inb : ∀ (v879 : BitVec 32) (k0_hw326 : k0_chk326 v879), ∀ a, (k0_off736 v879) a + S1x64.size a ≤ S100000x64.size a := fun v879 k0_hw326 => k0_hw326.2

def k0_off737 (v889 : BitVec 32) : Fin 2 → Nat :=
  let c0_i32_2288 : BitVec 32 := 0#32
  ![v889.toNat, 0]

def k0_chk327 (v889 : BitVec 32) : Prop :=
  (∀ a, (k0_off605 v889) a + S1x64.size a ≤ S100000x64.size a) ∧
  (∀ a, (k0_off737 v889) a + S1x64.size a ≤ S100000x64.size a)
instance k0_chk327.dec : ∀ (v889 : BitVec 32), Decidable (k0_chk327 v889) := fun v889 => decidable_of_iff' _ (Iff.of_eq (k0_chk327.eq_1 v889))
theorem k0_off605_inb : ∀ (v889 : BitVec 32) (k0_hw327 : k0_chk327 v889), ∀ a, (k0_off605 v889) a + S1x64.size a ≤ S100000x64.size a := fun v889 k0_hw327 => k0_hw327.1
theorem k0_off737_inb : ∀ (v889 : BitVec 32) (k0_hw327 : k0_chk327 v889), ∀ a, (k0_off737 v889) a + S1x64.size a ≤ S100000x64.size a := fun v889 k0_hw327 => k0_hw327.2

def k0_off738 (v899 : BitVec 32) : Fin 2 → Nat :=
  let c0_i32_2299 : BitVec 32 := 0#32
  ![v899.toNat, 0]

def k0_chk328 (v899 : BitVec 32) : Prop :=
  (∀ a, (k0_off606 v899) a + S1x64.size a ≤ S100000x64.size a) ∧
  (∀ a, (k0_off738 v899) a + S1x64.size a ≤ S100000x64.size a)
instance k0_chk328.dec : ∀ (v899 : BitVec 32), Decidable (k0_chk328 v899) := fun v899 => decidable_of_iff' _ (Iff.of_eq (k0_chk328.eq_1 v899))
theorem k0_off606_inb : ∀ (v899 : BitVec 32) (k0_hw328 : k0_chk328 v899), ∀ a, (k0_off606 v899) a + S1x64.size a ≤ S100000x64.size a := fun v899 k0_hw328 => k0_hw328.1
theorem k0_off738_inb : ∀ (v899 : BitVec 32) (k0_hw328 : k0_chk328 v899), ∀ a, (k0_off738 v899) a + S1x64.size a ≤ S100000x64.size a := fun v899 k0_hw328 => k0_hw328.2

def k0_off739 (v909 : BitVec 32) : Fin 2 → Nat :=
  let c0_i32_2310 : BitVec 32 := 0#32
  ![v909.toNat, 0]

def k0_chk329 (v909 : BitVec 32) : Prop :=
  (∀ a, (k0_off607 v909) a + S1x64.size a ≤ S100000x64.size a) ∧
  (∀ a, (k0_off739 v909) a + S1x64.size a ≤ S100000x64.size a)
instance k0_chk329.dec : ∀ (v909 : BitVec 32), Decidable (k0_chk329 v909) := fun v909 => decidable_of_iff' _ (Iff.of_eq (k0_chk329.eq_1 v909))
theorem k0_off607_inb : ∀ (v909 : BitVec 32) (k0_hw329 : k0_chk329 v909), ∀ a, (k0_off607 v909) a + S1x64.size a ≤ S100000x64.size a := fun v909 k0_hw329 => k0_hw329.1
theorem k0_off739_inb : ∀ (v909 : BitVec 32) (k0_hw329 : k0_chk329 v909), ∀ a, (k0_off739 v909) a + S1x64.size a ≤ S100000x64.size a := fun v909 k0_hw329 => k0_hw329.2

def k0_off740 (v919 : BitVec 32) : Fin 2 → Nat :=
  let c0_i32_2321 : BitVec 32 := 0#32
  ![v919.toNat, 0]

def k0_chk330 (v919 : BitVec 32) : Prop :=
  (∀ a, (k0_off608 v919) a + S1x64.size a ≤ S100000x64.size a) ∧
  (∀ a, (k0_off740 v919) a + S1x64.size a ≤ S100000x64.size a)
instance k0_chk330.dec : ∀ (v919 : BitVec 32), Decidable (k0_chk330 v919) := fun v919 => decidable_of_iff' _ (Iff.of_eq (k0_chk330.eq_1 v919))
theorem k0_off608_inb : ∀ (v919 : BitVec 32) (k0_hw330 : k0_chk330 v919), ∀ a, (k0_off608 v919) a + S1x64.size a ≤ S100000x64.size a := fun v919 k0_hw330 => k0_hw330.1
theorem k0_off740_inb : ∀ (v919 : BitVec 32) (k0_hw330 : k0_chk330 v919), ∀ a, (k0_off740 v919) a + S1x64.size a ≤ S100000x64.size a := fun v919 k0_hw330 => k0_hw330.2

def k0_off741 (v929 : BitVec 32) : Fin 2 → Nat :=
  let c0_i32_2332 : BitVec 32 := 0#32
  ![v929.toNat, 0]

def k0_chk331 (v929 : BitVec 32) : Prop :=
  (∀ a, (k0_off609 v929) a + S1x64.size a ≤ S100000x64.size a) ∧
  (∀ a, (k0_off741 v929) a + S1x64.size a ≤ S100000x64.size a)
instance k0_chk331.dec : ∀ (v929 : BitVec 32), Decidable (k0_chk331 v929) := fun v929 => decidable_of_iff' _ (Iff.of_eq (k0_chk331.eq_1 v929))
theorem k0_off609_inb : ∀ (v929 : BitVec 32) (k0_hw331 : k0_chk331 v929), ∀ a, (k0_off609 v929) a + S1x64.size a ≤ S100000x64.size a := fun v929 k0_hw331 => k0_hw331.1
theorem k0_off741_inb : ∀ (v929 : BitVec 32) (k0_hw331 : k0_chk331 v929), ∀ a, (k0_off741 v929) a + S1x64.size a ≤ S100000x64.size a := fun v929 k0_hw331 => k0_hw331.2

def k0_off742 (v939 : BitVec 32) : Fin 2 → Nat :=
  let c0_i32_2343 : BitVec 32 := 0#32
  ![v939.toNat, 0]

def k0_chk332 (v939 : BitVec 32) : Prop :=
  (∀ a, (k0_off610 v939) a + S1x64.size a ≤ S100000x64.size a) ∧
  (∀ a, (k0_off742 v939) a + S1x64.size a ≤ S100000x64.size a)
instance k0_chk332.dec : ∀ (v939 : BitVec 32), Decidable (k0_chk332 v939) := fun v939 => decidable_of_iff' _ (Iff.of_eq (k0_chk332.eq_1 v939))
theorem k0_off610_inb : ∀ (v939 : BitVec 32) (k0_hw332 : k0_chk332 v939), ∀ a, (k0_off610 v939) a + S1x64.size a ≤ S100000x64.size a := fun v939 k0_hw332 => k0_hw332.1
theorem k0_off742_inb : ∀ (v939 : BitVec 32) (k0_hw332 : k0_chk332 v939), ∀ a, (k0_off742 v939) a + S1x64.size a ≤ S100000x64.size a := fun v939 k0_hw332 => k0_hw332.2

def k0_off743 (v949 : BitVec 32) : Fin 2 → Nat :=
  let c0_i32_2354 : BitVec 32 := 0#32
  ![v949.toNat, 0]

def k0_chk333 (v949 : BitVec 32) : Prop :=
  (∀ a, (k0_off611 v949) a + S1x64.size a ≤ S100000x64.size a) ∧
  (∀ a, (k0_off743 v949) a + S1x64.size a ≤ S100000x64.size a)
instance k0_chk333.dec : ∀ (v949 : BitVec 32), Decidable (k0_chk333 v949) := fun v949 => decidable_of_iff' _ (Iff.of_eq (k0_chk333.eq_1 v949))
theorem k0_off611_inb : ∀ (v949 : BitVec 32) (k0_hw333 : k0_chk333 v949), ∀ a, (k0_off611 v949) a + S1x64.size a ≤ S100000x64.size a := fun v949 k0_hw333 => k0_hw333.1
theorem k0_off743_inb : ∀ (v949 : BitVec 32) (k0_hw333 : k0_chk333 v949), ∀ a, (k0_off743 v949) a + S1x64.size a ≤ S100000x64.size a := fun v949 k0_hw333 => k0_hw333.2

def k0_off744 (v959 : BitVec 32) : Fin 2 → Nat :=
  let c0_i32_2365 : BitVec 32 := 0#32
  ![v959.toNat, 0]

def k0_chk334 (v959 : BitVec 32) : Prop :=
  (∀ a, (k0_off612 v959) a + S1x64.size a ≤ S100000x64.size a) ∧
  (∀ a, (k0_off744 v959) a + S1x64.size a ≤ S100000x64.size a)
instance k0_chk334.dec : ∀ (v959 : BitVec 32), Decidable (k0_chk334 v959) := fun v959 => decidable_of_iff' _ (Iff.of_eq (k0_chk334.eq_1 v959))
theorem k0_off612_inb : ∀ (v959 : BitVec 32) (k0_hw334 : k0_chk334 v959), ∀ a, (k0_off612 v959) a + S1x64.size a ≤ S100000x64.size a := fun v959 k0_hw334 => k0_hw334.1
theorem k0_off744_inb : ∀ (v959 : BitVec 32) (k0_hw334 : k0_chk334 v959), ∀ a, (k0_off744 v959) a + S1x64.size a ≤ S100000x64.size a := fun v959 k0_hw334 => k0_hw334.2

def k0_off745 (v969 : BitVec 32) : Fin 2 → Nat :=
  let c0_i32_2376 : BitVec 32 := 0#32
  ![v969.toNat, 0]

def k0_chk335 (v969 : BitVec 32) : Prop :=
  (∀ a, (k0_off613 v969) a + S1x64.size a ≤ S100000x64.size a) ∧
  (∀ a, (k0_off745 v969) a + S1x64.size a ≤ S100000x64.size a)
instance k0_chk335.dec : ∀ (v969 : BitVec 32), Decidable (k0_chk335 v969) := fun v969 => decidable_of_iff' _ (Iff.of_eq (k0_chk335.eq_1 v969))
theorem k0_off613_inb : ∀ (v969 : BitVec 32) (k0_hw335 : k0_chk335 v969), ∀ a, (k0_off613 v969) a + S1x64.size a ≤ S100000x64.size a := fun v969 k0_hw335 => k0_hw335.1
theorem k0_off745_inb : ∀ (v969 : BitVec 32) (k0_hw335 : k0_chk335 v969), ∀ a, (k0_off745 v969) a + S1x64.size a ≤ S100000x64.size a := fun v969 k0_hw335 => k0_hw335.2

def k0_off746 (v979 : BitVec 32) : Fin 2 → Nat :=
  let c0_i32_2387 : BitVec 32 := 0#32
  ![v979.toNat, 0]

def k0_chk336 (v979 : BitVec 32) : Prop :=
  (∀ a, (k0_off614 v979) a + S1x64.size a ≤ S100000x64.size a) ∧
  (∀ a, (k0_off746 v979) a + S1x64.size a ≤ S100000x64.size a)
instance k0_chk336.dec : ∀ (v979 : BitVec 32), Decidable (k0_chk336 v979) := fun v979 => decidable_of_iff' _ (Iff.of_eq (k0_chk336.eq_1 v979))
theorem k0_off614_inb : ∀ (v979 : BitVec 32) (k0_hw336 : k0_chk336 v979), ∀ a, (k0_off614 v979) a + S1x64.size a ≤ S100000x64.size a := fun v979 k0_hw336 => k0_hw336.1
theorem k0_off746_inb : ∀ (v979 : BitVec 32) (k0_hw336 : k0_chk336 v979), ∀ a, (k0_off746 v979) a + S1x64.size a ≤ S100000x64.size a := fun v979 k0_hw336 => k0_hw336.2

def k0_off747 (v1024 : BitVec 32) : Fin 2 → Nat :=
  let c0_i32_2398 : BitVec 32 := 0#32
  ![v1024.toNat, 0]

def k0_chk337 (v1024 : BitVec 32) : Prop :=
  (∀ a, (k0_off616 v1024) a + S1x64.size a ≤ S100000x64.size a) ∧
  (∀ a, (k0_off747 v1024) a + S1x64.size a ≤ S100000x64.size a)
instance k0_chk337.dec : ∀ (v1024 : BitVec 32), Decidable (k0_chk337 v1024) := fun v1024 => decidable_of_iff' _ (Iff.of_eq (k0_chk337.eq_1 v1024))
theorem k0_off616_inb : ∀ (v1024 : BitVec 32) (k0_hw337 : k0_chk337 v1024), ∀ a, (k0_off616 v1024) a + S1x64.size a ≤ S100000x64.size a := fun v1024 k0_hw337 => k0_hw337.1
theorem k0_off747_inb : ∀ (v1024 : BitVec 32) (k0_hw337 : k0_chk337 v1024), ∀ a, (k0_off747 v1024) a + S1x64.size a ≤ S100000x64.size a := fun v1024 k0_hw337 => k0_hw337.2

def k0_off748 (v1034 : BitVec 32) : Fin 2 → Nat :=
  let c0_i32_2409 : BitVec 32 := 0#32
  ![v1034.toNat, 0]

def k0_chk338 (v1034 : BitVec 32) : Prop :=
  (∀ a, (k0_off617 v1034) a + S1x64.size a ≤ S100000x64.size a) ∧
  (∀ a, (k0_off748 v1034) a + S1x64.size a ≤ S100000x64.size a)
instance k0_chk338.dec : ∀ (v1034 : BitVec 32), Decidable (k0_chk338 v1034) := fun v1034 => decidable_of_iff' _ (Iff.of_eq (k0_chk338.eq_1 v1034))
theorem k0_off617_inb : ∀ (v1034 : BitVec 32) (k0_hw338 : k0_chk338 v1034), ∀ a, (k0_off617 v1034) a + S1x64.size a ≤ S100000x64.size a := fun v1034 k0_hw338 => k0_hw338.1
theorem k0_off748_inb : ∀ (v1034 : BitVec 32) (k0_hw338 : k0_chk338 v1034), ∀ a, (k0_off748 v1034) a + S1x64.size a ≤ S100000x64.size a := fun v1034 k0_hw338 => k0_hw338.2

def k0_off749 (v1044 : BitVec 32) : Fin 2 → Nat :=
  let c0_i32_2420 : BitVec 32 := 0#32
  ![v1044.toNat, 0]

def k0_chk339 (v1044 : BitVec 32) : Prop :=
  (∀ a, (k0_off618 v1044) a + S1x64.size a ≤ S100000x64.size a) ∧
  (∀ a, (k0_off749 v1044) a + S1x64.size a ≤ S100000x64.size a)
instance k0_chk339.dec : ∀ (v1044 : BitVec 32), Decidable (k0_chk339 v1044) := fun v1044 => decidable_of_iff' _ (Iff.of_eq (k0_chk339.eq_1 v1044))
theorem k0_off618_inb : ∀ (v1044 : BitVec 32) (k0_hw339 : k0_chk339 v1044), ∀ a, (k0_off618 v1044) a + S1x64.size a ≤ S100000x64.size a := fun v1044 k0_hw339 => k0_hw339.1
theorem k0_off749_inb : ∀ (v1044 : BitVec 32) (k0_hw339 : k0_chk339 v1044), ∀ a, (k0_off749 v1044) a + S1x64.size a ≤ S100000x64.size a := fun v1044 k0_hw339 => k0_hw339.2

def k0_off750 (v1054 : BitVec 32) : Fin 2 → Nat :=
  let c0_i32_2431 : BitVec 32 := 0#32
  ![v1054.toNat, 0]

def k0_chk340 (v1054 : BitVec 32) : Prop :=
  (∀ a, (k0_off619 v1054) a + S1x64.size a ≤ S100000x64.size a) ∧
  (∀ a, (k0_off750 v1054) a + S1x64.size a ≤ S100000x64.size a)
instance k0_chk340.dec : ∀ (v1054 : BitVec 32), Decidable (k0_chk340 v1054) := fun v1054 => decidable_of_iff' _ (Iff.of_eq (k0_chk340.eq_1 v1054))
theorem k0_off619_inb : ∀ (v1054 : BitVec 32) (k0_hw340 : k0_chk340 v1054), ∀ a, (k0_off619 v1054) a + S1x64.size a ≤ S100000x64.size a := fun v1054 k0_hw340 => k0_hw340.1
theorem k0_off750_inb : ∀ (v1054 : BitVec 32) (k0_hw340 : k0_chk340 v1054), ∀ a, (k0_off750 v1054) a + S1x64.size a ≤ S100000x64.size a := fun v1054 k0_hw340 => k0_hw340.2

def k0_off751 (v1064 : BitVec 32) : Fin 2 → Nat :=
  let c0_i32_2442 : BitVec 32 := 0#32
  ![v1064.toNat, 0]

def k0_chk341 (v1064 : BitVec 32) : Prop :=
  (∀ a, (k0_off620 v1064) a + S1x64.size a ≤ S100000x64.size a) ∧
  (∀ a, (k0_off751 v1064) a + S1x64.size a ≤ S100000x64.size a)
instance k0_chk341.dec : ∀ (v1064 : BitVec 32), Decidable (k0_chk341 v1064) := fun v1064 => decidable_of_iff' _ (Iff.of_eq (k0_chk341.eq_1 v1064))
theorem k0_off620_inb : ∀ (v1064 : BitVec 32) (k0_hw341 : k0_chk341 v1064), ∀ a, (k0_off620 v1064) a + S1x64.size a ≤ S100000x64.size a := fun v1064 k0_hw341 => k0_hw341.1
theorem k0_off751_inb : ∀ (v1064 : BitVec 32) (k0_hw341 : k0_chk341 v1064), ∀ a, (k0_off751 v1064) a + S1x64.size a ≤ S100000x64.size a := fun v1064 k0_hw341 => k0_hw341.2

def k0_off752 (v1074 : BitVec 32) : Fin 2 → Nat :=
  let c0_i32_2453 : BitVec 32 := 0#32
  ![v1074.toNat, 0]

def k0_chk342 (v1074 : BitVec 32) : Prop :=
  (∀ a, (k0_off621 v1074) a + S1x64.size a ≤ S100000x64.size a) ∧
  (∀ a, (k0_off752 v1074) a + S1x64.size a ≤ S100000x64.size a)
instance k0_chk342.dec : ∀ (v1074 : BitVec 32), Decidable (k0_chk342 v1074) := fun v1074 => decidable_of_iff' _ (Iff.of_eq (k0_chk342.eq_1 v1074))
theorem k0_off621_inb : ∀ (v1074 : BitVec 32) (k0_hw342 : k0_chk342 v1074), ∀ a, (k0_off621 v1074) a + S1x64.size a ≤ S100000x64.size a := fun v1074 k0_hw342 => k0_hw342.1
theorem k0_off752_inb : ∀ (v1074 : BitVec 32) (k0_hw342 : k0_chk342 v1074), ∀ a, (k0_off752 v1074) a + S1x64.size a ≤ S100000x64.size a := fun v1074 k0_hw342 => k0_hw342.2

def k0_off753 (v1084 : BitVec 32) : Fin 2 → Nat :=
  let c0_i32_2464 : BitVec 32 := 0#32
  ![v1084.toNat, 0]

def k0_chk343 (v1084 : BitVec 32) : Prop :=
  (∀ a, (k0_off622 v1084) a + S1x64.size a ≤ S100000x64.size a) ∧
  (∀ a, (k0_off753 v1084) a + S1x64.size a ≤ S100000x64.size a)
instance k0_chk343.dec : ∀ (v1084 : BitVec 32), Decidable (k0_chk343 v1084) := fun v1084 => decidable_of_iff' _ (Iff.of_eq (k0_chk343.eq_1 v1084))
theorem k0_off622_inb : ∀ (v1084 : BitVec 32) (k0_hw343 : k0_chk343 v1084), ∀ a, (k0_off622 v1084) a + S1x64.size a ≤ S100000x64.size a := fun v1084 k0_hw343 => k0_hw343.1
theorem k0_off753_inb : ∀ (v1084 : BitVec 32) (k0_hw343 : k0_chk343 v1084), ∀ a, (k0_off753 v1084) a + S1x64.size a ≤ S100000x64.size a := fun v1084 k0_hw343 => k0_hw343.2

def k0_off754 (v1094 : BitVec 32) : Fin 2 → Nat :=
  let c0_i32_2475 : BitVec 32 := 0#32
  ![v1094.toNat, 0]

def k0_chk344 (v1094 : BitVec 32) : Prop :=
  (∀ a, (k0_off623 v1094) a + S1x64.size a ≤ S100000x64.size a) ∧
  (∀ a, (k0_off754 v1094) a + S1x64.size a ≤ S100000x64.size a)
instance k0_chk344.dec : ∀ (v1094 : BitVec 32), Decidable (k0_chk344 v1094) := fun v1094 => decidable_of_iff' _ (Iff.of_eq (k0_chk344.eq_1 v1094))
theorem k0_off623_inb : ∀ (v1094 : BitVec 32) (k0_hw344 : k0_chk344 v1094), ∀ a, (k0_off623 v1094) a + S1x64.size a ≤ S100000x64.size a := fun v1094 k0_hw344 => k0_hw344.1
theorem k0_off754_inb : ∀ (v1094 : BitVec 32) (k0_hw344 : k0_chk344 v1094), ∀ a, (k0_off754 v1094) a + S1x64.size a ≤ S100000x64.size a := fun v1094 k0_hw344 => k0_hw344.2

def k0_off755 (v1104 : BitVec 32) : Fin 2 → Nat :=
  let c0_i32_2486 : BitVec 32 := 0#32
  ![v1104.toNat, 0]

def k0_chk345 (v1104 : BitVec 32) : Prop :=
  (∀ a, (k0_off624 v1104) a + S1x64.size a ≤ S100000x64.size a) ∧
  (∀ a, (k0_off755 v1104) a + S1x64.size a ≤ S100000x64.size a)
instance k0_chk345.dec : ∀ (v1104 : BitVec 32), Decidable (k0_chk345 v1104) := fun v1104 => decidable_of_iff' _ (Iff.of_eq (k0_chk345.eq_1 v1104))
theorem k0_off624_inb : ∀ (v1104 : BitVec 32) (k0_hw345 : k0_chk345 v1104), ∀ a, (k0_off624 v1104) a + S1x64.size a ≤ S100000x64.size a := fun v1104 k0_hw345 => k0_hw345.1
theorem k0_off755_inb : ∀ (v1104 : BitVec 32) (k0_hw345 : k0_chk345 v1104), ∀ a, (k0_off755 v1104) a + S1x64.size a ≤ S100000x64.size a := fun v1104 k0_hw345 => k0_hw345.2

def k0_off756 (v1114 : BitVec 32) : Fin 2 → Nat :=
  let c0_i32_2497 : BitVec 32 := 0#32
  ![v1114.toNat, 0]

def k0_chk346 (v1114 : BitVec 32) : Prop :=
  (∀ a, (k0_off625 v1114) a + S1x64.size a ≤ S100000x64.size a) ∧
  (∀ a, (k0_off756 v1114) a + S1x64.size a ≤ S100000x64.size a)
instance k0_chk346.dec : ∀ (v1114 : BitVec 32), Decidable (k0_chk346 v1114) := fun v1114 => decidable_of_iff' _ (Iff.of_eq (k0_chk346.eq_1 v1114))
theorem k0_off625_inb : ∀ (v1114 : BitVec 32) (k0_hw346 : k0_chk346 v1114), ∀ a, (k0_off625 v1114) a + S1x64.size a ≤ S100000x64.size a := fun v1114 k0_hw346 => k0_hw346.1
theorem k0_off756_inb : ∀ (v1114 : BitVec 32) (k0_hw346 : k0_chk346 v1114), ∀ a, (k0_off756 v1114) a + S1x64.size a ≤ S100000x64.size a := fun v1114 k0_hw346 => k0_hw346.2

def k0_off757 (v1124 : BitVec 32) : Fin 2 → Nat :=
  let c0_i32_2508 : BitVec 32 := 0#32
  ![v1124.toNat, 0]

def k0_chk347 (v1124 : BitVec 32) : Prop :=
  (∀ a, (k0_off626 v1124) a + S1x64.size a ≤ S100000x64.size a) ∧
  (∀ a, (k0_off757 v1124) a + S1x64.size a ≤ S100000x64.size a)
instance k0_chk347.dec : ∀ (v1124 : BitVec 32), Decidable (k0_chk347 v1124) := fun v1124 => decidable_of_iff' _ (Iff.of_eq (k0_chk347.eq_1 v1124))
theorem k0_off626_inb : ∀ (v1124 : BitVec 32) (k0_hw347 : k0_chk347 v1124), ∀ a, (k0_off626 v1124) a + S1x64.size a ≤ S100000x64.size a := fun v1124 k0_hw347 => k0_hw347.1
theorem k0_off757_inb : ∀ (v1124 : BitVec 32) (k0_hw347 : k0_chk347 v1124), ∀ a, (k0_off757 v1124) a + S1x64.size a ≤ S100000x64.size a := fun v1124 k0_hw347 => k0_hw347.2

def k0_off758 (v1134 : BitVec 32) : Fin 2 → Nat :=
  let c0_i32_2519 : BitVec 32 := 0#32
  ![v1134.toNat, 0]

def k0_chk348 (v1134 : BitVec 32) : Prop :=
  (∀ a, (k0_off627 v1134) a + S1x64.size a ≤ S100000x64.size a) ∧
  (∀ a, (k0_off758 v1134) a + S1x64.size a ≤ S100000x64.size a)
instance k0_chk348.dec : ∀ (v1134 : BitVec 32), Decidable (k0_chk348 v1134) := fun v1134 => decidable_of_iff' _ (Iff.of_eq (k0_chk348.eq_1 v1134))
theorem k0_off627_inb : ∀ (v1134 : BitVec 32) (k0_hw348 : k0_chk348 v1134), ∀ a, (k0_off627 v1134) a + S1x64.size a ≤ S100000x64.size a := fun v1134 k0_hw348 => k0_hw348.1
theorem k0_off758_inb : ∀ (v1134 : BitVec 32) (k0_hw348 : k0_chk348 v1134), ∀ a, (k0_off758 v1134) a + S1x64.size a ≤ S100000x64.size a := fun v1134 k0_hw348 => k0_hw348.2

def k0_off759 (v1144 : BitVec 32) : Fin 2 → Nat :=
  let c0_i32_2530 : BitVec 32 := 0#32
  ![v1144.toNat, 0]

def k0_chk349 (v1144 : BitVec 32) : Prop :=
  (∀ a, (k0_off628 v1144) a + S1x64.size a ≤ S100000x64.size a) ∧
  (∀ a, (k0_off759 v1144) a + S1x64.size a ≤ S100000x64.size a)
instance k0_chk349.dec : ∀ (v1144 : BitVec 32), Decidable (k0_chk349 v1144) := fun v1144 => decidable_of_iff' _ (Iff.of_eq (k0_chk349.eq_1 v1144))
theorem k0_off628_inb : ∀ (v1144 : BitVec 32) (k0_hw349 : k0_chk349 v1144), ∀ a, (k0_off628 v1144) a + S1x64.size a ≤ S100000x64.size a := fun v1144 k0_hw349 => k0_hw349.1
theorem k0_off759_inb : ∀ (v1144 : BitVec 32) (k0_hw349 : k0_chk349 v1144), ∀ a, (k0_off759 v1144) a + S1x64.size a ≤ S100000x64.size a := fun v1144 k0_hw349 => k0_hw349.2

def k0_off760 (v1154 : BitVec 32) : Fin 2 → Nat :=
  let c0_i32_2541 : BitVec 32 := 0#32
  ![v1154.toNat, 0]

def k0_chk350 (v1154 : BitVec 32) : Prop :=
  (∀ a, (k0_off629 v1154) a + S1x64.size a ≤ S100000x64.size a) ∧
  (∀ a, (k0_off760 v1154) a + S1x64.size a ≤ S100000x64.size a)
instance k0_chk350.dec : ∀ (v1154 : BitVec 32), Decidable (k0_chk350 v1154) := fun v1154 => decidable_of_iff' _ (Iff.of_eq (k0_chk350.eq_1 v1154))
theorem k0_off629_inb : ∀ (v1154 : BitVec 32) (k0_hw350 : k0_chk350 v1154), ∀ a, (k0_off629 v1154) a + S1x64.size a ≤ S100000x64.size a := fun v1154 k0_hw350 => k0_hw350.1
theorem k0_off760_inb : ∀ (v1154 : BitVec 32) (k0_hw350 : k0_chk350 v1154), ∀ a, (k0_off760 v1154) a + S1x64.size a ≤ S100000x64.size a := fun v1154 k0_hw350 => k0_hw350.2

def k0_off761 (v1164 : BitVec 32) : Fin 2 → Nat :=
  let c0_i32_2552 : BitVec 32 := 0#32
  ![v1164.toNat, 0]

def k0_chk351 (v1164 : BitVec 32) : Prop :=
  (∀ a, (k0_off630 v1164) a + S1x64.size a ≤ S100000x64.size a) ∧
  (∀ a, (k0_off761 v1164) a + S1x64.size a ≤ S100000x64.size a)
instance k0_chk351.dec : ∀ (v1164 : BitVec 32), Decidable (k0_chk351 v1164) := fun v1164 => decidable_of_iff' _ (Iff.of_eq (k0_chk351.eq_1 v1164))
theorem k0_off630_inb : ∀ (v1164 : BitVec 32) (k0_hw351 : k0_chk351 v1164), ∀ a, (k0_off630 v1164) a + S1x64.size a ≤ S100000x64.size a := fun v1164 k0_hw351 => k0_hw351.1
theorem k0_off761_inb : ∀ (v1164 : BitVec 32) (k0_hw351 : k0_chk351 v1164), ∀ a, (k0_off761 v1164) a + S1x64.size a ≤ S100000x64.size a := fun v1164 k0_hw351 => k0_hw351.2

def k0_off762 (v1174 : BitVec 32) : Fin 2 → Nat :=
  let c0_i32_2563 : BitVec 32 := 0#32
  ![v1174.toNat, 0]

def k0_chk352 (v1174 : BitVec 32) : Prop :=
  (∀ a, (k0_off631 v1174) a + S1x64.size a ≤ S100000x64.size a) ∧
  (∀ a, (k0_off762 v1174) a + S1x64.size a ≤ S100000x64.size a)
instance k0_chk352.dec : ∀ (v1174 : BitVec 32), Decidable (k0_chk352 v1174) := fun v1174 => decidable_of_iff' _ (Iff.of_eq (k0_chk352.eq_1 v1174))
theorem k0_off631_inb : ∀ (v1174 : BitVec 32) (k0_hw352 : k0_chk352 v1174), ∀ a, (k0_off631 v1174) a + S1x64.size a ≤ S100000x64.size a := fun v1174 k0_hw352 => k0_hw352.1
theorem k0_off762_inb : ∀ (v1174 : BitVec 32) (k0_hw352 : k0_chk352 v1174), ∀ a, (k0_off762 v1174) a + S1x64.size a ≤ S100000x64.size a := fun v1174 k0_hw352 => k0_hw352.2

def k0_off763 (v1219 : BitVec 32) : Fin 2 → Nat :=
  let c0_i32_2574 : BitVec 32 := 0#32
  ![v1219.toNat, 0]

def k0_chk353 (v1219 : BitVec 32) : Prop :=
  (∀ a, (k0_off633 v1219) a + S1x64.size a ≤ S100000x64.size a) ∧
  (∀ a, (k0_off763 v1219) a + S1x64.size a ≤ S100000x64.size a)
instance k0_chk353.dec : ∀ (v1219 : BitVec 32), Decidable (k0_chk353 v1219) := fun v1219 => decidable_of_iff' _ (Iff.of_eq (k0_chk353.eq_1 v1219))
theorem k0_off633_inb : ∀ (v1219 : BitVec 32) (k0_hw353 : k0_chk353 v1219), ∀ a, (k0_off633 v1219) a + S1x64.size a ≤ S100000x64.size a := fun v1219 k0_hw353 => k0_hw353.1
theorem k0_off763_inb : ∀ (v1219 : BitVec 32) (k0_hw353 : k0_chk353 v1219), ∀ a, (k0_off763 v1219) a + S1x64.size a ≤ S100000x64.size a := fun v1219 k0_hw353 => k0_hw353.2

def k0_off764 (v1229 : BitVec 32) : Fin 2 → Nat :=
  let c0_i32_2585 : BitVec 32 := 0#32
  ![v1229.toNat, 0]

def k0_chk354 (v1229 : BitVec 32) : Prop :=
  (∀ a, (k0_off634 v1229) a + S1x64.size a ≤ S100000x64.size a) ∧
  (∀ a, (k0_off764 v1229) a + S1x64.size a ≤ S100000x64.size a)
instance k0_chk354.dec : ∀ (v1229 : BitVec 32), Decidable (k0_chk354 v1229) := fun v1229 => decidable_of_iff' _ (Iff.of_eq (k0_chk354.eq_1 v1229))
theorem k0_off634_inb : ∀ (v1229 : BitVec 32) (k0_hw354 : k0_chk354 v1229), ∀ a, (k0_off634 v1229) a + S1x64.size a ≤ S100000x64.size a := fun v1229 k0_hw354 => k0_hw354.1
theorem k0_off764_inb : ∀ (v1229 : BitVec 32) (k0_hw354 : k0_chk354 v1229), ∀ a, (k0_off764 v1229) a + S1x64.size a ≤ S100000x64.size a := fun v1229 k0_hw354 => k0_hw354.2

def k0_off765 (v1239 : BitVec 32) : Fin 2 → Nat :=
  let c0_i32_2596 : BitVec 32 := 0#32
  ![v1239.toNat, 0]

def k0_chk355 (v1239 : BitVec 32) : Prop :=
  (∀ a, (k0_off635 v1239) a + S1x64.size a ≤ S100000x64.size a) ∧
  (∀ a, (k0_off765 v1239) a + S1x64.size a ≤ S100000x64.size a)
instance k0_chk355.dec : ∀ (v1239 : BitVec 32), Decidable (k0_chk355 v1239) := fun v1239 => decidable_of_iff' _ (Iff.of_eq (k0_chk355.eq_1 v1239))
theorem k0_off635_inb : ∀ (v1239 : BitVec 32) (k0_hw355 : k0_chk355 v1239), ∀ a, (k0_off635 v1239) a + S1x64.size a ≤ S100000x64.size a := fun v1239 k0_hw355 => k0_hw355.1
theorem k0_off765_inb : ∀ (v1239 : BitVec 32) (k0_hw355 : k0_chk355 v1239), ∀ a, (k0_off765 v1239) a + S1x64.size a ≤ S100000x64.size a := fun v1239 k0_hw355 => k0_hw355.2

def k0_off766 (v1249 : BitVec 32) : Fin 2 → Nat :=
  let c0_i32_2607 : BitVec 32 := 0#32
  ![v1249.toNat, 0]

def k0_chk356 (v1249 : BitVec 32) : Prop :=
  (∀ a, (k0_off636 v1249) a + S1x64.size a ≤ S100000x64.size a) ∧
  (∀ a, (k0_off766 v1249) a + S1x64.size a ≤ S100000x64.size a)
instance k0_chk356.dec : ∀ (v1249 : BitVec 32), Decidable (k0_chk356 v1249) := fun v1249 => decidable_of_iff' _ (Iff.of_eq (k0_chk356.eq_1 v1249))
theorem k0_off636_inb : ∀ (v1249 : BitVec 32) (k0_hw356 : k0_chk356 v1249), ∀ a, (k0_off636 v1249) a + S1x64.size a ≤ S100000x64.size a := fun v1249 k0_hw356 => k0_hw356.1
theorem k0_off766_inb : ∀ (v1249 : BitVec 32) (k0_hw356 : k0_chk356 v1249), ∀ a, (k0_off766 v1249) a + S1x64.size a ≤ S100000x64.size a := fun v1249 k0_hw356 => k0_hw356.2

def k0_off767 (v1259 : BitVec 32) : Fin 2 → Nat :=
  let c0_i32_2618 : BitVec 32 := 0#32
  ![v1259.toNat, 0]

def k0_chk357 (v1259 : BitVec 32) : Prop :=
  (∀ a, (k0_off637 v1259) a + S1x64.size a ≤ S100000x64.size a) ∧
  (∀ a, (k0_off767 v1259) a + S1x64.size a ≤ S100000x64.size a)
instance k0_chk357.dec : ∀ (v1259 : BitVec 32), Decidable (k0_chk357 v1259) := fun v1259 => decidable_of_iff' _ (Iff.of_eq (k0_chk357.eq_1 v1259))
theorem k0_off637_inb : ∀ (v1259 : BitVec 32) (k0_hw357 : k0_chk357 v1259), ∀ a, (k0_off637 v1259) a + S1x64.size a ≤ S100000x64.size a := fun v1259 k0_hw357 => k0_hw357.1
theorem k0_off767_inb : ∀ (v1259 : BitVec 32) (k0_hw357 : k0_chk357 v1259), ∀ a, (k0_off767 v1259) a + S1x64.size a ≤ S100000x64.size a := fun v1259 k0_hw357 => k0_hw357.2

def k0_off768 (v1269 : BitVec 32) : Fin 2 → Nat :=
  let c0_i32_2629 : BitVec 32 := 0#32
  ![v1269.toNat, 0]

def k0_chk358 (v1269 : BitVec 32) : Prop :=
  (∀ a, (k0_off638 v1269) a + S1x64.size a ≤ S100000x64.size a) ∧
  (∀ a, (k0_off768 v1269) a + S1x64.size a ≤ S100000x64.size a)
instance k0_chk358.dec : ∀ (v1269 : BitVec 32), Decidable (k0_chk358 v1269) := fun v1269 => decidable_of_iff' _ (Iff.of_eq (k0_chk358.eq_1 v1269))
theorem k0_off638_inb : ∀ (v1269 : BitVec 32) (k0_hw358 : k0_chk358 v1269), ∀ a, (k0_off638 v1269) a + S1x64.size a ≤ S100000x64.size a := fun v1269 k0_hw358 => k0_hw358.1
theorem k0_off768_inb : ∀ (v1269 : BitVec 32) (k0_hw358 : k0_chk358 v1269), ∀ a, (k0_off768 v1269) a + S1x64.size a ≤ S100000x64.size a := fun v1269 k0_hw358 => k0_hw358.2

def k0_off769 (v1279 : BitVec 32) : Fin 2 → Nat :=
  let c0_i32_2640 : BitVec 32 := 0#32
  ![v1279.toNat, 0]

def k0_chk359 (v1279 : BitVec 32) : Prop :=
  (∀ a, (k0_off639 v1279) a + S1x64.size a ≤ S100000x64.size a) ∧
  (∀ a, (k0_off769 v1279) a + S1x64.size a ≤ S100000x64.size a)
instance k0_chk359.dec : ∀ (v1279 : BitVec 32), Decidable (k0_chk359 v1279) := fun v1279 => decidable_of_iff' _ (Iff.of_eq (k0_chk359.eq_1 v1279))
theorem k0_off639_inb : ∀ (v1279 : BitVec 32) (k0_hw359 : k0_chk359 v1279), ∀ a, (k0_off639 v1279) a + S1x64.size a ≤ S100000x64.size a := fun v1279 k0_hw359 => k0_hw359.1
theorem k0_off769_inb : ∀ (v1279 : BitVec 32) (k0_hw359 : k0_chk359 v1279), ∀ a, (k0_off769 v1279) a + S1x64.size a ≤ S100000x64.size a := fun v1279 k0_hw359 => k0_hw359.2

def k0_off770 (v1289 : BitVec 32) : Fin 2 → Nat :=
  let c0_i32_2651 : BitVec 32 := 0#32
  ![v1289.toNat, 0]

def k0_chk360 (v1289 : BitVec 32) : Prop :=
  (∀ a, (k0_off640 v1289) a + S1x64.size a ≤ S100000x64.size a) ∧
  (∀ a, (k0_off770 v1289) a + S1x64.size a ≤ S100000x64.size a)
instance k0_chk360.dec : ∀ (v1289 : BitVec 32), Decidable (k0_chk360 v1289) := fun v1289 => decidable_of_iff' _ (Iff.of_eq (k0_chk360.eq_1 v1289))
theorem k0_off640_inb : ∀ (v1289 : BitVec 32) (k0_hw360 : k0_chk360 v1289), ∀ a, (k0_off640 v1289) a + S1x64.size a ≤ S100000x64.size a := fun v1289 k0_hw360 => k0_hw360.1
theorem k0_off770_inb : ∀ (v1289 : BitVec 32) (k0_hw360 : k0_chk360 v1289), ∀ a, (k0_off770 v1289) a + S1x64.size a ≤ S100000x64.size a := fun v1289 k0_hw360 => k0_hw360.2

def k0_off771 (v1299 : BitVec 32) : Fin 2 → Nat :=
  let c0_i32_2662 : BitVec 32 := 0#32
  ![v1299.toNat, 0]

def k0_chk361 (v1299 : BitVec 32) : Prop :=
  (∀ a, (k0_off641 v1299) a + S1x64.size a ≤ S100000x64.size a) ∧
  (∀ a, (k0_off771 v1299) a + S1x64.size a ≤ S100000x64.size a)
instance k0_chk361.dec : ∀ (v1299 : BitVec 32), Decidable (k0_chk361 v1299) := fun v1299 => decidable_of_iff' _ (Iff.of_eq (k0_chk361.eq_1 v1299))
theorem k0_off641_inb : ∀ (v1299 : BitVec 32) (k0_hw361 : k0_chk361 v1299), ∀ a, (k0_off641 v1299) a + S1x64.size a ≤ S100000x64.size a := fun v1299 k0_hw361 => k0_hw361.1
theorem k0_off771_inb : ∀ (v1299 : BitVec 32) (k0_hw361 : k0_chk361 v1299), ∀ a, (k0_off771 v1299) a + S1x64.size a ≤ S100000x64.size a := fun v1299 k0_hw361 => k0_hw361.2

def k0_off772 (v1309 : BitVec 32) : Fin 2 → Nat :=
  let c0_i32_2673 : BitVec 32 := 0#32
  ![v1309.toNat, 0]

def k0_chk362 (v1309 : BitVec 32) : Prop :=
  (∀ a, (k0_off642 v1309) a + S1x64.size a ≤ S100000x64.size a) ∧
  (∀ a, (k0_off772 v1309) a + S1x64.size a ≤ S100000x64.size a)
instance k0_chk362.dec : ∀ (v1309 : BitVec 32), Decidable (k0_chk362 v1309) := fun v1309 => decidable_of_iff' _ (Iff.of_eq (k0_chk362.eq_1 v1309))
theorem k0_off642_inb : ∀ (v1309 : BitVec 32) (k0_hw362 : k0_chk362 v1309), ∀ a, (k0_off642 v1309) a + S1x64.size a ≤ S100000x64.size a := fun v1309 k0_hw362 => k0_hw362.1
theorem k0_off772_inb : ∀ (v1309 : BitVec 32) (k0_hw362 : k0_chk362 v1309), ∀ a, (k0_off772 v1309) a + S1x64.size a ≤ S100000x64.size a := fun v1309 k0_hw362 => k0_hw362.2

def k0_off773 (v1319 : BitVec 32) : Fin 2 → Nat :=
  let c0_i32_2684 : BitVec 32 := 0#32
  ![v1319.toNat, 0]

def k0_chk363 (v1319 : BitVec 32) : Prop :=
  (∀ a, (k0_off643 v1319) a + S1x64.size a ≤ S100000x64.size a) ∧
  (∀ a, (k0_off773 v1319) a + S1x64.size a ≤ S100000x64.size a)
instance k0_chk363.dec : ∀ (v1319 : BitVec 32), Decidable (k0_chk363 v1319) := fun v1319 => decidable_of_iff' _ (Iff.of_eq (k0_chk363.eq_1 v1319))
theorem k0_off643_inb : ∀ (v1319 : BitVec 32) (k0_hw363 : k0_chk363 v1319), ∀ a, (k0_off643 v1319) a + S1x64.size a ≤ S100000x64.size a := fun v1319 k0_hw363 => k0_hw363.1
theorem k0_off773_inb : ∀ (v1319 : BitVec 32) (k0_hw363 : k0_chk363 v1319), ∀ a, (k0_off773 v1319) a + S1x64.size a ≤ S100000x64.size a := fun v1319 k0_hw363 => k0_hw363.2

def k0_off774 (v1329 : BitVec 32) : Fin 2 → Nat :=
  let c0_i32_2695 : BitVec 32 := 0#32
  ![v1329.toNat, 0]

def k0_chk364 (v1329 : BitVec 32) : Prop :=
  (∀ a, (k0_off644 v1329) a + S1x64.size a ≤ S100000x64.size a) ∧
  (∀ a, (k0_off774 v1329) a + S1x64.size a ≤ S100000x64.size a)
instance k0_chk364.dec : ∀ (v1329 : BitVec 32), Decidable (k0_chk364 v1329) := fun v1329 => decidable_of_iff' _ (Iff.of_eq (k0_chk364.eq_1 v1329))
theorem k0_off644_inb : ∀ (v1329 : BitVec 32) (k0_hw364 : k0_chk364 v1329), ∀ a, (k0_off644 v1329) a + S1x64.size a ≤ S100000x64.size a := fun v1329 k0_hw364 => k0_hw364.1
theorem k0_off774_inb : ∀ (v1329 : BitVec 32) (k0_hw364 : k0_chk364 v1329), ∀ a, (k0_off774 v1329) a + S1x64.size a ≤ S100000x64.size a := fun v1329 k0_hw364 => k0_hw364.2

def k0_off775 (v1339 : BitVec 32) : Fin 2 → Nat :=
  let c0_i32_2706 : BitVec 32 := 0#32
  ![v1339.toNat, 0]

def k0_chk365 (v1339 : BitVec 32) : Prop :=
  (∀ a, (k0_off645 v1339) a + S1x64.size a ≤ S100000x64.size a) ∧
  (∀ a, (k0_off775 v1339) a + S1x64.size a ≤ S100000x64.size a)
instance k0_chk365.dec : ∀ (v1339 : BitVec 32), Decidable (k0_chk365 v1339) := fun v1339 => decidable_of_iff' _ (Iff.of_eq (k0_chk365.eq_1 v1339))
theorem k0_off645_inb : ∀ (v1339 : BitVec 32) (k0_hw365 : k0_chk365 v1339), ∀ a, (k0_off645 v1339) a + S1x64.size a ≤ S100000x64.size a := fun v1339 k0_hw365 => k0_hw365.1
theorem k0_off775_inb : ∀ (v1339 : BitVec 32) (k0_hw365 : k0_chk365 v1339), ∀ a, (k0_off775 v1339) a + S1x64.size a ≤ S100000x64.size a := fun v1339 k0_hw365 => k0_hw365.2

def k0_off776 (v1349 : BitVec 32) : Fin 2 → Nat :=
  let c0_i32_2717 : BitVec 32 := 0#32
  ![v1349.toNat, 0]

def k0_chk366 (v1349 : BitVec 32) : Prop :=
  (∀ a, (k0_off646 v1349) a + S1x64.size a ≤ S100000x64.size a) ∧
  (∀ a, (k0_off776 v1349) a + S1x64.size a ≤ S100000x64.size a)
instance k0_chk366.dec : ∀ (v1349 : BitVec 32), Decidable (k0_chk366 v1349) := fun v1349 => decidable_of_iff' _ (Iff.of_eq (k0_chk366.eq_1 v1349))
theorem k0_off646_inb : ∀ (v1349 : BitVec 32) (k0_hw366 : k0_chk366 v1349), ∀ a, (k0_off646 v1349) a + S1x64.size a ≤ S100000x64.size a := fun v1349 k0_hw366 => k0_hw366.1
theorem k0_off776_inb : ∀ (v1349 : BitVec 32) (k0_hw366 : k0_chk366 v1349), ∀ a, (k0_off776 v1349) a + S1x64.size a ≤ S100000x64.size a := fun v1349 k0_hw366 => k0_hw366.2

def k0_off777 (v1359 : BitVec 32) : Fin 2 → Nat :=
  let c0_i32_2728 : BitVec 32 := 0#32
  ![v1359.toNat, 0]

def k0_chk367 (v1359 : BitVec 32) : Prop :=
  (∀ a, (k0_off647 v1359) a + S1x64.size a ≤ S100000x64.size a) ∧
  (∀ a, (k0_off777 v1359) a + S1x64.size a ≤ S100000x64.size a)
instance k0_chk367.dec : ∀ (v1359 : BitVec 32), Decidable (k0_chk367 v1359) := fun v1359 => decidable_of_iff' _ (Iff.of_eq (k0_chk367.eq_1 v1359))
theorem k0_off647_inb : ∀ (v1359 : BitVec 32) (k0_hw367 : k0_chk367 v1359), ∀ a, (k0_off647 v1359) a + S1x64.size a ≤ S100000x64.size a := fun v1359 k0_hw367 => k0_hw367.1
theorem k0_off777_inb : ∀ (v1359 : BitVec 32) (k0_hw367 : k0_chk367 v1359), ∀ a, (k0_off777 v1359) a + S1x64.size a ≤ S100000x64.size a := fun v1359 k0_hw367 => k0_hw367.2

def k0_off778 (v1369 : BitVec 32) : Fin 2 → Nat :=
  let c0_i32_2739 : BitVec 32 := 0#32
  ![v1369.toNat, 0]

def k0_chk368 (v1369 : BitVec 32) : Prop :=
  (∀ a, (k0_off648 v1369) a + S1x64.size a ≤ S100000x64.size a) ∧
  (∀ a, (k0_off778 v1369) a + S1x64.size a ≤ S100000x64.size a)
instance k0_chk368.dec : ∀ (v1369 : BitVec 32), Decidable (k0_chk368 v1369) := fun v1369 => decidable_of_iff' _ (Iff.of_eq (k0_chk368.eq_1 v1369))
theorem k0_off648_inb : ∀ (v1369 : BitVec 32) (k0_hw368 : k0_chk368 v1369), ∀ a, (k0_off648 v1369) a + S1x64.size a ≤ S100000x64.size a := fun v1369 k0_hw368 => k0_hw368.1
theorem k0_off778_inb : ∀ (v1369 : BitVec 32) (k0_hw368 : k0_chk368 v1369), ∀ a, (k0_off778 v1369) a + S1x64.size a ≤ S100000x64.size a := fun v1369 k0_hw368 => k0_hw368.2

def k0_off779 (v1414 : BitVec 32) : Fin 2 → Nat :=
  let c0_i32_2750 : BitVec 32 := 0#32
  ![v1414.toNat, 0]

def k0_chk369 (v1414 : BitVec 32) : Prop :=
  (∀ a, (k0_off650 v1414) a + S1x64.size a ≤ S100000x64.size a) ∧
  (∀ a, (k0_off779 v1414) a + S1x64.size a ≤ S100000x64.size a)
instance k0_chk369.dec : ∀ (v1414 : BitVec 32), Decidable (k0_chk369 v1414) := fun v1414 => decidable_of_iff' _ (Iff.of_eq (k0_chk369.eq_1 v1414))
theorem k0_off650_inb : ∀ (v1414 : BitVec 32) (k0_hw369 : k0_chk369 v1414), ∀ a, (k0_off650 v1414) a + S1x64.size a ≤ S100000x64.size a := fun v1414 k0_hw369 => k0_hw369.1
theorem k0_off779_inb : ∀ (v1414 : BitVec 32) (k0_hw369 : k0_chk369 v1414), ∀ a, (k0_off779 v1414) a + S1x64.size a ≤ S100000x64.size a := fun v1414 k0_hw369 => k0_hw369.2

def k0_off780 (v1424 : BitVec 32) : Fin 2 → Nat :=
  let c0_i32_2761 : BitVec 32 := 0#32
  ![v1424.toNat, 0]

def k0_chk370 (v1424 : BitVec 32) : Prop :=
  (∀ a, (k0_off651 v1424) a + S1x64.size a ≤ S100000x64.size a) ∧
  (∀ a, (k0_off780 v1424) a + S1x64.size a ≤ S100000x64.size a)
instance k0_chk370.dec : ∀ (v1424 : BitVec 32), Decidable (k0_chk370 v1424) := fun v1424 => decidable_of_iff' _ (Iff.of_eq (k0_chk370.eq_1 v1424))
theorem k0_off651_inb : ∀ (v1424 : BitVec 32) (k0_hw370 : k0_chk370 v1424), ∀ a, (k0_off651 v1424) a + S1x64.size a ≤ S100000x64.size a := fun v1424 k0_hw370 => k0_hw370.1
theorem k0_off780_inb : ∀ (v1424 : BitVec 32) (k0_hw370 : k0_chk370 v1424), ∀ a, (k0_off780 v1424) a + S1x64.size a ≤ S100000x64.size a := fun v1424 k0_hw370 => k0_hw370.2

def k0_off781 (v1434 : BitVec 32) : Fin 2 → Nat :=
  let c0_i32_2772 : BitVec 32 := 0#32
  ![v1434.toNat, 0]

def k0_chk371 (v1434 : BitVec 32) : Prop :=
  (∀ a, (k0_off652 v1434) a + S1x64.size a ≤ S100000x64.size a) ∧
  (∀ a, (k0_off781 v1434) a + S1x64.size a ≤ S100000x64.size a)
instance k0_chk371.dec : ∀ (v1434 : BitVec 32), Decidable (k0_chk371 v1434) := fun v1434 => decidable_of_iff' _ (Iff.of_eq (k0_chk371.eq_1 v1434))
theorem k0_off652_inb : ∀ (v1434 : BitVec 32) (k0_hw371 : k0_chk371 v1434), ∀ a, (k0_off652 v1434) a + S1x64.size a ≤ S100000x64.size a := fun v1434 k0_hw371 => k0_hw371.1
theorem k0_off781_inb : ∀ (v1434 : BitVec 32) (k0_hw371 : k0_chk371 v1434), ∀ a, (k0_off781 v1434) a + S1x64.size a ≤ S100000x64.size a := fun v1434 k0_hw371 => k0_hw371.2

def k0_off782 (v1444 : BitVec 32) : Fin 2 → Nat :=
  let c0_i32_2783 : BitVec 32 := 0#32
  ![v1444.toNat, 0]

def k0_chk372 (v1444 : BitVec 32) : Prop :=
  (∀ a, (k0_off653 v1444) a + S1x64.size a ≤ S100000x64.size a) ∧
  (∀ a, (k0_off782 v1444) a + S1x64.size a ≤ S100000x64.size a)
instance k0_chk372.dec : ∀ (v1444 : BitVec 32), Decidable (k0_chk372 v1444) := fun v1444 => decidable_of_iff' _ (Iff.of_eq (k0_chk372.eq_1 v1444))
theorem k0_off653_inb : ∀ (v1444 : BitVec 32) (k0_hw372 : k0_chk372 v1444), ∀ a, (k0_off653 v1444) a + S1x64.size a ≤ S100000x64.size a := fun v1444 k0_hw372 => k0_hw372.1
theorem k0_off782_inb : ∀ (v1444 : BitVec 32) (k0_hw372 : k0_chk372 v1444), ∀ a, (k0_off782 v1444) a + S1x64.size a ≤ S100000x64.size a := fun v1444 k0_hw372 => k0_hw372.2

def k0_off783 (v1454 : BitVec 32) : Fin 2 → Nat :=
  let c0_i32_2794 : BitVec 32 := 0#32
  ![v1454.toNat, 0]

def k0_chk373 (v1454 : BitVec 32) : Prop :=
  (∀ a, (k0_off654 v1454) a + S1x64.size a ≤ S100000x64.size a) ∧
  (∀ a, (k0_off783 v1454) a + S1x64.size a ≤ S100000x64.size a)
instance k0_chk373.dec : ∀ (v1454 : BitVec 32), Decidable (k0_chk373 v1454) := fun v1454 => decidable_of_iff' _ (Iff.of_eq (k0_chk373.eq_1 v1454))
theorem k0_off654_inb : ∀ (v1454 : BitVec 32) (k0_hw373 : k0_chk373 v1454), ∀ a, (k0_off654 v1454) a + S1x64.size a ≤ S100000x64.size a := fun v1454 k0_hw373 => k0_hw373.1
theorem k0_off783_inb : ∀ (v1454 : BitVec 32) (k0_hw373 : k0_chk373 v1454), ∀ a, (k0_off783 v1454) a + S1x64.size a ≤ S100000x64.size a := fun v1454 k0_hw373 => k0_hw373.2

def k0_off784 (v1464 : BitVec 32) : Fin 2 → Nat :=
  let c0_i32_2805 : BitVec 32 := 0#32
  ![v1464.toNat, 0]

def k0_chk374 (v1464 : BitVec 32) : Prop :=
  (∀ a, (k0_off655 v1464) a + S1x64.size a ≤ S100000x64.size a) ∧
  (∀ a, (k0_off784 v1464) a + S1x64.size a ≤ S100000x64.size a)
instance k0_chk374.dec : ∀ (v1464 : BitVec 32), Decidable (k0_chk374 v1464) := fun v1464 => decidable_of_iff' _ (Iff.of_eq (k0_chk374.eq_1 v1464))
theorem k0_off655_inb : ∀ (v1464 : BitVec 32) (k0_hw374 : k0_chk374 v1464), ∀ a, (k0_off655 v1464) a + S1x64.size a ≤ S100000x64.size a := fun v1464 k0_hw374 => k0_hw374.1
theorem k0_off784_inb : ∀ (v1464 : BitVec 32) (k0_hw374 : k0_chk374 v1464), ∀ a, (k0_off784 v1464) a + S1x64.size a ≤ S100000x64.size a := fun v1464 k0_hw374 => k0_hw374.2

def k0_off785 (v1474 : BitVec 32) : Fin 2 → Nat :=
  let c0_i32_2816 : BitVec 32 := 0#32
  ![v1474.toNat, 0]

def k0_chk375 (v1474 : BitVec 32) : Prop :=
  (∀ a, (k0_off656 v1474) a + S1x64.size a ≤ S100000x64.size a) ∧
  (∀ a, (k0_off785 v1474) a + S1x64.size a ≤ S100000x64.size a)
instance k0_chk375.dec : ∀ (v1474 : BitVec 32), Decidable (k0_chk375 v1474) := fun v1474 => decidable_of_iff' _ (Iff.of_eq (k0_chk375.eq_1 v1474))
theorem k0_off656_inb : ∀ (v1474 : BitVec 32) (k0_hw375 : k0_chk375 v1474), ∀ a, (k0_off656 v1474) a + S1x64.size a ≤ S100000x64.size a := fun v1474 k0_hw375 => k0_hw375.1
theorem k0_off785_inb : ∀ (v1474 : BitVec 32) (k0_hw375 : k0_chk375 v1474), ∀ a, (k0_off785 v1474) a + S1x64.size a ≤ S100000x64.size a := fun v1474 k0_hw375 => k0_hw375.2

def k0_off786 (v1484 : BitVec 32) : Fin 2 → Nat :=
  let c0_i32_2827 : BitVec 32 := 0#32
  ![v1484.toNat, 0]

def k0_chk376 (v1484 : BitVec 32) : Prop :=
  (∀ a, (k0_off657 v1484) a + S1x64.size a ≤ S100000x64.size a) ∧
  (∀ a, (k0_off786 v1484) a + S1x64.size a ≤ S100000x64.size a)
instance k0_chk376.dec : ∀ (v1484 : BitVec 32), Decidable (k0_chk376 v1484) := fun v1484 => decidable_of_iff' _ (Iff.of_eq (k0_chk376.eq_1 v1484))
theorem k0_off657_inb : ∀ (v1484 : BitVec 32) (k0_hw376 : k0_chk376 v1484), ∀ a, (k0_off657 v1484) a + S1x64.size a ≤ S100000x64.size a := fun v1484 k0_hw376 => k0_hw376.1
theorem k0_off786_inb : ∀ (v1484 : BitVec 32) (k0_hw376 : k0_chk376 v1484), ∀ a, (k0_off786 v1484) a + S1x64.size a ≤ S100000x64.size a := fun v1484 k0_hw376 => k0_hw376.2

def k0_off787 (v1494 : BitVec 32) : Fin 2 → Nat :=
  let c0_i32_2838 : BitVec 32 := 0#32
  ![v1494.toNat, 0]

def k0_chk377 (v1494 : BitVec 32) : Prop :=
  (∀ a, (k0_off658 v1494) a + S1x64.size a ≤ S100000x64.size a) ∧
  (∀ a, (k0_off787 v1494) a + S1x64.size a ≤ S100000x64.size a)
instance k0_chk377.dec : ∀ (v1494 : BitVec 32), Decidable (k0_chk377 v1494) := fun v1494 => decidable_of_iff' _ (Iff.of_eq (k0_chk377.eq_1 v1494))
theorem k0_off658_inb : ∀ (v1494 : BitVec 32) (k0_hw377 : k0_chk377 v1494), ∀ a, (k0_off658 v1494) a + S1x64.size a ≤ S100000x64.size a := fun v1494 k0_hw377 => k0_hw377.1
theorem k0_off787_inb : ∀ (v1494 : BitVec 32) (k0_hw377 : k0_chk377 v1494), ∀ a, (k0_off787 v1494) a + S1x64.size a ≤ S100000x64.size a := fun v1494 k0_hw377 => k0_hw377.2

def k0_off788 (v1504 : BitVec 32) : Fin 2 → Nat :=
  let c0_i32_2849 : BitVec 32 := 0#32
  ![v1504.toNat, 0]

def k0_chk378 (v1504 : BitVec 32) : Prop :=
  (∀ a, (k0_off659 v1504) a + S1x64.size a ≤ S100000x64.size a) ∧
  (∀ a, (k0_off788 v1504) a + S1x64.size a ≤ S100000x64.size a)
instance k0_chk378.dec : ∀ (v1504 : BitVec 32), Decidable (k0_chk378 v1504) := fun v1504 => decidable_of_iff' _ (Iff.of_eq (k0_chk378.eq_1 v1504))
theorem k0_off659_inb : ∀ (v1504 : BitVec 32) (k0_hw378 : k0_chk378 v1504), ∀ a, (k0_off659 v1504) a + S1x64.size a ≤ S100000x64.size a := fun v1504 k0_hw378 => k0_hw378.1
theorem k0_off788_inb : ∀ (v1504 : BitVec 32) (k0_hw378 : k0_chk378 v1504), ∀ a, (k0_off788 v1504) a + S1x64.size a ≤ S100000x64.size a := fun v1504 k0_hw378 => k0_hw378.2

def k0_off789 (v1514 : BitVec 32) : Fin 2 → Nat :=
  let c0_i32_2860 : BitVec 32 := 0#32
  ![v1514.toNat, 0]

def k0_chk379 (v1514 : BitVec 32) : Prop :=
  (∀ a, (k0_off660 v1514) a + S1x64.size a ≤ S100000x64.size a) ∧
  (∀ a, (k0_off789 v1514) a + S1x64.size a ≤ S100000x64.size a)
instance k0_chk379.dec : ∀ (v1514 : BitVec 32), Decidable (k0_chk379 v1514) := fun v1514 => decidable_of_iff' _ (Iff.of_eq (k0_chk379.eq_1 v1514))
theorem k0_off660_inb : ∀ (v1514 : BitVec 32) (k0_hw379 : k0_chk379 v1514), ∀ a, (k0_off660 v1514) a + S1x64.size a ≤ S100000x64.size a := fun v1514 k0_hw379 => k0_hw379.1
theorem k0_off789_inb : ∀ (v1514 : BitVec 32) (k0_hw379 : k0_chk379 v1514), ∀ a, (k0_off789 v1514) a + S1x64.size a ≤ S100000x64.size a := fun v1514 k0_hw379 => k0_hw379.2

def k0_off790 (v1524 : BitVec 32) : Fin 2 → Nat :=
  let c0_i32_2871 : BitVec 32 := 0#32
  ![v1524.toNat, 0]

def k0_chk380 (v1524 : BitVec 32) : Prop :=
  (∀ a, (k0_off661 v1524) a + S1x64.size a ≤ S100000x64.size a) ∧
  (∀ a, (k0_off790 v1524) a + S1x64.size a ≤ S100000x64.size a)
instance k0_chk380.dec : ∀ (v1524 : BitVec 32), Decidable (k0_chk380 v1524) := fun v1524 => decidable_of_iff' _ (Iff.of_eq (k0_chk380.eq_1 v1524))
theorem k0_off661_inb : ∀ (v1524 : BitVec 32) (k0_hw380 : k0_chk380 v1524), ∀ a, (k0_off661 v1524) a + S1x64.size a ≤ S100000x64.size a := fun v1524 k0_hw380 => k0_hw380.1
theorem k0_off790_inb : ∀ (v1524 : BitVec 32) (k0_hw380 : k0_chk380 v1524), ∀ a, (k0_off790 v1524) a + S1x64.size a ≤ S100000x64.size a := fun v1524 k0_hw380 => k0_hw380.2

def k0_off791 (v1534 : BitVec 32) : Fin 2 → Nat :=
  let c0_i32_2882 : BitVec 32 := 0#32
  ![v1534.toNat, 0]

def k0_chk381 (v1534 : BitVec 32) : Prop :=
  (∀ a, (k0_off662 v1534) a + S1x64.size a ≤ S100000x64.size a) ∧
  (∀ a, (k0_off791 v1534) a + S1x64.size a ≤ S100000x64.size a)
instance k0_chk381.dec : ∀ (v1534 : BitVec 32), Decidable (k0_chk381 v1534) := fun v1534 => decidable_of_iff' _ (Iff.of_eq (k0_chk381.eq_1 v1534))
theorem k0_off662_inb : ∀ (v1534 : BitVec 32) (k0_hw381 : k0_chk381 v1534), ∀ a, (k0_off662 v1534) a + S1x64.size a ≤ S100000x64.size a := fun v1534 k0_hw381 => k0_hw381.1
theorem k0_off791_inb : ∀ (v1534 : BitVec 32) (k0_hw381 : k0_chk381 v1534), ∀ a, (k0_off791 v1534) a + S1x64.size a ≤ S100000x64.size a := fun v1534 k0_hw381 => k0_hw381.2

def k0_off792 (v1544 : BitVec 32) : Fin 2 → Nat :=
  let c0_i32_2893 : BitVec 32 := 0#32
  ![v1544.toNat, 0]

def k0_chk382 (v1544 : BitVec 32) : Prop :=
  (∀ a, (k0_off663 v1544) a + S1x64.size a ≤ S100000x64.size a) ∧
  (∀ a, (k0_off792 v1544) a + S1x64.size a ≤ S100000x64.size a)
instance k0_chk382.dec : ∀ (v1544 : BitVec 32), Decidable (k0_chk382 v1544) := fun v1544 => decidable_of_iff' _ (Iff.of_eq (k0_chk382.eq_1 v1544))
theorem k0_off663_inb : ∀ (v1544 : BitVec 32) (k0_hw382 : k0_chk382 v1544), ∀ a, (k0_off663 v1544) a + S1x64.size a ≤ S100000x64.size a := fun v1544 k0_hw382 => k0_hw382.1
theorem k0_off792_inb : ∀ (v1544 : BitVec 32) (k0_hw382 : k0_chk382 v1544), ∀ a, (k0_off792 v1544) a + S1x64.size a ≤ S100000x64.size a := fun v1544 k0_hw382 => k0_hw382.2

def k0_off793 (v1554 : BitVec 32) : Fin 2 → Nat :=
  let c0_i32_2904 : BitVec 32 := 0#32
  ![v1554.toNat, 0]

def k0_chk383 (v1554 : BitVec 32) : Prop :=
  (∀ a, (k0_off664 v1554) a + S1x64.size a ≤ S100000x64.size a) ∧
  (∀ a, (k0_off793 v1554) a + S1x64.size a ≤ S100000x64.size a)
instance k0_chk383.dec : ∀ (v1554 : BitVec 32), Decidable (k0_chk383 v1554) := fun v1554 => decidable_of_iff' _ (Iff.of_eq (k0_chk383.eq_1 v1554))
theorem k0_off664_inb : ∀ (v1554 : BitVec 32) (k0_hw383 : k0_chk383 v1554), ∀ a, (k0_off664 v1554) a + S1x64.size a ≤ S100000x64.size a := fun v1554 k0_hw383 => k0_hw383.1
theorem k0_off793_inb : ∀ (v1554 : BitVec 32) (k0_hw383 : k0_chk383 v1554), ∀ a, (k0_off793 v1554) a + S1x64.size a ≤ S100000x64.size a := fun v1554 k0_hw383 => k0_hw383.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x1_S128x128 : S16384x1.ShapeCasts S128x128
  h_S1x16 : 0 < S1x16.numel
  shapeCasts_S1x16_S16 : S1x16.ShapeCasts S16
  slices_S16_o0_S1 : S16.Slices ![0] S1
  inpos_S1_p0 : ∀ a, (![0] : Fin 1 → Nat) a < S1.size a
  inb_S2x64x64_S1x64x64_0_0_0 : ∀ a, (![0, 0, 0] : Fin 3 → Nat) a + S1x64x64.size a ≤ S2x64x64.size a
  squeezes_S1x64x64_S64x64 : S1x64x64.Squeezes S64x64
  inb_S64x64_S1x64_0_0 : ∀ a, (![0, 0] : Fin 2 → Nat) a + S1x64.size a ≤ S64x64.size a
  slices_S16_o1_S1 : S16.Slices ![1] S1
  inb_S64x64_S1x64_1_0 : ∀ a, (![1, 0] : Fin 2 → Nat) a + S1x64.size a ≤ S64x64.size a
  slices_S16_o2_S1 : S16.Slices ![2] S1
  inb_S64x64_S1x64_2_0 : ∀ a, (![2, 0] : Fin 2 → Nat) a + S1x64.size a ≤ S64x64.size a
  slices_S16_o3_S1 : S16.Slices ![3] S1
  inb_S64x64_S1x64_3_0 : ∀ a, (![3, 0] : Fin 2 → Nat) a + S1x64.size a ≤ S64x64.size a
  slices_S16_o4_S1 : S16.Slices ![4] S1
  inb_S64x64_S1x64_4_0 : ∀ a, (![4, 0] : Fin 2 → Nat) a + S1x64.size a ≤ S64x64.size a
  slices_S16_o5_S1 : S16.Slices ![5] S1
  inb_S64x64_S1x64_5_0 : ∀ a, (![5, 0] : Fin 2 → Nat) a + S1x64.size a ≤ S64x64.size a
  slices_S16_o6_S1 : S16.Slices ![6] S1
  inb_S64x64_S1x64_6_0 : ∀ a, (![6, 0] : Fin 2 → Nat) a + S1x64.size a ≤ S64x64.size a
  slices_S16_o7_S1 : S16.Slices ![7] S1
  inb_S64x64_S1x64_7_0 : ∀ a, (![7, 0] : Fin 2 → Nat) a + S1x64.size a ≤ S64x64.size a
  slices_S16_o8_S1 : S16.Slices ![8] S1
  inb_S64x64_S1x64_8_0 : ∀ a, (![8, 0] : Fin 2 → Nat) a + S1x64.size a ≤ S64x64.size a
  slices_S16_o9_S1 : S16.Slices ![9] S1
  inb_S64x64_S1x64_9_0 : ∀ a, (![9, 0] : Fin 2 → Nat) a + S1x64.size a ≤ S64x64.size a
  slices_S16_o10_S1 : S16.Slices ![10] S1
  inb_S64x64_S1x64_10_0 : ∀ a, (![10, 0] : Fin 2 → Nat) a + S1x64.size a ≤ S64x64.size a
  slices_S16_o11_S1 : S16.Slices ![11] S1
  inb_S64x64_S1x64_11_0 : ∀ a, (![11, 0] : Fin 2 → Nat) a + S1x64.size a ≤ S64x64.size a
  slices_S16_o12_S1 : S16.Slices ![12] S1
  inb_S64x64_S1x64_12_0 : ∀ a, (![12, 0] : Fin 2 → Nat) a + S1x64.size a ≤ S64x64.size a
  slices_S16_o13_S1 : S16.Slices ![13] S1
  inb_S64x64_S1x64_13_0 : ∀ a, (![13, 0] : Fin 2 → Nat) a + S1x64.size a ≤ S64x64.size a
  slices_S16_o14_S1 : S16.Slices ![14] S1
  inb_S64x64_S1x64_14_0 : ∀ a, (![14, 0] : Fin 2 → Nat) a + S1x64.size a ≤ S64x64.size a
  slices_S16_o15_S1 : S16.Slices ![15] S1
  inb_S64x64_S1x64_15_0 : ∀ a, (![15, 0] : Fin 2 → Nat) a + S1x64.size a ≤ S64x64.size a
  inb_S64x64_S1x64_16_0 : ∀ a, (![16, 0] : Fin 2 → Nat) a + S1x64.size a ≤ S64x64.size a
  inb_S64x64_S1x64_17_0 : ∀ a, (![17, 0] : Fin 2 → Nat) a + S1x64.size a ≤ S64x64.size a
  inb_S64x64_S1x64_18_0 : ∀ a, (![18, 0] : Fin 2 → Nat) a + S1x64.size a ≤ S64x64.size a
  inb_S64x64_S1x64_19_0 : ∀ a, (![19, 0] : Fin 2 → Nat) a + S1x64.size a ≤ S64x64.size a
  inb_S64x64_S1x64_20_0 : ∀ a, (![20, 0] : Fin 2 → Nat) a + S1x64.size a ≤ S64x64.size a
  inb_S64x64_S1x64_21_0 : ∀ a, (![21, 0] : Fin 2 → Nat) a + S1x64.size a ≤ S64x64.size a
  inb_S64x64_S1x64_22_0 : ∀ a, (![22, 0] : Fin 2 → Nat) a + S1x64.size a ≤ S64x64.size a
  inb_S64x64_S1x64_23_0 : ∀ a, (![23, 0] : Fin 2 → Nat) a + S1x64.size a ≤ S64x64.size a
  inb_S64x64_S1x64_24_0 : ∀ a, (![24, 0] : Fin 2 → Nat) a + S1x64.size a ≤ S64x64.size a
  inb_S64x64_S1x64_25_0 : ∀ a, (![25, 0] : Fin 2 → Nat) a + S1x64.size a ≤ S64x64.size a
  inb_S64x64_S1x64_26_0 : ∀ a, (![26, 0] : Fin 2 → Nat) a + S1x64.size a ≤ S64x64.size a
  inb_S64x64_S1x64_27_0 : ∀ a, (![27, 0] : Fin 2 → Nat) a + S1x64.size a ≤ S64x64.size a
  inb_S64x64_S1x64_28_0 : ∀ a, (![28, 0] : Fin 2 → Nat) a + S1x64.size a ≤ S64x64.size a
  inb_S64x64_S1x64_29_0 : ∀ a, (![29, 0] : Fin 2 → Nat) a + S1x64.size a ≤ S64x64.size a
  inb_S64x64_S1x64_30_0 : ∀ a, (![30, 0] : Fin 2 → Nat) a + S1x64.size a ≤ S64x64.size a
  inb_S64x64_S1x64_31_0 : ∀ a, (![31, 0] : Fin 2 → Nat) a + S1x64.size a ≤ S64x64.size a
  inb_S64x64_S1x64_32_0 : ∀ a, (![32, 0] : Fin 2 → Nat) a + S1x64.size a ≤ S64x64.size a
  inb_S64x64_S1x64_33_0 : ∀ a, (![33, 0] : Fin 2 → Nat) a + S1x64.size a ≤ S64x64.size a
  inb_S64x64_S1x64_34_0 : ∀ a, (![34, 0] : Fin 2 → Nat) a + S1x64.size a ≤ S64x64.size a
  inb_S64x64_S1x64_35_0 : ∀ a, (![35, 0] : Fin 2 → Nat) a + S1x64.size a ≤ S64x64.size a
  inb_S64x64_S1x64_36_0 : ∀ a, (![36, 0] : Fin 2 → Nat) a + S1x64.size a ≤ S64x64.size a
  inb_S64x64_S1x64_37_0 : ∀ a, (![37, 0] : Fin 2 → Nat) a + S1x64.size a ≤ S64x64.size a
  inb_S64x64_S1x64_38_0 : ∀ a, (![38, 0] : Fin 2 → Nat) a + S1x64.size a ≤ S64x64.size a
  inb_S64x64_S1x64_39_0 : ∀ a, (![39, 0] : Fin 2 → Nat) a + S1x64.size a ≤ S64x64.size a
  inb_S64x64_S1x64_40_0 : ∀ a, (![40, 0] : Fin 2 → Nat) a + S1x64.size a ≤ S64x64.size a
  inb_S64x64_S1x64_41_0 : ∀ a, (![41, 0] : Fin 2 → Nat) a + S1x64.size a ≤ S64x64.size a
  inb_S64x64_S1x64_42_0 : ∀ a, (![42, 0] : Fin 2 → Nat) a + S1x64.size a ≤ S64x64.size a
  inb_S64x64_S1x64_43_0 : ∀ a, (![43, 0] : Fin 2 → Nat) a + S1x64.size a ≤ S64x64.size a
  inb_S64x64_S1x64_44_0 : ∀ a, (![44, 0] : Fin 2 → Nat) a + S1x64.size a ≤ S64x64.size a
  inb_S64x64_S1x64_45_0 : ∀ a, (![45, 0] : Fin 2 → Nat) a + S1x64.size a ≤ S64x64.size a
  inb_S64x64_S1x64_46_0 : ∀ a, (![46, 0] : Fin 2 → Nat) a + S1x64.size a ≤ S64x64.size a
  inb_S64x64_S1x64_47_0 : ∀ a, (![47, 0] : Fin 2 → Nat) a + S1x64.size a ≤ S64x64.size a
  inb_S64x64_S1x64_48_0 : ∀ a, (![48, 0] : Fin 2 → Nat) a + S1x64.size a ≤ S64x64.size a
  inb_S64x64_S1x64_49_0 : ∀ a, (![49, 0] : Fin 2 → Nat) a + S1x64.size a ≤ S64x64.size a
  inb_S64x64_S1x64_50_0 : ∀ a, (![50, 0] : Fin 2 → Nat) a + S1x64.size a ≤ S64x64.size a
  inb_S64x64_S1x64_51_0 : ∀ a, (![51, 0] : Fin 2 → Nat) a + S1x64.size a ≤ S64x64.size a
  inb_S64x64_S1x64_52_0 : ∀ a, (![52, 0] : Fin 2 → Nat) a + S1x64.size a ≤ S64x64.size a
  inb_S64x64_S1x64_53_0 : ∀ a, (![53, 0] : Fin 2 → Nat) a + S1x64.size a ≤ S64x64.size a
  inb_S64x64_S1x64_54_0 : ∀ a, (![54, 0] : Fin 2 → Nat) a + S1x64.size a ≤ S64x64.size a
  inb_S64x64_S1x64_55_0 : ∀ a, (![55, 0] : Fin 2 → Nat) a + S1x64.size a ≤ S64x64.size a
  inb_S64x64_S1x64_56_0 : ∀ a, (![56, 0] : Fin 2 → Nat) a + S1x64.size a ≤ S64x64.size a
  inb_S64x64_S1x64_57_0 : ∀ a, (![57, 0] : Fin 2 → Nat) a + S1x64.size a ≤ S64x64.size a
  inb_S64x64_S1x64_58_0 : ∀ a, (![58, 0] : Fin 2 → Nat) a + S1x64.size a ≤ S64x64.size a
  inb_S64x64_S1x64_59_0 : ∀ a, (![59, 0] : Fin 2 → Nat) a + S1x64.size a ≤ S64x64.size a
  inb_S64x64_S1x64_60_0 : ∀ a, (![60, 0] : Fin 2 → Nat) a + S1x64.size a ≤ S64x64.size a
  inb_S64x64_S1x64_61_0 : ∀ a, (![61, 0] : Fin 2 → Nat) a + S1x64.size a ≤ S64x64.size a
  inb_S64x64_S1x64_62_0 : ∀ a, (![62, 0] : Fin 2 → Nat) a + S1x64.size a ≤ S64x64.size a
  inb_S64x64_S1x64_63_0 : ∀ a, (![63, 0] : Fin 2 → Nat) a + S1x64.size a ≤ S64x64.size a
  inb_S2x64x64_S1x64x64_1_0_0 : ∀ a, (![1, 0, 0] : Fin 3 → Nat) a + S1x64x64.size a ≤ S2x64x64.size a
  hcc0_scratch4 : 0 + S_.numel ≤ 13
  hcc0_scratch5 : 1 + S_.numel ≤ 13
  hcc0_scratch6 : 2 + S_.numel ≤ 13
  hcc0_scratch7 : 3 + S_.numel ≤ 13
  hcc0_scratch8 : 4 + S_.numel ≤ 13
  hcc0_scratch9 : 5 + S_.numel ≤ 13
  hcc0_scratch10 : 6 + S_.numel ≤ 13
  hcc0_scratch11 : 7 + S_.numel ≤ 13
  hcc0_scratch12 : 8 + S_.numel ≤ 13
  hcc0_scratch13 : 9 + S_.numel ≤ 13
  hcc0_scoped0 : 10 + S_.numel ≤ 13
  hcc0_scoped1 : 11 + S_.numel ≤ 13
  hcc0_scoped2 : 12 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S4x128.size a ≤ S128x128.size a
  k0_t1_ok : k0_t1_loop.OK
  k0_off2_inb : ∀ k0_t1 : Fin k0_t1_loop.trips, ∀ a, (k0_off2 k0_t1) a + S1x16.size a ≤ S4x128.size a
  k0_off19_inb : ∀ k0_t1 : Fin k0_t1_loop.trips, ∀ a, (k0_off19 k0_t1) a + S1x16.size a ≤ S4x128.size a
  k0_off36_inb : ∀ k0_t1 : Fin k0_t1_loop.trips, ∀ a, (k0_off36 k0_t1) a + S1x16.size a ≤ S4x128.size a
  k0_off53_inb : ∀ k0_t1 : Fin k0_t1_loop.trips, ∀ a, (k0_off53 k0_t1) a + S1x16.size a ≤ S4x128.size a
  k0_off70_inb : ∀ k0_t1 : Fin k0_t1_loop.trips, ∀ a, (k0_off70 k0_t1) a + S1x16.size a ≤ S4x128.size a
  k0_off87_inb : ∀ k0_t1 : Fin k0_t1_loop.trips, ∀ a, (k0_off87 k0_t1) a + S1x16.size a ≤ S4x128.size a
  k0_off104_inb : ∀ k0_t1 : Fin k0_t1_loop.trips, ∀ a, (k0_off104 k0_t1) a + S1x16.size a ≤ S4x128.size a
  k0_off121_inb : ∀ k0_t1 : Fin k0_t1_loop.trips, ∀ a, (k0_off121 k0_t1) a + S1x16.size a ≤ S4x128.size a
  k0_off202_inb : ∀ (i : grid0.Coords) (k0_t1 : Fin k0_t1_loop.trips), ∀ (r : Fin 2), ∀ a, (k0_off202 i k0_t1 (BitVec.ofNat 32 r.val)) a + S64x64.size a ≤ S16384x64.size a
  k0_t2_ok : k0_t2_loop.OK
  k0_off266_inb : ∀ k0_t2 : Fin k0_t2_loop.trips, ∀ a, (k0_off266 k0_t2) a + S1x16.size a ≤ S4x128.size a
  k0_off283_inb : ∀ k0_t2 : Fin k0_t2_loop.trips, ∀ a, (k0_off283 k0_t2) a + S1x16.size a ≤ S4x128.size a
  k0_off300_inb : ∀ k0_t2 : Fin k0_t2_loop.trips, ∀ a, (k0_off300 k0_t2) a + S1x16.size a ≤ S4x128.size a
  k0_off317_inb : ∀ k0_t2 : Fin k0_t2_loop.trips, ∀ a, (k0_off317 k0_t2) a + S1x16.size a ≤ S4x128.size a
  k0_off334_inb : ∀ k0_t2 : Fin k0_t2_loop.trips, ∀ a, (k0_off334 k0_t2) a + S1x16.size a ≤ S4x128.size a
  k0_off351_inb : ∀ k0_t2 : Fin k0_t2_loop.trips, ∀ a, (k0_off351 k0_t2) a + S1x16.size a ≤ S4x128.size a
  k0_off368_inb : ∀ k0_t2 : Fin k0_t2_loop.trips, ∀ a, (k0_off368 k0_t2) a + S1x16.size a ≤ S4x128.size a
  k0_off385_inb : ∀ k0_t2 : Fin k0_t2_loop.trips, ∀ a, (k0_off385 k0_t2) a + S1x16.size a ≤ S4x128.size a
  k0_off466_inb : ∀ (i : grid0.Coords) (k0_t2 : Fin k0_t2_loop.trips), ∀ (r : Fin 2), ∀ a, (k0_off466 i k0_t2 (BitVec.ofNat 32 r.val)) a + S64x64.size a ≤ S16384x64.size a
  k0_t3_ok : k0_t3_loop.OK
  k0_off530_inb : ∀ k0_t3 : Fin k0_t3_loop.trips, ∀ a, (k0_off530 k0_t3) a + S1x16.size a ≤ S4x128.size a
  k0_off547_inb : ∀ k0_t3 : Fin k0_t3_loop.trips, ∀ a, (k0_off547 k0_t3) a + S1x16.size a ≤ S4x128.size a
  k0_off564_inb : ∀ k0_t3 : Fin k0_t3_loop.trips, ∀ a, (k0_off564 k0_t3) a + S1x16.size a ≤ S4x128.size a
  k0_off581_inb : ∀ k0_t3 : Fin k0_t3_loop.trips, ∀ a, (k0_off581 k0_t3) a + S1x16.size a ≤ S4x128.size a
  k0_off598_inb : ∀ k0_t3 : Fin k0_t3_loop.trips, ∀ a, (k0_off598 k0_t3) a + S1x16.size a ≤ S4x128.size a
  k0_off615_inb : ∀ k0_t3 : Fin k0_t3_loop.trips, ∀ a, (k0_off615 k0_t3) a + S1x16.size a ≤ S4x128.size a
  k0_off632_inb : ∀ k0_t3 : Fin k0_t3_loop.trips, ∀ a, (k0_off632 k0_t3) a + S1x16.size a ≤ S4x128.size a
  k0_off649_inb : ∀ k0_t3 : Fin k0_t3_loop.trips, ∀ a, (k0_off649 k0_t3) a + S1x16.size a ≤ S4x128.size a
  k0_off730_inb : ∀ (i : grid0.Coords) (k0_t3 : Fin k0_t3_loop.trips), ∀ (r : Fin 2), ∀ a, (k0_off730 i k0_t3 (BitVec.ofNat 32 r.val)) a + S64x64.size a ≤ S16384x64.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scratch8 : DmaSems sig S_ := SemArray.consecutive 4 S_ hcc0_scratch8
abbrev cc0_scratch9 : DmaSems sig S_ := SemArray.consecutive 5 S_ hcc0_scratch9
abbrev cc0_scratch10 : DmaSems sig S_ := SemArray.consecutive 6 S_ hcc0_scratch10
abbrev cc0_scratch11 : DmaSems sig S_ := SemArray.consecutive 7 S_ hcc0_scratch11
abbrev cc0_scratch12 : DmaSems sig S_ := SemArray.consecutive 8 S_ hcc0_scratch12
abbrev cc0_scratch13 : DmaSems sig S_ := SemArray.consecutive 9 S_ hcc0_scratch13
abbrev cc0_scoped0 : DmaSems sig S_ := SemArray.consecutive 10 S_ hcc0_scoped0
abbrev cc0_scoped1 : DmaSems sig S_ := SemArray.consecutive 11 S_ hcc0_scoped1
abbrev cc0_scoped2 : DmaSems sig S_ := SemArray.consecutive 12 S_ hcc0_scoped2

class Facts : Prop extends Facts₀ where

variable [Facts]
-- ==== ReferenceIdeal.lean ====
abbrev S16384x1 : Shape := ⟨2, ![16384, 1]⟩
abbrev S1000000x64 : Shape := ⟨2, ![1000000, 64]⟩
abbrev S100000x64 : Shape := ⟨2, ![100000, 64]⟩
abbrev S16384 : Shape := ⟨1, ![16384]⟩
abbrev S_ : Shape := ⟨0, ![]⟩
abbrev S1 : Shape := ⟨1, ![1]⟩
abbrev S1x1 : Shape := ⟨2, ![1, 1]⟩
abbrev S16384x64 : Shape := ⟨2, ![16384, 64]⟩

abbrev nBuf : Space → Nat
  | .hbm => 78
  | .vmem => 0
  | .smem => 0
  | _ => 0

abbrev bufTy : (tb : Table) → Fin (tcTables nBuf tb) → BufTy
  | .hbm, ⟨0, _⟩ => ⟨S16384x1, .i32⟩
  | .hbm, ⟨1, _⟩ => ⟨S16384x1, .i32⟩
  | .hbm, ⟨2, _⟩ => ⟨S16384x1, .i32⟩
  | .hbm, ⟨3, _⟩ => ⟨S1000000x64, .f32⟩
  | .hbm, ⟨4, _⟩ => ⟨S1000000x64, .f32⟩
  | .hbm, ⟨5, _⟩ => ⟨S100000x64, .f32⟩
  | .hbm, ⟨6, _⟩ => ⟨S16384, .i32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S1, .i32⟩
  | .hbm, ⟨16, _⟩ => ⟨S_, .i32⟩
  | .hbm, ⟨17, _⟩ => ⟨S16384x1, .i32⟩
  | .hbm, ⟨18, _⟩ => ⟨S16384x1, .i1⟩
  | .hbm, ⟨19, _⟩ => ⟨S1x1, .i32⟩
  | .hbm, ⟨20, _⟩ => ⟨S16384x1, .i32⟩
  | .hbm, ⟨21, _⟩ => ⟨S16384x1, .i1⟩
  | .hbm, ⟨22, _⟩ => ⟨S16384x1, .i1⟩
  | .hbm, ⟨23, _⟩ => ⟨S_, .i1⟩
  | .hbm, ⟨24, _⟩ => ⟨S16384, .i1⟩
  | .hbm, ⟨25, _⟩ => ⟨S16384x64, .f32⟩
  | .hbm, ⟨26, _⟩ => ⟨S16384x64, .i1⟩
  | .hbm, ⟨27, _⟩ => ⟨S_, .f32⟩
  | .hbm, ⟨28, _⟩ => ⟨S16384x64, .f32⟩
  | .hbm, ⟨29, _⟩ => ⟨S16384x64, .f32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S1, .i32⟩
  | .hbm, ⟨40, _⟩ => ⟨S_, .i32⟩
  | .hbm, ⟨41, _⟩ => ⟨S16384x1, .i32⟩
  | .hbm, ⟨42, _⟩ => ⟨S16384x1, .i1⟩
  | .hbm, ⟨43, _⟩ => ⟨S1x1, .i32⟩
  | .hbm, ⟨44, _⟩ => ⟨S16384x1, .i32⟩
  | .hbm, ⟨45, _⟩ => ⟨S16384x1, .i1⟩
  | .hbm, ⟨46, _⟩ => ⟨S16384x1, .i1⟩
  | .hbm, ⟨47, _⟩ => ⟨S_, .i1⟩
  | .hbm, ⟨48, _⟩ => ⟨S16384, .i1⟩
  | .hbm, ⟨49, _⟩ => ⟨S16384x64, .f32⟩
  | .hbm, ⟨50, _⟩ => ⟨S16384x64, .i1⟩
  | .hbm, ⟨51, _⟩ => ⟨S_, .f32⟩
  | .hbm, ⟨52, _⟩ => ⟨S16384x64, .f32⟩
  | .hbm, ⟨53, _⟩ => ⟨S16384x64, .f32⟩
  | .hbm, ⟨54, _⟩ => ⟨S16384, .i32⟩
  | .hbm, ⟨55, _⟩ => ⟨S_, .i32⟩
  | .hbm, ⟨56, _⟩ => ⟨S16384, .i32⟩
  | .hbm, ⟨57, _⟩ => ⟨S16384, .i1⟩
  | .hbm, ⟨58, _⟩ => ⟨S_, .i32⟩
  | .hbm, ⟨59, _⟩ => ⟨S16384, .i32⟩
  | .hbm, ⟨60, _⟩ => ⟨S16384, .i32⟩
  | .hbm, ⟨61, _⟩ => ⟨S16384, .i32⟩
  | .hbm, ⟨62, _⟩ => ⟨S16384x1, .i32⟩
  | .hbm, ⟨63, _⟩ => ⟨S1, .i32⟩
  | .hbm, ⟨64, _⟩ => ⟨S_, .i32⟩
  | .hbm, ⟨65, _⟩ => ⟨S16384x1, .i32⟩
  | .hbm, ⟨66, _⟩ => ⟨S16384x1, .i1⟩
  | .hbm, ⟨67, _⟩ => ⟨S1x1, .i32⟩
  | .hbm, ⟨68, _⟩ => ⟨S16384x1, .i32⟩
  | .hbm, ⟨69, _⟩ => ⟨S16384x1, .i1⟩
  | .hbm, ⟨70, _⟩ => ⟨S16384x1, .i1⟩
  | .hbm, ⟨71, _⟩ => ⟨S_, .i1⟩
  | .hbm, ⟨72, _⟩ => ⟨S16384, .i1⟩
  | .hbm, ⟨73, _⟩ => ⟨S16384x64, .f32⟩
  | .hbm, ⟨74, _⟩ => ⟨S16384x64, .i1⟩
  | .hbm, ⟨75, _⟩ => ⟨S_, .f32⟩
  | .hbm, ⟨76, _⟩ => ⟨S16384x64, .f32⟩
  | .hbm, ⟨77, _⟩ => ⟨S16384x64, .f32⟩
  | _, _ => ⟨S16384x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v1 : Ref sig .tc := ⟨.hbm, 29, rfl⟩
abbrev main_v2 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v3 : Ref sig .tc := ⟨.hbm, 53, rfl⟩
abbrev main_v4 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v5 : Ref sig .tc := ⟨.hbm, 77, rfl⟩

abbrev nD : Nat := 1
abbrev τ : Topo := Topo.v7x

variable {F : FTy → Type} [FloatOps F]

class Facts₀ : Prop where
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  gather_S1000000x64_S16384x1_S16384x64_1_0_n_n_0_1_164_wf : GatherDims.WF S1000000x64 S16384x1 S16384x64 [1] [0] [] [0] [] 1 ![1, 64]
  gather_S100000x64_S16384x1_S16384x64_1_0_n_n_0_1_164_wf : GatherDims.WF S100000x64 S16384x1 S16384x64 [1] [0] [] [0] [] 1 ![1, 64]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf

class Facts : Prop extends Facts₀ where

variable [Facts]
-- ==== Proof.Spec.lean ====
/-
  The specification both programs are compared with: three embedding lookups.  Row `j` of each result is the
  row of its table named by word `j` of its index column.  The word is read as a natural number modulo the
  table's height; for a word in range (which the precondition gives) that is the word itself.
-/
import Idealize.ShloMosaic.Lib.ValueIdx

noncomputable section

namespace Cert.Proof.Spec

open Idealize.ShloMosaic Idealize.ShloMosaic.ValueIdx

/-- The index column: 16384 words, one per result row. -/
abbrev SIds : Shape := ⟨2, ![16384, 1]⟩
/-- A result: 16384 rows of 64 entries. -/
abbrev SOut : Shape := ⟨2, ![16384, 64]⟩
/-- A table of `V` rows of 64 entries. -/
abbrev STab (V : Nat) : Shape := ⟨2, ![V, 64]⟩

/-- The table row that result row `r` names: word `r` of the index column, modulo the table's height. -/
def rowOf (V : Nat) (hV : 0 < V) (ids : SIds.Idx → BitVec 32) (r : Fin 16384) : Fin V :=
  ⟨(ids (ix2 r (0 : Fin 1))).toNat % V, Nat.mod_lt _ hV⟩

/-- The lookup: entry `(r, d)` of the result is entry `(rowOf r, d)` of the table. -/
def takeRows {α : Type} (V : Nat) (hV : 0 < V) (tab : (STab V).Idx → α) (ids : SIds.Idx → BitVec 32) : SOut.Idx → α :=
  fun j => tab (ix2 (rowOf V hV ids (j 0)) (j 1))

theorem takeRows_apply {α : Type} (V : Nat) (hV : 0 < V) (tab : (STab V).Idx → α) (ids : SIds.Idx → BitVec 32)
    (r : Fin 16384) (d : Fin 64) :
    takeRows V hV tab ids (ix2 r d) = tab (ix2 (rowOf V hV ids r) d) := rfl

/-- For a word in range the named row is the word itself. -/
theorem rowOf_val_of_lt (V : Nat) (hV : 0 < V) (ids : SIds.Idx → BitVec 32) (r : Fin 16384)
    (h : (ids (ix2 r (0 : Fin 1))).toNat < V) : (rowOf V hV ids r).val = (ids (ix2 r (0 : Fin 1))).toNat :=
  Nat.mod_eq_of_lt h

/-- Every word of an index column is a row number of a table of height `V`. -/
def InRange (V : Nat) (ids : SIds.Idx → BitVec 32) : Prop := ∀ j : SIds.Idx, (ids j).toNat < V

end Cert.Proof.Spec

end
-- ==== Proof.KRes.lean ====
/-
  What the kernel's one call hands each of its 32 tiles and takes back, and the statement of one tile's task.
  Tile (c, s) is worker w = 2 s + c.  It is handed rows 4 w … 4 w + 3 of each reshaped index array (its 512 words),
  a read share of each table, and the eight 64-row windows 8 w … 8 w + 7 of each result (rows 512 w … 512 w + 511);
  it returns them with the result windows holding the looked-up table rows.
-/
import proofs.«206842_g87686052315543_cont_sun_m_497_29_alg».proof.Defs
import proofs.«206842_g87686052315543_cont_sun_m_497_29_alg».proof.Proof.Spec
import Idealize.ShloMosaic.Lib.SparseCore.Launch
import Idealize.ShloMosaic.Lib.Batch
import Idealize.ShloMosaic.Lib.Pipeline.Kit
import proofs.«206842_g87686052315543_cont_sun_m_497_29_alg».proof.Proof.Gen.Kernel

noncomputable section

namespace Cert.Proof.KRes

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The ghost state: the handshakes' rounds beside the local transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ)

/-! ## The arrays, as locations of device `d` -/

/-- the three index columns [16384, 1] -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
/-- the index columns reshaped [128, 128] -/
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
/-- the three tables -/
abbrev t3Loc (d : Dev nD) : Loc nD τ sig := (SparseCore.T d).loc main_arg3
abbrev t4Loc (d : Dev nD) : Loc nD τ sig := (SparseCore.T d).loc main_arg4
abbrev t5Loc (d : Dev nD) : Loc nD τ sig := (SparseCore.T d).loc main_arg5
/-- the three results [16384, 64] -/
abbrev o0Loc (d : Dev nD) : Loc nD τ sig := (SparseCore.T d).loc main_v3_0
abbrev o1Loc (d : Dev nD) : Loc nD τ sig := (SparseCore.T d).loc main_v3_1
abbrev o2Loc (d : Dev nD) : Loc nD τ sig := (SparseCore.T d).loc main_v3_2

/-! ## Their contents -/

/-- An index column laid out as 128 rows of 128 words, row-major: what @main's reshape leaves. -/
def ids2_0 (d : Dev nD) : Buf (Elt F) (v0Loc d) := shapeCast S128x128 (m (a0Loc d)) shapeCasts_S16384x1_S128x128
def ids2_1 (d : Dev nD) : Buf (Elt F) (v1Loc d) := shapeCast S128x128 (m (a1Loc d)) shapeCasts_S16384x1_S128x128
def ids2_2 (d : Dev nD) : Buf (Elt F) (v2Loc d) := shapeCast S128x128 (m (a2Loc d)) shapeCasts_S16384x1_S128x128

/-- The three lookups of the launch memory's tables at its index columns. -/
def G0 (d : Dev nD) : Buf (Elt F) (o0Loc d) := Cert.Proof.Spec.takeRows 1000000 (by decide) (m (t3Loc d)) (m (a0Loc d))
def G1 (d : Dev nD) : Buf (Elt F) (o1Loc d) := Cert.Proof.Spec.takeRows 1000000 (by decide) (m (t4Loc d)) (m (a1Loc d))
def G2 (d : Dev nD) : Buf (Elt F) (o2Loc d) := Cert.Proof.Spec.takeRows 100000 (by decide) (m (t5Loc d)) (m (a2Loc d))

/-- Every index word names a row of its table. -/
def PreOK : Prop := ∀ d : Dev nD, Cert.Proof.Spec.InRange 1000000 (m (a0Loc d)) ∧ Cert.Proof.Spec.InRange 1000000 (m (a1Loc d))
  ∧ Cert.Proof.Spec.InRange 100000 (m (a2Loc d))

/-! ## The pieces the arrays are dealt in -/

theorem hdiv_ids : 32 ∣ S128x128.size 0 := ⟨4, rfl⟩
theorem hdiv_out : 256 ∣ S16384x64.size 0 := ⟨64, rfl⟩
/-- rows 4 w … 4 w + 3 of a reshaped index array -/
abbrev idRows (w : Fin 32) : Finset S128x128.Idx := (Rect.part (s := S128x128) (a₀ := 0) hdiv_ids w).set
/-- rows 64 p … 64 p + 63 of a result -/
abbrev outWin (p : Fin 256) : Finset S16384x64.Idx := (Rect.part (s := S16384x64) (a₀ := 0) hdiv_out p).set

theorem bound0 : grid0.bound 0 = 2 := rfl
theorem bound1 : grid0.bound 1 = 16 := rfl
/-- tile (c, s) is worker 2 s + c -/
def wid (L : grid0.Coords) : Fin 32 :=
  ⟨2 * (L 1).val + (L 0).val, by
    have h0 : (L 0).val < 2 := (L 0).isLt
    have h1 : (L 1).val < 16 := (L 1).isLt
    omega⟩
/-- window c8 of worker w -/
def win8 (w : Fin 32) (c8 : Fin 8) : Fin 256 := ⟨8 * w.val + c8.val, by omega⟩

abbrev cV (L : grid0.Coords) : Fin τ.nSC := (L 0).castLE hcore0
abbrev jV (L : grid0.Coords) : Fin τ.nSub := (L 1).castLE hsub0

/-- the grid point of tile (c, s) -/
def coordsV (c : Fin (grid0.bound 0)) (s : Fin (grid0.bound 1)) : grid0.Coords :=
  fun | 0 => c | 1 => s | ⟨_ + 2, h⟩ => absurd h (Nat.not_lt.2 (Nat.le_add_left _ _))

/-- What is left of the tables' shares once each of the 32 workers has its read share. -/
def tabRest (d : Dev nD) : sProp 𝕄 :=
  iprop((t3Loc d ↦{Transfers.shareDrop fullShare 32} m (t3Loc d)) ∗ (t4Loc d ↦{Transfers.shareDrop fullShare 32} m (t4Loc d))
    ∗ (t5Loc d ↦{Transfers.shareDrop fullShare 32} m (t5Loc d)))

/-- What worker `w` of device `d` is handed. -/
def tileGo (d : Dev nD) (w : Fin 32) : sProp 𝕄 :=
  iprop((v0Loc d ↦[idRows w]{fullShare} ids2_0 m d) ∗ (v1Loc d ↦[idRows w]{fullShare} ids2_1 m d) ∗ (v2Loc d ↦[idRows w]{fullShare} ids2_2 m d)
    ∗ (t3Loc d ↦{Transfers.shareTok fullShare 32 w} m (t3Loc d)) ∗ (t4Loc d ↦{Transfers.shareTok fullShare 32 w} m (t4Loc d))
    ∗ (t5Loc d ↦{Transfers.shareTok fullShare 32 w} m (t5Loc d))
    ∗ (bigSep Finset.univ fun c8 : Fin 8 => o0Loc d ↦[outWin (win8 w c8)]{fullShare} m (o0Loc d))
    ∗ (bigSep Finset.univ fun c8 : Fin 8 => o1Loc d ↦[outWin (win8 w c8)]{fullShare} m (o1Loc d))
    ∗ (bigSep Finset.univ fun c8 : Fin 8 => o2Loc d ↦[outWin (win8 w c8)]{fullShare} m (o2Loc d)))

/-- What it hands back: the same, its result windows at the lookups. -/
def tileTd (d : Dev nD) (w : Fin 32) : sProp 𝕄 :=
  iprop((v0Loc d ↦[idRows w]{fullShare} ids2_0 m d) ∗ (v1Loc d ↦[idRows w]{fullShare} ids2_1 m d) ∗ (v2Loc d ↦[idRows w]{fullShare} ids2_2 m d)
    ∗ (t3Loc d ↦{Transfers.shareTok fullShare 32 w} m (t3Loc d)) ∗ (t4Loc d ↦{Transfers.shareTok fullShare 32 w} m (t4Loc d))
    ∗ (t5Loc d ↦{Transfers.shareTok fullShare 32 w} m (t5Loc d))
    ∗ (bigSep Finset.univ fun c8 : Fin 8 => o0Loc d ↦[outWin (win8 w c8)]{fullShare} G0 m d)
    ∗ (bigSep Finset.univ fun c8 : Fin 8 => o1Loc d ↦[outWin (win8 w c8)]{fullShare} G1 m d)
    ∗ (bigSep Finset.univ fun c8 : Fin 8 => o2Loc d ↦[outWin (win8 w c8)]{fullShare} G2 m d))

/-- One tile's task: from what it is handed and its own scratch to what it hands back. -/
def TileBody [FloatOps F] : Prop :=
  ∀ (d : Dev nD) (L : grid0.Coords) (O : CellTallies nD τ sig (HIx 1)) (W : Waits sig (HIx 1)), (∀ g, O g none = 0) →
    iprop(levAts (K (F := F)).L (K (F := F)).lev ∗ emp ∗ tileGo m d (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather3 (F := F) L (Memref.whole main_v0_scv) (Memref.isWhole_whole _) (Memref.whole main_v1_scv) (Memref.isWhole_whole _)
            (Memref.whole main_v2_scv) (Memref.isWhole_whole _) (Memref.whole main_arg3_scv) (Memref.isWhole_whole _)
            (Memref.whole main_arg4_scv) (Memref.isWhole_whole _) (Memref.whole main_arg5_scv) (Memref.isWhole_whole _)
            (Memref.whole main_v3_0_scv) (Memref.isWhole_whole _) (Memref.whole main_v3_1_scv) (Memref.isWhole_whole _)
            (Memref.whole main_v3_2_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7 cc0_scratch8
            cc0_scratch9 cc0_scratch10 cc0_scratch11 cc0_scratch12 cc0_scratch13 cc0_scoped0 cc0_scoped1 cc0_scoped2)
          fun _ => iprop(tileTd m d (wid L) ∗ scopedBufs (V d (cV L) (jV L)) ∗ scopedSems0 (V d (cV L) (jV L))
            ∗ ∃ W', ⌜∀ p ∈ W', p ∈ W ∨ p.2 = none⌝ ∗ owes (V d (cV L) (jV L)) O W')

/-- What the run leaves: each result at its lookup, every argument as it was. -/
def QC : PUnit × MemSt nD τ sig (Elt F) → Prop := fun r => ∀ c : Dev nD,
  r.2.mem (o0Loc c) = G0 m c ∧ r.2.mem (o1Loc c) = G1 m c ∧ r.2.mem (o2Loc c) = G2 m c
  ∧ r.2.mem (a0Loc c) = m (a0Loc c) ∧ r.2.mem (a1Loc c) = m (a1Loc c) ∧ r.2.mem (a2Loc c) = m (a2Loc c)
  ∧ r.2.mem (t3Loc c) = m (t3Loc c) ∧ r.2.mem (t4Loc c) = m (t4Loc c) ∧ r.2.mem (t5Loc c) = m (t5Loc c)

end Cert.Proof.KRes

end
-- ==== Proof.KLaunchP.lean ====
/-
  The launch's first half: what the handshakes of the one call carry (each tile its share of the arrays, there and back),
  one tile's obligation from the statement of its task, the split of a SparseCore's operands among its sixteen tiles
  (the identity: the operands are dealt per tile from the start), and the launch element of the ghost state.
-/
import proofs.«206842_g87686052315543_cont_sun_m_497_29_alg».proof.Proof.KRes
import Idealize.ShloMosaic.Lib.StableHlo.Run
import Idealize.ShloMosaic.Lib.Tactic

noncomputable section

namespace Cert.Proof.KLaunchP

open Cert.Kernel Cert.Kernel.Gen Cert.Proof.KRes

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = grid0.bound 0 := rfl
theorem nSub_zero : (K (F := F)).nSub 0 = grid0.bound 1 := rfl

variable (m : (ℓ : Loc nD τ sig) → Buf (Elt F) ℓ) (ρ : Dev nD → PrngReg)

/-! ## What the handshakes carry -/

/-- What tile `(c, i)` of the call's grid is handed, and what it hands back. -/
abbrev goAt (d : Dev nD) (c : Fin (grid0.bound 0)) (i : Fin (grid0.bound 1)) : sProp 𝕄 := tileGo m d (wid (coordsV c i))
abbrev tdAt (d : Dev nD) (c : Fin (grid0.bound 0)) (i : Fin (grid0.bound 1)) : sProp 𝕄 := tileTd m d (wid (coordsV c i))

/-- The one call hands SparseCore `c` its sixteen tiles' shares, already apart, each tile its own; and back. -/
def P : (K (F := F)).Pay (nD := nD) (Val := Elt F) (Name := ℕ) (U := UU) where
  st := fun q d c => match q with
    | 0 => bigSep Finset.univ fun i : Fin ((K (F := F)).nSub 0) => goAt m d (Fin.cast nCore_zero c) (Fin.cast nSub_zero i)
  dn := fun q d c => match q with
    | 0 => bigSep Finset.univ fun i : Fin ((K (F := F)).nSub 0) => tdAt m d (Fin.cast nCore_zero c) (Fin.cast nSub_zero i)
  go := fun q d c i => match q with
    | 0 => goAt m d (Fin.cast nCore_zero c) (Fin.cast nSub_zero i)
  td := fun q d c i => match q with
    | 0 => tdAt m d (Fin.cast nCore_zero c) (Fin.cast nSub_zero i)
  x := fun _ _ => iprop(emp)

theorem P_st (d : Dev nD) (c : Fin ((K (F := F)).nCore 0)) :
    (P m).st 0 d c = bigSep Finset.univ fun i : Fin ((K (F := F)).nSub 0) => goAt m d (Fin.cast nCore_zero c) (Fin.cast nSub_zero i) := rfl
theorem P_dn (d : Dev nD) (c : Fin ((K (F := F)).nCore 0)) :
    (P m).dn 0 d c = bigSep Finset.univ fun i : Fin ((K (F := F)).nSub 0) => tdAt m d (Fin.cast nCore_zero c) (Fin.cast nSub_zero i) := rfl
theorem P_go (d : Dev nD) (c : Fin ((K (F := F)).nCore 0)) (i : Fin ((K (F := F)).nSub 0)) :
    (P m).go 0 d c i = goAt m d (Fin.cast nCore_zero c) (Fin.cast nSub_zero i) := rfl
theorem P_td (d : Dev nD) (c : Fin ((K (F := F)).nCore 0)) (i : Fin ((K (F := F)).nSub 0)) :
    (P m).td 0 d c i = tdAt m d (Fin.cast nCore_zero c) (Fin.cast nSub_zero i) := rfl

instance tileGo_storable (d : Dev nD) (w : Fin 32) : BI.Storable (upEmb : UEmb _ 𝕄) (tileGo m d w) := by
  unfold tileGo; infer_instance
instance tileTd_storable (d : Dev nD) (w : Fin 32) : BI.Storable (upEmb : UEmb _ 𝕄) (tileTd m d w) := by
  unfold tileTd; infer_instance

instance P_storable : (P (F := F) m).IsStorable where
  st q d c := match q with
    | 0 => (inferInstance : BI.Storable (upEmb : UEmb _ 𝕄)
        (bigSep Finset.univ fun i : Fin ((K (F := F)).nSub 0) => goAt m d (Fin.cast nCore_zero c) (Fin.cast nSub_zero i)))
  dn q d c := match q with
    | 0 => (inferInstance : BI.Storable (upEmb : UEmb _ 𝕄)
        (bigSep Finset.univ fun i : Fin ((K (F := F)).nSub 0) => tdAt m d (Fin.cast nCore_zero c) (Fin.cast nSub_zero i)))
  go q d c i := match q with
    | 0 => (inferInstance : BI.Storable (upEmb : UEmb _ 𝕄) (goAt m d (Fin.cast nCore_zero c) (Fin.cast nSub_zero i)))
  td q d c i := match q with
    | 0 => (inferInstance : BI.Storable (upEmb : UEmb _ 𝕄) (tdAt m d (Fin.cast nCore_zero c) (Fin.cast nSub_zero i)))

/-! ## One tile's obligation -/

variable [FloatOps F]

theorem defs₀_vector (c : Fin τ.nSC) (s : Fin τ.nSub) :
    defs₀ (F := F) (.scVector c s) 0 ()
      = SparseCore.onTile hcore0 hsub0 (fun c s => cc0__gather3 (F := F) (coordsV c s)
          (Memref.whole main_v0_scv) (Memref.isWhole_whole _) (Memref.whole main_v1_scv) (Memref.isWhole_whole _)
          (Memref.whole main_v2_scv) (Memref.isWhole_whole _) (Memref.whole main_arg3_scv) (Memref.isWhole_whole _)
          (Memref.whole main_arg4_scv) (Memref.isWhole_whole _) (Memref.whole main_arg5_scv) (Memref.isWhole_whole _)
          (Memref.whole main_v3_0_scv) (Memref.isWhole_whole _) (Memref.whole main_v3_1_scv) (Memref.isWhole_whole _)
          (Memref.whole main_v3_2_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scratch5 cc0_scratch6 cc0_scratch7 cc0_scratch8
          cc0_scratch9 cc0_scratch10 cc0_scratch11 cc0_scratch12 cc0_scratch13 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileBody m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

/-! ## A SparseCore's operands among its tiles: they are dealt per tile from the start -/

omit [FloatOps F] in
theorem vecSplit : (K (F := F)).VecSplit' (P m) 0 := by
  intro d c
  rw [P_st, P_dn]
  iintro H; imodintro
  isplitl [H]; · iexact H
  iintro H; iexact H

/-! ## The launch element: the handshakes' rounds; the transfers' counters are let go -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KLaunchP

end
-- ==== Proof.KLaunchMain.lean ====
/-
  The launch's second half: @main on the TensorCore. Three reshapes lay the index columns out as 128 × 128; the nine
  arrays the call reads and writes are dealt to the 32 tiles; the call runs; the tiles' shares are gathered back. What
  @main leaves: the index columns and the tables as they were, each result at its lookup; and the final memory reads so.
-/
import proofs.«206842_g87686052315543_cont_sun_m_497_29_alg».proof.Proof.KLaunchP

noncomputable section

namespace Cert.Proof.KLaunchMain

open Cert.Kernel Cert.Kernel.Gen Cert.Proof.KRes

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.Proof.KLaunchP
open Idealize.ShloMosaic.StableHlo (held wp_hlo_within)

variable (m : (ℓ : Loc nD τ sig) → Buf (Elt F) ℓ) (ρ : Dev nD → PrngReg)

/-! ## The TensorCore's arrays -/

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (t3Loc d ↦{fullShare} W main_arg3) ∗ (t4Loc d ↦{fullShare} W main_arg4) ∗ (t5Loc d ↦{fullShare} W main_arg5)
      ∗ (v0Loc d ↦{fullShare} W main_v0) ∗ (v1Loc d ↦{fullShare} W main_v1) ∗ (v2Loc d ↦{fullShare} W main_v2)
      ∗ (o0Loc d ↦{fullShare} W main_v3_0) ∗ (o1Loc d ↦{fullShare} W main_v3_1) ∗ (o2Loc d ↦{fullShare} W main_v3_2)) := by
  unfold unscopedBufs
  rw [show (Finset.univ.filter fun b : Ref sig .tc => ¬ b.isScoped)
      = {main_arg0, main_arg1, main_arg2, main_arg3, main_arg4, main_arg5, main_v0, main_v1, main_v2, main_v3_0, main_v3_1, main_v3_2} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-! ## The three reshapes -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev op0 : HloOp τ sig (Elt F) := StableHlo.reshape main_arg0 main_v0 rfl shapeCasts_S16384x1_S128x128
abbrev op1 : HloOp τ sig (Elt F) := StableHlo.reshape main_arg1 main_v1 rfl shapeCasts_S16384x1_S128x128
abbrev op2 : HloOp τ sig (Elt F) := StableHlo.reshape main_arg2 main_v2 rfl shapeCasts_S16384x1_S128x128

/-- The launch valuation. -/
def V0 (d : Dev nD) : Valuation τ sig (Elt F) := fun b => m (d, b)

theorem held_pair (d : Dev nD) {x y : DevRef τ sig} (h : x ≠ y) (W : Valuation τ sig (Elt F)) :
    (held (T d) {x, y} W : sProp 𝕄) = iprop((((d, x) : Loc nD τ sig) ↦{fullShare} W x) ∗ (((d, y) : Loc nD τ sig) ↦{fullShare} W y)) := by
  unfold held
  rw [SparseCore.bigSep_insert' (by simpa using h), bigSep_singleton]

theorem res0_a (d : Dev nD) : (op0 (F := F)).result (V0 m d) a0' = m (a0Loc d) :=
  StableHlo.reshape_result_ne (x := main_arg0) (y := main_v0) rfl shapeCasts_S16384x1_S128x128 ⟨by decide, rfl⟩ ⟨by decide, rfl⟩ (V0 m d) (r := main_arg0) (by decide)
theorem res0_v (d : Dev nD) : (op0 (F := F)).result (V0 m d) v0' = ids2_0 m d :=
  (StableHlo.reshape_result main_arg0 main_v0 rfl shapeCasts_S16384x1_S128x128 ⟨by decide, rfl⟩ ⟨by decide, rfl⟩ (V0 m d)).trans rfl
theorem res1_a (d : Dev nD) : (op1 (F := F)).result (V0 m d) a1' = m (a1Loc d) :=
  StableHlo.reshape_result_ne (x := main_arg1) (y := main_v1) rfl shapeCasts_S16384x1_S128x128 ⟨by decide, rfl⟩ ⟨by decide, rfl⟩ (V0 m d) (r := main_arg1) (by decide)
theorem res1_v (d : Dev nD) : (op1 (F := F)).result (V0 m d) v1' = ids2_1 m d :=
  (StableHlo.reshape_result main_arg1 main_v1 rfl shapeCasts_S16384x1_S128x128 ⟨by decide, rfl⟩ ⟨by decide, rfl⟩ (V0 m d)).trans rfl
theorem res2_a (d : Dev nD) : (op2 (F := F)).result (V0 m d) a2' = m (a2Loc d) :=
  StableHlo.reshape_result_ne (x := main_arg2) (y := main_v2) rfl shapeCasts_S16384x1_S128x128 ⟨by decide, rfl⟩ ⟨by decide, rfl⟩ (V0 m d) (r := main_arg2) (by decide)
theorem res2_v (d : Dev nD) : (op2 (F := F)).result (V0 m d) v2' = ids2_2 m d :=
  (StableHlo.reshape_result main_arg2 main_v2 rfl shapeCasts_S16384x1_S128x128 ⟨by decide, rfl⟩ ⟨by decide, rfl⟩ (V0 m d)).trans rfl

theorem h0 : (op0 (F := F)).bufs ⊆ {a0', v0'} := subset_rfl
theorem h1 : (op1 (F := F)).bufs ⊆ {a1', v1'} := subset_rfl
theorem h2 : (op2 (F := F)).bufs ⊆ {a2', v2'} := subset_rfl

theorem held0 (d : Dev nD) : (held (T d) {a0', v0'} (V0 m d) : sProp 𝕄) = iprop((a0Loc d ↦{fullShare} m (a0Loc d)) ∗ (v0Loc d ↦{fullShare} m (v0Loc d))) :=
  held_pair d (by decide) _
theorem held0' (d : Dev nD) : (held (T d) {a0', v0'} ((op0 (F := F)).result (V0 m d)) : sProp 𝕄)
    = iprop((a0Loc d ↦{fullShare} m (a0Loc d)) ∗ (v0Loc d ↦{fullShare} ids2_0 m d)) := by
  rw [held_pair d (by decide), res0_a, res0_v]
theorem held1 (d : Dev nD) : (held (T d) {a1', v1'} (V0 m d) : sProp 𝕄) = iprop((a1Loc d ↦{fullShare} m (a1Loc d)) ∗ (v1Loc d ↦{fullShare} m (v1Loc d))) :=
  held_pair d (by decide) _
theorem held1' (d : Dev nD) : (held (T d) {a1', v1'} ((op1 (F := F)).result (V0 m d)) : sProp 𝕄)
    = iprop((a1Loc d ↦{fullShare} m (a1Loc d)) ∗ (v1Loc d ↦{fullShare} ids2_1 m d)) := by
  rw [held_pair d (by decide), res1_a, res1_v]
theorem held2 (d : Dev nD) : (held (T d) {a2', v2'} (V0 m d) : sProp 𝕄) = iprop((a2Loc d ↦{fullShare} m (a2Loc d)) ∗ (v2Loc d ↦{fullShare} m (v2Loc d))) :=
  held_pair d (by decide) _
theorem held2' (d : Dev nD) : (held (T d) {a2', v2'} ((op2 (F := F)).result (V0 m d)) : sProp 𝕄)
    = iprop((a2Loc d ↦{fullShare} m (a2Loc d)) ∗ (v2Loc d ↦{fullShare} ids2_2 m d)) := by
  rw [held_pair d (by decide), res2_a, res2_v]

/-! ## The call's operands, per SparseCore -/

theorem st0_eq (d : Dev nD) : (bigSep Finset.univ fun c : Fin ((K (F := F)).nCore 0) => (P m).st 0 d c)
    = bigSep Finset.univ fun c : Fin (grid0.bound 0) => bigSep Finset.univ fun s : Fin (grid0.bound 1) => tileGo m d (wid (coordsV c s)) :=
  bigSep_congr fun c _ => (P_st m d c).trans (bigSep_congr fun i _ => rfl)
theorem dn0_eq (d : Dev nD) : (bigSep Finset.univ fun c : Fin ((K (F := F)).nCore 0) => (P m).dn 0 d c)
    = bigSep Finset.univ fun c : Fin (grid0.bound 0) => bigSep Finset.univ fun s : Fin (grid0.bound 1) => tileTd m d (wid (coordsV c s)) :=
  bigSep_congr fun c _ => (P_dn m d c).trans (bigSep_congr fun i _ => rfl)

/-! ## @main -/

/-- The nine arrays the call works on, whole, the results as given. -/
abbrev Whole (d : Dev nD) (g0 : Buf (Elt F) (o0Loc d)) (g1 : Buf (Elt F) (o1Loc d)) (g2 : Buf (Elt F) (o2Loc d)) : sProp 𝕄 :=
  iprop((v0Loc d ↦{fullShare} ids2_0 m d) ∗ (v1Loc d ↦{fullShare} ids2_1 m d) ∗ (v2Loc d ↦{fullShare} ids2_2 m d)
    ∗ (t3Loc d ↦{fullShare} m (t3Loc d)) ∗ (t4Loc d ↦{fullShare} m (t4Loc d)) ∗ (t5Loc d ↦{fullShare} m (t5Loc d))
    ∗ (o0Loc d ↦{fullShare} g0) ∗ (o1Loc d ↦{fullShare} g1) ∗ (o2Loc d ↦{fullShare} g2))

/-- How the nine arrays are dealt to the tiles of the grid, and gathered from them. -/
abbrev Deal : Prop := ∀ d : Dev nD, Whole m d (m (o0Loc d)) (m (o1Loc d)) (m (o2Loc d))
  ⊢ (iprop((bigSep Finset.univ fun c : Fin (grid0.bound 0) => bigSep Finset.univ fun s : Fin (grid0.bound 1) => tileGo m d (wid (coordsV c s))) ∗ tabRest m d) : sProp 𝕄)
abbrev Gather : Prop := ∀ d : Dev nD,
  (iprop((bigSep Finset.univ fun c : Fin (grid0.bound 0) => bigSep Finset.univ fun s : Fin (grid0.bound 1) => tileTd m d (wid (coordsV c s))) ∗ tabRest m d) : sProp 𝕄)
    ⊢ Whole m d (G0 m d) (G1 m d) (G2 m d)

/-- What @main leaves the claim: the results at the lookups, the index columns and the tables as they were. -/
abbrev FIN (d : Dev nD) : sProp 𝕄 :=
  iprop((o0Loc d ↦{fullShare} G0 m d) ∗ (o1Loc d ↦{fullShare} G1 m d) ∗ (o2Loc d ↦{fullShare} G2 m d)
    ∗ (a0Loc d ↦{fullShare} m (a0Loc d)) ∗ (a1Loc d ↦{fullShare} m (a1Loc d)) ∗ (a2Loc d ↦{fullShare} m (a2Loc d))
    ∗ (t3Loc d ↦{fullShare} m (t3Loc d)) ∗ (t4Loc d ↦{fullShare} m (t4Loc d)) ∗ (t5Loc d ↦{fullShare} m (t5Loc d)))

variable [FloatOps F]

theorem hmain (hdeal : Deal m) (hgather : Gather m) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Ht3, Ht4, Ht5, Hv0, Hv1, Hv2, Ho0, Ho1, Ho2⟩, -, -⟩, -⟩
  -- the three reshapes
  iapply (wp_hlo_within 𝒱 (SparseCore.T d) none Set.univ (op := op0) (S := {a0', v0'}) h0 (V := V0 m d)) $$ [Hb Ha0 Hv0]
  · isplitl [Hb]; · iexact Hb
    rw [held0]
    isplitl [Ha0]; · iexact Ha0
    iexact Hv0
  iintro ⟨Hb, Hh⟩
  ihave Hh' := (Entails.of_eq (held0' m d)) $$ Hh
  icases Hh' with ⟨Ha0, Hv0⟩
  rw [wp_ret]; imodintro
  iapply (wp_hlo_within 𝒱 (SparseCore.T d) none Set.univ (op := op1) (S := {a1', v1'}) h1 (V := V0 m d)) $$ [Hb Ha1 Hv1]
  · isplitl [Hb]; · iexact Hb
    rw [held1]
    isplitl [Ha1]; · iexact Ha1
    iexact Hv1
  iintro ⟨Hb, Hh⟩
  ihave Hh' := (Entails.of_eq (held1' m d)) $$ Hh
  icases Hh' with ⟨Ha1, Hv1⟩
  rw [wp_ret]; imodintro
  iapply (wp_hlo_within 𝒱 (SparseCore.T d) none Set.univ (op := op2) (S := {a2', v2'}) h2 (V := V0 m d)) $$ [Hb Ha2 Hv2]
  · isplitl [Hb]; · iexact Hb
    rw [held2]
    isplitl [Ha2]; · iexact Ha2
    iexact Hv2
  iintro ⟨Hb, Hh⟩
  ihave Hh' := (Entails.of_eq (held2' m d)) $$ Hh
  icases Hh' with ⟨Ha2, Hv2⟩
  rw [wp_ret]; imodintro
  -- the arrays dealt to the tiles
  ihave Hd := (hdeal d) $$ [Hv0 Hv1 Hv2 Ht3 Ht4 Ht5 Ho0 Ho1 Ho2]
  · isplitl [Hv0]; · iexact Hv0
    isplitl [Hv1]; · iexact Hv1
    isplitl [Hv2]; · iexact Hv2
    isplitl [Ht3]; · iexact Ht3
    isplitl [Ht4]; · iexact Ht4
    isplitl [Ht5]; · iexact Ht5
    isplitl [Ho0]; · iexact Ho0
    isplitl [Ho1]; · iexact Ho1
    iexact Ho2
  icases Hd with ⟨Hgo, Hrest⟩
  -- the call
  iapply ((K (F := F)).wp_run (D (F := F)) 𝒱 (EH := EH) (P := P m) κ d 0) $$ [Hst Hgo Ha0 Ha1 Ha2 Hrest]
  isplitr; · iexact Hctx
  isplitl [Hst]; · iexact Hst
  isplitl [Hgo]
  · rw [st0_eq]; iexact Hgo
  iintro ⟨Hst, Hdn⟩
  ihave Htd := (Entails.of_eq (dn0_eq m d)) $$ Hdn
  -- the tiles' shares gathered
  ihave Hw := (hgather d) $$ [Htd Hrest]
  · isplitl [Htd]; · iexact Htd
    iexact Hrest
  icases Hw with ⟨-, -, -, Ht3, Ht4, Ht5, Ho0, Ho1, Ho2⟩
  imodintro
  isplitl [Hst]; · iexact Hst
  isplitl [Ho0]; · iexact Ho0
  isplitl [Ho1]; · iexact Ho1
  isplitl [Ho2]; · iexact Ho2
  isplitl [Ha0]; · iexact Ha0
  isplitl [Ha1]; · iexact Ha1
  isplitl [Ha2]; · iexact Ha2
  isplitl [Ht3]; · iexact Ht3
  isplitl [Ht4]; · iexact Ht4
  iexact Ht5

/-! ## The final memory -/

omit [FloatOps F] in
theorem agree {ℓ : Loc nD τ sig} (f : Buf (Elt F) ℓ) (s' : Phys nD τ sig (Elt F)) :
    iprop(SI s' ∗ ℓ ↦{fullShare} f) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

def fq (d : Dev nD) (s' : Phys nD τ sig (Elt F)) : Prop :=
  s'.mem.mem (o0Loc d) = G0 m d ∧ s'.mem.mem (o1Loc d) = G1 m d ∧ s'.mem.mem (o2Loc d) = G2 m d
  ∧ s'.mem.mem (a0Loc d) = m (a0Loc d) ∧ s'.mem.mem (a1Loc d) = m (a1Loc d) ∧ s'.mem.mem (a2Loc d) = m (a2Loc d)
  ∧ s'.mem.mem (t3Loc d) = m (t3Loc d) ∧ s'.mem.mem (t4Loc d) = m (t4Loc d) ∧ s'.mem.mem (t5Loc d) = m (t5Loc d)

omit [FloatOps F] in
theorem hfin (d : Dev nD) (s' : Phys nD τ sig (Elt F)) : iprop(FIN m d ∗ SI s') ⊢ (⌜fq m d s'⌝ : sProp 𝕄) := by
  iintro ⟨⟨Ho0, Ho1, Ho2, Ha0, Ha1, Ha2, Ht3, Ht4, Ht5⟩, HSI⟩
  ihave H := (agree (G0 m d) s') $$ [HSI Ho0]
  · isplitl [HSI] <;> iassumption
  icases H with ⟨%e0, HSI⟩
  ihave H := (agree (G1 m d) s') $$ [HSI Ho1]
  · isplitl [HSI] <;> iassumption
  icases H with ⟨%e1, HSI⟩
  ihave H := (agree (G2 m d) s') $$ [HSI Ho2]
  · isplitl [HSI] <;> iassumption
  icases H with ⟨%e2, HSI⟩
  ihave H := (agree (m (a0Loc d)) s') $$ [HSI Ha0]
  · isplitl [HSI] <;> iassumption
  icases H with ⟨%e3, HSI⟩
  ihave H := (agree (m (a1Loc d)) s') $$ [HSI Ha1]
  · isplitl [HSI] <;> iassumption
  icases H with ⟨%e4, HSI⟩
  ihave H := (agree (m (a2Loc d)) s') $$ [HSI Ha2]
  · isplitl [HSI] <;> iassumption
  icases H with ⟨%e5, HSI⟩
  ihave H := (agree (m (t3Loc d)) s') $$ [HSI Ht3]
  · isplitl [HSI] <;> iassumption
  icases H with ⟨%e6, HSI⟩
  ihave H := (agree (m (t4Loc d)) s') $$ [HSI Ht4]
  · isplitl [HSI] <;> iassumption
  icases H with ⟨%e7, HSI⟩
  ihave H := (agree (m (t5Loc d)) s') $$ [HSI Ht5]
  · isplitl [HSI] <;> iassumption
  icases H with ⟨%e8, -⟩
  ipureintro; exact ⟨e0, e1, e2, e3, e4, e5, e6, e7, e8⟩

end Cert.Proof.KLaunchMain

end
-- ==== Proof.KLaunch.lean ====
/-
  The program's run: the library's launch theorem for a SparseCore program, applied to the one call. Given how the nine
  arrays are dealt to the 32 tiles and gathered from them, and one tile's task, every weakly fair execution of the
  device's threads ends with each result at its lookup and every argument as it was.
-/
import proofs.«206842_g87686052315543_cont_sun_m_497_29_alg».proof.Proof.KLaunchMain

noncomputable section

namespace Cert.Proof.KLaunch

open Cert.Kernel Cert.Kernel.Gen Cert.Proof.KRes

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.Proof.KLaunchP Cert.Proof.KLaunchMain

variable (m : (ℓ : Loc nD τ sig) → Buf (Elt F) ℓ) (ρ : Dev nD → PrngReg)

variable [FloatOps F]

theorem run_main [∀ e, Nonempty (Elt F e)]
    (hdeal : ∀ d : Dev nD, iprop((v0Loc d ↦{fullShare} ids2_0 m d) ∗ (v1Loc d ↦{fullShare} ids2_1 m d) ∗ (v2Loc d ↦{fullShare} ids2_2 m d)
        ∗ (t3Loc d ↦{fullShare} m (t3Loc d)) ∗ (t4Loc d ↦{fullShare} m (t4Loc d)) ∗ (t5Loc d ↦{fullShare} m (t5Loc d))
        ∗ (o0Loc d ↦{fullShare} m (o0Loc d)) ∗ (o1Loc d ↦{fullShare} m (o1Loc d)) ∗ (o2Loc d ↦{fullShare} m (o2Loc d)))
      ⊢ (iprop((bigSep Finset.univ fun c : Fin (grid0.bound 0) => bigSep Finset.univ fun s : Fin (grid0.bound 1) => tileGo m d (wid (coordsV c s)))
          ∗ tabRest m d) : sProp 𝕄))
    (hgather : ∀ d : Dev nD,
      (iprop((bigSep Finset.univ fun c : Fin (grid0.bound 0) => bigSep Finset.univ fun s : Fin (grid0.bound 1) => tileTd m d (wid (coordsV c s)))
          ∗ tabRest m d) : sProp 𝕄)
      ⊢ iprop((v0Loc d ↦{fullShare} ids2_0 m d) ∗ (v1Loc d ↦{fullShare} ids2_1 m d) ∗ (v2Loc d ↦{fullShare} ids2_2 m d)
        ∗ (t3Loc d ↦{fullShare} m (t3Loc d)) ∗ (t4Loc d ↦{fullShare} m (t4Loc d)) ∗ (t5Loc d ↦{fullShare} m (t5Loc d))
        ∗ (o0Loc d ↦{fullShare} G0 m d) ∗ (o1Loc d ↦{fullShare} G1 m d) ∗ (o2Loc d ↦{fullShare} G2 m d)))
    (hbody : TileBody m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) (hmain m ρ hdeal hgather) (fq m) (hfin m) (QC m) (fun _ h => h)

end Cert.Proof.KLaunch

end
-- ==== Proof.KIRes.lean ====
/-
  What the kernel's one call hands each of its 32 tiles and takes back, and the statement of one tile's task.
  Tile (c, s) is worker w = 2 s + c.  It is handed rows 4 w … 4 w + 3 of each reshaped index array (its 512 words),
  a read share of each table, and the eight 64-row windows 8 w … 8 w + 7 of each result (rows 512 w … 512 w + 511);
  it returns them with the result windows holding the looked-up table rows.
-/
import proofs.«206842_g87686052315543_cont_sun_m_497_29_alg».proof.Defs
import proofs.«206842_g87686052315543_cont_sun_m_497_29_alg».proof.Proof.Spec
import Idealize.ShloMosaic.Lib.SparseCore.Launch
import Idealize.ShloMosaic.Lib.Batch
import Idealize.ShloMosaic.Lib.Pipeline.Kit
import proofs.«206842_g87686052315543_cont_sun_m_497_29_alg».proof.Proof.Gen.KernelIdeal

noncomputable section

namespace Cert.Proof.KIRes

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The ghost state: the handshakes' rounds beside the local transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ)

/-! ## The arrays, as locations of device `d` -/

/-- the three index columns [16384, 1] -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
/-- the index columns reshaped [128, 128] -/
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
/-- the three tables -/
abbrev t3Loc (d : Dev nD) : Loc nD τ sig := (SparseCore.T d).loc main_arg3
abbrev t4Loc (d : Dev nD) : Loc nD τ sig := (SparseCore.T d).loc main_arg4
abbrev t5Loc (d : Dev nD) : Loc nD τ sig := (SparseCore.T d).loc main_arg5
/-- the three results [16384, 64] -/
abbrev o0Loc (d : Dev nD) : Loc nD τ sig := (SparseCore.T d).loc main_v3_0
abbrev o1Loc (d : Dev nD) : Loc nD τ sig := (SparseCore.T d).loc main_v3_1
abbrev o2Loc (d : Dev nD) : Loc nD τ sig := (SparseCore.T d).loc main_v3_2

/-! ## Their contents -/

/-- An index column laid out as 128 rows of 128 words, row-major: what @main's reshape leaves. -/
def ids2_0 (d : Dev nD) : Buf (Elt F) (v0Loc d) := shapeCast S128x128 (m (a0Loc d)) shapeCasts_S16384x1_S128x128
def ids2_1 (d : Dev nD) : Buf (Elt F) (v1Loc d) := shapeCast S128x128 (m (a1Loc d)) shapeCasts_S16384x1_S128x128
def ids2_2 (d : Dev nD) : Buf (Elt F) (v2Loc d) := shapeCast S128x128 (m (a2Loc d)) shapeCasts_S16384x1_S128x128

/-- The three lookups of the launch memory's tables at its index columns. -/
def G0 (d : Dev nD) : Buf (Elt F) (o0Loc d) := Cert.Proof.Spec.takeRows 1000000 (by decide) (m (t3Loc d)) (m (a0Loc d))
def G1 (d : Dev nD) : Buf (Elt F) (o1Loc d) := Cert.Proof.Spec.takeRows 1000000 (by decide) (m (t4Loc d)) (m (a1Loc d))
def G2 (d : Dev nD) : Buf (Elt F) (o2Loc d) := Cert.Proof.Spec.takeRows 100000 (by decide) (m (t5Loc d)) (m (a2Loc d))

/-- Every index word names a row of its table. -/
def PreOK : Prop := ∀ d : Dev nD, Cert.Proof.Spec.InRange 1000000 (m (a0Loc d)) ∧ Cert.Proof.Spec.InRange 1000000 (m (a1Loc d))
  ∧ Cert.Proof.Spec.InRange 100000 (m (a2Loc d))

/-! ## The pieces the arrays are dealt in -/

theorem hdiv_ids : 32 ∣ S128x128.size 0 := ⟨4, rfl⟩
theorem hdiv_out : 256 ∣ S16384x64.size 0 := ⟨64, rfl⟩
/-- rows 4 w … 4 w + 3 of a reshaped index array -/
abbrev idRows (w : Fin 32) : Finset S128x128.Idx := (Rect.part (s := S128x128) (a₀ := 0) hdiv_ids w).set
/-- rows 64 p … 64 p + 63 of a result -/
abbrev outWin (p : Fin 256) : Finset S16384x64.Idx := (Rect.part (s := S16384x64) (a₀ := 0) hdiv_out p).set

theorem bound0 : grid0.bound 0 = 2 := rfl
theorem bound1 : grid0.bound 1 = 16 := rfl
/-- tile (c, s) is worker 2 s + c -/
def wid (L : grid0.Coords) : Fin 32 :=
  ⟨2 * (L 1).val + (L 0).val, by
    have h0 : (L 0).val < 2 := (L 0).isLt
    have h1 : (L 1).val < 16 := (L 1).isLt
    omega⟩
/-- window c8 of worker w -/
def win8 (w : Fin 32) (c8 : Fin 8) : Fin 256 := ⟨8 * w.val + c8.val, by omega⟩

abbrev cV (L : grid0.Coords) : Fin τ.nSC := (L 0).castLE hcore0
abbrev jV (L : grid0.Coords) : Fin τ.nSub := (L 1).castLE hsub0

/-- the grid point of tile (c, s) -/
def coordsV (c : Fin (grid0.bound 0)) (s : Fin (grid0.bound 1)) : grid0.Coords :=
  fun | 0 => c | 1 => s | ⟨_ + 2, h⟩ => absurd h (Nat.not_lt.2 (Nat.le_add_left _ _))

/-- What is left of the tables' shares once each of the 32 workers has its read share. -/
def tabRest (d : Dev nD) : sProp 𝕄 :=
  iprop((t3Loc d ↦{Transfers.shareDrop fullShare 32} m (t3Loc d)) ∗ (t4Loc d ↦{Transfers.shareDrop fullShare 32} m (t4Loc d))
    ∗ (t5Loc d ↦{Transfers.shareDrop fullShare 32} m (t5Loc d)))

/-- What worker `w` of device `d` is handed. -/
def tileGo (d : Dev nD) (w : Fin 32) : sProp 𝕄 :=
  iprop((v0Loc d ↦[idRows w]{fullShare} ids2_0 m d) ∗ (v1Loc d ↦[idRows w]{fullShare} ids2_1 m d) ∗ (v2Loc d ↦[idRows w]{fullShare} ids2_2 m d)
    ∗ (t3Loc d ↦{Transfers.shareTok fullShare 32 w} m (t3Loc d)) ∗ (t4Loc d ↦{Transfers.shareTok fullShare 32 w} m (t4Loc d))
    ∗ (t5Loc d ↦{Transfers.shareTok fullShare 32 w} m (t5Loc d))
    ∗ (bigSep Finset.univ fun c8 : Fin 8 => o0Loc d ↦[outWin (win8 w c8)]{fullShare} m (o0Loc d))
    ∗ (bigSep Finset.univ fun c8 : Fin 8 => o1Loc d ↦[outWin (win8 w c8)]{fullShare} m (o1Loc d))
    ∗ (bigSep Finset.univ fun c8 : Fin 8 => o2Loc d ↦[outWin (win8 w c8)]{fullShare} m (o2Loc d)))

/-- What it hands back: the same, its result windows at the lookups. -/
def tileTd (d : Dev nD) (w : Fin 32) : sProp 𝕄 :=
  iprop((v0Loc d ↦[idRows w]{fullShare} ids2_0 m d) ∗ (v1Loc d ↦[idRows w]{fullShare} ids2_1 m d) ∗ (v2Loc d ↦[idRows w]{fullShare} ids2_2 m d)
    ∗ (t3Loc d ↦{Transfers.shareTok fullShare 32 w} m (t3Loc d)) ∗ (t4Loc d ↦{Transfers.shareTok fullShare 32 w} m (t4Loc d))
    ∗ (t5Loc d ↦{Transfers.shareTok fullShare 32 w} m (t5Loc d))
    ∗ (bigSep Finset.univ fun c8 : Fin 8 => o0Loc d ↦[outWin (win8 w c8)]{fullShare} G0 m d)
    ∗ (bigSep Finset.univ fun c8 : Fin 8 => o1Loc d ↦[outWin (win8 w c8)]{fullShare} G1 m d)
    ∗ (bigSep Finset.univ fun c8 : Fin 8 => o2Loc d ↦[outWin (win8 w c8)]{fullShare} G2 m d))

/-- One tile's task: from what it is handed and its own scratch to what it hands back. -/
def TileBody [FloatOps F] : Prop :=
  ∀ (d : Dev nD) (L : grid0.Coords) (O : CellTallies nD τ sig (HIx 1)) (W : Waits sig (HIx 1)), (∀ g, O g none = 0) →
    iprop(levAts (K (F := F)).L (K (F := F)).lev ∗ emp ∗ tileGo m d (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather3 (F := F) L (Memref.whole main_v0_scv) (Memref.isWhole_whole _) (Memref.whole main_v1_scv) (Memref.isWhole_whole _)
            (Memref.whole main_v2_scv) (Memref.isWhole_whole _) (Memref.whole main_arg3_scv) (Memref.isWhole_whole _)
            (Memref.whole main_arg4_scv) (Memref.isWhole_whole _) (Memref.whole main_arg5_scv) (Memref.isWhole_whole _)
            (Memref.whole main_v3_0_scv) (Memref.isWhole_whole _) (Memref.whole main_v3_1_scv) (Memref.isWhole_whole _)
            (Memref.whole main_v3_2_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7 cc0_scratch8
            cc0_scratch9 cc0_scratch10 cc0_scratch11 cc0_scratch12 cc0_scratch13 cc0_scoped0 cc0_scoped1 cc0_scoped2)
          fun _ => iprop(tileTd m d (wid L) ∗ scopedBufs (V d (cV L) (jV L)) ∗ scopedSems0 (V d (cV L) (jV L))
            ∗ ∃ W', ⌜∀ p ∈ W', p ∈ W ∨ p.2 = none⌝ ∗ owes (V d (cV L) (jV L)) O W')

/-- What the run leaves: each result at its lookup, every argument as it was. -/
def QC : PUnit × MemSt nD τ sig (Elt F) → Prop := fun r => ∀ c : Dev nD,
  r.2.mem (o0Loc c) = G0 m c ∧ r.2.mem (o1Loc c) = G1 m c ∧ r.2.mem (o2Loc c) = G2 m c
  ∧ r.2.mem (a0Loc c) = m (a0Loc c) ∧ r.2.mem (a1Loc c) = m (a1Loc c) ∧ r.2.mem (a2Loc c) = m (a2Loc c)
  ∧ r.2.mem (t3Loc c) = m (t3Loc c) ∧ r.2.mem (t4Loc c) = m (t4Loc c) ∧ r.2.mem (t5Loc c) = m (t5Loc c)

end Cert.Proof.KIRes

end
-- ==== Proof.KILaunchP.lean ====
/-
  The launch's first half: what the handshakes of the one call carry (each tile its share of the arrays, there and back),
  one tile's obligation from the statement of its task, the split of a SparseCore's operands among its sixteen tiles
  (the identity: the operands are dealt per tile from the start), and the launch element of the ghost state.
-/
import proofs.«206842_g87686052315543_cont_sun_m_497_29_alg».proof.Proof.KIRes
import Idealize.ShloMosaic.Lib.StableHlo.Run
import Idealize.ShloMosaic.Lib.Tactic

noncomputable section

namespace Cert.Proof.KILaunchP

open Cert.KernelIdeal Cert.KernelIdeal.Gen Cert.Proof.KIRes

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = grid0.bound 0 := rfl
theorem nSub_zero : (K (F := F)).nSub 0 = grid0.bound 1 := rfl

variable (m : (ℓ : Loc nD τ sig) → Buf (Elt F) ℓ) (ρ : Dev nD → PrngReg)

/-! ## What the handshakes carry -/

/-- What tile `(c, i)` of the call's grid is handed, and what it hands back. -/
abbrev goAt (d : Dev nD) (c : Fin (grid0.bound 0)) (i : Fin (grid0.bound 1)) : sProp 𝕄 := tileGo m d (wid (coordsV c i))
abbrev tdAt (d : Dev nD) (c : Fin (grid0.bound 0)) (i : Fin (grid0.bound 1)) : sProp 𝕄 := tileTd m d (wid (coordsV c i))

/-- The one call hands SparseCore `c` its sixteen tiles' shares, already apart, each tile its own; and back. -/
def P : (K (F := F)).Pay (nD := nD) (Val := Elt F) (Name := ℕ) (U := UU) where
  st := fun q d c => match q with
    | 0 => bigSep Finset.univ fun i : Fin ((K (F := F)).nSub 0) => goAt m d (Fin.cast nCore_zero c) (Fin.cast nSub_zero i)
  dn := fun q d c => match q with
    | 0 => bigSep Finset.univ fun i : Fin ((K (F := F)).nSub 0) => tdAt m d (Fin.cast nCore_zero c) (Fin.cast nSub_zero i)
  go := fun q d c i => match q with
    | 0 => goAt m d (Fin.cast nCore_zero c) (Fin.cast nSub_zero i)
  td := fun q d c i => match q with
    | 0 => tdAt m d (Fin.cast nCore_zero c) (Fin.cast nSub_zero i)
  x := fun _ _ => iprop(emp)

theorem P_st (d : Dev nD) (c : Fin ((K (F := F)).nCore 0)) :
    (P m).st 0 d c = bigSep Finset.univ fun i : Fin ((K (F := F)).nSub 0) => goAt m d (Fin.cast nCore_zero c) (Fin.cast nSub_zero i) := rfl
theorem P_dn (d : Dev nD) (c : Fin ((K (F := F)).nCore 0)) :
    (P m).dn 0 d c = bigSep Finset.univ fun i : Fin ((K (F := F)).nSub 0) => tdAt m d (Fin.cast nCore_zero c) (Fin.cast nSub_zero i) := rfl
theorem P_go (d : Dev nD) (c : Fin ((K (F := F)).nCore 0)) (i : Fin ((K (F := F)).nSub 0)) :
    (P m).go 0 d c i = goAt m d (Fin.cast nCore_zero c) (Fin.cast nSub_zero i) := rfl
theorem P_td (d : Dev nD) (c : Fin ((K (F := F)).nCore 0)) (i : Fin ((K (F := F)).nSub 0)) :
    (P m).td 0 d c i = tdAt m d (Fin.cast nCore_zero c) (Fin.cast nSub_zero i) := rfl

instance tileGo_storable (d : Dev nD) (w : Fin 32) : BI.Storable (upEmb : UEmb _ 𝕄) (tileGo m d w) := by
  unfold tileGo; infer_instance
instance tileTd_storable (d : Dev nD) (w : Fin 32) : BI.Storable (upEmb : UEmb _ 𝕄) (tileTd m d w) := by
  unfold tileTd; infer_instance

instance P_storable : (P (F := F) m).IsStorable where
  st q d c := match q with
    | 0 => (inferInstance : BI.Storable (upEmb : UEmb _ 𝕄)
        (bigSep Finset.univ fun i : Fin ((K (F := F)).nSub 0) => goAt m d (Fin.cast nCore_zero c) (Fin.cast nSub_zero i)))
  dn q d c := match q with
    | 0 => (inferInstance : BI.Storable (upEmb : UEmb _ 𝕄)
        (bigSep Finset.univ fun i : Fin ((K (F := F)).nSub 0) => tdAt m d (Fin.cast nCore_zero c) (Fin.cast nSub_zero i)))
  go q d c i := match q with
    | 0 => (inferInstance : BI.Storable (upEmb : UEmb _ 𝕄) (goAt m d (Fin.cast nCore_zero c) (Fin.cast nSub_zero i)))
  td q d c i := match q with
    | 0 => (inferInstance : BI.Storable (upEmb : UEmb _ 𝕄) (tdAt m d (Fin.cast nCore_zero c) (Fin.cast nSub_zero i)))

/-! ## One tile's obligation -/

variable [FloatOps F]

theorem defs₀_vector (c : Fin τ.nSC) (s : Fin τ.nSub) :
    defs₀ (F := F) (.scVector c s) 0 ()
      = SparseCore.onTile hcore0 hsub0 (fun c s => cc0__gather3 (F := F) (coordsV c s)
          (Memref.whole main_v0_scv) (Memref.isWhole_whole _) (Memref.whole main_v1_scv) (Memref.isWhole_whole _)
          (Memref.whole main_v2_scv) (Memref.isWhole_whole _) (Memref.whole main_arg3_scv) (Memref.isWhole_whole _)
          (Memref.whole main_arg4_scv) (Memref.isWhole_whole _) (Memref.whole main_arg5_scv) (Memref.isWhole_whole _)
          (Memref.whole main_v3_0_scv) (Memref.isWhole_whole _) (Memref.whole main_v3_1_scv) (Memref.isWhole_whole _)
          (Memref.whole main_v3_2_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scratch5 cc0_scratch6 cc0_scratch7 cc0_scratch8
          cc0_scratch9 cc0_scratch10 cc0_scratch11 cc0_scratch12 cc0_scratch13 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileBody m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

/-! ## A SparseCore's operands among its tiles: they are dealt per tile from the start -/

omit [FloatOps F] in
theorem vecSplit : (K (F := F)).VecSplit' (P m) 0 := by
  intro d c
  rw [P_st, P_dn]
  iintro H; imodintro
  isplitl [H]; · iexact H
  iintro H; iexact H

/-! ## The launch element: the handshakes' rounds; the transfers' counters are let go -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KILaunchP

end
-- ==== Proof.KILaunchMain.lean ====
/-
  The launch's second half: @main on the TensorCore. Three reshapes lay the index columns out as 128 × 128; the nine
  arrays the call reads and writes are dealt to the 32 tiles; the call runs; the tiles' shares are gathered back. What
  @main leaves: the index columns and the tables as they were, each result at its lookup; and the final memory reads so.
-/
import proofs.«206842_g87686052315543_cont_sun_m_497_29_alg».proof.Proof.KILaunchP

noncomputable section

namespace Cert.Proof.KILaunchMain

open Cert.KernelIdeal Cert.KernelIdeal.Gen Cert.Proof.KIRes

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.Proof.KILaunchP
open Idealize.ShloMosaic.StableHlo (held wp_hlo_within)

variable (m : (ℓ : Loc nD τ sig) → Buf (Elt F) ℓ) (ρ : Dev nD → PrngReg)

/-! ## The TensorCore's arrays -/

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2)
      ∗ (t3Loc d ↦{fullShare} W main_arg3) ∗ (t4Loc d ↦{fullShare} W main_arg4) ∗ (t5Loc d ↦{fullShare} W main_arg5)
      ∗ (v0Loc d ↦{fullShare} W main_v0) ∗ (v1Loc d ↦{fullShare} W main_v1) ∗ (v2Loc d ↦{fullShare} W main_v2)
      ∗ (o0Loc d ↦{fullShare} W main_v3_0) ∗ (o1Loc d ↦{fullShare} W main_v3_1) ∗ (o2Loc d ↦{fullShare} W main_v3_2)) := by
  unfold unscopedBufs
  rw [show (Finset.univ.filter fun b : Ref sig .tc => ¬ b.isScoped)
      = {main_arg0, main_arg1, main_arg2, main_arg3, main_arg4, main_arg5, main_v0, main_v1, main_v2, main_v3_0, main_v3_1, main_v3_2} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-! ## The three reshapes -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev op0 : HloOp τ sig (Elt F) := StableHlo.reshape main_arg0 main_v0 rfl shapeCasts_S16384x1_S128x128
abbrev op1 : HloOp τ sig (Elt F) := StableHlo.reshape main_arg1 main_v1 rfl shapeCasts_S16384x1_S128x128
abbrev op2 : HloOp τ sig (Elt F) := StableHlo.reshape main_arg2 main_v2 rfl shapeCasts_S16384x1_S128x128

/-- The launch valuation. -/
def V0 (d : Dev nD) : Valuation τ sig (Elt F) := fun b => m (d, b)

theorem held_pair (d : Dev nD) {x y : DevRef τ sig} (h : x ≠ y) (W : Valuation τ sig (Elt F)) :
    (held (T d) {x, y} W : sProp 𝕄) = iprop((((d, x) : Loc nD τ sig) ↦{fullShare} W x) ∗ (((d, y) : Loc nD τ sig) ↦{fullShare} W y)) := by
  unfold held
  rw [SparseCore.bigSep_insert' (by simpa using h), bigSep_singleton]

theorem res0_a (d : Dev nD) : (op0 (F := F)).result (V0 m d) a0' = m (a0Loc d) :=
  StableHlo.reshape_result_ne (x := main_arg0) (y := main_v0) rfl shapeCasts_S16384x1_S128x128 ⟨by decide, rfl⟩ ⟨by decide, rfl⟩ (V0 m d) (r := main_arg0) (by decide)
theorem res0_v (d : Dev nD) : (op0 (F := F)).result (V0 m d) v0' = ids2_0 m d :=
  (StableHlo.reshape_result main_arg0 main_v0 rfl shapeCasts_S16384x1_S128x128 ⟨by decide, rfl⟩ ⟨by decide, rfl⟩ (V0 m d)).trans rfl
theorem res1_a (d : Dev nD) : (op1 (F := F)).result (V0 m d) a1' = m (a1Loc d) :=
  StableHlo.reshape_result_ne (x := main_arg1) (y := main_v1) rfl shapeCasts_S16384x1_S128x128 ⟨by decide, rfl⟩ ⟨by decide, rfl⟩ (V0 m d) (r := main_arg1) (by decide)
theorem res1_v (d : Dev nD) : (op1 (F := F)).result (V0 m d) v1' = ids2_1 m d :=
  (StableHlo.reshape_result main_arg1 main_v1 rfl shapeCasts_S16384x1_S128x128 ⟨by decide, rfl⟩ ⟨by decide, rfl⟩ (V0 m d)).trans rfl
theorem res2_a (d : Dev nD) : (op2 (F := F)).result (V0 m d) a2' = m (a2Loc d) :=
  StableHlo.reshape_result_ne (x := main_arg2) (y := main_v2) rfl shapeCasts_S16384x1_S128x128 ⟨by decide, rfl⟩ ⟨by decide, rfl⟩ (V0 m d) (r := main_arg2) (by decide)
theorem res2_v (d : Dev nD) : (op2 (F := F)).result (V0 m d) v2' = ids2_2 m d :=
  (StableHlo.reshape_result main_arg2 main_v2 rfl shapeCasts_S16384x1_S128x128 ⟨by decide, rfl⟩ ⟨by decide, rfl⟩ (V0 m d)).trans rfl

theorem h0 : (op0 (F := F)).bufs ⊆ {a0', v0'} := subset_rfl
theorem h1 : (op1 (F := F)).bufs ⊆ {a1', v1'} := subset_rfl
theorem h2 : (op2 (F := F)).bufs ⊆ {a2', v2'} := subset_rfl

theorem held0 (d : Dev nD) : (held (T d) {a0', v0'} (V0 m d) : sProp 𝕄) = iprop((a0Loc d ↦{fullShare} m (a0Loc d)) ∗ (v0Loc d ↦{fullShare} m (v0Loc d))) :=
  held_pair d (by decide) _
theorem held0' (d : Dev nD) : (held (T d) {a0', v0'} ((op0 (F := F)).result (V0 m d)) : sProp 𝕄)
    = iprop((a0Loc d ↦{fullShare} m (a0Loc d)) ∗ (v0Loc d ↦{fullShare} ids2_0 m d)) := by
  rw [held_pair d (by decide), res0_a, res0_v]
theorem held1 (d : Dev nD) : (held (T d) {a1', v1'} (V0 m d) : sProp 𝕄) = iprop((a1Loc d ↦{fullShare} m (a1Loc d)) ∗ (v1Loc d ↦{fullShare} m (v1Loc d))) :=
  held_pair d (by decide) _
theorem held1' (d : Dev nD) : (held (T d) {a1', v1'} ((op1 (F := F)).result (V0 m d)) : sProp 𝕄)
    = iprop((a1Loc d ↦{fullShare} m (a1Loc d)) ∗ (v1Loc d ↦{fullShare} ids2_1 m d)) := by
  rw [held_pair d (by decide), res1_a, res1_v]
theorem held2 (d : Dev nD) : (held (T d) {a2', v2'} (V0 m d) : sProp 𝕄) = iprop((a2Loc d ↦{fullShare} m (a2Loc d)) ∗ (v2Loc d ↦{fullShare} m (v2Loc d))) :=
  held_pair d (by decide) _
theorem held2' (d : Dev nD) : (held (T d) {a2', v2'} ((op2 (F := F)).result (V0 m d)) : sProp 𝕄)
    = iprop((a2Loc d ↦{fullShare} m (a2Loc d)) ∗ (v2Loc d ↦{fullShare} ids2_2 m d)) := by
  rw [held_pair d (by decide), res2_a, res2_v]

/-! ## The call's operands, per SparseCore -/

theorem st0_eq (d : Dev nD) : (bigSep Finset.univ fun c : Fin ((K (F := F)).nCore 0) => (P m).st 0 d c)
    = bigSep Finset.univ fun c : Fin (grid0.bound 0) => bigSep Finset.univ fun s : Fin (grid0.bound 1) => tileGo m d (wid (coordsV c s)) :=
  bigSep_congr fun c _ => (P_st m d c).trans (bigSep_congr fun i _ => rfl)
theorem dn0_eq (d : Dev nD) : (bigSep Finset.univ fun c : Fin ((K (F := F)).nCore 0) => (P m).dn 0 d c)
    = bigSep Finset.univ fun c : Fin (grid0.bound 0) => bigSep Finset.univ fun s : Fin (grid0.bound 1) => tileTd m d (wid (coordsV c s)) :=
  bigSep_congr fun c _ => (P_dn m d c).trans (bigSep_congr fun i _ => rfl)

/-! ## @main -/

/-- The nine arrays the call works on, whole, the results as given. -/
abbrev Whole (d : Dev nD) (g0 : Buf (Elt F) (o0Loc d)) (g1 : Buf (Elt F) (o1Loc d)) (g2 : Buf (Elt F) (o2Loc d)) : sProp 𝕄 :=
  iprop((v0Loc d ↦{fullShare} ids2_0 m d) ∗ (v1Loc d ↦{fullShare} ids2_1 m d) ∗ (v2Loc d ↦{fullShare} ids2_2 m d)
    ∗ (t3Loc d ↦{fullShare} m (t3Loc d)) ∗ (t4Loc d ↦{fullShare} m (t4Loc d)) ∗ (t5Loc d ↦{fullShare} m (t5Loc d))
    ∗ (o0Loc d ↦{fullShare} g0) ∗ (o1Loc d ↦{fullShare} g1) ∗ (o2Loc d ↦{fullShare} g2))

/-- How the nine arrays are dealt to the tiles of the grid, and gathered from them. -/
abbrev Deal : Prop := ∀ d : Dev nD, Whole m d (m (o0Loc d)) (m (o1Loc d)) (m (o2Loc d))
  ⊢ (iprop((bigSep Finset.univ fun c : Fin (grid0.bound 0) => bigSep Finset.univ fun s : Fin (grid0.bound 1) => tileGo m d (wid (coordsV c s))) ∗ tabRest m d) : sProp 𝕄)
abbrev Gather : Prop := ∀ d : Dev nD,
  (iprop((bigSep Finset.univ fun c : Fin (grid0.bound 0) => bigSep Finset.univ fun s : Fin (grid0.bound 1) => tileTd m d (wid (coordsV c s))) ∗ tabRest m d) : sProp 𝕄)
    ⊢ Whole m d (G0 m d) (G1 m d) (G2 m d)

/-- What @main leaves the claim: the results at the lookups, the index columns and the tables as they were. -/
abbrev FIN (d : Dev nD) : sProp 𝕄 :=
  iprop((o0Loc d ↦{fullShare} G0 m d) ∗ (o1Loc d ↦{fullShare} G1 m d) ∗ (o2Loc d ↦{fullShare} G2 m d)
    ∗ (a0Loc d ↦{fullShare} m (a0Loc d)) ∗ (a1Loc d ↦{fullShare} m (a1Loc d)) ∗ (a2Loc d ↦{fullShare} m (a2Loc d))
    ∗ (t3Loc d ↦{fullShare} m (t3Loc d)) ∗ (t4Loc d ↦{fullShare} m (t4Loc d)) ∗ (t5Loc d ↦{fullShare} m (t5Loc d)))

variable [FloatOps F]

theorem hmain (hdeal : Deal m) (hgather : Gather m) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Ht3, Ht4, Ht5, Hv0, Hv1, Hv2, Ho0, Ho1, Ho2⟩, -, -⟩, -⟩
  -- the three reshapes
  iapply (wp_hlo_within 𝒱 (SparseCore.T d) none Set.univ (op := op0) (S := {a0', v0'}) h0 (V := V0 m d)) $$ [Hb Ha0 Hv0]
  · isplitl [Hb]; · iexact Hb
    rw [held0]
    isplitl [Ha0]; · iexact Ha0
    iexact Hv0
  iintro ⟨Hb, Hh⟩
  ihave Hh' := (Entails.of_eq (held0' m d)) $$ Hh
  icases Hh' with ⟨Ha0, Hv0⟩
  rw [wp_ret]; imodintro
  iapply (wp_hlo_within 𝒱 (SparseCore.T d) none Set.univ (op := op1) (S := {a1', v1'}) h1 (V := V0 m d)) $$ [Hb Ha1 Hv1]
  · isplitl [Hb]; · iexact Hb
    rw [held1]
    isplitl [Ha1]; · iexact Ha1
    iexact Hv1
  iintro ⟨Hb, Hh⟩
  ihave Hh' := (Entails.of_eq (held1' m d)) $$ Hh
  icases Hh' with ⟨Ha1, Hv1⟩
  rw [wp_ret]; imodintro
  iapply (wp_hlo_within 𝒱 (SparseCore.T d) none Set.univ (op := op2) (S := {a2', v2'}) h2 (V := V0 m d)) $$ [Hb Ha2 Hv2]
  · isplitl [Hb]; · iexact Hb
    rw [held2]
    isplitl [Ha2]; · iexact Ha2
    iexact Hv2
  iintro ⟨Hb, Hh⟩
  ihave Hh' := (Entails.of_eq (held2' m d)) $$ Hh
  icases Hh' with ⟨Ha2, Hv2⟩
  rw [wp_ret]; imodintro
  -- the arrays dealt to the tiles
  ihave Hd := (hdeal d) $$ [Hv0 Hv1 Hv2 Ht3 Ht4 Ht5 Ho0 Ho1 Ho2]
  · isplitl [Hv0]; · iexact Hv0
    isplitl [Hv1]; · iexact Hv1
    isplitl [Hv2]; · iexact Hv2
    isplitl [Ht3]; · iexact Ht3
    isplitl [Ht4]; · iexact Ht4
    isplitl [Ht5]; · iexact Ht5
    isplitl [Ho0]; · iexact Ho0
    isplitl [Ho1]; · iexact Ho1
    iexact Ho2
  icases Hd with ⟨Hgo, Hrest⟩
  -- the call
  iapply ((K (F := F)).wp_run (D (F := F)) 𝒱 (EH := EH) (P := P m) κ d 0) $$ [Hst Hgo Ha0 Ha1 Ha2 Hrest]
  isplitr; · iexact Hctx
  isplitl [Hst]; · iexact Hst
  isplitl [Hgo]
  · rw [st0_eq]; iexact Hgo
  iintro ⟨Hst, Hdn⟩
  ihave Htd := (Entails.of_eq (dn0_eq m d)) $$ Hdn
  -- the tiles' shares gathered
  ihave Hw := (hgather d) $$ [Htd Hrest]
  · isplitl [Htd]; · iexact Htd
    iexact Hrest
  icases Hw with ⟨-, -, -, Ht3, Ht4, Ht5, Ho0, Ho1, Ho2⟩
  imodintro
  isplitl [Hst]; · iexact Hst
  isplitl [Ho0]; · iexact Ho0
  isplitl [Ho1]; · iexact Ho1
  isplitl [Ho2]; · iexact Ho2
  isplitl [Ha0]; · iexact Ha0
  isplitl [Ha1]; · iexact Ha1
  isplitl [Ha2]; · iexact Ha2
  isplitl [Ht3]; · iexact Ht3
  isplitl [Ht4]; · iexact Ht4
  iexact Ht5

/-! ## The final memory -/

omit [FloatOps F] in
theorem agree {ℓ : Loc nD τ sig} (f : Buf (Elt F) ℓ) (s' : Phys nD τ sig (Elt F)) :
    iprop(SI s' ∗ ℓ ↦{fullShare} f) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

def fq (d : Dev nD) (s' : Phys nD τ sig (Elt F)) : Prop :=
  s'.mem.mem (o0Loc d) = G0 m d ∧ s'.mem.mem (o1Loc d) = G1 m d ∧ s'.mem.mem (o2Loc d) = G2 m d
  ∧ s'.mem.mem (a0Loc d) = m (a0Loc d) ∧ s'.mem.mem (a1Loc d) = m (a1Loc d) ∧ s'.mem.mem (a2Loc d) = m (a2Loc d)
  ∧ s'.mem.mem (t3Loc d) = m (t3Loc d) ∧ s'.mem.mem (t4Loc d) = m (t4Loc d) ∧ s'.mem.mem (t5Loc d) = m (t5Loc d)

omit [FloatOps F] in
theorem hfin (d : Dev nD) (s' : Phys nD τ sig (Elt F)) : iprop(FIN m d ∗ SI s') ⊢ (⌜fq m d s'⌝ : sProp 𝕄) := by
  iintro ⟨⟨Ho0, Ho1, Ho2, Ha0, Ha1, Ha2, Ht3, Ht4, Ht5⟩, HSI⟩
  ihave H := (agree (G0 m d) s') $$ [HSI Ho0]
  · isplitl [HSI] <;> iassumption
  icases H with ⟨%e0, HSI⟩
  ihave H := (agree (G1 m d) s') $$ [HSI Ho1]
  · isplitl [HSI] <;> iassumption
  icases H with ⟨%e1, HSI⟩
  ihave H := (agree (G2 m d) s') $$ [HSI Ho2]
  · isplitl [HSI] <;> iassumption
  icases H with ⟨%e2, HSI⟩
  ihave H := (agree (m (a0Loc d)) s') $$ [HSI Ha0]
  · isplitl [HSI] <;> iassumption
  icases H with ⟨%e3, HSI⟩
  ihave H := (agree (m (a1Loc d)) s') $$ [HSI Ha1]
  · isplitl [HSI] <;> iassumption
  icases H with ⟨%e4, HSI⟩
  ihave H := (agree (m (a2Loc d)) s') $$ [HSI Ha2]
  · isplitl [HSI] <;> iassumption
  icases H with ⟨%e5, HSI⟩
  ihave H := (agree (m (t3Loc d)) s') $$ [HSI Ht3]
  · isplitl [HSI] <;> iassumption
  icases H with ⟨%e6, HSI⟩
  ihave H := (agree (m (t4Loc d)) s') $$ [HSI Ht4]
  · isplitl [HSI] <;> iassumption
  icases H with ⟨%e7, HSI⟩
  ihave H := (agree (m (t5Loc d)) s') $$ [HSI Ht5]
  · isplitl [HSI] <;> iassumption
  icases H with ⟨%e8, -⟩
  ipureintro; exact ⟨e0, e1, e2, e3, e4, e5, e6, e7, e8⟩

end Cert.Proof.KILaunchMain

end
-- ==== Proof.KILaunch.lean ====
/-
  The program's run: the library's launch theorem for a SparseCore program, applied to the one call. Given how the nine
  arrays are dealt to the 32 tiles and gathered from them, and one tile's task, every weakly fair execution of the
  device's threads ends with each result at its lookup and every argument as it was.
-/
import proofs.«206842_g87686052315543_cont_sun_m_497_29_alg».proof.Proof.KILaunchMain

noncomputable section

namespace Cert.Proof.KILaunch

open Cert.KernelIdeal Cert.KernelIdeal.Gen Cert.Proof.KIRes

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Cert.Proof.KILaunchP Cert.Proof.KILaunchMain

variable (m : (ℓ : Loc nD τ sig) → Buf (Elt F) ℓ) (ρ : Dev nD → PrngReg)

variable [FloatOps F]

theorem run_main [∀ e, Nonempty (Elt F e)]
    (hdeal : ∀ d : Dev nD, iprop((v0Loc d ↦{fullShare} ids2_0 m d) ∗ (v1Loc d ↦{fullShare} ids2_1 m d) ∗ (v2Loc d ↦{fullShare} ids2_2 m d)
        ∗ (t3Loc d ↦{fullShare} m (t3Loc d)) ∗ (t4Loc d ↦{fullShare} m (t4Loc d)) ∗ (t5Loc d ↦{fullShare} m (t5Loc d))
        ∗ (o0Loc d ↦{fullShare} m (o0Loc d)) ∗ (o1Loc d ↦{fullShare} m (o1Loc d)) ∗ (o2Loc d ↦{fullShare} m (o2Loc d)))
      ⊢ (iprop((bigSep Finset.univ fun c : Fin (grid0.bound 0) => bigSep Finset.univ fun s : Fin (grid0.bound 1) => tileGo m d (wid (coordsV c s)))
          ∗ tabRest m d) : sProp 𝕄))
    (hgather : ∀ d : Dev nD,
      (iprop((bigSep Finset.univ fun c : Fin (grid0.bound 0) => bigSep Finset.univ fun s : Fin (grid0.bound 1) => tileTd m d (wid (coordsV c s)))
          ∗ tabRest m d) : sProp 𝕄)
      ⊢ iprop((v0Loc d ↦{fullShare} ids2_0 m d) ∗ (v1Loc d ↦{fullShare} ids2_1 m d) ∗ (v2Loc d ↦{fullShare} ids2_2 m d)
        ∗ (t3Loc d ↦{fullShare} m (t3Loc d)) ∗ (t4Loc d ↦{fullShare} m (t4Loc d)) ∗ (t5Loc d ↦{fullShare} m (t5Loc d))
        ∗ (o0Loc d ↦{fullShare} G0 m d) ∗ (o1Loc d ↦{fullShare} G1 m d) ∗ (o2Loc d ↦{fullShare} G2 m d)))
    (hbody : TileBody m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m ρ main (fun _ => iprop(emp)) (FIN m) (u₀ (F := F)) (sep_elim_left.trans (hu₀ m)) (hmain m ρ hdeal hgather) (fq m) (hfin m) (QC m) (fun _ h => h)

end Cert.Proof.KILaunch

end
-- ==== Proof.KDeal.lean ====
/-
  Dealing a device's arrays to its 32 workers, and gathering them back.

  Worker w = 2 s + c of tile (c, s) gets rows 4 w … 4 w + 3 of each reshaped index array, one read share of each
  table, and windows 8 w … 8 w + 7 of each result.  Each whole array is the separating conjunction of its pieces:
  an array is the parts of a cut along axis 0 (pairwise disjoint, covering), a full share is 32 read shares and a
  remainder, and the grid's 2 × 16 tiles (the 32 × 8 windows) are counted once each by w = 2 s + c (p = 8 w + c8).
  Every step is an EQUATION between assertions, so dealing and gathering are the two readings of one equation.
-/
import proofs.«206842_g87686052315543_cont_sun_m_497_29_alg».proof.Proof.KRes

noncomputable section

namespace Cert.Proof.KDeal

open Cert.Kernel Cert.Kernel.Gen Cert.Proof.KRes

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Counting the tiles, and the windows, once each -/

/-- (c, s) ↦ 2 s + c counts the 2 × 16 tiles as the 32 workers. -/
def gridEquiv : Fin (grid0.bound 0) × Fin (grid0.bound 1) ≃ Fin 32 where
  toFun p := wid (coordsV p.1 p.2)
  invFun w := (⟨w.val % 2, Nat.mod_lt _ (by decide)⟩, ⟨w.val / 2, by have := w.isLt; show w.val / 2 < 16; omega⟩)
  left_inv p := by
    obtain ⟨c, s⟩ := p
    have hc : c.val < 2 := c.isLt
    have hs : s.val < 16 := s.isLt
    refine Prod.ext (Fin.ext ?_) (Fin.ext ?_)
    · show (2 * s.val + c.val) % 2 = c.val; omega
    · show (2 * s.val + c.val) / 2 = s.val; omega
  right_inv w := by
    refine Fin.ext ?_
    show 2 * (w.val / 2) + w.val % 2 = w.val; omega

/-- A conjunction over the tiles, core by core and subcore by subcore, is the conjunction over the workers. -/
theorem bigSep_grid (Φ : Fin 32 → sProp 𝕄) :
    (bigSep Finset.univ fun c : Fin (grid0.bound 0) => bigSep Finset.univ fun s : Fin (grid0.bound 1) => Φ (wid (coordsV c s)))
      = bigSep Finset.univ Φ := by
  rw [bigSep_univ_equiv gridEquiv Φ, bigSep_univ_prod]
  rfl

/-- (w, c8) ↦ 8 w + c8 counts the 32 × 8 windows as the 256 parts of a result. -/
def winEquiv : Fin 32 × Fin 8 ≃ Fin 256 where
  toFun p := win8 p.1 p.2
  invFun p := (⟨p.val / 8, by have := p.isLt; omega⟩, ⟨p.val % 8, Nat.mod_lt _ (by decide)⟩)
  left_inv p := by
    obtain ⟨w, c8⟩ := p
    have hw : w.val < 32 := w.isLt
    have hc : c8.val < 8 := c8.isLt
    refine Prod.ext (Fin.ext ?_) (Fin.ext ?_)
    · show (8 * w.val + c8.val) / 8 = w.val; omega
    · show (8 * w.val + c8.val) % 8 = c8.val; omega
  right_inv p := by
    refine Fin.ext ?_
    show 8 * (p.val / 8) + p.val % 8 = p.val; omega

/-- A conjunction over each worker's eight windows is the conjunction over the 256 windows. -/
theorem bigSep_win (Φ : Fin 256 → sProp 𝕄) :
    (bigSep Finset.univ fun w : Fin 32 => bigSep Finset.univ fun c8 : Fin 8 => Φ (win8 w c8)) = bigSep Finset.univ Φ := by
  rw [bigSep_univ_equiv winEquiv Φ, bigSep_univ_prod]
  rfl

/-! ## One array, cut along an axis -/

/-- A whole array is its n parts along an axis that n divides: the parts are pairwise disjoint and cover it. -/
theorem pointsTo_parts {ℓ : Loc nD τ sig} {a₀ : Fin ℓ.ty.shape.rank} {n : ℕ} (hn : n ∣ ℓ.ty.shape.size a₀)
    (q : PosShare TreeShare) (f : Buf (Elt F) ℓ) :
    (ℓ ↦{q} f : sProp 𝕄) = bigSep Finset.univ fun j : Fin n => ℓ ↦[(Rect.part hn j).set]{q} f := by
  rw [← pointsTo_biUnion Finset.univ (fun j : Fin n => (Rect.part hn j).set) (fun j _ j' _ h => Rect.part_disjoint hn h),
    Rect.biUnion_part hn]

/-! ## One array, shared out among readers -/

/-- A share of an array is n read shares of it and what remains. -/
theorem pointsTo_shares {ℓ : Loc nD τ sig} (q : PosShare TreeShare) (n : ℕ) (f : Buf (Elt F) ℓ) :
    (ℓ ↦{q} f : sProp 𝕄)
      = iprop((ℓ ↦{Transfers.shareDrop q n} f) ∗ bigSep Finset.univ fun i : Fin n => ℓ ↦{Transfers.shareTok q n i} f) :=
  BI.equiv_iff.mp ⟨(Transfers.pointsTo_toks q n).1, (Transfers.pointsTo_toks q n).2⟩

/-! ## The arrays of this kernel -/

variable (m : (ℓ : Loc nD τ sig) → Buf (Elt F) ℓ)

/-- A reshaped index array is the 32 workers' groups of four rows. -/
theorem ids0_rows (d : Dev nD) (f : Buf (Elt F) (v0Loc d)) :
    (v0Loc d ↦{fullShare} f : sProp 𝕄) = bigSep Finset.univ fun w : Fin 32 => v0Loc d ↦[idRows w]{fullShare} f :=
  pointsTo_parts (ℓ := v0Loc d) hdiv_ids fullShare f
theorem ids1_rows (d : Dev nD) (f : Buf (Elt F) (v1Loc d)) :
    (v1Loc d ↦{fullShare} f : sProp 𝕄) = bigSep Finset.univ fun w : Fin 32 => v1Loc d ↦[idRows w]{fullShare} f :=
  pointsTo_parts (ℓ := v1Loc d) hdiv_ids fullShare f
theorem ids2_rows (d : Dev nD) (f : Buf (Elt F) (v2Loc d)) :
    (v2Loc d ↦{fullShare} f : sProp 𝕄) = bigSep Finset.univ fun w : Fin 32 => v2Loc d ↦[idRows w]{fullShare} f :=
  pointsTo_parts (ℓ := v2Loc d) hdiv_ids fullShare f

/-- A result is the 32 workers' eight windows each: its 256 windows, counted as p = 8 w + c8. -/
theorem out0_wins (d : Dev nD) (f : Buf (Elt F) (o0Loc d)) :
    (o0Loc d ↦{fullShare} f : sProp 𝕄)
      = bigSep Finset.univ fun w : Fin 32 => bigSep Finset.univ fun c8 : Fin 8 => o0Loc d ↦[outWin (win8 w c8)]{fullShare} f := by
  rw [bigSep_win (fun p => o0Loc d ↦[outWin p]{fullShare} f)]
  exact pointsTo_parts (ℓ := o0Loc d) hdiv_out fullShare f
theorem out1_wins (d : Dev nD) (f : Buf (Elt F) (o1Loc d)) :
    (o1Loc d ↦{fullShare} f : sProp 𝕄)
      = bigSep Finset.univ fun w : Fin 32 => bigSep Finset.univ fun c8 : Fin 8 => o1Loc d ↦[outWin (win8 w c8)]{fullShare} f := by
  rw [bigSep_win (fun p => o1Loc d ↦[outWin p]{fullShare} f)]
  exact pointsTo_parts (ℓ := o1Loc d) hdiv_out fullShare f
theorem out2_wins (d : Dev nD) (f : Buf (Elt F) (o2Loc d)) :
    (o2Loc d ↦{fullShare} f : sProp 𝕄)
      = bigSep Finset.univ fun w : Fin 32 => bigSep Finset.univ fun c8 : Fin 8 => o2Loc d ↦[outWin (win8 w c8)]{fullShare} f := by
  rw [bigSep_win (fun p => o2Loc d ↦[outWin p]{fullShare} f)]
  exact pointsTo_parts (ℓ := o2Loc d) hdiv_out fullShare f

/-! ## Dealing and gathering -/

/-- Moving three remainders out of a nine-fold conjunction, -/
theorem sep_rests_out (a b c r3 k3 r4 k4 r5 k5 x y z : sProp 𝕄) :
    iprop(a ∗ b ∗ c ∗ (r3 ∗ k3) ∗ (r4 ∗ k4) ∗ (r5 ∗ k5) ∗ x ∗ y ∗ z)
      ⊢ iprop((a ∗ b ∗ c ∗ k3 ∗ k4 ∗ k5 ∗ x ∗ y ∗ z) ∗ r3 ∗ r4 ∗ r5) := by
  iintro ⟨Ha, Hb, Hc, ⟨Hr3, Hk3⟩, ⟨Hr4, Hk4⟩, ⟨Hr5, Hk5⟩, Hx, Hy, Hz⟩
  isplitr [Hr3 Hr4 Hr5]
  · isplitl [Ha]; · iexact Ha
    isplitl [Hb]; · iexact Hb
    isplitl [Hc]; · iexact Hc
    isplitl [Hk3]; · iexact Hk3
    isplitl [Hk4]; · iexact Hk4
    isplitl [Hk5]; · iexact Hk5
    isplitl [Hx]; · iexact Hx
    isplitl [Hy]; · iexact Hy
    iexact Hz
  · isplitl [Hr3]; · iexact Hr3
    isplitl [Hr4]; · iexact Hr4
    iexact Hr5

/-- and back in. -/
theorem sep_rests_in (a b c r3 k3 r4 k4 r5 k5 x y z : sProp 𝕄) :
    iprop((a ∗ b ∗ c ∗ k3 ∗ k4 ∗ k5 ∗ x ∗ y ∗ z) ∗ r3 ∗ r4 ∗ r5)
      ⊢ iprop(a ∗ b ∗ c ∗ (r3 ∗ k3) ∗ (r4 ∗ k4) ∗ (r5 ∗ k5) ∗ x ∗ y ∗ z) := by
  iintro ⟨⟨Ha, Hb, Hc, Hk3, Hk4, Hk5, Hx, Hy, Hz⟩, Hr3, Hr4, Hr5⟩
  isplitl [Ha]; · iexact Ha
  isplitl [Hb]; · iexact Hb
  isplitl [Hc]; · iexact Hc
  isplitl [Hr3 Hk3]
  · isplitl [Hr3]; · iexact Hr3
    iexact Hk3
  isplitl [Hr4 Hk4]
  · isplitl [Hr4]; · iexact Hr4
    iexact Hk4
  isplitl [Hr5 Hk5]
  · isplitl [Hr5]; · iexact Hr5
    iexact Hk5
  isplitl [Hx]; · iexact Hx
  isplitl [Hy]; · iexact Hy
  iexact Hz

theorem sep_rests (a b c r3 k3 r4 k4 r5 k5 x y z : sProp 𝕄) :
    iprop(a ∗ b ∗ c ∗ (r3 ∗ k3) ∗ (r4 ∗ k4) ∗ (r5 ∗ k5) ∗ x ∗ y ∗ z)
      = iprop((a ∗ b ∗ c ∗ k3 ∗ k4 ∗ k5 ∗ x ∗ y ∗ z) ∗ r3 ∗ r4 ∗ r5) :=
  BI.equiv_iff.mp ⟨sep_rests_out a b c r3 k3 r4 k4 r5 k5 x y z, sep_rests_in a b c r3 k3 r4 k4 r5 k5 x y z⟩

/-- What worker w holds when the three results hold f0, f1, f2: what it is handed at the launch memory's results, what it
    hands back at the lookups. -/
def tileAt (d : Dev nD) (f0 : Buf (Elt F) (o0Loc d)) (f1 : Buf (Elt F) (o1Loc d)) (f2 : Buf (Elt F) (o2Loc d)) (w : Fin 32) : sProp 𝕄 :=
  iprop((v0Loc d ↦[idRows w]{fullShare} ids2_0 m d) ∗ (v1Loc d ↦[idRows w]{fullShare} ids2_1 m d) ∗ (v2Loc d ↦[idRows w]{fullShare} ids2_2 m d)
    ∗ (t3Loc d ↦{Transfers.shareTok fullShare 32 w} m (t3Loc d)) ∗ (t4Loc d ↦{Transfers.shareTok fullShare 32 w} m (t4Loc d))
    ∗ (t5Loc d ↦{Transfers.shareTok fullShare 32 w} m (t5Loc d))
    ∗ (bigSep Finset.univ fun c8 : Fin 8 => o0Loc d ↦[outWin (win8 w c8)]{fullShare} f0)
    ∗ (bigSep Finset.univ fun c8 : Fin 8 => o1Loc d ↦[outWin (win8 w c8)]{fullShare} f1)
    ∗ (bigSep Finset.univ fun c8 : Fin 8 => o2Loc d ↦[outWin (win8 w c8)]{fullShare} f2))

theorem tileGo_eq (d : Dev nD) (w : Fin 32) : tileGo m d w = tileAt m d (m (o0Loc d)) (m (o1Loc d)) (m (o2Loc d)) w := rfl
theorem tileTd_eq (d : Dev nD) (w : Fin 32) : tileTd m d w = tileAt m d (G0 m d) (G1 m d) (G2 m d) w := rfl

/-- The nine whole arrays are the 32 workers' holdings and the tables' remaining shares, whatever the results hold. -/
theorem whole_eq (d : Dev nD) (f0 : Buf (Elt F) (o0Loc d)) (f1 : Buf (Elt F) (o1Loc d)) (f2 : Buf (Elt F) (o2Loc d)) :
    (iprop((v0Loc d ↦{fullShare} ids2_0 m d) ∗ (v1Loc d ↦{fullShare} ids2_1 m d) ∗ (v2Loc d ↦{fullShare} ids2_2 m d)
        ∗ (t3Loc d ↦{fullShare} m (t3Loc d)) ∗ (t4Loc d ↦{fullShare} m (t4Loc d)) ∗ (t5Loc d ↦{fullShare} m (t5Loc d))
        ∗ (o0Loc d ↦{fullShare} f0) ∗ (o1Loc d ↦{fullShare} f1) ∗ (o2Loc d ↦{fullShare} f2)) : sProp 𝕄)
      = iprop((bigSep Finset.univ fun c : Fin (grid0.bound 0) => bigSep Finset.univ fun s : Fin (grid0.bound 1) =>
          tileAt m d f0 f1 f2 (wid (coordsV c s))) ∗ tabRest m d) := by
  rw [bigSep_grid (tileAt m d f0 f1 f2)]
  unfold tileAt tabRest
  rw [bigSep_sep', bigSep_sep', bigSep_sep', bigSep_sep', bigSep_sep', bigSep_sep', bigSep_sep', bigSep_sep']
  rw [ids0_rows, ids1_rows, ids2_rows, out0_wins, out1_wins, out2_wins,
    pointsTo_shares fullShare 32 (m (t3Loc d)), pointsTo_shares fullShare 32 (m (t4Loc d)), pointsTo_shares fullShare 32 (m (t5Loc d))]
  exact sep_rests _ _ _ _ _ _ _ _ _ _ _ _

theorem deal (d : Dev nD) :
    iprop((v0Loc d ↦{fullShare} ids2_0 m d) ∗ (v1Loc d ↦{fullShare} ids2_1 m d) ∗ (v2Loc d ↦{fullShare} ids2_2 m d)
        ∗ (t3Loc d ↦{fullShare} m (t3Loc d)) ∗ (t4Loc d ↦{fullShare} m (t4Loc d)) ∗ (t5Loc d ↦{fullShare} m (t5Loc d))
        ∗ (o0Loc d ↦{fullShare} m (o0Loc d)) ∗ (o1Loc d ↦{fullShare} m (o1Loc d)) ∗ (o2Loc d ↦{fullShare} m (o2Loc d)))
      ⊢ (iprop((bigSep Finset.univ fun c : Fin (grid0.bound 0) => bigSep Finset.univ fun s : Fin (grid0.bound 1) => tileGo m d (wid (coordsV c s)))
          ∗ tabRest m d) : sProp 𝕄) :=
  Entails.of_eq (whole_eq m d (m (o0Loc d)) (m (o1Loc d)) (m (o2Loc d)))

theorem gather (d : Dev nD) :
    (iprop((bigSep Finset.univ fun c : Fin (grid0.bound 0) => bigSep Finset.univ fun s : Fin (grid0.bound 1) => tileTd m d (wid (coordsV c s)))
        ∗ tabRest m d) : sProp 𝕄)
      ⊢ iprop((v0Loc d ↦{fullShare} ids2_0 m d) ∗ (v1Loc d ↦{fullShare} ids2_1 m d) ∗ (v2Loc d ↦{fullShare} ids2_2 m d)
        ∗ (t3Loc d ↦{fullShare} m (t3Loc d)) ∗ (t4Loc d ↦{fullShare} m (t4Loc d)) ∗ (t5Loc d ↦{fullShare} m (t5Loc d))
        ∗ (o0Loc d ↦{fullShare} G0 m d) ∗ (o1Loc d ↦{fullShare} G1 m d) ∗ (o2Loc d ↦{fullShare} G2 m d)) :=
  Entails.of_eq (whole_eq m d (G0 m d) (G1 m d) (G2 m d)).symm

end Cert.Proof.KDeal

end
-- ==== Proof.KIDeal.lean ====
/-
  Dealing a device's arrays to its 32 workers, and gathering them back.

  Worker w = 2 s + c of tile (c, s) gets rows 4 w … 4 w + 3 of each reshaped index array, one read share of each
  table, and windows 8 w … 8 w + 7 of each result.  Each whole array is the separating conjunction of its pieces:
  an array is the parts of a cut along axis 0 (pairwise disjoint, covering), a full share is 32 read shares and a
  remainder, and the grid's 2 × 16 tiles (the 32 × 8 windows) are counted once each by w = 2 s + c (p = 8 w + c8).
  Every step is an EQUATION between assertions, so dealing and gathering are the two readings of one equation.
-/
import proofs.«206842_g87686052315543_cont_sun_m_497_29_alg».proof.Proof.KIRes

noncomputable section

namespace Cert.Proof.KIDeal

open Cert.KernelIdeal Cert.KernelIdeal.Gen Cert.Proof.KIRes

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Counting the tiles, and the windows, once each -/

/-- (c, s) ↦ 2 s + c counts the 2 × 16 tiles as the 32 workers. -/
def gridEquiv : Fin (grid0.bound 0) × Fin (grid0.bound 1) ≃ Fin 32 where
  toFun p := wid (coordsV p.1 p.2)
  invFun w := (⟨w.val % 2, Nat.mod_lt _ (by decide)⟩, ⟨w.val / 2, by have := w.isLt; show w.val / 2 < 16; omega⟩)
  left_inv p := by
    obtain ⟨c, s⟩ := p
    have hc : c.val < 2 := c.isLt
    have hs : s.val < 16 := s.isLt
    refine Prod.ext (Fin.ext ?_) (Fin.ext ?_)
    · show (2 * s.val + c.val) % 2 = c.val; omega
    · show (2 * s.val + c.val) / 2 = s.val; omega
  right_inv w := by
    refine Fin.ext ?_
    show 2 * (w.val / 2) + w.val % 2 = w.val; omega

/-- A conjunction over the tiles, core by core and subcore by subcore, is the conjunction over the workers. -/
theorem bigSep_grid (Φ : Fin 32 → sProp 𝕄) :
    (bigSep Finset.univ fun c : Fin (grid0.bound 0) => bigSep Finset.univ fun s : Fin (grid0.bound 1) => Φ (wid (coordsV c s)))
      = bigSep Finset.univ Φ := by
  rw [bigSep_univ_equiv gridEquiv Φ, bigSep_univ_prod]
  rfl

/-- (w, c8) ↦ 8 w + c8 counts the 32 × 8 windows as the 256 parts of a result. -/
def winEquiv : Fin 32 × Fin 8 ≃ Fin 256 where
  toFun p := win8 p.1 p.2
  invFun p := (⟨p.val / 8, by have := p.isLt; omega⟩, ⟨p.val % 8, Nat.mod_lt _ (by decide)⟩)
  left_inv p := by
    obtain ⟨w, c8⟩ := p
    have hw : w.val < 32 := w.isLt
    have hc : c8.val < 8 := c8.isLt
    refine Prod.ext (Fin.ext ?_) (Fin.ext ?_)
    · show (8 * w.val + c8.val) / 8 = w.val; omega
    · show (8 * w.val + c8.val) % 8 = c8.val; omega
  right_inv p := by
    refine Fin.ext ?_
    show 8 * (p.val / 8) + p.val % 8 = p.val; omega

/-- A conjunction over each worker's eight windows is the conjunction over the 256 windows. -/
theorem bigSep_win (Φ : Fin 256 → sProp 𝕄) :
    (bigSep Finset.univ fun w : Fin 32 => bigSep Finset.univ fun c8 : Fin 8 => Φ (win8 w c8)) = bigSep Finset.univ Φ := by
  rw [bigSep_univ_equiv winEquiv Φ, bigSep_univ_prod]
  rfl

/-! ## One array, cut along an axis -/

/-- A whole array is its n parts along an axis that n divides: the parts are pairwise disjoint and cover it. -/
theorem pointsTo_parts {ℓ : Loc nD τ sig} {a₀ : Fin ℓ.ty.shape.rank} {n : ℕ} (hn : n ∣ ℓ.ty.shape.size a₀)
    (q : PosShare TreeShare) (f : Buf (Elt F) ℓ) :
    (ℓ ↦{q} f : sProp 𝕄) = bigSep Finset.univ fun j : Fin n => ℓ ↦[(Rect.part hn j).set]{q} f := by
  rw [← pointsTo_biUnion Finset.univ (fun j : Fin n => (Rect.part hn j).set) (fun j _ j' _ h => Rect.part_disjoint hn h),
    Rect.biUnion_part hn]

/-! ## One array, shared out among readers -/

/-- A share of an array is n read shares of it and what remains. -/
theorem pointsTo_shares {ℓ : Loc nD τ sig} (q : PosShare TreeShare) (n : ℕ) (f : Buf (Elt F) ℓ) :
    (ℓ ↦{q} f : sProp 𝕄)
      = iprop((ℓ ↦{Transfers.shareDrop q n} f) ∗ bigSep Finset.univ fun i : Fin n => ℓ ↦{Transfers.shareTok q n i} f) :=
  BI.equiv_iff.mp ⟨(Transfers.pointsTo_toks q n).1, (Transfers.pointsTo_toks q n).2⟩

/-! ## The arrays of this kernel -/

variable (m : (ℓ : Loc nD τ sig) → Buf (Elt F) ℓ)

/-- A reshaped index array is the 32 workers' groups of four rows. -/
theorem ids0_rows (d : Dev nD) (f : Buf (Elt F) (v0Loc d)) :
    (v0Loc d ↦{fullShare} f : sProp 𝕄) = bigSep Finset.univ fun w : Fin 32 => v0Loc d ↦[idRows w]{fullShare} f :=
  pointsTo_parts (ℓ := v0Loc d) hdiv_ids fullShare f
theorem ids1_rows (d : Dev nD) (f : Buf (Elt F) (v1Loc d)) :
    (v1Loc d ↦{fullShare} f : sProp 𝕄) = bigSep Finset.univ fun w : Fin 32 => v1Loc d ↦[idRows w]{fullShare} f :=
  pointsTo_parts (ℓ := v1Loc d) hdiv_ids fullShare f
theorem ids2_rows (d : Dev nD) (f : Buf (Elt F) (v2Loc d)) :
    (v2Loc d ↦{fullShare} f : sProp 𝕄) = bigSep Finset.univ fun w : Fin 32 => v2Loc d ↦[idRows w]{fullShare} f :=
  pointsTo_parts (ℓ := v2Loc d) hdiv_ids fullShare f

/-- A result is the 32 workers' eight windows each: its 256 windows, counted as p = 8 w + c8. -/
theorem out0_wins (d : Dev nD) (f : Buf (Elt F) (o0Loc d)) :
    (o0Loc d ↦{fullShare} f : sProp 𝕄)
      = bigSep Finset.univ fun w : Fin 32 => bigSep Finset.univ fun c8 : Fin 8 => o0Loc d ↦[outWin (win8 w c8)]{fullShare} f := by
  rw [bigSep_win (fun p => o0Loc d ↦[outWin p]{fullShare} f)]
  exact pointsTo_parts (ℓ := o0Loc d) hdiv_out fullShare f
theorem out1_wins (d : Dev nD) (f : Buf (Elt F) (o1Loc d)) :
    (o1Loc d ↦{fullShare} f : sProp 𝕄)
      = bigSep Finset.univ fun w : Fin 32 => bigSep Finset.univ fun c8 : Fin 8 => o1Loc d ↦[outWin (win8 w c8)]{fullShare} f := by
  rw [bigSep_win (fun p => o1Loc d ↦[outWin p]{fullShare} f)]
  exact pointsTo_parts (ℓ := o1Loc d) hdiv_out fullShare f
theorem out2_wins (d : Dev nD) (f : Buf (Elt F) (o2Loc d)) :
    (o2Loc d ↦{fullShare} f : sProp 𝕄)
      = bigSep Finset.univ fun w : Fin 32 => bigSep Finset.univ fun c8 : Fin 8 => o2Loc d ↦[outWin (win8 w c8)]{fullShare} f := by
  rw [bigSep_win (fun p => o2Loc d ↦[outWin p]{fullShare} f)]
  exact pointsTo_parts (ℓ := o2Loc d) hdiv_out fullShare f

/-! ## Dealing and gathering -/

/-- Moving three remainders out of a nine-fold conjunction, -/
theorem sep_rests_out (a b c r3 k3 r4 k4 r5 k5 x y z : sProp 𝕄) :
    iprop(a ∗ b ∗ c ∗ (r3 ∗ k3) ∗ (r4 ∗ k4) ∗ (r5 ∗ k5) ∗ x ∗ y ∗ z)
      ⊢ iprop((a ∗ b ∗ c ∗ k3 ∗ k4 ∗ k5 ∗ x ∗ y ∗ z) ∗ r3 ∗ r4 ∗ r5) := by
  iintro ⟨Ha, Hb, Hc, ⟨Hr3, Hk3⟩, ⟨Hr4, Hk4⟩, ⟨Hr5, Hk5⟩, Hx, Hy, Hz⟩
  isplitr [Hr3 Hr4 Hr5]
  · isplitl [Ha]; · iexact Ha
    isplitl [Hb]; · iexact Hb
    isplitl [Hc]; · iexact Hc
    isplitl [Hk3]; · iexact Hk3
    isplitl [Hk4]; · iexact Hk4
    isplitl [Hk5]; · iexact Hk5
    isplitl [Hx]; · iexact Hx
    isplitl [Hy]; · iexact Hy
    iexact Hz
  · isplitl [Hr3]; · iexact Hr3
    isplitl [Hr4]; · iexact Hr4
    iexact Hr5

/-- and back in. -/
theorem sep_rests_in (a b c r3 k3 r4 k4 r5 k5 x y z : sProp 𝕄) :
    iprop((a ∗ b ∗ c ∗ k3 ∗ k4 ∗ k5 ∗ x ∗ y ∗ z) ∗ r3 ∗ r4 ∗ r5)
      ⊢ iprop(a ∗ b ∗ c ∗ (r3 ∗ k3) ∗ (r4 ∗ k4) ∗ (r5 ∗ k5) ∗ x ∗ y ∗ z) := by
  iintro ⟨⟨Ha, Hb, Hc, Hk3, Hk4, Hk5, Hx, Hy, Hz⟩, Hr3, Hr4, Hr5⟩
  isplitl [Ha]; · iexact Ha
  isplitl [Hb]; · iexact Hb
  isplitl [Hc]; · iexact Hc
  isplitl [Hr3 Hk3]
  · isplitl [Hr3]; · iexact Hr3
    iexact Hk3
  isplitl [Hr4 Hk4]
  · isplitl [Hr4]; · iexact Hr4
    iexact Hk4
  isplitl [Hr5 Hk5]
  · isplitl [Hr5]; · iexact Hr5
    iexact Hk5
  isplitl [Hx]; · iexact Hx
  isplitl [Hy]; · iexact Hy
  iexact Hz

theorem sep_rests (a b c r3 k3 r4 k4 r5 k5 x y z : sProp 𝕄) :
    iprop(a ∗ b ∗ c ∗ (r3 ∗ k3) ∗ (r4 ∗ k4) ∗ (r5 ∗ k5) ∗ x ∗ y ∗ z)
      = iprop((a ∗ b ∗ c ∗ k3 ∗ k4 ∗ k5 ∗ x ∗ y ∗ z) ∗ r3 ∗ r4 ∗ r5) :=
  BI.equiv_iff.mp ⟨sep_rests_out a b c r3 k3 r4 k4 r5 k5 x y z, sep_rests_in a b c r3 k3 r4 k4 r5 k5 x y z⟩

/-- What worker w holds when the three results hold f0, f1, f2: what it is handed at the launch memory's results, what it
    hands back at the lookups. -/
def tileAt (d : Dev nD) (f0 : Buf (Elt F) (o0Loc d)) (f1 : Buf (Elt F) (o1Loc d)) (f2 : Buf (Elt F) (o2Loc d)) (w : Fin 32) : sProp 𝕄 :=
  iprop((v0Loc d ↦[idRows w]{fullShare} ids2_0 m d) ∗ (v1Loc d ↦[idRows w]{fullShare} ids2_1 m d) ∗ (v2Loc d ↦[idRows w]{fullShare} ids2_2 m d)
    ∗ (t3Loc d ↦{Transfers.shareTok fullShare 32 w} m (t3Loc d)) ∗ (t4Loc d ↦{Transfers.shareTok fullShare 32 w} m (t4Loc d))
    ∗ (t5Loc d ↦{Transfers.shareTok fullShare 32 w} m (t5Loc d))
    ∗ (bigSep Finset.univ fun c8 : Fin 8 => o0Loc d ↦[outWin (win8 w c8)]{fullShare} f0)
    ∗ (bigSep Finset.univ fun c8 : Fin 8 => o1Loc d ↦[outWin (win8 w c8)]{fullShare} f1)
    ∗ (bigSep Finset.univ fun c8 : Fin 8 => o2Loc d ↦[outWin (win8 w c8)]{fullShare} f2))

theorem tileGo_eq (d : Dev nD) (w : Fin 32) : tileGo m d w = tileAt m d (m (o0Loc d)) (m (o1Loc d)) (m (o2Loc d)) w := rfl
theorem tileTd_eq (d : Dev nD) (w : Fin 32) : tileTd m d w = tileAt m d (G0 m d) (G1 m d) (G2 m d) w := rfl

/-- The nine whole arrays are the 32 workers' holdings and the tables' remaining shares, whatever the results hold. -/
theorem whole_eq (d : Dev nD) (f0 : Buf (Elt F) (o0Loc d)) (f1 : Buf (Elt F) (o1Loc d)) (f2 : Buf (Elt F) (o2Loc d)) :
    (iprop((v0Loc d ↦{fullShare} ids2_0 m d) ∗ (v1Loc d ↦{fullShare} ids2_1 m d) ∗ (v2Loc d ↦{fullShare} ids2_2 m d)
        ∗ (t3Loc d ↦{fullShare} m (t3Loc d)) ∗ (t4Loc d ↦{fullShare} m (t4Loc d)) ∗ (t5Loc d ↦{fullShare} m (t5Loc d))
        ∗ (o0Loc d ↦{fullShare} f0) ∗ (o1Loc d ↦{fullShare} f1) ∗ (o2Loc d ↦{fullShare} f2)) : sProp 𝕄)
      = iprop((bigSep Finset.univ fun c : Fin (grid0.bound 0) => bigSep Finset.univ fun s : Fin (grid0.bound 1) =>
          tileAt m d f0 f1 f2 (wid (coordsV c s))) ∗ tabRest m d) := by
  rw [bigSep_grid (tileAt m d f0 f1 f2)]
  unfold tileAt tabRest
  rw [bigSep_sep', bigSep_sep', bigSep_sep', bigSep_sep', bigSep_sep', bigSep_sep', bigSep_sep', bigSep_sep']
  rw [ids0_rows, ids1_rows, ids2_rows, out0_wins, out1_wins, out2_wins,
    pointsTo_shares fullShare 32 (m (t3Loc d)), pointsTo_shares fullShare 32 (m (t4Loc d)), pointsTo_shares fullShare 32 (m (t5Loc d))]
  exact sep_rests _ _ _ _ _ _ _ _ _ _ _ _

theorem deal (d : Dev nD) :
    iprop((v0Loc d ↦{fullShare} ids2_0 m d) ∗ (v1Loc d ↦{fullShare} ids2_1 m d) ∗ (v2Loc d ↦{fullShare} ids2_2 m d)
        ∗ (t3Loc d ↦{fullShare} m (t3Loc d)) ∗ (t4Loc d ↦{fullShare} m (t4Loc d)) ∗ (t5Loc d ↦{fullShare} m (t5Loc d))
        ∗ (o0Loc d ↦{fullShare} m (o0Loc d)) ∗ (o1Loc d ↦{fullShare} m (o1Loc d)) ∗ (o2Loc d ↦{fullShare} m (o2Loc d)))
      ⊢ (iprop((bigSep Finset.univ fun c : Fin (grid0.bound 0) => bigSep Finset.univ fun s : Fin (grid0.bound 1) => tileGo m d (wid (coordsV c s)))
          ∗ tabRest m d) : sProp 𝕄) :=
  Entails.of_eq (whole_eq m d (m (o0Loc d)) (m (o1Loc d)) (m (o2Loc d)))

theorem gather (d : Dev nD) :
    (iprop((bigSep Finset.univ fun c : Fin (grid0.bound 0) => bigSep Finset.univ fun s : Fin (grid0.bound 1) => tileTd m d (wid (coordsV c s)))
        ∗ tabRest m d) : sProp 𝕄)
      ⊢ iprop((v0Loc d ↦{fullShare} ids2_0 m d) ∗ (v1Loc d ↦{fullShare} ids2_1 m d) ∗ (v2Loc d ↦{fullShare} ids2_2 m d)
        ∗ (t3Loc d ↦{fullShare} m (t3Loc d)) ∗ (t4Loc d ↦{fullShare} m (t4Loc d)) ∗ (t5Loc d ↦{fullShare} m (t5Loc d))
        ∗ (o0Loc d ↦{fullShare} G0 m d) ∗ (o1Loc d ↦{fullShare} G1 m d) ∗ (o2Loc d ↦{fullShare} G2 m d)) :=
  Entails.of_eq (whole_eq m d (G0 m d) (G1 m d) (G2 m d)).symm

end Cert.Proof.KIDeal

end
-- ==== Proof.PreIds.lean ====
/-
  The printed precondition, read back at the index columns.  The precondition is a conjunction of six tests, each an
  "and" over a whole array: three say that a table's entries are finite, three say of an index column that every
  word `v` satisfies `0 ≤ v` and `v ≤ c` as SIGNED words (`c` = 999999 for the two large tables, 99999 for the small one).
  A signed word that is non-negative has its top bit clear, so its value as a natural number is its signed value; being at
  most `c` as a signed word then bounds the natural number by `c`.  Hence every word of the user and item index columns is
  a row number of a table of 1000000 rows, every word of the category column a row number of a table of 100000 rows.
  Nothing here depends on the float instance: the three finiteness conjuncts are dropped unread.
-/
import proofs.«206842_g87686052315543_cont_sun_m_497_29_alg».proof.Proof.Spec
import proofs.«206842_g87686052315543_cont_sun_m_497_29_alg».proof.Pre_input_domain
import Idealize.ShloMosaic.Lib.ReduceAll
import Idealize.ShloMosaic.Lib.ValueIdx

noncomputable section

namespace Cert.Proof.PreIds

open Idealize.ShloMosaic Idealize.ShloMosaic.ValueIdx Cert.Pre_input_domain

/-- The shape of a scalar has exactly one index. -/
instance subsingleton_scalar_idx : Subsingleton S_.Idx := ⟨fun a b => funext fun d => d.elim0⟩

/-- A word that is non-negative as a signed word, and at most a bound `c` below 2³¹ as a signed word, is at most `c`
    as a natural number. -/
theorem toNat_le_of_signed (v c : BitVec 32) (hc : c.toNat < 2 ^ 31)
    (h0 : IntOp.cmpi .sge v 0#32 = 1#1) (h1 : IntOp.cmpi .sle v c = 1#1) : v.toNat ≤ c.toNat := by
  rw [IntOp.cmpi_sge] at h0
  rw [IntOp.cmpi_sle] at h1
  have hz : (0#32 : BitVec 32).toInt = 0 := by decide
  have hv := BitVec.toInt_eq_toNat_cond v
  have hcc := BitVec.toInt_eq_toNat_cond c
  have hlt := v.isLt
  rw [hz] at h0
  split_ifs at hv hcc <;> omega

/-- One range test of the precondition: if the "and" over the whole column of `(0 ≤ a) ∧ (a ≤ c)` is 1, every word of the
    column is at most `c`. -/
theorem words_le_of_all [Facts] (a : IVec S16384x1 32) (c : BitVec 32) (hc : c.toNat < 2 ^ 31) (init : IVec S_ 1)
    (e : Host.reduce IntOp.andi
        (andi (cmpi .sge a (broadcastInDim S16384x1 ![] Facts.bcast_S_S16384x1 (constantI S_ 32 0#32)))
              (cmpi .sle a (broadcastInDim S16384x1 ![] Facts.bcast_S_S16384x1 (constantI S_ 32 c))))
        init Facts.reducesTo_S16384x1_S_d0_1 Facts.h_S_ ix0 = 1#1) (j : S16384x1.Idx) : (a j).toNat ≤ c.toNat := by
  have h := Host.reduce_andi_all _ _ _ _ _ e j
  have h' : IntOp.andi (IntOp.cmpi .sge (a j) 0#32) (IntOp.cmpi .sle (a j) c) = 1#1 := h
  obtain ⟨h0, h1⟩ := IntOp.andi_eq_one.1 h'
  exact toNat_le_of_signed _ _ hc h0 h1

/-- Under the precondition the three index columns are in range of their tables. -/
theorem inRange_of_pre {F : FTy → Type} [FloatOps F] [Cert.Pre_input_domain.Facts]
    (a0 a1 a2 : IVec Cert.Pre_input_domain.S16384x1 32)
    (t3 t4 : FVec F Cert.Pre_input_domain.S1000000x64 .f32) (t5 : FVec F Cert.Pre_input_domain.S100000x64 .f32)
    (h : Cert.Pre_input_domain.fn (F := F) a0 a1 a2 t3 t4 t5 = fun _ => 1#1) :
    Cert.Proof.Spec.InRange 1000000 a0 ∧ Cert.Proof.Spec.InRange 1000000 a1 ∧ Cert.Proof.Spec.InRange 100000 a2 := by
  have e := congrFun h ix0
  dsimp only [fn, fn_part1, fn_part2] at e
  obtain ⟨e, e2⟩ := IntOp.andi_eq_one.1 e
  obtain ⟨e, e1⟩ := IntOp.andi_eq_one.1 e
  obtain ⟨-, e0⟩ := IntOp.andi_eq_one.1 e
  have c1 : (999999#32 : BitVec 32).toNat = 999999 := by decide
  have c2 : (99999#32 : BitVec 32).toNat = 99999 := by decide
  refine ⟨fun j => ?_, fun j => ?_, fun j => ?_⟩
  · have := words_le_of_all a0 999999#32 (by rw [c1]; decide) _ e0 j
    omega
  · have := words_le_of_all a1 999999#32 (by rw [c1]; decide) _ e1 j
    omega
  · have := words_le_of_all a2 99999#32 (by rw [c2]; decide) _ e2 j
    omega

end Cert.Proof.PreIds

end
-- ==== Proof.RefOps.lean ====
/-
  The reference program as a straight line of host operations.

  @main is three times the same two steps: an index column [16384, 1] is flattened to a vector [16384], and a take of rows
  of a table at that vector is run.  A take is 23 operations over the buffers of one call:
    * the negative-index wrap: the words below zero (signed) are replaced by the word plus the table's height (a select,
      which is the nested call of the "where" function);
    * the wrapped vector laid as a column [16384, 1];
    * the range mask: per row, the "and" over the unit axis of (0 ≤ word) ∧ (word ≤ height − 1), signed;
    * the gather of the table's rows at the column;
    * the select between the gathered rows and a fill constant, by the mask repeated along the 64 entries of a row.
  The operations of one take are written once, as a function of the call's buffer record; @main's line is the three
  flattenings and the three takes in order.  From any memory with zero counters every fair execution of @main ends with
  every buffer at the fold of these operations over the launch contents.
-/
import proofs.«206842_g87686052315543_cont_sun_m_497_29_alg».proof.ReferenceIdeal
import Idealize.ShloMosaic.Lib.StableHlo.Run

noncomputable section

namespace Cert.Proof.RefOps

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀

/-- The 23 operations of a take of rows of a table of 1000000 rows, over one call's buffers. -/
abbrev takeOps (tab : TRef sig ⟨S1000000x64, .f32⟩) (ids : TRef sig ⟨S16384, .i32⟩) (φ : fn_take.Bufs) :
    List (HloOp τ sig (Elt F)) :=
  [ TRef.nullary φ.c (constantI S_ 32 0#32),
    TRef.unary φ.c φ.v0 (broadcastInDim S16384 ![] bcast_S_S16384),
    TRef.binary ids φ.v0 φ.v1 (cmpi .slt),
    TRef.nullary φ.c_0 (constantI S_ 32 1000000#32),
    TRef.unary φ.c_0 φ.v2 (broadcastInDim S16384 ![] bcast_S_S16384),
    TRef.binary ids φ.v2 φ.v3 addi,
    TRef.ternary φ.v1 φ.v3 ids φ.call0.v0 select,
    TRef.unary φ.call0.v0 φ.v5 (broadcastInDim S16384x1 ![0] bcast_S16384_S16384x1_0),
    TRef.nullary φ.c_1 (constantI S1 32 999999#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary tab φ.v5 φ.v13 (fun x i => Host.gather gather_S1000000x64_S16384x1_S16384x64_1_0_n_n_0_1_164 x i),
    TRef.unary φ.v12 φ.v14 (broadcastInDim S16384x64 ![0] bcast_S16384_S16384x64_0),
    TRef.nullary φ.cst (constant S_ .f32 0x7FC00000#32),
    TRef.unary φ.cst φ.v15 (broadcastInDim S16384x64 ![] bcast_S_S16384x64),
    TRef.ternary φ.v14 φ.v13 φ.v15 φ.v16 select ]

/-- The 23 operations of a take of rows of a table of 100000 rows, over one call's buffers. -/
abbrev takeOps0 (tab : TRef sig ⟨S100000x64, .f32⟩) (ids : TRef sig ⟨S16384, .i32⟩) (φ : fn_take_0.Bufs) :
    List (HloOp τ sig (Elt F)) :=
  [ TRef.nullary φ.c (constantI S_ 32 0#32),
    TRef.unary φ.c φ.v0 (broadcastInDim S16384 ![] bcast_S_S16384),
    TRef.binary ids φ.v0 φ.v1 (cmpi .slt),
    TRef.nullary φ.c_0 (constantI S_ 32 100000#32),
    TRef.unary φ.c_0 φ.v2 (broadcastInDim S16384 ![] bcast_S_S16384),
    TRef.binary ids φ.v2 φ.v3 addi,
    TRef.ternary φ.v1 φ.v3 ids φ.call0.v0 select,
    TRef.unary φ.call0.v0 φ.v5 (broadcastInDim S16384x1 ![0] bcast_S16384_S16384x1_0),
    TRef.nullary φ.c_1 (constantI S1 32 99999#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary tab φ.v5 φ.v13 (fun x i => Host.gather gather_S100000x64_S16384x1_S16384x64_1_0_n_n_0_1_164 x i),
    TRef.unary φ.v12 φ.v14 (broadcastInDim S16384x64 ![0] bcast_S16384_S16384x64_0),
    TRef.nullary φ.cst (constant S_ .f32 0x7FC00000#32),
    TRef.unary φ.cst φ.v15 (broadcastInDim S16384x64 ![] bcast_S_S16384x64),
    TRef.ternary φ.v14 φ.v13 φ.v15 φ.v16 select ]

/-- @main's 72 operations, in order: each index column flattened, then its take. -/
abbrev ops : List (HloOp τ sig (Elt F)) :=
  reshape main_arg0 main_v0 rfl shapeCasts_S16384x1_S16384
    :: (takeOps (.of main_arg3) (.of main_v0) main_call0
    ++ (reshape main_arg1 main_v2 rfl shapeCasts_S16384x1_S16384
    :: (takeOps (.of main_arg4) (.of main_v2) main_call1
    ++ (reshape main_arg2 main_v4 rfl shapeCasts_S16384x1_S16384
    :: takeOps0 (.of main_arg5) (.of main_v4) main_call2))))

-- seventy-two binds re-associated: the rewrite under the chain recurses once per statement
set_option maxRecDepth 2048 in
/-- @main is that straight line: the callees' definitions unfolded at their calls, both sides are one chain of steps
    once sequencing is re-associated. -/
theorem main_eq (c : Dev nD) : main (F := F) c = seq ops := by
  simp only [main, fn_take.body, fn_take_0.body, fn_where.body, ops, takeOps, takeOps0, List.cons_append, List.nil_append,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of a take touches TensorCore buffers only. -/
theorem takeOps_sub (tab : TRef sig ⟨S1000000x64, .f32⟩) (ids : TRef sig ⟨S16384, .i32⟩) (φ : fn_take.Bufs) :
    (takeOps (F := F) tab ids φ).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

theorem takeOps0_sub (tab : TRef sig ⟨S100000x64, .f32⟩) (ids : TRef sig ⟨S16384, .i32⟩) (φ : fn_take_0.Bufs) :
    (takeOps0 (F := F) tab ids φ).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

theorem ops_sub : (ops : List (HloOp τ sig (Elt F))).Forall fun op => op.bufs ⊆ tcRefs τ sig := by
  refine (List.forall_cons _ _ _).2 ⟨reshape_bufs_sub .., List.forall_append.2 ⟨takeOps_sub _ _ _, ?_⟩⟩
  refine (List.forall_cons _ _ _).2 ⟨reshape_bufs_sub .., List.forall_append.2 ⟨takeOps_sub _ _ _, ?_⟩⟩
  exact (List.forall_cons _ _ _).2 ⟨reshape_bufs_sub .., takeOps0_sub _ _ _⟩

/-- No operation of the line leaves a result undetermined. -/
theorem ops_fresh : ∀ op ∈ (ops : List (HloOp τ sig (Elt F))), op.fresh = ∅ := by
  intro op h
  simp only [ops, takeOps, takeOps0, List.cons_append, List.nil_append] at h
  repeat (cases h with | head => rfl | tail _ h => ?_)
  exact nomatch h

/-- At the compiled mesh, for any float values, from any memory with zero counters: every weakly fair execution of @main
    on the TensorCore terminates, and every final state has each buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.Proof.RefOps

end
-- ==== Proof.LibTakeRows.lean ====
/-
  A take of rows read at an index.

  A gather of an operand [R, C] at a column [M, 1] of start indices, whose start-indexed row axis is collapsed and whose
  column axis is the one offset axis, reads at (p, q) the operand's row named by start index p — read as a signed
  integer and clamped into [0, R − 1] — at column q.
-/
import Idealize.ShloMosaic.Lib.ValueIdx
import Idealize.ShloMosaic.Lib.Pipeline.Value

noncomputable section

namespace Cert.TakeRows

open Idealize.ShloMosaic Idealize.ShloMosaic.ValueIdx

variable {α : Type}

/-- The dimension numbers of a take of rows, opened: operand [R, C], a column [M, 1] of start indices, result [M, C];
    the rows are start-indexed and collapsed, the columns are the one offset axis. The start indices' batching axes and
    the slice sizes stay as the record has them. -/
abbrev takeRowsDims {R C M : Nat} (sb : List (Fin 2)) (ss : Fin 2 → Nat)
    (wf : GatherDims.WF ⟨2, ![R, C]⟩ ⟨2, ![M, 1]⟩ ⟨2, ![M, C]⟩ [1] [0] [] [0] sb 1 ss) :
    GatherDims ⟨2, ![R, C]⟩ ⟨2, ![M, 1]⟩ ⟨2, ![M, C]⟩ where
  offsetDims := [1]
  collapsedSliceDims := [0]
  operandBatchingDims := []
  startIndicesBatchingDims := sb
  startIndexMap := [0]
  indexVectorDim := 1
  sliceSizes := ss
  wf := wf

/-- On the row axis the operand coordinate of result (p, q) is start index p, read signed and clamped to R − 1 (the slice
    size on a collapsed axis is one); no batching, no offset. -/
theorem takeRows_axis0 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (0 : Fin 2) + (takeRowsDims sb ss wf).batchCoord (ix2 p q) (0 : Fin 2)
        + (takeRowsDims sb ss wf).offCoord (ix2 p q) (0 : Fin 2)
      = min (idx (ix2 p (0 : Fin 1))).toInt.toNat (R - 1) := by
  have hm : (0 : Fin 2) ∈ (takeRowsDims sb ss wf).startIndexMap := by
    show (0 : Fin 2) ∈ ([0] : List (Fin 2)); decide
  have hsl : ss 0 = 1 := (takeRowsDims sb ss wf).slice_collapsed 0 (by show (0 : Fin 2) ∈ ([0] : List (Fin 2)); decide)
  rw [GatherDims.batchCoord_eq_zero _ _ _ List.not_mem_nil,
    GatherDims.offCoord_eq_zero _ _ _ (fun h => ((GatherDims.mem_sKept _ _).mp h).1
      (show (0 : Fin 2) ∈ ([0] : List (Fin 2)) by decide))]
  simp only [Nat.add_zero]
  unfold GatherDims.start
  rw [dif_pos hm]
  have hsi : (takeRowsDims sb ss wf).siIdx (ix2 p q) ⟨List.idxOf (0 : Fin 2) (takeRowsDims sb ss wf).startIndexMap,
      List.idxOf_lt_length_iff.2 hm⟩ = ix2 p (0 : Fin 1) := by
    funext b; refine Fin.ext ?_
    match b with
    | ⟨0, _⟩ => rfl
    | ⟨1, _⟩ => rfl
  rw [hsi]
  show min (idx (ix2 p (0 : Fin 1))).toInt.toNat (R - ss 0) = _
  rw [hsl]

/-- On the column axis the operand coordinate of result (p, q) is q: no start index, no batching, offset q. -/
theorem takeRows_axis1 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (1 : Fin 2) + (takeRowsDims sb ss wf).batchCoord (ix2 p q) (1 : Fin 2)
        + (takeRowsDims sb ss wf).offCoord (ix2 p q) (1 : Fin 2) = q.val := by
  have hm : (1 : Fin 2) ∉ (takeRowsDims sb ss wf).startIndexMap := by
    show (1 : Fin 2) ∉ ([0] : List (Fin 2)); decide
  have hk : (1 : Fin 2) ∈ (takeRowsDims sb ss wf).sKept :=
    (GatherDims.mem_sKept _ _).mpr ⟨by show (1 : Fin 2) ∉ ([0] : List (Fin 2)); decide, List.not_mem_nil⟩
  rw [GatherDims.batchCoord_eq_zero _ _ _ List.not_mem_nil]
  unfold GatherDims.start GatherDims.offCoord
  rw [dif_neg hm, dif_pos hk]
  simp only [Nat.add_zero, Nat.zero_add]
  rfl

/-- THE TAKE OF ROWS. A gather of an operand [R, C] at a column [M, 1] of start indices, whose one start-indexed axis
    (the rows) is collapsed and whose column axis is the one offset axis (the printed dimension numbers, each by `rfl`),
    reads at (p, q) the operand's row named by start index p, read signed and clamped into [0, R − 1], at column q. -/
theorem take_rows_apply {R C M : Nat} (d : GatherDims ⟨2, ![R, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1) (hR : 0 < R)
    (x : (⟨2, ![R, C]⟩ : Shape).Idx → α) (idx : IVec ⟨2, ![M, 1]⟩ 32) (p : Fin M) (q : Fin C) :
    Host.gather d x idx (ix2 p q)
      = x (ix2 (⟨min (idx (ix2 p (0 : Fin 1))).toInt.toNat (R - 1), by omega⟩ : Fin R) q) := by
  obtain ⟨od, cd, ob, sb, sim, ivd, ss, wf⟩ := d
  dsimp only at hoff hcoll hob hsim hivd
  subst hoff hcoll hob hsim hivd
  show Host.gather (takeRowsDims sb ss wf) x idx (ix2 p q) = _
  unfold Host.gather
  congr 1
  funext a
  refine Fin.ext ?_
  show (takeRowsDims sb ss wf).start (ix2 p q) idx a + (takeRowsDims sb ss wf).batchCoord (ix2 p q) a
    + (takeRowsDims sb ss wf).offCoord (ix2 p q) a = _
  match a with
  | ⟨0, _⟩ => exact takeRows_axis0 sb ss wf idx p q
  | ⟨1, _⟩ => exact takeRows_axis1 sb ss wf idx p q

end Cert.TakeRows

end
-- ==== Proof.RefTake.lean ====
/-
  The reference's take of rows, as one function of the table and the index column, and what it is when the indices are
  in range.

  The take flattens the index column [16384, 1] to a vector; replaces every word below zero (signed) by the word plus the
  table's height (the negative-index wrap); lays the result as a column again; computes per row the range mask
  (0 ≤ word) ∧ (word ≤ height − 1), signed, as an "and" over the column's unit axis; gathers the table's rows at the column
  (the start index read signed and clamped into the table); and keeps the gathered row where the mask is 1, a fill value
  elsewhere.  When every word of the index column is a row number of the table, the wrap leaves the word alone (it is not
  negative), the mask is 1 (the word is in range), the clamp does nothing (the word is at most height − 1), and the select
  keeps the gathered row: entry (r, d) of the result is entry (word r, d) of the table — the specification's lookup.
-/
import proofs.«206842_g87686052315543_cont_sun_m_497_29_alg».proof.Proof.Spec
import proofs.«206842_g87686052315543_cont_sun_m_497_29_alg».proof.Proof.LibTakeRows
import Idealize.ShloMosaic.Lib.StableHlo.Predicate
import Idealize.ShloMosaic.Lib.Affine
import Idealize.ShloMosaic.Lib.Pipeline.Value
import Idealize.ShloMosaic.Lib.ValueIdx
import Idealize.ShloMosaic.PureOps.Reduce

noncomputable section

namespace Cert.Proof.RefTake

open Idealize.ShloMosaic Idealize.ShloMosaic.ValueIdx Cert.Proof.Spec

/-- The flattened index column. -/
abbrev SVec : Shape := ⟨1, ![16384]⟩
/-- A scalar. -/
abbrev SSc : Shape := ⟨0, ![]⟩
/-- The clamp bound as the program holds it: one word, then one word in a 1 × 1 array. -/
abbrev SOne : Shape := ⟨1, ![1]⟩
abbrev SOneOne : Shape := ⟨2, ![1, 1]⟩

variable {α : Type}

/-! ## The operations read at an index -/

/-- Every index of the column is (p, 0). -/
theorem eq_col (j : SIds.Idx) : j = ix2 (j 0) (0 : Fin 1) := by
  funext a
  match a with
  | ⟨0, _⟩ => rfl
  | ⟨1, _⟩ =>
    refine Fin.ext ?_
    have h : (j 1).val < 1 := (j 1).isLt
    show (j 1).val = 0
    omega

/-- The column flattened, read at p: the column at (p, 0). -/
theorem flatten_apply (ids : IVec SIds 32) (hc : SIds.ShapeCasts SVec) (p : Fin 16384) :
    shapeCast SVec ids hc (ix1 p) = ids (ix2 p (0 : Fin 1)) := by
  refine shapeCast_apply ids hc _ _ ?_
  rw [Shape.rowMajor_val_two, Shape.rowMajor_val_one]
  show p.val * 1 + 0 = p.val
  omega

/-- A vector laid as a column, read at (p, 0): the vector at p. -/
theorem column_apply {β : Type} (h : SVec.BroadcastsInDim SIds (![0] : Fin 1 → Fin SIds.rank)) (v : SVec.Idx → β) (p : Fin 16384) :
    broadcastInDim SIds ![0] h v (ix2 p (0 : Fin 1)) = v (ix1 p) := by
  refine broadcastInDim_apply _ h v _ (ix1 p) ?_
  intro a
  match a with
  | ⟨0, _⟩ =>
    show p.val = if (16384 : Nat) = 1 then 0 else p.val
    rw [if_neg (by decide)]

/-- A vector repeated along the 64 entries of a row, read at (p, q): the vector at p. -/
theorem rows_apply {β : Type} (h : SVec.BroadcastsInDim SOut (![0] : Fin 1 → Fin SOut.rank)) (v : SVec.Idx → β) (p : Fin 16384)
    (q : Fin 64) : broadcastInDim SOut ![0] h v (ix2 p q) = v (ix1 p) := by
  refine broadcastInDim_apply _ h v _ (ix1 p) ?_
  intro a
  match a with
  | ⟨0, _⟩ =>
    show p.val = if (16384 : Nat) = 1 then 0 else p.val
    rw [if_neg (by decide)]

/-- The "and" of a one-bit column over its unit axis, from the initial value 1, is at p the column's bit at (p, 0): the
    only index that reduces into p is (p, 0), and b ∧ 1 = b. -/
theorem reduce_unit_apply (x : IVec SIds 1) (h : SIds.ReducesTo [1] SVec) (hu : 0 < SSc.numel) (p : Fin 16384) :
    Host.reduce IntOp.andi x (constantI SSc 1 1#1) h hu (ix1 p) = x (ix2 p (0 : Fin 1)) := by
  rw [Host.reduce_eq_fold]
  have hset : (Finset.univ.filter fun i : SIds.Idx => h.drop i = ix1 p) = {ix2 p (0 : Fin 1)} := by
    ext i
    simp only [Finset.mem_filter, Finset.mem_univ, true_and, Finset.mem_singleton]
    have hv : ((h.drop i) 0 : Nat) = (i 0).val := Shape.ReducesTo.drop_apply_val h i 0
    constructor
    · intro e
      rw [e] at hv
      rw [eq_col i]
      exact congrArg (fun r => ix2 r (0 : Fin 1)) (Fin.ext hv.symm)
    · intro e
      subst e
      funext b
      match b with
      | ⟨0, _⟩ => exact Fin.ext hv
  rw [hset, Finset.fold_singleton]
  show x (ix2 p (0 : Fin 1)) &&& 1#1 = x (ix2 p (0 : Fin 1))
  generalize x (ix2 p (0 : Fin 1)) = b
  revert b
  decide

/-! ## The take -/

/-- The wrapped index column: the column flattened, the words below zero replaced by the word plus `wrapc`, laid as a column. -/
def wrapCol (wrapc : BitVec 32) (hc : SIds.ShapeCasts SVec) (b0v : SSc.BroadcastsInDim SVec (![] : Fin 0 → Fin SVec.rank))
    (bvc : SVec.BroadcastsInDim SIds (![0] : Fin 1 → Fin SIds.rank)) (ids : IVec SIds 32) : IVec SIds 32 :=
  broadcastInDim SIds ![0] bvc
    (select (cmpi .slt (shapeCast SVec ids hc) (broadcastInDim SVec ![] b0v (constantI SSc 32 0#32)))
      (addi (shapeCast SVec ids hc) (broadcastInDim SVec ![] b0v (constantI SSc 32 wrapc)))
      (shapeCast SVec ids hc))

/-- The range mask of a column: per row, (0 ≤ word) ∧ (word ≤ clampc) as signed words. -/
def rangeMask (clampc : BitVec 32) (b0c : SSc.BroadcastsInDim SIds (![] : Fin 0 → Fin SIds.rank))
    (b1 : SOne.BroadcastsInDim SOneOne (![1] : Fin 1 → Fin SOneOne.rank))
    (b11c : SOneOne.BroadcastsInDim SIds (![0, 1] : Fin 2 → Fin SIds.rank))
    (hr : SIds.ReducesTo [1] SVec) (h0 : 0 < SSc.numel) (col : IVec SIds 32) : IVec SVec 1 :=
  Host.reduce IntOp.andi
    (andi (cmpi .sge col (broadcastInDim SIds ![] b0c (constantI SSc 32 0#32)))
      (cmpi .sle col (broadcastInDim SIds ![0, 1] b11c (broadcastInDim SOneOne ![1] b1 (constantI SOne 32 clampc)))))
    (constantI SSc 1 1#1) hr h0

/-- The reference's take of rows of a table of `V` rows at an index column: the gathered rows where the range mask is 1,
    the fill value elsewhere. -/
def refTake (V : Nat) (wrapc clampc : BitVec 32) (d : GatherDims (STab V) SIds SOut)
    (hc : SIds.ShapeCasts SVec) (b0v : SSc.BroadcastsInDim SVec (![] : Fin 0 → Fin SVec.rank))
    (bvc : SVec.BroadcastsInDim SIds (![0] : Fin 1 → Fin SIds.rank))
    (b0c : SSc.BroadcastsInDim SIds (![] : Fin 0 → Fin SIds.rank))
    (b1 : SOne.BroadcastsInDim SOneOne (![1] : Fin 1 → Fin SOneOne.rank))
    (b11c : SOneOne.BroadcastsInDim SIds (![0, 1] : Fin 2 → Fin SIds.rank))
    (hr : SIds.ReducesTo [1] SVec) (h0 : 0 < SSc.numel)
    (bvo : SVec.BroadcastsInDim SOut (![0] : Fin 1 → Fin SOut.rank))
    (b0o : SSc.BroadcastsInDim SOut (![] : Fin 0 → Fin SOut.rank))
    (fill : SSc.Idx → α) (tab : (STab V).Idx → α) (ids : IVec SIds 32) : SOut.Idx → α :=
  select (broadcastInDim SOut ![0] bvo (rangeMask clampc b0c b1 b11c hr h0 (wrapCol wrapc hc b0v bvc ids)))
    (Host.gather d tab (wrapCol wrapc hc b0v bvc ids))
    (broadcastInDim SOut ![] b0o fill)

/-- A word below 2³¹ is not negative as a signed word: the wrap leaves it alone. -/
theorem wrapCol_apply (wrapc : BitVec 32) (hc : SIds.ShapeCasts SVec) (b0v : SSc.BroadcastsInDim SVec (![] : Fin 0 → Fin SVec.rank))
    (bvc : SVec.BroadcastsInDim SIds (![0] : Fin 1 → Fin SIds.rank)) (ids : IVec SIds 32) (p : Fin 16384)
    (hp : (ids (ix2 p (0 : Fin 1))).toNat < 2 ^ 31) :
    wrapCol wrapc hc b0v bvc ids (ix2 p (0 : Fin 1)) = ids (ix2 p (0 : Fin 1)) := by
  unfold wrapCol
  rw [column_apply, select_apply]
  have hne : ¬ IntOp.cmpi .slt (ids (ix2 p (0 : Fin 1))) 0#32 = 1#1 := fun h => by
    have h' := (StableHlo.Predicate.slt_iff_toNat hp (by decide)).1 h
    have z : (0#32 : BitVec 32).toNat = 0 := rfl
    omega
  have hz : cmpi .slt (shapeCast SVec ids hc) (broadcastInDim SVec ![] b0v (constantI SSc 32 0#32)) (ix1 p) = 0#1 := by
    show IntOp.cmpi .slt (shapeCast SVec ids hc (ix1 p)) 0#32 = 0#1
    rw [flatten_apply]
    exact (BitVec.eq_zero_or_eq_one _).resolve_right hne
  rw [hz, select_zero, flatten_apply]

/-- A word in [0, clampc] passes the range test. -/
theorem rangeMask_apply (clampc : BitVec 32) (b0c : SSc.BroadcastsInDim SIds (![] : Fin 0 → Fin SIds.rank))
    (b1 : SOne.BroadcastsInDim SOneOne (![1] : Fin 1 → Fin SOneOne.rank))
    (b11c : SOneOne.BroadcastsInDim SIds (![0, 1] : Fin 2 → Fin SIds.rank))
    (hr : SIds.ReducesTo [1] SVec) (h0 : 0 < SSc.numel) (col : IVec SIds 32) (p : Fin 16384)
    (hcl : clampc.toNat < 2 ^ 31) (hp : (col (ix2 p (0 : Fin 1))).toNat ≤ clampc.toNat) :
    rangeMask clampc b0c b1 b11c hr h0 col (ix1 p) = 1#1 := by
  unfold rangeMask
  rw [reduce_unit_apply]
  show IntOp.andi (IntOp.cmpi .sge (col (ix2 p (0 : Fin 1))) 0#32) (IntOp.cmpi .sle (col (ix2 p (0 : Fin 1))) clampc) = 1#1
  have hlt : (col (ix2 p (0 : Fin 1))).toNat < 2 ^ 31 := by omega
  exact IntOp.andi_eq_one.2 ⟨(StableHlo.Predicate.sge_iff_toNat hlt (by decide)).2 (Nat.zero_le _),
    (StableHlo.Predicate.sle_iff_toNat hlt hcl).2 hp⟩

/-- THE TAKE IN RANGE IS THE LOOKUP.  For a table of `V` rows (`V` at most 2³¹), a clamp bound `V − 1`, a gather whose
    dimension numbers are a take of rows, and an index column all of whose words are row numbers of the table, the
    reference's take is the specification's lookup, whatever the wrap constant and the fill value. -/
theorem refTake_eq_takeRows (V : Nat) (hV : 0 < V) (hV31 : V ≤ 2 ^ 31) (wrapc clampc : BitVec 32) (hclamp : clampc.toNat = V - 1)
    (d : GatherDims (STab V) SIds SOut)
    (hoff : d.offsetDims = [1]) (hcoll : d.collapsedSliceDims = [0]) (hob : d.operandBatchingDims = [])
    (hsim : d.startIndexMap = [0]) (hivd : d.indexVectorDim = 1)
    (hc : SIds.ShapeCasts SVec) (b0v : SSc.BroadcastsInDim SVec (![] : Fin 0 → Fin SVec.rank))
    (bvc : SVec.BroadcastsInDim SIds (![0] : Fin 1 → Fin SIds.rank))
    (b0c : SSc.BroadcastsInDim SIds (![] : Fin 0 → Fin SIds.rank))
    (b1 : SOne.BroadcastsInDim SOneOne (![1] : Fin 1 → Fin SOneOne.rank))
    (b11c : SOneOne.BroadcastsInDim SIds (![0, 1] : Fin 2 → Fin SIds.rank))
    (hr : SIds.ReducesTo [1] SVec) (h0 : 0 < SSc.numel)
    (bvo : SVec.BroadcastsInDim SOut (![0] : Fin 1 → Fin SOut.rank))
    (b0o : SSc.BroadcastsInDim SOut (![] : Fin 0 → Fin SOut.rank))
    (fill : SSc.Idx → α) (tab : (STab V).Idx → α) (ids : IVec SIds 32) (hin : InRange V ids) :
    refTake V wrapc clampc d hc b0v bvc b0c b1 b11c hr h0 bvo b0o fill tab ids = takeRows V hV tab ids := by
  funext j
  obtain ⟨p, q, rfl⟩ : ∃ (p : Fin 16384) (q : Fin 64), j = ix2 p q := ⟨j 0, j 1, eq_ix2 j⟩
  have hv : (ids (ix2 p (0 : Fin 1))).toNat < V := hin _
  have hcol : wrapCol wrapc hc b0v bvc ids (ix2 p (0 : Fin 1)) = ids (ix2 p (0 : Fin 1)) :=
    wrapCol_apply wrapc hc b0v bvc ids p (by omega)
  have hmask : rangeMask clampc b0c b1 b11c hr h0 (wrapCol wrapc hc b0v bvc ids) (ix1 p) = 1#1 :=
    rangeMask_apply clampc b0c b1 b11c hr h0 _ p (by omega) (by rw [hcol]; omega)
  unfold refTake
  rw [select_apply, rows_apply, hmask, select_one,
    Cert.TakeRows.take_rows_apply d hoff hcoll hob hsim hivd hV tab _ p q, takeRows_apply]
  refine congrArg tab (congrArg (fun r => ix2 r q) (Fin.ext ?_))
  show min (wrapCol wrapc hc b0v bvc ids (ix2 p (0 : Fin 1))).toInt.toNat (V - 1) = (ids (ix2 p (0 : Fin 1))).toNat % V
  rw [hcol, StableHlo.Predicate.toInt_eq_toNat_of_lt (by omega), Int.toNat_natCast, Nat.mod_eq_of_lt hv]
  omega

end Cert.Proof.RefTake

end
-- ==== Proof.RefRead.lean ====
/-
  The reference's line read at its three results and at its six arguments.

  The fold of the 72 operations over any contents `V`, read at a result buffer, is the take (as one function) of the
  table's and the index column's contents in `V`: nothing before a take writes its table or its index column, and every
  value of a take's body is written once (the typed references' transports of contents along their buffers' types are
  the identity at these literal buffers).  Read at an argument buffer it is `V` there: no operation writes an argument.
-/
import proofs.«206842_g87686052315543_cont_sun_m_497_29_alg».proof.Proof.RefOps
import proofs.«206842_g87686052315543_cont_sun_m_497_29_alg».proof.Proof.RefTake

noncomputable section

namespace Cert.Proof.RefRead

open Cert.ReferenceIdeal Idealize.ShloMosaic Idealize.ShloMosaic.TcCoe Idealize.SL.Sem Idealize.ShloMosaic.StableHlo
open Cert.Proof.RefOps Cert.Proof.RefTake

variable {F : FTy → Type} [FloatOps F] [Cert.ReferenceIdeal.Facts]

open Cert.ReferenceIdeal.Facts₀

/-- The take of the user table (1000000 rows) at an index column, with the program's own side conditions. -/
abbrev takeBig (tab : FVec F S1000000x64 .f32) (ids : IVec S16384x1 32) : FVec F S16384x64 .f32 :=
  refTake 1000000 1000000#32 999999#32 gather_S1000000x64_S16384x1_S16384x64_1_0_n_n_0_1_164
    shapeCasts_S16384x1_S16384 bcast_S_S16384 bcast_S16384_S16384x1_0 bcast_S_S16384x1 bcast_S1_S1x1_1
    bcast_S1x1_S16384x1_0_1 reducesTo_S16384x1_S16384_d1 h_S_ bcast_S16384_S16384x64_0 bcast_S_S16384x64
    (constant S_ .f32 0x7FC00000#32 : FVec F S_ .f32) tab ids

/-- The take of the category table (100000 rows) at an index column. -/
abbrev takeSmall (tab : FVec F S100000x64 .f32) (ids : IVec S16384x1 32) : FVec F S16384x64 .f32 :=
  refTake 100000 100000#32 99999#32 gather_S100000x64_S16384x1_S16384x64_1_0_n_n_0_1_164
    shapeCasts_S16384x1_S16384 bcast_S_S16384 bcast_S16384_S16384x1_0 bcast_S_S16384x1 bcast_S1_S1x1_1
    bcast_S1x1_S16384x1_0_1 reducesTo_S16384x1_S16384_d1 h_S_ bcast_S16384_S16384x64_0 bcast_S_S16384x64
    (constant S_ .f32 0x7FC00000#32 : FVec F S_ .f32) tab ids

/-- The first result: the take of the first table at the first index column. -/
theorem read_v1 (V : Valuation τ sig (Elt F)) :
    after (ops (F := F)) V (main_v1 : DevRef τ sig)
      = takeBig (V (main_arg3 : DevRef τ sig)) (V (main_arg0 : DevRef τ sig)) := by
  simp only [ops, takeOps, takeOps0, List.cons_append, List.nil_append]
  after_results_simp
  simp only [TRef.toBuf, TRef.ofBuf, cast_eq]
  rfl

/-- The second result: the take of the second table at the second index column. -/
theorem read_v3 (V : Valuation τ sig (Elt F)) :
    after (ops (F := F)) V (main_v3 : DevRef τ sig)
      = takeBig (V (main_arg4 : DevRef τ sig)) (V (main_arg1 : DevRef τ sig)) := by
  simp only [ops, takeOps, takeOps0, List.cons_append, List.nil_append]
  after_results_simp
  simp only [TRef.toBuf, TRef.ofBuf, cast_eq]
  rfl

/-- The third result: the take of the third table at the third index column. -/
theorem read_v5 (V : Valuation τ sig (Elt F)) :
    after (ops (F := F)) V (main_v5 : DevRef τ sig)
      = takeSmall (V (main_arg5 : DevRef τ sig)) (V (main_arg2 : DevRef τ sig)) := by
  simp only [ops, takeOps, takeOps0, List.cons_append, List.nil_append]
  after_results_simp
  simp only [TRef.toBuf, TRef.ofBuf, cast_eq]
  rfl

/-- No operation writes an argument: each keeps its contents. -/
theorem read_args (V : Valuation τ sig (Elt F)) :
    after (ops (F := F)) V (main_arg0 : DevRef τ sig) = V (main_arg0 : DevRef τ sig)
      ∧ after (ops (F := F)) V (main_arg1 : DevRef τ sig) = V (main_arg1 : DevRef τ sig)
      ∧ after (ops (F := F)) V (main_arg2 : DevRef τ sig) = V (main_arg2 : DevRef τ sig)
      ∧ after (ops (F := F)) V (main_arg3 : DevRef τ sig) = V (main_arg3 : DevRef τ sig)
      ∧ after (ops (F := F)) V (main_arg4 : DevRef τ sig) = V (main_arg4 : DevRef τ sig)
      ∧ after (ops (F := F)) V (main_arg5 : DevRef τ sig) = V (main_arg5 : DevRef τ sig) := by
  simp only [ops, takeOps, takeOps0, List.cons_append, List.nil_append]
  refine ⟨?_, ?_, ?_, ?_, ?_, ?_⟩ <;> after_results_simp

end Cert.Proof.RefRead

end
-- ==== Proof.RefRun.lean ====
/-
  The reference's run, its results named by the specification.

  Under the precondition every word of the three index columns is a row number of its table.  The reference's @main is a
  straight line of host operations; each result buffer ends at the reference's take of its table at its index column,
  and for indices in range that take is the specification's lookup: result row j is the table's row named by word j.
  No operation writes an argument, so the six arguments end as they began.
-/
import proofs.«206842_g87686052315543_cont_sun_m_497_29_alg».proof.Defs
import proofs.«206842_g87686052315543_cont_sun_m_497_29_alg».proof.Proof.Spec
import proofs.«206842_g87686052315543_cont_sun_m_497_29_alg».proof.Proof.PreIds
import proofs.«206842_g87686052315543_cont_sun_m_497_29_alg».proof.Proof.RefRead

noncomputable section

namespace Cert.Proof.RefRun

open Cert.ReferenceIdeal Idealize.ShloMosaic Idealize.ShloMosaic.TcCoe Idealize.SL.Sem Idealize.ShloMosaic.StableHlo
open Cert.Proof.RefOps Cert.Proof.RefTake Cert.Proof.RefRead

/-- In range, the take of a table of 1000000 rows is the lookup. -/
theorem takeBig_eq [Cert.ReferenceIdeal.Facts] (tab : FVec Ideal S1000000x64 .f32) (ids : IVec S16384x1 32)
    (hin : Cert.Proof.Spec.InRange 1000000 ids) :
    takeBig (F := Ideal) tab ids = Cert.Proof.Spec.takeRows 1000000 (by decide) tab ids :=
  refTake_eq_takeRows 1000000 (by decide) (by decide) 1000000#32 999999#32 (by decide) _ rfl rfl rfl rfl rfl
    _ _ _ _ _ _ _ _ _ _ _ tab ids hin

/-- In range, the take of a table of 100000 rows is the lookup. -/
theorem takeSmall_eq [Cert.ReferenceIdeal.Facts] (tab : FVec Ideal S100000x64 .f32) (ids : IVec S16384x1 32)
    (hin : Cert.Proof.Spec.InRange 100000 ids) :
    takeSmall (F := Ideal) tab ids = Cert.Proof.Spec.takeRows 100000 (by decide) tab ids :=
  refTake_eq_takeRows 100000 (by decide) (by decide) 100000#32 99999#32 (by decide) _ rfl rfl rfl rfl rfl
    _ _ _ _ _ _ _ _ _ _ _ tab ids hin

/-- Under the precondition, from any memory with zero counters: every weakly fair execution of the reference terminates,
    each result is the specification's lookup of its table at its index column, and the arguments are unchanged. -/
theorem run [Cert.ReferenceIdeal.Facts] [Cert.Pre_input_domain.Facts]
    (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
      r.2.mem ((c.tc : Thread nD τ).loc main_v1)
          = Cert.Proof.Spec.takeRows 1000000 (by decide) (m ((c.tc : Thread nD τ).loc main_arg3)) (m ((c.tc : Thread nD τ).loc main_arg0))
      ∧ r.2.mem ((c.tc : Thread nD τ).loc main_v3)
          = Cert.Proof.Spec.takeRows 1000000 (by decide) (m ((c.tc : Thread nD τ).loc main_arg4)) (m ((c.tc : Thread nD τ).loc main_arg1))
      ∧ r.2.mem ((c.tc : Thread nD τ).loc main_v5)
          = Cert.Proof.Spec.takeRows 100000 (by decide) (m ((c.tc : Thread nD τ).loc main_arg5)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (Cert.ReferenceIdeal.defs (F := Ideal)) _ _).mono (fun r h c => by
    obtain ⟨h0, h1, h2⟩ := Cert.Proof.PreIds.inRange_of_pre _ _ _ _ _ _ (hpre c)
    obtain ⟨e0, e1, e2, e3, e4, e5⟩ := read_args (F := Ideal) (launchContents m c)
    exact ⟨(h c main_v1).trans ((read_v1 (F := Ideal) (launchContents m c)).trans (takeBig_eq _ _ h0)),
      (h c main_v3).trans ((read_v3 (F := Ideal) (launchContents m c)).trans (takeBig_eq _ _ h1)),
      (h c main_v5).trans ((read_v5 (F := Ideal) (launchContents m c)).trans (takeSmall_eq _ _ h2)),
      (h c main_arg0).trans e0, (h c main_arg1).trans e1, (h c main_arg2).trans e2,
      (h c main_arg3).trans e3, (h c main_arg4).trans e4, (h c main_arg5).trans e5⟩)
    (run_main (F := Ideal) m g)

end Cert.Proof.RefRun

end
-- ==== Proof.Asm.lean ====
/-
  The certificate's claim from its two tile tasks.  Given one tile's task at each instance (the printed program read at the
  bit-exact floats, and its idealization read at the extended reals), the launch gives each program's run with every
  result at the specification's lookup and every argument unchanged; the reference's run ends at the same lookups.  The
  three frames are these runs with the results forgotten, and the algebraic claim is the two ideal runs side by side:
  from memories that agree on the six arguments the lookups are the same terms.
-/
import proofs.«206842_g87686052315543_cont_sun_m_497_29_alg».proof.Defs
import proofs.«206842_g87686052315543_cont_sun_m_497_29_alg».proof.Proof.Gen.Kernel
import proofs.«206842_g87686052315543_cont_sun_m_497_29_alg».proof.Proof.Gen.Kernel.Skeleton
import proofs.«206842_g87686052315543_cont_sun_m_497_29_alg».proof.Proof.Gen.KernelIdeal
import proofs.«206842_g87686052315543_cont_sun_m_497_29_alg».proof.Proof.Gen.KernelIdeal.Skeleton
import proofs.«206842_g87686052315543_cont_sun_m_497_29_alg».proof.Proof.Gen.ReferenceIdeal
import proofs.«206842_g87686052315543_cont_sun_m_497_29_alg».proof.Proof.Gen.Pre_input_domain
import Idealize.ShloMosaic.Adequacy
import Idealize.ShloMosaic.Init
import proofs.«206842_g87686052315543_cont_sun_m_497_29_alg».proof.Proof.KLaunch
import proofs.«206842_g87686052315543_cont_sun_m_497_29_alg».proof.Proof.KILaunch
import proofs.«206842_g87686052315543_cont_sun_m_497_29_alg».proof.Proof.KDeal
import proofs.«206842_g87686052315543_cont_sun_m_497_29_alg».proof.Proof.KIDeal
import proofs.«206842_g87686052315543_cont_sun_m_497_29_alg».proof.Proof.RefRun
import proofs.«206842_g87686052315543_cont_sun_m_497_29_alg».proof.Proof.PreIds

noncomputable section

namespace Cert.Proof.Asm

open Idealize.ShloMosaic Idealize.SL.Sem

/-! ## The precondition, read at the index columns -/

/-- Under the printed precondition every index word names a row of its table: the first program. -/
theorem preOK_of_pre (m : (ℓ : Loc Cert.Kernel.nD Cert.Kernel.τ Cert.Kernel.sig) → Buf (Elt Bits) ℓ) (h : Cert.Pre_Kernel m) :
    Cert.Proof.KRes.PreOK (F := Bits) m :=
  fun d => Cert.Proof.PreIds.inRange_of_pre (F := Bits) _ _ _ _ _ _ (h d)

/-- The same for the idealized program. -/
theorem preOK_of_preI (m : (ℓ : Loc Cert.KernelIdeal.nD Cert.KernelIdeal.τ Cert.KernelIdeal.sig) → Buf (Elt Ideal) ℓ) (h : Cert.Pre_KernelIdeal m) :
    Cert.Proof.KIRes.PreOK (F := Ideal) m :=
  fun d => Cert.Proof.PreIds.inRange_of_pre (F := Ideal) _ _ _ _ _ _ (h d)

/-! ## The two kernels' runs, results named -/

theorem run_K (hK : ∀ (m : (ℓ : Loc Cert.Kernel.nD Cert.Kernel.τ Cert.Kernel.sig) → Buf (Elt Bits) ℓ),
      Cert.Proof.KRes.PreOK m → Cert.Proof.KRes.TileBody (F := Bits) m)
    (m : (ℓ : Loc Cert.Kernel.nD Cert.Kernel.τ Cert.Kernel.sig) → Buf (Elt Bits) ℓ) (g : Dev Cert.Kernel.nD → PrngReg) (hpre : Cert.Pre_Kernel m) :
    θ_run (Cert.Kernel.defs (F := Bits)) (Cert.Kernel.threads (F := Bits)) ⟨m, fun _ => 0, g⟩ (Cert.Proof.KRes.QC m) :=
  Cert.Proof.KLaunch.run_main (F := Bits) m g (Cert.Proof.KDeal.deal m) (Cert.Proof.KDeal.gather m) (hK m (preOK_of_pre m hpre))

theorem run_KI (hKI : ∀ (m : (ℓ : Loc Cert.KernelIdeal.nD Cert.KernelIdeal.τ Cert.KernelIdeal.sig) → Buf (Elt Ideal) ℓ),
      Cert.Proof.KIRes.PreOK m → Cert.Proof.KIRes.TileBody (F := Ideal) m)
    (m : (ℓ : Loc Cert.KernelIdeal.nD Cert.KernelIdeal.τ Cert.KernelIdeal.sig) → Buf (Elt Ideal) ℓ) (g : Dev Cert.KernelIdeal.nD → PrngReg)
    (hpre : Cert.Pre_KernelIdeal m) :
    θ_run (Cert.KernelIdeal.defs (F := Ideal)) (Cert.KernelIdeal.threads (F := Ideal)) ⟨m, fun _ => 0, g⟩ (Cert.Proof.KIRes.QC m) :=
  Cert.Proof.KILaunch.run_main (F := Ideal) m g (Cert.Proof.KIDeal.deal m) (Cert.Proof.KIDeal.gather m) (hKI m (preOK_of_preI m hpre))

/-! ## The five claims -/

/-- The run, its three results forgotten: the six arguments are the last six conjuncts. -/
theorem frame_K (hK : ∀ (m : (ℓ : Loc Cert.Kernel.nD Cert.Kernel.τ Cert.Kernel.sig) → Buf (Elt Bits) ℓ),
      Cert.Proof.KRes.PreOK m → Cert.Proof.KRes.TileBody (F := Bits) m) : Cert.frame_Kernel :=
  fun m g hpre => (θ_run (Cert.Kernel.defs (F := Bits)) _ _).mono (fun _ h c => (h c).2.2.2) (run_K hK m g hpre)

theorem frame_KI (hKI : ∀ (m : (ℓ : Loc Cert.KernelIdeal.nD Cert.KernelIdeal.τ Cert.KernelIdeal.sig) → Buf (Elt Ideal) ℓ),
      Cert.Proof.KIRes.PreOK m → Cert.Proof.KIRes.TileBody (F := Ideal) m) : Cert.frame_KernelIdeal :=
  fun m g hpre => (θ_run (Cert.KernelIdeal.defs (F := Ideal)) _ _).mono (fun _ h c => (h c).2.2.2) (run_KI hKI m g hpre)

theorem frame_R : Cert.frame_ReferenceIdeal :=
  fun m g hpre => (θ_run (Cert.ReferenceIdeal.defs (F := Ideal)) _ _).mono (fun _ h c => (h c).2.2.2) (Cert.Proof.RefRun.run m g hpre)

/-- The ideal pass rewrote nothing. -/
theorem preserves : Cert.preserves_Kernel_KernelIdeal := trivial

/-- Both ideal runs end at the specification's lookups of the launch memory; from memories that agree on the six
    arguments these are the same. -/
theorem algebraic (hKI : ∀ (m : (ℓ : Loc Cert.KernelIdeal.nD Cert.KernelIdeal.τ Cert.KernelIdeal.sig) → Buf (Elt Ideal) ℓ),
      Cert.Proof.KIRes.PreOK m → Cert.Proof.KIRes.TileBody (F := Ideal) m) : Cert.algebraic_KernelIdeal_ReferenceIdeal := by
  intro m g m' g' hpre hagree
  refine ⟨fun c => Cert.Proof.KIRes.G0 m c, fun c => Cert.Proof.KIRes.G1 m c, fun c => Cert.Proof.KIRes.G2 m c, run_KI hKI m g hpre, ?_⟩
  have hpre' : Cert.Pre_ReferenceIdeal m' := fun c => by
    obtain ⟨e0, e1, e2, e3, e4, e5⟩ := hagree c
    rw [e0, e1, e2, e3, e4, e5]; exact hpre c
  refine (θ_run (Cert.ReferenceIdeal.defs (F := Ideal)) _ _).mono (fun _ h c => ?_) (Cert.Proof.RefRun.run m' g' hpre')
  obtain ⟨e0, e1, e2, e3, e4, e5⟩ := hagree c
  obtain ⟨r0, r1, r2, rest⟩ := h c
  refine ⟨r0.trans ?_, r1.trans ?_, r2.trans ?_, rest⟩
  · rw [e3, e0]; rfl
  · rw [e4, e1]; rfl
  · rw [e5, e2]; rfl

/-! ## The claim -/

theorem claim_of_bodies
    (hK : ∀ (m : (ℓ : Loc Cert.Kernel.nD Cert.Kernel.τ Cert.Kernel.sig) → Buf (Elt Bits) ℓ),
      Cert.Proof.KRes.PreOK m → Cert.Proof.KRes.TileBody (F := Bits) m)
    (hKI : ∀ (m : (ℓ : Loc Cert.KernelIdeal.nD Cert.KernelIdeal.τ Cert.KernelIdeal.sig) → Buf (Elt Ideal) ℓ),
      Cert.Proof.KIRes.PreOK m → Cert.Proof.KIRes.TileBody (F := Ideal) m) : Cert.Claim :=
  ⟨Cert.Kernel.Gen.facts, Cert.KernelIdeal.Gen.facts, Cert.ReferenceIdeal.Gen.facts, Cert.Pre_input_domain.Gen.facts,
    frame_K hK, frame_KI hKI, frame_R, preserves, algebraic hKI⟩

end Cert.Proof.Asm

end
-- ==== Proof.KWin.lean ====
/-
  The kernel's own slices, named by the pieces a tile is handed.

  Tile (c, s) — worker w = 2 s + c — slices rows 8 s + 4 c … + 3 of each reshaped index array: rows 4 w … 4 w + 3, the
  worker's part of the array cut into 32.  In trip k of each of its three loops it slices, of a result, the 64 rows from
  1024 s + 512 c + 128 k + 64 b for b = 0, 1: window 8 w + 2 k + b of the result cut into 256, that is windows 2 k and
  2 k + 1 of the worker's eight.  A loop's invariant over the eight windows — the first 2 k hold the lookup, the others
  the launch contents — gives up the two windows of trip k and takes them back filled.
-/
import proofs.«206842_g87686052315543_cont_sun_m_497_29_alg».proof.Proof.KRes
import proofs.«206842_g87686052315543_cont_sun_m_497_29_alg».proof.Proof.Gen.Kernel

noncomputable section

namespace Cert.Proof.KWin

open Cert.Kernel Cert.Kernel.Gen Cert.Proof.KRes

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

local notation "uidW" => (Memref.whole Cert.Kernel.main_v0_scv : Memref Cert.Kernel.sig Kind.scVector Space.hbm Cert.Kernel.S128x128 EltTy.i32)
local notation "iidW" => (Memref.whole Cert.Kernel.main_v1_scv : Memref Cert.Kernel.sig Kind.scVector Space.hbm Cert.Kernel.S128x128 EltTy.i32)
local notation "cidW" => (Memref.whole Cert.Kernel.main_v2_scv : Memref Cert.Kernel.sig Kind.scVector Space.hbm Cert.Kernel.S128x128 EltTy.i32)
local notation "ouW" => (Memref.whole Cert.Kernel.main_v3_0_scv : Memref Cert.Kernel.sig Kind.scVector Space.hbm Cert.Kernel.S16384x64 EltTy.f32)
local notation "oiW" => (Memref.whole Cert.Kernel.main_v3_1_scv : Memref Cert.Kernel.sig Kind.scVector Space.hbm Cert.Kernel.S16384x64 EltTy.f32)
local notation "ocW" => (Memref.whole Cert.Kernel.main_v3_2_scv : Memref Cert.Kernel.sig Kind.scVector Space.hbm Cert.Kernel.S16384x64 EltTy.f32)

/-! ## The index rows -/

/-- The four rows of a reshaped index array that tile `L` slices. -/
abbrev idRow0 (L : grid0.Coords) : Memref sig .scVector .hbm S4x128 .i32 :=
  (uidW).slice (Rect.unit (s := S128x128) (k0_off1 L) S4x128.size (k0_off1_inb L)) (fun _ => rfl)
abbrev idRow1 (L : grid0.Coords) : Memref sig .scVector .hbm S4x128 .i32 :=
  (iidW).slice (Rect.unit (s := S128x128) (k0_off1 L) S4x128.size (k0_off1_inb L)) (fun _ => rfl)
abbrev idRow2 (L : grid0.Coords) : Memref sig .scVector .hbm S4x128 .i32 :=
  (cidW).slice (Rect.unit (s := S128x128) (k0_off1 L) S4x128.size (k0_off1_inb L)) (fun _ => rfl)

/-- The rectangle the tile slices is its worker's part: 8 s + 4 c = 4 (2 s + c), four rows, every column. -/
theorem idRect_eq (L : grid0.Coords) :
    Rect.unit (s := S128x128) (k0_off1 L) S4x128.size (k0_off1_inb L) = Rect.part (s := S128x128) (a₀ := 0) hdiv_ids (wid L) := by
  unfold Rect.part Rect.block
  congr 1 <;> funext a
  · rw [k0_off1_eq]
    match a with
    | 0 =>
      show 8 * (L 1).val + 4 * (L 0).val = (2 * (L 1).val + (L 0).val) * (128 / 32)
      omega
    | 1 => simp [Shape.partIx, Shape.partSize]
  · match a with
    | 0 => simp [Shape.partSize]
    | 1 => simp [Shape.partSize]

theorem set_idRow0 (L : grid0.Coords) : (idRow0 L).view.set = idRows (wid L) :=
  (View.set_slice_whole main_v0_scv _).trans (congrArg (fun r : Rect S128x128 => r.set) (idRect_eq L))
theorem set_idRow1 (L : grid0.Coords) : (idRow1 L).view.set = idRows (wid L) :=
  (View.set_slice_whole main_v1_scv _).trans (congrArg (fun r : Rect S128x128 => r.set) (idRect_eq L))
theorem set_idRow2 (L : grid0.Coords) : (idRow2 L).view.set = idRows (wid L) :=
  (View.set_slice_whole main_v2_scv _).trans (congrArg (fun r : Rect S128x128 => r.set) (idRect_eq L))

theorem pts_idRow0 (d : Dev nD) (L : grid0.Coords) (f : Buf (Elt F) (v0Loc d)) :
    ((idRow0 L).view.loc (V d (cV L) (jV L)) ↦[(idRow0 L).view.set]{fullShare} f : sProp 𝕄) = v0Loc d ↦[idRows (wid L)]{fullShare} f := by
  rw [set_idRow0]
theorem pts_idRow1 (d : Dev nD) (L : grid0.Coords) (f : Buf (Elt F) (v1Loc d)) :
    ((idRow1 L).view.loc (V d (cV L) (jV L)) ↦[(idRow1 L).view.set]{fullShare} f : sProp 𝕄) = v1Loc d ↦[idRows (wid L)]{fullShare} f := by
  rw [set_idRow1]
theorem pts_idRow2 (d : Dev nD) (L : grid0.Coords) (f : Buf (Elt F) (v2Loc d)) :
    ((idRow2 L).view.loc (V d (cV L) (jV L)) ↦[(idRow2 L).view.set]{fullShare} f : sProp 𝕄) = v2Loc d ↦[idRows (wid L)]{fullShare} f := by
  rw [set_idRow2]

/-! ## The result windows -/

theorem trips1 : k0_t1_loop.trips = 4 := by decide
theorem trips2 : k0_t2_loop.trips = 4 := by decide
theorem trips3 : k0_t3_loop.trips = 4 := by decide

/-- Trip k writes windows 2 k and 2 k + 1 of the worker's eight. -/
def kwin (k : Fin 4) (b : Fin 2) : Fin 8 := ⟨2 * k.val + b.val, by omega⟩

/-- The 64 rows of a result that tile `L` slices in trip `k`, first (b = 0) or second (b = 1). -/
abbrev ouWin1 (L : grid0.Coords) (k : Fin k0_t1_loop.trips) (b : Fin 2) : Memref sig .scVector .hbm S64x64 .f32 :=
  (ouW).slice (Rect.unit (s := S16384x64) (k0_off202 L k (BitVec.ofNat 32 b.val)) S64x64.size (k0_off202_inb L k b)) (fun _ => rfl)
abbrev oiWin2 (L : grid0.Coords) (k : Fin k0_t2_loop.trips) (b : Fin 2) : Memref sig .scVector .hbm S64x64 .f32 :=
  (oiW).slice (Rect.unit (s := S16384x64) (k0_off466 L k (BitVec.ofNat 32 b.val)) S64x64.size (k0_off466_inb L k b)) (fun _ => rfl)
abbrev ocWin3 (L : grid0.Coords) (k : Fin k0_t3_loop.trips) (b : Fin 2) : Memref sig .scVector .hbm S64x64 .f32 :=
  (ocW).slice (Rect.unit (s := S16384x64) (k0_off730 L k (BitVec.ofNat 32 b.val)) S64x64.size (k0_off730_inb L k b)) (fun _ => rfl)

/-- 64 rows from row 64 p, every column, are part p of a result cut into 256. -/
theorem outRect_eq (off : Fin 2 → Nat) (inb : ∀ a, off a + S64x64.size a ≤ S16384x64.size a) (p : Fin 256)
    (h : off = ![64 * p.val, 0]) :
    Rect.unit (s := S16384x64) off S64x64.size inb = Rect.part (s := S16384x64) (a₀ := 0) hdiv_out p := by
  subst h
  unfold Rect.part Rect.block
  congr 1 <;> funext a
  · match a with
    | 0 =>
      show 64 * p.val = p.val * (16384 / 256)
      omega
    | 1 => simp [Shape.partIx, Shape.partSize]
  · match a with
    | 0 => simp [Shape.partSize]
    | 1 => simp [Shape.partSize]

/-- 1024 s + 512 c + 128 k + 64 b = 64 (8 (2 s + c) + 2 k + b). -/
theorem off_win (L : grid0.Coords) (k : Fin 4) (b : Fin 2) :
    (![1024 * (L 1).val + 512 * (L 0).val + 128 * k.val + 64 * b.val, 0] : Fin 2 → Nat)
      = ![64 * (win8 (wid L) (kwin k b)).val, 0] := by
  have e : 1024 * (L 1).val + 512 * (L 0).val + 128 * k.val + 64 * b.val = 64 * (win8 (wid L) (kwin k b)).val := by
    show _ = 64 * (8 * (2 * (L 1).val + (L 0).val) + (2 * k.val + b.val))
    omega
  rw [e]

theorem set_ouWin1 (L : grid0.Coords) (k : Fin k0_t1_loop.trips) (b : Fin 2) :
    (ouWin1 L k b).view.set = outWin (win8 (wid L) (kwin (Fin.cast trips1 k) b)) :=
  (View.set_slice_whole main_v3_0_scv _).trans (congrArg (fun r : Rect S16384x64 => r.set)
    (outRect_eq _ _ (win8 (wid L) (kwin (Fin.cast trips1 k) b)) ((k0_off202_eq L k b).trans (off_win L (Fin.cast trips1 k) b))))
theorem set_oiWin2 (L : grid0.Coords) (k : Fin k0_t2_loop.trips) (b : Fin 2) :
    (oiWin2 L k b).view.set = outWin (win8 (wid L) (kwin (Fin.cast trips2 k) b)) :=
  (View.set_slice_whole main_v3_1_scv _).trans (congrArg (fun r : Rect S16384x64 => r.set)
    (outRect_eq _ _ (win8 (wid L) (kwin (Fin.cast trips2 k) b)) ((k0_off466_eq L k b).trans (off_win L (Fin.cast trips2 k) b))))
theorem set_ocWin3 (L : grid0.Coords) (k : Fin k0_t3_loop.trips) (b : Fin 2) :
    (ocWin3 L k b).view.set = outWin (win8 (wid L) (kwin (Fin.cast trips3 k) b)) :=
  (View.set_slice_whole main_v3_2_scv _).trans (congrArg (fun r : Rect S16384x64 => r.set)
    (outRect_eq _ _ (win8 (wid L) (kwin (Fin.cast trips3 k) b)) ((k0_off730_eq L k b).trans (off_win L (Fin.cast trips3 k) b))))

theorem pts_ouWin1 (d : Dev nD) (L : grid0.Coords) (k : Fin k0_t1_loop.trips) (b : Fin 2) (f : Buf (Elt F) (o0Loc d)) :
    ((ouWin1 L k b).view.loc (V d (cV L) (jV L)) ↦[(ouWin1 L k b).view.set]{fullShare} f : sProp 𝕄)
      = o0Loc d ↦[outWin (win8 (wid L) (kwin (Fin.cast trips1 k) b))]{fullShare} f := by
  rw [set_ouWin1]
theorem pts_oiWin2 (d : Dev nD) (L : grid0.Coords) (k : Fin k0_t2_loop.trips) (b : Fin 2) (f : Buf (Elt F) (o1Loc d)) :
    ((oiWin2 L k b).view.loc (V d (cV L) (jV L)) ↦[(oiWin2 L k b).view.set]{fullShare} f : sProp 𝕄)
      = o1Loc d ↦[outWin (win8 (wid L) (kwin (Fin.cast trips2 k) b))]{fullShare} f := by
  rw [set_oiWin2]
theorem pts_ocWin3 (d : Dev nD) (L : grid0.Coords) (k : Fin k0_t3_loop.trips) (b : Fin 2) (f : Buf (Elt F) (o2Loc d)) :
    ((ocWin3 L k b).view.loc (V d (cV L) (jV L)) ↦[(ocWin3 L k b).view.set]{fullShare} f : sProp 𝕄)
      = o2Loc d ↦[outWin (win8 (wid L) (kwin (Fin.cast trips3 k) b))]{fullShare} f := by
  rw [set_ocWin3]

/-! ## A loop's invariant over the worker's eight windows

Stated once, for any buffer `ℓ`, any family `Wn` of eight sets of its elements and two contents `g`, `f`: after `k` trips the
first `2 k` sets hold `g` and the others `f`.  Trip `k` owns sets `2 k` and `2 k + 1`: taking them out leaves six sets
whose contents the trip does not change (a set below `2 k` is below `2 k + 2`; a set from `2 k + 2` on is not below `2 k`),
and putting them back holding `g` gives the invariant at `k + 1`. -/

section Windows

variable {ℓ : Loc nD τ sig} (Wn : Fin 8 → Finset (Idx ℓ)) (g f : Buf (Elt F) ℓ)

/-- After `k` trips: the first `2 k` sets hold `g`, the others `f`. -/
def winInv (k : ℕ) : sProp 𝕄 :=
  bigSep Finset.univ fun c8 : Fin 8 => ℓ ↦[Wn c8]{fullShare} (if c8.val < 2 * k then g else f)

/-- The six sets that are not trip `k`'s, as the invariant has them at `k`. -/
def winRest (k : Fin 4) : sProp 𝕄 :=
  bigSep ((Finset.univ.erase (kwin k 0)).erase (kwin k 1)) fun c8 : Fin 8 =>
    ℓ ↦[Wn c8]{fullShare} (if c8.val < 2 * k.val then g else f)

theorem winInv_zero : winInv Wn g f 0 = bigSep Finset.univ fun c8 : Fin 8 => ℓ ↦[Wn c8]{fullShare} f :=
  bigSep_congr fun c8 _ => by rw [if_neg (show ¬ c8.val < 2 * 0 by omega)]

theorem winInv_four : winInv Wn g f 4 = bigSep Finset.univ fun c8 : Fin 8 => ℓ ↦[Wn c8]{fullShare} g :=
  bigSep_congr fun c8 _ => by rw [if_pos (show c8.val < 2 * 4 by have := c8.isLt; omega)]

/-- A trip's two windows are different. -/
theorem kwin_ne (k : Fin 4) : kwin k 1 ≠ kwin k 0 := fun h => by
  have e : 2 * k.val + 1 = 2 * k.val + 0 := congrArg Fin.val h
  omega

theorem kwin_mem (k : Fin 4) : kwin k 1 ∈ (Finset.univ : Finset (Fin 8)).erase (kwin k 0) :=
  Finset.mem_erase.2 ⟨kwin_ne k, Finset.mem_univ _⟩

/-- The invariant at `k` is trip `k`'s two windows, still holding `f`, beside the six others. -/
theorem winInv_peel_eq (k : Fin 4) :
    winInv Wn g f k.val
      = iprop((ℓ ↦[Wn (kwin k 0)]{fullShare} f) ∗ (ℓ ↦[Wn (kwin k 1)]{fullShare} f) ∗ winRest Wn g f k) := by
  unfold winInv winRest
  rw [bigSep_erase (Finset.mem_univ (kwin k 0)), bigSep_erase (kwin_mem k),
    if_neg (show ¬ (kwin k 0).val < 2 * k.val by show ¬ 2 * k.val + 0 < 2 * k.val; omega),
    if_neg (show ¬ (kwin k 1).val < 2 * k.val by show ¬ 2 * k.val + 1 < 2 * k.val; omega)]
  rfl

/-- The two windows holding `g` beside the six others are the invariant at `k + 1`. -/
theorem winInv_put_eq (k : Fin 4) :
    iprop((ℓ ↦[Wn (kwin k 0)]{fullShare} g) ∗ (ℓ ↦[Wn (kwin k 1)]{fullShare} g) ∗ winRest Wn g f k)
      = winInv Wn g f (k.val + 1) := by
  have hrest : winRest Wn g f k
      = bigSep ((Finset.univ.erase (kwin k 0)).erase (kwin k 1)) fun c8 : Fin 8 =>
          ℓ ↦[Wn c8]{fullShare} (if c8.val < 2 * (k.val + 1) then g else f) := by
    unfold winRest
    refine bigSep_congr fun c8 hc => ?_
    have h1 : c8.val ≠ 2 * k.val + 1 := fun e => (Finset.mem_erase.1 hc).1 (Fin.ext e)
    have h0 : c8.val ≠ 2 * k.val + 0 := fun e => (Finset.mem_erase.1 (Finset.mem_erase.1 hc).2).1 (Fin.ext e)
    by_cases h : c8.val < 2 * k.val
    · rw [if_pos h, if_pos (show c8.val < 2 * (k.val + 1) by omega)]
    · rw [if_neg h, if_neg (show ¬ c8.val < 2 * (k.val + 1) by omega)]
  rw [hrest]
  unfold winInv
  rw [bigSep_erase (Finset.mem_univ (kwin k 0)) (Φ := fun c8 : Fin 8 => ℓ ↦[Wn c8]{fullShare} (if c8.val < 2 * (k.val + 1) then g else f)),
    bigSep_erase (kwin_mem k) (Φ := fun c8 : Fin 8 => ℓ ↦[Wn c8]{fullShare} (if c8.val < 2 * (k.val + 1) then g else f)),
    if_pos (show (kwin k 0).val < 2 * (k.val + 1) by show 2 * k.val + 0 < 2 * (k.val + 1); omega),
    if_pos (show (kwin k 1).val < 2 * (k.val + 1) by show 2 * k.val + 1 < 2 * (k.val + 1); omega)]
  rfl

end Windows

/-! ## The three results' invariants -/

def outInv0 (d : Dev nD) (w : Fin 32) (k : ℕ) : sProp 𝕄 :=
  bigSep Finset.univ fun c8 : Fin 8 => o0Loc d ↦[outWin (win8 w c8)]{fullShare} (if c8.val < 2 * k then G0 m d else m (o0Loc d))
def outInv1 (d : Dev nD) (w : Fin 32) (k : ℕ) : sProp 𝕄 :=
  bigSep Finset.univ fun c8 : Fin 8 => o1Loc d ↦[outWin (win8 w c8)]{fullShare} (if c8.val < 2 * k then G1 m d else m (o1Loc d))
def outInv2 (d : Dev nD) (w : Fin 32) (k : ℕ) : sProp 𝕄 :=
  bigSep Finset.univ fun c8 : Fin 8 => o2Loc d ↦[outWin (win8 w c8)]{fullShare} (if c8.val < 2 * k then G2 m d else m (o2Loc d))

def outRest0 (d : Dev nD) (w : Fin 32) (k : Fin 4) : sProp 𝕄 :=
  bigSep ((Finset.univ.erase (kwin k 0)).erase (kwin k 1)) fun c8 : Fin 8 =>
    o0Loc d ↦[outWin (win8 w c8)]{fullShare} (if c8.val < 2 * k.val then G0 m d else m (o0Loc d))
def outRest1 (d : Dev nD) (w : Fin 32) (k : Fin 4) : sProp 𝕄 :=
  bigSep ((Finset.univ.erase (kwin k 0)).erase (kwin k 1)) fun c8 : Fin 8 =>
    o1Loc d ↦[outWin (win8 w c8)]{fullShare} (if c8.val < 2 * k.val then G1 m d else m (o1Loc d))
def outRest2 (d : Dev nD) (w : Fin 32) (k : Fin 4) : sProp 𝕄 :=
  bigSep ((Finset.univ.erase (kwin k 0)).erase (kwin k 1)) fun c8 : Fin 8 =>
    o2Loc d ↦[outWin (win8 w c8)]{fullShare} (if c8.val < 2 * k.val then G2 m d else m (o2Loc d))

variable (d : Dev nD) (w : Fin 32)

theorem outInv0_zero : outInv0 m d w 0 = bigSep Finset.univ fun c8 : Fin 8 => o0Loc d ↦[outWin (win8 w c8)]{fullShare} m (o0Loc d) :=
  winInv_zero (ℓ := o0Loc d) (fun c8 => outWin (win8 w c8)) (G0 m d) (m (o0Loc d))
theorem outInv0_four : outInv0 m d w 4 = bigSep Finset.univ fun c8 : Fin 8 => o0Loc d ↦[outWin (win8 w c8)]{fullShare} G0 m d :=
  winInv_four (ℓ := o0Loc d) (fun c8 => outWin (win8 w c8)) (G0 m d) (m (o0Loc d))
theorem outInv0_peel (k : Fin 4) :
    outInv0 m d w k.val ⊢ iprop((o0Loc d ↦[outWin (win8 w (kwin k 0))]{fullShare} m (o0Loc d))
      ∗ (o0Loc d ↦[outWin (win8 w (kwin k 1))]{fullShare} m (o0Loc d)) ∗ outRest0 m d w k) :=
  Entails.of_eq (winInv_peel_eq (ℓ := o0Loc d) (fun c8 => outWin (win8 w c8)) (G0 m d) (m (o0Loc d)) k)
theorem outInv0_put (k : Fin 4) :
    iprop((o0Loc d ↦[outWin (win8 w (kwin k 0))]{fullShare} G0 m d)
      ∗ (o0Loc d ↦[outWin (win8 w (kwin k 1))]{fullShare} G0 m d) ∗ outRest0 m d w k) ⊢ outInv0 m d w (k.val + 1) :=
  Entails.of_eq (winInv_put_eq (ℓ := o0Loc d) (fun c8 => outWin (win8 w c8)) (G0 m d) (m (o0Loc d)) k)

theorem outInv1_zero : outInv1 m d w 0 = bigSep Finset.univ fun c8 : Fin 8 => o1Loc d ↦[outWin (win8 w c8)]{fullShare} m (o1Loc d) :=
  winInv_zero (ℓ := o1Loc d) (fun c8 => outWin (win8 w c8)) (G1 m d) (m (o1Loc d))
theorem outInv1_four : outInv1 m d w 4 = bigSep Finset.univ fun c8 : Fin 8 => o1Loc d ↦[outWin (win8 w c8)]{fullShare} G1 m d :=
  winInv_four (ℓ := o1Loc d) (fun c8 => outWin (win8 w c8)) (G1 m d) (m (o1Loc d))
theorem outInv1_peel (k : Fin 4) :
    outInv1 m d w k.val ⊢ iprop((o1Loc d ↦[outWin (win8 w (kwin k 0))]{fullShare} m (o1Loc d))
      ∗ (o1Loc d ↦[outWin (win8 w (kwin k 1))]{fullShare} m (o1Loc d)) ∗ outRest1 m d w k) :=
  Entails.of_eq (winInv_peel_eq (ℓ := o1Loc d) (fun c8 => outWin (win8 w c8)) (G1 m d) (m (o1Loc d)) k)
theorem outInv1_put (k : Fin 4) :
    iprop((o1Loc d ↦[outWin (win8 w (kwin k 0))]{fullShare} G1 m d)
      ∗ (o1Loc d ↦[outWin (win8 w (kwin k 1))]{fullShare} G1 m d) ∗ outRest1 m d w k) ⊢ outInv1 m d w (k.val + 1) :=
  Entails.of_eq (winInv_put_eq (ℓ := o1Loc d) (fun c8 => outWin (win8 w c8)) (G1 m d) (m (o1Loc d)) k)

theorem outInv2_zero : outInv2 m d w 0 = bigSep Finset.univ fun c8 : Fin 8 => o2Loc d ↦[outWin (win8 w c8)]{fullShare} m (o2Loc d) :=
  winInv_zero (ℓ := o2Loc d) (fun c8 => outWin (win8 w c8)) (G2 m d) (m (o2Loc d))
theorem outInv2_four : outInv2 m d w 4 = bigSep Finset.univ fun c8 : Fin 8 => o2Loc d ↦[outWin (win8 w c8)]{fullShare} G2 m d :=
  winInv_four (ℓ := o2Loc d) (fun c8 => outWin (win8 w c8)) (G2 m d) (m (o2Loc d))
theorem outInv2_peel (k : Fin 4) :
    outInv2 m d w k.val ⊢ iprop((o2Loc d ↦[outWin (win8 w (kwin k 0))]{fullShare} m (o2Loc d))
      ∗ (o2Loc d ↦[outWin (win8 w (kwin k 1))]{fullShare} m (o2Loc d)) ∗ outRest2 m d w k) :=
  Entails.of_eq (winInv_peel_eq (ℓ := o2Loc d) (fun c8 => outWin (win8 w c8)) (G2 m d) (m (o2Loc d)) k)
theorem outInv2_put (k : Fin 4) :
    iprop((o2Loc d ↦[outWin (win8 w (kwin k 0))]{fullShare} G2 m d)
      ∗ (o2Loc d ↦[outWin (win8 w (kwin k 1))]{fullShare} G2 m d) ∗ outRest2 m d w k) ⊢ outInv2 m d w (k.val + 1) :=
  Entails.of_eq (winInv_put_eq (ℓ := o2Loc d) (fun c8 => outWin (win8 w c8)) (G2 m d) (m (o2Loc d)) k)

end Cert.Proof.KWin

end
-- ==== Proof.KLand.lean ====
/-
  What a tile's three landing buffers hold once its rows of the index arrays have been copied in, and where
  each word comes from.

  Worker w = 2 s + c copies rows 4 w … 4 w + 3 of each reshaped index array [128, 128] into a landing buffer
  [4, 128].  Entry (a, b) of the landing buffer is entry (4 w + a, b) of the reshaped array, whose row-major
  position 128 (4 w + a) + b = 512 w + 128 a + b is the position of word 512 w + 128 a + b of the index column
  [16384, 1] it was reshaped from.  The loads of sixteen words from a landing buffer read at (row, column) =
  (k, 16 g): loop trip k, group g.
-/
import proofs.«206842_g87686052315543_cont_sun_m_497_29_alg».proof.Proof.KRes
import proofs.«206842_g87686052315543_cont_sun_m_497_29_alg».proof.Proof.Gen.Kernel
import Idealize.ShloMosaic.Lib.ValueIdx
import Idealize.ShloMosaic.Lib.Pipeline.Value

noncomputable section

namespace Cert.Proof.KLand

open Cert.Kernel Cert.Kernel.Gen Cert.Proof.KRes
open Idealize.ShloMosaic Idealize.ShloMosaic.ValueIdx
open Idealize.ShloMosaic.SparseCore (S V T)

variable {F : FTy → Type} (m : (ℓ : Loc nD τ sig) → Buf (Elt F) ℓ) (d : Dev nD) (L : grid0.Coords)

local notation "uid0W" => (Memref.whole Cert.Kernel.main_v0_scv : Memref Cert.Kernel.sig Kind.scVector Space.hbm Cert.Kernel.S128x128 EltTy.i32)
local notation "uid1W" => (Memref.whole Cert.Kernel.main_v1_scv : Memref Cert.Kernel.sig Kind.scVector Space.hbm Cert.Kernel.S128x128 EltTy.i32)
local notation "uid2W" => (Memref.whole Cert.Kernel.main_v2_scv : Memref Cert.Kernel.sig Kind.scVector Space.hbm Cert.Kernel.S128x128 EltTy.i32)
local notation "l0W" => (Memref.whole Cert.Kernel.cc0_scratch0 : Memref Cert.Kernel.sig Kind.scVector Space.vmem Cert.Kernel.S4x128 EltTy.i32)
local notation "l1W" => (Memref.whole Cert.Kernel.cc0_scratch1 : Memref Cert.Kernel.sig Kind.scVector Space.vmem Cert.Kernel.S4x128 EltTy.i32)
local notation "l2W" => (Memref.whole Cert.Kernel.cc0_scratch2 : Memref Cert.Kernel.sig Kind.scVector Space.vmem Cert.Kernel.S4x128 EltTy.i32)

/-! ## The rows a tile copies -/

/-- rows 4 w … 4 w + 3 of the reshaped index arrays, as the program spells the copies' sources -/
abbrev idRow0 (L : grid0.Coords) := (uid0W).slice (Rect.unit (s := S128x128) (k0_off1 L) S4x128.size (k0_off1_inb L)) (fun _ => rfl)
abbrev idRow1 (L : grid0.Coords) := (uid1W).slice (Rect.unit (s := S128x128) (k0_off1 L) S4x128.size (k0_off1_inb L)) (fun _ => rfl)
abbrev idRow2 (L : grid0.Coords) := (uid2W).slice (Rect.unit (s := S128x128) (k0_off1 L) S4x128.size (k0_off1_inb L)) (fun _ => rfl)

/-- The first row a tile copies is row 4 w. -/
theorem k0_off1_wid : k0_off1 L = ![4 * (wid L).val, 0] := by
  rw [k0_off1_eq]
  show ![8 * (L 1).val + 4 * (L 0).val, 0] = ![4 * (2 * (L 1).val + (L 0).val), 0]
  congr 1; omega

/-! ## What lands -/

/-- What landing buffer 0 holds after the copy: entry (a, b) is entry (4 w + a, b) of reshaped index array 0. -/
def lands0 : Buf (Elt F) ((V d (cV L) (jV L)).loc cc0_scratch0) := (idRow0 L).view.read (Elt F) (ids2_0 m d)

/-- The copy overwrites the whole landing buffer, so what it held before does not matter. -/
theorem write_lands0 (fs : Buf (Elt F) ((l0W).view.loc (V d (cV L) (jV L)))) :
    (l0W).view.write (Elt F) fs (ReadAs.same.apply ((idRow0 L).view.read (Elt F) (ids2_0 m d))) Finset.univ = lands0 m d L :=
  View.write_whole_univ _ _ _

/-- Word (a, b) of landing buffer 0 is word 512 w + 128 a + b of index column 0: both sit at row-major position
    128 (4 w + a) + b of the reshaped array. -/
theorem lands0_word (a : Fin 4) (b : Fin 128) :
    lands0 m d L (ix2 a b)
      = m (a0Loc d) (ix2 (⟨512 * (wid L).val + 128 * a.val + b.val, by have := (wid L).isLt; omega⟩ : Fin 16384) (0 : Fin 1)) := by
  unfold lands0
  rw [View.read_apply]
  refine (cast_eq _ _).trans ?_
  unfold ids2_0
  refine shapeCast_apply _ _ _ _ ?_
  refine (Shape.rowMajor_val_two (d := ![16384, 1]) _).trans ((Shape.rowMajor_val_two (d := ![128, 128]) _).trans ?_).symm
  show (k0_off1 L 0 + 1 * a.val) * 128 + (k0_off1 L 1 + 1 * b.val) = (512 * (wid L).val + 128 * a.val + b.val) * 1 + 0
  rw [k0_off1_wid]
  show (4 * (wid L).val + 1 * a.val) * 128 + (0 + 1 * b.val) = (512 * (wid L).val + 128 * a.val + b.val) * 1 + 0
  omega

/-- Every word that lands in buffer 0 names a row of table 0. -/
theorem lands0_lt (hpre : PreOK m) : ∀ j, (lands0 m d L j).toNat < 1000000 := by
  intro j
  have e := (congrArg (lands0 m d L) (eq_ix2 (n0 := 4) (n1 := 128) j)).trans (lands0_word m d L _ _)
  rw [e]
  exact (hpre d).1 _

/-- What landing buffer 1 holds after the copy: entry (a, b) is entry (4 w + a, b) of reshaped index array 1. -/
def lands1 : Buf (Elt F) ((V d (cV L) (jV L)).loc cc0_scratch1) := (idRow1 L).view.read (Elt F) (ids2_1 m d)

/-- The copy overwrites the whole landing buffer, so what it held before does not matter. -/
theorem write_lands1 (fs : Buf (Elt F) ((l1W).view.loc (V d (cV L) (jV L)))) :
    (l1W).view.write (Elt F) fs (ReadAs.same.apply ((idRow1 L).view.read (Elt F) (ids2_1 m d))) Finset.univ = lands1 m d L :=
  View.write_whole_univ _ _ _

/-- Word (a, b) of landing buffer 1 is word 512 w + 128 a + b of index column 1: both sit at row-major position
    128 (4 w + a) + b of the reshaped array. -/
theorem lands1_word (a : Fin 4) (b : Fin 128) :
    lands1 m d L (ix2 a b)
      = m (a1Loc d) (ix2 (⟨512 * (wid L).val + 128 * a.val + b.val, by have := (wid L).isLt; omega⟩ : Fin 16384) (0 : Fin 1)) := by
  unfold lands1
  rw [View.read_apply]
  refine (cast_eq _ _).trans ?_
  unfold ids2_1
  refine shapeCast_apply _ _ _ _ ?_
  refine (Shape.rowMajor_val_two (d := ![16384, 1]) _).trans ((Shape.rowMajor_val_two (d := ![128, 128]) _).trans ?_).symm
  show (k0_off1 L 0 + 1 * a.val) * 128 + (k0_off1 L 1 + 1 * b.val) = (512 * (wid L).val + 128 * a.val + b.val) * 1 + 0
  rw [k0_off1_wid]
  show (4 * (wid L).val + 1 * a.val) * 128 + (0 + 1 * b.val) = (512 * (wid L).val + 128 * a.val + b.val) * 1 + 0
  omega

/-- Every word that lands in buffer 1 names a row of table 1. -/
theorem lands1_lt (hpre : PreOK m) : ∀ j, (lands1 m d L j).toNat < 1000000 := by
  intro j
  have e := (congrArg (lands1 m d L) (eq_ix2 (n0 := 4) (n1 := 128) j)).trans (lands1_word m d L _ _)
  rw [e]
  exact (hpre d).2.1 _

/-- What landing buffer 2 holds after the copy: entry (a, b) is entry (4 w + a, b) of reshaped index array 2. -/
def lands2 : Buf (Elt F) ((V d (cV L) (jV L)).loc cc0_scratch2) := (idRow2 L).view.read (Elt F) (ids2_2 m d)

/-- The copy overwrites the whole landing buffer, so what it held before does not matter. -/
theorem write_lands2 (fs : Buf (Elt F) ((l2W).view.loc (V d (cV L) (jV L)))) :
    (l2W).view.write (Elt F) fs (ReadAs.same.apply ((idRow2 L).view.read (Elt F) (ids2_2 m d))) Finset.univ = lands2 m d L :=
  View.write_whole_univ _ _ _

/-- Word (a, b) of landing buffer 2 is word 512 w + 128 a + b of index column 2: both sit at row-major position
    128 (4 w + a) + b of the reshaped array. -/
theorem lands2_word (a : Fin 4) (b : Fin 128) :
    lands2 m d L (ix2 a b)
      = m (a2Loc d) (ix2 (⟨512 * (wid L).val + 128 * a.val + b.val, by have := (wid L).isLt; omega⟩ : Fin 16384) (0 : Fin 1)) := by
  unfold lands2
  rw [View.read_apply]
  refine (cast_eq _ _).trans ?_
  unfold ids2_2
  refine shapeCast_apply _ _ _ _ ?_
  refine (Shape.rowMajor_val_two (d := ![16384, 1]) _).trans ((Shape.rowMajor_val_two (d := ![128, 128]) _).trans ?_).symm
  show (k0_off1 L 0 + 1 * a.val) * 128 + (k0_off1 L 1 + 1 * b.val) = (512 * (wid L).val + 128 * a.val + b.val) * 1 + 0
  rw [k0_off1_wid]
  show (4 * (wid L).val + 1 * a.val) * 128 + (0 + 1 * b.val) = (512 * (wid L).val + 128 * a.val + b.val) * 1 + 0
  omega

/-- Every word that lands in buffer 2 names a row of table 2. -/
theorem lands2_lt (hpre : PreOK m) : ∀ j, (lands2 m d L j).toNat < 100000 := by
  intro j
  have e := (congrArg (lands2 m d L) (eq_ix2 (n0 := 4) (n1 := 128) j)).trans (lands2_word m d L _ _)
  rw [e]
  exact (hpre d).2.2 _

/-! ## Where the loads of sixteen index words read

In trip k of a loop the eight loads read the landing buffer at flat position 128 k + 16 g, g = 0 … 7, which the kernel's
word arithmetic splits as row (128 k + 16 g) / 128 = k and column (128 k + 16 g) % 128 = 16 g. -/

/-- the first lookup's loop -/
theorem k0_off2_eq : ∀ k : Fin k0_t1_loop.trips, k0_off2 k = ![k.val, 0] := by decide +kernel
theorem k0_off19_eq : ∀ k : Fin k0_t1_loop.trips, k0_off19 k = ![k.val, 16] := by decide +kernel
theorem k0_off36_eq : ∀ k : Fin k0_t1_loop.trips, k0_off36 k = ![k.val, 32] := by decide +kernel
theorem k0_off53_eq : ∀ k : Fin k0_t1_loop.trips, k0_off53 k = ![k.val, 48] := by decide +kernel
theorem k0_off70_eq : ∀ k : Fin k0_t1_loop.trips, k0_off70 k = ![k.val, 64] := by decide +kernel
theorem k0_off87_eq : ∀ k : Fin k0_t1_loop.trips, k0_off87 k = ![k.val, 80] := by decide +kernel
theorem k0_off104_eq : ∀ k : Fin k0_t1_loop.trips, k0_off104 k = ![k.val, 96] := by decide +kernel
theorem k0_off121_eq : ∀ k : Fin k0_t1_loop.trips, k0_off121 k = ![k.val, 112] := by decide +kernel
/-- the second lookup's loop -/
theorem k0_off266_eq : ∀ k : Fin k0_t2_loop.trips, k0_off266 k = ![k.val, 0] := by decide +kernel
theorem k0_off283_eq : ∀ k : Fin k0_t2_loop.trips, k0_off283 k = ![k.val, 16] := by decide +kernel
theorem k0_off300_eq : ∀ k : Fin k0_t2_loop.trips, k0_off300 k = ![k.val, 32] := by decide +kernel
theorem k0_off317_eq : ∀ k : Fin k0_t2_loop.trips, k0_off317 k = ![k.val, 48] := by decide +kernel
theorem k0_off334_eq : ∀ k : Fin k0_t2_loop.trips, k0_off334 k = ![k.val, 64] := by decide +kernel
theorem k0_off351_eq : ∀ k : Fin k0_t2_loop.trips, k0_off351 k = ![k.val, 80] := by decide +kernel
theorem k0_off368_eq : ∀ k : Fin k0_t2_loop.trips, k0_off368 k = ![k.val, 96] := by decide +kernel
theorem k0_off385_eq : ∀ k : Fin k0_t2_loop.trips, k0_off385 k = ![k.val, 112] := by decide +kernel
/-- the third lookup's loop -/
theorem k0_off530_eq : ∀ k : Fin k0_t3_loop.trips, k0_off530 k = ![k.val, 0] := by decide +kernel
theorem k0_off547_eq : ∀ k : Fin k0_t3_loop.trips, k0_off547 k = ![k.val, 16] := by decide +kernel
theorem k0_off564_eq : ∀ k : Fin k0_t3_loop.trips, k0_off564 k = ![k.val, 32] := by decide +kernel
theorem k0_off581_eq : ∀ k : Fin k0_t3_loop.trips, k0_off581 k = ![k.val, 48] := by decide +kernel
theorem k0_off598_eq : ∀ k : Fin k0_t3_loop.trips, k0_off598 k = ![k.val, 64] := by decide +kernel
theorem k0_off615_eq : ∀ k : Fin k0_t3_loop.trips, k0_off615 k = ![k.val, 80] := by decide +kernel
theorem k0_off632_eq : ∀ k : Fin k0_t3_loop.trips, k0_off632 k = ![k.val, 96] := by decide +kernel
theorem k0_off649_eq : ∀ k : Fin k0_t3_loop.trips, k0_off649 k = ![k.val, 112] := by decide +kernel

end Cert.Proof.KLand

end
-- ==== Proof.KJoin.lean ====
/-
  One points-to as a list of pieces, and a list of pieces as one points-to.

  Separating conjunction is associative and commutative with unit `emp` up to equality, so an iterated conjunction over
  the numbers below `n` is the conjunction of the list of its `n` members in order.  A points-to over a set that is the
  union of a list of pairwise disjoint sets is the conjunction of the points-tos over the sets; pieces held at different
  contents join into one points-to at any contents that agree with each piece's on that piece's set.  A whole buffer's
  points-to splits, along its share, into a remainder and any number of read tokens.
-/
import proofs.«206842_g87686052315543_cont_sun_m_497_29_alg».proof.Proof.KRes
import proofs.«206842_g87686052315543_cont_sun_m_497_29_alg».proof.Proof.Gen.Kernel
import Idealize.ShloMosaic.Rules.PointsTo
import Idealize.ShloMosaic.Lib.Transfers
import Idealize.ShloMosaic.Lib.Exec.Geometry

noncomputable section

namespace Cert.Proof.KJoin

open Cert.Kernel Cert.Kernel.Gen Cert.Proof.KRes

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The laws of separating conjunction, as equations -/

theorem sepE_emp (a : sProp 𝕄) : iprop(a ∗ emp) = a := BI.equiv_iff.mp _root_.Idealize.SL.BI.sep_emp
theorem empE_sep (a : sProp 𝕄) : iprop(emp ∗ a) = a := BI.equiv_iff.mp _root_.Idealize.SL.BI.emp_sep
theorem sepE_comm (a b : sProp 𝕄) : iprop(a ∗ b) = iprop(b ∗ a) :=
  _root_.Idealize.SL.BI.sep_comm.antisymm _root_.Idealize.SL.BI.sep_comm
theorem sepE_assoc (a b c : sProp 𝕄) : iprop((a ∗ b) ∗ c) = iprop(a ∗ b ∗ c) :=
  _root_.Idealize.SL.BI.sep_assoc.antisymm _root_.Idealize.SL.BI.sep_assoc'

/-! ## A list of assertions, conjoined -/

/-- The separating conjunction of a list, right-nested, ending in `emp`. -/
def sepL : List (sProp 𝕄) → sProp 𝕄
  | [] => iprop(emp)
  | a :: l => iprop(a ∗ sepL l)

theorem sepL_nil : sepL ([] : List (sProp 𝕄)) = iprop(emp) := rfl
theorem sepL_cons (a : sProp 𝕄) (l : List (sProp 𝕄)) : sepL (a :: l) = iprop(a ∗ sepL l) := rfl

theorem sepL_append (l₁ l₂ : List (sProp 𝕄)) : sepL (l₁ ++ l₂) = iprop(sepL l₁ ∗ sepL l₂) := by
  induction l₁ with
  | nil => rw [List.nil_append, sepL_nil, empE_sep]
  | cons a l ih => rw [List.cons_append, sepL_cons, sepL_cons, ih, sepE_assoc]

/-- The conjunction over the numbers below `n` is the conjunction of the list of its members in order. -/
theorem bigSep_range_eq_sepL (n : ℕ) (Φ : ℕ → sProp 𝕄) : bigSep (Finset.range n) Φ = sepL ((List.range n).map Φ) := by
  induction n with
  | zero => rw [Finset.range_zero, bigSep_empty]; rfl
  | succ n ih =>
    rw [Finset.range_add_one, bigSep_insert Finset.notMem_range_self, ih, List.range_succ, List.map_append, sepL_append,
      List.map_singleton, sepL_cons, sepL_nil, sepE_emp]
    exact sepE_comm _ _

/-- A run of `a + b` numbers is its first `a` and the `b` after them. -/
theorem bigSep_range_add (a b : ℕ) (Φ : ℕ → sProp 𝕄) :
    bigSep (Finset.range (a + b)) Φ = iprop(bigSep (Finset.range a) Φ ∗ bigSep (Finset.range b) fun i => Φ (a + i)) := by
  induction b with
  | zero => rw [Nat.add_zero, Finset.range_zero, bigSep_empty]; exact (sepE_emp _).symm
  | succ b ih =>
    rw [← Nat.add_assoc, Finset.range_add_one, bigSep_insert Finset.notMem_range_self, ih,
      Finset.range_add_one (n := b), bigSep_insert Finset.notMem_range_self]
    show iprop(Φ (a + b) ∗ bigSep (Finset.range a) Φ ∗ bigSep (Finset.range b) fun i => Φ (a + i))
      = iprop(bigSep (Finset.range a) Φ ∗ Φ (a + b) ∗ bigSep (Finset.range b) fun i => Φ (a + i))
    rw [← sepE_assoc, ← sepE_assoc, sepE_comm (Φ (a + b))]

/-! ## One location's points-to over a list of sets -/

section Pieces

variable {ℓ : Loc nD τ sig}

/-- A set disjoint from every set of a list is disjoint from their union. -/
theorem disjoint_foldr_union (s : Finset (Idx ℓ)) (Ss : List (Finset (Idx ℓ))) (h : ∀ t ∈ Ss, Disjoint s t) :
    Disjoint s (Ss.foldr (· ∪ ·) ∅) := by
  induction Ss with
  | nil => exact Finset.disjoint_empty_right _
  | cons t Ss ih =>
    exact Finset.disjoint_union_right.2 ⟨h t List.mem_cons_self, ih fun u hu => h u (List.mem_cons_of_mem _ hu)⟩

/-- Along two disjoint sets, as an equation. -/
theorem pointsTo_union_eq {A B : Finset (Idx ℓ)} (q : PosShare TreeShare) (f : Buf (Elt F) ℓ) (h : Disjoint A B) :
    (ℓ ↦[A ∪ B]{q} f : sProp 𝕄) = iprop((ℓ ↦[A]{q} f) ∗ ℓ ↦[B]{q} f) :=
  have hu : (ℓ ↦[A ∪ B]{q} f : sProp 𝕄) ⊣⊢ iprop((ℓ ↦[A]{q} f) ∗ ℓ ↦[B]{q} f) := pointsTo_union h
  BI.equiv_iff.mp ⟨hu.1, hu.2⟩

/-- A points-to over the union of a list of pairwise disjoint sets is the list of the points-tos over the sets. -/
theorem split_list (Ss : List (Finset (Idx ℓ))) (S : Finset (Idx ℓ)) (q : PosShare TreeShare) (f : Buf (Elt F) ℓ)
    (hd : Ss.Pairwise Disjoint) (hc : Ss.foldr (· ∪ ·) ∅ = S) :
    (ℓ ↦[S]{q} f : sProp 𝕄) = sepL (Ss.map fun s => ℓ ↦[s]{q} f) := by
  induction Ss generalizing S with
  | nil =>
    subst hc
    rw [List.foldr_nil, pointsTo_empty]; rfl
  | cons s Ss ih =>
    subst hc
    rw [List.foldr_cons, pointsTo_union_eq q f (disjoint_foldr_union s Ss (List.pairwise_cons.1 hd).1),
      ih _ (List.pairwise_cons.1 hd).2 rfl, List.map_cons, sepL_cons]

/-- Pieces held at different contents are one points-to at any contents that agree with each piece's on its set. -/
theorem join_list_eq (Ss : List (Finset (Idx ℓ))) (cs : List (Buf (Elt F) ℓ)) (G : Buf (Elt F) ℓ) (S : Finset (Idx ℓ))
    (q : PosShare TreeShare) (hlen : cs.length = Ss.length) (hd : Ss.Pairwise Disjoint) (hc : Ss.foldr (· ∪ ·) ∅ = S)
    (hag : ∀ i (hi : i < Ss.length), ∀ x ∈ Ss[i], (cs[i]'(hlen ▸ hi)) x = G x) :
    sepL (List.zipWith (fun s c => (ℓ ↦[s]{q} c : sProp 𝕄)) Ss cs) = (ℓ ↦[S]{q} G : sProp 𝕄) := by
  induction Ss generalizing S cs with
  | nil =>
    subst hc
    rw [List.zipWith_nil_left, List.foldr_nil, pointsTo_empty]; rfl
  | cons s Ss ih =>
    match cs, hlen, hag with
    | c :: cs', hlen, hag =>
      subst hc
      have hlen' : cs'.length = Ss.length := Nat.succ.inj hlen
      rw [List.zipWith_cons_cons, sepL_cons, List.foldr_cons,
        pointsTo_union_eq q G (disjoint_foldr_union s Ss (List.pairwise_cons.1 hd).1),
        ih cs' _ hlen' (List.pairwise_cons.1 hd).2 rfl fun i hi x hx => hag (i + 1) (Nat.succ_lt_succ hi) x hx,
        pointsTo_congr (I := s) (f := c) (g := G) (fun x hx => hag 0 (Nat.succ_pos _) x hx)]

theorem join_list (Ss : List (Finset (Idx ℓ))) (cs : List (Buf (Elt F) ℓ)) (G : Buf (Elt F) ℓ) (S : Finset (Idx ℓ))
    (q : PosShare TreeShare) (hlen : cs.length = Ss.length) (hd : Ss.Pairwise Disjoint) (hc : Ss.foldr (· ∪ ·) ∅ = S)
    (hag : ∀ i (hi : i < Ss.length), ∀ x ∈ Ss[i], (cs[i]'(hlen ▸ hi)) x = G x) :
    sepL (List.zipWith (fun s c => (ℓ ↦[s]{q} c : sProp 𝕄)) Ss cs) ⊢ ℓ ↦[S]{q} G :=
  Entails.of_eq (join_list_eq Ss cs G S q hlen hd hc hag)

/-! ## A table's read tokens -/

/-- A whole buffer at share `q`: what is left after 144 read tokens beside the first 16 tokens, and the other 128 as a list. -/
theorem toks_split (ℓ : Loc nD τ sig) (q : PosShare TreeShare) (f : Buf (Elt F) ℓ) :
    (ℓ ↦{q} f : sProp 𝕄) ⊣⊢ iprop(((ℓ ↦{Transfers.shareDrop q 144} f) ∗ bigSep (Finset.range 16) (fun i => ℓ ↦{Transfers.shareTokN q i} f))
      ∗ sepL ((List.range 128).map fun i => ℓ ↦{Transfers.shareTokN q (16 + i)} f)) := by
  have h : (ℓ ↦{q} f : sProp 𝕄) ⊣⊢ _ := Transfers.pointsTo_toks_range (ℓ := ℓ) (S := Finset.univ) (f := f) q 144
  rw [show (144 : ℕ) = 16 + 128 from rfl, bigSep_range_add 16 128, ← sepE_assoc, bigSep_range_eq_sepL 128] at h
  exact h

end Pieces

/-! ## The rows of a [64, 64] view

Row `r` of a view of 64 rows of 64 entries is the view restricted to the rectangle of one row from row `r`, every column.
Different rows are disjoint (their rectangles are apart on the row axis, and a view places its indices injectively), and
every element of the view lies in the row its row coordinate names.  So the view's elements are the union of its 64 rows,
pairwise disjoint. -/

section Rows

theorem inb_row (r : ℕ) (hr : r < 64) : ∀ a, (![r, 0] : Fin 2 → Nat) a + S1x64.size a ≤ S64x64.size a := by
  intro a
  match a with
  | 0 => show r + 1 ≤ 64; omega
  | 1 => show 0 + 64 ≤ 64; omega

/-- One row, every column. -/
abbrev rowR (r : ℕ) (hr : r < 64) : Rect S64x64 := Rect.unit (s := S64x64) ![r, 0] S1x64.size (inb_row r hr)

theorem rowR_disjoint (r r' : ℕ) (hr : r < 64) (hr' : r' < 64) (h : r ≠ r') : Disjoint (rowR r hr).set (rowR r' hr').set := by
  refine Rect.disjoint_of_separated _ _ (0 : Fin 2) ?_
  rcases Nat.lt_or_gt_of_ne h with h | h
  · refine .inl (.inr ?_)
    show r + 1 * (1 - 1) < r'
    omega
  · refine .inr (.inr ?_)
    show r' + 1 * (1 - 1) < r
    omega

theorem mem_rowR (y : S64x64.Idx) : y ∈ (rowR (y 0).val (y 0).isLt).set := by
  refine Rect.mem_set_unit.2 fun a => ?_
  match a with
  | 0 => exact ⟨Nat.le_refl _, Nat.lt_succ_self _⟩
  | 1 => exact ⟨Nat.zero_le _, by have h : (y 1).val < 64 := (y 1).isLt; show (y 1).val < 0 + 64; omega⟩

/-- An element of a union of a list of sets is in one of them. -/
theorem mem_foldr_union {α : Type} [DecidableEq α] (Ls : List (Finset α)) (x : α) :
    x ∈ Ls.foldr (· ∪ ·) ∅ ↔ ∃ s ∈ Ls, x ∈ s := by
  induction Ls with
  | nil => simp
  | cons t Ls ih => rw [List.foldr_cons, Finset.mem_union, ih]; simp

variable {κ : Kind} (v : View sig κ Space.vmem S64x64 EltTy.f32)

/-- The element sets of the 64 rows, in order. -/
def rowSets : List (Finset v.ty.Idx) := List.ofFn fun r : Fin 64 => (v.slice (rowR r.val r.isLt)).set

theorem rowSets_length : (rowSets v).length = 64 := List.length_ofFn

theorem rowSets_pairwise : (rowSets v).Pairwise Disjoint := by
  unfold rowSets
  rw [List.pairwise_ofFn]
  intro i j hij
  rw [View.set_slice, View.set_slice, Finset.disjoint_map]
  exact rowR_disjoint _ _ _ _ (Nat.ne_of_lt hij)

theorem rowSets_cover : (rowSets v).foldr (· ∪ ·) ∅ = v.set := by
  ext x
  rw [mem_foldr_union]
  constructor
  · rintro ⟨s, hs, hx⟩
    obtain ⟨r, rfl⟩ := (List.mem_ofFn' _ _).1 hs
    exact View.set_slice_subset v _ hx
  · intro hx
    obtain ⟨y, -, rfl⟩ := Finset.mem_map.1 hx
    refine ⟨(v.slice (rowR (y 0).val (y 0).isLt)).set, (List.mem_ofFn' _ _).2 ⟨y 0, rfl⟩, ?_⟩
    rw [View.set_slice]
    exact Finset.mem_map_of_mem _ (mem_rowR y)

end Rows

/-! ## A list's conjunction without the closing `emp`, and a family over `Fin 64` as its 64 members -/

/-- The separating conjunction of a list, right-nested; a one-member list is its member. -/
def sepN : List (sProp 𝕄) → sProp 𝕄
  | [] => iprop(emp)
  | [a] => a
  | a :: b :: l => iprop(a ∗ sepN (b :: l))

theorem sepL_eq_sepN : ∀ l : List (sProp 𝕄), sepL l = sepN l
  | [] => rfl
  | [a] => sepE_emp a
  | a :: b :: l => by rw [sepL_cons, sepL_eq_sepN (b :: l)]; rfl

/-- A family over `Fin 64`, listed. -/
theorem ofFn64 {α : Type} (Φ : Fin 64 → α) :
    List.ofFn Φ = [Φ 0, Φ 1, Φ 2, Φ 3, Φ 4, Φ 5, Φ 6, Φ 7, Φ 8, Φ 9, Φ 10, Φ 11, Φ 12, Φ 13, Φ 14, Φ 15,
      Φ 16, Φ 17, Φ 18, Φ 19, Φ 20, Φ 21, Φ 22, Φ 23, Φ 24, Φ 25, Φ 26, Φ 27, Φ 28, Φ 29, Φ 30, Φ 31,
      Φ 32, Φ 33, Φ 34, Φ 35, Φ 36, Φ 37, Φ 38, Φ 39, Φ 40, Φ 41, Φ 42, Φ 43, Φ 44, Φ 45, Φ 46, Φ 47,
      Φ 48, Φ 49, Φ 50, Φ 51, Φ 52, Φ 53, Φ 54, Φ 55, Φ 56, Φ 57, Φ 58, Φ 59, Φ 60, Φ 61, Φ 62, Φ 63] := rfl

/-- The conjunction of a family over `Fin 64`, written out. -/
theorem sepN_ofFn64 (Φ : Fin 64 → sProp 𝕄) :
    sepN (List.ofFn Φ) = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15
      ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31
      ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47
      ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63) := by
  rw [ofFn64]; rfl

/-! ## A [64, 64] view held whole, and held row by row -/

section RowsPts

variable (c : Thread nD τ) (v : View sig c.2.kind Space.vmem S64x64 EltTy.f32)

/-- The view's elements held at `f` are its 64 rows held at `f`. -/
theorem rows_split (f : Buf (Elt F) (v.loc c)) :
    (v.loc c ↦[v.set]{fullShare} f : sProp 𝕄)
      = sepN (List.ofFn fun r : Fin 64 => (v.loc c ↦[(v.slice (rowR r.val r.isLt)).set]{fullShare} f : sProp 𝕄)) := by
  rw [split_list (rowSets v) v.set fullShare f (rowSets_pairwise v) (rowSets_cover v), sepL_eq_sepN]
  unfold rowSets
  rw [List.map_ofFn]
  rfl

/-- The 64 rows, row `r` held at contents that agree with `G` on row `r`, are the view's elements held at `G`. -/
theorem rows_join (cs : Fin 64 → Buf (Elt F) (v.loc c)) (G : Buf (Elt F) (v.loc c))
    (hag : ∀ (r : Fin 64), ∀ x ∈ (v.slice (rowR r.val r.isLt)).set, cs r x = G x) :
    sepN (List.ofFn fun r : Fin 64 => (v.loc c ↦[(v.slice (rowR r.val r.isLt)).set]{fullShare} cs r : sProp 𝕄))
      = (v.loc c ↦[v.set]{fullShare} G : sProp 𝕄) := by
  rw [rows_split c v G]
  refine congrArg sepN (congrArg List.ofFn (funext fun r => ?_))
  exact pointsTo_congr (hag r)

end RowsPts

/-! ## A [2, 64, 64] view and its two slots

Slot `b` is the rectangle of one plane from plane `b`, every row and column.  The two planes are apart on the first axis
and every element lies in the plane its first coordinate names, so a view of the whole array is held exactly when its
two slots are. -/

section TwoSlots

abbrev slotR0 : Rect S2x64x64 := Rect.unit (s := S2x64x64) ![0, 0, 0] S1x64x64.size inb_S2x64x64_S1x64x64_0_0_0
abbrev slotR1 : Rect S2x64x64 := Rect.unit (s := S2x64x64) ![1, 0, 0] S1x64x64.size inb_S2x64x64_S1x64x64_1_0_0

theorem slotR_disjoint : Disjoint slotR0.set slotR1.set :=
  Rect.disjoint_of_separated _ _ (0 : Fin 3) (.inl (.inr (by show 0 + 1 * (1 - 1) < 1; omega)))

theorem slotR_cover : slotR0.set ∪ slotR1.set = Finset.univ := by
  ext i
  simp only [Finset.mem_union, Finset.mem_univ, iff_true]
  have h0 : (i 0).val < 2 := (i 0).isLt
  have h1 : (i 1).val < 64 := (i 1).isLt
  have h2 : (i 2).val < 64 := (i 2).isLt
  rcases Nat.lt_or_ge (i 0).val 1 with h | h
  · refine .inl (Rect.mem_set_unit.2 fun a => ?_)
    match a with
    | 0 => exact ⟨Nat.zero_le _, by show (i 0).val < 0 + 1; omega⟩
    | 1 => exact ⟨Nat.zero_le _, by show (i 1).val < 0 + 64; omega⟩
    | 2 => exact ⟨Nat.zero_le _, by show (i 2).val < 0 + 64; omega⟩
  · refine .inr (Rect.mem_set_unit.2 fun a => ?_)
    match a with
    | 0 => exact ⟨h, by show (i 0).val < 1 + 1; omega⟩
    | 1 => exact ⟨Nat.zero_le _, by show (i 1).val < 0 + 64; omega⟩
    | 2 => exact ⟨Nat.zero_le _, by show (i 2).val < 0 + 64; omega⟩

variable (c : Thread nD τ) (w : View sig c.2.kind Space.vmem S2x64x64 EltTy.f32)

theorem slots_union_set : ((w.slice slotR0).set : Finset w.ty.Idx) ∪ ((w.slice slotR1).set : Finset w.ty.Idx) = w.set := by
  rw [View.set_slice, View.set_slice, ← Finset.map_union, slotR_cover]; rfl

theorem slots_disjoint_set : Disjoint ((w.slice slotR0).set : Finset w.ty.Idx) ((w.slice slotR1).set : Finset w.ty.Idx) := by
  rw [View.set_slice, View.set_slice, Finset.disjoint_map]; exact slotR_disjoint

/-- The whole view at `f` is its two slots at `f`. -/
theorem slots_split (q : PosShare TreeShare) (f : Buf (Elt F) (w.loc c)) :
    (w.loc c ↦[w.set]{q} f : sProp 𝕄)
      = iprop((w.loc c ↦[(w.slice slotR0).set]{q} f) ∗ (w.loc c ↦[(w.slice slotR1).set]{q} f)) :=
  (congrArg (fun s => (w.loc c ↦[s]{q} f : sProp 𝕄)) (slots_union_set c w).symm).trans
    (pointsTo_union_eq q f (slots_disjoint_set c w))

/-- The two slots at different contents are the whole view at the contents pieced from them. -/
theorem slots_join (q : PosShare TreeShare) (f0 f1 : Buf (Elt F) (w.loc c)) :
    iprop((w.loc c ↦[(w.slice slotR0).set]{q} f0) ∗ (w.loc c ↦[(w.slice slotR1).set]{q} f1))
      ⊢ (w.loc c ↦[w.set]{q} (((w.slice slotR1).set : Finset w.ty.Idx).piecewise f1 f0) : sProp 𝕄) :=
  (pointsTo_join (slots_disjoint_set c w)).trans
    (Entails.of_eq (congrArg (fun s => (w.loc c ↦[s]{q} (((w.slice slotR1).set : Finset w.ty.Idx).piecewise f1 f0) : sProp 𝕄))
      (slots_union_set c w)))

end TwoSlots

end Cert.Proof.KJoin

end
-- ==== Proof.KRows.lean ====
/-
  The staging buffer [2, 64, 64] held row by row.  Each slot [64, 64] is its 64 rows [1, 64]; a slot held at one
  contents is its 64 rows held at those contents, and 64 rows held at 64 contents are the slot held at the contents
  glued from them (entry (r, e) of the slot read from the r-th).
-/
import proofs.«206842_g87686052315543_cont_sun_m_497_29_alg».proof.Proof.KRes
import proofs.«206842_g87686052315543_cont_sun_m_497_29_alg».proof.Proof.KJoin
import Idealize.ShloMosaic.Lib.ValueIdx
import proofs.«206842_g87686052315543_cont_sun_m_497_29_alg».proof.Proof.Gen.Kernel

noncomputable section

namespace Cert.Proof.KRows

open Cert.Kernel Cert.Kernel.Gen Cert.Proof.KRes

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ
local notation "bufW" => (Memref.whole Cert.Kernel.cc0_scratch3 : Memref Cert.Kernel.sig Kind.scVector Space.vmem Cert.Kernel.S2x64x64 EltTy.f32)

/-- the two slots, as the program spells them -/
abbrev slotM0 : Memref sig .scVector .vmem S64x64 .f32 :=
  ((bufW).slice (Rect.unit (s := S2x64x64) ![0, 0, 0] S1x64x64.size inb_S2x64x64_S1x64x64_0_0_0) (fun _ => rfl)).squeeze S64x64 squeezes_S1x64x64_S64x64
abbrev slotM1 : Memref sig .scVector .vmem S64x64 .f32 :=
  ((bufW).slice (Rect.unit (s := S2x64x64) ![1, 0, 0] S1x64x64.size inb_S2x64x64_S1x64x64_1_0_0) (fun _ => rfl)).squeeze S64x64 squeezes_S1x64x64_S64x64

theorem inb_row (r : Fin 64) : ∀ a, (![r.val, 0] : Fin 2 → Nat) a + S1x64.size a ≤ S64x64.size a := by
  intro a; have := r.isLt; match a with
  | ⟨0, _⟩ => show r.val + 1 ≤ 64; omega
  | ⟨1, _⟩ => show 0 + 64 ≤ 64; omega
/-- row r of a slot, as the program spells it -/
abbrev rowM0 (r : Fin 64) : Memref sig .scVector .vmem S1x64 .f32 := (slotM0).slice (Rect.unit (s := S64x64) ![r.val, 0] S1x64.size (inb_row r)) (fun _ => rfl)
abbrev rowM1 (r : Fin 64) : Memref sig .scVector .vmem S1x64 .f32 := (slotM1).slice (Rect.unit (s := S64x64) ![r.val, 0] S1x64.size (inb_row r)) (fun _ => rfl)

variable (d : Dev nD) (L : grid0.Coords)

/-- the buffer's contents type, on the tile's thread -/
abbrev BufT : Type := Buf (Elt F) ((V d (cV L) (jV L)).loc cc0_scratch3)

/-- a slot held at f; a row held at c -/
abbrev slotPts0 (f : BufT (F := F) d L) : sProp 𝕄 := (slotM0).view.loc (V d (cV L) (jV L)) ↦[(slotM0).view.set]{fullShare} f
abbrev slotPts1 (f : BufT (F := F) d L) : sProp 𝕄 := (slotM1).view.loc (V d (cV L) (jV L)) ↦[(slotM1).view.set]{fullShare} f
abbrev rowPts0 (r : Fin 64) (c : BufT (F := F) d L) : sProp 𝕄 := (rowM0 r).view.loc (V d (cV L) (jV L)) ↦[(rowM0 r).view.set]{fullShare} c
abbrev rowPts1 (r : Fin 64) (c : BufT (F := F) d L) : sProp 𝕄 := (rowM1 r).view.loc (V d (cV L) (jV L)) ↦[(rowM1 r).view.set]{fullShare} c

/-- The contents glued from 64 rows' contents: the buffer entry in row r (of either slot) is read from the r-th. -/
def glue (cs : Fin 64 → BufT (F := F) d L) : BufT (F := F) d L := fun i => cs (i 1) i

/-- A slot at f is its 64 rows at f. -/
theorem slot0_split (f : BufT (F := F) d L) :
    slotPts0 d L f = iprop(rowPts0 d L 0 f ∗ rowPts0 d L 1 f ∗ rowPts0 d L 2 f ∗ rowPts0 d L 3 f ∗ rowPts0 d L 4 f ∗ rowPts0 d L 5 f ∗ rowPts0 d L 6 f ∗ rowPts0 d L 7 f ∗ rowPts0 d L 8 f ∗ rowPts0 d L 9 f ∗ rowPts0 d L 10 f ∗ rowPts0 d L 11 f ∗ rowPts0 d L 12 f ∗ rowPts0 d L 13 f ∗ rowPts0 d L 14 f ∗ rowPts0 d L 15 f ∗ rowPts0 d L 16 f ∗ rowPts0 d L 17 f ∗ rowPts0 d L 18 f ∗ rowPts0 d L 19 f ∗ rowPts0 d L 20 f ∗ rowPts0 d L 21 f ∗ rowPts0 d L 22 f ∗ rowPts0 d L 23 f ∗ rowPts0 d L 24 f ∗ rowPts0 d L 25 f ∗ rowPts0 d L 26 f ∗ rowPts0 d L 27 f ∗ rowPts0 d L 28 f ∗ rowPts0 d L 29 f ∗ rowPts0 d L 30 f ∗ rowPts0 d L 31 f ∗ rowPts0 d L 32 f ∗ rowPts0 d L 33 f ∗ rowPts0 d L 34 f ∗ rowPts0 d L 35 f ∗ rowPts0 d L 36 f ∗ rowPts0 d L 37 f ∗ rowPts0 d L 38 f ∗ rowPts0 d L 39 f ∗ rowPts0 d L 40 f ∗ rowPts0 d L 41 f ∗ rowPts0 d L 42 f ∗ rowPts0 d L 43 f ∗ rowPts0 d L 44 f ∗ rowPts0 d L 45 f ∗ rowPts0 d L 46 f ∗ rowPts0 d L 47 f ∗ rowPts0 d L 48 f ∗ rowPts0 d L 49 f ∗ rowPts0 d L 50 f ∗ rowPts0 d L 51 f ∗ rowPts0 d L 52 f ∗ rowPts0 d L 53 f ∗ rowPts0 d L 54 f ∗ rowPts0 d L 55 f ∗ rowPts0 d L 56 f ∗ rowPts0 d L 57 f ∗ rowPts0 d L 58 f ∗ rowPts0 d L 59 f ∗ rowPts0 d L 60 f ∗ rowPts0 d L 61 f ∗ rowPts0 d L 62 f ∗ rowPts0 d L 63 f) := by
  have h := KJoin.rows_split (F := F) (V d (cV L) (jV L)) (slotM0).view f
  rw [KJoin.sepN_ofFn64] at h
  exact h
theorem slot1_split (f : BufT (F := F) d L) :
    slotPts1 d L f = iprop(rowPts1 d L 0 f ∗ rowPts1 d L 1 f ∗ rowPts1 d L 2 f ∗ rowPts1 d L 3 f ∗ rowPts1 d L 4 f ∗ rowPts1 d L 5 f ∗ rowPts1 d L 6 f ∗ rowPts1 d L 7 f ∗ rowPts1 d L 8 f ∗ rowPts1 d L 9 f ∗ rowPts1 d L 10 f ∗ rowPts1 d L 11 f ∗ rowPts1 d L 12 f ∗ rowPts1 d L 13 f ∗ rowPts1 d L 14 f ∗ rowPts1 d L 15 f ∗ rowPts1 d L 16 f ∗ rowPts1 d L 17 f ∗ rowPts1 d L 18 f ∗ rowPts1 d L 19 f ∗ rowPts1 d L 20 f ∗ rowPts1 d L 21 f ∗ rowPts1 d L 22 f ∗ rowPts1 d L 23 f ∗ rowPts1 d L 24 f ∗ rowPts1 d L 25 f ∗ rowPts1 d L 26 f ∗ rowPts1 d L 27 f ∗ rowPts1 d L 28 f ∗ rowPts1 d L 29 f ∗ rowPts1 d L 30 f ∗ rowPts1 d L 31 f ∗ rowPts1 d L 32 f ∗ rowPts1 d L 33 f ∗ rowPts1 d L 34 f ∗ rowPts1 d L 35 f ∗ rowPts1 d L 36 f ∗ rowPts1 d L 37 f ∗ rowPts1 d L 38 f ∗ rowPts1 d L 39 f ∗ rowPts1 d L 40 f ∗ rowPts1 d L 41 f ∗ rowPts1 d L 42 f ∗ rowPts1 d L 43 f ∗ rowPts1 d L 44 f ∗ rowPts1 d L 45 f ∗ rowPts1 d L 46 f ∗ rowPts1 d L 47 f ∗ rowPts1 d L 48 f ∗ rowPts1 d L 49 f ∗ rowPts1 d L 50 f ∗ rowPts1 d L 51 f ∗ rowPts1 d L 52 f ∗ rowPts1 d L 53 f ∗ rowPts1 d L 54 f ∗ rowPts1 d L 55 f ∗ rowPts1 d L 56 f ∗ rowPts1 d L 57 f ∗ rowPts1 d L 58 f ∗ rowPts1 d L 59 f ∗ rowPts1 d L 60 f ∗ rowPts1 d L 61 f ∗ rowPts1 d L 62 f ∗ rowPts1 d L 63 f) := by
  have h := KJoin.rows_split (F := F) (V d (cV L) (jV L)) (slotM1).view f
  rw [KJoin.sepN_ofFn64] at h
  exact h

/-! Where a slot's entries sit in the buffer: entry (r, e) of a slot is in row r of the buffer, and so is every element of
    the slot's row r.  Hence the glued contents agree with the r-th contents on row r. -/

/-- Through slot 0, entry (r, e) has buffer row coordinate r. -/
theorem slot0_emb_coord (r e : Fin 64) : ((slotM0).view.emb (ix2 r e)) 1 = r := by
  have hk : Shape.reshapeEquiv squeezes_S1x64x64_S64x64.numel_eq (ix2 r e) = (ix3 (0 : Fin 1) r e : S1x64x64.Idx) :=
    Shape.reshapeEquiv_eq_of_rowMajor _ (by
      rw [Shape.rowMajor_val_three, Shape.rowMajor_val_two]
      show (0 * 64 + r.val) * 64 + e.val = r.val * 64 + e.val
      omega)
  show ((Rect.unit (s := S2x64x64) ![0, 0, 0] S1x64x64.size inb_S2x64x64_S1x64x64_0_0_0).emb
    (Shape.reshapeEquiv squeezes_S1x64x64_S64x64.numel_eq (ix2 r e))) 1 = r
  rw [hk]
  exact Fin.ext (by show 0 + 1 * r.val = r.val; omega)
/-- Through slot 1, entry (r, e) has buffer row coordinate r. -/
theorem slot1_emb_coord (r e : Fin 64) : ((slotM1).view.emb (ix2 r e)) 1 = r := by
  have hk : Shape.reshapeEquiv squeezes_S1x64x64_S64x64.numel_eq (ix2 r e) = (ix3 (0 : Fin 1) r e : S1x64x64.Idx) :=
    Shape.reshapeEquiv_eq_of_rowMajor _ (by
      rw [Shape.rowMajor_val_three, Shape.rowMajor_val_two]
      show (0 * 64 + r.val) * 64 + e.val = r.val * 64 + e.val
      omega)
  show ((Rect.unit (s := S2x64x64) ![1, 0, 0] S1x64x64.size inb_S2x64x64_S1x64x64_1_0_0).emb
    (Shape.reshapeEquiv squeezes_S1x64x64_S64x64.numel_eq (ix2 r e))) 1 = r
  rw [hk]
  exact Fin.ext (by show 0 + 1 * r.val = r.val; omega)

/-- On the elements of row r of slot 0 the glued contents are the r-th contents. -/
theorem glue_agree0 (cs : Fin 64 → BufT (F := F) d L) (r : Fin 64) :
    ∀ x ∈ ((slotM0).view.slice (KJoin.rowR r.val r.isLt)).set, cs r x = glue d L cs x := by
  intro x hx
  obtain ⟨y, -, rfl⟩ := Finset.mem_map.1 hx
  have e : ((slotM0).view.slice (KJoin.rowR r.val r.isLt)).emb y = (slotM0).view.emb (ix2 r (y 1)) := by
    show (slotM0).view.emb ((KJoin.rowR r.val r.isLt).emb y) = _
    refine congrArg _ (funext fun a => Fin.ext ?_)
    match a with
    | ⟨0, _⟩ => have h : (y 0).val < 1 := (y 0).isLt; show r.val + 1 * (y 0).val = r.val; omega
    | ⟨1, _⟩ => show 0 + 1 * (y 1).val = (y 1).val; omega
  rw [e]
  exact (congrArg (fun k : Fin 64 => cs k ((slotM0).view.emb (ix2 r (y 1)))) (slot0_emb_coord r (y 1))).symm
theorem glue_agree1 (cs : Fin 64 → BufT (F := F) d L) (r : Fin 64) :
    ∀ x ∈ ((slotM1).view.slice (KJoin.rowR r.val r.isLt)).set, cs r x = glue d L cs x := by
  intro x hx
  obtain ⟨y, -, rfl⟩ := Finset.mem_map.1 hx
  have e : ((slotM1).view.slice (KJoin.rowR r.val r.isLt)).emb y = (slotM1).view.emb (ix2 r (y 1)) := by
    show (slotM1).view.emb ((KJoin.rowR r.val r.isLt).emb y) = _
    refine congrArg _ (funext fun a => Fin.ext ?_)
    match a with
    | ⟨0, _⟩ => have h : (y 0).val < 1 := (y 0).isLt; show r.val + 1 * (y 0).val = r.val; omega
    | ⟨1, _⟩ => show 0 + 1 * (y 1).val = (y 1).val; omega
  rw [e]
  exact (congrArg (fun k : Fin 64 => cs k ((slotM1).view.emb (ix2 r (y 1)))) (slot1_emb_coord r (y 1))).symm

/-- 64 rows at 64 contents are the slot at the glued contents. -/
theorem slot0_join (c0 c1 c2 c3 c4 c5 c6 c7 c8 c9 c10 c11 c12 c13 c14 c15 c16 c17 c18 c19 c20 c21 c22 c23 c24 c25 c26 c27 c28 c29 c30 c31 c32 c33 c34 c35 c36 c37 c38 c39 c40 c41 c42 c43 c44 c45 c46 c47 c48 c49 c50 c51 c52 c53 c54 c55 c56 c57 c58 c59 c60 c61 c62 c63 : BufT (F := F) d L) :
    iprop(rowPts0 d L 0 c0 ∗ rowPts0 d L 1 c1 ∗ rowPts0 d L 2 c2 ∗ rowPts0 d L 3 c3 ∗ rowPts0 d L 4 c4 ∗ rowPts0 d L 5 c5 ∗ rowPts0 d L 6 c6 ∗ rowPts0 d L 7 c7 ∗ rowPts0 d L 8 c8 ∗ rowPts0 d L 9 c9 ∗ rowPts0 d L 10 c10 ∗ rowPts0 d L 11 c11 ∗ rowPts0 d L 12 c12 ∗ rowPts0 d L 13 c13 ∗ rowPts0 d L 14 c14 ∗ rowPts0 d L 15 c15 ∗ rowPts0 d L 16 c16 ∗ rowPts0 d L 17 c17 ∗ rowPts0 d L 18 c18 ∗ rowPts0 d L 19 c19 ∗ rowPts0 d L 20 c20 ∗ rowPts0 d L 21 c21 ∗ rowPts0 d L 22 c22 ∗ rowPts0 d L 23 c23 ∗ rowPts0 d L 24 c24 ∗ rowPts0 d L 25 c25 ∗ rowPts0 d L 26 c26 ∗ rowPts0 d L 27 c27 ∗ rowPts0 d L 28 c28 ∗ rowPts0 d L 29 c29 ∗ rowPts0 d L 30 c30 ∗ rowPts0 d L 31 c31 ∗ rowPts0 d L 32 c32 ∗ rowPts0 d L 33 c33 ∗ rowPts0 d L 34 c34 ∗ rowPts0 d L 35 c35 ∗ rowPts0 d L 36 c36 ∗ rowPts0 d L 37 c37 ∗ rowPts0 d L 38 c38 ∗ rowPts0 d L 39 c39 ∗ rowPts0 d L 40 c40 ∗ rowPts0 d L 41 c41 ∗ rowPts0 d L 42 c42 ∗ rowPts0 d L 43 c43 ∗ rowPts0 d L 44 c44 ∗ rowPts0 d L 45 c45 ∗ rowPts0 d L 46 c46 ∗ rowPts0 d L 47 c47 ∗ rowPts0 d L 48 c48 ∗ rowPts0 d L 49 c49 ∗ rowPts0 d L 50 c50 ∗ rowPts0 d L 51 c51 ∗ rowPts0 d L 52 c52 ∗ rowPts0 d L 53 c53 ∗ rowPts0 d L 54 c54 ∗ rowPts0 d L 55 c55 ∗ rowPts0 d L 56 c56 ∗ rowPts0 d L 57 c57 ∗ rowPts0 d L 58 c58 ∗ rowPts0 d L 59 c59 ∗ rowPts0 d L 60 c60 ∗ rowPts0 d L 61 c61 ∗ rowPts0 d L 62 c62 ∗ rowPts0 d L 63 c63)
      ⊢ slotPts0 d L (glue d L ![c0, c1, c2, c3, c4, c5, c6, c7, c8, c9, c10, c11, c12, c13, c14, c15, c16, c17, c18, c19, c20, c21, c22, c23, c24, c25, c26, c27, c28, c29, c30, c31, c32, c33, c34, c35, c36, c37, c38, c39, c40, c41, c42, c43, c44, c45, c46, c47, c48, c49, c50, c51, c52, c53, c54, c55, c56, c57, c58, c59, c60, c61, c62, c63]) := by
  have key : ∀ cs : Fin 64 → BufT (F := F) d L,
      KJoin.sepN (List.ofFn fun r : Fin 64 => rowPts0 d L r (cs r)) = slotPts0 d L (glue d L cs) := fun cs =>
    KJoin.rows_join (F := F) (V d (cV L) (jV L)) (slotM0).view cs (glue d L cs) (glue_agree0 d L cs)
  have h := key ![c0, c1, c2, c3, c4, c5, c6, c7, c8, c9, c10, c11, c12, c13, c14, c15, c16, c17, c18, c19, c20, c21, c22, c23, c24, c25, c26, c27, c28, c29, c30, c31, c32, c33, c34, c35, c36, c37, c38, c39, c40, c41, c42, c43, c44, c45, c46, c47, c48, c49, c50, c51, c52, c53, c54, c55, c56, c57, c58, c59, c60, c61, c62, c63]
  rw [KJoin.sepN_ofFn64] at h
  simp only [Matrix.cons_val] at h
  exact Entails.of_eq h
theorem slot1_join (c0 c1 c2 c3 c4 c5 c6 c7 c8 c9 c10 c11 c12 c13 c14 c15 c16 c17 c18 c19 c20 c21 c22 c23 c24 c25 c26 c27 c28 c29 c30 c31 c32 c33 c34 c35 c36 c37 c38 c39 c40 c41 c42 c43 c44 c45 c46 c47 c48 c49 c50 c51 c52 c53 c54 c55 c56 c57 c58 c59 c60 c61 c62 c63 : BufT (F := F) d L) :
    iprop(rowPts1 d L 0 c0 ∗ rowPts1 d L 1 c1 ∗ rowPts1 d L 2 c2 ∗ rowPts1 d L 3 c3 ∗ rowPts1 d L 4 c4 ∗ rowPts1 d L 5 c5 ∗ rowPts1 d L 6 c6 ∗ rowPts1 d L 7 c7 ∗ rowPts1 d L 8 c8 ∗ rowPts1 d L 9 c9 ∗ rowPts1 d L 10 c10 ∗ rowPts1 d L 11 c11 ∗ rowPts1 d L 12 c12 ∗ rowPts1 d L 13 c13 ∗ rowPts1 d L 14 c14 ∗ rowPts1 d L 15 c15 ∗ rowPts1 d L 16 c16 ∗ rowPts1 d L 17 c17 ∗ rowPts1 d L 18 c18 ∗ rowPts1 d L 19 c19 ∗ rowPts1 d L 20 c20 ∗ rowPts1 d L 21 c21 ∗ rowPts1 d L 22 c22 ∗ rowPts1 d L 23 c23 ∗ rowPts1 d L 24 c24 ∗ rowPts1 d L 25 c25 ∗ rowPts1 d L 26 c26 ∗ rowPts1 d L 27 c27 ∗ rowPts1 d L 28 c28 ∗ rowPts1 d L 29 c29 ∗ rowPts1 d L 30 c30 ∗ rowPts1 d L 31 c31 ∗ rowPts1 d L 32 c32 ∗ rowPts1 d L 33 c33 ∗ rowPts1 d L 34 c34 ∗ rowPts1 d L 35 c35 ∗ rowPts1 d L 36 c36 ∗ rowPts1 d L 37 c37 ∗ rowPts1 d L 38 c38 ∗ rowPts1 d L 39 c39 ∗ rowPts1 d L 40 c40 ∗ rowPts1 d L 41 c41 ∗ rowPts1 d L 42 c42 ∗ rowPts1 d L 43 c43 ∗ rowPts1 d L 44 c44 ∗ rowPts1 d L 45 c45 ∗ rowPts1 d L 46 c46 ∗ rowPts1 d L 47 c47 ∗ rowPts1 d L 48 c48 ∗ rowPts1 d L 49 c49 ∗ rowPts1 d L 50 c50 ∗ rowPts1 d L 51 c51 ∗ rowPts1 d L 52 c52 ∗ rowPts1 d L 53 c53 ∗ rowPts1 d L 54 c54 ∗ rowPts1 d L 55 c55 ∗ rowPts1 d L 56 c56 ∗ rowPts1 d L 57 c57 ∗ rowPts1 d L 58 c58 ∗ rowPts1 d L 59 c59 ∗ rowPts1 d L 60 c60 ∗ rowPts1 d L 61 c61 ∗ rowPts1 d L 62 c62 ∗ rowPts1 d L 63 c63)
      ⊢ slotPts1 d L (glue d L ![c0, c1, c2, c3, c4, c5, c6, c7, c8, c9, c10, c11, c12, c13, c14, c15, c16, c17, c18, c19, c20, c21, c22, c23, c24, c25, c26, c27, c28, c29, c30, c31, c32, c33, c34, c35, c36, c37, c38, c39, c40, c41, c42, c43, c44, c45, c46, c47, c48, c49, c50, c51, c52, c53, c54, c55, c56, c57, c58, c59, c60, c61, c62, c63]) := by
  have key : ∀ cs : Fin 64 → BufT (F := F) d L,
      KJoin.sepN (List.ofFn fun r : Fin 64 => rowPts1 d L r (cs r)) = slotPts1 d L (glue d L cs) := fun cs =>
    KJoin.rows_join (F := F) (V d (cV L) (jV L)) (slotM1).view cs (glue d L cs) (glue_agree1 d L cs)
  have h := key ![c0, c1, c2, c3, c4, c5, c6, c7, c8, c9, c10, c11, c12, c13, c14, c15, c16, c17, c18, c19, c20, c21, c22, c23, c24, c25, c26, c27, c28, c29, c30, c31, c32, c33, c34, c35, c36, c37, c38, c39, c40, c41, c42, c43, c44, c45, c46, c47, c48, c49, c50, c51, c52, c53, c54, c55, c56, c57, c58, c59, c60, c61, c62, c63]
  rw [KJoin.sepN_ofFn64] at h
  simp only [Matrix.cons_val] at h
  exact Entails.of_eq h

/-- The whole buffer is its two slots (at one contents; joined back at some contents). -/
theorem buf_split (f : BufT (F := F) d L) :
    ((bufW).view.loc (V d (cV L) (jV L)) ↦{fullShare} f : sProp 𝕄) = iprop(slotPts0 d L f ∗ slotPts1 d L f) := by
  have h := KJoin.slots_split (F := F) (V d (cV L) (jV L)) (bufW).view fullShare f
  have e0 : (slotM0).view.set = ((bufW).view.slice KJoin.slotR0).set := View.set_reshape _ _
  have e1 : (slotM1).view.set = ((bufW).view.slice KJoin.slotR1).set := View.set_reshape _ _
  have hw : (bufW).view.set = Finset.univ := View.set_whole _
  rw [← e0, ← e1, hw] at h
  exact h
theorem buf_join (f0 f1 : BufT (F := F) d L) :
    iprop(slotPts0 d L f0 ∗ slotPts1 d L f1) ⊢ (iprop(∃ f, (bufW).view.loc (V d (cV L) (jV L)) ↦{fullShare} f) : sProp 𝕄) := by
  have h := KJoin.slots_join (F := F) (V d (cV L) (jV L)) (bufW).view fullShare f0 f1
  have e0 : (slotM0).view.set = ((bufW).view.slice KJoin.slotR0).set := View.set_reshape _ _
  have e1 : (slotM1).view.set = ((bufW).view.slice KJoin.slotR1).set := View.set_reshape _ _
  have hw : (bufW).view.set = Finset.univ := View.set_whole _
  have h01 : iprop(slotPts0 d L f0 ∗ slotPts1 d L f1)
      = iprop(((bufW).view.loc (V d (cV L) (jV L)) ↦[((bufW).view.slice KJoin.slotR0).set]{fullShare} f0)
        ∗ ((bufW).view.loc (V d (cV L) (jV L)) ↦[((bufW).view.slice KJoin.slotR1).set]{fullShare} f1) : sProp 𝕄) := by
    rw [← e0, ← e1]
  refine (Entails.of_eq h01).trans (h.trans ?_)
  rw [hw]
  iintro H
  iexists _
  iexact H

/-- Reading the glued contents through a slot at (r, e) reads the r-th contents there. -/
theorem glue_slot0 (cs : Fin 64 → BufT (F := F) d L) (r e : Fin 64) :
    glue d L cs ((slotM0).view.emb (ix2 r e)) = cs r ((slotM0).view.emb (ix2 r e)) := by
  show cs (((slotM0).view.emb (ix2 r e)) 1) _ = _
  rw [slot0_emb_coord]
theorem glue_slot1 (cs : Fin 64 → BufT (F := F) d L) (r e : Fin 64) :
    glue d L cs ((slotM1).view.emb (ix2 r e)) = cs r ((slotM1).view.emb (ix2 r e)) := by
  show cs (((slotM1).view.emb (ix2 r e)) 1) _ = _
  rw [slot1_emb_coord]
/-- and a row's own whole write, read at the slot's (r, e), is the payload's entry e. -/
theorem row0_write (r e : Fin 64) (f : BufT (F := F) d L) (pay : S1x64.Idx → Elt F .f32) :
    ((rowM0 r).view.writes (Elt F) f [⟨Rect.whole S1x64, pay⟩]) ((slotM0).view.emb (ix2 r e)) = pay (ix2 (0 : Fin 1) e) := by
  have hidx : (slotM0).view.emb (ix2 r e) = ((rowM0 r).view.slice (Rect.whole S1x64)).emb (ix2 (0 : Fin 1) e) := by
    show (slotM0).view.emb (ix2 r e)
      = (slotM0).view.emb ((Rect.unit (s := S64x64) ![r.val, 0] S1x64.size (inb_row r)).emb ((Rect.whole S1x64).emb (ix2 (0 : Fin 1) e)))
    rw [Rect.emb_whole_apply]
    refine congrArg _ (funext fun a => Fin.ext ?_)
    match a with
    | ⟨0, _⟩ => show r.val = r.val + 1 * 0; omega
    | ⟨1, _⟩ => show e.val = 0 + 1 * e.val; omega
  rw [View.writes_singleton, hidx, View.write_emb_of_mem _ _ (Finset.mem_univ _)]
  rfl
theorem row1_write (r e : Fin 64) (f : BufT (F := F) d L) (pay : S1x64.Idx → Elt F .f32) :
    ((rowM1 r).view.writes (Elt F) f [⟨Rect.whole S1x64, pay⟩]) ((slotM1).view.emb (ix2 r e)) = pay (ix2 (0 : Fin 1) e) := by
  have hidx : (slotM1).view.emb (ix2 r e) = ((rowM1 r).view.slice (Rect.whole S1x64)).emb (ix2 (0 : Fin 1) e) := by
    show (slotM1).view.emb (ix2 r e)
      = (slotM1).view.emb ((Rect.unit (s := S64x64) ![r.val, 0] S1x64.size (inb_row r)).emb ((Rect.whole S1x64).emb (ix2 (0 : Fin 1) e)))
    rw [Rect.emb_whole_apply]
    refine congrArg _ (funext fun a => Fin.ext ?_)
    match a with
    | ⟨0, _⟩ => show r.val = r.val + 1 * 0; omega
    | ⟨1, _⟩ => show e.val = 0 + 1 * e.val; omega
  rw [View.writes_singleton, hidx, View.write_emb_of_mem _ _ (Finset.mem_univ _)]
  rfl

end Cert.Proof.KRows

end
-- ==== Proof.KInv.lean ====
/-
  What the kernel's three loops keep between trips, and the small facts their proofs share.
-/
import proofs.«206842_g87686052315543_cont_sun_m_497_29_alg».proof.Defs
import proofs.«206842_g87686052315543_cont_sun_m_497_29_alg».proof.Proof.KRes
import proofs.«206842_g87686052315543_cont_sun_m_497_29_alg».proof.Proof.KWin
import proofs.«206842_g87686052315543_cont_sun_m_497_29_alg».proof.Proof.KLand
import proofs.«206842_g87686052315543_cont_sun_m_497_29_alg».proof.Proof.KRows
import proofs.«206842_g87686052315543_cont_sun_m_497_29_alg».proof.Proof.KJoin
import Idealize.ShloMosaic.Lib.SparseCore.Launch
import Idealize.ShloMosaic.Lib.SparseCore.Ops
import Idealize.ShloMosaic.Lib.StableHlo.Run
import Idealize.ShloMosaic.Lib.Batch
import Idealize.ShloMosaic.Lib.Tactic
import Idealize.ShloMosaic.Lib.Pipeline.Kit
import proofs.«206842_g87686052315543_cont_sun_m_497_29_alg».proof.Proof.Gen.Kernel

noncomputable section

namespace Cert.Proof.KInv

open Cert.Kernel Cert.Kernel.Gen Cert.Proof.KRes Cert.Proof.KWin Cert.Proof.KLand Cert.Proof.KRows Cert.Proof.KJoin

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uidW" => (Memref.whole Cert.Kernel.main_v0_scv : Memref Cert.Kernel.sig Kind.scVector Space.hbm Cert.Kernel.S128x128 EltTy.i32)
local notation "iidW" => (Memref.whole Cert.Kernel.main_v1_scv : Memref Cert.Kernel.sig Kind.scVector Space.hbm Cert.Kernel.S128x128 EltTy.i32)
local notation "cidW" => (Memref.whole Cert.Kernel.main_v2_scv : Memref Cert.Kernel.sig Kind.scVector Space.hbm Cert.Kernel.S128x128 EltTy.i32)
local notation "utW" => (Memref.whole Cert.Kernel.main_arg3_scv : Memref Cert.Kernel.sig Kind.scVector Space.hbm Cert.Kernel.S1000000x64 EltTy.f32)
local notation "itW" => (Memref.whole Cert.Kernel.main_arg4_scv : Memref Cert.Kernel.sig Kind.scVector Space.hbm Cert.Kernel.S1000000x64 EltTy.f32)
local notation "ctW" => (Memref.whole Cert.Kernel.main_arg5_scv : Memref Cert.Kernel.sig Kind.scVector Space.hbm Cert.Kernel.S100000x64 EltTy.f32)
local notation "ouW" => (Memref.whole Cert.Kernel.main_v3_0_scv : Memref Cert.Kernel.sig Kind.scVector Space.hbm Cert.Kernel.S16384x64 EltTy.f32)
local notation "oiW" => (Memref.whole Cert.Kernel.main_v3_1_scv : Memref Cert.Kernel.sig Kind.scVector Space.hbm Cert.Kernel.S16384x64 EltTy.f32)
local notation "ocW" => (Memref.whole Cert.Kernel.main_v3_2_scv : Memref Cert.Kernel.sig Kind.scVector Space.hbm Cert.Kernel.S16384x64 EltTy.f32)
local notation "l0W" => (Memref.whole Cert.Kernel.cc0_scratch0 : Memref Cert.Kernel.sig Kind.scVector Space.vmem Cert.Kernel.S4x128 EltTy.i32)
local notation "l1W" => (Memref.whole Cert.Kernel.cc0_scratch1 : Memref Cert.Kernel.sig Kind.scVector Space.vmem Cert.Kernel.S4x128 EltTy.i32)
local notation "l2W" => (Memref.whole Cert.Kernel.cc0_scratch2 : Memref Cert.Kernel.sig Kind.scVector Space.vmem Cert.Kernel.S4x128 EltTy.i32)
local notation "bufW" => (Memref.whole Cert.Kernel.cc0_scratch3 : Memref Cert.Kernel.sig Kind.scVector Space.vmem Cert.Kernel.S2x64x64 EltTy.f32)

variable [FloatOps F] (m : (ℓ : Loc nD τ sig) → Buf (Elt F) ℓ) (d : Dev nD) (L : grid0.Coords)

/-- a table row's placement is inside the table when its word names a row -/
theorem rowInb (Vn : ℕ) (v : BitVec 32) (h : v.toNat < Vn) :
    ∀ a, (![v.toNat, 0] : Fin 2 → Nat) a + S1x64.size a ≤ (⟨2, ![Vn, 64]⟩ : Shape).size a := by
  intro a
  match a with
  | ⟨0, _⟩ => show v.toNat + 1 ≤ Vn; omega
  | ⟨1, _⟩ => show 0 + 64 ≤ 64; omega

theorem rowInb2 (Vn : ℕ) (v : BitVec 32) (h : v.toNat < Vn) :
    (∀ a, (![v.toNat, 0] : Fin 2 → Nat) a + S1x64.size a ≤ (⟨2, ![Vn, 64]⟩ : Shape).size a)
    ∧ (∀ a, (![v.toNat, 0] : Fin 2 → Nat) a + S1x64.size a ≤ (⟨2, ![Vn, 64]⟩ : Shape).size a) :=
  ⟨rowInb Vn v h, rowInb Vn v h⟩

/-- the 128 read tokens a trip's 128 row copies read a table through (tokens 16 … 143 of the share) -/
def toks128 (ℓ : Loc nD τ sig) (q : PosShare TreeShare) (f : Buf (Elt F) ℓ) : sProp 𝕄 :=
  sepL ((List.range 128).map fun i => (ℓ ↦{Transfers.shareTokN q (16 + i)} f : sProp 𝕄))

omit [FloatOps F] in
/-- the tokens one by one -/
theorem toks128_unroll (ℓ : Loc nD τ sig) (q : PosShare TreeShare) (f : Buf (Elt F) ℓ) :
    toks128 ℓ q f = (iprop((ℓ ↦{Transfers.shareTokN q (16 + 0)} f) ∗ (ℓ ↦{Transfers.shareTokN q (16 + 1)} f) ∗ (ℓ ↦{Transfers.shareTokN q (16 + 2)} f) ∗ (ℓ ↦{Transfers.shareTokN q (16 + 3)} f) ∗ (ℓ ↦{Transfers.shareTokN q (16 + 4)} f) ∗ (ℓ ↦{Transfers.shareTokN q (16 + 5)} f) ∗ (ℓ ↦{Transfers.shareTokN q (16 + 6)} f) ∗ (ℓ ↦{Transfers.shareTokN q (16 + 7)} f) ∗ (ℓ ↦{Transfers.shareTokN q (16 + 8)} f) ∗ (ℓ ↦{Transfers.shareTokN q (16 + 9)} f) ∗ (ℓ ↦{Transfers.shareTokN q (16 + 10)} f) ∗ (ℓ ↦{Transfers.shareTokN q (16 + 11)} f) ∗ (ℓ ↦{Transfers.shareTokN q (16 + 12)} f) ∗ (ℓ ↦{Transfers.shareTokN q (16 + 13)} f) ∗ (ℓ ↦{Transfers.shareTokN q (16 + 14)} f) ∗ (ℓ ↦{Transfers.shareTokN q (16 + 15)} f) ∗ (ℓ ↦{Transfers.shareTokN q (16 + 16)} f) ∗ (ℓ ↦{Transfers.shareTokN q (16 + 17)} f) ∗ (ℓ ↦{Transfers.shareTokN q (16 + 18)} f) ∗ (ℓ ↦{Transfers.shareTokN q (16 + 19)} f) ∗ (ℓ ↦{Transfers.shareTokN q (16 + 20)} f) ∗ (ℓ ↦{Transfers.shareTokN q (16 + 21)} f) ∗ (ℓ ↦{Transfers.shareTokN q (16 + 22)} f) ∗ (ℓ ↦{Transfers.shareTokN q (16 + 23)} f) ∗ (ℓ ↦{Transfers.shareTokN q (16 + 24)} f) ∗ (ℓ ↦{Transfers.shareTokN q (16 + 25)} f) ∗ (ℓ ↦{Transfers.shareTokN q (16 + 26)} f) ∗ (ℓ ↦{Transfers.shareTokN q (16 + 27)} f) ∗ (ℓ ↦{Transfers.shareTokN q (16 + 28)} f) ∗ (ℓ ↦{Transfers.shareTokN q (16 + 29)} f) ∗ (ℓ ↦{Transfers.shareTokN q (16 + 30)} f) ∗ (ℓ ↦{Transfers.shareTokN q (16 + 31)} f) ∗ (ℓ ↦{Transfers.shareTokN q (16 + 32)} f) ∗ (ℓ ↦{Transfers.shareTokN q (16 + 33)} f) ∗ (ℓ ↦{Transfers.shareTokN q (16 + 34)} f) ∗ (ℓ ↦{Transfers.shareTokN q (16 + 35)} f) ∗ (ℓ ↦{Transfers.shareTokN q (16 + 36)} f) ∗ (ℓ ↦{Transfers.shareTokN q (16 + 37)} f) ∗ (ℓ ↦{Transfers.shareTokN q (16 + 38)} f) ∗ (ℓ ↦{Transfers.shareTokN q (16 + 39)} f) ∗ (ℓ ↦{Transfers.shareTokN q (16 + 40)} f) ∗ (ℓ ↦{Transfers.shareTokN q (16 + 41)} f) ∗ (ℓ ↦{Transfers.shareTokN q (16 + 42)} f) ∗ (ℓ ↦{Transfers.shareTokN q (16 + 43)} f) ∗ (ℓ ↦{Transfers.shareTokN q (16 + 44)} f) ∗ (ℓ ↦{Transfers.shareTokN q (16 + 45)} f) ∗ (ℓ ↦{Transfers.shareTokN q (16 + 46)} f) ∗ (ℓ ↦{Transfers.shareTokN q (16 + 47)} f) ∗ (ℓ ↦{Transfers.shareTokN q (16 + 48)} f) ∗ (ℓ ↦{Transfers.shareTokN q (16 + 49)} f) ∗ (ℓ ↦{Transfers.shareTokN q (16 + 50)} f) ∗ (ℓ ↦{Transfers.shareTokN q (16 + 51)} f) ∗ (ℓ ↦{Transfers.shareTokN q (16 + 52)} f) ∗ (ℓ ↦{Transfers.shareTokN q (16 + 53)} f) ∗ (ℓ ↦{Transfers.shareTokN q (16 + 54)} f) ∗ (ℓ ↦{Transfers.shareTokN q (16 + 55)} f) ∗ (ℓ ↦{Transfers.shareTokN q (16 + 56)} f) ∗ (ℓ ↦{Transfers.shareTokN q (16 + 57)} f) ∗ (ℓ ↦{Transfers.shareTokN q (16 + 58)} f) ∗ (ℓ ↦{Transfers.shareTokN q (16 + 59)} f) ∗ (ℓ ↦{Transfers.shareTokN q (16 + 60)} f) ∗ (ℓ ↦{Transfers.shareTokN q (16 + 61)} f) ∗ (ℓ ↦{Transfers.shareTokN q (16 + 62)} f) ∗ (ℓ ↦{Transfers.shareTokN q (16 + 63)} f) ∗ (ℓ ↦{Transfers.shareTokN q (16 + 64)} f) ∗ (ℓ ↦{Transfers.shareTokN q (16 + 65)} f) ∗ (ℓ ↦{Transfers.shareTokN q (16 + 66)} f) ∗ (ℓ ↦{Transfers.shareTokN q (16 + 67)} f) ∗ (ℓ ↦{Transfers.shareTokN q (16 + 68)} f) ∗ (ℓ ↦{Transfers.shareTokN q (16 + 69)} f) ∗ (ℓ ↦{Transfers.shareTokN q (16 + 70)} f) ∗ (ℓ ↦{Transfers.shareTokN q (16 + 71)} f) ∗ (ℓ ↦{Transfers.shareTokN q (16 + 72)} f) ∗ (ℓ ↦{Transfers.shareTokN q (16 + 73)} f) ∗ (ℓ ↦{Transfers.shareTokN q (16 + 74)} f) ∗ (ℓ ↦{Transfers.shareTokN q (16 + 75)} f) ∗ (ℓ ↦{Transfers.shareTokN q (16 + 76)} f) ∗ (ℓ ↦{Transfers.shareTokN q (16 + 77)} f) ∗ (ℓ ↦{Transfers.shareTokN q (16 + 78)} f) ∗ (ℓ ↦{Transfers.shareTokN q (16 + 79)} f) ∗ (ℓ ↦{Transfers.shareTokN q (16 + 80)} f) ∗ (ℓ ↦{Transfers.shareTokN q (16 + 81)} f) ∗ (ℓ ↦{Transfers.shareTokN q (16 + 82)} f) ∗ (ℓ ↦{Transfers.shareTokN q (16 + 83)} f) ∗ (ℓ ↦{Transfers.shareTokN q (16 + 84)} f) ∗ (ℓ ↦{Transfers.shareTokN q (16 + 85)} f) ∗ (ℓ ↦{Transfers.shareTokN q (16 + 86)} f) ∗ (ℓ ↦{Transfers.shareTokN q (16 + 87)} f) ∗ (ℓ ↦{Transfers.shareTokN q (16 + 88)} f) ∗ (ℓ ↦{Transfers.shareTokN q (16 + 89)} f) ∗ (ℓ ↦{Transfers.shareTokN q (16 + 90)} f) ∗ (ℓ ↦{Transfers.shareTokN q (16 + 91)} f) ∗ (ℓ ↦{Transfers.shareTokN q (16 + 92)} f) ∗ (ℓ ↦{Transfers.shareTokN q (16 + 93)} f) ∗ (ℓ ↦{Transfers.shareTokN q (16 + 94)} f) ∗ (ℓ ↦{Transfers.shareTokN q (16 + 95)} f) ∗ (ℓ ↦{Transfers.shareTokN q (16 + 96)} f) ∗ (ℓ ↦{Transfers.shareTokN q (16 + 97)} f) ∗ (ℓ ↦{Transfers.shareTokN q (16 + 98)} f) ∗ (ℓ ↦{Transfers.shareTokN q (16 + 99)} f) ∗ (ℓ ↦{Transfers.shareTokN q (16 + 100)} f) ∗ (ℓ ↦{Transfers.shareTokN q (16 + 101)} f) ∗ (ℓ ↦{Transfers.shareTokN q (16 + 102)} f) ∗ (ℓ ↦{Transfers.shareTokN q (16 + 103)} f) ∗ (ℓ ↦{Transfers.shareTokN q (16 + 104)} f) ∗ (ℓ ↦{Transfers.shareTokN q (16 + 105)} f) ∗ (ℓ ↦{Transfers.shareTokN q (16 + 106)} f) ∗ (ℓ ↦{Transfers.shareTokN q (16 + 107)} f) ∗ (ℓ ↦{Transfers.shareTokN q (16 + 108)} f) ∗ (ℓ ↦{Transfers.shareTokN q (16 + 109)} f) ∗ (ℓ ↦{Transfers.shareTokN q (16 + 110)} f) ∗ (ℓ ↦{Transfers.shareTokN q (16 + 111)} f) ∗ (ℓ ↦{Transfers.shareTokN q (16 + 112)} f) ∗ (ℓ ↦{Transfers.shareTokN q (16 + 113)} f) ∗ (ℓ ↦{Transfers.shareTokN q (16 + 114)} f) ∗ (ℓ ↦{Transfers.shareTokN q (16 + 115)} f) ∗ (ℓ ↦{Transfers.shareTokN q (16 + 116)} f) ∗ (ℓ ↦{Transfers.shareTokN q (16 + 117)} f) ∗ (ℓ ↦{Transfers.shareTokN q (16 + 118)} f) ∗ (ℓ ↦{Transfers.shareTokN q (16 + 119)} f) ∗ (ℓ ↦{Transfers.shareTokN q (16 + 120)} f) ∗ (ℓ ↦{Transfers.shareTokN q (16 + 121)} f) ∗ (ℓ ↦{Transfers.shareTokN q (16 + 122)} f) ∗ (ℓ ↦{Transfers.shareTokN q (16 + 123)} f) ∗ (ℓ ↦{Transfers.shareTokN q (16 + 124)} f) ∗ (ℓ ↦{Transfers.shareTokN q (16 + 125)} f) ∗ (ℓ ↦{Transfers.shareTokN q (16 + 126)} f) ∗ (ℓ ↦{Transfers.shareTokN q (16 + 127)} f) ∗ emp) : sProp 𝕄) := rfl

/-- what is left of a table's share beside the 128 tokens -/
def tokRest (ℓ : Loc nD τ sig) (q : PosShare TreeShare) (f : Buf (Elt F) ℓ) : sProp 𝕄 :=
  iprop((ℓ ↦{Transfers.shareDrop q 144} f) ∗ bigSep (Finset.range 16) (fun i => ℓ ↦{Transfers.shareTokN q i} f))

omit [FloatOps F] in
theorem toks_split' (ℓ : Loc nD τ sig) (q : PosShare TreeShare) (f : Buf (Elt F) ℓ) :
    (ℓ ↦{q} f : sProp 𝕄) ⊣⊢ iprop(tokRest ℓ q f ∗ toks128 ℓ q f) := toks_split ℓ q f

/-- What loop 1 keeps between trips: its index words landed, its table's read tokens, the staging slots,
    the ten semaphores at zero, its result's windows (those of the trips done at the lookup). -/
def inv1 (O : CellTallies nD τ sig (HIx 1)) (W : Waits sig (HIx 1)) (k : ℕ) (_ : PUnit) : sProp 𝕄 :=
  iprop(Transfers.MayWaits (V d (cV L) (jV L)) (none : HIx 1) O
    ∗ ((l0W).view.loc (V d (cV L) (jV L)) ↦{fullShare} lands0 m d L)
    ∗ toks128 ((utW).view.loc (V d (cV L) (jV L))) (Transfers.shareTok fullShare 32 (wid L)) (m (t3Loc d))
    ∗ (∃ f0, slotPts0 d L f0) ∗ (∃ f1, slotPts1 d L f1)
    ∗ semVal (V d (cV L) (jV L), SemLoc.dma cc0_scratch4.sem) 0
    ∗ semVal (V d (cV L) (jV L), SemLoc.dma cc0_scratch5.sem) 0
    ∗ semVal (V d (cV L) (jV L), SemLoc.dma cc0_scratch6.sem) 0
    ∗ semVal (V d (cV L) (jV L), SemLoc.dma cc0_scratch7.sem) 0
    ∗ semVal (V d (cV L) (jV L), SemLoc.dma cc0_scratch8.sem) 0
    ∗ semVal (V d (cV L) (jV L), SemLoc.dma cc0_scratch9.sem) 0
    ∗ semVal (V d (cV L) (jV L), SemLoc.dma cc0_scratch10.sem) 0
    ∗ semVal (V d (cV L) (jV L), SemLoc.dma cc0_scratch11.sem) 0
    ∗ semVal (V d (cV L) (jV L), SemLoc.dma cc0_scratch12.sem) 0
    ∗ semVal (V d (cV L) (jV L), SemLoc.dma cc0_scratch13.sem) 0
    ∗ outInv0 m d (wid L) k
    ∗ ∃ W', ⌜∀ p ∈ W', p ∈ W ∨ p.2 = none⌝ ∗ owes (V d (cV L) (jV L)) O W')

/-- What loop 2 keeps between trips: its index words landed, its table's read tokens, the staging slots,
    the ten semaphores at zero, its result's windows (those of the trips done at the lookup). -/
def inv2 (O : CellTallies nD τ sig (HIx 1)) (W : Waits sig (HIx 1)) (k : ℕ) (_ : PUnit) : sProp 𝕄 :=
  iprop(Transfers.MayWaits (V d (cV L) (jV L)) (none : HIx 1) O
    ∗ ((l1W).view.loc (V d (cV L) (jV L)) ↦{fullShare} lands1 m d L)
    ∗ toks128 ((itW).view.loc (V d (cV L) (jV L))) (Transfers.shareTok fullShare 32 (wid L)) (m (t4Loc d))
    ∗ (∃ f0, slotPts0 d L f0) ∗ (∃ f1, slotPts1 d L f1)
    ∗ semVal (V d (cV L) (jV L), SemLoc.dma cc0_scratch4.sem) 0
    ∗ semVal (V d (cV L) (jV L), SemLoc.dma cc0_scratch5.sem) 0
    ∗ semVal (V d (cV L) (jV L), SemLoc.dma cc0_scratch6.sem) 0
    ∗ semVal (V d (cV L) (jV L), SemLoc.dma cc0_scratch7.sem) 0
    ∗ semVal (V d (cV L) (jV L), SemLoc.dma cc0_scratch8.sem) 0
    ∗ semVal (V d (cV L) (jV L), SemLoc.dma cc0_scratch9.sem) 0
    ∗ semVal (V d (cV L) (jV L), SemLoc.dma cc0_scratch10.sem) 0
    ∗ semVal (V d (cV L) (jV L), SemLoc.dma cc0_scratch11.sem) 0
    ∗ semVal (V d (cV L) (jV L), SemLoc.dma cc0_scratch12.sem) 0
    ∗ semVal (V d (cV L) (jV L), SemLoc.dma cc0_scratch13.sem) 0
    ∗ outInv1 m d (wid L) k
    ∗ ∃ W', ⌜∀ p ∈ W', p ∈ W ∨ p.2 = none⌝ ∗ owes (V d (cV L) (jV L)) O W')

/-- What loop 3 keeps between trips: its index words landed, its table's read tokens, the staging slots,
    the ten semaphores at zero, its result's windows (those of the trips done at the lookup). -/
def inv3 (O : CellTallies nD τ sig (HIx 1)) (W : Waits sig (HIx 1)) (k : ℕ) (_ : PUnit) : sProp 𝕄 :=
  iprop(Transfers.MayWaits (V d (cV L) (jV L)) (none : HIx 1) O
    ∗ ((l2W).view.loc (V d (cV L) (jV L)) ↦{fullShare} lands2 m d L)
    ∗ toks128 ((ctW).view.loc (V d (cV L) (jV L))) (Transfers.shareTok fullShare 32 (wid L)) (m (t5Loc d))
    ∗ (∃ f0, slotPts0 d L f0) ∗ (∃ f1, slotPts1 d L f1)
    ∗ semVal (V d (cV L) (jV L), SemLoc.dma cc0_scratch4.sem) 0
    ∗ semVal (V d (cV L) (jV L), SemLoc.dma cc0_scratch5.sem) 0
    ∗ semVal (V d (cV L) (jV L), SemLoc.dma cc0_scratch6.sem) 0
    ∗ semVal (V d (cV L) (jV L), SemLoc.dma cc0_scratch7.sem) 0
    ∗ semVal (V d (cV L) (jV L), SemLoc.dma cc0_scratch8.sem) 0
    ∗ semVal (V d (cV L) (jV L), SemLoc.dma cc0_scratch9.sem) 0
    ∗ semVal (V d (cV L) (jV L), SemLoc.dma cc0_scratch10.sem) 0
    ∗ semVal (V d (cV L) (jV L), SemLoc.dma cc0_scratch11.sem) 0
    ∗ semVal (V d (cV L) (jV L), SemLoc.dma cc0_scratch12.sem) 0
    ∗ semVal (V d (cV L) (jV L), SemLoc.dma cc0_scratch13.sem) 0
    ∗ outInv2 m d (wid L) k
    ∗ ∃ W', ⌜∀ p ∈ W', p ∈ W ∨ p.2 = none⌝ ∗ owes (V d (cV L) (jV L)) O W')

omit [FloatOps F] in
theorem pts_l0 (f : Buf (Elt F) ((V d (cV L) (jV L)).loc cc0_scratch0)) :
    ((l0W).view.loc (V d (cV L) (jV L)) ↦{fullShare} f : sProp 𝕄) = (V d (cV L) (jV L)).loc cc0_scratch0 ↦{fullShare} f := rfl
omit [FloatOps F] in
theorem pts_l1 (f : Buf (Elt F) ((V d (cV L) (jV L)).loc cc0_scratch1)) :
    ((l1W).view.loc (V d (cV L) (jV L)) ↦{fullShare} f : sProp 𝕄) = (V d (cV L) (jV L)).loc cc0_scratch1 ↦{fullShare} f := rfl
omit [FloatOps F] in
theorem pts_l2 (f : Buf (Elt F) ((V d (cV L) (jV L)).loc cc0_scratch2)) :
    ((l2W).view.loc (V d (cV L) (jV L)) ↦{fullShare} f : sProp 𝕄) = (V d (cV L) (jV L)).loc cc0_scratch2 ↦{fullShare} f := rfl
omit [FloatOps F] in
theorem pts_buf (f : Buf (Elt F) ((V d (cV L) (jV L)).loc cc0_scratch3)) :
    ((bufW).view.loc (V d (cV L) (jV L)) ↦{fullShare} f : sProp 𝕄) = (V d (cV L) (jV L)).loc cc0_scratch3 ↦{fullShare} f := rfl

omit [FloatOps F] in
/-- a buffer held at contents equal to g is held at g -/
theorem pts_of_eq {ℓ : Loc nD τ sig} {q : PosShare TreeShare} (g : Buf (Elt F) ℓ) :
    (iprop(∃ f, ⌜f = g⌝ ∗ ℓ ↦{q} f) : sProp 𝕄) ⊢ ℓ ↦{q} g := by
  iintro ⟨%f, %h, H⟩
  subst h
  iexact H

/-- a recorded wait at index none keeps the waits within what the obligation allows -/
theorem waits_insert {W X : Waits sig (HIx 1)} (s : SemLoc sig) (h : ∀ p ∈ X, p ∈ W ∨ p.2 = none) :
    ∀ p ∈ insert (s, (default : HIx 1)) X, p ∈ W ∨ p.2 = none := by
  intro p hp
  rcases Finset.mem_insert.mp hp with rfl | hp
  · exact .inr rfl
  · exact h p hp

end Cert.Proof.KInv

end
-- ==== Proof.KOwn.lean ====
/-
  A vector subcore's own scoped storage, opened into the pieces the kernel names.
  On a vector subcore every one of the thirteen DMA semaphores is scoped and no regular semaphore is, so the thread's own
  cells are exactly the cells of the ten scratch semaphore arrays and the three region-allocated ones; its own buffers
  hold the four vector-memory scratch buffers. A `bigSep` over a set that holds a duplicate-free list of indices is the
  list's terms, in order, beside the `bigSep` over the set with the list erased (`bigSep_peel`, by induction on the
  list); the two equations are that lemma at the thirteen cells and at the four buffers.
-/
import proofs.«206842_g87686052315543_cont_sun_m_497_29_alg».proof.Proof.KRes
import proofs.«206842_g87686052315543_cont_sun_m_497_29_alg».proof.Proof.Gen.Kernel

noncomputable section

namespace Cert.Proof.KOwn

open Cert.Kernel Cert.Kernel.Gen Cert.Proof.KRes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Peeling a list of indices off a `bigSep` -/

section Peel

variable {M : Type} [URA M] {I : Type} [DecidableEq I]

/-- What is left of a set once a list's indices are erased one after another: the set's members not in the list. -/
theorem mem_foldl_erase : ∀ (l : List I) (s : Finset I) (i : I), i ∈ l.foldl Finset.erase s ↔ i ∈ s ∧ i ∉ l
  | [], s, i => by simp
  | a :: l, s, i => by
    rw [List.foldl_cons, mem_foldl_erase l (s.erase a) i, Finset.mem_erase, List.mem_cons, not_or]
    tauto

/-- A set that holds every index of a duplicate-free list: the `bigSep` over it is the list's terms, in the list's
    order, beside the `bigSep` over the set with the list's indices erased in that order. -/
theorem bigSep_peel (Φ : I → sProp M) : ∀ (l : List I) (s : Finset I), l.Nodup → (∀ i ∈ l, i ∈ s) →
    bigSep s Φ = l.foldr (fun i P => iprop(Φ i ∗ P)) (bigSep (l.foldl Finset.erase s) Φ)
  | [], s, _, _ => rfl
  | a :: l, s, hn, hm => by
    have hn' := List.nodup_cons.mp hn
    have ih := bigSep_peel Φ l (s.erase a) hn'.2 fun i hi =>
      Finset.mem_erase.mpr ⟨fun e => hn'.1 (e ▸ hi), hm i (List.mem_cons_of_mem _ hi)⟩
    show bigSep s Φ = iprop(Φ a ∗ l.foldr (fun i P => iprop(Φ i ∗ P)) (bigSep (l.foldl Finset.erase (s.erase a)) Φ))
    rw [← ih]
    exact SparseCore.bigSep_erase' (hm a List.mem_cons_self)

end Peel

variable (d : Dev nD) (L : grid0.Coords)

/-! ## The thirteen cells -/

/-- The DMA semaphores the kernel names, in the order it takes them: the ten scratch arrays', then the three
    region-allocated ones. -/
abbrev sems13 : List (DmaSem sig) :=
  [cc0_scratch4.sem, cc0_scratch5.sem, cc0_scratch6.sem, cc0_scratch7.sem, cc0_scratch8.sem,
   cc0_scratch9.sem, cc0_scratch10.sem, cc0_scratch11.sem, cc0_scratch12.sem, cc0_scratch13.sem,
   cc0_scoped0.sem, cc0_scoped1.sem, cc0_scoped2.sem]

theorem sems13_nodup : sems13.Nodup := by decide
/-- They are all of the pool, -/
theorem mem_sems13 : ∀ a : DmaSem sig, a ∈ sems13 := by decide
/-- each is scoped on a vector subcore, -/
theorem dma_scoped : ∀ a : DmaSem sig, (SemLoc.dma a : SemLoc sig).isScoped .scVector = true := by decide
/-- and no regular semaphore is. -/
theorem reg_not_scoped : ∀ s : Sem sig, (SemLoc.reg s : SemLoc sig).isScoped .scVector = false := by decide

/-- Their cells on the tile's thread. -/
abbrev cellsV : List (GSem nD τ sig) := sems13.map fun a => (V d (cV L) (jV L), SemLoc.dma a)

theorem cellsV_nodup : (cellsV d L).Nodup :=
  sems13_nodup.map fun _ _ e => SemLoc.dma.inj (Prod.mk.inj e).2

theorem cellsV_own : ∀ g ∈ cellsV d L, g ∈ ownCells (V d (cV L) (jV L)) := by
  intro g hg
  obtain ⟨a, _, rfl⟩ := List.mem_map.mp hg
  exact mem_ownCells.mpr ⟨rfl, dma_scoped a⟩

/-- Every own cell of the thread is one of the thirteen. -/
theorem own_cellsV : ∀ g ∈ ownCells (V d (cV L) (jV L)), g ∈ cellsV d L := by
  rintro ⟨thr, sm⟩ hg
  obtain ⟨h1, h2⟩ := mem_ownCells.mp hg
  obtain rfl : thr = V d (cV L) (jV L) := h1
  cases sm with
  | reg s => exact absurd ((reg_not_scoped s).symm.trans h2) (by decide)
  | dma a => exact List.mem_map.mpr ⟨a, mem_sems13 a, rfl⟩

/-- The thread's own cells at zero are the thirteen named cells at zero and the rest. -/
theorem ownSems0_V :
    (ownSems0 (V d (cV L) (jV L)) : sProp 𝕄)
      = iprop(semVal (V d (cV L) (jV L), SemLoc.dma cc0_scratch4.sem) 0 ∗ semVal (V d (cV L) (jV L), SemLoc.dma cc0_scratch5.sem) 0 ∗ semVal (V d (cV L) (jV L), SemLoc.dma cc0_scratch6.sem) 0
          ∗ semVal (V d (cV L) (jV L), SemLoc.dma cc0_scratch7.sem) 0 ∗ semVal (V d (cV L) (jV L), SemLoc.dma cc0_scratch8.sem) 0 ∗ semVal (V d (cV L) (jV L), SemLoc.dma cc0_scratch9.sem) 0
          ∗ semVal (V d (cV L) (jV L), SemLoc.dma cc0_scratch10.sem) 0 ∗ semVal (V d (cV L) (jV L), SemLoc.dma cc0_scratch11.sem) 0 ∗ semVal (V d (cV L) (jV L), SemLoc.dma cc0_scratch12.sem) 0
          ∗ semVal (V d (cV L) (jV L), SemLoc.dma cc0_scratch13.sem) 0 ∗ semVal (V d (cV L) (jV L), SemLoc.dma cc0_scoped0.sem) 0 ∗ semVal (V d (cV L) (jV L), SemLoc.dma cc0_scoped1.sem) 0
          ∗ semVal (V d (cV L) (jV L), SemLoc.dma cc0_scoped2.sem) 0
          ∗ bigSep ((((((((((((((ownCells (V d (cV L) (jV L))).erase (V d (cV L) (jV L), SemLoc.dma cc0_scratch4.sem)).erase (V d (cV L) (jV L), SemLoc.dma cc0_scratch5.sem)).erase (V d (cV L) (jV L), SemLoc.dma cc0_scratch6.sem)).erase (V d (cV L) (jV L), SemLoc.dma cc0_scratch7.sem)).erase (V d (cV L) (jV L), SemLoc.dma cc0_scratch8.sem)).erase (V d (cV L) (jV L), SemLoc.dma cc0_scratch9.sem)).erase (V d (cV L) (jV L), SemLoc.dma cc0_scratch10.sem)).erase (V d (cV L) (jV L), SemLoc.dma cc0_scratch11.sem)).erase (V d (cV L) (jV L), SemLoc.dma cc0_scratch12.sem)).erase (V d (cV L) (jV L), SemLoc.dma cc0_scratch13.sem)).erase (V d (cV L) (jV L), SemLoc.dma cc0_scoped0.sem)).erase (V d (cV L) (jV L), SemLoc.dma cc0_scoped1.sem)).erase (V d (cV L) (jV L), SemLoc.dma cc0_scoped2.sem))
              fun g => semVal g 0) := by
  have h := bigSep_peel (M := 𝕄) (fun g => semVal g 0) (cellsV d L) (ownCells (V d (cV L) (jV L))) (cellsV_nodup d L) (cellsV_own d L)
  simp only [cellsV, sems13, List.map_cons, List.map_nil, List.foldr_cons, List.foldr_nil, List.foldl_cons, List.foldl_nil] at h
  exact h

/-- There is no rest: the thirteen are all of the thread's own cells. -/
theorem ownCells_rest_empty :
    (((((((((((((ownCells (V d (cV L) (jV L))).erase (V d (cV L) (jV L), SemLoc.dma cc0_scratch4.sem)).erase (V d (cV L) (jV L), SemLoc.dma cc0_scratch5.sem)).erase (V d (cV L) (jV L), SemLoc.dma cc0_scratch6.sem)).erase (V d (cV L) (jV L), SemLoc.dma cc0_scratch7.sem)).erase (V d (cV L) (jV L), SemLoc.dma cc0_scratch8.sem)).erase (V d (cV L) (jV L), SemLoc.dma cc0_scratch9.sem)).erase (V d (cV L) (jV L), SemLoc.dma cc0_scratch10.sem)).erase (V d (cV L) (jV L), SemLoc.dma cc0_scratch11.sem)).erase (V d (cV L) (jV L), SemLoc.dma cc0_scratch12.sem)).erase (V d (cV L) (jV L), SemLoc.dma cc0_scratch13.sem)).erase (V d (cV L) (jV L), SemLoc.dma cc0_scoped0.sem)).erase (V d (cV L) (jV L), SemLoc.dma cc0_scoped1.sem)).erase (V d (cV L) (jV L), SemLoc.dma cc0_scoped2.sem)
      = (∅ : Finset (GSem nD τ sig)) := by
  refine Finset.eq_empty_of_forall_notMem fun g hg => ?_
  obtain ⟨ho, hn⟩ := (mem_foldl_erase (cellsV d L) (ownCells (V d (cV L) (jV L))) g).mp hg
  exact hn (own_cellsV d L g ho)

/-! ## The four scratch buffers -/

/-- The vector-memory scratch buffers the kernel names. -/
abbrev bufs4 : List (Ref sig .scVector) := [cc0_scratch0, cc0_scratch1, cc0_scratch2, cc0_scratch3]

theorem bufs4_nodup : bufs4.Nodup := by decide

/-- As buffers of the device, on the tile's vector subcore. -/
abbrev refsV : List (DevRef τ sig) := bufs4.map (Proc.scVector (cV L) (jV L)).devRef

theorem refsV_nodup : (refsV L).Nodup := bufs4_nodup.map (Proc.devRef_injective _)

theorem refsV_own : ∀ b ∈ refsV L, b ∈ ownRefs (τ := τ) (.scVector (cV L) (jV L)) := by
  intro b hb
  simp only [refsV, bufs4, List.map_cons, List.map_nil, List.mem_cons, List.not_mem_nil, or_false] at hb
  rcases hb with rfl | rfl | rfl | rfl <;> exact SparseCore.Cfg.mem_ownRefs_of_owner rfl

/-- The thread's own buffers, each whole at some contents, are the four scratch buffers and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  have h := bigSep_peel (M := 𝕄) (fun b => iprop(∃ f, ((d, b) : Loc nD τ sig) ↦{fullShare} f)) (refsV L)
    (ownRefs (τ := τ) (.scVector (cV L) (jV L))) (refsV_nodup L) (refsV_own L)
  simp only [refsV, bufs4, List.map_cons, List.map_nil, List.foldr_cons, List.foldr_nil, List.foldl_cons, List.foldl_nil] at h
  exact h

end Cert.Proof.KOwn

end
-- ==== Proof.KVal.lean ====
/-
  Reading at an index: the pure facts that turn what the copies left into the lookup.

  A lane of sixteen index words loaded from a landing buffer at (row, column) is the buffer's word at (row, column + lane).
  A table row read at row v has entry e at (v, e).  A result window written whole from rows so read holds the lookup.
-/
import proofs.«206842_g87686052315543_cont_sun_m_497_29_alg».proof.Proof.KRes
import proofs.«206842_g87686052315543_cont_sun_m_497_29_alg».proof.Proof.KWin
import proofs.«206842_g87686052315543_cont_sun_m_497_29_alg».proof.Proof.KLand
import proofs.«206842_g87686052315543_cont_sun_m_497_29_alg».proof.Proof.KRows
import proofs.«206842_g87686052315543_cont_sun_m_497_29_alg».proof.Proof.Gen.Kernel
import Idealize.ShloMosaic.Lib.ValueIdx
import Idealize.ShloMosaic.Lib.Pipeline.Value
import Idealize.ShloMosaic.Lib.Writes

noncomputable section

namespace Cert.Proof.KVal

open Cert.Kernel Cert.Kernel.Gen Cert.Proof.KRes
open Idealize.ShloMosaic Idealize.ShloMosaic.ValueIdx
open Idealize.ShloMosaic.SparseCore (S V T)
open Cert.Proof.KWin Cert.Proof.KLand Cert.Proof.KRows
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} (m : (ℓ : Loc nD τ sig) → Buf (Elt F) ℓ) (d : Dev nD) (L : grid0.Coords)

local notation "𝕄" => MT nD τ sig (HIx 1) (Elt F) ℕ UU ℕ
local notation "l0W" => (Memref.whole Cert.Kernel.cc0_scratch0 : Memref Cert.Kernel.sig Kind.scVector Space.vmem Cert.Kernel.S4x128 EltTy.i32)
local notation "l1W" => (Memref.whole Cert.Kernel.cc0_scratch1 : Memref Cert.Kernel.sig Kind.scVector Space.vmem Cert.Kernel.S4x128 EltTy.i32)
local notation "l2W" => (Memref.whole Cert.Kernel.cc0_scratch2 : Memref Cert.Kernel.sig Kind.scVector Space.vmem Cert.Kernel.S4x128 EltTy.i32)
local notation "utW" => (Memref.whole Cert.Kernel.main_arg3_scv : Memref Cert.Kernel.sig Kind.scVector Space.hbm Cert.Kernel.S1000000x64 EltTy.f32)
local notation "itW" => (Memref.whole Cert.Kernel.main_arg4_scv : Memref Cert.Kernel.sig Kind.scVector Space.hbm Cert.Kernel.S1000000x64 EltTy.f32)
local notation "ctW" => (Memref.whole Cert.Kernel.main_arg5_scv : Memref Cert.Kernel.sig Kind.scVector Space.hbm Cert.Kernel.S100000x64 EltTy.f32)

/-! ## One lane of a loaded index vector -/

/-- The block of sixteen words a load takes at (off 0, off 1) lies inside the [4, 128] buffer, and lane u inside the block. -/
theorem lane_row_lt {off : Fin 2 → ℕ} (h : ∀ a, off a + S1x16.size a ≤ S4x128.size a) : off 0 < 4 := by
  have h0 : off 0 + 1 ≤ 4 := h 0
  omega
theorem lane_lt {u : ℕ} (hs : S16.Slices ![u] S1) : u < 16 := by
  have h0 : u + 1 ≤ 16 := hs.2 0
  omega
theorem lane_col_lt {off : Fin 2 → ℕ} (h : ∀ a, off a + S1x16.size a ≤ S4x128.size a) {u : ℕ} (hs : S16.Slices ![u] S1) :
    off 1 + u < 128 := by
  have h1 : off 1 + 16 ≤ 128 := h 1
  have := lane_lt hs
  omega

/-- Through any view of shape [4, 128]: lane u of the sixteen words loaded at (off 0, off 1), flattened, is what the view reads
    at (off 0, off 1 + u). -/
theorem lane_read_view {κ : Kind} {sp : Space} (v : View sig κ sp S4x128 .i32) (fl : v.ty.Contents (Elt F)) (off : Fin 2 → ℕ)
    (h : ∀ a, off a + S1x16.size a ≤ S4x128.size a) (u : ℕ) (hs : S16.Slices ![u] S1) :
    extractAt ![0] (extractStridedSlice S1 ![u]
        (shapeCast S16 (v.readAt (Elt F) (Rect.unit (s := S4x128) off S1x16.size h).toLoadRect fl) shapeCasts_S1x16_S16) hs) inpos_S1_p0
      = v.read (Elt F) fl (ix2 (⟨off 0, lane_row_lt h⟩ : Fin 4) (⟨off 1 + u, lane_col_lt h hs⟩ : Fin 128)) := by
  have hu := lane_lt hs
  unfold extractAt
  refine (extractStridedSlice_apply ![u] _ hs _ (ix1 (⟨u, hu⟩ : Fin 16)) fun a => ?_).trans ?_
  · match a with
    | ⟨0, _⟩ => rfl
  refine (shapeCast_apply _ shapeCasts_S1x16_S16 _ (ix2 (0 : Fin 1) (⟨u, hu⟩ : Fin 16)) ?_).trans ?_
  · rw [Shape.rowMajor_val_two, Shape.rowMajor_val_one]
    show 0 * 16 + u = u
    omega
  rw [View.readAt_apply]
  refine congrArg (v.read (Elt F) fl) (funext fun a => Fin.ext ?_)
  match a with
  | ⟨0, _⟩ => show off 0 + 1 * 0 = off 0; omega
  | ⟨1, _⟩ => show off 1 + 1 * u = off 1 + u; omega

/-- The same through each landing buffer, whole: the buffer's own word at (off 0, off 1 + u). -/
theorem lane_read0 (fl : Buf (Elt F) ((l0W).view.loc (V d (cV L) (jV L)))) (off : Fin 2 → ℕ)
    (h : ∀ a, off a + S1x16.size a ≤ S4x128.size a) (u : ℕ) (hs : S16.Slices ![u] S1) :
    extractAt ![0] (extractStridedSlice S1 ![u]
        (shapeCast S16 ((l0W).view.readAt (Elt F) (Rect.unit (s := S4x128) off S1x16.size h).toLoadRect fl) shapeCasts_S1x16_S16) hs) inpos_S1_p0
      = fl (ix2 (⟨off 0, lane_row_lt h⟩ : Fin 4) (⟨off 1 + u, lane_col_lt h hs⟩ : Fin 128)) :=
  lane_read_view (l0W).view fl off h u hs
theorem lane_read1 (fl : Buf (Elt F) ((l1W).view.loc (V d (cV L) (jV L)))) (off : Fin 2 → ℕ)
    (h : ∀ a, off a + S1x16.size a ≤ S4x128.size a) (u : ℕ) (hs : S16.Slices ![u] S1) :
    extractAt ![0] (extractStridedSlice S1 ![u]
        (shapeCast S16 ((l1W).view.readAt (Elt F) (Rect.unit (s := S4x128) off S1x16.size h).toLoadRect fl) shapeCasts_S1x16_S16) hs) inpos_S1_p0
      = fl (ix2 (⟨off 0, lane_row_lt h⟩ : Fin 4) (⟨off 1 + u, lane_col_lt h hs⟩ : Fin 128)) :=
  lane_read_view (l1W).view fl off h u hs
theorem lane_read2 (fl : Buf (Elt F) ((l2W).view.loc (V d (cV L) (jV L)))) (off : Fin 2 → ℕ)
    (h : ∀ a, off a + S1x16.size a ≤ S4x128.size a) (u : ℕ) (hs : S16.Slices ![u] S1) :
    extractAt ![0] (extractStridedSlice S1 ![u]
        (shapeCast S16 ((l2W).view.readAt (Elt F) (Rect.unit (s := S4x128) off S1x16.size h).toLoadRect fl) shapeCasts_S1x16_S16) hs) inpos_S1_p0
      = fl (ix2 (⟨off 0, lane_row_lt h⟩ : Fin 4) (⟨off 1 + u, lane_col_lt h hs⟩ : Fin 128)) :=
  lane_read_view (l2W).view fl off h u hs

/-! ## The lanes of the index loads, by loop trip and group

In trip k the load of group g reads at (k, 16 g), so its lane u is the landing buffer's word (k, 16 g + u). -/

theorem lane_g_lt {g : ℕ} (hg : g < 8) {u : ℕ} (hs : S16.Slices ![u] S1) : 16 * g + u < 128 := by
  have := lane_lt hs
  omega

/-- A load at the offsets (kk, c), lane u: the view's word at (kk, c + u). -/
theorem lane_at_view {κ : Kind} {sp : Space} (v : View sig κ sp S4x128 .i32) (fl : v.ty.Contents (Elt F)) (off : Fin 2 → ℕ)
    (h : ∀ a, off a + S1x16.size a ≤ S4x128.size a) (u : ℕ) (hs : S16.Slices ![u] S1) (kk : Fin 4) (c : ℕ) (hc : c + u < 128)
    (e : off = ![kk.val, c]) :
    extractAt ![0] (extractStridedSlice S1 ![u]
        (shapeCast S16 (v.readAt (Elt F) (Rect.unit (s := S4x128) off S1x16.size h).toLoadRect fl) shapeCasts_S1x16_S16) hs) inpos_S1_p0
      = v.read (Elt F) fl (ix2 kk (⟨c + u, hc⟩ : Fin 128)) := by
  subst e
  exact lane_read_view v fl _ h u hs

/-- the first lookup's loop, groups 0 … 7 -/
theorem lane1_0 (k : Fin k0_t1_loop.trips) (fl : Buf (Elt F) ((l0W).view.loc (V d (cV L) (jV L)))) (u : ℕ) (hs : S16.Slices ![u] S1) :
    extractAt ![0] (extractStridedSlice S1 ![u]
        (shapeCast S16 ((l0W).view.readAt (Elt F) (Rect.unit (s := S4x128) (k0_off2 k) S1x16.size (k0_off2_inb k)).toLoadRect fl) shapeCasts_S1x16_S16) hs) inpos_S1_p0
      = fl (ix2 (Fin.cast trips1 k) (⟨16 * 0 + u, lane_g_lt (by decide) hs⟩ : Fin 128)) :=
  lane_at_view (l0W).view fl _ _ u hs (Fin.cast trips1 k) 0 (lane_g_lt (g := 0) (by decide) hs) (k0_off2_eq k)
theorem lane1_1 (k : Fin k0_t1_loop.trips) (fl : Buf (Elt F) ((l0W).view.loc (V d (cV L) (jV L)))) (u : ℕ) (hs : S16.Slices ![u] S1) :
    extractAt ![0] (extractStridedSlice S1 ![u]
        (shapeCast S16 ((l0W).view.readAt (Elt F) (Rect.unit (s := S4x128) (k0_off19 k) S1x16.size (k0_off19_inb k)).toLoadRect fl) shapeCasts_S1x16_S16) hs) inpos_S1_p0
      = fl (ix2 (Fin.cast trips1 k) (⟨16 * 1 + u, lane_g_lt (by decide) hs⟩ : Fin 128)) :=
  lane_at_view (l0W).view fl _ _ u hs (Fin.cast trips1 k) 16 (lane_g_lt (g := 1) (by decide) hs) (k0_off19_eq k)
theorem lane1_2 (k : Fin k0_t1_loop.trips) (fl : Buf (Elt F) ((l0W).view.loc (V d (cV L) (jV L)))) (u : ℕ) (hs : S16.Slices ![u] S1) :
    extractAt ![0] (extractStridedSlice S1 ![u]
        (shapeCast S16 ((l0W).view.readAt (Elt F) (Rect.unit (s := S4x128) (k0_off36 k) S1x16.size (k0_off36_inb k)).toLoadRect fl) shapeCasts_S1x16_S16) hs) inpos_S1_p0
      = fl (ix2 (Fin.cast trips1 k) (⟨16 * 2 + u, lane_g_lt (by decide) hs⟩ : Fin 128)) :=
  lane_at_view (l0W).view fl _ _ u hs (Fin.cast trips1 k) 32 (lane_g_lt (g := 2) (by decide) hs) (k0_off36_eq k)
theorem lane1_3 (k : Fin k0_t1_loop.trips) (fl : Buf (Elt F) ((l0W).view.loc (V d (cV L) (jV L)))) (u : ℕ) (hs : S16.Slices ![u] S1) :
    extractAt ![0] (extractStridedSlice S1 ![u]
        (shapeCast S16 ((l0W).view.readAt (Elt F) (Rect.unit (s := S4x128) (k0_off53 k) S1x16.size (k0_off53_inb k)).toLoadRect fl) shapeCasts_S1x16_S16) hs) inpos_S1_p0
      = fl (ix2 (Fin.cast trips1 k) (⟨16 * 3 + u, lane_g_lt (by decide) hs⟩ : Fin 128)) :=
  lane_at_view (l0W).view fl _ _ u hs (Fin.cast trips1 k) 48 (lane_g_lt (g := 3) (by decide) hs) (k0_off53_eq k)
theorem lane1_4 (k : Fin k0_t1_loop.trips) (fl : Buf (Elt F) ((l0W).view.loc (V d (cV L) (jV L)))) (u : ℕ) (hs : S16.Slices ![u] S1) :
    extractAt ![0] (extractStridedSlice S1 ![u]
        (shapeCast S16 ((l0W).view.readAt (Elt F) (Rect.unit (s := S4x128) (k0_off70 k) S1x16.size (k0_off70_inb k)).toLoadRect fl) shapeCasts_S1x16_S16) hs) inpos_S1_p0
      = fl (ix2 (Fin.cast trips1 k) (⟨16 * 4 + u, lane_g_lt (by decide) hs⟩ : Fin 128)) :=
  lane_at_view (l0W).view fl _ _ u hs (Fin.cast trips1 k) 64 (lane_g_lt (g := 4) (by decide) hs) (k0_off70_eq k)
theorem lane1_5 (k : Fin k0_t1_loop.trips) (fl : Buf (Elt F) ((l0W).view.loc (V d (cV L) (jV L)))) (u : ℕ) (hs : S16.Slices ![u] S1) :
    extractAt ![0] (extractStridedSlice S1 ![u]
        (shapeCast S16 ((l0W).view.readAt (Elt F) (Rect.unit (s := S4x128) (k0_off87 k) S1x16.size (k0_off87_inb k)).toLoadRect fl) shapeCasts_S1x16_S16) hs) inpos_S1_p0
      = fl (ix2 (Fin.cast trips1 k) (⟨16 * 5 + u, lane_g_lt (by decide) hs⟩ : Fin 128)) :=
  lane_at_view (l0W).view fl _ _ u hs (Fin.cast trips1 k) 80 (lane_g_lt (g := 5) (by decide) hs) (k0_off87_eq k)
theorem lane1_6 (k : Fin k0_t1_loop.trips) (fl : Buf (Elt F) ((l0W).view.loc (V d (cV L) (jV L)))) (u : ℕ) (hs : S16.Slices ![u] S1) :
    extractAt ![0] (extractStridedSlice S1 ![u]
        (shapeCast S16 ((l0W).view.readAt (Elt F) (Rect.unit (s := S4x128) (k0_off104 k) S1x16.size (k0_off104_inb k)).toLoadRect fl) shapeCasts_S1x16_S16) hs) inpos_S1_p0
      = fl (ix2 (Fin.cast trips1 k) (⟨16 * 6 + u, lane_g_lt (by decide) hs⟩ : Fin 128)) :=
  lane_at_view (l0W).view fl _ _ u hs (Fin.cast trips1 k) 96 (lane_g_lt (g := 6) (by decide) hs) (k0_off104_eq k)
theorem lane1_7 (k : Fin k0_t1_loop.trips) (fl : Buf (Elt F) ((l0W).view.loc (V d (cV L) (jV L)))) (u : ℕ) (hs : S16.Slices ![u] S1) :
    extractAt ![0] (extractStridedSlice S1 ![u]
        (shapeCast S16 ((l0W).view.readAt (Elt F) (Rect.unit (s := S4x128) (k0_off121 k) S1x16.size (k0_off121_inb k)).toLoadRect fl) shapeCasts_S1x16_S16) hs) inpos_S1_p0
      = fl (ix2 (Fin.cast trips1 k) (⟨16 * 7 + u, lane_g_lt (by decide) hs⟩ : Fin 128)) :=
  lane_at_view (l0W).view fl _ _ u hs (Fin.cast trips1 k) 112 (lane_g_lt (g := 7) (by decide) hs) (k0_off121_eq k)
/-- the second lookup's loop -/
theorem lane2_0 (k : Fin k0_t2_loop.trips) (fl : Buf (Elt F) ((l1W).view.loc (V d (cV L) (jV L)))) (u : ℕ) (hs : S16.Slices ![u] S1) :
    extractAt ![0] (extractStridedSlice S1 ![u]
        (shapeCast S16 ((l1W).view.readAt (Elt F) (Rect.unit (s := S4x128) (k0_off266 k) S1x16.size (k0_off266_inb k)).toLoadRect fl) shapeCasts_S1x16_S16) hs) inpos_S1_p0
      = fl (ix2 (Fin.cast trips2 k) (⟨16 * 0 + u, lane_g_lt (by decide) hs⟩ : Fin 128)) :=
  lane_at_view (l1W).view fl _ _ u hs (Fin.cast trips2 k) 0 (lane_g_lt (g := 0) (by decide) hs) (k0_off266_eq k)
theorem lane2_1 (k : Fin k0_t2_loop.trips) (fl : Buf (Elt F) ((l1W).view.loc (V d (cV L) (jV L)))) (u : ℕ) (hs : S16.Slices ![u] S1) :
    extractAt ![0] (extractStridedSlice S1 ![u]
        (shapeCast S16 ((l1W).view.readAt (Elt F) (Rect.unit (s := S4x128) (k0_off283 k) S1x16.size (k0_off283_inb k)).toLoadRect fl) shapeCasts_S1x16_S16) hs) inpos_S1_p0
      = fl (ix2 (Fin.cast trips2 k) (⟨16 * 1 + u, lane_g_lt (by decide) hs⟩ : Fin 128)) :=
  lane_at_view (l1W).view fl _ _ u hs (Fin.cast trips2 k) 16 (lane_g_lt (g := 1) (by decide) hs) (k0_off283_eq k)
theorem lane2_2 (k : Fin k0_t2_loop.trips) (fl : Buf (Elt F) ((l1W).view.loc (V d (cV L) (jV L)))) (u : ℕ) (hs : S16.Slices ![u] S1) :
    extractAt ![0] (extractStridedSlice S1 ![u]
        (shapeCast S16 ((l1W).view.readAt (Elt F) (Rect.unit (s := S4x128) (k0_off300 k) S1x16.size (k0_off300_inb k)).toLoadRect fl) shapeCasts_S1x16_S16) hs) inpos_S1_p0
      = fl (ix2 (Fin.cast trips2 k) (⟨16 * 2 + u, lane_g_lt (by decide) hs⟩ : Fin 128)) :=
  lane_at_view (l1W).view fl _ _ u hs (Fin.cast trips2 k) 32 (lane_g_lt (g := 2) (by decide) hs) (k0_off300_eq k)
theorem lane2_3 (k : Fin k0_t2_loop.trips) (fl : Buf (Elt F) ((l1W).view.loc (V d (cV L) (jV L)))) (u : ℕ) (hs : S16.Slices ![u] S1) :
    extractAt ![0] (extractStridedSlice S1 ![u]
        (shapeCast S16 ((l1W).view.readAt (Elt F) (Rect.unit (s := S4x128) (k0_off317 k) S1x16.size (k0_off317_inb k)).toLoadRect fl) shapeCasts_S1x16_S16) hs) inpos_S1_p0
      = fl (ix2 (Fin.cast trips2 k) (⟨16 * 3 + u, lane_g_lt (by decide) hs⟩ : Fin 128)) :=
  lane_at_view (l1W).view fl _ _ u hs (Fin.cast trips2 k) 48 (lane_g_lt (g := 3) (by decide) hs) (k0_off317_eq k)
theorem lane2_4 (k : Fin k0_t2_loop.trips) (fl : Buf (Elt F) ((l1W).view.loc (V d (cV L) (jV L)))) (u : ℕ) (hs : S16.Slices ![u] S1) :
    extractAt ![0] (extractStridedSlice S1 ![u]
        (shapeCast S16 ((l1W).view.readAt (Elt F) (Rect.unit (s := S4x128) (k0_off334 k) S1x16.size (k0_off334_inb k)).toLoadRect fl) shapeCasts_S1x16_S16) hs) inpos_S1_p0
      = fl (ix2 (Fin.cast trips2 k) (⟨16 * 4 + u, lane_g_lt (by decide) hs⟩ : Fin 128)) :=
  lane_at_view (l1W).view fl _ _ u hs (Fin.cast trips2 k) 64 (lane_g_lt (g := 4) (by decide) hs) (k0_off334_eq k)
theorem lane2_5 (k : Fin k0_t2_loop.trips) (fl : Buf (Elt F) ((l1W).view.loc (V d (cV L) (jV L)))) (u : ℕ) (hs : S16.Slices ![u] S1) :
    extractAt ![0] (extractStridedSlice S1 ![u]
        (shapeCast S16 ((l1W).view.readAt (Elt F) (Rect.unit (s := S4x128) (k0_off351 k) S1x16.size (k0_off351_inb k)).toLoadRect fl) shapeCasts_S1x16_S16) hs) inpos_S1_p0
      = fl (ix2 (Fin.cast trips2 k) (⟨16 * 5 + u, lane_g_lt (by decide) hs⟩ : Fin 128)) :=
  lane_at_view (l1W).view fl _ _ u hs (Fin.cast trips2 k) 80 (lane_g_lt (g := 5) (by decide) hs) (k0_off351_eq k)
theorem lane2_6 (k : Fin k0_t2_loop.trips) (fl : Buf (Elt F) ((l1W).view.loc (V d (cV L) (jV L)))) (u : ℕ) (hs : S16.Slices ![u] S1) :
    extractAt ![0] (extractStridedSlice S1 ![u]
        (shapeCast S16 ((l1W).view.readAt (Elt F) (Rect.unit (s := S4x128) (k0_off368 k) S1x16.size (k0_off368_inb k)).toLoadRect fl) shapeCasts_S1x16_S16) hs) inpos_S1_p0
      = fl (ix2 (Fin.cast trips2 k) (⟨16 * 6 + u, lane_g_lt (by decide) hs⟩ : Fin 128)) :=
  lane_at_view (l1W).view fl _ _ u hs (Fin.cast trips2 k) 96 (lane_g_lt (g := 6) (by decide) hs) (k0_off368_eq k)
theorem lane2_7 (k : Fin k0_t2_loop.trips) (fl : Buf (Elt F) ((l1W).view.loc (V d (cV L) (jV L)))) (u : ℕ) (hs : S16.Slices ![u] S1) :
    extractAt ![0] (extractStridedSlice S1 ![u]
        (shapeCast S16 ((l1W).view.readAt (Elt F) (Rect.unit (s := S4x128) (k0_off385 k) S1x16.size (k0_off385_inb k)).toLoadRect fl) shapeCasts_S1x16_S16) hs) inpos_S1_p0
      = fl (ix2 (Fin.cast trips2 k) (⟨16 * 7 + u, lane_g_lt (by decide) hs⟩ : Fin 128)) :=
  lane_at_view (l1W).view fl _ _ u hs (Fin.cast trips2 k) 112 (lane_g_lt (g := 7) (by decide) hs) (k0_off385_eq k)
/-- the third lookup's loop -/
theorem lane3_0 (k : Fin k0_t3_loop.trips) (fl : Buf (Elt F) ((l2W).view.loc (V d (cV L) (jV L)))) (u : ℕ) (hs : S16.Slices ![u] S1) :
    extractAt ![0] (extractStridedSlice S1 ![u]
        (shapeCast S16 ((l2W).view.readAt (Elt F) (Rect.unit (s := S4x128) (k0_off530 k) S1x16.size (k0_off530_inb k)).toLoadRect fl) shapeCasts_S1x16_S16) hs) inpos_S1_p0
      = fl (ix2 (Fin.cast trips3 k) (⟨16 * 0 + u, lane_g_lt (by decide) hs⟩ : Fin 128)) :=
  lane_at_view (l2W).view fl _ _ u hs (Fin.cast trips3 k) 0 (lane_g_lt (g := 0) (by decide) hs) (k0_off530_eq k)
theorem lane3_1 (k : Fin k0_t3_loop.trips) (fl : Buf (Elt F) ((l2W).view.loc (V d (cV L) (jV L)))) (u : ℕ) (hs : S16.Slices ![u] S1) :
    extractAt ![0] (extractStridedSlice S1 ![u]
        (shapeCast S16 ((l2W).view.readAt (Elt F) (Rect.unit (s := S4x128) (k0_off547 k) S1x16.size (k0_off547_inb k)).toLoadRect fl) shapeCasts_S1x16_S16) hs) inpos_S1_p0
      = fl (ix2 (Fin.cast trips3 k) (⟨16 * 1 + u, lane_g_lt (by decide) hs⟩ : Fin 128)) :=
  lane_at_view (l2W).view fl _ _ u hs (Fin.cast trips3 k) 16 (lane_g_lt (g := 1) (by decide) hs) (k0_off547_eq k)
theorem lane3_2 (k : Fin k0_t3_loop.trips) (fl : Buf (Elt F) ((l2W).view.loc (V d (cV L) (jV L)))) (u : ℕ) (hs : S16.Slices ![u] S1) :
    extractAt ![0] (extractStridedSlice S1 ![u]
        (shapeCast S16 ((l2W).view.readAt (Elt F) (Rect.unit (s := S4x128) (k0_off564 k) S1x16.size (k0_off564_inb k)).toLoadRect fl) shapeCasts_S1x16_S16) hs) inpos_S1_p0
      = fl (ix2 (Fin.cast trips3 k) (⟨16 * 2 + u, lane_g_lt (by decide) hs⟩ : Fin 128)) :=
  lane_at_view (l2W).view fl _ _ u hs (Fin.cast trips3 k) 32 (lane_g_lt (g := 2) (by decide) hs) (k0_off564_eq k)
theorem lane3_3 (k : Fin k0_t3_loop.trips) (fl : Buf (Elt F) ((l2W).view.loc (V d (cV L) (jV L)))) (u : ℕ) (hs : S16.Slices ![u] S1) :
    extractAt ![0] (extractStridedSlice S1 ![u]
        (shapeCast S16 ((l2W).view.readAt (Elt F) (Rect.unit (s := S4x128) (k0_off581 k) S1x16.size (k0_off581_inb k)).toLoadRect fl) shapeCasts_S1x16_S16) hs) inpos_S1_p0
      = fl (ix2 (Fin.cast trips3 k) (⟨16 * 3 + u, lane_g_lt (by decide) hs⟩ : Fin 128)) :=
  lane_at_view (l2W).view fl _ _ u hs (Fin.cast trips3 k) 48 (lane_g_lt (g := 3) (by decide) hs) (k0_off581_eq k)
theorem lane3_4 (k : Fin k0_t3_loop.trips) (fl : Buf (Elt F) ((l2W).view.loc (V d (cV L) (jV L)))) (u : ℕ) (hs : S16.Slices ![u] S1) :
    extractAt ![0] (extractStridedSlice S1 ![u]
        (shapeCast S16 ((l2W).view.readAt (Elt F) (Rect.unit (s := S4x128) (k0_off598 k) S1x16.size (k0_off598_inb k)).toLoadRect fl) shapeCasts_S1x16_S16) hs) inpos_S1_p0
      = fl (ix2 (Fin.cast trips3 k) (⟨16 * 4 + u, lane_g_lt (by decide) hs⟩ : Fin 128)) :=
  lane_at_view (l2W).view fl _ _ u hs (Fin.cast trips3 k) 64 (lane_g_lt (g := 4) (by decide) hs) (k0_off598_eq k)
theorem lane3_5 (k : Fin k0_t3_loop.trips) (fl : Buf (Elt F) ((l2W).view.loc (V d (cV L) (jV L)))) (u : ℕ) (hs : S16.Slices ![u] S1) :
    extractAt ![0] (extractStridedSlice S1 ![u]
        (shapeCast S16 ((l2W).view.readAt (Elt F) (Rect.unit (s := S4x128) (k0_off615 k) S1x16.size (k0_off615_inb k)).toLoadRect fl) shapeCasts_S1x16_S16) hs) inpos_S1_p0
      = fl (ix2 (Fin.cast trips3 k) (⟨16 * 5 + u, lane_g_lt (by decide) hs⟩ : Fin 128)) :=
  lane_at_view (l2W).view fl _ _ u hs (Fin.cast trips3 k) 80 (lane_g_lt (g := 5) (by decide) hs) (k0_off615_eq k)
theorem lane3_6 (k : Fin k0_t3_loop.trips) (fl : Buf (Elt F) ((l2W).view.loc (V d (cV L) (jV L)))) (u : ℕ) (hs : S16.Slices ![u] S1) :
    extractAt ![0] (extractStridedSlice S1 ![u]
        (shapeCast S16 ((l2W).view.readAt (Elt F) (Rect.unit (s := S4x128) (k0_off632 k) S1x16.size (k0_off632_inb k)).toLoadRect fl) shapeCasts_S1x16_S16) hs) inpos_S1_p0
      = fl (ix2 (Fin.cast trips3 k) (⟨16 * 6 + u, lane_g_lt (by decide) hs⟩ : Fin 128)) :=
  lane_at_view (l2W).view fl _ _ u hs (Fin.cast trips3 k) 96 (lane_g_lt (g := 6) (by decide) hs) (k0_off632_eq k)
theorem lane3_7 (k : Fin k0_t3_loop.trips) (fl : Buf (Elt F) ((l2W).view.loc (V d (cV L) (jV L)))) (u : ℕ) (hs : S16.Slices ![u] S1) :
    extractAt ![0] (extractStridedSlice S1 ![u]
        (shapeCast S16 ((l2W).view.readAt (Elt F) (Rect.unit (s := S4x128) (k0_off649 k) S1x16.size (k0_off649_inb k)).toLoadRect fl) shapeCasts_S1x16_S16) hs) inpos_S1_p0
      = fl (ix2 (Fin.cast trips3 k) (⟨16 * 7 + u, lane_g_lt (by decide) hs⟩ : Fin 128)) :=
  lane_at_view (l2W).view fl _ _ u hs (Fin.cast trips3 k) 112 (lane_g_lt (g := 7) (by decide) hs) (k0_off649_eq k)

/-! ## A table row read -/

/-- A row [1, 64] read from row n of any view of shape [V, 64]: entry e is what the view reads at (n, e). -/
theorem row_read_view {κ : Kind} {sp : Space} {Vh : ℕ} (v : View sig κ sp (⟨2, ![Vh, 64]⟩ : Shape) .f32) (ft : v.ty.Contents (Elt F)) (n : ℕ)
    (h : ∀ a, (![n, 0] : Fin 2 → Nat) a + S1x64.size a ≤ (⟨2, ![Vh, 64]⟩ : Shape).size a) (hn : n < Vh) (e : Fin 64) :
    (v.slice (Rect.unit (s := (⟨2, ![Vh, 64]⟩ : Shape)) ![n, 0] S1x64.size h)).read (Elt F) ft (ix2 (0 : Fin 1) e)
      = v.read (Elt F) ft (ix2 (⟨n, hn⟩ : Fin Vh) e) := by
  rw [View.read_apply, View.read_apply]
  refine congrArg (fun i => cast _ (ft (v.emb i))) (funext fun a => Fin.ext ?_)
  match a with
  | ⟨0, _⟩ => show n + 1 * 0 = n; omega
  | ⟨1, _⟩ => show 0 + 1 * e.val = e.val; omega

theorem tab_row_lt {Vh : ℕ} {n : ℕ} (h : ∀ a, (![n, 0] : Fin 2 → Nat) a + S1x64.size a ≤ (⟨2, ![Vh, 64]⟩ : Shape).size a) : n < Vh := by
  have h0 : n + 1 ≤ Vh := h 0
  omega

/-- Row v of each table, as the gather's source reads it: entry e is the table's entry (v, e). -/
theorem tab_read3 (ft : Buf (Elt F) ((utW).view.loc (V d (cV L) (jV L)))) (v : BitVec 32)
    (h : ∀ a, (![v.toNat, 0] : Fin 2 → Nat) a + S1x64.size a ≤ S1000000x64.size a) (e : Fin 64) :
    (ReadAs.same.apply (((utW).slice (Rect.unit (s := S1000000x64) ![v.toNat, 0] S1x64.size h) (fun _ => rfl)).view.read (Elt F) ft)) (ix2 (0 : Fin 1) e)
      = ft (ix2 (⟨v.toNat, tab_row_lt h⟩ : Fin 1000000) e) :=
  row_read_view (utW).view ft v.toNat h (tab_row_lt h) e
theorem tab_read4 (ft : Buf (Elt F) ((itW).view.loc (V d (cV L) (jV L)))) (v : BitVec 32)
    (h : ∀ a, (![v.toNat, 0] : Fin 2 → Nat) a + S1x64.size a ≤ S1000000x64.size a) (e : Fin 64) :
    (ReadAs.same.apply (((itW).slice (Rect.unit (s := S1000000x64) ![v.toNat, 0] S1x64.size h) (fun _ => rfl)).view.read (Elt F) ft)) (ix2 (0 : Fin 1) e)
      = ft (ix2 (⟨v.toNat, tab_row_lt h⟩ : Fin 1000000) e) :=
  row_read_view (itW).view ft v.toNat h (tab_row_lt h) e
theorem tab_read5 (ft : Buf (Elt F) ((ctW).view.loc (V d (cV L) (jV L)))) (v : BitVec 32)
    (h : ∀ a, (![v.toNat, 0] : Fin 2 → Nat) a + S1x64.size a ≤ S100000x64.size a) (e : Fin 64) :
    (ReadAs.same.apply (((ctW).slice (Rect.unit (s := S100000x64) ![v.toNat, 0] S1x64.size h) (fun _ => rfl)).view.read (Elt F) ft)) (ix2 (0 : Fin 1) e)
      = ft (ix2 (⟨v.toNat, tab_row_lt h⟩ : Fin 100000) e) :=
  row_read_view (ctW).view ft v.toNat h (tab_row_lt h) e

/-! ## The row a word names -/

/-- Entry e of the row of table 3 that the word w names: row w mod the table's height. -/
def rowAt3 (ft : Buf (Elt F) (t3Loc d)) (w : BitVec 32) (e : Fin 64) : Elt F .f32 :=
  ft (ix2 (⟨w.toNat % 1000000, Nat.mod_lt _ (by decide)⟩ : Fin 1000000) e)

/-- A row read at a word in range is the row the word names. -/
theorem tab_row3 (ft : Buf (Elt F) ((utW).view.loc (V d (cV L) (jV L)))) (v : BitVec 32)
    (h : ∀ a, (![v.toNat, 0] : Fin 2 → Nat) a + S1x64.size a ≤ S1000000x64.size a) (e : Fin 64) :
    (ReadAs.same.apply (((utW).slice (Rect.unit (s := S1000000x64) ![v.toNat, 0] S1x64.size h) (fun _ => rfl)).view.read (Elt F) ft)) (ix2 (0 : Fin 1) e)
      = rowAt3 d ft v e :=
  (tab_read3 d L ft v h e).trans
    (congrArg (fun x : Fin 1000000 => ft (ix2 x e)) (Fin.ext (Nat.mod_eq_of_lt (tab_row_lt h)).symm))

/-- Entry e of the row of table 4 that the word w names: row w mod the table's height. -/
def rowAt4 (ft : Buf (Elt F) (t4Loc d)) (w : BitVec 32) (e : Fin 64) : Elt F .f32 :=
  ft (ix2 (⟨w.toNat % 1000000, Nat.mod_lt _ (by decide)⟩ : Fin 1000000) e)

/-- A row read at a word in range is the row the word names. -/
theorem tab_row4 (ft : Buf (Elt F) ((itW).view.loc (V d (cV L) (jV L)))) (v : BitVec 32)
    (h : ∀ a, (![v.toNat, 0] : Fin 2 → Nat) a + S1x64.size a ≤ S1000000x64.size a) (e : Fin 64) :
    (ReadAs.same.apply (((itW).slice (Rect.unit (s := S1000000x64) ![v.toNat, 0] S1x64.size h) (fun _ => rfl)).view.read (Elt F) ft)) (ix2 (0 : Fin 1) e)
      = rowAt4 d ft v e :=
  (tab_read4 d L ft v h e).trans
    (congrArg (fun x : Fin 1000000 => ft (ix2 x e)) (Fin.ext (Nat.mod_eq_of_lt (tab_row_lt h)).symm))

/-- Entry e of the row of table 5 that the word w names: row w mod the table's height. -/
def rowAt5 (ft : Buf (Elt F) (t5Loc d)) (w : BitVec 32) (e : Fin 64) : Elt F .f32 :=
  ft (ix2 (⟨w.toNat % 100000, Nat.mod_lt _ (by decide)⟩ : Fin 100000) e)

/-- A row read at a word in range is the row the word names. -/
theorem tab_row5 (ft : Buf (Elt F) ((ctW).view.loc (V d (cV L) (jV L)))) (v : BitVec 32)
    (h : ∀ a, (![v.toNat, 0] : Fin 2 → Nat) a + S1x64.size a ≤ S100000x64.size a) (e : Fin 64) :
    (ReadAs.same.apply (((ctW).slice (Rect.unit (s := S100000x64) ![v.toNat, 0] S1x64.size h) (fun _ => rfl)).view.read (Elt F) ft)) (ix2 (0 : Fin 1) e)
      = rowAt5 d ft v e :=
  (tab_read5 d L ft v h e).trans
    (congrArg (fun x : Fin 100000 => ft (ix2 x e)) (Fin.ext (Nat.mod_eq_of_lt (tab_row_lt h)).symm))

/-! ## A whole write, read back -/

/-- Writing a view whole and reading the buffer at the place of the view's index y gives the payload at y (carried to the
    buffer's element type, which for a view given in full is the payload's own). -/
theorem writes_whole_emb {Val : EltTy → Type} {κ : Kind} {sp : Space} {s : Shape} {e : EltTy} (v : View sig κ sp s e)
    (f : v.ty.Contents Val) (pay : s.Idx → Val e) (y : s.Idx) :
    v.writes Val f [⟨Rect.whole s, pay⟩] (v.emb y) = cast (congrArg Val v.elt_eq.symm) (pay y) := by
  have hidx : v.emb y = (v.slice (Rect.whole s)).emb y := by
    show v.emb y = v.emb ((Rect.whole s).emb y)
    rw [Rect.emb_whole_apply]
  rw [View.writes_singleton, hidx, View.write_emb_of_mem _ _ (Finset.mem_univ _)]

/-! ## Where a result window's entry sits -/

theorem win1_row_lt (k : Fin k0_t1_loop.trips) (b : Fin 2) (r : Fin 64) :
    512 * (wid L).val + 128 * k.val + 64 * b.val + r.val < 16384 := by
  have hw := (wid L).isLt
  have hk : k.val < 4 := Nat.lt_of_lt_of_eq k.isLt trips1
  have hb := b.isLt
  have hr := r.isLt
  omega

/-- Entry (r, e) of the window trip k writes, first (b = 0) or second (b = 1), sits at row 512 w + 128 k + 64 b + r of the result. -/
theorem win1_emb (k : Fin k0_t1_loop.trips) (b : Fin 2) (r e : Fin 64) :
    (ouWin1 L k b).view.emb (ix2 r e)
      = ix2 (⟨512 * (wid L).val + 128 * k.val + 64 * b.val + r.val, win1_row_lt L k b r⟩ : Fin 16384) e := by
  funext a
  refine Fin.ext ?_
  match a with
  | ⟨0, _⟩ =>
    show k0_off202 L k (BitVec.ofNat 32 b.val) 0 + 1 * r.val = 512 * (wid L).val + 128 * k.val + 64 * b.val + r.val
    rw [k0_off202_eq]
    show 1024 * (L 1).val + 512 * (L 0).val + 128 * k.val + 64 * b.val + 1 * r.val
      = 512 * (2 * (L 1).val + (L 0).val) + 128 * k.val + 64 * b.val + r.val
    omega
  | ⟨1, _⟩ =>
    show k0_off202 L k (BitVec.ofNat 32 b.val) 1 + 1 * e.val = e.val
    rw [k0_off202_eq]
    show 0 + 1 * e.val = e.val
    omega

/-- Every element of the window is such an entry. -/
theorem mem_win1 (k : Fin k0_t1_loop.trips) (b : Fin 2) (i : (ouWin1 L k b).view.ty.Idx) (hi : i ∈ (ouWin1 L k b).view.set) :
    ∃ r e : Fin 64, i = (ouWin1 L k b).view.emb (ix2 r e) := by
  obtain ⟨y, -, rfl⟩ := Finset.mem_map.1 hi
  exact ⟨y 0, y 1, congrArg _ (eq_ix2 (n0 := 64) (n1 := 64) y)⟩

/-- A write of the whole window, read back at its entry (r, e), is the payload's entry (r, e). -/
theorem win1_write (k : Fin k0_t1_loop.trips) (b : Fin 2) (f : Buf (Elt F) ((ouWin1 L k b).view.loc (V d (cV L) (jV L))))
    (pay : S64x64.Idx → Elt F .f32) (r e : Fin 64) :
    (ouWin1 L k b).view.writes (Elt F) f [⟨Rect.whole S64x64, pay⟩] ((ouWin1 L k b).view.emb (ix2 r e)) = pay (ix2 r e) :=
  (writes_whole_emb (ouWin1 L k b).view f pay (ix2 r e)).trans (cast_eq _ _)

theorem win2_row_lt (k : Fin k0_t2_loop.trips) (b : Fin 2) (r : Fin 64) :
    512 * (wid L).val + 128 * k.val + 64 * b.val + r.val < 16384 := by
  have hw := (wid L).isLt
  have hk : k.val < 4 := Nat.lt_of_lt_of_eq k.isLt trips2
  have hb := b.isLt
  have hr := r.isLt
  omega

/-- Entry (r, e) of the window trip k writes, first (b = 0) or second (b = 1), sits at row 512 w + 128 k + 64 b + r of the result. -/
theorem win2_emb (k : Fin k0_t2_loop.trips) (b : Fin 2) (r e : Fin 64) :
    (oiWin2 L k b).view.emb (ix2 r e)
      = ix2 (⟨512 * (wid L).val + 128 * k.val + 64 * b.val + r.val, win2_row_lt L k b r⟩ : Fin 16384) e := by
  funext a
  refine Fin.ext ?_
  match a with
  | ⟨0, _⟩ =>
    show k0_off466 L k (BitVec.ofNat 32 b.val) 0 + 1 * r.val = 512 * (wid L).val + 128 * k.val + 64 * b.val + r.val
    rw [k0_off466_eq]
    show 1024 * (L 1).val + 512 * (L 0).val + 128 * k.val + 64 * b.val + 1 * r.val
      = 512 * (2 * (L 1).val + (L 0).val) + 128 * k.val + 64 * b.val + r.val
    omega
  | ⟨1, _⟩ =>
    show k0_off466 L k (BitVec.ofNat 32 b.val) 1 + 1 * e.val = e.val
    rw [k0_off466_eq]
    show 0 + 1 * e.val = e.val
    omega

/-- Every element of the window is such an entry. -/
theorem mem_win2 (k : Fin k0_t2_loop.trips) (b : Fin 2) (i : (oiWin2 L k b).view.ty.Idx) (hi : i ∈ (oiWin2 L k b).view.set) :
    ∃ r e : Fin 64, i = (oiWin2 L k b).view.emb (ix2 r e) := by
  obtain ⟨y, -, rfl⟩ := Finset.mem_map.1 hi
  exact ⟨y 0, y 1, congrArg _ (eq_ix2 (n0 := 64) (n1 := 64) y)⟩

/-- A write of the whole window, read back at its entry (r, e), is the payload's entry (r, e). -/
theorem win2_write (k : Fin k0_t2_loop.trips) (b : Fin 2) (f : Buf (Elt F) ((oiWin2 L k b).view.loc (V d (cV L) (jV L))))
    (pay : S64x64.Idx → Elt F .f32) (r e : Fin 64) :
    (oiWin2 L k b).view.writes (Elt F) f [⟨Rect.whole S64x64, pay⟩] ((oiWin2 L k b).view.emb (ix2 r e)) = pay (ix2 r e) :=
  (writes_whole_emb (oiWin2 L k b).view f pay (ix2 r e)).trans (cast_eq _ _)

theorem win3_row_lt (k : Fin k0_t3_loop.trips) (b : Fin 2) (r : Fin 64) :
    512 * (wid L).val + 128 * k.val + 64 * b.val + r.val < 16384 := by
  have hw := (wid L).isLt
  have hk : k.val < 4 := Nat.lt_of_lt_of_eq k.isLt trips3
  have hb := b.isLt
  have hr := r.isLt
  omega

/-- Entry (r, e) of the window trip k writes, first (b = 0) or second (b = 1), sits at row 512 w + 128 k + 64 b + r of the result. -/
theorem win3_emb (k : Fin k0_t3_loop.trips) (b : Fin 2) (r e : Fin 64) :
    (ocWin3 L k b).view.emb (ix2 r e)
      = ix2 (⟨512 * (wid L).val + 128 * k.val + 64 * b.val + r.val, win3_row_lt L k b r⟩ : Fin 16384) e := by
  funext a
  refine Fin.ext ?_
  match a with
  | ⟨0, _⟩ =>
    show k0_off730 L k (BitVec.ofNat 32 b.val) 0 + 1 * r.val = 512 * (wid L).val + 128 * k.val + 64 * b.val + r.val
    rw [k0_off730_eq]
    show 1024 * (L 1).val + 512 * (L 0).val + 128 * k.val + 64 * b.val + 1 * r.val
      = 512 * (2 * (L 1).val + (L 0).val) + 128 * k.val + 64 * b.val + r.val
    omega
  | ⟨1, _⟩ =>
    show k0_off730 L k (BitVec.ofNat 32 b.val) 1 + 1 * e.val = e.val
    rw [k0_off730_eq]
    show 0 + 1 * e.val = e.val
    omega

/-- Every element of the window is such an entry. -/
theorem mem_win3 (k : Fin k0_t3_loop.trips) (b : Fin 2) (i : (ocWin3 L k b).view.ty.Idx) (hi : i ∈ (ocWin3 L k b).view.set) :
    ∃ r e : Fin 64, i = (ocWin3 L k b).view.emb (ix2 r e) := by
  obtain ⟨y, -, rfl⟩ := Finset.mem_map.1 hi
  exact ⟨y 0, y 1, congrArg _ (eq_ix2 (n0 := 64) (n1 := 64) y)⟩

/-- A write of the whole window, read back at its entry (r, e), is the payload's entry (r, e). -/
theorem win3_write (k : Fin k0_t3_loop.trips) (b : Fin 2) (f : Buf (Elt F) ((ocWin3 L k b).view.loc (V d (cV L) (jV L))))
    (pay : S64x64.Idx → Elt F .f32) (r e : Fin 64) :
    (ocWin3 L k b).view.writes (Elt F) f [⟨Rect.whole S64x64, pay⟩] ((ocWin3 L k b).view.emb (ix2 r e)) = pay (ix2 r e) :=
  (writes_whole_emb (ocWin3 L k b).view f pay (ix2 r e)).trans (cast_eq _ _)

/-! ## The lookup at that entry -/

theorem out_row_lt (k : Fin 4) (b : Fin 2) (r : Fin 64) : 512 * (wid L).val + 128 * k.val + 64 * b.val + r.val < 16384 := by
  have hw := (wid L).isLt
  have hk := k.isLt
  have hb := b.isLt
  have hr := r.isLt
  omega
theorem land_col_lt (b : Fin 2) (r : Fin 64) : 64 * b.val + r.val < 128 := by
  have hb := b.isLt
  have hr := r.isLt
  omega

/-- Row 512 w + 128 k + 64 b + r of lookup 0 is the table row named by the word that landed at (k, 64 b + r). -/
theorem G0_at (k : Fin 4) (b : Fin 2) (r e : Fin 64) :
    G0 m d (ix2 (⟨512 * (wid L).val + 128 * k.val + 64 * b.val + r.val, out_row_lt L k b r⟩ : Fin 16384) e)
      = rowAt3 d (m (t3Loc d)) (lands0 m d L (ix2 k (⟨64 * b.val + r.val, land_col_lt b r⟩ : Fin 128))) e := by
  unfold G0 rowAt3
  rw [Spec.takeRows_apply, lands0_word]
  refine congrArg (fun x : Fin 1000000 => m (t3Loc d) (ix2 x e)) (Fin.ext ?_)
  refine congrArg (fun x : Fin 16384 => (m (a0Loc d) (ix2 x (0 : Fin 1))).toNat % 1000000) (Fin.ext ?_)
  show 512 * (wid L).val + 128 * k.val + 64 * b.val + r.val = 512 * (wid L).val + 128 * k.val + (64 * b.val + r.val)
  omega

/-- Row 512 w + 128 k + 64 b + r of lookup 1 is the table row named by the word that landed at (k, 64 b + r). -/
theorem G1_at (k : Fin 4) (b : Fin 2) (r e : Fin 64) :
    G1 m d (ix2 (⟨512 * (wid L).val + 128 * k.val + 64 * b.val + r.val, out_row_lt L k b r⟩ : Fin 16384) e)
      = rowAt4 d (m (t4Loc d)) (lands1 m d L (ix2 k (⟨64 * b.val + r.val, land_col_lt b r⟩ : Fin 128))) e := by
  unfold G1 rowAt4
  rw [Spec.takeRows_apply, lands1_word]
  refine congrArg (fun x : Fin 1000000 => m (t4Loc d) (ix2 x e)) (Fin.ext ?_)
  refine congrArg (fun x : Fin 16384 => (m (a1Loc d) (ix2 x (0 : Fin 1))).toNat % 1000000) (Fin.ext ?_)
  show 512 * (wid L).val + 128 * k.val + 64 * b.val + r.val = 512 * (wid L).val + 128 * k.val + (64 * b.val + r.val)
  omega

/-- Row 512 w + 128 k + 64 b + r of lookup 2 is the table row named by the word that landed at (k, 64 b + r). -/
theorem G2_at (k : Fin 4) (b : Fin 2) (r e : Fin 64) :
    G2 m d (ix2 (⟨512 * (wid L).val + 128 * k.val + 64 * b.val + r.val, out_row_lt L k b r⟩ : Fin 16384) e)
      = rowAt5 d (m (t5Loc d)) (lands2 m d L (ix2 k (⟨64 * b.val + r.val, land_col_lt b r⟩ : Fin 128))) e := by
  unfold G2 rowAt5
  rw [Spec.takeRows_apply, lands2_word]
  refine congrArg (fun x : Fin 100000 => m (t5Loc d) (ix2 x e)) (Fin.ext ?_)
  refine congrArg (fun x : Fin 16384 => (m (a2Loc d) (ix2 x (0 : Fin 1))).toNat % 100000) (Fin.ext ?_)
  show 512 * (wid L).val + 128 * k.val + 64 * b.val + r.val = 512 * (wid L).val + 128 * k.val + (64 * b.val + r.val)
  omega

/-! ## What a window written from those rows holds -/

/-- A window written whole with the rows its landed words name holds the lookup. -/
theorem win1_value (k : Fin k0_t1_loop.trips) (b : Fin 2) (pay : S64x64.Idx → Elt F .f32)
    (hpay : ∀ r e : Fin 64, pay (ix2 r e)
      = rowAt3 d (m (t3Loc d)) (lands0 m d L (ix2 (Fin.cast trips1 k) (⟨64 * b.val + r.val, land_col_lt b r⟩ : Fin 128))) e) :
    ∀ i ∈ (ouWin1 L k b).view.set, ((ouWin1 L k b).view.writes (Elt F) (m (o0Loc d)) [⟨Rect.whole S64x64, pay⟩]) i = G0 m d i := by
  intro i hi
  obtain ⟨r, e, rfl⟩ := mem_win1 L k b i hi
  rw [win1_write d L k b _ pay r e, hpay, win1_emb]
  exact (G0_at m d L (Fin.cast trips1 k) b r e).symm

/-- A window written whole with the rows its landed words name holds the lookup. -/
theorem win2_value (k : Fin k0_t2_loop.trips) (b : Fin 2) (pay : S64x64.Idx → Elt F .f32)
    (hpay : ∀ r e : Fin 64, pay (ix2 r e)
      = rowAt4 d (m (t4Loc d)) (lands1 m d L (ix2 (Fin.cast trips2 k) (⟨64 * b.val + r.val, land_col_lt b r⟩ : Fin 128))) e) :
    ∀ i ∈ (oiWin2 L k b).view.set, ((oiWin2 L k b).view.writes (Elt F) (m (o1Loc d)) [⟨Rect.whole S64x64, pay⟩]) i = G1 m d i := by
  intro i hi
  obtain ⟨r, e, rfl⟩ := mem_win2 L k b i hi
  rw [win2_write d L k b _ pay r e, hpay, win2_emb]
  exact (G1_at m d L (Fin.cast trips2 k) b r e).symm

/-- A window written whole with the rows its landed words name holds the lookup. -/
theorem win3_value (k : Fin k0_t3_loop.trips) (b : Fin 2) (pay : S64x64.Idx → Elt F .f32)
    (hpay : ∀ r e : Fin 64, pay (ix2 r e)
      = rowAt5 d (m (t5Loc d)) (lands2 m d L (ix2 (Fin.cast trips3 k) (⟨64 * b.val + r.val, land_col_lt b r⟩ : Fin 128))) e) :
    ∀ i ∈ (ocWin3 L k b).view.set, ((ocWin3 L k b).view.writes (Elt F) (m (o2Loc d)) [⟨Rect.whole S64x64, pay⟩]) i = G2 m d i := by
  intro i hi
  obtain ⟨r, e, rfl⟩ := mem_win3 L k b i hi
  rw [win3_write d L k b _ pay r e, hpay, win3_emb]
  exact (G2_at m d L (Fin.cast trips3 k) b r e).symm

/-! ## Contents that agree on the elements held -/

/-- Held at some contents that agree with g on the elements held is held at g. -/
theorem congr_ex {ℓ : Loc nD τ sig} {S : Finset (Idx ℓ)} {q : PosShare TreeShare} (g : Buf (Elt F) ℓ) :
    (iprop(∃ f, ⌜∀ i ∈ S, f i = g i⌝ ∗ ℓ ↦[S]{q} f) : sProp 𝕄) ⊢ ℓ ↦[S]{q} g := by
  iintro ⟨%f, %hf, H⟩
  have e : (ℓ ↦[S]{q} f : sProp 𝕄) = ℓ ↦[S]{q} g := pointsTo_congr hf
  rw [← e]
  iexact H

end Cert.Proof.KVal

end
-- ==== Proof.KReg1.lean ====
/-
  Loop 1 of the kernel, one trip.  The trip's 128 row copies are followed row by row: each row of a staging slot ends
  at the table row its index word names, the slot's 64 rows are joined, the slot is written to its window of the
  result, and the window then holds the lookup.
-/
import proofs.«206842_g87686052315543_cont_sun_m_497_29_alg».proof.Defs
import proofs.«206842_g87686052315543_cont_sun_m_497_29_alg».proof.Proof.KRes
import proofs.«206842_g87686052315543_cont_sun_m_497_29_alg».proof.Proof.KWin
import proofs.«206842_g87686052315543_cont_sun_m_497_29_alg».proof.Proof.KLand
import proofs.«206842_g87686052315543_cont_sun_m_497_29_alg».proof.Proof.KRows
import proofs.«206842_g87686052315543_cont_sun_m_497_29_alg».proof.Proof.KJoin
import proofs.«206842_g87686052315543_cont_sun_m_497_29_alg».proof.Proof.KInv
import proofs.«206842_g87686052315543_cont_sun_m_497_29_alg».proof.Proof.KVal
import Idealize.ShloMosaic.Lib.SparseCore.Launch
import Idealize.ShloMosaic.Lib.SparseCore.Ops
import Idealize.ShloMosaic.Lib.StableHlo.Run
import Idealize.ShloMosaic.Lib.Batch
import Idealize.ShloMosaic.Lib.Tactic
import Idealize.ShloMosaic.Lib.Pipeline.Kit
import proofs.«206842_g87686052315543_cont_sun_m_497_29_alg».proof.Proof.Gen.Kernel
import proofs.«206842_g87686052315543_cont_sun_m_497_29_alg».proof.Proof.Gen.Kernel.Skeleton

noncomputable section

namespace Cert.Proof.KReg1

open Cert.Kernel Cert.Kernel.Gen Cert.Proof.KRes Cert.Proof.KWin Cert.Proof.KLand Cert.Proof.KRows Cert.Proof.KJoin Cert.Proof.KInv Cert.Proof.KVal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uidW" => (Memref.whole Cert.Kernel.main_v0_scv : Memref Cert.Kernel.sig Kind.scVector Space.hbm Cert.Kernel.S128x128 EltTy.i32)
local notation "iidW" => (Memref.whole Cert.Kernel.main_v1_scv : Memref Cert.Kernel.sig Kind.scVector Space.hbm Cert.Kernel.S128x128 EltTy.i32)
local notation "cidW" => (Memref.whole Cert.Kernel.main_v2_scv : Memref Cert.Kernel.sig Kind.scVector Space.hbm Cert.Kernel.S128x128 EltTy.i32)
local notation "utW" => (Memref.whole Cert.Kernel.main_arg3_scv : Memref Cert.Kernel.sig Kind.scVector Space.hbm Cert.Kernel.S1000000x64 EltTy.f32)
local notation "itW" => (Memref.whole Cert.Kernel.main_arg4_scv : Memref Cert.Kernel.sig Kind.scVector Space.hbm Cert.Kernel.S1000000x64 EltTy.f32)
local notation "ctW" => (Memref.whole Cert.Kernel.main_arg5_scv : Memref Cert.Kernel.sig Kind.scVector Space.hbm Cert.Kernel.S100000x64 EltTy.f32)
local notation "ouW" => (Memref.whole Cert.Kernel.main_v3_0_scv : Memref Cert.Kernel.sig Kind.scVector Space.hbm Cert.Kernel.S16384x64 EltTy.f32)
local notation "oiW" => (Memref.whole Cert.Kernel.main_v3_1_scv : Memref Cert.Kernel.sig Kind.scVector Space.hbm Cert.Kernel.S16384x64 EltTy.f32)
local notation "ocW" => (Memref.whole Cert.Kernel.main_v3_2_scv : Memref Cert.Kernel.sig Kind.scVector Space.hbm Cert.Kernel.S16384x64 EltTy.f32)
local notation "l0W" => (Memref.whole Cert.Kernel.cc0_scratch0 : Memref Cert.Kernel.sig Kind.scVector Space.vmem Cert.Kernel.S4x128 EltTy.i32)
local notation "l1W" => (Memref.whole Cert.Kernel.cc0_scratch1 : Memref Cert.Kernel.sig Kind.scVector Space.vmem Cert.Kernel.S4x128 EltTy.i32)
local notation "l2W" => (Memref.whole Cert.Kernel.cc0_scratch2 : Memref Cert.Kernel.sig Kind.scVector Space.vmem Cert.Kernel.S4x128 EltTy.i32)
local notation "bufW" => (Memref.whole Cert.Kernel.cc0_scratch3 : Memref Cert.Kernel.sig Kind.scVector Space.vmem Cert.Kernel.S2x64x64 EltTy.f32)

variable [FloatOps F] (m : (ℓ : Loc nD τ sig) → Buf (Elt F) ℓ) (d : Dev nD) (L : grid0.Coords)

set_option maxRecDepth 65536 in
set_option maxHeartbeats 20000000 in
/-- One trip of loop 1: 128 rows of the table fetched into the two staging slots through 128 read tokens, each slot
    written out to its window of the result once all its rows have landed; the two windows then hold the lookup. -/
theorem region1 [∀ e, Nonempty (Elt F e)] (hpre : PreOK m) (O : CellTallies nD τ sig (HIx 1)) (W : Waits sig (HIx 1))
    (k : Fin k0_t1_loop.trips) (v2 : BitVec 32) :
    inv1 m d L O W (Fin.cast trips1 k).val ⟨⟩
      ⊢ wp frame (wpE (defs₀ (F := F)) 𝒱₀ (V d (cV L) (jV L)) none) Set.univ
          (k0_t1_body (F := F) L uidW (Memref.isWhole_whole _) iidW (Memref.isWhole_whole _) cidW (Memref.isWhole_whole _)
            utW (Memref.isWhole_whole _) itW (Memref.isWhole_whole _) ctW (Memref.isWhole_whole _)
            ouW (Memref.isWhole_whole _) oiW (Memref.isWhole_whole _) ocW (Memref.isWhole_whole _)
            l0W (Memref.isWhole_whole _) l1W (Memref.isWhole_whole _) l2W (Memref.isWhole_whole _) bufW (Memref.isWhole_whole _)
            cc0_scratch4 cc0_scratch5 cc0_scratch6 cc0_scratch7 cc0_scratch8 cc0_scratch9 cc0_scratch10 cc0_scratch11 cc0_scratch12 cc0_scratch13
            cc0_scoped0 cc0_scoped1 cc0_scoped2 v2 k ())
          (fun _ => inv1 m d L O W ((Fin.cast trips1 k).val + 1) ⟨⟩) := by
  have _p4 : Transfers.BatchOf (V d (cV L) (jV L)) (SemLoc.dma (sig := sig) cc0_scratch4.sem) 16 := trivial
  have _p5 : Transfers.BatchOf (V d (cV L) (jV L)) (SemLoc.dma (sig := sig) cc0_scratch5.sem) 16 := trivial
  have _p6 : Transfers.BatchOf (V d (cV L) (jV L)) (SemLoc.dma (sig := sig) cc0_scratch6.sem) 16 := trivial
  have _p7 : Transfers.BatchOf (V d (cV L) (jV L)) (SemLoc.dma (sig := sig) cc0_scratch7.sem) 16 := trivial
  have _p8 : Transfers.BatchOf (V d (cV L) (jV L)) (SemLoc.dma (sig := sig) cc0_scratch8.sem) 16 := trivial
  have _p9 : Transfers.BatchOf (V d (cV L) (jV L)) (SemLoc.dma (sig := sig) cc0_scratch9.sem) 16 := trivial
  have _p10 : Transfers.BatchOf (V d (cV L) (jV L)) (SemLoc.dma (sig := sig) cc0_scratch10.sem) 16 := trivial
  have _p11 : Transfers.BatchOf (V d (cV L) (jV L)) (SemLoc.dma (sig := sig) cc0_scratch11.sem) 16 := trivial
  have hfl := lands0_lt m d L hpre
  unfold inv1
  rw [toks128_unroll]
  iintro ⟨Hmw, Hl0, Htoks, ⟨%f0, Hslot0⟩, ⟨%f1, Hslot1⟩, Hs4, Hs5, Hs6, Hs7, Hs8, Hs9, Hs10, Hs11, Hs12, Hs13, Hout, %W', %hW', HO⟩
  icases Htoks with ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31, Hu32, Hu33, Hu34, Hu35, Hu36, Hu37, Hu38, Hu39, Hu40, Hu41, Hu42, Hu43, Hu44, Hu45, Hu46, Hu47, Hu48, Hu49, Hu50, Hu51, Hu52, Hu53, Hu54, Hu55, Hu56, Hu57, Hu58, Hu59, Hu60, Hu61, Hu62, Hu63, Hu64, Hu65, Hu66, Hu67, Hu68, Hu69, Hu70, Hu71, Hu72, Hu73, Hu74, Hu75, Hu76, Hu77, Hu78, Hu79, Hu80, Hu81, Hu82, Hu83, Hu84, Hu85, Hu86, Hu87, Hu88, Hu89, Hu90, Hu91, Hu92, Hu93, Hu94, Hu95, Hu96, Hu97, Hu98, Hu99, Hu100, Hu101, Hu102, Hu103, Hu104, Hu105, Hu106, Hu107, Hu108, Hu109, Hu110, Hu111, Hu112, Hu113, Hu114, Hu115, Hu116, Hu117, Hu118, Hu119, Hu120, Hu121, Hu122, Hu123, Hu124, Hu125, Hu126, Hu127, -⟩
  ihave Hrows0 := (Entails.of_eq (slot0_split d L f0)) $$ Hslot0
  icases Hrows0 with ⟨Hr0_0, Hr0_1, Hr0_2, Hr0_3, Hr0_4, Hr0_5, Hr0_6, Hr0_7, Hr0_8, Hr0_9, Hr0_10, Hr0_11, Hr0_12, Hr0_13, Hr0_14, Hr0_15, Hr0_16, Hr0_17, Hr0_18, Hr0_19, Hr0_20, Hr0_21, Hr0_22, Hr0_23, Hr0_24, Hr0_25, Hr0_26, Hr0_27, Hr0_28, Hr0_29, Hr0_30, Hr0_31, Hr0_32, Hr0_33, Hr0_34, Hr0_35, Hr0_36, Hr0_37, Hr0_38, Hr0_39, Hr0_40, Hr0_41, Hr0_42, Hr0_43, Hr0_44, Hr0_45, Hr0_46, Hr0_47, Hr0_48, Hr0_49, Hr0_50, Hr0_51, Hr0_52, Hr0_53, Hr0_54, Hr0_55, Hr0_56, Hr0_57, Hr0_58, Hr0_59, Hr0_60, Hr0_61, Hr0_62, Hr0_63⟩
  ihave Hrows1 := (Entails.of_eq (slot1_split d L f1)) $$ Hslot1
  icases Hrows1 with ⟨Hr1_0, Hr1_1, Hr1_2, Hr1_3, Hr1_4, Hr1_5, Hr1_6, Hr1_7, Hr1_8, Hr1_9, Hr1_10, Hr1_11, Hr1_12, Hr1_13, Hr1_14, Hr1_15, Hr1_16, Hr1_17, Hr1_18, Hr1_19, Hr1_20, Hr1_21, Hr1_22, Hr1_23, Hr1_24, Hr1_25, Hr1_26, Hr1_27, Hr1_28, Hr1_29, Hr1_30, Hr1_31, Hr1_32, Hr1_33, Hr1_34, Hr1_35, Hr1_36, Hr1_37, Hr1_38, Hr1_39, Hr1_40, Hr1_41, Hr1_42, Hr1_43, Hr1_44, Hr1_45, Hr1_46, Hr1_47, Hr1_48, Hr1_49, Hr1_50, Hr1_51, Hr1_52, Hr1_53, Hr1_54, Hr1_55, Hr1_56, Hr1_57, Hr1_58, Hr1_59, Hr1_60, Hr1_61, Hr1_62, Hr1_63⟩
  ihave Ho := (outInv0_peel m d (wid L) (Fin.cast trips1 k)) $$ Hout
  icases Ho with ⟨Ho0, Ho1, Hrest⟩
  ihave Ho0' := (Entails.of_eq (pts_ouWin1 (F := F) d L k 0 _).symm) $$ Ho0
  ihave Ho1' := (Entails.of_eq (pts_ouWin1 (F := F) d L k 1 _).symm) $$ Ho1
  unfold k0_t1_body
  sl_exec_parts (disch := first | exact rowInb2 _ _ (hfl _) | exact rowInb _ _ (hfl _))
  ihave HS0 := (slot0_join d L _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [Hr0_0 Hr0_1 Hr0_2 Hr0_3 Hr0_4 Hr0_5 Hr0_6 Hr0_7 Hr0_8 Hr0_9 Hr0_10 Hr0_11 Hr0_12 Hr0_13 Hr0_14 Hr0_15 Hr0_16 Hr0_17 Hr0_18 Hr0_19 Hr0_20 Hr0_21 Hr0_22 Hr0_23 Hr0_24 Hr0_25 Hr0_26 Hr0_27 Hr0_28 Hr0_29 Hr0_30 Hr0_31 Hr0_32 Hr0_33 Hr0_34 Hr0_35 Hr0_36 Hr0_37 Hr0_38 Hr0_39 Hr0_40 Hr0_41 Hr0_42 Hr0_43 Hr0_44 Hr0_45 Hr0_46 Hr0_47 Hr0_48 Hr0_49 Hr0_50 Hr0_51 Hr0_52 Hr0_53 Hr0_54 Hr0_55 Hr0_56 Hr0_57 Hr0_58 Hr0_59 Hr0_60 Hr0_61 Hr0_62 Hr0_63]
  · iframe
  sl_exec_parts (disch := first | exact rowInb2 _ _ (hfl _) | exact rowInb _ _ (hfl _))
  ihave HS1 := (slot1_join d L _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [Hr1_0 Hr1_1 Hr1_2 Hr1_3 Hr1_4 Hr1_5 Hr1_6 Hr1_7 Hr1_8 Hr1_9 Hr1_10 Hr1_11 Hr1_12 Hr1_13 Hr1_14 Hr1_15 Hr1_16 Hr1_17 Hr1_18 Hr1_19 Hr1_20 Hr1_21 Hr1_22 Hr1_23 Hr1_24 Hr1_25 Hr1_26 Hr1_27 Hr1_28 Hr1_29 Hr1_30 Hr1_31 Hr1_32 Hr1_33 Hr1_34 Hr1_35 Hr1_36 Hr1_37 Hr1_38 Hr1_39 Hr1_40 Hr1_41 Hr1_42 Hr1_43 Hr1_44 Hr1_45 Hr1_46 Hr1_47 Hr1_48 Hr1_49 Hr1_50 Hr1_51 Hr1_52 Hr1_53 Hr1_54 Hr1_55 Hr1_56 Hr1_57 Hr1_58 Hr1_59 Hr1_60 Hr1_61 Hr1_62 Hr1_63]
  · iframe
  sl_exec_parts (disch := first | exact rowInb2 _ _ (hfl _) | exact rowInb _ _ (hfl _))
  sl_step
  isplitl [Hmw]; · iexact Hmw
  isplitl [Hl0]; · iexact Hl0
  isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31 Hu32 Hu33 Hu34 Hu35 Hu36 Hu37 Hu38 Hu39 Hu40 Hu41 Hu42 Hu43 Hu44 Hu45 Hu46 Hu47 Hu48 Hu49 Hu50 Hu51 Hu52 Hu53 Hu54 Hu55 Hu56 Hu57 Hu58 Hu59 Hu60 Hu61 Hu62 Hu63 Hu64 Hu65 Hu66 Hu67 Hu68 Hu69 Hu70 Hu71 Hu72 Hu73 Hu74 Hu75 Hu76 Hu77 Hu78 Hu79 Hu80 Hu81 Hu82 Hu83 Hu84 Hu85 Hu86 Hu87 Hu88 Hu89 Hu90 Hu91 Hu92 Hu93 Hu94 Hu95 Hu96 Hu97 Hu98 Hu99 Hu100 Hu101 Hu102 Hu103 Hu104 Hu105 Hu106 Hu107 Hu108 Hu109 Hu110 Hu111 Hu112 Hu113 Hu114 Hu115 Hu116 Hu117 Hu118 Hu119 Hu120 Hu121 Hu122 Hu123 Hu124 Hu125 Hu126 Hu127]
  · iframe
  isplitl [HS0]; · iexists _; iexact HS0
  isplitl [HS1]; · iexists _; iexact HS1
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Ho0' Ho1' Hrest]
  · iapply (outInv0_put m d (wid L) (Fin.cast trips1 k))
    isplitl [Ho0']
    · iapply (Entails.of_eq (pts_ouWin1 (F := F) d L k 0 _))
      iapply (congr_ex (F := F) (G0 m d))
      iexists _; isplitr
      on_goal 2 => iexact Ho0'
      ipureintro
      refine win1_value m d L k 0 _ ?_
      intro r e
      show (slotM0).view.read (Elt F) (glue d L _) (ix2 r e) = _
      rw [View.read_apply, glue_slot0]
      fin_cases r
      · refine (cast_eq _ _).trans ((row0_write d L _ e _ _).trans ?_)
        unfold region1.sl.dma1
        exact (tab_row3 (F := F) d L (m (t3Loc d)) _ _ e).trans (congrArg (fun w => rowAt3 d (m (t3Loc d)) w e) (lane1_0 (F := F) d L k (lands0 m d L) 0 slices_S16_o0_S1))
      · refine (cast_eq _ _).trans ((row0_write d L _ e _ _).trans ?_)
        unfold region1.sl.dma2
        exact (tab_row3 (F := F) d L (m (t3Loc d)) _ _ e).trans (congrArg (fun w => rowAt3 d (m (t3Loc d)) w e) (lane1_0 (F := F) d L k (lands0 m d L) 1 slices_S16_o1_S1))
      · refine (cast_eq _ _).trans ((row0_write d L _ e _ _).trans ?_)
        unfold region1.sl.dma3
        exact (tab_row3 (F := F) d L (m (t3Loc d)) _ _ e).trans (congrArg (fun w => rowAt3 d (m (t3Loc d)) w e) (lane1_0 (F := F) d L k (lands0 m d L) 2 slices_S16_o2_S1))
      · refine (cast_eq _ _).trans ((row0_write d L _ e _ _).trans ?_)
        unfold region1.sl.dma4
        exact (tab_row3 (F := F) d L (m (t3Loc d)) _ _ e).trans (congrArg (fun w => rowAt3 d (m (t3Loc d)) w e) (lane1_0 (F := F) d L k (lands0 m d L) 3 slices_S16_o3_S1))
      · refine (cast_eq _ _).trans ((row0_write d L _ e _ _).trans ?_)
        unfold region1.sl.dma5
        exact (tab_row3 (F := F) d L (m (t3Loc d)) _ _ e).trans (congrArg (fun w => rowAt3 d (m (t3Loc d)) w e) (lane1_0 (F := F) d L k (lands0 m d L) 4 slices_S16_o4_S1))
      · refine (cast_eq _ _).trans ((row0_write d L _ e _ _).trans ?_)
        unfold region1.sl.dma6
        exact (tab_row3 (F := F) d L (m (t3Loc d)) _ _ e).trans (congrArg (fun w => rowAt3 d (m (t3Loc d)) w e) (lane1_0 (F := F) d L k (lands0 m d L) 5 slices_S16_o5_S1))
      · refine (cast_eq _ _).trans ((row0_write d L _ e _ _).trans ?_)
        unfold region1.sl.dma7
        exact (tab_row3 (F := F) d L (m (t3Loc d)) _ _ e).trans (congrArg (fun w => rowAt3 d (m (t3Loc d)) w e) (lane1_0 (F := F) d L k (lands0 m d L) 6 slices_S16_o6_S1))
      · refine (cast_eq _ _).trans ((row0_write d L _ e _ _).trans ?_)
        unfold region1.sl.dma8
        exact (tab_row3 (F := F) d L (m (t3Loc d)) _ _ e).trans (congrArg (fun w => rowAt3 d (m (t3Loc d)) w e) (lane1_0 (F := F) d L k (lands0 m d L) 7 slices_S16_o7_S1))
      · refine (cast_eq _ _).trans ((row0_write d L _ e _ _).trans ?_)
        unfold region1.sl.dma9
        exact (tab_row3 (F := F) d L (m (t3Loc d)) _ _ e).trans (congrArg (fun w => rowAt3 d (m (t3Loc d)) w e) (lane1_0 (F := F) d L k (lands0 m d L) 8 slices_S16_o8_S1))
      · refine (cast_eq _ _).trans ((row0_write d L _ e _ _).trans ?_)
        unfold region1.sl.dma10
        exact (tab_row3 (F := F) d L (m (t3Loc d)) _ _ e).trans (congrArg (fun w => rowAt3 d (m (t3Loc d)) w e) (lane1_0 (F := F) d L k (lands0 m d L) 9 slices_S16_o9_S1))
      · refine (cast_eq _ _).trans ((row0_write d L _ e _ _).trans ?_)
        unfold region1.sl.dma11
        exact (tab_row3 (F := F) d L (m (t3Loc d)) _ _ e).trans (congrArg (fun w => rowAt3 d (m (t3Loc d)) w e) (lane1_0 (F := F) d L k (lands0 m d L) 10 slices_S16_o10_S1))
      · refine (cast_eq _ _).trans ((row0_write d L _ e _ _).trans ?_)
        unfold region1.sl.dma12
        exact (tab_row3 (F := F) d L (m (t3Loc d)) _ _ e).trans (congrArg (fun w => rowAt3 d (m (t3Loc d)) w e) (lane1_0 (F := F) d L k (lands0 m d L) 11 slices_S16_o11_S1))
      · refine (cast_eq _ _).trans ((row0_write d L _ e _ _).trans ?_)
        unfold region1.sl.dma13
        exact (tab_row3 (F := F) d L (m (t3Loc d)) _ _ e).trans (congrArg (fun w => rowAt3 d (m (t3Loc d)) w e) (lane1_0 (F := F) d L k (lands0 m d L) 12 slices_S16_o12_S1))
      · refine (cast_eq _ _).trans ((row0_write d L _ e _ _).trans ?_)
        unfold region1.sl.dma14
        exact (tab_row3 (F := F) d L (m (t3Loc d)) _ _ e).trans (congrArg (fun w => rowAt3 d (m (t3Loc d)) w e) (lane1_0 (F := F) d L k (lands0 m d L) 13 slices_S16_o13_S1))
      · refine (cast_eq _ _).trans ((row0_write d L _ e _ _).trans ?_)
        unfold region1.sl.dma15
        exact (tab_row3 (F := F) d L (m (t3Loc d)) _ _ e).trans (congrArg (fun w => rowAt3 d (m (t3Loc d)) w e) (lane1_0 (F := F) d L k (lands0 m d L) 14 slices_S16_o14_S1))
      · refine (cast_eq _ _).trans ((row0_write d L _ e _ _).trans ?_)
        unfold region1.sl.dma16
        exact (tab_row3 (F := F) d L (m (t3Loc d)) _ _ e).trans (congrArg (fun w => rowAt3 d (m (t3Loc d)) w e) (lane1_0 (F := F) d L k (lands0 m d L) 15 slices_S16_o15_S1))
      · refine (cast_eq _ _).trans ((row0_write d L _ e _ _).trans ?_)
        unfold region1.sl.dma18
        exact (tab_row3 (F := F) d L (m (t3Loc d)) _ _ e).trans (congrArg (fun w => rowAt3 d (m (t3Loc d)) w e) (lane1_1 (F := F) d L k (lands0 m d L) 0 slices_S16_o0_S1))
      · refine (cast_eq _ _).trans ((row0_write d L _ e _ _).trans ?_)
        unfold region1.sl.dma19
        exact (tab_row3 (F := F) d L (m (t3Loc d)) _ _ e).trans (congrArg (fun w => rowAt3 d (m (t3Loc d)) w e) (lane1_1 (F := F) d L k (lands0 m d L) 1 slices_S16_o1_S1))
      · refine (cast_eq _ _).trans ((row0_write d L _ e _ _).trans ?_)
        unfold region1.sl.dma20
        exact (tab_row3 (F := F) d L (m (t3Loc d)) _ _ e).trans (congrArg (fun w => rowAt3 d (m (t3Loc d)) w e) (lane1_1 (F := F) d L k (lands0 m d L) 2 slices_S16_o2_S1))
      · refine (cast_eq _ _).trans ((row0_write d L _ e _ _).trans ?_)
        unfold region1.sl.dma21
        exact (tab_row3 (F := F) d L (m (t3Loc d)) _ _ e).trans (congrArg (fun w => rowAt3 d (m (t3Loc d)) w e) (lane1_1 (F := F) d L k (lands0 m d L) 3 slices_S16_o3_S1))
      · refine (cast_eq _ _).trans ((row0_write d L _ e _ _).trans ?_)
        unfold region1.sl.dma22
        exact (tab_row3 (F := F) d L (m (t3Loc d)) _ _ e).trans (congrArg (fun w => rowAt3 d (m (t3Loc d)) w e) (lane1_1 (F := F) d L k (lands0 m d L) 4 slices_S16_o4_S1))
      · refine (cast_eq _ _).trans ((row0_write d L _ e _ _).trans ?_)
        unfold region1.sl.dma23
        exact (tab_row3 (F := F) d L (m (t3Loc d)) _ _ e).trans (congrArg (fun w => rowAt3 d (m (t3Loc d)) w e) (lane1_1 (F := F) d L k (lands0 m d L) 5 slices_S16_o5_S1))
      · refine (cast_eq _ _).trans ((row0_write d L _ e _ _).trans ?_)
        unfold region1.sl.dma24
        exact (tab_row3 (F := F) d L (m (t3Loc d)) _ _ e).trans (congrArg (fun w => rowAt3 d (m (t3Loc d)) w e) (lane1_1 (F := F) d L k (lands0 m d L) 6 slices_S16_o6_S1))
      · refine (cast_eq _ _).trans ((row0_write d L _ e _ _).trans ?_)
        unfold region1.sl.dma25
        exact (tab_row3 (F := F) d L (m (t3Loc d)) _ _ e).trans (congrArg (fun w => rowAt3 d (m (t3Loc d)) w e) (lane1_1 (F := F) d L k (lands0 m d L) 7 slices_S16_o7_S1))
      · refine (cast_eq _ _).trans ((row0_write d L _ e _ _).trans ?_)
        unfold region1.sl.dma26
        exact (tab_row3 (F := F) d L (m (t3Loc d)) _ _ e).trans (congrArg (fun w => rowAt3 d (m (t3Loc d)) w e) (lane1_1 (F := F) d L k (lands0 m d L) 8 slices_S16_o8_S1))
      · refine (cast_eq _ _).trans ((row0_write d L _ e _ _).trans ?_)
        unfold region1.sl.dma27
        exact (tab_row3 (F := F) d L (m (t3Loc d)) _ _ e).trans (congrArg (fun w => rowAt3 d (m (t3Loc d)) w e) (lane1_1 (F := F) d L k (lands0 m d L) 9 slices_S16_o9_S1))
      · refine (cast_eq _ _).trans ((row0_write d L _ e _ _).trans ?_)
        unfold region1.sl.dma28
        exact (tab_row3 (F := F) d L (m (t3Loc d)) _ _ e).trans (congrArg (fun w => rowAt3 d (m (t3Loc d)) w e) (lane1_1 (F := F) d L k (lands0 m d L) 10 slices_S16_o10_S1))
      · refine (cast_eq _ _).trans ((row0_write d L _ e _ _).trans ?_)
        unfold region1.sl.dma29
        exact (tab_row3 (F := F) d L (m (t3Loc d)) _ _ e).trans (congrArg (fun w => rowAt3 d (m (t3Loc d)) w e) (lane1_1 (F := F) d L k (lands0 m d L) 11 slices_S16_o11_S1))
      · refine (cast_eq _ _).trans ((row0_write d L _ e _ _).trans ?_)
        unfold region1.sl.dma30
        exact (tab_row3 (F := F) d L (m (t3Loc d)) _ _ e).trans (congrArg (fun w => rowAt3 d (m (t3Loc d)) w e) (lane1_1 (F := F) d L k (lands0 m d L) 12 slices_S16_o12_S1))
      · refine (cast_eq _ _).trans ((row0_write d L _ e _ _).trans ?_)
        unfold region1.sl.dma31
        exact (tab_row3 (F := F) d L (m (t3Loc d)) _ _ e).trans (congrArg (fun w => rowAt3 d (m (t3Loc d)) w e) (lane1_1 (F := F) d L k (lands0 m d L) 13 slices_S16_o13_S1))
      · refine (cast_eq _ _).trans ((row0_write d L _ e _ _).trans ?_)
        unfold region1.sl.dma32
        exact (tab_row3 (F := F) d L (m (t3Loc d)) _ _ e).trans (congrArg (fun w => rowAt3 d (m (t3Loc d)) w e) (lane1_1 (F := F) d L k (lands0 m d L) 14 slices_S16_o14_S1))
      · refine (cast_eq _ _).trans ((row0_write d L _ e _ _).trans ?_)
        unfold region1.sl.dma33
        exact (tab_row3 (F := F) d L (m (t3Loc d)) _ _ e).trans (congrArg (fun w => rowAt3 d (m (t3Loc d)) w e) (lane1_1 (F := F) d L k (lands0 m d L) 15 slices_S16_o15_S1))
      · refine (cast_eq _ _).trans ((row0_write d L _ e _ _).trans ?_)
        unfold region1.sl.dma35
        exact (tab_row3 (F := F) d L (m (t3Loc d)) _ _ e).trans (congrArg (fun w => rowAt3 d (m (t3Loc d)) w e) (lane1_2 (F := F) d L k (lands0 m d L) 0 slices_S16_o0_S1))
      · refine (cast_eq _ _).trans ((row0_write d L _ e _ _).trans ?_)
        unfold region1.sl.dma36
        exact (tab_row3 (F := F) d L (m (t3Loc d)) _ _ e).trans (congrArg (fun w => rowAt3 d (m (t3Loc d)) w e) (lane1_2 (F := F) d L k (lands0 m d L) 1 slices_S16_o1_S1))
      · refine (cast_eq _ _).trans ((row0_write d L _ e _ _).trans ?_)
        unfold region1.sl.dma37
        exact (tab_row3 (F := F) d L (m (t3Loc d)) _ _ e).trans (congrArg (fun w => rowAt3 d (m (t3Loc d)) w e) (lane1_2 (F := F) d L k (lands0 m d L) 2 slices_S16_o2_S1))
      · refine (cast_eq _ _).trans ((row0_write d L _ e _ _).trans ?_)
        unfold region1.sl.dma38
        exact (tab_row3 (F := F) d L (m (t3Loc d)) _ _ e).trans (congrArg (fun w => rowAt3 d (m (t3Loc d)) w e) (lane1_2 (F := F) d L k (lands0 m d L) 3 slices_S16_o3_S1))
      · refine (cast_eq _ _).trans ((row0_write d L _ e _ _).trans ?_)
        unfold region1.sl.dma39
        exact (tab_row3 (F := F) d L (m (t3Loc d)) _ _ e).trans (congrArg (fun w => rowAt3 d (m (t3Loc d)) w e) (lane1_2 (F := F) d L k (lands0 m d L) 4 slices_S16_o4_S1))
      · refine (cast_eq _ _).trans ((row0_write d L _ e _ _).trans ?_)
        unfold region1.sl.dma40
        exact (tab_row3 (F := F) d L (m (t3Loc d)) _ _ e).trans (congrArg (fun w => rowAt3 d (m (t3Loc d)) w e) (lane1_2 (F := F) d L k (lands0 m d L) 5 slices_S16_o5_S1))
      · refine (cast_eq _ _).trans ((row0_write d L _ e _ _).trans ?_)
        unfold region1.sl.dma41
        exact (tab_row3 (F := F) d L (m (t3Loc d)) _ _ e).trans (congrArg (fun w => rowAt3 d (m (t3Loc d)) w e) (lane1_2 (F := F) d L k (lands0 m d L) 6 slices_S16_o6_S1))
      · refine (cast_eq _ _).trans ((row0_write d L _ e _ _).trans ?_)
        unfold region1.sl.dma42
        exact (tab_row3 (F := F) d L (m (t3Loc d)) _ _ e).trans (congrArg (fun w => rowAt3 d (m (t3Loc d)) w e) (lane1_2 (F := F) d L k (lands0 m d L) 7 slices_S16_o7_S1))
      · refine (cast_eq _ _).trans ((row0_write d L _ e _ _).trans ?_)
        unfold region1.sl.dma43
        exact (tab_row3 (F := F) d L (m (t3Loc d)) _ _ e).trans (congrArg (fun w => rowAt3 d (m (t3Loc d)) w e) (lane1_2 (F := F) d L k (lands0 m d L) 8 slices_S16_o8_S1))
      · refine (cast_eq _ _).trans ((row0_write d L _ e _ _).trans ?_)
        unfold region1.sl.dma44
        exact (tab_row3 (F := F) d L (m (t3Loc d)) _ _ e).trans (congrArg (fun w => rowAt3 d (m (t3Loc d)) w e) (lane1_2 (F := F) d L k (lands0 m d L) 9 slices_S16_o9_S1))
      · refine (cast_eq _ _).trans ((row0_write d L _ e _ _).trans ?_)
        unfold region1.sl.dma45
        exact (tab_row3 (F := F) d L (m (t3Loc d)) _ _ e).trans (congrArg (fun w => rowAt3 d (m (t3Loc d)) w e) (lane1_2 (F := F) d L k (lands0 m d L) 10 slices_S16_o10_S1))
      · refine (cast_eq _ _).trans ((row0_write d L _ e _ _).trans ?_)
        unfold region1.sl.dma46
        exact (tab_row3 (F := F) d L (m (t3Loc d)) _ _ e).trans (congrArg (fun w => rowAt3 d (m (t3Loc d)) w e) (lane1_2 (F := F) d L k (lands0 m d L) 11 slices_S16_o11_S1))
      · refine (cast_eq _ _).trans ((row0_write d L _ e _ _).trans ?_)
        unfold region1.sl.dma47
        exact (tab_row3 (F := F) d L (m (t3Loc d)) _ _ e).trans (congrArg (fun w => rowAt3 d (m (t3Loc d)) w e) (lane1_2 (F := F) d L k (lands0 m d L) 12 slices_S16_o12_S1))
      · refine (cast_eq _ _).trans ((row0_write d L _ e _ _).trans ?_)
        unfold region1.sl.dma48
        exact (tab_row3 (F := F) d L (m (t3Loc d)) _ _ e).trans (congrArg (fun w => rowAt3 d (m (t3Loc d)) w e) (lane1_2 (F := F) d L k (lands0 m d L) 13 slices_S16_o13_S1))
      · refine (cast_eq _ _).trans ((row0_write d L _ e _ _).trans ?_)
        unfold region1.sl.dma49
        exact (tab_row3 (F := F) d L (m (t3Loc d)) _ _ e).trans (congrArg (fun w => rowAt3 d (m (t3Loc d)) w e) (lane1_2 (F := F) d L k (lands0 m d L) 14 slices_S16_o14_S1))
      · refine (cast_eq _ _).trans ((row0_write d L _ e _ _).trans ?_)
        unfold region1.sl.dma50
        exact (tab_row3 (F := F) d L (m (t3Loc d)) _ _ e).trans (congrArg (fun w => rowAt3 d (m (t3Loc d)) w e) (lane1_2 (F := F) d L k (lands0 m d L) 15 slices_S16_o15_S1))
      · refine (cast_eq _ _).trans ((row0_write d L _ e _ _).trans ?_)
        unfold region1.sl.dma52
        exact (tab_row3 (F := F) d L (m (t3Loc d)) _ _ e).trans (congrArg (fun w => rowAt3 d (m (t3Loc d)) w e) (lane1_3 (F := F) d L k (lands0 m d L) 0 slices_S16_o0_S1))
      · refine (cast_eq _ _).trans ((row0_write d L _ e _ _).trans ?_)
        unfold region1.sl.dma53
        exact (tab_row3 (F := F) d L (m (t3Loc d)) _ _ e).trans (congrArg (fun w => rowAt3 d (m (t3Loc d)) w e) (lane1_3 (F := F) d L k (lands0 m d L) 1 slices_S16_o1_S1))
      · refine (cast_eq _ _).trans ((row0_write d L _ e _ _).trans ?_)
        unfold region1.sl.dma54
        exact (tab_row3 (F := F) d L (m (t3Loc d)) _ _ e).trans (congrArg (fun w => rowAt3 d (m (t3Loc d)) w e) (lane1_3 (F := F) d L k (lands0 m d L) 2 slices_S16_o2_S1))
      · refine (cast_eq _ _).trans ((row0_write d L _ e _ _).trans ?_)
        unfold region1.sl.dma55
        exact (tab_row3 (F := F) d L (m (t3Loc d)) _ _ e).trans (congrArg (fun w => rowAt3 d (m (t3Loc d)) w e) (lane1_3 (F := F) d L k (lands0 m d L) 3 slices_S16_o3_S1))
      · refine (cast_eq _ _).trans ((row0_write d L _ e _ _).trans ?_)
        unfold region1.sl.dma56
        exact (tab_row3 (F := F) d L (m (t3Loc d)) _ _ e).trans (congrArg (fun w => rowAt3 d (m (t3Loc d)) w e) (lane1_3 (F := F) d L k (lands0 m d L) 4 slices_S16_o4_S1))
      · refine (cast_eq _ _).trans ((row0_write d L _ e _ _).trans ?_)
        unfold region1.sl.dma57
        exact (tab_row3 (F := F) d L (m (t3Loc d)) _ _ e).trans (congrArg (fun w => rowAt3 d (m (t3Loc d)) w e) (lane1_3 (F := F) d L k (lands0 m d L) 5 slices_S16_o5_S1))
      · refine (cast_eq _ _).trans ((row0_write d L _ e _ _).trans ?_)
        unfold region1.sl.dma58
        exact (tab_row3 (F := F) d L (m (t3Loc d)) _ _ e).trans (congrArg (fun w => rowAt3 d (m (t3Loc d)) w e) (lane1_3 (F := F) d L k (lands0 m d L) 6 slices_S16_o6_S1))
      · refine (cast_eq _ _).trans ((row0_write d L _ e _ _).trans ?_)
        unfold region1.sl.dma59
        exact (tab_row3 (F := F) d L (m (t3Loc d)) _ _ e).trans (congrArg (fun w => rowAt3 d (m (t3Loc d)) w e) (lane1_3 (F := F) d L k (lands0 m d L) 7 slices_S16_o7_S1))
      · refine (cast_eq _ _).trans ((row0_write d L _ e _ _).trans ?_)
        unfold region1.sl.dma60
        exact (tab_row3 (F := F) d L (m (t3Loc d)) _ _ e).trans (congrArg (fun w => rowAt3 d (m (t3Loc d)) w e) (lane1_3 (F := F) d L k (lands0 m d L) 8 slices_S16_o8_S1))
      · refine (cast_eq _ _).trans ((row0_write d L _ e _ _).trans ?_)
        unfold region1.sl.dma61
        exact (tab_row3 (F := F) d L (m (t3Loc d)) _ _ e).trans (congrArg (fun w => rowAt3 d (m (t3Loc d)) w e) (lane1_3 (F := F) d L k (lands0 m d L) 9 slices_S16_o9_S1))
      · refine (cast_eq _ _).trans ((row0_write d L _ e _ _).trans ?_)
        unfold region1.sl.dma62
        exact (tab_row3 (F := F) d L (m (t3Loc d)) _ _ e).trans (congrArg (fun w => rowAt3 d (m (t3Loc d)) w e) (lane1_3 (F := F) d L k (lands0 m d L) 10 slices_S16_o10_S1))
      · refine (cast_eq _ _).trans ((row0_write d L _ e _ _).trans ?_)
        unfold region1.sl.dma63
        exact (tab_row3 (F := F) d L (m (t3Loc d)) _ _ e).trans (congrArg (fun w => rowAt3 d (m (t3Loc d)) w e) (lane1_3 (F := F) d L k (lands0 m d L) 11 slices_S16_o11_S1))
      · refine (cast_eq _ _).trans ((row0_write d L _ e _ _).trans ?_)
        unfold region1.sl.dma64
        exact (tab_row3 (F := F) d L (m (t3Loc d)) _ _ e).trans (congrArg (fun w => rowAt3 d (m (t3Loc d)) w e) (lane1_3 (F := F) d L k (lands0 m d L) 12 slices_S16_o12_S1))
      · refine (cast_eq _ _).trans ((row0_write d L _ e _ _).trans ?_)
        unfold region1.sl.dma65
        exact (tab_row3 (F := F) d L (m (t3Loc d)) _ _ e).trans (congrArg (fun w => rowAt3 d (m (t3Loc d)) w e) (lane1_3 (F := F) d L k (lands0 m d L) 13 slices_S16_o13_S1))
      · refine (cast_eq _ _).trans ((row0_write d L _ e _ _).trans ?_)
        unfold region1.sl.dma66
        exact (tab_row3 (F := F) d L (m (t3Loc d)) _ _ e).trans (congrArg (fun w => rowAt3 d (m (t3Loc d)) w e) (lane1_3 (F := F) d L k (lands0 m d L) 14 slices_S16_o14_S1))
      · refine (cast_eq _ _).trans ((row0_write d L _ e _ _).trans ?_)
        unfold region1.sl.dma67
        exact (tab_row3 (F := F) d L (m (t3Loc d)) _ _ e).trans (congrArg (fun w => rowAt3 d (m (t3Loc d)) w e) (lane1_3 (F := F) d L k (lands0 m d L) 15 slices_S16_o15_S1))
    isplitl [Ho1']
    · iapply (Entails.of_eq (pts_ouWin1 (F := F) d L k 1 _))
      iapply (congr_ex (F := F) (G0 m d))
      iexists _; isplitr
      on_goal 2 => iexact Ho1'
      ipureintro
      refine win1_value m d L k 1 _ ?_
      intro r e
      show (slotM1).view.read (Elt F) (glue d L _) (ix2 r e) = _
      rw [View.read_apply, glue_slot1]
      fin_cases r
      · refine (cast_eq _ _).trans ((row1_write d L _ e _ _).trans ?_)
        unfold region1.sl.dma69
        exact (tab_row3 (F := F) d L (m (t3Loc d)) _ _ e).trans (congrArg (fun w => rowAt3 d (m (t3Loc d)) w e) (lane1_4 (F := F) d L k (lands0 m d L) 0 slices_S16_o0_S1))
      · refine (cast_eq _ _).trans ((row1_write d L _ e _ _).trans ?_)
        unfold region1.sl.dma70
        exact (tab_row3 (F := F) d L (m (t3Loc d)) _ _ e).trans (congrArg (fun w => rowAt3 d (m (t3Loc d)) w e) (lane1_4 (F := F) d L k (lands0 m d L) 1 slices_S16_o1_S1))
      · refine (cast_eq _ _).trans ((row1_write d L _ e _ _).trans ?_)
        unfold region1.sl.dma71
        exact (tab_row3 (F := F) d L (m (t3Loc d)) _ _ e).trans (congrArg (fun w => rowAt3 d (m (t3Loc d)) w e) (lane1_4 (F := F) d L k (lands0 m d L) 2 slices_S16_o2_S1))
      · refine (cast_eq _ _).trans ((row1_write d L _ e _ _).trans ?_)
        unfold region1.sl.dma72
        exact (tab_row3 (F := F) d L (m (t3Loc d)) _ _ e).trans (congrArg (fun w => rowAt3 d (m (t3Loc d)) w e) (lane1_4 (F := F) d L k (lands0 m d L) 3 slices_S16_o3_S1))
      · refine (cast_eq _ _).trans ((row1_write d L _ e _ _).trans ?_)
        unfold region1.sl.dma73
        exact (tab_row3 (F := F) d L (m (t3Loc d)) _ _ e).trans (congrArg (fun w => rowAt3 d (m (t3Loc d)) w e) (lane1_4 (F := F) d L k (lands0 m d L) 4 slices_S16_o4_S1))
      · refine (cast_eq _ _).trans ((row1_write d L _ e _ _).trans ?_)
        unfold region1.sl.dma74
        exact (tab_row3 (F := F) d L (m (t3Loc d)) _ _ e).trans (congrArg (fun w => rowAt3 d (m (t3Loc d)) w e) (lane1_4 (F := F) d L k (lands0 m d L) 5 slices_S16_o5_S1))
      · refine (cast_eq _ _).trans ((row1_write d L _ e _ _).trans ?_)
        unfold region1.sl.dma75
        exact (tab_row3 (F := F) d L (m (t3Loc d)) _ _ e).trans (congrArg (fun w => rowAt3 d (m (t3Loc d)) w e) (lane1_4 (F := F) d L k (lands0 m d L) 6 slices_S16_o6_S1))
      · refine (cast_eq _ _).trans ((row1_write d L _ e _ _).trans ?_)
        unfold region1.sl.dma76
        exact (tab_row3 (F := F) d L (m (t3Loc d)) _ _ e).trans (congrArg (fun w => rowAt3 d (m (t3Loc d)) w e) (lane1_4 (F := F) d L k (lands0 m d L) 7 slices_S16_o7_S1))
      · refine (cast_eq _ _).trans ((row1_write d L _ e _ _).trans ?_)
        unfold region1.sl.dma77
        exact (tab_row3 (F := F) d L (m (t3Loc d)) _ _ e).trans (congrArg (fun w => rowAt3 d (m (t3Loc d)) w e) (lane1_4 (F := F) d L k (lands0 m d L) 8 slices_S16_o8_S1))
      · refine (cast_eq _ _).trans ((row1_write d L _ e _ _).trans ?_)
        unfold region1.sl.dma78
        exact (tab_row3 (F := F) d L (m (t3Loc d)) _ _ e).trans (congrArg (fun w => rowAt3 d (m (t3Loc d)) w e) (lane1_4 (F := F) d L k (lands0 m d L) 9 slices_S16_o9_S1))
      · refine (cast_eq _ _).trans ((row1_write d L _ e _ _).trans ?_)
        unfold region1.sl.dma79
        exact (tab_row3 (F := F) d L (m (t3Loc d)) _ _ e).trans (congrArg (fun w => rowAt3 d (m (t3Loc d)) w e) (lane1_4 (F := F) d L k (lands0 m d L) 10 slices_S16_o10_S1))
      · refine (cast_eq _ _).trans ((row1_write d L _ e _ _).trans ?_)
        unfold region1.sl.dma80
        exact (tab_row3 (F := F) d L (m (t3Loc d)) _ _ e).trans (congrArg (fun w => rowAt3 d (m (t3Loc d)) w e) (lane1_4 (F := F) d L k (lands0 m d L) 11 slices_S16_o11_S1))
      · refine (cast_eq _ _).trans ((row1_write d L _ e _ _).trans ?_)
        unfold region1.sl.dma81
        exact (tab_row3 (F := F) d L (m (t3Loc d)) _ _ e).trans (congrArg (fun w => rowAt3 d (m (t3Loc d)) w e) (lane1_4 (F := F) d L k (lands0 m d L) 12 slices_S16_o12_S1))
      · refine (cast_eq _ _).trans ((row1_write d L _ e _ _).trans ?_)
        unfold region1.sl.dma82
        exact (tab_row3 (F := F) d L (m (t3Loc d)) _ _ e).trans (congrArg (fun w => rowAt3 d (m (t3Loc d)) w e) (lane1_4 (F := F) d L k (lands0 m d L) 13 slices_S16_o13_S1))
      · refine (cast_eq _ _).trans ((row1_write d L _ e _ _).trans ?_)
        unfold region1.sl.dma83
        exact (tab_row3 (F := F) d L (m (t3Loc d)) _ _ e).trans (congrArg (fun w => rowAt3 d (m (t3Loc d)) w e) (lane1_4 (F := F) d L k (lands0 m d L) 14 slices_S16_o14_S1))
      · refine (cast_eq _ _).trans ((row1_write d L _ e _ _).trans ?_)
        unfold region1.sl.dma84
        exact (tab_row3 (F := F) d L (m (t3Loc d)) _ _ e).trans (congrArg (fun w => rowAt3 d (m (t3Loc d)) w e) (lane1_4 (F := F) d L k (lands0 m d L) 15 slices_S16_o15_S1))
      · refine (cast_eq _ _).trans ((row1_write d L _ e _ _).trans ?_)
        unfold region1.sl.dma86
        exact (tab_row3 (F := F) d L (m (t3Loc d)) _ _ e).trans (congrArg (fun w => rowAt3 d (m (t3Loc d)) w e) (lane1_5 (F := F) d L k (lands0 m d L) 0 slices_S16_o0_S1))
      · refine (cast_eq _ _).trans ((row1_write d L _ e _ _).trans ?_)
        unfold region1.sl.dma87
        exact (tab_row3 (F := F) d L (m (t3Loc d)) _ _ e).trans (congrArg (fun w => rowAt3 d (m (t3Loc d)) w e) (lane1_5 (F := F) d L k (lands0 m d L) 1 slices_S16_o1_S1))
      · refine (cast_eq _ _).trans ((row1_write d L _ e _ _).trans ?_)
        unfold region1.sl.dma88
        exact (tab_row3 (F := F) d L (m (t3Loc d)) _ _ e).trans (congrArg (fun w => rowAt3 d (m (t3Loc d)) w e) (lane1_5 (F := F) d L k (lands0 m d L) 2 slices_S16_o2_S1))
      · refine (cast_eq _ _).trans ((row1_write d L _ e _ _).trans ?_)
        unfold region1.sl.dma89
        exact (tab_row3 (F := F) d L (m (t3Loc d)) _ _ e).trans (congrArg (fun w => rowAt3 d (m (t3Loc d)) w e) (lane1_5 (F := F) d L k (lands0 m d L) 3 slices_S16_o3_S1))
      · refine (cast_eq _ _).trans ((row1_write d L _ e _ _).trans ?_)
        unfold region1.sl.dma90
        exact (tab_row3 (F := F) d L (m (t3Loc d)) _ _ e).trans (congrArg (fun w => rowAt3 d (m (t3Loc d)) w e) (lane1_5 (F := F) d L k (lands0 m d L) 4 slices_S16_o4_S1))
      · refine (cast_eq _ _).trans ((row1_write d L _ e _ _).trans ?_)
        unfold region1.sl.dma91
        exact (tab_row3 (F := F) d L (m (t3Loc d)) _ _ e).trans (congrArg (fun w => rowAt3 d (m (t3Loc d)) w e) (lane1_5 (F := F) d L k (lands0 m d L) 5 slices_S16_o5_S1))
      · refine (cast_eq _ _).trans ((row1_write d L _ e _ _).trans ?_)
        unfold region1.sl.dma92
        exact (tab_row3 (F := F) d L (m (t3Loc d)) _ _ e).trans (congrArg (fun w => rowAt3 d (m (t3Loc d)) w e) (lane1_5 (F := F) d L k (lands0 m d L) 6 slices_S16_o6_S1))
      · refine (cast_eq _ _).trans ((row1_write d L _ e _ _).trans ?_)
        unfold region1.sl.dma93
        exact (tab_row3 (F := F) d L (m (t3Loc d)) _ _ e).trans (congrArg (fun w => rowAt3 d (m (t3Loc d)) w e) (lane1_5 (F := F) d L k (lands0 m d L) 7 slices_S16_o7_S1))
      · refine (cast_eq _ _).trans ((row1_write d L _ e _ _).trans ?_)
        unfold region1.sl.dma94
        exact (tab_row3 (F := F) d L (m (t3Loc d)) _ _ e).trans (congrArg (fun w => rowAt3 d (m (t3Loc d)) w e) (lane1_5 (F := F) d L k (lands0 m d L) 8 slices_S16_o8_S1))
      · refine (cast_eq _ _).trans ((row1_write d L _ e _ _).trans ?_)
        unfold region1.sl.dma95
        exact (tab_row3 (F := F) d L (m (t3Loc d)) _ _ e).trans (congrArg (fun w => rowAt3 d (m (t3Loc d)) w e) (lane1_5 (F := F) d L k (lands0 m d L) 9 slices_S16_o9_S1))
      · refine (cast_eq _ _).trans ((row1_write d L _ e _ _).trans ?_)
        unfold region1.sl.dma96
        exact (tab_row3 (F := F) d L (m (t3Loc d)) _ _ e).trans (congrArg (fun w => rowAt3 d (m (t3Loc d)) w e) (lane1_5 (F := F) d L k (lands0 m d L) 10 slices_S16_o10_S1))
      · refine (cast_eq _ _).trans ((row1_write d L _ e _ _).trans ?_)
        unfold region1.sl.dma97
        exact (tab_row3 (F := F) d L (m (t3Loc d)) _ _ e).trans (congrArg (fun w => rowAt3 d (m (t3Loc d)) w e) (lane1_5 (F := F) d L k (lands0 m d L) 11 slices_S16_o11_S1))
      · refine (cast_eq _ _).trans ((row1_write d L _ e _ _).trans ?_)
        unfold region1.sl.dma98
        exact (tab_row3 (F := F) d L (m (t3Loc d)) _ _ e).trans (congrArg (fun w => rowAt3 d (m (t3Loc d)) w e) (lane1_5 (F := F) d L k (lands0 m d L) 12 slices_S16_o12_S1))
      · refine (cast_eq _ _).trans ((row1_write d L _ e _ _).trans ?_)
        unfold region1.sl.dma99
        exact (tab_row3 (F := F) d L (m (t3Loc d)) _ _ e).trans (congrArg (fun w => rowAt3 d (m (t3Loc d)) w e) (lane1_5 (F := F) d L k (lands0 m d L) 13 slices_S16_o13_S1))
      · refine (cast_eq _ _).trans ((row1_write d L _ e _ _).trans ?_)
        unfold region1.sl.dma100
        exact (tab_row3 (F := F) d L (m (t3Loc d)) _ _ e).trans (congrArg (fun w => rowAt3 d (m (t3Loc d)) w e) (lane1_5 (F := F) d L k (lands0 m d L) 14 slices_S16_o14_S1))
      · refine (cast_eq _ _).trans ((row1_write d L _ e _ _).trans ?_)
        unfold region1.sl.dma101
        exact (tab_row3 (F := F) d L (m (t3Loc d)) _ _ e).trans (congrArg (fun w => rowAt3 d (m (t3Loc d)) w e) (lane1_5 (F := F) d L k (lands0 m d L) 15 slices_S16_o15_S1))
      · refine (cast_eq _ _).trans ((row1_write d L _ e _ _).trans ?_)
        unfold region1.sl.dma103
        exact (tab_row3 (F := F) d L (m (t3Loc d)) _ _ e).trans (congrArg (fun w => rowAt3 d (m (t3Loc d)) w e) (lane1_6 (F := F) d L k (lands0 m d L) 0 slices_S16_o0_S1))
      · refine (cast_eq _ _).trans ((row1_write d L _ e _ _).trans ?_)
        unfold region1.sl.dma104
        exact (tab_row3 (F := F) d L (m (t3Loc d)) _ _ e).trans (congrArg (fun w => rowAt3 d (m (t3Loc d)) w e) (lane1_6 (F := F) d L k (lands0 m d L) 1 slices_S16_o1_S1))
      · refine (cast_eq _ _).trans ((row1_write d L _ e _ _).trans ?_)
        unfold region1.sl.dma105
        exact (tab_row3 (F := F) d L (m (t3Loc d)) _ _ e).trans (congrArg (fun w => rowAt3 d (m (t3Loc d)) w e) (lane1_6 (F := F) d L k (lands0 m d L) 2 slices_S16_o2_S1))
      · refine (cast_eq _ _).trans ((row1_write d L _ e _ _).trans ?_)
        unfold region1.sl.dma106
        exact (tab_row3 (F := F) d L (m (t3Loc d)) _ _ e).trans (congrArg (fun w => rowAt3 d (m (t3Loc d)) w e) (lane1_6 (F := F) d L k (lands0 m d L) 3 slices_S16_o3_S1))
      · refine (cast_eq _ _).trans ((row1_write d L _ e _ _).trans ?_)
        unfold region1.sl.dma107
        exact (tab_row3 (F := F) d L (m (t3Loc d)) _ _ e).trans (congrArg (fun w => rowAt3 d (m (t3Loc d)) w e) (lane1_6 (F := F) d L k (lands0 m d L) 4 slices_S16_o4_S1))
      · refine (cast_eq _ _).trans ((row1_write d L _ e _ _).trans ?_)
        unfold region1.sl.dma108
        exact (tab_row3 (F := F) d L (m (t3Loc d)) _ _ e).trans (congrArg (fun w => rowAt3 d (m (t3Loc d)) w e) (lane1_6 (F := F) d L k (lands0 m d L) 5 slices_S16_o5_S1))
      · refine (cast_eq _ _).trans ((row1_write d L _ e _ _).trans ?_)
        unfold region1.sl.dma109
        exact (tab_row3 (F := F) d L (m (t3Loc d)) _ _ e).trans (congrArg (fun w => rowAt3 d (m (t3Loc d)) w e) (lane1_6 (F := F) d L k (lands0 m d L) 6 slices_S16_o6_S1))
      · refine (cast_eq _ _).trans ((row1_write d L _ e _ _).trans ?_)
        unfold region1.sl.dma110
        exact (tab_row3 (F := F) d L (m (t3Loc d)) _ _ e).trans (congrArg (fun w => rowAt3 d (m (t3Loc d)) w e) (lane1_6 (F := F) d L k (lands0 m d L) 7 slices_S16_o7_S1))
      · refine (cast_eq _ _).trans ((row1_write d L _ e _ _).trans ?_)
        unfold region1.sl.dma111
        exact (tab_row3 (F := F) d L (m (t3Loc d)) _ _ e).trans (congrArg (fun w => rowAt3 d (m (t3Loc d)) w e) (lane1_6 (F := F) d L k (lands0 m d L) 8 slices_S16_o8_S1))
      · refine (cast_eq _ _).trans ((row1_write d L _ e _ _).trans ?_)
        unfold region1.sl.dma112
        exact (tab_row3 (F := F) d L (m (t3Loc d)) _ _ e).trans (congrArg (fun w => rowAt3 d (m (t3Loc d)) w e) (lane1_6 (F := F) d L k (lands0 m d L) 9 slices_S16_o9_S1))
      · refine (cast_eq _ _).trans ((row1_write d L _ e _ _).trans ?_)
        unfold region1.sl.dma113
        exact (tab_row3 (F := F) d L (m (t3Loc d)) _ _ e).trans (congrArg (fun w => rowAt3 d (m (t3Loc d)) w e) (lane1_6 (F := F) d L k (lands0 m d L) 10 slices_S16_o10_S1))
      · refine (cast_eq _ _).trans ((row1_write d L _ e _ _).trans ?_)
        unfold region1.sl.dma114
        exact (tab_row3 (F := F) d L (m (t3Loc d)) _ _ e).trans (congrArg (fun w => rowAt3 d (m (t3Loc d)) w e) (lane1_6 (F := F) d L k (lands0 m d L) 11 slices_S16_o11_S1))
      · refine (cast_eq _ _).trans ((row1_write d L _ e _ _).trans ?_)
        unfold region1.sl.dma115
        exact (tab_row3 (F := F) d L (m (t3Loc d)) _ _ e).trans (congrArg (fun w => rowAt3 d (m (t3Loc d)) w e) (lane1_6 (F := F) d L k (lands0 m d L) 12 slices_S16_o12_S1))
      · refine (cast_eq _ _).trans ((row1_write d L _ e _ _).trans ?_)
        unfold region1.sl.dma116
        exact (tab_row3 (F := F) d L (m (t3Loc d)) _ _ e).trans (congrArg (fun w => rowAt3 d (m (t3Loc d)) w e) (lane1_6 (F := F) d L k (lands0 m d L) 13 slices_S16_o13_S1))
      · refine (cast_eq _ _).trans ((row1_write d L _ e _ _).trans ?_)
        unfold region1.sl.dma117
        exact (tab_row3 (F := F) d L (m (t3Loc d)) _ _ e).trans (congrArg (fun w => rowAt3 d (m (t3Loc d)) w e) (lane1_6 (F := F) d L k (lands0 m d L) 14 slices_S16_o14_S1))
      · refine (cast_eq _ _).trans ((row1_write d L _ e _ _).trans ?_)
        unfold region1.sl.dma118
        exact (tab_row3 (F := F) d L (m (t3Loc d)) _ _ e).trans (congrArg (fun w => rowAt3 d (m (t3Loc d)) w e) (lane1_6 (F := F) d L k (lands0 m d L) 15 slices_S16_o15_S1))
      · refine (cast_eq _ _).trans ((row1_write d L _ e _ _).trans ?_)
        unfold region1.sl.dma120
        exact (tab_row3 (F := F) d L (m (t3Loc d)) _ _ e).trans (congrArg (fun w => rowAt3 d (m (t3Loc d)) w e) (lane1_7 (F := F) d L k (lands0 m d L) 0 slices_S16_o0_S1))
      · refine (cast_eq _ _).trans ((row1_write d L _ e _ _).trans ?_)
        unfold region1.sl.dma121
        exact (tab_row3 (F := F) d L (m (t3Loc d)) _ _ e).trans (congrArg (fun w => rowAt3 d (m (t3Loc d)) w e) (lane1_7 (F := F) d L k (lands0 m d L) 1 slices_S16_o1_S1))
      · refine (cast_eq _ _).trans ((row1_write d L _ e _ _).trans ?_)
        unfold region1.sl.dma122
        exact (tab_row3 (F := F) d L (m (t3Loc d)) _ _ e).trans (congrArg (fun w => rowAt3 d (m (t3Loc d)) w e) (lane1_7 (F := F) d L k (lands0 m d L) 2 slices_S16_o2_S1))
      · refine (cast_eq _ _).trans ((row1_write d L _ e _ _).trans ?_)
        unfold region1.sl.dma123
        exact (tab_row3 (F := F) d L (m (t3Loc d)) _ _ e).trans (congrArg (fun w => rowAt3 d (m (t3Loc d)) w e) (lane1_7 (F := F) d L k (lands0 m d L) 3 slices_S16_o3_S1))
      · refine (cast_eq _ _).trans ((row1_write d L _ e _ _).trans ?_)
        unfold region1.sl.dma124
        exact (tab_row3 (F := F) d L (m (t3Loc d)) _ _ e).trans (congrArg (fun w => rowAt3 d (m (t3Loc d)) w e) (lane1_7 (F := F) d L k (lands0 m d L) 4 slices_S16_o4_S1))
      · refine (cast_eq _ _).trans ((row1_write d L _ e _ _).trans ?_)
        unfold region1.sl.dma125
        exact (tab_row3 (F := F) d L (m (t3Loc d)) _ _ e).trans (congrArg (fun w => rowAt3 d (m (t3Loc d)) w e) (lane1_7 (F := F) d L k (lands0 m d L) 5 slices_S16_o5_S1))
      · refine (cast_eq _ _).trans ((row1_write d L _ e _ _).trans ?_)
        unfold region1.sl.dma126
        exact (tab_row3 (F := F) d L (m (t3Loc d)) _ _ e).trans (congrArg (fun w => rowAt3 d (m (t3Loc d)) w e) (lane1_7 (F := F) d L k (lands0 m d L) 6 slices_S16_o6_S1))
      · refine (cast_eq _ _).trans ((row1_write d L _ e _ _).trans ?_)
        unfold region1.sl.dma127
        exact (tab_row3 (F := F) d L (m (t3Loc d)) _ _ e).trans (congrArg (fun w => rowAt3 d (m (t3Loc d)) w e) (lane1_7 (F := F) d L k (lands0 m d L) 7 slices_S16_o7_S1))
      · refine (cast_eq _ _).trans ((row1_write d L _ e _ _).trans ?_)
        unfold region1.sl.dma128
        exact (tab_row3 (F := F) d L (m (t3Loc d)) _ _ e).trans (congrArg (fun w => rowAt3 d (m (t3Loc d)) w e) (lane1_7 (F := F) d L k (lands0 m d L) 8 slices_S16_o8_S1))
      · refine (cast_eq _ _).trans ((row1_write d L _ e _ _).trans ?_)
        unfold region1.sl.dma129
        exact (tab_row3 (F := F) d L (m (t3Loc d)) _ _ e).trans (congrArg (fun w => rowAt3 d (m (t3Loc d)) w e) (lane1_7 (F := F) d L k (lands0 m d L) 9 slices_S16_o9_S1))
      · refine (cast_eq _ _).trans ((row1_write d L _ e _ _).trans ?_)
        unfold region1.sl.dma130
        exact (tab_row3 (F := F) d L (m (t3Loc d)) _ _ e).trans (congrArg (fun w => rowAt3 d (m (t3Loc d)) w e) (lane1_7 (F := F) d L k (lands0 m d L) 10 slices_S16_o10_S1))
      · refine (cast_eq _ _).trans ((row1_write d L _ e _ _).trans ?_)
        unfold region1.sl.dma131
        exact (tab_row3 (F := F) d L (m (t3Loc d)) _ _ e).trans (congrArg (fun w => rowAt3 d (m (t3Loc d)) w e) (lane1_7 (F := F) d L k (lands0 m d L) 11 slices_S16_o11_S1))
      · refine (cast_eq _ _).trans ((row1_write d L _ e _ _).trans ?_)
        unfold region1.sl.dma132
        exact (tab_row3 (F := F) d L (m (t3Loc d)) _ _ e).trans (congrArg (fun w => rowAt3 d (m (t3Loc d)) w e) (lane1_7 (F := F) d L k (lands0 m d L) 12 slices_S16_o12_S1))
      · refine (cast_eq _ _).trans ((row1_write d L _ e _ _).trans ?_)
        unfold region1.sl.dma133
        exact (tab_row3 (F := F) d L (m (t3Loc d)) _ _ e).trans (congrArg (fun w => rowAt3 d (m (t3Loc d)) w e) (lane1_7 (F := F) d L k (lands0 m d L) 13 slices_S16_o13_S1))
      · refine (cast_eq _ _).trans ((row1_write d L _ e _ _).trans ?_)
        unfold region1.sl.dma134
        exact (tab_row3 (F := F) d L (m (t3Loc d)) _ _ e).trans (congrArg (fun w => rowAt3 d (m (t3Loc d)) w e) (lane1_7 (F := F) d L k (lands0 m d L) 14 slices_S16_o14_S1))
      · refine (cast_eq _ _).trans ((row1_write d L _ e _ _).trans ?_)
        unfold region1.sl.dma135
        exact (tab_row3 (F := F) d L (m (t3Loc d)) _ _ e).trans (congrArg (fun w => rowAt3 d (m (t3Loc d)) w e) (lane1_7 (F := F) d L k (lands0 m d L) 15 slices_S16_o15_S1))
    iexact Hrest
  iexists _; isplitr
  on_goal 2 => iexact HO
  ipureintro
  repeat' (first | exact hW' | refine waits_insert _ ?_)

end Cert.Proof.KReg1

end
-- ==== Proof.KReg2.lean ====
/-
  Loop 2 of the kernel, one trip.  The trip's 128 row copies are followed row by row: each row of a staging slot ends
  at the table row its index word names, the slot's 64 rows are joined, the slot is written to its window of the
  result, and the window then holds the lookup.
-/
import proofs.«206842_g87686052315543_cont_sun_m_497_29_alg».proof.Defs
import proofs.«206842_g87686052315543_cont_sun_m_497_29_alg».proof.Proof.KRes
import proofs.«206842_g87686052315543_cont_sun_m_497_29_alg».proof.Proof.KWin
import proofs.«206842_g87686052315543_cont_sun_m_497_29_alg».proof.Proof.KLand
import proofs.«206842_g87686052315543_cont_sun_m_497_29_alg».proof.Proof.KRows
import proofs.«206842_g87686052315543_cont_sun_m_497_29_alg».proof.Proof.KJoin
import proofs.«206842_g87686052315543_cont_sun_m_497_29_alg».proof.Proof.KInv
import proofs.«206842_g87686052315543_cont_sun_m_497_29_alg».proof.Proof.KVal
import Idealize.ShloMosaic.Lib.SparseCore.Launch
import Idealize.ShloMosaic.Lib.SparseCore.Ops
import Idealize.ShloMosaic.Lib.StableHlo.Run
import Idealize.ShloMosaic.Lib.Batch
import Idealize.ShloMosaic.Lib.Tactic
import Idealize.ShloMosaic.Lib.Pipeline.Kit
import proofs.«206842_g87686052315543_cont_sun_m_497_29_alg».proof.Proof.Gen.Kernel
import proofs.«206842_g87686052315543_cont_sun_m_497_29_alg».proof.Proof.Gen.Kernel.Skeleton

noncomputable section

namespace Cert.Proof.KReg2

open Cert.Kernel Cert.Kernel.Gen Cert.Proof.KRes Cert.Proof.KWin Cert.Proof.KLand Cert.Proof.KRows Cert.Proof.KJoin Cert.Proof.KInv Cert.Proof.KVal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uidW" => (Memref.whole Cert.Kernel.main_v0_scv : Memref Cert.Kernel.sig Kind.scVector Space.hbm Cert.Kernel.S128x128 EltTy.i32)
local notation "iidW" => (Memref.whole Cert.Kernel.main_v1_scv : Memref Cert.Kernel.sig Kind.scVector Space.hbm Cert.Kernel.S128x128 EltTy.i32)
local notation "cidW" => (Memref.whole Cert.Kernel.main_v2_scv : Memref Cert.Kernel.sig Kind.scVector Space.hbm Cert.Kernel.S128x128 EltTy.i32)
local notation "utW" => (Memref.whole Cert.Kernel.main_arg3_scv : Memref Cert.Kernel.sig Kind.scVector Space.hbm Cert.Kernel.S1000000x64 EltTy.f32)
local notation "itW" => (Memref.whole Cert.Kernel.main_arg4_scv : Memref Cert.Kernel.sig Kind.scVector Space.hbm Cert.Kernel.S1000000x64 EltTy.f32)
local notation "ctW" => (Memref.whole Cert.Kernel.main_arg5_scv : Memref Cert.Kernel.sig Kind.scVector Space.hbm Cert.Kernel.S100000x64 EltTy.f32)
local notation "ouW" => (Memref.whole Cert.Kernel.main_v3_0_scv : Memref Cert.Kernel.sig Kind.scVector Space.hbm Cert.Kernel.S16384x64 EltTy.f32)
local notation "oiW" => (Memref.whole Cert.Kernel.main_v3_1_scv : Memref Cert.Kernel.sig Kind.scVector Space.hbm Cert.Kernel.S16384x64 EltTy.f32)
local notation "ocW" => (Memref.whole Cert.Kernel.main_v3_2_scv : Memref Cert.Kernel.sig Kind.scVector Space.hbm Cert.Kernel.S16384x64 EltTy.f32)
local notation "l0W" => (Memref.whole Cert.Kernel.cc0_scratch0 : Memref Cert.Kernel.sig Kind.scVector Space.vmem Cert.Kernel.S4x128 EltTy.i32)
local notation "l1W" => (Memref.whole Cert.Kernel.cc0_scratch1 : Memref Cert.Kernel.sig Kind.scVector Space.vmem Cert.Kernel.S4x128 EltTy.i32)
local notation "l2W" => (Memref.whole Cert.Kernel.cc0_scratch2 : Memref Cert.Kernel.sig Kind.scVector Space.vmem Cert.Kernel.S4x128 EltTy.i32)
local notation "bufW" => (Memref.whole Cert.Kernel.cc0_scratch3 : Memref Cert.Kernel.sig Kind.scVector Space.vmem Cert.Kernel.S2x64x64 EltTy.f32)

variable [FloatOps F] (m : (ℓ : Loc nD τ sig) → Buf (Elt F) ℓ) (d : Dev nD) (L : grid0.Coords)

set_option maxRecDepth 65536 in
set_option maxHeartbeats 20000000 in
/-- One trip of loop 2: 128 rows of the table fetched into the two staging slots through 128 read tokens, each slot
    written out to its window of the result once all its rows have landed; the two windows then hold the lookup. -/
theorem region2 [∀ e, Nonempty (Elt F e)] (hpre : PreOK m) (O : CellTallies nD τ sig (HIx 1)) (W : Waits sig (HIx 1))
    (k : Fin k0_t2_loop.trips) (v2 : BitVec 32) :
    inv2 m d L O W (Fin.cast trips2 k).val ⟨⟩
      ⊢ wp frame (wpE (defs₀ (F := F)) 𝒱₀ (V d (cV L) (jV L)) none) Set.univ
          (k0_t2_body (F := F) L uidW (Memref.isWhole_whole _) iidW (Memref.isWhole_whole _) cidW (Memref.isWhole_whole _)
            utW (Memref.isWhole_whole _) itW (Memref.isWhole_whole _) ctW (Memref.isWhole_whole _)
            ouW (Memref.isWhole_whole _) oiW (Memref.isWhole_whole _) ocW (Memref.isWhole_whole _)
            l0W (Memref.isWhole_whole _) l1W (Memref.isWhole_whole _) l2W (Memref.isWhole_whole _) bufW (Memref.isWhole_whole _)
            cc0_scratch4 cc0_scratch5 cc0_scratch6 cc0_scratch7 cc0_scratch8 cc0_scratch9 cc0_scratch10 cc0_scratch11 cc0_scratch12 cc0_scratch13
            cc0_scoped0 cc0_scoped1 cc0_scoped2 v2 k ())
          (fun _ => inv2 m d L O W ((Fin.cast trips2 k).val + 1) ⟨⟩) := by
  have _p4 : Transfers.BatchOf (V d (cV L) (jV L)) (SemLoc.dma (sig := sig) cc0_scratch4.sem) 16 := trivial
  have _p5 : Transfers.BatchOf (V d (cV L) (jV L)) (SemLoc.dma (sig := sig) cc0_scratch5.sem) 16 := trivial
  have _p6 : Transfers.BatchOf (V d (cV L) (jV L)) (SemLoc.dma (sig := sig) cc0_scratch6.sem) 16 := trivial
  have _p7 : Transfers.BatchOf (V d (cV L) (jV L)) (SemLoc.dma (sig := sig) cc0_scratch7.sem) 16 := trivial
  have _p8 : Transfers.BatchOf (V d (cV L) (jV L)) (SemLoc.dma (sig := sig) cc0_scratch8.sem) 16 := trivial
  have _p9 : Transfers.BatchOf (V d (cV L) (jV L)) (SemLoc.dma (sig := sig) cc0_scratch9.sem) 16 := trivial
  have _p10 : Transfers.BatchOf (V d (cV L) (jV L)) (SemLoc.dma (sig := sig) cc0_scratch10.sem) 16 := trivial
  have _p11 : Transfers.BatchOf (V d (cV L) (jV L)) (SemLoc.dma (sig := sig) cc0_scratch11.sem) 16 := trivial
  have hfl := lands1_lt m d L hpre
  unfold inv2
  rw [toks128_unroll]
  iintro ⟨Hmw, Hl0, Htoks, ⟨%f0, Hslot0⟩, ⟨%f1, Hslot1⟩, Hs4, Hs5, Hs6, Hs7, Hs8, Hs9, Hs10, Hs11, Hs12, Hs13, Hout, %W', %hW', HO⟩
  icases Htoks with ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31, Hu32, Hu33, Hu34, Hu35, Hu36, Hu37, Hu38, Hu39, Hu40, Hu41, Hu42, Hu43, Hu44, Hu45, Hu46, Hu47, Hu48, Hu49, Hu50, Hu51, Hu52, Hu53, Hu54, Hu55, Hu56, Hu57, Hu58, Hu59, Hu60, Hu61, Hu62, Hu63, Hu64, Hu65, Hu66, Hu67, Hu68, Hu69, Hu70, Hu71, Hu72, Hu73, Hu74, Hu75, Hu76, Hu77, Hu78, Hu79, Hu80, Hu81, Hu82, Hu83, Hu84, Hu85, Hu86, Hu87, Hu88, Hu89, Hu90, Hu91, Hu92, Hu93, Hu94, Hu95, Hu96, Hu97, Hu98, Hu99, Hu100, Hu101, Hu102, Hu103, Hu104, Hu105, Hu106, Hu107, Hu108, Hu109, Hu110, Hu111, Hu112, Hu113, Hu114, Hu115, Hu116, Hu117, Hu118, Hu119, Hu120, Hu121, Hu122, Hu123, Hu124, Hu125, Hu126, Hu127, -⟩
  ihave Hrows0 := (Entails.of_eq (slot0_split d L f0)) $$ Hslot0
  icases Hrows0 with ⟨Hr0_0, Hr0_1, Hr0_2, Hr0_3, Hr0_4, Hr0_5, Hr0_6, Hr0_7, Hr0_8, Hr0_9, Hr0_10, Hr0_11, Hr0_12, Hr0_13, Hr0_14, Hr0_15, Hr0_16, Hr0_17, Hr0_18, Hr0_19, Hr0_20, Hr0_21, Hr0_22, Hr0_23, Hr0_24, Hr0_25, Hr0_26, Hr0_27, Hr0_28, Hr0_29, Hr0_30, Hr0_31, Hr0_32, Hr0_33, Hr0_34, Hr0_35, Hr0_36, Hr0_37, Hr0_38, Hr0_39, Hr0_40, Hr0_41, Hr0_42, Hr0_43, Hr0_44, Hr0_45, Hr0_46, Hr0_47, Hr0_48, Hr0_49, Hr0_50, Hr0_51, Hr0_52, Hr0_53, Hr0_54, Hr0_55, Hr0_56, Hr0_57, Hr0_58, Hr0_59, Hr0_60, Hr0_61, Hr0_62, Hr0_63⟩
  ihave Hrows1 := (Entails.of_eq (slot1_split d L f1)) $$ Hslot1
  icases Hrows1 with ⟨Hr1_0, Hr1_1, Hr1_2, Hr1_3, Hr1_4, Hr1_5, Hr1_6, Hr1_7, Hr1_8, Hr1_9, Hr1_10, Hr1_11, Hr1_12, Hr1_13, Hr1_14, Hr1_15, Hr1_16, Hr1_17, Hr1_18, Hr1_19, Hr1_20, Hr1_21, Hr1_22, Hr1_23, Hr1_24, Hr1_25, Hr1_26, Hr1_27, Hr1_28, Hr1_29, Hr1_30, Hr1_31, Hr1_32, Hr1_33, Hr1_34, Hr1_35, Hr1_36, Hr1_37, Hr1_38, Hr1_39, Hr1_40, Hr1_41, Hr1_42, Hr1_43, Hr1_44, Hr1_45, Hr1_46, Hr1_47, Hr1_48, Hr1_49, Hr1_50, Hr1_51, Hr1_52, Hr1_53, Hr1_54, Hr1_55, Hr1_56, Hr1_57, Hr1_58, Hr1_59, Hr1_60, Hr1_61, Hr1_62, Hr1_63⟩
  ihave Ho := (outInv1_peel m d (wid L) (Fin.cast trips2 k)) $$ Hout
  icases Ho with ⟨Ho0, Ho1, Hrest⟩
  ihave Ho0' := (Entails.of_eq (pts_oiWin2 (F := F) d L k 0 _).symm) $$ Ho0
  ihave Ho1' := (Entails.of_eq (pts_oiWin2 (F := F) d L k 1 _).symm) $$ Ho1
  unfold k0_t2_body
  sl_exec_parts (disch := first | exact rowInb2 _ _ (hfl _) | exact rowInb _ _ (hfl _))
  ihave HS0 := (slot0_join d L _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [Hr0_0 Hr0_1 Hr0_2 Hr0_3 Hr0_4 Hr0_5 Hr0_6 Hr0_7 Hr0_8 Hr0_9 Hr0_10 Hr0_11 Hr0_12 Hr0_13 Hr0_14 Hr0_15 Hr0_16 Hr0_17 Hr0_18 Hr0_19 Hr0_20 Hr0_21 Hr0_22 Hr0_23 Hr0_24 Hr0_25 Hr0_26 Hr0_27 Hr0_28 Hr0_29 Hr0_30 Hr0_31 Hr0_32 Hr0_33 Hr0_34 Hr0_35 Hr0_36 Hr0_37 Hr0_38 Hr0_39 Hr0_40 Hr0_41 Hr0_42 Hr0_43 Hr0_44 Hr0_45 Hr0_46 Hr0_47 Hr0_48 Hr0_49 Hr0_50 Hr0_51 Hr0_52 Hr0_53 Hr0_54 Hr0_55 Hr0_56 Hr0_57 Hr0_58 Hr0_59 Hr0_60 Hr0_61 Hr0_62 Hr0_63]
  · iframe
  sl_exec_parts (disch := first | exact rowInb2 _ _ (hfl _) | exact rowInb _ _ (hfl _))
  ihave HS1 := (slot1_join d L _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [Hr1_0 Hr1_1 Hr1_2 Hr1_3 Hr1_4 Hr1_5 Hr1_6 Hr1_7 Hr1_8 Hr1_9 Hr1_10 Hr1_11 Hr1_12 Hr1_13 Hr1_14 Hr1_15 Hr1_16 Hr1_17 Hr1_18 Hr1_19 Hr1_20 Hr1_21 Hr1_22 Hr1_23 Hr1_24 Hr1_25 Hr1_26 Hr1_27 Hr1_28 Hr1_29 Hr1_30 Hr1_31 Hr1_32 Hr1_33 Hr1_34 Hr1_35 Hr1_36 Hr1_37 Hr1_38 Hr1_39 Hr1_40 Hr1_41 Hr1_42 Hr1_43 Hr1_44 Hr1_45 Hr1_46 Hr1_47 Hr1_48 Hr1_49 Hr1_50 Hr1_51 Hr1_52 Hr1_53 Hr1_54 Hr1_55 Hr1_56 Hr1_57 Hr1_58 Hr1_59 Hr1_60 Hr1_61 Hr1_62 Hr1_63]
  · iframe
  sl_exec_parts (disch := first | exact rowInb2 _ _ (hfl _) | exact rowInb _ _ (hfl _))
  sl_step
  isplitl [Hmw]; · iexact Hmw
  isplitl [Hl0]; · iexact Hl0
  isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31 Hu32 Hu33 Hu34 Hu35 Hu36 Hu37 Hu38 Hu39 Hu40 Hu41 Hu42 Hu43 Hu44 Hu45 Hu46 Hu47 Hu48 Hu49 Hu50 Hu51 Hu52 Hu53 Hu54 Hu55 Hu56 Hu57 Hu58 Hu59 Hu60 Hu61 Hu62 Hu63 Hu64 Hu65 Hu66 Hu67 Hu68 Hu69 Hu70 Hu71 Hu72 Hu73 Hu74 Hu75 Hu76 Hu77 Hu78 Hu79 Hu80 Hu81 Hu82 Hu83 Hu84 Hu85 Hu86 Hu87 Hu88 Hu89 Hu90 Hu91 Hu92 Hu93 Hu94 Hu95 Hu96 Hu97 Hu98 Hu99 Hu100 Hu101 Hu102 Hu103 Hu104 Hu105 Hu106 Hu107 Hu108 Hu109 Hu110 Hu111 Hu112 Hu113 Hu114 Hu115 Hu116 Hu117 Hu118 Hu119 Hu120 Hu121 Hu122 Hu123 Hu124 Hu125 Hu126 Hu127]
  · iframe
  isplitl [HS0]; · iexists _; iexact HS0
  isplitl [HS1]; · iexists _; iexact HS1
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Ho0' Ho1' Hrest]
  · iapply (outInv1_put m d (wid L) (Fin.cast trips2 k))
    isplitl [Ho0']
    · iapply (Entails.of_eq (pts_oiWin2 (F := F) d L k 0 _))
      iapply (congr_ex (F := F) (G1 m d))
      iexists _; isplitr
      on_goal 2 => iexact Ho0'
      ipureintro
      refine win2_value m d L k 0 _ ?_
      intro r e
      show (slotM0).view.read (Elt F) (glue d L _) (ix2 r e) = _
      rw [View.read_apply, glue_slot0]
      fin_cases r
      · refine (cast_eq _ _).trans ((row0_write d L _ e _ _).trans ?_)
        unfold region2.sl.dma1
        exact (tab_row4 (F := F) d L (m (t4Loc d)) _ _ e).trans (congrArg (fun w => rowAt4 d (m (t4Loc d)) w e) (lane2_0 (F := F) d L k (lands1 m d L) 0 slices_S16_o0_S1))
      · refine (cast_eq _ _).trans ((row0_write d L _ e _ _).trans ?_)
        unfold region2.sl.dma2
        exact (tab_row4 (F := F) d L (m (t4Loc d)) _ _ e).trans (congrArg (fun w => rowAt4 d (m (t4Loc d)) w e) (lane2_0 (F := F) d L k (lands1 m d L) 1 slices_S16_o1_S1))
      · refine (cast_eq _ _).trans ((row0_write d L _ e _ _).trans ?_)
        unfold region2.sl.dma3
        exact (tab_row4 (F := F) d L (m (t4Loc d)) _ _ e).trans (congrArg (fun w => rowAt4 d (m (t4Loc d)) w e) (lane2_0 (F := F) d L k (lands1 m d L) 2 slices_S16_o2_S1))
      · refine (cast_eq _ _).trans ((row0_write d L _ e _ _).trans ?_)
        unfold region2.sl.dma4
        exact (tab_row4 (F := F) d L (m (t4Loc d)) _ _ e).trans (congrArg (fun w => rowAt4 d (m (t4Loc d)) w e) (lane2_0 (F := F) d L k (lands1 m d L) 3 slices_S16_o3_S1))
      · refine (cast_eq _ _).trans ((row0_write d L _ e _ _).trans ?_)
        unfold region2.sl.dma5
        exact (tab_row4 (F := F) d L (m (t4Loc d)) _ _ e).trans (congrArg (fun w => rowAt4 d (m (t4Loc d)) w e) (lane2_0 (F := F) d L k (lands1 m d L) 4 slices_S16_o4_S1))
      · refine (cast_eq _ _).trans ((row0_write d L _ e _ _).trans ?_)
        unfold region2.sl.dma6
        exact (tab_row4 (F := F) d L (m (t4Loc d)) _ _ e).trans (congrArg (fun w => rowAt4 d (m (t4Loc d)) w e) (lane2_0 (F := F) d L k (lands1 m d L) 5 slices_S16_o5_S1))
      · refine (cast_eq _ _).trans ((row0_write d L _ e _ _).trans ?_)
        unfold region2.sl.dma7
        exact (tab_row4 (F := F) d L (m (t4Loc d)) _ _ e).trans (congrArg (fun w => rowAt4 d (m (t4Loc d)) w e) (lane2_0 (F := F) d L k (lands1 m d L) 6 slices_S16_o6_S1))
      · refine (cast_eq _ _).trans ((row0_write d L _ e _ _).trans ?_)
        unfold region2.sl.dma8
        exact (tab_row4 (F := F) d L (m (t4Loc d)) _ _ e).trans (congrArg (fun w => rowAt4 d (m (t4Loc d)) w e) (lane2_0 (F := F) d L k (lands1 m d L) 7 slices_S16_o7_S1))
      · refine (cast_eq _ _).trans ((row0_write d L _ e _ _).trans ?_)
        unfold region2.sl.dma9
        exact (tab_row4 (F := F) d L (m (t4Loc d)) _ _ e).trans (congrArg (fun w => rowAt4 d (m (t4Loc d)) w e) (lane2_0 (F := F) d L k (lands1 m d L) 8 slices_S16_o8_S1))
      · refine (cast_eq _ _).trans ((row0_write d L _ e _ _).trans ?_)
        unfold region2.sl.dma10
        exact (tab_row4 (F := F) d L (m (t4Loc d)) _ _ e).trans (congrArg (fun w => rowAt4 d (m (t4Loc d)) w e) (lane2_0 (F := F) d L k (lands1 m d L) 9 slices_S16_o9_S1))
      · refine (cast_eq _ _).trans ((row0_write d L _ e _ _).trans ?_)
        unfold region2.sl.dma11
        exact (tab_row4 (F := F) d L (m (t4Loc d)) _ _ e).trans (congrArg (fun w => rowAt4 d (m (t4Loc d)) w e) (lane2_0 (F := F) d L k (lands1 m d L) 10 slices_S16_o10_S1))
      · refine (cast_eq _ _).trans ((row0_write d L _ e _ _).trans ?_)
        unfold region2.sl.dma12
        exact (tab_row4 (F := F) d L (m (t4Loc d)) _ _ e).trans (congrArg (fun w => rowAt4 d (m (t4Loc d)) w e) (lane2_0 (F := F) d L k (lands1 m d L) 11 slices_S16_o11_S1))
      · refine (cast_eq _ _).trans ((row0_write d L _ e _ _).trans ?_)
        unfold region2.sl.dma13
        exact (tab_row4 (F := F) d L (m (t4Loc d)) _ _ e).trans (congrArg (fun w => rowAt4 d (m (t4Loc d)) w e) (lane2_0 (F := F) d L k (lands1 m d L) 12 slices_S16_o12_S1))
      · refine (cast_eq _ _).trans ((row0_write d L _ e _ _).trans ?_)
        unfold region2.sl.dma14
        exact (tab_row4 (F := F) d L (m (t4Loc d)) _ _ e).trans (congrArg (fun w => rowAt4 d (m (t4Loc d)) w e) (lane2_0 (F := F) d L k (lands1 m d L) 13 slices_S16_o13_S1))
      · refine (cast_eq _ _).trans ((row0_write d L _ e _ _).trans ?_)
        unfold region2.sl.dma15
        exact (tab_row4 (F := F) d L (m (t4Loc d)) _ _ e).trans (congrArg (fun w => rowAt4 d (m (t4Loc d)) w e) (lane2_0 (F := F) d L k (lands1 m d L) 14 slices_S16_o14_S1))
      · refine (cast_eq _ _).trans ((row0_write d L _ e _ _).trans ?_)
        unfold region2.sl.dma16
        exact (tab_row4 (F := F) d L (m (t4Loc d)) _ _ e).trans (congrArg (fun w => rowAt4 d (m (t4Loc d)) w e) (lane2_0 (F := F) d L k (lands1 m d L) 15 slices_S16_o15_S1))
      · refine (cast_eq _ _).trans ((row0_write d L _ e _ _).trans ?_)
        unfold region2.sl.dma18
        exact (tab_row4 (F := F) d L (m (t4Loc d)) _ _ e).trans (congrArg (fun w => rowAt4 d (m (t4Loc d)) w e) (lane2_1 (F := F) d L k (lands1 m d L) 0 slices_S16_o0_S1))
      · refine (cast_eq _ _).trans ((row0_write d L _ e _ _).trans ?_)
        unfold region2.sl.dma19
        exact (tab_row4 (F := F) d L (m (t4Loc d)) _ _ e).trans (congrArg (fun w => rowAt4 d (m (t4Loc d)) w e) (lane2_1 (F := F) d L k (lands1 m d L) 1 slices_S16_o1_S1))
      · refine (cast_eq _ _).trans ((row0_write d L _ e _ _).trans ?_)
        unfold region2.sl.dma20
        exact (tab_row4 (F := F) d L (m (t4Loc d)) _ _ e).trans (congrArg (fun w => rowAt4 d (m (t4Loc d)) w e) (lane2_1 (F := F) d L k (lands1 m d L) 2 slices_S16_o2_S1))
      · refine (cast_eq _ _).trans ((row0_write d L _ e _ _).trans ?_)
        unfold region2.sl.dma21
        exact (tab_row4 (F := F) d L (m (t4Loc d)) _ _ e).trans (congrArg (fun w => rowAt4 d (m (t4Loc d)) w e) (lane2_1 (F := F) d L k (lands1 m d L) 3 slices_S16_o3_S1))
      · refine (cast_eq _ _).trans ((row0_write d L _ e _ _).trans ?_)
        unfold region2.sl.dma22
        exact (tab_row4 (F := F) d L (m (t4Loc d)) _ _ e).trans (congrArg (fun w => rowAt4 d (m (t4Loc d)) w e) (lane2_1 (F := F) d L k (lands1 m d L) 4 slices_S16_o4_S1))
      · refine (cast_eq _ _).trans ((row0_write d L _ e _ _).trans ?_)
        unfold region2.sl.dma23
        exact (tab_row4 (F := F) d L (m (t4Loc d)) _ _ e).trans (congrArg (fun w => rowAt4 d (m (t4Loc d)) w e) (lane2_1 (F := F) d L k (lands1 m d L) 5 slices_S16_o5_S1))
      · refine (cast_eq _ _).trans ((row0_write d L _ e _ _).trans ?_)
        unfold region2.sl.dma24
        exact (tab_row4 (F := F) d L (m (t4Loc d)) _ _ e).trans (congrArg (fun w => rowAt4 d (m (t4Loc d)) w e) (lane2_1 (F := F) d L k (lands1 m d L) 6 slices_S16_o6_S1))
      · refine (cast_eq _ _).trans ((row0_write d L _ e _ _).trans ?_)
        unfold region2.sl.dma25
        exact (tab_row4 (F := F) d L (m (t4Loc d)) _ _ e).trans (congrArg (fun w => rowAt4 d (m (t4Loc d)) w e) (lane2_1 (F := F) d L k (lands1 m d L) 7 slices_S16_o7_S1))
      · refine (cast_eq _ _).trans ((row0_write d L _ e _ _).trans ?_)
        unfold region2.sl.dma26
        exact (tab_row4 (F := F) d L (m (t4Loc d)) _ _ e).trans (congrArg (fun w => rowAt4 d (m (t4Loc d)) w e) (lane2_1 (F := F) d L k (lands1 m d L) 8 slices_S16_o8_S1))
      · refine (cast_eq _ _).trans ((row0_write d L _ e _ _).trans ?_)
        unfold region2.sl.dma27
        exact (tab_row4 (F := F) d L (m (t4Loc d)) _ _ e).trans (congrArg (fun w => rowAt4 d (m (t4Loc d)) w e) (lane2_1 (F := F) d L k (lands1 m d L) 9 slices_S16_o9_S1))
      · refine (cast_eq _ _).trans ((row0_write d L _ e _ _).trans ?_)
        unfold region2.sl.dma28
        exact (tab_row4 (F := F) d L (m (t4Loc d)) _ _ e).trans (congrArg (fun w => rowAt4 d (m (t4Loc d)) w e) (lane2_1 (F := F) d L k (lands1 m d L) 10 slices_S16_o10_S1))
      · refine (cast_eq _ _).trans ((row0_write d L _ e _ _).trans ?_)
        unfold region2.sl.dma29
        exact (tab_row4 (F := F) d L (m (t4Loc d)) _ _ e).trans (congrArg (fun w => rowAt4 d (m (t4Loc d)) w e) (lane2_1 (F := F) d L k (lands1 m d L) 11 slices_S16_o11_S1))
      · refine (cast_eq _ _).trans ((row0_write d L _ e _ _).trans ?_)
        unfold region2.sl.dma30
        exact (tab_row4 (F := F) d L (m (t4Loc d)) _ _ e).trans (congrArg (fun w => rowAt4 d (m (t4Loc d)) w e) (lane2_1 (F := F) d L k (lands1 m d L) 12 slices_S16_o12_S1))
      · refine (cast_eq _ _).trans ((row0_write d L _ e _ _).trans ?_)
        unfold region2.sl.dma31
        exact (tab_row4 (F := F) d L (m (t4Loc d)) _ _ e).trans (congrArg (fun w => rowAt4 d (m (t4Loc d)) w e) (lane2_1 (F := F) d L k (lands1 m d L) 13 slices_S16_o13_S1))
      · refine (cast_eq _ _).trans ((row0_write d L _ e _ _).trans ?_)
        unfold region2.sl.dma32
        exact (tab_row4 (F := F) d L (m (t4Loc d)) _ _ e).trans (congrArg (fun w => rowAt4 d (m (t4Loc d)) w e) (lane2_1 (F := F) d L k (lands1 m d L) 14 slices_S16_o14_S1))
      · refine (cast_eq _ _).trans ((row0_write d L _ e _ _).trans ?_)
        unfold region2.sl.dma33
        exact (tab_row4 (F := F) d L (m (t4Loc d)) _ _ e).trans (congrArg (fun w => rowAt4 d (m (t4Loc d)) w e) (lane2_1 (F := F) d L k (lands1 m d L) 15 slices_S16_o15_S1))
      · refine (cast_eq _ _).trans ((row0_write d L _ e _ _).trans ?_)
        unfold region2.sl.dma35
        exact (tab_row4 (F := F) d L (m (t4Loc d)) _ _ e).trans (congrArg (fun w => rowAt4 d (m (t4Loc d)) w e) (lane2_2 (F := F) d L k (lands1 m d L) 0 slices_S16_o0_S1))
      · refine (cast_eq _ _).trans ((row0_write d L _ e _ _).trans ?_)
        unfold region2.sl.dma36
        exact (tab_row4 (F := F) d L (m (t4Loc d)) _ _ e).trans (congrArg (fun w => rowAt4 d (m (t4Loc d)) w e) (lane2_2 (F := F) d L k (lands1 m d L) 1 slices_S16_o1_S1))
      · refine (cast_eq _ _).trans ((row0_write d L _ e _ _).trans ?_)
        unfold region2.sl.dma37
        exact (tab_row4 (F := F) d L (m (t4Loc d)) _ _ e).trans (congrArg (fun w => rowAt4 d (m (t4Loc d)) w e) (lane2_2 (F := F) d L k (lands1 m d L) 2 slices_S16_o2_S1))
      · refine (cast_eq _ _).trans ((row0_write d L _ e _ _).trans ?_)
        unfold region2.sl.dma38
        exact (tab_row4 (F := F) d L (m (t4Loc d)) _ _ e).trans (congrArg (fun w => rowAt4 d (m (t4Loc d)) w e) (lane2_2 (F := F) d L k (lands1 m d L) 3 slices_S16_o3_S1))
      · refine (cast_eq _ _).trans ((row0_write d L _ e _ _).trans ?_)
        unfold region2.sl.dma39
        exact (tab_row4 (F := F) d L (m (t4Loc d)) _ _ e).trans (congrArg (fun w => rowAt4 d (m (t4Loc d)) w e) (lane2_2 (F := F) d L k (lands1 m d L) 4 slices_S16_o4_S1))
      · refine (cast_eq _ _).trans ((row0_write d L _ e _ _).trans ?_)
        unfold region2.sl.dma40
        exact (tab_row4 (F := F) d L (m (t4Loc d)) _ _ e).trans (congrArg (fun w => rowAt4 d (m (t4Loc d)) w e) (lane2_2 (F := F) d L k (lands1 m d L) 5 slices_S16_o5_S1))
      · refine (cast_eq _ _).trans ((row0_write d L _ e _ _).trans ?_)
        unfold region2.sl.dma41
        exact (tab_row4 (F := F) d L (m (t4Loc d)) _ _ e).trans (congrArg (fun w => rowAt4 d (m (t4Loc d)) w e) (lane2_2 (F := F) d L k (lands1 m d L) 6 slices_S16_o6_S1))
      · refine (cast_eq _ _).trans ((row0_write d L _ e _ _).trans ?_)
        unfold region2.sl.dma42
        exact (tab_row4 (F := F) d L (m (t4Loc d)) _ _ e).trans (congrArg (fun w => rowAt4 d (m (t4Loc d)) w e) (lane2_2 (F := F) d L k (lands1 m d L) 7 slices_S16_o7_S1))
      · refine (cast_eq _ _).trans ((row0_write d L _ e _ _).trans ?_)
        unfold region2.sl.dma43
        exact (tab_row4 (F := F) d L (m (t4Loc d)) _ _ e).trans (congrArg (fun w => rowAt4 d (m (t4Loc d)) w e) (lane2_2 (F := F) d L k (lands1 m d L) 8 slices_S16_o8_S1))
      · refine (cast_eq _ _).trans ((row0_write d L _ e _ _).trans ?_)
        unfold region2.sl.dma44
        exact (tab_row4 (F := F) d L (m (t4Loc d)) _ _ e).trans (congrArg (fun w => rowAt4 d (m (t4Loc d)) w e) (lane2_2 (F := F) d L k (lands1 m d L) 9 slices_S16_o9_S1))
      · refine (cast_eq _ _).trans ((row0_write d L _ e _ _).trans ?_)
        unfold region2.sl.dma45
        exact (tab_row4 (F := F) d L (m (t4Loc d)) _ _ e).trans (congrArg (fun w => rowAt4 d (m (t4Loc d)) w e) (lane2_2 (F := F) d L k (lands1 m d L) 10 slices_S16_o10_S1))
      · refine (cast_eq _ _).trans ((row0_write d L _ e _ _).trans ?_)
        unfold region2.sl.dma46
        exact (tab_row4 (F := F) d L (m (t4Loc d)) _ _ e).trans (congrArg (fun w => rowAt4 d (m (t4Loc d)) w e) (lane2_2 (F := F) d L k (lands1 m d L) 11 slices_S16_o11_S1))
      · refine (cast_eq _ _).trans ((row0_write d L _ e _ _).trans ?_)
        unfold region2.sl.dma47
        exact (tab_row4 (F := F) d L (m (t4Loc d)) _ _ e).trans (congrArg (fun w => rowAt4 d (m (t4Loc d)) w e) (lane2_2 (F := F) d L k (lands1 m d L) 12 slices_S16_o12_S1))
      · refine (cast_eq _ _).trans ((row0_write d L _ e _ _).trans ?_)
        unfold region2.sl.dma48
        exact (tab_row4 (F := F) d L (m (t4Loc d)) _ _ e).trans (congrArg (fun w => rowAt4 d (m (t4Loc d)) w e) (lane2_2 (F := F) d L k (lands1 m d L) 13 slices_S16_o13_S1))
      · refine (cast_eq _ _).trans ((row0_write d L _ e _ _).trans ?_)
        unfold region2.sl.dma49
        exact (tab_row4 (F := F) d L (m (t4Loc d)) _ _ e).trans (congrArg (fun w => rowAt4 d (m (t4Loc d)) w e) (lane2_2 (F := F) d L k (lands1 m d L) 14 slices_S16_o14_S1))
      · refine (cast_eq _ _).trans ((row0_write d L _ e _ _).trans ?_)
        unfold region2.sl.dma50
        exact (tab_row4 (F := F) d L (m (t4Loc d)) _ _ e).trans (congrArg (fun w => rowAt4 d (m (t4Loc d)) w e) (lane2_2 (F := F) d L k (lands1 m d L) 15 slices_S16_o15_S1))
      · refine (cast_eq _ _).trans ((row0_write d L _ e _ _).trans ?_)
        unfold region2.sl.dma52
        exact (tab_row4 (F := F) d L (m (t4Loc d)) _ _ e).trans (congrArg (fun w => rowAt4 d (m (t4Loc d)) w e) (lane2_3 (F := F) d L k (lands1 m d L) 0 slices_S16_o0_S1))
      · refine (cast_eq _ _).trans ((row0_write d L _ e _ _).trans ?_)
        unfold region2.sl.dma53
        exact (tab_row4 (F := F) d L (m (t4Loc d)) _ _ e).trans (congrArg (fun w => rowAt4 d (m (t4Loc d)) w e) (lane2_3 (F := F) d L k (lands1 m d L) 1 slices_S16_o1_S1))
      · refine (cast_eq _ _).trans ((row0_write d L _ e _ _).trans ?_)
        unfold region2.sl.dma54
        exact (tab_row4 (F := F) d L (m (t4Loc d)) _ _ e).trans (congrArg (fun w => rowAt4 d (m (t4Loc d)) w e) (lane2_3 (F := F) d L k (lands1 m d L) 2 slices_S16_o2_S1))
      · refine (cast_eq _ _).trans ((row0_write d L _ e _ _).trans ?_)
        unfold region2.sl.dma55
        exact (tab_row4 (F := F) d L (m (t4Loc d)) _ _ e).trans (congrArg (fun w => rowAt4 d (m (t4Loc d)) w e) (lane2_3 (F := F) d L k (lands1 m d L) 3 slices_S16_o3_S1))
      · refine (cast_eq _ _).trans ((row0_write d L _ e _ _).trans ?_)
        unfold region2.sl.dma56
        exact (tab_row4 (F := F) d L (m (t4Loc d)) _ _ e).trans (congrArg (fun w => rowAt4 d (m (t4Loc d)) w e) (lane2_3 (F := F) d L k (lands1 m d L) 4 slices_S16_o4_S1))
      · refine (cast_eq _ _).trans ((row0_write d L _ e _ _).trans ?_)
        unfold region2.sl.dma57
        exact (tab_row4 (F := F) d L (m (t4Loc d)) _ _ e).trans (congrArg (fun w => rowAt4 d (m (t4Loc d)) w e) (lane2_3 (F := F) d L k (lands1 m d L) 5 slices_S16_o5_S1))
      · refine (cast_eq _ _).trans ((row0_write d L _ e _ _).trans ?_)
        unfold region2.sl.dma58
        exact (tab_row4 (F := F) d L (m (t4Loc d)) _ _ e).trans (congrArg (fun w => rowAt4 d (m (t4Loc d)) w e) (lane2_3 (F := F) d L k (lands1 m d L) 6 slices_S16_o6_S1))
      · refine (cast_eq _ _).trans ((row0_write d L _ e _ _).trans ?_)
        unfold region2.sl.dma59
        exact (tab_row4 (F := F) d L (m (t4Loc d)) _ _ e).trans (congrArg (fun w => rowAt4 d (m (t4Loc d)) w e) (lane2_3 (F := F) d L k (lands1 m d L) 7 slices_S16_o7_S1))
      · refine (cast_eq _ _).trans ((row0_write d L _ e _ _).trans ?_)
        unfold region2.sl.dma60
        exact (tab_row4 (F := F) d L (m (t4Loc d)) _ _ e).trans (congrArg (fun w => rowAt4 d (m (t4Loc d)) w e) (lane2_3 (F := F) d L k (lands1 m d L) 8 slices_S16_o8_S1))
      · refine (cast_eq _ _).trans ((row0_write d L _ e _ _).trans ?_)
        unfold region2.sl.dma61
        exact (tab_row4 (F := F) d L (m (t4Loc d)) _ _ e).trans (congrArg (fun w => rowAt4 d (m (t4Loc d)) w e) (lane2_3 (F := F) d L k (lands1 m d L) 9 slices_S16_o9_S1))
      · refine (cast_eq _ _).trans ((row0_write d L _ e _ _).trans ?_)
        unfold region2.sl.dma62
        exact (tab_row4 (F := F) d L (m (t4Loc d)) _ _ e).trans (congrArg (fun w => rowAt4 d (m (t4Loc d)) w e) (lane2_3 (F := F) d L k (lands1 m d L) 10 slices_S16_o10_S1))
      · refine (cast_eq _ _).trans ((row0_write d L _ e _ _).trans ?_)
        unfold region2.sl.dma63
        exact (tab_row4 (F := F) d L (m (t4Loc d)) _ _ e).trans (congrArg (fun w => rowAt4 d (m (t4Loc d)) w e) (lane2_3 (F := F) d L k (lands1 m d L) 11 slices_S16_o11_S1))
      · refine (cast_eq _ _).trans ((row0_write d L _ e _ _).trans ?_)
        unfold region2.sl.dma64
        exact (tab_row4 (F := F) d L (m (t4Loc d)) _ _ e).trans (congrArg (fun w => rowAt4 d (m (t4Loc d)) w e) (lane2_3 (F := F) d L k (lands1 m d L) 12 slices_S16_o12_S1))
      · refine (cast_eq _ _).trans ((row0_write d L _ e _ _).trans ?_)
        unfold region2.sl.dma65
        exact (tab_row4 (F := F) d L (m (t4Loc d)) _ _ e).trans (congrArg (fun w => rowAt4 d (m (t4Loc d)) w e) (lane2_3 (F := F) d L k (lands1 m d L) 13 slices_S16_o13_S1))
      · refine (cast_eq _ _).trans ((row0_write d L _ e _ _).trans ?_)
        unfold region2.sl.dma66
        exact (tab_row4 (F := F) d L (m (t4Loc d)) _ _ e).trans (congrArg (fun w => rowAt4 d (m (t4Loc d)) w e) (lane2_3 (F := F) d L k (lands1 m d L) 14 slices_S16_o14_S1))
      · refine (cast_eq _ _).trans ((row0_write d L _ e _ _).trans ?_)
        unfold region2.sl.dma67
        exact (tab_row4 (F := F) d L (m (t4Loc d)) _ _ e).trans (congrArg (fun w => rowAt4 d (m (t4Loc d)) w e) (lane2_3 (F := F) d L k (lands1 m d L) 15 slices_S16_o15_S1))
    isplitl [Ho1']
    · iapply (Entails.of_eq (pts_oiWin2 (F := F) d L k 1 _))
      iapply (congr_ex (F := F) (G1 m d))
      iexists _; isplitr
      on_goal 2 => iexact Ho1'
      ipureintro
      refine win2_value m d L k 1 _ ?_
      intro r e
      show (slotM1).view.read (Elt F) (glue d L _) (ix2 r e) = _
      rw [View.read_apply, glue_slot1]
      fin_cases r
      · refine (cast_eq _ _).trans ((row1_write d L _ e _ _).trans ?_)
        unfold region2.sl.dma69
        exact (tab_row4 (F := F) d L (m (t4Loc d)) _ _ e).trans (congrArg (fun w => rowAt4 d (m (t4Loc d)) w e) (lane2_4 (F := F) d L k (lands1 m d L) 0 slices_S16_o0_S1))
      · refine (cast_eq _ _).trans ((row1_write d L _ e _ _).trans ?_)
        unfold region2.sl.dma70
        exact (tab_row4 (F := F) d L (m (t4Loc d)) _ _ e).trans (congrArg (fun w => rowAt4 d (m (t4Loc d)) w e) (lane2_4 (F := F) d L k (lands1 m d L) 1 slices_S16_o1_S1))
      · refine (cast_eq _ _).trans ((row1_write d L _ e _ _).trans ?_)
        unfold region2.sl.dma71
        exact (tab_row4 (F := F) d L (m (t4Loc d)) _ _ e).trans (congrArg (fun w => rowAt4 d (m (t4Loc d)) w e) (lane2_4 (F := F) d L k (lands1 m d L) 2 slices_S16_o2_S1))
      · refine (cast_eq _ _).trans ((row1_write d L _ e _ _).trans ?_)
        unfold region2.sl.dma72
        exact (tab_row4 (F := F) d L (m (t4Loc d)) _ _ e).trans (congrArg (fun w => rowAt4 d (m (t4Loc d)) w e) (lane2_4 (F := F) d L k (lands1 m d L) 3 slices_S16_o3_S1))
      · refine (cast_eq _ _).trans ((row1_write d L _ e _ _).trans ?_)
        unfold region2.sl.dma73
        exact (tab_row4 (F := F) d L (m (t4Loc d)) _ _ e).trans (congrArg (fun w => rowAt4 d (m (t4Loc d)) w e) (lane2_4 (F := F) d L k (lands1 m d L) 4 slices_S16_o4_S1))
      · refine (cast_eq _ _).trans ((row1_write d L _ e _ _).trans ?_)
        unfold region2.sl.dma74
        exact (tab_row4 (F := F) d L (m (t4Loc d)) _ _ e).trans (congrArg (fun w => rowAt4 d (m (t4Loc d)) w e) (lane2_4 (F := F) d L k (lands1 m d L) 5 slices_S16_o5_S1))
      · refine (cast_eq _ _).trans ((row1_write d L _ e _ _).trans ?_)
        unfold region2.sl.dma75
        exact (tab_row4 (F := F) d L (m (t4Loc d)) _ _ e).trans (congrArg (fun w => rowAt4 d (m (t4Loc d)) w e) (lane2_4 (F := F) d L k (lands1 m d L) 6 slices_S16_o6_S1))
      · refine (cast_eq _ _).trans ((row1_write d L _ e _ _).trans ?_)
        unfold region2.sl.dma76
        exact (tab_row4 (F := F) d L (m (t4Loc d)) _ _ e).trans (congrArg (fun w => rowAt4 d (m (t4Loc d)) w e) (lane2_4 (F := F) d L k (lands1 m d L) 7 slices_S16_o7_S1))
      · refine (cast_eq _ _).trans ((row1_write d L _ e _ _).trans ?_)
        unfold region2.sl.dma77
        exact (tab_row4 (F := F) d L (m (t4Loc d)) _ _ e).trans (congrArg (fun w => rowAt4 d (m (t4Loc d)) w e) (lane2_4 (F := F) d L k (lands1 m d L) 8 slices_S16_o8_S1))
      · refine (cast_eq _ _).trans ((row1_write d L _ e _ _).trans ?_)
        unfold region2.sl.dma78
        exact (tab_row4 (F := F) d L (m (t4Loc d)) _ _ e).trans (congrArg (fun w => rowAt4 d (m (t4Loc d)) w e) (lane2_4 (F := F) d L k (lands1 m d L) 9 slices_S16_o9_S1))
      · refine (cast_eq _ _).trans ((row1_write d L _ e _ _).trans ?_)
        unfold region2.sl.dma79
        exact (tab_row4 (F := F) d L (m (t4Loc d)) _ _ e).trans (congrArg (fun w => rowAt4 d (m (t4Loc d)) w e) (lane2_4 (F := F) d L k (lands1 m d L) 10 slices_S16_o10_S1))
      · refine (cast_eq _ _).trans ((row1_write d L _ e _ _).trans ?_)
        unfold region2.sl.dma80
        exact (tab_row4 (F := F) d L (m (t4Loc d)) _ _ e).trans (congrArg (fun w => rowAt4 d (m (t4Loc d)) w e) (lane2_4 (F := F) d L k (lands1 m d L) 11 slices_S16_o11_S1))
      · refine (cast_eq _ _).trans ((row1_write d L _ e _ _).trans ?_)
        unfold region2.sl.dma81
        exact (tab_row4 (F := F) d L (m (t4Loc d)) _ _ e).trans (congrArg (fun w => rowAt4 d (m (t4Loc d)) w e) (lane2_4 (F := F) d L k (lands1 m d L) 12 slices_S16_o12_S1))
      · refine (cast_eq _ _).trans ((row1_write d L _ e _ _).trans ?_)
        unfold region2.sl.dma82
        exact (tab_row4 (F := F) d L (m (t4Loc d)) _ _ e).trans (congrArg (fun w => rowAt4 d (m (t4Loc d)) w e) (lane2_4 (F := F) d L k (lands1 m d L) 13 slices_S16_o13_S1))
      · refine (cast_eq _ _).trans ((row1_write d L _ e _ _).trans ?_)
        unfold region2.sl.dma83
        exact (tab_row4 (F := F) d L (m (t4Loc d)) _ _ e).trans (congrArg (fun w => rowAt4 d (m (t4Loc d)) w e) (lane2_4 (F := F) d L k (lands1 m d L) 14 slices_S16_o14_S1))
      · refine (cast_eq _ _).trans ((row1_write d L _ e _ _).trans ?_)
        unfold region2.sl.dma84
        exact (tab_row4 (F := F) d L (m (t4Loc d)) _ _ e).trans (congrArg (fun w => rowAt4 d (m (t4Loc d)) w e) (lane2_4 (F := F) d L k (lands1 m d L) 15 slices_S16_o15_S1))
      · refine (cast_eq _ _).trans ((row1_write d L _ e _ _).trans ?_)
        unfold region2.sl.dma86
        exact (tab_row4 (F := F) d L (m (t4Loc d)) _ _ e).trans (congrArg (fun w => rowAt4 d (m (t4Loc d)) w e) (lane2_5 (F := F) d L k (lands1 m d L) 0 slices_S16_o0_S1))
      · refine (cast_eq _ _).trans ((row1_write d L _ e _ _).trans ?_)
        unfold region2.sl.dma87
        exact (tab_row4 (F := F) d L (m (t4Loc d)) _ _ e).trans (congrArg (fun w => rowAt4 d (m (t4Loc d)) w e) (lane2_5 (F := F) d L k (lands1 m d L) 1 slices_S16_o1_S1))
      · refine (cast_eq _ _).trans ((row1_write d L _ e _ _).trans ?_)
        unfold region2.sl.dma88
        exact (tab_row4 (F := F) d L (m (t4Loc d)) _ _ e).trans (congrArg (fun w => rowAt4 d (m (t4Loc d)) w e) (lane2_5 (F := F) d L k (lands1 m d L) 2 slices_S16_o2_S1))
      · refine (cast_eq _ _).trans ((row1_write d L _ e _ _).trans ?_)
        unfold region2.sl.dma89
        exact (tab_row4 (F := F) d L (m (t4Loc d)) _ _ e).trans (congrArg (fun w => rowAt4 d (m (t4Loc d)) w e) (lane2_5 (F := F) d L k (lands1 m d L) 3 slices_S16_o3_S1))
      · refine (cast_eq _ _).trans ((row1_write d L _ e _ _).trans ?_)
        unfold region2.sl.dma90
        exact (tab_row4 (F := F) d L (m (t4Loc d)) _ _ e).trans (congrArg (fun w => rowAt4 d (m (t4Loc d)) w e) (lane2_5 (F := F) d L k (lands1 m d L) 4 slices_S16_o4_S1))
      · refine (cast_eq _ _).trans ((row1_write d L _ e _ _).trans ?_)
        unfold region2.sl.dma91
        exact (tab_row4 (F := F) d L (m (t4Loc d)) _ _ e).trans (congrArg (fun w => rowAt4 d (m (t4Loc d)) w e) (lane2_5 (F := F) d L k (lands1 m d L) 5 slices_S16_o5_S1))
      · refine (cast_eq _ _).trans ((row1_write d L _ e _ _).trans ?_)
        unfold region2.sl.dma92
        exact (tab_row4 (F := F) d L (m (t4Loc d)) _ _ e).trans (congrArg (fun w => rowAt4 d (m (t4Loc d)) w e) (lane2_5 (F := F) d L k (lands1 m d L) 6 slices_S16_o6_S1))
      · refine (cast_eq _ _).trans ((row1_write d L _ e _ _).trans ?_)
        unfold region2.sl.dma93
        exact (tab_row4 (F := F) d L (m (t4Loc d)) _ _ e).trans (congrArg (fun w => rowAt4 d (m (t4Loc d)) w e) (lane2_5 (F := F) d L k (lands1 m d L) 7 slices_S16_o7_S1))
      · refine (cast_eq _ _).trans ((row1_write d L _ e _ _).trans ?_)
        unfold region2.sl.dma94
        exact (tab_row4 (F := F) d L (m (t4Loc d)) _ _ e).trans (congrArg (fun w => rowAt4 d (m (t4Loc d)) w e) (lane2_5 (F := F) d L k (lands1 m d L) 8 slices_S16_o8_S1))
      · refine (cast_eq _ _).trans ((row1_write d L _ e _ _).trans ?_)
        unfold region2.sl.dma95
        exact (tab_row4 (F := F) d L (m (t4Loc d)) _ _ e).trans (congrArg (fun w => rowAt4 d (m (t4Loc d)) w e) (lane2_5 (F := F) d L k (lands1 m d L) 9 slices_S16_o9_S1))
      · refine (cast_eq _ _).trans ((row1_write d L _ e _ _).trans ?_)
        unfold region2.sl.dma96
        exact (tab_row4 (F := F) d L (m (t4Loc d)) _ _ e).trans (congrArg (fun w => rowAt4 d (m (t4Loc d)) w e) (lane2_5 (F := F) d L k (lands1 m d L) 10 slices_S16_o10_S1))
      · refine (cast_eq _ _).trans ((row1_write d L _ e _ _).trans ?_)
        unfold region2.sl.dma97
        exact (tab_row4 (F := F) d L (m (t4Loc d)) _ _ e).trans (congrArg (fun w => rowAt4 d (m (t4Loc d)) w e) (lane2_5 (F := F) d L k (lands1 m d L) 11 slices_S16_o11_S1))
      · refine (cast_eq _ _).trans ((row1_write d L _ e _ _).trans ?_)
        unfold region2.sl.dma98
        exact (tab_row4 (F := F) d L (m (t4Loc d)) _ _ e).trans (congrArg (fun w => rowAt4 d (m (t4Loc d)) w e) (lane2_5 (F := F) d L k (lands1 m d L) 12 slices_S16_o12_S1))
      · refine (cast_eq _ _).trans ((row1_write d L _ e _ _).trans ?_)
        unfold region2.sl.dma99
        exact (tab_row4 (F := F) d L (m (t4Loc d)) _ _ e).trans (congrArg (fun w => rowAt4 d (m (t4Loc d)) w e) (lane2_5 (F := F) d L k (lands1 m d L) 13 slices_S16_o13_S1))
      · refine (cast_eq _ _).trans ((row1_write d L _ e _ _).trans ?_)
        unfold region2.sl.dma100
        exact (tab_row4 (F := F) d L (m (t4Loc d)) _ _ e).trans (congrArg (fun w => rowAt4 d (m (t4Loc d)) w e) (lane2_5 (F := F) d L k (lands1 m d L) 14 slices_S16_o14_S1))
      · refine (cast_eq _ _).trans ((row1_write d L _ e _ _).trans ?_)
        unfold region2.sl.dma101
        exact (tab_row4 (F := F) d L (m (t4Loc d)) _ _ e).trans (congrArg (fun w => rowAt4 d (m (t4Loc d)) w e) (lane2_5 (F := F) d L k (lands1 m d L) 15 slices_S16_o15_S1))
      · refine (cast_eq _ _).trans ((row1_write d L _ e _ _).trans ?_)
        unfold region2.sl.dma103
        exact (tab_row4 (F := F) d L (m (t4Loc d)) _ _ e).trans (congrArg (fun w => rowAt4 d (m (t4Loc d)) w e) (lane2_6 (F := F) d L k (lands1 m d L) 0 slices_S16_o0_S1))
      · refine (cast_eq _ _).trans ((row1_write d L _ e _ _).trans ?_)
        unfold region2.sl.dma104
        exact (tab_row4 (F := F) d L (m (t4Loc d)) _ _ e).trans (congrArg (fun w => rowAt4 d (m (t4Loc d)) w e) (lane2_6 (F := F) d L k (lands1 m d L) 1 slices_S16_o1_S1))
      · refine (cast_eq _ _).trans ((row1_write d L _ e _ _).trans ?_)
        unfold region2.sl.dma105
        exact (tab_row4 (F := F) d L (m (t4Loc d)) _ _ e).trans (congrArg (fun w => rowAt4 d (m (t4Loc d)) w e) (lane2_6 (F := F) d L k (lands1 m d L) 2 slices_S16_o2_S1))
      · refine (cast_eq _ _).trans ((row1_write d L _ e _ _).trans ?_)
        unfold region2.sl.dma106
        exact (tab_row4 (F := F) d L (m (t4Loc d)) _ _ e).trans (congrArg (fun w => rowAt4 d (m (t4Loc d)) w e) (lane2_6 (F := F) d L k (lands1 m d L) 3 slices_S16_o3_S1))
      · refine (cast_eq _ _).trans ((row1_write d L _ e _ _).trans ?_)
        unfold region2.sl.dma107
        exact (tab_row4 (F := F) d L (m (t4Loc d)) _ _ e).trans (congrArg (fun w => rowAt4 d (m (t4Loc d)) w e) (lane2_6 (F := F) d L k (lands1 m d L) 4 slices_S16_o4_S1))
      · refine (cast_eq _ _).trans ((row1_write d L _ e _ _).trans ?_)
        unfold region2.sl.dma108
        exact (tab_row4 (F := F) d L (m (t4Loc d)) _ _ e).trans (congrArg (fun w => rowAt4 d (m (t4Loc d)) w e) (lane2_6 (F := F) d L k (lands1 m d L) 5 slices_S16_o5_S1))
      · refine (cast_eq _ _).trans ((row1_write d L _ e _ _).trans ?_)
        unfold region2.sl.dma109
        exact (tab_row4 (F := F) d L (m (t4Loc d)) _ _ e).trans (congrArg (fun w => rowAt4 d (m (t4Loc d)) w e) (lane2_6 (F := F) d L k (lands1 m d L) 6 slices_S16_o6_S1))
      · refine (cast_eq _ _).trans ((row1_write d L _ e _ _).trans ?_)
        unfold region2.sl.dma110
        exact (tab_row4 (F := F) d L (m (t4Loc d)) _ _ e).trans (congrArg (fun w => rowAt4 d (m (t4Loc d)) w e) (lane2_6 (F := F) d L k (lands1 m d L) 7 slices_S16_o7_S1))
      · refine (cast_eq _ _).trans ((row1_write d L _ e _ _).trans ?_)
        unfold region2.sl.dma111
        exact (tab_row4 (F := F) d L (m (t4Loc d)) _ _ e).trans (congrArg (fun w => rowAt4 d (m (t4Loc d)) w e) (lane2_6 (F := F) d L k (lands1 m d L) 8 slices_S16_o8_S1))
      · refine (cast_eq _ _).trans ((row1_write d L _ e _ _).trans ?_)
        unfold region2.sl.dma112
        exact (tab_row4 (F := F) d L (m (t4Loc d)) _ _ e).trans (congrArg (fun w => rowAt4 d (m (t4Loc d)) w e) (lane2_6 (F := F) d L k (lands1 m d L) 9 slices_S16_o9_S1))
      · refine (cast_eq _ _).trans ((row1_write d L _ e _ _).trans ?_)
        unfold region2.sl.dma113
        exact (tab_row4 (F := F) d L (m (t4Loc d)) _ _ e).trans (congrArg (fun w => rowAt4 d (m (t4Loc d)) w e) (lane2_6 (F := F) d L k (lands1 m d L) 10 slices_S16_o10_S1))
      · refine (cast_eq _ _).trans ((row1_write d L _ e _ _).trans ?_)
        unfold region2.sl.dma114
        exact (tab_row4 (F := F) d L (m (t4Loc d)) _ _ e).trans (congrArg (fun w => rowAt4 d (m (t4Loc d)) w e) (lane2_6 (F := F) d L k (lands1 m d L) 11 slices_S16_o11_S1))
      · refine (cast_eq _ _).trans ((row1_write d L _ e _ _).trans ?_)
        unfold region2.sl.dma115
        exact (tab_row4 (F := F) d L (m (t4Loc d)) _ _ e).trans (congrArg (fun w => rowAt4 d (m (t4Loc d)) w e) (lane2_6 (F := F) d L k (lands1 m d L) 12 slices_S16_o12_S1))
      · refine (cast_eq _ _).trans ((row1_write d L _ e _ _).trans ?_)
        unfold region2.sl.dma116
        exact (tab_row4 (F := F) d L (m (t4Loc d)) _ _ e).trans (congrArg (fun w => rowAt4 d (m (t4Loc d)) w e) (lane2_6 (F := F) d L k (lands1 m d L) 13 slices_S16_o13_S1))
      · refine (cast_eq _ _).trans ((row1_write d L _ e _ _).trans ?_)
        unfold region2.sl.dma117
        exact (tab_row4 (F := F) d L (m (t4Loc d)) _ _ e).trans (congrArg (fun w => rowAt4 d (m (t4Loc d)) w e) (lane2_6 (F := F) d L k (lands1 m d L) 14 slices_S16_o14_S1))
      · refine (cast_eq _ _).trans ((row1_write d L _ e _ _).trans ?_)
        unfold region2.sl.dma118
        exact (tab_row4 (F := F) d L (m (t4Loc d)) _ _ e).trans (congrArg (fun w => rowAt4 d (m (t4Loc d)) w e) (lane2_6 (F := F) d L k (lands1 m d L) 15 slices_S16_o15_S1))
      · refine (cast_eq _ _).trans ((row1_write d L _ e _ _).trans ?_)
        unfold region2.sl.dma120
        exact (tab_row4 (F := F) d L (m (t4Loc d)) _ _ e).trans (congrArg (fun w => rowAt4 d (m (t4Loc d)) w e) (lane2_7 (F := F) d L k (lands1 m d L) 0 slices_S16_o0_S1))
      · refine (cast_eq _ _).trans ((row1_write d L _ e _ _).trans ?_)
        unfold region2.sl.dma121
        exact (tab_row4 (F := F) d L (m (t4Loc d)) _ _ e).trans (congrArg (fun w => rowAt4 d (m (t4Loc d)) w e) (lane2_7 (F := F) d L k (lands1 m d L) 1 slices_S16_o1_S1))
      · refine (cast_eq _ _).trans ((row1_write d L _ e _ _).trans ?_)
        unfold region2.sl.dma122
        exact (tab_row4 (F := F) d L (m (t4Loc d)) _ _ e).trans (congrArg (fun w => rowAt4 d (m (t4Loc d)) w e) (lane2_7 (F := F) d L k (lands1 m d L) 2 slices_S16_o2_S1))
      · refine (cast_eq _ _).trans ((row1_write d L _ e _ _).trans ?_)
        unfold region2.sl.dma123
        exact (tab_row4 (F := F) d L (m (t4Loc d)) _ _ e).trans (congrArg (fun w => rowAt4 d (m (t4Loc d)) w e) (lane2_7 (F := F) d L k (lands1 m d L) 3 slices_S16_o3_S1))
      · refine (cast_eq _ _).trans ((row1_write d L _ e _ _).trans ?_)
        unfold region2.sl.dma124
        exact (tab_row4 (F := F) d L (m (t4Loc d)) _ _ e).trans (congrArg (fun w => rowAt4 d (m (t4Loc d)) w e) (lane2_7 (F := F) d L k (lands1 m d L) 4 slices_S16_o4_S1))
      · refine (cast_eq _ _).trans ((row1_write d L _ e _ _).trans ?_)
        unfold region2.sl.dma125
        exact (tab_row4 (F := F) d L (m (t4Loc d)) _ _ e).trans (congrArg (fun w => rowAt4 d (m (t4Loc d)) w e) (lane2_7 (F := F) d L k (lands1 m d L) 5 slices_S16_o5_S1))
      · refine (cast_eq _ _).trans ((row1_write d L _ e _ _).trans ?_)
        unfold region2.sl.dma126
        exact (tab_row4 (F := F) d L (m (t4Loc d)) _ _ e).trans (congrArg (fun w => rowAt4 d (m (t4Loc d)) w e) (lane2_7 (F := F) d L k (lands1 m d L) 6 slices_S16_o6_S1))
      · refine (cast_eq _ _).trans ((row1_write d L _ e _ _).trans ?_)
        unfold region2.sl.dma127
        exact (tab_row4 (F := F) d L (m (t4Loc d)) _ _ e).trans (congrArg (fun w => rowAt4 d (m (t4Loc d)) w e) (lane2_7 (F := F) d L k (lands1 m d L) 7 slices_S16_o7_S1))
      · refine (cast_eq _ _).trans ((row1_write d L _ e _ _).trans ?_)
        unfold region2.sl.dma128
        exact (tab_row4 (F := F) d L (m (t4Loc d)) _ _ e).trans (congrArg (fun w => rowAt4 d (m (t4Loc d)) w e) (lane2_7 (F := F) d L k (lands1 m d L) 8 slices_S16_o8_S1))
      · refine (cast_eq _ _).trans ((row1_write d L _ e _ _).trans ?_)
        unfold region2.sl.dma129
        exact (tab_row4 (F := F) d L (m (t4Loc d)) _ _ e).trans (congrArg (fun w => rowAt4 d (m (t4Loc d)) w e) (lane2_7 (F := F) d L k (lands1 m d L) 9 slices_S16_o9_S1))
      · refine (cast_eq _ _).trans ((row1_write d L _ e _ _).trans ?_)
        unfold region2.sl.dma130
        exact (tab_row4 (F := F) d L (m (t4Loc d)) _ _ e).trans (congrArg (fun w => rowAt4 d (m (t4Loc d)) w e) (lane2_7 (F := F) d L k (lands1 m d L) 10 slices_S16_o10_S1))
      · refine (cast_eq _ _).trans ((row1_write d L _ e _ _).trans ?_)
        unfold region2.sl.dma131
        exact (tab_row4 (F := F) d L (m (t4Loc d)) _ _ e).trans (congrArg (fun w => rowAt4 d (m (t4Loc d)) w e) (lane2_7 (F := F) d L k (lands1 m d L) 11 slices_S16_o11_S1))
      · refine (cast_eq _ _).trans ((row1_write d L _ e _ _).trans ?_)
        unfold region2.sl.dma132
        exact (tab_row4 (F := F) d L (m (t4Loc d)) _ _ e).trans (congrArg (fun w => rowAt4 d (m (t4Loc d)) w e) (lane2_7 (F := F) d L k (lands1 m d L) 12 slices_S16_o12_S1))
      · refine (cast_eq _ _).trans ((row1_write d L _ e _ _).trans ?_)
        unfold region2.sl.dma133
        exact (tab_row4 (F := F) d L (m (t4Loc d)) _ _ e).trans (congrArg (fun w => rowAt4 d (m (t4Loc d)) w e) (lane2_7 (F := F) d L k (lands1 m d L) 13 slices_S16_o13_S1))
      · refine (cast_eq _ _).trans ((row1_write d L _ e _ _).trans ?_)
        unfold region2.sl.dma134
        exact (tab_row4 (F := F) d L (m (t4Loc d)) _ _ e).trans (congrArg (fun w => rowAt4 d (m (t4Loc d)) w e) (lane2_7 (F := F) d L k (lands1 m d L) 14 slices_S16_o14_S1))
      · refine (cast_eq _ _).trans ((row1_write d L _ e _ _).trans ?_)
        unfold region2.sl.dma135
        exact (tab_row4 (F := F) d L (m (t4Loc d)) _ _ e).trans (congrArg (fun w => rowAt4 d (m (t4Loc d)) w e) (lane2_7 (F := F) d L k (lands1 m d L) 15 slices_S16_o15_S1))
    iexact Hrest
  iexists _; isplitr
  on_goal 2 => iexact HO
  ipureintro
  repeat' (first | exact hW' | refine waits_insert _ ?_)

end Cert.Proof.KReg2

end
-- ==== Proof.KReg3.lean ====
/-
  Loop 3 of the kernel, one trip.  The trip's 128 row copies are followed row by row: each row of a staging slot ends
  at the table row its index word names, the slot's 64 rows are joined, the slot is written to its window of the
  result, and the window then holds the lookup.
-/
import proofs.«206842_g87686052315543_cont_sun_m_497_29_alg».proof.Defs
import proofs.«206842_g87686052315543_cont_sun_m_497_29_alg».proof.Proof.KRes
import proofs.«206842_g87686052315543_cont_sun_m_497_29_alg».proof.Proof.KWin
import proofs.«206842_g87686052315543_cont_sun_m_497_29_alg».proof.Proof.KLand
import proofs.«206842_g87686052315543_cont_sun_m_497_29_alg».proof.Proof.KRows
import proofs.«206842_g87686052315543_cont_sun_m_497_29_alg».proof.Proof.KJoin
import proofs.«206842_g87686052315543_cont_sun_m_497_29_alg».proof.Proof.KInv
import proofs.«206842_g87686052315543_cont_sun_m_497_29_alg».proof.Proof.KVal
import Idealize.ShloMosaic.Lib.SparseCore.Launch
import Idealize.ShloMosaic.Lib.SparseCore.Ops
import Idealize.ShloMosaic.Lib.StableHlo.Run
import Idealize.ShloMosaic.Lib.Batch
import Idealize.ShloMosaic.Lib.Tactic
import Idealize.ShloMosaic.Lib.Pipeline.Kit
import proofs.«206842_g87686052315543_cont_sun_m_497_29_alg».proof.Proof.Gen.Kernel
import proofs.«206842_g87686052315543_cont_sun_m_497_29_alg».proof.Proof.Gen.Kernel.Skeleton

noncomputable section

namespace Cert.Proof.KReg3

open Cert.Kernel Cert.Kernel.Gen Cert.Proof.KRes Cert.Proof.KWin Cert.Proof.KLand Cert.Proof.KRows Cert.Proof.KJoin Cert.Proof.KInv Cert.Proof.KVal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uidW" => (Memref.whole Cert.Kernel.main_v0_scv : Memref Cert.Kernel.sig Kind.scVector Space.hbm Cert.Kernel.S128x128 EltTy.i32)
local notation "iidW" => (Memref.whole Cert.Kernel.main_v1_scv : Memref Cert.Kernel.sig Kind.scVector Space.hbm Cert.Kernel.S128x128 EltTy.i32)
local notation "cidW" => (Memref.whole Cert.Kernel.main_v2_scv : Memref Cert.Kernel.sig Kind.scVector Space.hbm Cert.Kernel.S128x128 EltTy.i32)
local notation "utW" => (Memref.whole Cert.Kernel.main_arg3_scv : Memref Cert.Kernel.sig Kind.scVector Space.hbm Cert.Kernel.S1000000x64 EltTy.f32)
local notation "itW" => (Memref.whole Cert.Kernel.main_arg4_scv : Memref Cert.Kernel.sig Kind.scVector Space.hbm Cert.Kernel.S1000000x64 EltTy.f32)
local notation "ctW" => (Memref.whole Cert.Kernel.main_arg5_scv : Memref Cert.Kernel.sig Kind.scVector Space.hbm Cert.Kernel.S100000x64 EltTy.f32)
local notation "ouW" => (Memref.whole Cert.Kernel.main_v3_0_scv : Memref Cert.Kernel.sig Kind.scVector Space.hbm Cert.Kernel.S16384x64 EltTy.f32)
local notation "oiW" => (Memref.whole Cert.Kernel.main_v3_1_scv : Memref Cert.Kernel.sig Kind.scVector Space.hbm Cert.Kernel.S16384x64 EltTy.f32)
local notation "ocW" => (Memref.whole Cert.Kernel.main_v3_2_scv : Memref Cert.Kernel.sig Kind.scVector Space.hbm Cert.Kernel.S16384x64 EltTy.f32)
local notation "l0W" => (Memref.whole Cert.Kernel.cc0_scratch0 : Memref Cert.Kernel.sig Kind.scVector Space.vmem Cert.Kernel.S4x128 EltTy.i32)
local notation "l1W" => (Memref.whole Cert.Kernel.cc0_scratch1 : Memref Cert.Kernel.sig Kind.scVector Space.vmem Cert.Kernel.S4x128 EltTy.i32)
local notation "l2W" => (Memref.whole Cert.Kernel.cc0_scratch2 : Memref Cert.Kernel.sig Kind.scVector Space.vmem Cert.Kernel.S4x128 EltTy.i32)
local notation "bufW" => (Memref.whole Cert.Kernel.cc0_scratch3 : Memref Cert.Kernel.sig Kind.scVector Space.vmem Cert.Kernel.S2x64x64 EltTy.f32)

variable [FloatOps F] (m : (ℓ : Loc nD τ sig) → Buf (Elt F) ℓ) (d : Dev nD) (L : grid0.Coords)

set_option maxRecDepth 65536 in
set_option maxHeartbeats 20000000 in
/-- One trip of loop 3: 128 rows of the table fetched into the two staging slots through 128 read tokens, each slot
    written out to its window of the result once all its rows have landed; the two windows then hold the lookup. -/
theorem region3 [∀ e, Nonempty (Elt F e)] (hpre : PreOK m) (O : CellTallies nD τ sig (HIx 1)) (W : Waits sig (HIx 1))
    (k : Fin k0_t3_loop.trips) (v2 : BitVec 32) (c0 : BitVec 32) :
    inv3 m d L O W (Fin.cast trips3 k).val ⟨⟩
      ⊢ wp frame (wpE (defs₀ (F := F)) 𝒱₀ (V d (cV L) (jV L)) none) Set.univ
          (k0_t3_body (F := F) L uidW (Memref.isWhole_whole _) iidW (Memref.isWhole_whole _) cidW (Memref.isWhole_whole _)
            utW (Memref.isWhole_whole _) itW (Memref.isWhole_whole _) ctW (Memref.isWhole_whole _)
            ouW (Memref.isWhole_whole _) oiW (Memref.isWhole_whole _) ocW (Memref.isWhole_whole _)
            l0W (Memref.isWhole_whole _) l1W (Memref.isWhole_whole _) l2W (Memref.isWhole_whole _) bufW (Memref.isWhole_whole _)
            cc0_scratch4 cc0_scratch5 cc0_scratch6 cc0_scratch7 cc0_scratch8 cc0_scratch9 cc0_scratch10 cc0_scratch11 cc0_scratch12 cc0_scratch13
            cc0_scoped0 cc0_scoped1 cc0_scoped2 v2 c0 k ())
          (fun _ => inv3 m d L O W ((Fin.cast trips3 k).val + 1) ⟨⟩) := by
  have _p4 : Transfers.BatchOf (V d (cV L) (jV L)) (SemLoc.dma (sig := sig) cc0_scratch4.sem) 16 := trivial
  have _p5 : Transfers.BatchOf (V d (cV L) (jV L)) (SemLoc.dma (sig := sig) cc0_scratch5.sem) 16 := trivial
  have _p6 : Transfers.BatchOf (V d (cV L) (jV L)) (SemLoc.dma (sig := sig) cc0_scratch6.sem) 16 := trivial
  have _p7 : Transfers.BatchOf (V d (cV L) (jV L)) (SemLoc.dma (sig := sig) cc0_scratch7.sem) 16 := trivial
  have _p8 : Transfers.BatchOf (V d (cV L) (jV L)) (SemLoc.dma (sig := sig) cc0_scratch8.sem) 16 := trivial
  have _p9 : Transfers.BatchOf (V d (cV L) (jV L)) (SemLoc.dma (sig := sig) cc0_scratch9.sem) 16 := trivial
  have _p10 : Transfers.BatchOf (V d (cV L) (jV L)) (SemLoc.dma (sig := sig) cc0_scratch10.sem) 16 := trivial
  have _p11 : Transfers.BatchOf (V d (cV L) (jV L)) (SemLoc.dma (sig := sig) cc0_scratch11.sem) 16 := trivial
  have hfl := lands2_lt m d L hpre
  unfold inv3
  rw [toks128_unroll]
  iintro ⟨Hmw, Hl0, Htoks, ⟨%f0, Hslot0⟩, ⟨%f1, Hslot1⟩, Hs4, Hs5, Hs6, Hs7, Hs8, Hs9, Hs10, Hs11, Hs12, Hs13, Hout, %W', %hW', HO⟩
  icases Htoks with ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31, Hu32, Hu33, Hu34, Hu35, Hu36, Hu37, Hu38, Hu39, Hu40, Hu41, Hu42, Hu43, Hu44, Hu45, Hu46, Hu47, Hu48, Hu49, Hu50, Hu51, Hu52, Hu53, Hu54, Hu55, Hu56, Hu57, Hu58, Hu59, Hu60, Hu61, Hu62, Hu63, Hu64, Hu65, Hu66, Hu67, Hu68, Hu69, Hu70, Hu71, Hu72, Hu73, Hu74, Hu75, Hu76, Hu77, Hu78, Hu79, Hu80, Hu81, Hu82, Hu83, Hu84, Hu85, Hu86, Hu87, Hu88, Hu89, Hu90, Hu91, Hu92, Hu93, Hu94, Hu95, Hu96, Hu97, Hu98, Hu99, Hu100, Hu101, Hu102, Hu103, Hu104, Hu105, Hu106, Hu107, Hu108, Hu109, Hu110, Hu111, Hu112, Hu113, Hu114, Hu115, Hu116, Hu117, Hu118, Hu119, Hu120, Hu121, Hu122, Hu123, Hu124, Hu125, Hu126, Hu127, -⟩
  ihave Hrows0 := (Entails.of_eq (slot0_split d L f0)) $$ Hslot0
  icases Hrows0 with ⟨Hr0_0, Hr0_1, Hr0_2, Hr0_3, Hr0_4, Hr0_5, Hr0_6, Hr0_7, Hr0_8, Hr0_9, Hr0_10, Hr0_11, Hr0_12, Hr0_13, Hr0_14, Hr0_15, Hr0_16, Hr0_17, Hr0_18, Hr0_19, Hr0_20, Hr0_21, Hr0_22, Hr0_23, Hr0_24, Hr0_25, Hr0_26, Hr0_27, Hr0_28, Hr0_29, Hr0_30, Hr0_31, Hr0_32, Hr0_33, Hr0_34, Hr0_35, Hr0_36, Hr0_37, Hr0_38, Hr0_39, Hr0_40, Hr0_41, Hr0_42, Hr0_43, Hr0_44, Hr0_45, Hr0_46, Hr0_47, Hr0_48, Hr0_49, Hr0_50, Hr0_51, Hr0_52, Hr0_53, Hr0_54, Hr0_55, Hr0_56, Hr0_57, Hr0_58, Hr0_59, Hr0_60, Hr0_61, Hr0_62, Hr0_63⟩
  ihave Hrows1 := (Entails.of_eq (slot1_split d L f1)) $$ Hslot1
  icases Hrows1 with ⟨Hr1_0, Hr1_1, Hr1_2, Hr1_3, Hr1_4, Hr1_5, Hr1_6, Hr1_7, Hr1_8, Hr1_9, Hr1_10, Hr1_11, Hr1_12, Hr1_13, Hr1_14, Hr1_15, Hr1_16, Hr1_17, Hr1_18, Hr1_19, Hr1_20, Hr1_21, Hr1_22, Hr1_23, Hr1_24, Hr1_25, Hr1_26, Hr1_27, Hr1_28, Hr1_29, Hr1_30, Hr1_31, Hr1_32, Hr1_33, Hr1_34, Hr1_35, Hr1_36, Hr1_37, Hr1_38, Hr1_39, Hr1_40, Hr1_41, Hr1_42, Hr1_43, Hr1_44, Hr1_45, Hr1_46, Hr1_47, Hr1_48, Hr1_49, Hr1_50, Hr1_51, Hr1_52, Hr1_53, Hr1_54, Hr1_55, Hr1_56, Hr1_57, Hr1_58, Hr1_59, Hr1_60, Hr1_61, Hr1_62, Hr1_63⟩
  ihave Ho := (outInv2_peel m d (wid L) (Fin.cast trips3 k)) $$ Hout
  icases Ho with ⟨Ho0, Ho1, Hrest⟩
  ihave Ho0' := (Entails.of_eq (pts_ocWin3 (F := F) d L k 0 _).symm) $$ Ho0
  ihave Ho1' := (Entails.of_eq (pts_ocWin3 (F := F) d L k 1 _).symm) $$ Ho1
  unfold k0_t3_body
  sl_exec_parts (disch := first | exact rowInb2 _ _ (hfl _) | exact rowInb _ _ (hfl _))
  ihave HS0 := (slot0_join d L _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [Hr0_0 Hr0_1 Hr0_2 Hr0_3 Hr0_4 Hr0_5 Hr0_6 Hr0_7 Hr0_8 Hr0_9 Hr0_10 Hr0_11 Hr0_12 Hr0_13 Hr0_14 Hr0_15 Hr0_16 Hr0_17 Hr0_18 Hr0_19 Hr0_20 Hr0_21 Hr0_22 Hr0_23 Hr0_24 Hr0_25 Hr0_26 Hr0_27 Hr0_28 Hr0_29 Hr0_30 Hr0_31 Hr0_32 Hr0_33 Hr0_34 Hr0_35 Hr0_36 Hr0_37 Hr0_38 Hr0_39 Hr0_40 Hr0_41 Hr0_42 Hr0_43 Hr0_44 Hr0_45 Hr0_46 Hr0_47 Hr0_48 Hr0_49 Hr0_50 Hr0_51 Hr0_52 Hr0_53 Hr0_54 Hr0_55 Hr0_56 Hr0_57 Hr0_58 Hr0_59 Hr0_60 Hr0_61 Hr0_62 Hr0_63]
  · iframe
  sl_exec_parts (disch := first | exact rowInb2 _ _ (hfl _) | exact rowInb _ _ (hfl _))
  ihave HS1 := (slot1_join d L _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [Hr1_0 Hr1_1 Hr1_2 Hr1_3 Hr1_4 Hr1_5 Hr1_6 Hr1_7 Hr1_8 Hr1_9 Hr1_10 Hr1_11 Hr1_12 Hr1_13 Hr1_14 Hr1_15 Hr1_16 Hr1_17 Hr1_18 Hr1_19 Hr1_20 Hr1_21 Hr1_22 Hr1_23 Hr1_24 Hr1_25 Hr1_26 Hr1_27 Hr1_28 Hr1_29 Hr1_30 Hr1_31 Hr1_32 Hr1_33 Hr1_34 Hr1_35 Hr1_36 Hr1_37 Hr1_38 Hr1_39 Hr1_40 Hr1_41 Hr1_42 Hr1_43 Hr1_44 Hr1_45 Hr1_46 Hr1_47 Hr1_48 Hr1_49 Hr1_50 Hr1_51 Hr1_52 Hr1_53 Hr1_54 Hr1_55 Hr1_56 Hr1_57 Hr1_58 Hr1_59 Hr1_60 Hr1_61 Hr1_62 Hr1_63]
  · iframe
  sl_exec_parts (disch := first | exact rowInb2 _ _ (hfl _) | exact rowInb _ _ (hfl _))
  sl_step
  isplitl [Hmw]; · iexact Hmw
  isplitl [Hl0]; · iexact Hl0
  isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31 Hu32 Hu33 Hu34 Hu35 Hu36 Hu37 Hu38 Hu39 Hu40 Hu41 Hu42 Hu43 Hu44 Hu45 Hu46 Hu47 Hu48 Hu49 Hu50 Hu51 Hu52 Hu53 Hu54 Hu55 Hu56 Hu57 Hu58 Hu59 Hu60 Hu61 Hu62 Hu63 Hu64 Hu65 Hu66 Hu67 Hu68 Hu69 Hu70 Hu71 Hu72 Hu73 Hu74 Hu75 Hu76 Hu77 Hu78 Hu79 Hu80 Hu81 Hu82 Hu83 Hu84 Hu85 Hu86 Hu87 Hu88 Hu89 Hu90 Hu91 Hu92 Hu93 Hu94 Hu95 Hu96 Hu97 Hu98 Hu99 Hu100 Hu101 Hu102 Hu103 Hu104 Hu105 Hu106 Hu107 Hu108 Hu109 Hu110 Hu111 Hu112 Hu113 Hu114 Hu115 Hu116 Hu117 Hu118 Hu119 Hu120 Hu121 Hu122 Hu123 Hu124 Hu125 Hu126 Hu127]
  · iframe
  isplitl [HS0]; · iexists _; iexact HS0
  isplitl [HS1]; · iexists _; iexact HS1
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Ho0' Ho1' Hrest]
  · iapply (outInv2_put m d (wid L) (Fin.cast trips3 k))
    isplitl [Ho0']
    · iapply (Entails.of_eq (pts_ocWin3 (F := F) d L k 0 _))
      iapply (congr_ex (F := F) (G2 m d))
      iexists _; isplitr
      on_goal 2 => iexact Ho0'
      ipureintro
      refine win3_value m d L k 0 _ ?_
      intro r e
      show (slotM0).view.read (Elt F) (glue d L _) (ix2 r e) = _
      rw [View.read_apply, glue_slot0]
      fin_cases r
      · refine (cast_eq _ _).trans ((row0_write d L _ e _ _).trans ?_)
        unfold region3.sl.dma1
        exact (tab_row5 (F := F) d L (m (t5Loc d)) _ _ e).trans (congrArg (fun w => rowAt5 d (m (t5Loc d)) w e) (lane3_0 (F := F) d L k (lands2 m d L) 0 slices_S16_o0_S1))
      · refine (cast_eq _ _).trans ((row0_write d L _ e _ _).trans ?_)
        unfold region3.sl.dma2
        exact (tab_row5 (F := F) d L (m (t5Loc d)) _ _ e).trans (congrArg (fun w => rowAt5 d (m (t5Loc d)) w e) (lane3_0 (F := F) d L k (lands2 m d L) 1 slices_S16_o1_S1))
      · refine (cast_eq _ _).trans ((row0_write d L _ e _ _).trans ?_)
        unfold region3.sl.dma3
        exact (tab_row5 (F := F) d L (m (t5Loc d)) _ _ e).trans (congrArg (fun w => rowAt5 d (m (t5Loc d)) w e) (lane3_0 (F := F) d L k (lands2 m d L) 2 slices_S16_o2_S1))
      · refine (cast_eq _ _).trans ((row0_write d L _ e _ _).trans ?_)
        unfold region3.sl.dma4
        exact (tab_row5 (F := F) d L (m (t5Loc d)) _ _ e).trans (congrArg (fun w => rowAt5 d (m (t5Loc d)) w e) (lane3_0 (F := F) d L k (lands2 m d L) 3 slices_S16_o3_S1))
      · refine (cast_eq _ _).trans ((row0_write d L _ e _ _).trans ?_)
        unfold region3.sl.dma5
        exact (tab_row5 (F := F) d L (m (t5Loc d)) _ _ e).trans (congrArg (fun w => rowAt5 d (m (t5Loc d)) w e) (lane3_0 (F := F) d L k (lands2 m d L) 4 slices_S16_o4_S1))
      · refine (cast_eq _ _).trans ((row0_write d L _ e _ _).trans ?_)
        unfold region3.sl.dma6
        exact (tab_row5 (F := F) d L (m (t5Loc d)) _ _ e).trans (congrArg (fun w => rowAt5 d (m (t5Loc d)) w e) (lane3_0 (F := F) d L k (lands2 m d L) 5 slices_S16_o5_S1))
      · refine (cast_eq _ _).trans ((row0_write d L _ e _ _).trans ?_)
        unfold region3.sl.dma7
        exact (tab_row5 (F := F) d L (m (t5Loc d)) _ _ e).trans (congrArg (fun w => rowAt5 d (m (t5Loc d)) w e) (lane3_0 (F := F) d L k (lands2 m d L) 6 slices_S16_o6_S1))
      · refine (cast_eq _ _).trans ((row0_write d L _ e _ _).trans ?_)
        unfold region3.sl.dma8
        exact (tab_row5 (F := F) d L (m (t5Loc d)) _ _ e).trans (congrArg (fun w => rowAt5 d (m (t5Loc d)) w e) (lane3_0 (F := F) d L k (lands2 m d L) 7 slices_S16_o7_S1))
      · refine (cast_eq _ _).trans ((row0_write d L _ e _ _).trans ?_)
        unfold region3.sl.dma9
        exact (tab_row5 (F := F) d L (m (t5Loc d)) _ _ e).trans (congrArg (fun w => rowAt5 d (m (t5Loc d)) w e) (lane3_0 (F := F) d L k (lands2 m d L) 8 slices_S16_o8_S1))
      · refine (cast_eq _ _).trans ((row0_write d L _ e _ _).trans ?_)
        unfold region3.sl.dma10
        exact (tab_row5 (F := F) d L (m (t5Loc d)) _ _ e).trans (congrArg (fun w => rowAt5 d (m (t5Loc d)) w e) (lane3_0 (F := F) d L k (lands2 m d L) 9 slices_S16_o9_S1))
      · refine (cast_eq _ _).trans ((row0_write d L _ e _ _).trans ?_)
        unfold region3.sl.dma11
        exact (tab_row5 (F := F) d L (m (t5Loc d)) _ _ e).trans (congrArg (fun w => rowAt5 d (m (t5Loc d)) w e) (lane3_0 (F := F) d L k (lands2 m d L) 10 slices_S16_o10_S1))
      · refine (cast_eq _ _).trans ((row0_write d L _ e _ _).trans ?_)
        unfold region3.sl.dma12
        exact (tab_row5 (F := F) d L (m (t5Loc d)) _ _ e).trans (congrArg (fun w => rowAt5 d (m (t5Loc d)) w e) (lane3_0 (F := F) d L k (lands2 m d L) 11 slices_S16_o11_S1))
      · refine (cast_eq _ _).trans ((row0_write d L _ e _ _).trans ?_)
        unfold region3.sl.dma13
        exact (tab_row5 (F := F) d L (m (t5Loc d)) _ _ e).trans (congrArg (fun w => rowAt5 d (m (t5Loc d)) w e) (lane3_0 (F := F) d L k (lands2 m d L) 12 slices_S16_o12_S1))
      · refine (cast_eq _ _).trans ((row0_write d L _ e _ _).trans ?_)
        unfold region3.sl.dma14
        exact (tab_row5 (F := F) d L (m (t5Loc d)) _ _ e).trans (congrArg (fun w => rowAt5 d (m (t5Loc d)) w e) (lane3_0 (F := F) d L k (lands2 m d L) 13 slices_S16_o13_S1))
      · refine (cast_eq _ _).trans ((row0_write d L _ e _ _).trans ?_)
        unfold region3.sl.dma15
        exact (tab_row5 (F := F) d L (m (t5Loc d)) _ _ e).trans (congrArg (fun w => rowAt5 d (m (t5Loc d)) w e) (lane3_0 (F := F) d L k (lands2 m d L) 14 slices_S16_o14_S1))
      · refine (cast_eq _ _).trans ((row0_write d L _ e _ _).trans ?_)
        unfold region3.sl.dma16
        exact (tab_row5 (F := F) d L (m (t5Loc d)) _ _ e).trans (congrArg (fun w => rowAt5 d (m (t5Loc d)) w e) (lane3_0 (F := F) d L k (lands2 m d L) 15 slices_S16_o15_S1))
      · refine (cast_eq _ _).trans ((row0_write d L _ e _ _).trans ?_)
        unfold region3.sl.dma18
        exact (tab_row5 (F := F) d L (m (t5Loc d)) _ _ e).trans (congrArg (fun w => rowAt5 d (m (t5Loc d)) w e) (lane3_1 (F := F) d L k (lands2 m d L) 0 slices_S16_o0_S1))
      · refine (cast_eq _ _).trans ((row0_write d L _ e _ _).trans ?_)
        unfold region3.sl.dma19
        exact (tab_row5 (F := F) d L (m (t5Loc d)) _ _ e).trans (congrArg (fun w => rowAt5 d (m (t5Loc d)) w e) (lane3_1 (F := F) d L k (lands2 m d L) 1 slices_S16_o1_S1))
      · refine (cast_eq _ _).trans ((row0_write d L _ e _ _).trans ?_)
        unfold region3.sl.dma20
        exact (tab_row5 (F := F) d L (m (t5Loc d)) _ _ e).trans (congrArg (fun w => rowAt5 d (m (t5Loc d)) w e) (lane3_1 (F := F) d L k (lands2 m d L) 2 slices_S16_o2_S1))
      · refine (cast_eq _ _).trans ((row0_write d L _ e _ _).trans ?_)
        unfold region3.sl.dma21
        exact (tab_row5 (F := F) d L (m (t5Loc d)) _ _ e).trans (congrArg (fun w => rowAt5 d (m (t5Loc d)) w e) (lane3_1 (F := F) d L k (lands2 m d L) 3 slices_S16_o3_S1))
      · refine (cast_eq _ _).trans ((row0_write d L _ e _ _).trans ?_)
        unfold region3.sl.dma22
        exact (tab_row5 (F := F) d L (m (t5Loc d)) _ _ e).trans (congrArg (fun w => rowAt5 d (m (t5Loc d)) w e) (lane3_1 (F := F) d L k (lands2 m d L) 4 slices_S16_o4_S1))
      · refine (cast_eq _ _).trans ((row0_write d L _ e _ _).trans ?_)
        unfold region3.sl.dma23
        exact (tab_row5 (F := F) d L (m (t5Loc d)) _ _ e).trans (congrArg (fun w => rowAt5 d (m (t5Loc d)) w e) (lane3_1 (F := F) d L k (lands2 m d L) 5 slices_S16_o5_S1))
      · refine (cast_eq _ _).trans ((row0_write d L _ e _ _).trans ?_)
        unfold region3.sl.dma24
        exact (tab_row5 (F := F) d L (m (t5Loc d)) _ _ e).trans (congrArg (fun w => rowAt5 d (m (t5Loc d)) w e) (lane3_1 (F := F) d L k (lands2 m d L) 6 slices_S16_o6_S1))
      · refine (cast_eq _ _).trans ((row0_write d L _ e _ _).trans ?_)
        unfold region3.sl.dma25
        exact (tab_row5 (F := F) d L (m (t5Loc d)) _ _ e).trans (congrArg (fun w => rowAt5 d (m (t5Loc d)) w e) (lane3_1 (F := F) d L k (lands2 m d L) 7 slices_S16_o7_S1))
      · refine (cast_eq _ _).trans ((row0_write d L _ e _ _).trans ?_)
        unfold region3.sl.dma26
        exact (tab_row5 (F := F) d L (m (t5Loc d)) _ _ e).trans (congrArg (fun w => rowAt5 d (m (t5Loc d)) w e) (lane3_1 (F := F) d L k (lands2 m d L) 8 slices_S16_o8_S1))
      · refine (cast_eq _ _).trans ((row0_write d L _ e _ _).trans ?_)
        unfold region3.sl.dma27
        exact (tab_row5 (F := F) d L (m (t5Loc d)) _ _ e).trans (congrArg (fun w => rowAt5 d (m (t5Loc d)) w e) (lane3_1 (F := F) d L k (lands2 m d L) 9 slices_S16_o9_S1))
      · refine (cast_eq _ _).trans ((row0_write d L _ e _ _).trans ?_)
        unfold region3.sl.dma28
        exact (tab_row5 (F := F) d L (m (t5Loc d)) _ _ e).trans (congrArg (fun w => rowAt5 d (m (t5Loc d)) w e) (lane3_1 (F := F) d L k (lands2 m d L) 10 slices_S16_o10_S1))
      · refine (cast_eq _ _).trans ((row0_write d L _ e _ _).trans ?_)
        unfold region3.sl.dma29
        exact (tab_row5 (F := F) d L (m (t5Loc d)) _ _ e).trans (congrArg (fun w => rowAt5 d (m (t5Loc d)) w e) (lane3_1 (F := F) d L k (lands2 m d L) 11 slices_S16_o11_S1))
      · refine (cast_eq _ _).trans ((row0_write d L _ e _ _).trans ?_)
        unfold region3.sl.dma30
        exact (tab_row5 (F := F) d L (m (t5Loc d)) _ _ e).trans (congrArg (fun w => rowAt5 d (m (t5Loc d)) w e) (lane3_1 (F := F) d L k (lands2 m d L) 12 slices_S16_o12_S1))
      · refine (cast_eq _ _).trans ((row0_write d L _ e _ _).trans ?_)
        unfold region3.sl.dma31
        exact (tab_row5 (F := F) d L (m (t5Loc d)) _ _ e).trans (congrArg (fun w => rowAt5 d (m (t5Loc d)) w e) (lane3_1 (F := F) d L k (lands2 m d L) 13 slices_S16_o13_S1))
      · refine (cast_eq _ _).trans ((row0_write d L _ e _ _).trans ?_)
        unfold region3.sl.dma32
        exact (tab_row5 (F := F) d L (m (t5Loc d)) _ _ e).trans (congrArg (fun w => rowAt5 d (m (t5Loc d)) w e) (lane3_1 (F := F) d L k (lands2 m d L) 14 slices_S16_o14_S1))
      · refine (cast_eq _ _).trans ((row0_write d L _ e _ _).trans ?_)
        unfold region3.sl.dma33
        exact (tab_row5 (F := F) d L (m (t5Loc d)) _ _ e).trans (congrArg (fun w => rowAt5 d (m (t5Loc d)) w e) (lane3_1 (F := F) d L k (lands2 m d L) 15 slices_S16_o15_S1))
      · refine (cast_eq _ _).trans ((row0_write d L _ e _ _).trans ?_)
        unfold region3.sl.dma35
        exact (tab_row5 (F := F) d L (m (t5Loc d)) _ _ e).trans (congrArg (fun w => rowAt5 d (m (t5Loc d)) w e) (lane3_2 (F := F) d L k (lands2 m d L) 0 slices_S16_o0_S1))
      · refine (cast_eq _ _).trans ((row0_write d L _ e _ _).trans ?_)
        unfold region3.sl.dma36
        exact (tab_row5 (F := F) d L (m (t5Loc d)) _ _ e).trans (congrArg (fun w => rowAt5 d (m (t5Loc d)) w e) (lane3_2 (F := F) d L k (lands2 m d L) 1 slices_S16_o1_S1))
      · refine (cast_eq _ _).trans ((row0_write d L _ e _ _).trans ?_)
        unfold region3.sl.dma37
        exact (tab_row5 (F := F) d L (m (t5Loc d)) _ _ e).trans (congrArg (fun w => rowAt5 d (m (t5Loc d)) w e) (lane3_2 (F := F) d L k (lands2 m d L) 2 slices_S16_o2_S1))
      · refine (cast_eq _ _).trans ((row0_write d L _ e _ _).trans ?_)
        unfold region3.sl.dma38
        exact (tab_row5 (F := F) d L (m (t5Loc d)) _ _ e).trans (congrArg (fun w => rowAt5 d (m (t5Loc d)) w e) (lane3_2 (F := F) d L k (lands2 m d L) 3 slices_S16_o3_S1))
      · refine (cast_eq _ _).trans ((row0_write d L _ e _ _).trans ?_)
        unfold region3.sl.dma39
        exact (tab_row5 (F := F) d L (m (t5Loc d)) _ _ e).trans (congrArg (fun w => rowAt5 d (m (t5Loc d)) w e) (lane3_2 (F := F) d L k (lands2 m d L) 4 slices_S16_o4_S1))
      · refine (cast_eq _ _).trans ((row0_write d L _ e _ _).trans ?_)
        unfold region3.sl.dma40
        exact (tab_row5 (F := F) d L (m (t5Loc d)) _ _ e).trans (congrArg (fun w => rowAt5 d (m (t5Loc d)) w e) (lane3_2 (F := F) d L k (lands2 m d L) 5 slices_S16_o5_S1))
      · refine (cast_eq _ _).trans ((row0_write d L _ e _ _).trans ?_)
        unfold region3.sl.dma41
        exact (tab_row5 (F := F) d L (m (t5Loc d)) _ _ e).trans (congrArg (fun w => rowAt5 d (m (t5Loc d)) w e) (lane3_2 (F := F) d L k (lands2 m d L) 6 slices_S16_o6_S1))
      · refine (cast_eq _ _).trans ((row0_write d L _ e _ _).trans ?_)
        unfold region3.sl.dma42
        exact (tab_row5 (F := F) d L (m (t5Loc d)) _ _ e).trans (congrArg (fun w => rowAt5 d (m (t5Loc d)) w e) (lane3_2 (F := F) d L k (lands2 m d L) 7 slices_S16_o7_S1))
      · refine (cast_eq _ _).trans ((row0_write d L _ e _ _).trans ?_)
        unfold region3.sl.dma43
        exact (tab_row5 (F := F) d L (m (t5Loc d)) _ _ e).trans (congrArg (fun w => rowAt5 d (m (t5Loc d)) w e) (lane3_2 (F := F) d L k (lands2 m d L) 8 slices_S16_o8_S1))
      · refine (cast_eq _ _).trans ((row0_write d L _ e _ _).trans ?_)
        unfold region3.sl.dma44
        exact (tab_row5 (F := F) d L (m (t5Loc d)) _ _ e).trans (congrArg (fun w => rowAt5 d (m (t5Loc d)) w e) (lane3_2 (F := F) d L k (lands2 m d L) 9 slices_S16_o9_S1))
      · refine (cast_eq _ _).trans ((row0_write d L _ e _ _).trans ?_)
        unfold region3.sl.dma45
        exact (tab_row5 (F := F) d L (m (t5Loc d)) _ _ e).trans (congrArg (fun w => rowAt5 d (m (t5Loc d)) w e) (lane3_2 (F := F) d L k (lands2 m d L) 10 slices_S16_o10_S1))
      · refine (cast_eq _ _).trans ((row0_write d L _ e _ _).trans ?_)
        unfold region3.sl.dma46
        exact (tab_row5 (F := F) d L (m (t5Loc d)) _ _ e).trans (congrArg (fun w => rowAt5 d (m (t5Loc d)) w e) (lane3_2 (F := F) d L k (lands2 m d L) 11 slices_S16_o11_S1))
      · refine (cast_eq _ _).trans ((row0_write d L _ e _ _).trans ?_)
        unfold region3.sl.dma47
        exact (tab_row5 (F := F) d L (m (t5Loc d)) _ _ e).trans (congrArg (fun w => rowAt5 d (m (t5Loc d)) w e) (lane3_2 (F := F) d L k (lands2 m d L) 12 slices_S16_o12_S1))
      · refine (cast_eq _ _).trans ((row0_write d L _ e _ _).trans ?_)
        unfold region3.sl.dma48
        exact (tab_row5 (F := F) d L (m (t5Loc d)) _ _ e).trans (congrArg (fun w => rowAt5 d (m (t5Loc d)) w e) (lane3_2 (F := F) d L k (lands2 m d L) 13 slices_S16_o13_S1))
      · refine (cast_eq _ _).trans ((row0_write d L _ e _ _).trans ?_)
        unfold region3.sl.dma49
        exact (tab_row5 (F := F) d L (m (t5Loc d)) _ _ e).trans (congrArg (fun w => rowAt5 d (m (t5Loc d)) w e) (lane3_2 (F := F) d L k (lands2 m d L) 14 slices_S16_o14_S1))
      · refine (cast_eq _ _).trans ((row0_write d L _ e _ _).trans ?_)
        unfold region3.sl.dma50
        exact (tab_row5 (F := F) d L (m (t5Loc d)) _ _ e).trans (congrArg (fun w => rowAt5 d (m (t5Loc d)) w e) (lane3_2 (F := F) d L k (lands2 m d L) 15 slices_S16_o15_S1))
      · refine (cast_eq _ _).trans ((row0_write d L _ e _ _).trans ?_)
        unfold region3.sl.dma52
        exact (tab_row5 (F := F) d L (m (t5Loc d)) _ _ e).trans (congrArg (fun w => rowAt5 d (m (t5Loc d)) w e) (lane3_3 (F := F) d L k (lands2 m d L) 0 slices_S16_o0_S1))
      · refine (cast_eq _ _).trans ((row0_write d L _ e _ _).trans ?_)
        unfold region3.sl.dma53
        exact (tab_row5 (F := F) d L (m (t5Loc d)) _ _ e).trans (congrArg (fun w => rowAt5 d (m (t5Loc d)) w e) (lane3_3 (F := F) d L k (lands2 m d L) 1 slices_S16_o1_S1))
      · refine (cast_eq _ _).trans ((row0_write d L _ e _ _).trans ?_)
        unfold region3.sl.dma54
        exact (tab_row5 (F := F) d L (m (t5Loc d)) _ _ e).trans (congrArg (fun w => rowAt5 d (m (t5Loc d)) w e) (lane3_3 (F := F) d L k (lands2 m d L) 2 slices_S16_o2_S1))
      · refine (cast_eq _ _).trans ((row0_write d L _ e _ _).trans ?_)
        unfold region3.sl.dma55
        exact (tab_row5 (F := F) d L (m (t5Loc d)) _ _ e).trans (congrArg (fun w => rowAt5 d (m (t5Loc d)) w e) (lane3_3 (F := F) d L k (lands2 m d L) 3 slices_S16_o3_S1))
      · refine (cast_eq _ _).trans ((row0_write d L _ e _ _).trans ?_)
        unfold region3.sl.dma56
        exact (tab_row5 (F := F) d L (m (t5Loc d)) _ _ e).trans (congrArg (fun w => rowAt5 d (m (t5Loc d)) w e) (lane3_3 (F := F) d L k (lands2 m d L) 4 slices_S16_o4_S1))
      · refine (cast_eq _ _).trans ((row0_write d L _ e _ _).trans ?_)
        unfold region3.sl.dma57
        exact (tab_row5 (F := F) d L (m (t5Loc d)) _ _ e).trans (congrArg (fun w => rowAt5 d (m (t5Loc d)) w e) (lane3_3 (F := F) d L k (lands2 m d L) 5 slices_S16_o5_S1))
      · refine (cast_eq _ _).trans ((row0_write d L _ e _ _).trans ?_)
        unfold region3.sl.dma58
        exact (tab_row5 (F := F) d L (m (t5Loc d)) _ _ e).trans (congrArg (fun w => rowAt5 d (m (t5Loc d)) w e) (lane3_3 (F := F) d L k (lands2 m d L) 6 slices_S16_o6_S1))
      · refine (cast_eq _ _).trans ((row0_write d L _ e _ _).trans ?_)
        unfold region3.sl.dma59
        exact (tab_row5 (F := F) d L (m (t5Loc d)) _ _ e).trans (congrArg (fun w => rowAt5 d (m (t5Loc d)) w e) (lane3_3 (F := F) d L k (lands2 m d L) 7 slices_S16_o7_S1))
      · refine (cast_eq _ _).trans ((row0_write d L _ e _ _).trans ?_)
        unfold region3.sl.dma60
        exact (tab_row5 (F := F) d L (m (t5Loc d)) _ _ e).trans (congrArg (fun w => rowAt5 d (m (t5Loc d)) w e) (lane3_3 (F := F) d L k (lands2 m d L) 8 slices_S16_o8_S1))
      · refine (cast_eq _ _).trans ((row0_write d L _ e _ _).trans ?_)
        unfold region3.sl.dma61
        exact (tab_row5 (F := F) d L (m (t5Loc d)) _ _ e).trans (congrArg (fun w => rowAt5 d (m (t5Loc d)) w e) (lane3_3 (F := F) d L k (lands2 m d L) 9 slices_S16_o9_S1))
      · refine (cast_eq _ _).trans ((row0_write d L _ e _ _).trans ?_)
        unfold region3.sl.dma62
        exact (tab_row5 (F := F) d L (m (t5Loc d)) _ _ e).trans (congrArg (fun w => rowAt5 d (m (t5Loc d)) w e) (lane3_3 (F := F) d L k (lands2 m d L) 10 slices_S16_o10_S1))
      · refine (cast_eq _ _).trans ((row0_write d L _ e _ _).trans ?_)
        unfold region3.sl.dma63
        exact (tab_row5 (F := F) d L (m (t5Loc d)) _ _ e).trans (congrArg (fun w => rowAt5 d (m (t5Loc d)) w e) (lane3_3 (F := F) d L k (lands2 m d L) 11 slices_S16_o11_S1))
      · refine (cast_eq _ _).trans ((row0_write d L _ e _ _).trans ?_)
        unfold region3.sl.dma64
        exact (tab_row5 (F := F) d L (m (t5Loc d)) _ _ e).trans (congrArg (fun w => rowAt5 d (m (t5Loc d)) w e) (lane3_3 (F := F) d L k (lands2 m d L) 12 slices_S16_o12_S1))
      · refine (cast_eq _ _).trans ((row0_write d L _ e _ _).trans ?_)
        unfold region3.sl.dma65
        exact (tab_row5 (F := F) d L (m (t5Loc d)) _ _ e).trans (congrArg (fun w => rowAt5 d (m (t5Loc d)) w e) (lane3_3 (F := F) d L k (lands2 m d L) 13 slices_S16_o13_S1))
      · refine (cast_eq _ _).trans ((row0_write d L _ e _ _).trans ?_)
        unfold region3.sl.dma66
        exact (tab_row5 (F := F) d L (m (t5Loc d)) _ _ e).trans (congrArg (fun w => rowAt5 d (m (t5Loc d)) w e) (lane3_3 (F := F) d L k (lands2 m d L) 14 slices_S16_o14_S1))
      · refine (cast_eq _ _).trans ((row0_write d L _ e _ _).trans ?_)
        unfold region3.sl.dma67
        exact (tab_row5 (F := F) d L (m (t5Loc d)) _ _ e).trans (congrArg (fun w => rowAt5 d (m (t5Loc d)) w e) (lane3_3 (F := F) d L k (lands2 m d L) 15 slices_S16_o15_S1))
    isplitl [Ho1']
    · iapply (Entails.of_eq (pts_ocWin3 (F := F) d L k 1 _))
      iapply (congr_ex (F := F) (G2 m d))
      iexists _; isplitr
      on_goal 2 => iexact Ho1'
      ipureintro
      refine win3_value m d L k 1 _ ?_
      intro r e
      show (slotM1).view.read (Elt F) (glue d L _) (ix2 r e) = _
      rw [View.read_apply, glue_slot1]
      fin_cases r
      · refine (cast_eq _ _).trans ((row1_write d L _ e _ _).trans ?_)
        unfold region3.sl.dma69
        exact (tab_row5 (F := F) d L (m (t5Loc d)) _ _ e).trans (congrArg (fun w => rowAt5 d (m (t5Loc d)) w e) (lane3_4 (F := F) d L k (lands2 m d L) 0 slices_S16_o0_S1))
      · refine (cast_eq _ _).trans ((row1_write d L _ e _ _).trans ?_)
        unfold region3.sl.dma70
        exact (tab_row5 (F := F) d L (m (t5Loc d)) _ _ e).trans (congrArg (fun w => rowAt5 d (m (t5Loc d)) w e) (lane3_4 (F := F) d L k (lands2 m d L) 1 slices_S16_o1_S1))
      · refine (cast_eq _ _).trans ((row1_write d L _ e _ _).trans ?_)
        unfold region3.sl.dma71
        exact (tab_row5 (F := F) d L (m (t5Loc d)) _ _ e).trans (congrArg (fun w => rowAt5 d (m (t5Loc d)) w e) (lane3_4 (F := F) d L k (lands2 m d L) 2 slices_S16_o2_S1))
      · refine (cast_eq _ _).trans ((row1_write d L _ e _ _).trans ?_)
        unfold region3.sl.dma72
        exact (tab_row5 (F := F) d L (m (t5Loc d)) _ _ e).trans (congrArg (fun w => rowAt5 d (m (t5Loc d)) w e) (lane3_4 (F := F) d L k (lands2 m d L) 3 slices_S16_o3_S1))
      · refine (cast_eq _ _).trans ((row1_write d L _ e _ _).trans ?_)
        unfold region3.sl.dma73
        exact (tab_row5 (F := F) d L (m (t5Loc d)) _ _ e).trans (congrArg (fun w => rowAt5 d (m (t5Loc d)) w e) (lane3_4 (F := F) d L k (lands2 m d L) 4 slices_S16_o4_S1))
      · refine (cast_eq _ _).trans ((row1_write d L _ e _ _).trans ?_)
        unfold region3.sl.dma74
        exact (tab_row5 (F := F) d L (m (t5Loc d)) _ _ e).trans (congrArg (fun w => rowAt5 d (m (t5Loc d)) w e) (lane3_4 (F := F) d L k (lands2 m d L) 5 slices_S16_o5_S1))
      · refine (cast_eq _ _).trans ((row1_write d L _ e _ _).trans ?_)
        unfold region3.sl.dma75
        exact (tab_row5 (F := F) d L (m (t5Loc d)) _ _ e).trans (congrArg (fun w => rowAt5 d (m (t5Loc d)) w e) (lane3_4 (F := F) d L k (lands2 m d L) 6 slices_S16_o6_S1))
      · refine (cast_eq _ _).trans ((row1_write d L _ e _ _).trans ?_)
        unfold region3.sl.dma76
        exact (tab_row5 (F := F) d L (m (t5Loc d)) _ _ e).trans (congrArg (fun w => rowAt5 d (m (t5Loc d)) w e) (lane3_4 (F := F) d L k (lands2 m d L) 7 slices_S16_o7_S1))
      · refine (cast_eq _ _).trans ((row1_write d L _ e _ _).trans ?_)
        unfold region3.sl.dma77
        exact (tab_row5 (F := F) d L (m (t5Loc d)) _ _ e).trans (congrArg (fun w => rowAt5 d (m (t5Loc d)) w e) (lane3_4 (F := F) d L k (lands2 m d L) 8 slices_S16_o8_S1))
      · refine (cast_eq _ _).trans ((row1_write d L _ e _ _).trans ?_)
        unfold region3.sl.dma78
        exact (tab_row5 (F := F) d L (m (t5Loc d)) _ _ e).trans (congrArg (fun w => rowAt5 d (m (t5Loc d)) w e) (lane3_4 (F := F) d L k (lands2 m d L) 9 slices_S16_o9_S1))
      · refine (cast_eq _ _).trans ((row1_write d L _ e _ _).trans ?_)
        unfold region3.sl.dma79
        exact (tab_row5 (F := F) d L (m (t5Loc d)) _ _ e).trans (congrArg (fun w => rowAt5 d (m (t5Loc d)) w e) (lane3_4 (F := F) d L k (lands2 m d L) 10 slices_S16_o10_S1))
      · refine (cast_eq _ _).trans ((row1_write d L _ e _ _).trans ?_)
        unfold region3.sl.dma80
        exact (tab_row5 (F := F) d L (m (t5Loc d)) _ _ e).trans (congrArg (fun w => rowAt5 d (m (t5Loc d)) w e) (lane3_4 (F := F) d L k (lands2 m d L) 11 slices_S16_o11_S1))
      · refine (cast_eq _ _).trans ((row1_write d L _ e _ _).trans ?_)
        unfold region3.sl.dma81
        exact (tab_row5 (F := F) d L (m (t5Loc d)) _ _ e).trans (congrArg (fun w => rowAt5 d (m (t5Loc d)) w e) (lane3_4 (F := F) d L k (lands2 m d L) 12 slices_S16_o12_S1))
      · refine (cast_eq _ _).trans ((row1_write d L _ e _ _).trans ?_)
        unfold region3.sl.dma82
        exact (tab_row5 (F := F) d L (m (t5Loc d)) _ _ e).trans (congrArg (fun w => rowAt5 d (m (t5Loc d)) w e) (lane3_4 (F := F) d L k (lands2 m d L) 13 slices_S16_o13_S1))
      · refine (cast_eq _ _).trans ((row1_write d L _ e _ _).trans ?_)
        unfold region3.sl.dma83
        exact (tab_row5 (F := F) d L (m (t5Loc d)) _ _ e).trans (congrArg (fun w => rowAt5 d (m (t5Loc d)) w e) (lane3_4 (F := F) d L k (lands2 m d L) 14 slices_S16_o14_S1))
      · refine (cast_eq _ _).trans ((row1_write d L _ e _ _).trans ?_)
        unfold region3.sl.dma84
        exact (tab_row5 (F := F) d L (m (t5Loc d)) _ _ e).trans (congrArg (fun w => rowAt5 d (m (t5Loc d)) w e) (lane3_4 (F := F) d L k (lands2 m d L) 15 slices_S16_o15_S1))
      · refine (cast_eq _ _).trans ((row1_write d L _ e _ _).trans ?_)
        unfold region3.sl.dma86
        exact (tab_row5 (F := F) d L (m (t5Loc d)) _ _ e).trans (congrArg (fun w => rowAt5 d (m (t5Loc d)) w e) (lane3_5 (F := F) d L k (lands2 m d L) 0 slices_S16_o0_S1))
      · refine (cast_eq _ _).trans ((row1_write d L _ e _ _).trans ?_)
        unfold region3.sl.dma87
        exact (tab_row5 (F := F) d L (m (t5Loc d)) _ _ e).trans (congrArg (fun w => rowAt5 d (m (t5Loc d)) w e) (lane3_5 (F := F) d L k (lands2 m d L) 1 slices_S16_o1_S1))
      · refine (cast_eq _ _).trans ((row1_write d L _ e _ _).trans ?_)
        unfold region3.sl.dma88
        exact (tab_row5 (F := F) d L (m (t5Loc d)) _ _ e).trans (congrArg (fun w => rowAt5 d (m (t5Loc d)) w e) (lane3_5 (F := F) d L k (lands2 m d L) 2 slices_S16_o2_S1))
      · refine (cast_eq _ _).trans ((row1_write d L _ e _ _).trans ?_)
        unfold region3.sl.dma89
        exact (tab_row5 (F := F) d L (m (t5Loc d)) _ _ e).trans (congrArg (fun w => rowAt5 d (m (t5Loc d)) w e) (lane3_5 (F := F) d L k (lands2 m d L) 3 slices_S16_o3_S1))
      · refine (cast_eq _ _).trans ((row1_write d L _ e _ _).trans ?_)
        unfold region3.sl.dma90
        exact (tab_row5 (F := F) d L (m (t5Loc d)) _ _ e).trans (congrArg (fun w => rowAt5 d (m (t5Loc d)) w e) (lane3_5 (F := F) d L k (lands2 m d L) 4 slices_S16_o4_S1))
      · refine (cast_eq _ _).trans ((row1_write d L _ e _ _).trans ?_)
        unfold region3.sl.dma91
        exact (tab_row5 (F := F) d L (m (t5Loc d)) _ _ e).trans (congrArg (fun w => rowAt5 d (m (t5Loc d)) w e) (lane3_5 (F := F) d L k (lands2 m d L) 5 slices_S16_o5_S1))
      · refine (cast_eq _ _).trans ((row1_write d L _ e _ _).trans ?_)
        unfold region3.sl.dma92
        exact (tab_row5 (F := F) d L (m (t5Loc d)) _ _ e).trans (congrArg (fun w => rowAt5 d (m (t5Loc d)) w e) (lane3_5 (F := F) d L k (lands2 m d L) 6 slices_S16_o6_S1))
      · refine (cast_eq _ _).trans ((row1_write d L _ e _ _).trans ?_)
        unfold region3.sl.dma93
        exact (tab_row5 (F := F) d L (m (t5Loc d)) _ _ e).trans (congrArg (fun w => rowAt5 d (m (t5Loc d)) w e) (lane3_5 (F := F) d L k (lands2 m d L) 7 slices_S16_o7_S1))
      · refine (cast_eq _ _).trans ((row1_write d L _ e _ _).trans ?_)
        unfold region3.sl.dma94
        exact (tab_row5 (F := F) d L (m (t5Loc d)) _ _ e).trans (congrArg (fun w => rowAt5 d (m (t5Loc d)) w e) (lane3_5 (F := F) d L k (lands2 m d L) 8 slices_S16_o8_S1))
      · refine (cast_eq _ _).trans ((row1_write d L _ e _ _).trans ?_)
        unfold region3.sl.dma95
        exact (tab_row5 (F := F) d L (m (t5Loc d)) _ _ e).trans (congrArg (fun w => rowAt5 d (m (t5Loc d)) w e) (lane3_5 (F := F) d L k (lands2 m d L) 9 slices_S16_o9_S1))
      · refine (cast_eq _ _).trans ((row1_write d L _ e _ _).trans ?_)
        unfold region3.sl.dma96
        exact (tab_row5 (F := F) d L (m (t5Loc d)) _ _ e).trans (congrArg (fun w => rowAt5 d (m (t5Loc d)) w e) (lane3_5 (F := F) d L k (lands2 m d L) 10 slices_S16_o10_S1))
      · refine (cast_eq _ _).trans ((row1_write d L _ e _ _).trans ?_)
        unfold region3.sl.dma97
        exact (tab_row5 (F := F) d L (m (t5Loc d)) _ _ e).trans (congrArg (fun w => rowAt5 d (m (t5Loc d)) w e) (lane3_5 (F := F) d L k (lands2 m d L) 11 slices_S16_o11_S1))
      · refine (cast_eq _ _).trans ((row1_write d L _ e _ _).trans ?_)
        unfold region3.sl.dma98
        exact (tab_row5 (F := F) d L (m (t5Loc d)) _ _ e).trans (congrArg (fun w => rowAt5 d (m (t5Loc d)) w e) (lane3_5 (F := F) d L k (lands2 m d L) 12 slices_S16_o12_S1))
      · refine (cast_eq _ _).trans ((row1_write d L _ e _ _).trans ?_)
        unfold region3.sl.dma99
        exact (tab_row5 (F := F) d L (m (t5Loc d)) _ _ e).trans (congrArg (fun w => rowAt5 d (m (t5Loc d)) w e) (lane3_5 (F := F) d L k (lands2 m d L) 13 slices_S16_o13_S1))
      · refine (cast_eq _ _).trans ((row1_write d L _ e _ _).trans ?_)
        unfold region3.sl.dma100
        exact (tab_row5 (F := F) d L (m (t5Loc d)) _ _ e).trans (congrArg (fun w => rowAt5 d (m (t5Loc d)) w e) (lane3_5 (F := F) d L k (lands2 m d L) 14 slices_S16_o14_S1))
      · refine (cast_eq _ _).trans ((row1_write d L _ e _ _).trans ?_)
        unfold region3.sl.dma101
        exact (tab_row5 (F := F) d L (m (t5Loc d)) _ _ e).trans (congrArg (fun w => rowAt5 d (m (t5Loc d)) w e) (lane3_5 (F := F) d L k (lands2 m d L) 15 slices_S16_o15_S1))
      · refine (cast_eq _ _).trans ((row1_write d L _ e _ _).trans ?_)
        unfold region3.sl.dma103
        exact (tab_row5 (F := F) d L (m (t5Loc d)) _ _ e).trans (congrArg (fun w => rowAt5 d (m (t5Loc d)) w e) (lane3_6 (F := F) d L k (lands2 m d L) 0 slices_S16_o0_S1))
      · refine (cast_eq _ _).trans ((row1_write d L _ e _ _).trans ?_)
        unfold region3.sl.dma104
        exact (tab_row5 (F := F) d L (m (t5Loc d)) _ _ e).trans (congrArg (fun w => rowAt5 d (m (t5Loc d)) w e) (lane3_6 (F := F) d L k (lands2 m d L) 1 slices_S16_o1_S1))
      · refine (cast_eq _ _).trans ((row1_write d L _ e _ _).trans ?_)
        unfold region3.sl.dma105
        exact (tab_row5 (F := F) d L (m (t5Loc d)) _ _ e).trans (congrArg (fun w => rowAt5 d (m (t5Loc d)) w e) (lane3_6 (F := F) d L k (lands2 m d L) 2 slices_S16_o2_S1))
      · refine (cast_eq _ _).trans ((row1_write d L _ e _ _).trans ?_)
        unfold region3.sl.dma106
        exact (tab_row5 (F := F) d L (m (t5Loc d)) _ _ e).trans (congrArg (fun w => rowAt5 d (m (t5Loc d)) w e) (lane3_6 (F := F) d L k (lands2 m d L) 3 slices_S16_o3_S1))
      · refine (cast_eq _ _).trans ((row1_write d L _ e _ _).trans ?_)
        unfold region3.sl.dma107
        exact (tab_row5 (F := F) d L (m (t5Loc d)) _ _ e).trans (congrArg (fun w => rowAt5 d (m (t5Loc d)) w e) (lane3_6 (F := F) d L k (lands2 m d L) 4 slices_S16_o4_S1))
      · refine (cast_eq _ _).trans ((row1_write d L _ e _ _).trans ?_)
        unfold region3.sl.dma108
        exact (tab_row5 (F := F) d L (m (t5Loc d)) _ _ e).trans (congrArg (fun w => rowAt5 d (m (t5Loc d)) w e) (lane3_6 (F := F) d L k (lands2 m d L) 5 slices_S16_o5_S1))
      · refine (cast_eq _ _).trans ((row1_write d L _ e _ _).trans ?_)
        unfold region3.sl.dma109
        exact (tab_row5 (F := F) d L (m (t5Loc d)) _ _ e).trans (congrArg (fun w => rowAt5 d (m (t5Loc d)) w e) (lane3_6 (F := F) d L k (lands2 m d L) 6 slices_S16_o6_S1))
      · refine (cast_eq _ _).trans ((row1_write d L _ e _ _).trans ?_)
        unfold region3.sl.dma110
        exact (tab_row5 (F := F) d L (m (t5Loc d)) _ _ e).trans (congrArg (fun w => rowAt5 d (m (t5Loc d)) w e) (lane3_6 (F := F) d L k (lands2 m d L) 7 slices_S16_o7_S1))
      · refine (cast_eq _ _).trans ((row1_write d L _ e _ _).trans ?_)
        unfold region3.sl.dma111
        exact (tab_row5 (F := F) d L (m (t5Loc d)) _ _ e).trans (congrArg (fun w => rowAt5 d (m (t5Loc d)) w e) (lane3_6 (F := F) d L k (lands2 m d L) 8 slices_S16_o8_S1))
      · refine (cast_eq _ _).trans ((row1_write d L _ e _ _).trans ?_)
        unfold region3.sl.dma112
        exact (tab_row5 (F := F) d L (m (t5Loc d)) _ _ e).trans (congrArg (fun w => rowAt5 d (m (t5Loc d)) w e) (lane3_6 (F := F) d L k (lands2 m d L) 9 slices_S16_o9_S1))
      · refine (cast_eq _ _).trans ((row1_write d L _ e _ _).trans ?_)
        unfold region3.sl.dma113
        exact (tab_row5 (F := F) d L (m (t5Loc d)) _ _ e).trans (congrArg (fun w => rowAt5 d (m (t5Loc d)) w e) (lane3_6 (F := F) d L k (lands2 m d L) 10 slices_S16_o10_S1))
      · refine (cast_eq _ _).trans ((row1_write d L _ e _ _).trans ?_)
        unfold region3.sl.dma114
        exact (tab_row5 (F := F) d L (m (t5Loc d)) _ _ e).trans (congrArg (fun w => rowAt5 d (m (t5Loc d)) w e) (lane3_6 (F := F) d L k (lands2 m d L) 11 slices_S16_o11_S1))
      · refine (cast_eq _ _).trans ((row1_write d L _ e _ _).trans ?_)
        unfold region3.sl.dma115
        exact (tab_row5 (F := F) d L (m (t5Loc d)) _ _ e).trans (congrArg (fun w => rowAt5 d (m (t5Loc d)) w e) (lane3_6 (F := F) d L k (lands2 m d L) 12 slices_S16_o12_S1))
      · refine (cast_eq _ _).trans ((row1_write d L _ e _ _).trans ?_)
        unfold region3.sl.dma116
        exact (tab_row5 (F := F) d L (m (t5Loc d)) _ _ e).trans (congrArg (fun w => rowAt5 d (m (t5Loc d)) w e) (lane3_6 (F := F) d L k (lands2 m d L) 13 slices_S16_o13_S1))
      · refine (cast_eq _ _).trans ((row1_write d L _ e _ _).trans ?_)
        unfold region3.sl.dma117
        exact (tab_row5 (F := F) d L (m (t5Loc d)) _ _ e).trans (congrArg (fun w => rowAt5 d (m (t5Loc d)) w e) (lane3_6 (F := F) d L k (lands2 m d L) 14 slices_S16_o14_S1))
      · refine (cast_eq _ _).trans ((row1_write d L _ e _ _).trans ?_)
        unfold region3.sl.dma118
        exact (tab_row5 (F := F) d L (m (t5Loc d)) _ _ e).trans (congrArg (fun w => rowAt5 d (m (t5Loc d)) w e) (lane3_6 (F := F) d L k (lands2 m d L) 15 slices_S16_o15_S1))
      · refine (cast_eq _ _).trans ((row1_write d L _ e _ _).trans ?_)
        unfold region3.sl.dma120
        exact (tab_row5 (F := F) d L (m (t5Loc d)) _ _ e).trans (congrArg (fun w => rowAt5 d (m (t5Loc d)) w e) (lane3_7 (F := F) d L k (lands2 m d L) 0 slices_S16_o0_S1))
      · refine (cast_eq _ _).trans ((row1_write d L _ e _ _).trans ?_)
        unfold region3.sl.dma121
        exact (tab_row5 (F := F) d L (m (t5Loc d)) _ _ e).trans (congrArg (fun w => rowAt5 d (m (t5Loc d)) w e) (lane3_7 (F := F) d L k (lands2 m d L) 1 slices_S16_o1_S1))
      · refine (cast_eq _ _).trans ((row1_write d L _ e _ _).trans ?_)
        unfold region3.sl.dma122
        exact (tab_row5 (F := F) d L (m (t5Loc d)) _ _ e).trans (congrArg (fun w => rowAt5 d (m (t5Loc d)) w e) (lane3_7 (F := F) d L k (lands2 m d L) 2 slices_S16_o2_S1))
      · refine (cast_eq _ _).trans ((row1_write d L _ e _ _).trans ?_)
        unfold region3.sl.dma123
        exact (tab_row5 (F := F) d L (m (t5Loc d)) _ _ e).trans (congrArg (fun w => rowAt5 d (m (t5Loc d)) w e) (lane3_7 (F := F) d L k (lands2 m d L) 3 slices_S16_o3_S1))
      · refine (cast_eq _ _).trans ((row1_write d L _ e _ _).trans ?_)
        unfold region3.sl.dma124
        exact (tab_row5 (F := F) d L (m (t5Loc d)) _ _ e).trans (congrArg (fun w => rowAt5 d (m (t5Loc d)) w e) (lane3_7 (F := F) d L k (lands2 m d L) 4 slices_S16_o4_S1))
      · refine (cast_eq _ _).trans ((row1_write d L _ e _ _).trans ?_)
        unfold region3.sl.dma125
        exact (tab_row5 (F := F) d L (m (t5Loc d)) _ _ e).trans (congrArg (fun w => rowAt5 d (m (t5Loc d)) w e) (lane3_7 (F := F) d L k (lands2 m d L) 5 slices_S16_o5_S1))
      · refine (cast_eq _ _).trans ((row1_write d L _ e _ _).trans ?_)
        unfold region3.sl.dma126
        exact (tab_row5 (F := F) d L (m (t5Loc d)) _ _ e).trans (congrArg (fun w => rowAt5 d (m (t5Loc d)) w e) (lane3_7 (F := F) d L k (lands2 m d L) 6 slices_S16_o6_S1))
      · refine (cast_eq _ _).trans ((row1_write d L _ e _ _).trans ?_)
        unfold region3.sl.dma127
        exact (tab_row5 (F := F) d L (m (t5Loc d)) _ _ e).trans (congrArg (fun w => rowAt5 d (m (t5Loc d)) w e) (lane3_7 (F := F) d L k (lands2 m d L) 7 slices_S16_o7_S1))
      · refine (cast_eq _ _).trans ((row1_write d L _ e _ _).trans ?_)
        unfold region3.sl.dma128
        exact (tab_row5 (F := F) d L (m (t5Loc d)) _ _ e).trans (congrArg (fun w => rowAt5 d (m (t5Loc d)) w e) (lane3_7 (F := F) d L k (lands2 m d L) 8 slices_S16_o8_S1))
      · refine (cast_eq _ _).trans ((row1_write d L _ e _ _).trans ?_)
        unfold region3.sl.dma129
        exact (tab_row5 (F := F) d L (m (t5Loc d)) _ _ e).trans (congrArg (fun w => rowAt5 d (m (t5Loc d)) w e) (lane3_7 (F := F) d L k (lands2 m d L) 9 slices_S16_o9_S1))
      · refine (cast_eq _ _).trans ((row1_write d L _ e _ _).trans ?_)
        unfold region3.sl.dma130
        exact (tab_row5 (F := F) d L (m (t5Loc d)) _ _ e).trans (congrArg (fun w => rowAt5 d (m (t5Loc d)) w e) (lane3_7 (F := F) d L k (lands2 m d L) 10 slices_S16_o10_S1))
      · refine (cast_eq _ _).trans ((row1_write d L _ e _ _).trans ?_)
        unfold region3.sl.dma131
        exact (tab_row5 (F := F) d L (m (t5Loc d)) _ _ e).trans (congrArg (fun w => rowAt5 d (m (t5Loc d)) w e) (lane3_7 (F := F) d L k (lands2 m d L) 11 slices_S16_o11_S1))
      · refine (cast_eq _ _).trans ((row1_write d L _ e _ _).trans ?_)
        unfold region3.sl.dma132
        exact (tab_row5 (F := F) d L (m (t5Loc d)) _ _ e).trans (congrArg (fun w => rowAt5 d (m (t5Loc d)) w e) (lane3_7 (F := F) d L k (lands2 m d L) 12 slices_S16_o12_S1))
      · refine (cast_eq _ _).trans ((row1_write d L _ e _ _).trans ?_)
        unfold region3.sl.dma133
        exact (tab_row5 (F := F) d L (m (t5Loc d)) _ _ e).trans (congrArg (fun w => rowAt5 d (m (t5Loc d)) w e) (lane3_7 (F := F) d L k (lands2 m d L) 13 slices_S16_o13_S1))
      · refine (cast_eq _ _).trans ((row1_write d L _ e _ _).trans ?_)
        unfold region3.sl.dma134
        exact (tab_row5 (F := F) d L (m (t5Loc d)) _ _ e).trans (congrArg (fun w => rowAt5 d (m (t5Loc d)) w e) (lane3_7 (F := F) d L k (lands2 m d L) 14 slices_S16_o14_S1))
      · refine (cast_eq _ _).trans ((row1_write d L _ e _ _).trans ?_)
        unfold region3.sl.dma135
        exact (tab_row5 (F := F) d L (m (t5Loc d)) _ _ e).trans (congrArg (fun w => rowAt5 d (m (t5Loc d)) w e) (lane3_7 (F := F) d L k (lands2 m d L) 15 slices_S16_o15_S1))
    iexact Hrest
  iexists _; isplitr
  on_goal 2 => iexact HO
  ipureintro
  repeat' (first | exact hW' | refine waits_insert _ ?_)

end Cert.Proof.KReg3

end
-- ==== Proof.KBody.lean ====
/-
  One tile's task, whole: the three index rows fetched, then the three loops (one per table), each trip fetching 128
  table rows into the staging slots and writing them out; the tile's result windows end at the lookups.
-/
import proofs.«206842_g87686052315543_cont_sun_m_497_29_alg».proof.Defs
import proofs.«206842_g87686052315543_cont_sun_m_497_29_alg».proof.Proof.KRes
import proofs.«206842_g87686052315543_cont_sun_m_497_29_alg».proof.Proof.KWin
import proofs.«206842_g87686052315543_cont_sun_m_497_29_alg».proof.Proof.KLand
import proofs.«206842_g87686052315543_cont_sun_m_497_29_alg».proof.Proof.KRows
import proofs.«206842_g87686052315543_cont_sun_m_497_29_alg».proof.Proof.KJoin
import proofs.«206842_g87686052315543_cont_sun_m_497_29_alg».proof.Proof.KInv
import proofs.«206842_g87686052315543_cont_sun_m_497_29_alg».proof.Proof.KOwn
import proofs.«206842_g87686052315543_cont_sun_m_497_29_alg».proof.Proof.KLaunchP
import proofs.«206842_g87686052315543_cont_sun_m_497_29_alg».proof.Proof.KReg1
import proofs.«206842_g87686052315543_cont_sun_m_497_29_alg».proof.Proof.KReg2
import proofs.«206842_g87686052315543_cont_sun_m_497_29_alg».proof.Proof.KReg3
import Idealize.ShloMosaic.Lib.SparseCore.Launch
import Idealize.ShloMosaic.Lib.SparseCore.Ops
import Idealize.ShloMosaic.Lib.StableHlo.Run
import Idealize.ShloMosaic.Lib.Batch
import Idealize.ShloMosaic.Lib.Tactic
import Idealize.ShloMosaic.Lib.Pipeline.Kit
import proofs.«206842_g87686052315543_cont_sun_m_497_29_alg».proof.Proof.Gen.Kernel
import proofs.«206842_g87686052315543_cont_sun_m_497_29_alg».proof.Proof.Gen.Kernel.Skeleton

noncomputable section

namespace Cert.Proof.KBody

open Cert.Kernel Cert.Kernel.Gen Cert.Proof.KRes Cert.Proof.KWin Cert.Proof.KLand Cert.Proof.KRows Cert.Proof.KJoin Cert.Proof.KInv Cert.Proof.KReg1 Cert.Proof.KReg2 Cert.Proof.KReg3

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uidW" => (Memref.whole Cert.Kernel.main_v0_scv : Memref Cert.Kernel.sig Kind.scVector Space.hbm Cert.Kernel.S128x128 EltTy.i32)
local notation "iidW" => (Memref.whole Cert.Kernel.main_v1_scv : Memref Cert.Kernel.sig Kind.scVector Space.hbm Cert.Kernel.S128x128 EltTy.i32)
local notation "cidW" => (Memref.whole Cert.Kernel.main_v2_scv : Memref Cert.Kernel.sig Kind.scVector Space.hbm Cert.Kernel.S128x128 EltTy.i32)
local notation "utW" => (Memref.whole Cert.Kernel.main_arg3_scv : Memref Cert.Kernel.sig Kind.scVector Space.hbm Cert.Kernel.S1000000x64 EltTy.f32)
local notation "itW" => (Memref.whole Cert.Kernel.main_arg4_scv : Memref Cert.Kernel.sig Kind.scVector Space.hbm Cert.Kernel.S1000000x64 EltTy.f32)
local notation "ctW" => (Memref.whole Cert.Kernel.main_arg5_scv : Memref Cert.Kernel.sig Kind.scVector Space.hbm Cert.Kernel.S100000x64 EltTy.f32)
local notation "ouW" => (Memref.whole Cert.Kernel.main_v3_0_scv : Memref Cert.Kernel.sig Kind.scVector Space.hbm Cert.Kernel.S16384x64 EltTy.f32)
local notation "oiW" => (Memref.whole Cert.Kernel.main_v3_1_scv : Memref Cert.Kernel.sig Kind.scVector Space.hbm Cert.Kernel.S16384x64 EltTy.f32)
local notation "ocW" => (Memref.whole Cert.Kernel.main_v3_2_scv : Memref Cert.Kernel.sig Kind.scVector Space.hbm Cert.Kernel.S16384x64 EltTy.f32)
local notation "l0W" => (Memref.whole Cert.Kernel.cc0_scratch0 : Memref Cert.Kernel.sig Kind.scVector Space.vmem Cert.Kernel.S4x128 EltTy.i32)
local notation "l1W" => (Memref.whole Cert.Kernel.cc0_scratch1 : Memref Cert.Kernel.sig Kind.scVector Space.vmem Cert.Kernel.S4x128 EltTy.i32)
local notation "l2W" => (Memref.whole Cert.Kernel.cc0_scratch2 : Memref Cert.Kernel.sig Kind.scVector Space.vmem Cert.Kernel.S4x128 EltTy.i32)
local notation "bufW" => (Memref.whole Cert.Kernel.cc0_scratch3 : Memref Cert.Kernel.sig Kind.scVector Space.vmem Cert.Kernel.S2x64x64 EltTy.f32)

variable [FloatOps F] (m : (ℓ : Loc nD τ sig) → Buf (Elt F) ℓ) (d : Dev nD) (L : grid0.Coords)

set_option maxRecDepth 65536 in
set_option maxHeartbeats 20000000 in
/-- One tile's task. -/
theorem tile_body [∀ e, Nonempty (Elt F e)] (hpre : PreOK m) : TileBody m := by
  intro d L O W hO
  rw [(K (F := F)).scopedBufs_V Cert.Proof.KLaunchP.facts d (cV L) (jV L), SparseCore.Cfg.scopedSems0_V (Val := Elt F) d (cV L) (jV L),
    Cert.Proof.KOwn.ownSems0_V, Cert.Proof.KOwn.ownBufs_V, Cert.Proof.KOwn.ownCells_rest_empty, bigSep_empty]
  unfold tileGo
  rw [cc0__gather3_eq_skeleton]; unfold cc0__gather3_skel
  iintro ⟨#Hlv, -, ⟨Hv0, Hv1, Hv2, Ht3, Ht4, Ht5, Hou, Hoi, Hoc⟩, ⟨⟨%fl0, Hl0⟩, ⟨%fl1, Hl1⟩, ⟨%fl2, Hl2⟩, ⟨%fb, Hbuf⟩, Hbufs⟩,
    ⟨Hs4, Hs5, Hs6, Hs7, Hs8, Hs9, Hs10, Hs11, Hs12, Hs13, Hc0, Hc1, Hc2, -⟩, HO⟩
  ihave Hmw0 := ((K (F := F)).mayWaits_none (thr := V d (cV L) (jV L)) hO) $$ Hlv
  ihave Hi0 := (Entails.of_eq (pts_idRow0 (F := F) d L _).symm) $$ Hv0
  ihave Hi1 := (Entails.of_eq (pts_idRow1 (F := F) d L _).symm) $$ Hv1
  ihave Hi2 := (Entails.of_eq (pts_idRow2 (F := F) d L _).symm) $$ Hv2
  ihave Hl0 := (Entails.of_eq (pts_l0 (F := F) d L _).symm) $$ Hl0
  ihave Hl1 := (Entails.of_eq (pts_l1 (F := F) d L _).symm) $$ Hl1
  ihave Hl2 := (Entails.of_eq (pts_l2 (F := F) d L _).symm) $$ Hl2
  ihave Hbuf := (Entails.of_eq ((pts_buf (F := F) d L _).symm.trans (buf_split d L fb))) $$ Hbuf
  icases Hbuf with ⟨Hslot0, Hslot1⟩
  sl_exec_parts

  -- loop 1
  ihave Hk := (toks_split' (F := F) _ _ _).1 $$ Ht3
  icases Hk with ⟨Hkr1, Hkt1⟩
  sl_for (inv1 m d L O W) $$ [Hmw0 Hl0 Hkt1 Hslot0 Hslot1 Hs4 Hs5 Hs6 Hs7 Hs8 Hs9 Hs10 Hs11 Hs12 Hs13 Hou HO]
  case region => exact fun k _ => region1 m d L hpre O W k _
  · unfold inv1
    isplitl [Hmw0]; · iexact Hmw0
    isplitl [Hl0]
    · iapply (pts_of_eq (F := F) (lands0 m d L))
      iexists _; isplitr
      on_goal 2 => iexact Hl0
      ipureintro; exact write_lands0 m d L _
    isplitl [Hkt1]; · iexact Hkt1
    isplitl [Hslot0]; · iexists _; iexact Hslot0
    isplitl [Hslot1]; · iexists _; iexact Hslot1
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hou]; · rw [outInv0_zero]; iexact Hou
    iexists _; isplitr
    on_goal 2 => iexact HO
    ipureintro; exact waits_insert _ (waits_insert _ (waits_insert _ (fun p hp => Or.inl hp)))
  iintro %_ HI
  unfold inv1
  icases HI with ⟨Hmw1, Hl0, Hkt1, ⟨%fz0_1, Hslot0⟩, ⟨%fz1_1, Hslot1⟩, Hs4, Hs5, Hs6, Hs7, Hs8, Hs9, Hs10, Hs11, Hs12, Hs13, Hou, %Wn1, %hWcur1, HO⟩

  sl_exec_parts

  -- loop 2
  ihave Hk := (toks_split' (F := F) _ _ _).1 $$ Ht4
  icases Hk with ⟨Hkr2, Hkt2⟩
  sl_for (inv2 m d L O W) $$ [Hmw1 Hl1 Hkt2 Hslot0 Hslot1 Hs4 Hs5 Hs6 Hs7 Hs8 Hs9 Hs10 Hs11 Hs12 Hs13 Hoi HO]
  case region => exact fun k _ => region2 m d L hpre O W k _
  · unfold inv2
    isplitl [Hmw1]; · iexact Hmw1
    isplitl [Hl1]
    · iapply (pts_of_eq (F := F) (lands1 m d L))
      iexists _; isplitr
      on_goal 2 => iexact Hl1
      ipureintro; exact write_lands1 m d L _
    isplitl [Hkt2]; · iexact Hkt2
    isplitl [Hslot0]; · iexists _; iexact Hslot0
    isplitl [Hslot1]; · iexists _; iexact Hslot1
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hoi]; · rw [outInv1_zero]; iexact Hoi
    iexists _; isplitr
    on_goal 2 => iexact HO
    ipureintro; exact hWcur1
  iintro %_ HI
  unfold inv2
  icases HI with ⟨Hmw2, Hl1, Hkt2, ⟨%fz0_2, Hslot0⟩, ⟨%fz1_2, Hslot1⟩, Hs4, Hs5, Hs6, Hs7, Hs8, Hs9, Hs10, Hs11, Hs12, Hs13, Hoi, %Wn2, %hWcur2, HO⟩

  sl_exec_parts

  -- loop 3
  ihave Hk := (toks_split' (F := F) _ _ _).1 $$ Ht5
  icases Hk with ⟨Hkr3, Hkt3⟩
  sl_for (inv3 m d L O W) $$ [Hmw2 Hl2 Hkt3 Hslot0 Hslot1 Hs4 Hs5 Hs6 Hs7 Hs8 Hs9 Hs10 Hs11 Hs12 Hs13 Hoc HO]
  case region => exact fun k _ => region3 m d L hpre O W k _ _
  · unfold inv3
    isplitl [Hmw2]; · iexact Hmw2
    isplitl [Hl2]
    · iapply (pts_of_eq (F := F) (lands2 m d L))
      iexists _; isplitr
      on_goal 2 => iexact Hl2
      ipureintro; exact write_lands2 m d L _
    isplitl [Hkt3]; · iexact Hkt3
    isplitl [Hslot0]; · iexists _; iexact Hslot0
    isplitl [Hslot1]; · iexists _; iexact Hslot1
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hoc]; · rw [outInv2_zero]; iexact Hoc
    iexists _; isplitr
    on_goal 2 => iexact HO
    ipureintro; exact hWcur2
  iintro %_ HI
  unfold inv3
  icases HI with ⟨Hmw3, Hl2, Hkt3, ⟨%fz0_3, Hslot0⟩, ⟨%fz1_3, Hslot1⟩, Hs4, Hs5, Hs6, Hs7, Hs8, Hs9, Hs10, Hs11, Hs12, Hs13, Hoc, %Wn3, %hWcur3, HO⟩

  sl_exec_parts
  sl_step
  -- the three results' windows now hold the lookups
  ihave Hou := (Entails.of_eq ((congrArg (outInv0 m d (wid L)) (show Scf.trips k0_t1_loop.lb k0_t1_loop.ub k0_t1_loop.st = 4 from trips1)).trans (outInv0_four m d (wid L)))) $$ Hou
  ihave Hoi := (Entails.of_eq ((congrArg (outInv1 m d (wid L)) (show Scf.trips k0_t2_loop.lb k0_t2_loop.ub k0_t2_loop.st = 4 from trips2)).trans (outInv1_four m d (wid L)))) $$ Hoi
  ihave Hoc := (Entails.of_eq ((congrArg (outInv2 m d (wid L)) (show Scf.trips k0_t3_loop.lb k0_t3_loop.ub k0_t3_loop.st = 4 from trips3)).trans (outInv2_four m d (wid L)))) $$ Hoc
  -- each table's share is whole again
  ihave Ht3 := (toks_split' (F := F) (t3Loc d) _ _).2 $$ [Hkr1 Hkt1]
  · isplitl [Hkr1] <;> iassumption
  ihave Ht4 := (toks_split' (F := F) (t4Loc d) _ _).2 $$ [Hkr2 Hkt2]
  · isplitl [Hkr2] <;> iassumption
  ihave Ht5 := (toks_split' (F := F) (t5Loc d) _ _).2 $$ [Hkr3 Hkt3]
  · isplitl [Hkr3] <;> iassumption
  ihave Hv0 := (Entails.of_eq (pts_idRow0 (F := F) d L _)) $$ Hi0
  ihave Hv1 := (Entails.of_eq (pts_idRow1 (F := F) d L _)) $$ Hi1
  ihave Hv2 := (Entails.of_eq (pts_idRow2 (F := F) d L _)) $$ Hi2
  isplitl [Hv0 Hv1 Hv2 Ht3 Ht4 Ht5 Hou Hoi Hoc]
  · unfold tileTd
    isplitl [Hv0]; · iexact Hv0
    isplitl [Hv1]; · iexact Hv1
    isplitl [Hv2]; · iexact Hv2
    isplitl [Ht3]; · iexact Ht3
    isplitl [Ht4]; · iexact Ht4
    isplitl [Ht5]; · iexact Ht5
    isplitl [Hou]; · iexact Hou
    isplitl [Hoi]; · iexact Hoi
    iexact Hoc
  isplitl [Hl0 Hl1 Hl2 Hslot0 Hslot1 Hbufs]
  · isplitl [Hl0]; · iexists _; iexact Hl0
    isplitl [Hl1]; · iexists _; iexact Hl1
    isplitl [Hl2]; · iexists _; iexact Hl2
    isplitl [Hslot0 Hslot1]
    · iapply (buf_join d L _ _)
      isplitl [Hslot0] <;> iassumption
    iexact Hbufs
  isplitl [Hs4 Hs5 Hs6 Hs7 Hs8 Hs9 Hs10 Hs11 Hs12 Hs13 Hc0 Hc1 Hc2]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hc0]; · iexact Hc0
    isplitl [Hc1]; · iexact Hc1
    isplitl [Hc2]; · iexact Hc2
    iempintro
  iexists Wn3; isplitr
  · ipureintro; exact hWcur3
  · iexact HO

end Cert.Proof.KBody

end
-- ==== Proof.KIWin.lean ====
/-
  The kernel's own slices, named by the pieces a tile is handed.

  Tile (c, s) — worker w = 2 s + c — slices rows 8 s + 4 c … + 3 of each reshaped index array: rows 4 w … 4 w + 3, the
  worker's part of the array cut into 32.  In trip k of each of its three loops it slices, of a result, the 64 rows from
  1024 s + 512 c + 128 k + 64 b for b = 0, 1: window 8 w + 2 k + b of the result cut into 256, that is windows 2 k and
  2 k + 1 of the worker's eight.  A loop's invariant over the eight windows — the first 2 k hold the lookup, the others
  the launch contents — gives up the two windows of trip k and takes them back filled.
-/
import proofs.«206842_g87686052315543_cont_sun_m_497_29_alg».proof.Proof.KIRes
import proofs.«206842_g87686052315543_cont_sun_m_497_29_alg».proof.Proof.Gen.KernelIdeal

noncomputable section

namespace Cert.Proof.KIWin

open Cert.KernelIdeal Cert.KernelIdeal.Gen Cert.Proof.KIRes

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

local notation "uidW" => (Memref.whole Cert.KernelIdeal.main_v0_scv : Memref Cert.KernelIdeal.sig Kind.scVector Space.hbm Cert.KernelIdeal.S128x128 EltTy.i32)
local notation "iidW" => (Memref.whole Cert.KernelIdeal.main_v1_scv : Memref Cert.KernelIdeal.sig Kind.scVector Space.hbm Cert.KernelIdeal.S128x128 EltTy.i32)
local notation "cidW" => (Memref.whole Cert.KernelIdeal.main_v2_scv : Memref Cert.KernelIdeal.sig Kind.scVector Space.hbm Cert.KernelIdeal.S128x128 EltTy.i32)
local notation "ouW" => (Memref.whole Cert.KernelIdeal.main_v3_0_scv : Memref Cert.KernelIdeal.sig Kind.scVector Space.hbm Cert.KernelIdeal.S16384x64 EltTy.f32)
local notation "oiW" => (Memref.whole Cert.KernelIdeal.main_v3_1_scv : Memref Cert.KernelIdeal.sig Kind.scVector Space.hbm Cert.KernelIdeal.S16384x64 EltTy.f32)
local notation "ocW" => (Memref.whole Cert.KernelIdeal.main_v3_2_scv : Memref Cert.KernelIdeal.sig Kind.scVector Space.hbm Cert.KernelIdeal.S16384x64 EltTy.f32)

/-! ## The index rows -/

/-- The four rows of a reshaped index array that tile `L` slices. -/
abbrev idRow0 (L : grid0.Coords) : Memref sig .scVector .hbm S4x128 .i32 :=
  (uidW).slice (Rect.unit (s := S128x128) (k0_off1 L) S4x128.size (k0_off1_inb L)) (fun _ => rfl)
abbrev idRow1 (L : grid0.Coords) : Memref sig .scVector .hbm S4x128 .i32 :=
  (iidW).slice (Rect.unit (s := S128x128) (k0_off1 L) S4x128.size (k0_off1_inb L)) (fun _ => rfl)
abbrev idRow2 (L : grid0.Coords) : Memref sig .scVector .hbm S4x128 .i32 :=
  (cidW).slice (Rect.unit (s := S128x128) (k0_off1 L) S4x128.size (k0_off1_inb L)) (fun _ => rfl)

/-- The rectangle the tile slices is its worker's part: 8 s + 4 c = 4 (2 s + c), four rows, every column. -/
theorem idRect_eq (L : grid0.Coords) :
    Rect.unit (s := S128x128) (k0_off1 L) S4x128.size (k0_off1_inb L) = Rect.part (s := S128x128) (a₀ := 0) hdiv_ids (wid L) := by
  unfold Rect.part Rect.block
  congr 1 <;> funext a
  · rw [k0_off1_eq]
    match a with
    | 0 =>
      show 8 * (L 1).val + 4 * (L 0).val = (2 * (L 1).val + (L 0).val) * (128 / 32)
      omega
    | 1 => simp [Shape.partIx, Shape.partSize]
  · match a with
    | 0 => simp [Shape.partSize]
    | 1 => simp [Shape.partSize]

theorem set_idRow0 (L : grid0.Coords) : (idRow0 L).view.set = idRows (wid L) :=
  (View.set_slice_whole main_v0_scv _).trans (congrArg (fun r : Rect S128x128 => r.set) (idRect_eq L))
theorem set_idRow1 (L : grid0.Coords) : (idRow1 L).view.set = idRows (wid L) :=
  (View.set_slice_whole main_v1_scv _).trans (congrArg (fun r : Rect S128x128 => r.set) (idRect_eq L))
theorem set_idRow2 (L : grid0.Coords) : (idRow2 L).view.set = idRows (wid L) :=
  (View.set_slice_whole main_v2_scv _).trans (congrArg (fun r : Rect S128x128 => r.set) (idRect_eq L))

theorem pts_idRow0 (d : Dev nD) (L : grid0.Coords) (f : Buf (Elt F) (v0Loc d)) :
    ((idRow0 L).view.loc (V d (cV L) (jV L)) ↦[(idRow0 L).view.set]{fullShare} f : sProp 𝕄) = v0Loc d ↦[idRows (wid L)]{fullShare} f := by
  rw [set_idRow0]
theorem pts_idRow1 (d : Dev nD) (L : grid0.Coords) (f : Buf (Elt F) (v1Loc d)) :
    ((idRow1 L).view.loc (V d (cV L) (jV L)) ↦[(idRow1 L).view.set]{fullShare} f : sProp 𝕄) = v1Loc d ↦[idRows (wid L)]{fullShare} f := by
  rw [set_idRow1]
theorem pts_idRow2 (d : Dev nD) (L : grid0.Coords) (f : Buf (Elt F) (v2Loc d)) :
    ((idRow2 L).view.loc (V d (cV L) (jV L)) ↦[(idRow2 L).view.set]{fullShare} f : sProp 𝕄) = v2Loc d ↦[idRows (wid L)]{fullShare} f := by
  rw [set_idRow2]

/-! ## The result windows -/

theorem trips1 : k0_t1_loop.trips = 4 := by decide
theorem trips2 : k0_t2_loop.trips = 4 := by decide
theorem trips3 : k0_t3_loop.trips = 4 := by decide

/-- Trip k writes windows 2 k and 2 k + 1 of the worker's eight. -/
def kwin (k : Fin 4) (b : Fin 2) : Fin 8 := ⟨2 * k.val + b.val, by omega⟩

/-- The 64 rows of a result that tile `L` slices in trip `k`, first (b = 0) or second (b = 1). -/
abbrev ouWin1 (L : grid0.Coords) (k : Fin k0_t1_loop.trips) (b : Fin 2) : Memref sig .scVector .hbm S64x64 .f32 :=
  (ouW).slice (Rect.unit (s := S16384x64) (k0_off202 L k (BitVec.ofNat 32 b.val)) S64x64.size (k0_off202_inb L k b)) (fun _ => rfl)
abbrev oiWin2 (L : grid0.Coords) (k : Fin k0_t2_loop.trips) (b : Fin 2) : Memref sig .scVector .hbm S64x64 .f32 :=
  (oiW).slice (Rect.unit (s := S16384x64) (k0_off466 L k (BitVec.ofNat 32 b.val)) S64x64.size (k0_off466_inb L k b)) (fun _ => rfl)
abbrev ocWin3 (L : grid0.Coords) (k : Fin k0_t3_loop.trips) (b : Fin 2) : Memref sig .scVector .hbm S64x64 .f32 :=
  (ocW).slice (Rect.unit (s := S16384x64) (k0_off730 L k (BitVec.ofNat 32 b.val)) S64x64.size (k0_off730_inb L k b)) (fun _ => rfl)

/-- 64 rows from row 64 p, every column, are part p of a result cut into 256. -/
theorem outRect_eq (off : Fin 2 → Nat) (inb : ∀ a, off a + S64x64.size a ≤ S16384x64.size a) (p : Fin 256)
    (h : off = ![64 * p.val, 0]) :
    Rect.unit (s := S16384x64) off S64x64.size inb = Rect.part (s := S16384x64) (a₀ := 0) hdiv_out p := by
  subst h
  unfold Rect.part Rect.block
  congr 1 <;> funext a
  · match a with
    | 0 =>
      show 64 * p.val = p.val * (16384 / 256)
      omega
    | 1 => simp [Shape.partIx, Shape.partSize]
  · match a with
    | 0 => simp [Shape.partSize]
    | 1 => simp [Shape.partSize]

/-- 1024 s + 512 c + 128 k + 64 b = 64 (8 (2 s + c) + 2 k + b). -/
theorem off_win (L : grid0.Coords) (k : Fin 4) (b : Fin 2) :
    (![1024 * (L 1).val + 512 * (L 0).val + 128 * k.val + 64 * b.val, 0] : Fin 2 → Nat)
      = ![64 * (win8 (wid L) (kwin k b)).val, 0] := by
  have e : 1024 * (L 1).val + 512 * (L 0).val + 128 * k.val + 64 * b.val = 64 * (win8 (wid L) (kwin k b)).val := by
    show _ = 64 * (8 * (2 * (L 1).val + (L 0).val) + (2 * k.val + b.val))
    omega
  rw [e]

theorem set_ouWin1 (L : grid0.Coords) (k : Fin k0_t1_loop.trips) (b : Fin 2) :
    (ouWin1 L k b).view.set = outWin (win8 (wid L) (kwin (Fin.cast trips1 k) b)) :=
  (View.set_slice_whole main_v3_0_scv _).trans (congrArg (fun r : Rect S16384x64 => r.set)
    (outRect_eq _ _ (win8 (wid L) (kwin (Fin.cast trips1 k) b)) ((k0_off202_eq L k b).trans (off_win L (Fin.cast trips1 k) b))))
theorem set_oiWin2 (L : grid0.Coords) (k : Fin k0_t2_loop.trips) (b : Fin 2) :
    (oiWin2 L k b).view.set = outWin (win8 (wid L) (kwin (Fin.cast trips2 k) b)) :=
  (View.set_slice_whole main_v3_1_scv _).trans (congrArg (fun r : Rect S16384x64 => r.set)
    (outRect_eq _ _ (win8 (wid L) (kwin (Fin.cast trips2 k) b)) ((k0_off466_eq L k b).trans (off_win L (Fin.cast trips2 k) b))))
theorem set_ocWin3 (L : grid0.Coords) (k : Fin k0_t3_loop.trips) (b : Fin 2) :
    (ocWin3 L k b).view.set = outWin (win8 (wid L) (kwin (Fin.cast trips3 k) b)) :=
  (View.set_slice_whole main_v3_2_scv _).trans (congrArg (fun r : Rect S16384x64 => r.set)
    (outRect_eq _ _ (win8 (wid L) (kwin (Fin.cast trips3 k) b)) ((k0_off730_eq L k b).trans (off_win L (Fin.cast trips3 k) b))))

theorem pts_ouWin1 (d : Dev nD) (L : grid0.Coords) (k : Fin k0_t1_loop.trips) (b : Fin 2) (f : Buf (Elt F) (o0Loc d)) :
    ((ouWin1 L k b).view.loc (V d (cV L) (jV L)) ↦[(ouWin1 L k b).view.set]{fullShare} f : sProp 𝕄)
      = o0Loc d ↦[outWin (win8 (wid L) (kwin (Fin.cast trips1 k) b))]{fullShare} f := by
  rw [set_ouWin1]
theorem pts_oiWin2 (d : Dev nD) (L : grid0.Coords) (k : Fin k0_t2_loop.trips) (b : Fin 2) (f : Buf (Elt F) (o1Loc d)) :
    ((oiWin2 L k b).view.loc (V d (cV L) (jV L)) ↦[(oiWin2 L k b).view.set]{fullShare} f : sProp 𝕄)
      = o1Loc d ↦[outWin (win8 (wid L) (kwin (Fin.cast trips2 k) b))]{fullShare} f := by
  rw [set_oiWin2]
theorem pts_ocWin3 (d : Dev nD) (L : grid0.Coords) (k : Fin k0_t3_loop.trips) (b : Fin 2) (f : Buf (Elt F) (o2Loc d)) :
    ((ocWin3 L k b).view.loc (V d (cV L) (jV L)) ↦[(ocWin3 L k b).view.set]{fullShare} f : sProp 𝕄)
      = o2Loc d ↦[outWin (win8 (wid L) (kwin (Fin.cast trips3 k) b))]{fullShare} f := by
  rw [set_ocWin3]

/-! ## A loop's invariant over the worker's eight windows

Stated once, for any buffer `ℓ`, any family `Wn` of eight sets of its elements and two contents `g`, `f`: after `k` trips the
first `2 k` sets hold `g` and the others `f`.  Trip `k` owns sets `2 k` and `2 k + 1`: taking them out leaves six sets
whose contents the trip does not change (a set below `2 k` is below `2 k + 2`; a set from `2 k + 2` on is not below `2 k`),
and putting them back holding `g` gives the invariant at `k + 1`. -/

section Windows

variable {ℓ : Loc nD τ sig} (Wn : Fin 8 → Finset (Idx ℓ)) (g f : Buf (Elt F) ℓ)

/-- After `k` trips: the first `2 k` sets hold `g`, the others `f`. -/
def winInv (k : ℕ) : sProp 𝕄 :=
  bigSep Finset.univ fun c8 : Fin 8 => ℓ ↦[Wn c8]{fullShare} (if c8.val < 2 * k then g else f)

/-- The six sets that are not trip `k`'s, as the invariant has them at `k`. -/
def winRest (k : Fin 4) : sProp 𝕄 :=
  bigSep ((Finset.univ.erase (kwin k 0)).erase (kwin k 1)) fun c8 : Fin 8 =>
    ℓ ↦[Wn c8]{fullShare} (if c8.val < 2 * k.val then g else f)

theorem winInv_zero : winInv Wn g f 0 = bigSep Finset.univ fun c8 : Fin 8 => ℓ ↦[Wn c8]{fullShare} f :=
  bigSep_congr fun c8 _ => by rw [if_neg (show ¬ c8.val < 2 * 0 by omega)]

theorem winInv_four : winInv Wn g f 4 = bigSep Finset.univ fun c8 : Fin 8 => ℓ ↦[Wn c8]{fullShare} g :=
  bigSep_congr fun c8 _ => by rw [if_pos (show c8.val < 2 * 4 by have := c8.isLt; omega)]

/-- A trip's two windows are different. -/
theorem kwin_ne (k : Fin 4) : kwin k 1 ≠ kwin k 0 := fun h => by
  have e : 2 * k.val + 1 = 2 * k.val + 0 := congrArg Fin.val h
  omega

theorem kwin_mem (k : Fin 4) : kwin k 1 ∈ (Finset.univ : Finset (Fin 8)).erase (kwin k 0) :=
  Finset.mem_erase.2 ⟨kwin_ne k, Finset.mem_univ _⟩

/-- The invariant at `k` is trip `k`'s two windows, still holding `f`, beside the six others. -/
theorem winInv_peel_eq (k : Fin 4) :
    winInv Wn g f k.val
      = iprop((ℓ ↦[Wn (kwin k 0)]{fullShare} f) ∗ (ℓ ↦[Wn (kwin k 1)]{fullShare} f) ∗ winRest Wn g f k) := by
  unfold winInv winRest
  rw [bigSep_erase (Finset.mem_univ (kwin k 0)), bigSep_erase (kwin_mem k),
    if_neg (show ¬ (kwin k 0).val < 2 * k.val by show ¬ 2 * k.val + 0 < 2 * k.val; omega),
    if_neg (show ¬ (kwin k 1).val < 2 * k.val by show ¬ 2 * k.val + 1 < 2 * k.val; omega)]
  rfl

/-- The two windows holding `g` beside the six others are the invariant at `k + 1`. -/
theorem winInv_put_eq (k : Fin 4) :
    iprop((ℓ ↦[Wn (kwin k 0)]{fullShare} g) ∗ (ℓ ↦[Wn (kwin k 1)]{fullShare} g) ∗ winRest Wn g f k)
      = winInv Wn g f (k.val + 1) := by
  have hrest : winRest Wn g f k
      = bigSep ((Finset.univ.erase (kwin k 0)).erase (kwin k 1)) fun c8 : Fin 8 =>
          ℓ ↦[Wn c8]{fullShare} (if c8.val < 2 * (k.val + 1) then g else f) := by
    unfold winRest
    refine bigSep_congr fun c8 hc => ?_
    have h1 : c8.val ≠ 2 * k.val + 1 := fun e => (Finset.mem_erase.1 hc).1 (Fin.ext e)
    have h0 : c8.val ≠ 2 * k.val + 0 := fun e => (Finset.mem_erase.1 (Finset.mem_erase.1 hc).2).1 (Fin.ext e)
    by_cases h : c8.val < 2 * k.val
    · rw [if_pos h, if_pos (show c8.val < 2 * (k.val + 1) by omega)]
    · rw [if_neg h, if_neg (show ¬ c8.val < 2 * (k.val + 1) by omega)]
  rw [hrest]
  unfold winInv
  rw [bigSep_erase (Finset.mem_univ (kwin k 0)) (Φ := fun c8 : Fin 8 => ℓ ↦[Wn c8]{fullShare} (if c8.val < 2 * (k.val + 1) then g else f)),
    bigSep_erase (kwin_mem k) (Φ := fun c8 : Fin 8 => ℓ ↦[Wn c8]{fullShare} (if c8.val < 2 * (k.val + 1) then g else f)),
    if_pos (show (kwin k 0).val < 2 * (k.val + 1) by show 2 * k.val + 0 < 2 * (k.val + 1); omega),
    if_pos (show (kwin k 1).val < 2 * (k.val + 1) by show 2 * k.val + 1 < 2 * (k.val + 1); omega)]
  rfl

end Windows

/-! ## The three results' invariants -/

def outInv0 (d : Dev nD) (w : Fin 32) (k : ℕ) : sProp 𝕄 :=
  bigSep Finset.univ fun c8 : Fin 8 => o0Loc d ↦[outWin (win8 w c8)]{fullShare} (if c8.val < 2 * k then G0 m d else m (o0Loc d))
def outInv1 (d : Dev nD) (w : Fin 32) (k : ℕ) : sProp 𝕄 :=
  bigSep Finset.univ fun c8 : Fin 8 => o1Loc d ↦[outWin (win8 w c8)]{fullShare} (if c8.val < 2 * k then G1 m d else m (o1Loc d))
def outInv2 (d : Dev nD) (w : Fin 32) (k : ℕ) : sProp 𝕄 :=
  bigSep Finset.univ fun c8 : Fin 8 => o2Loc d ↦[outWin (win8 w c8)]{fullShare} (if c8.val < 2 * k then G2 m d else m (o2Loc d))

def outRest0 (d : Dev nD) (w : Fin 32) (k : Fin 4) : sProp 𝕄 :=
  bigSep ((Finset.univ.erase (kwin k 0)).erase (kwin k 1)) fun c8 : Fin 8 =>
    o0Loc d ↦[outWin (win8 w c8)]{fullShare} (if c8.val < 2 * k.val then G0 m d else m (o0Loc d))
def outRest1 (d : Dev nD) (w : Fin 32) (k : Fin 4) : sProp 𝕄 :=
  bigSep ((Finset.univ.erase (kwin k 0)).erase (kwin k 1)) fun c8 : Fin 8 =>
    o1Loc d ↦[outWin (win8 w c8)]{fullShare} (if c8.val < 2 * k.val then G1 m d else m (o1Loc d))
def outRest2 (d : Dev nD) (w : Fin 32) (k : Fin 4) : sProp 𝕄 :=
  bigSep ((Finset.univ.erase (kwin k 0)).erase (kwin k 1)) fun c8 : Fin 8 =>
    o2Loc d ↦[outWin (win8 w c8)]{fullShare} (if c8.val < 2 * k.val then G2 m d else m (o2Loc d))

variable (d : Dev nD) (w : Fin 32)

theorem outInv0_zero : outInv0 m d w 0 = bigSep Finset.univ fun c8 : Fin 8 => o0Loc d ↦[outWin (win8 w c8)]{fullShare} m (o0Loc d) :=
  winInv_zero (ℓ := o0Loc d) (fun c8 => outWin (win8 w c8)) (G0 m d) (m (o0Loc d))
theorem outInv0_four : outInv0 m d w 4 = bigSep Finset.univ fun c8 : Fin 8 => o0Loc d ↦[outWin (win8 w c8)]{fullShare} G0 m d :=
  winInv_four (ℓ := o0Loc d) (fun c8 => outWin (win8 w c8)) (G0 m d) (m (o0Loc d))
theorem outInv0_peel (k : Fin 4) :
    outInv0 m d w k.val ⊢ iprop((o0Loc d ↦[outWin (win8 w (kwin k 0))]{fullShare} m (o0Loc d))
      ∗ (o0Loc d ↦[outWin (win8 w (kwin k 1))]{fullShare} m (o0Loc d)) ∗ outRest0 m d w k) :=
  Entails.of_eq (winInv_peel_eq (ℓ := o0Loc d) (fun c8 => outWin (win8 w c8)) (G0 m d) (m (o0Loc d)) k)
theorem outInv0_put (k : Fin 4) :
    iprop((o0Loc d ↦[outWin (win8 w (kwin k 0))]{fullShare} G0 m d)
      ∗ (o0Loc d ↦[outWin (win8 w (kwin k 1))]{fullShare} G0 m d) ∗ outRest0 m d w k) ⊢ outInv0 m d w (k.val + 1) :=
  Entails.of_eq (winInv_put_eq (ℓ := o0Loc d) (fun c8 => outWin (win8 w c8)) (G0 m d) (m (o0Loc d)) k)

theorem outInv1_zero : outInv1 m d w 0 = bigSep Finset.univ fun c8 : Fin 8 => o1Loc d ↦[outWin (win8 w c8)]{fullShare} m (o1Loc d) :=
  winInv_zero (ℓ := o1Loc d) (fun c8 => outWin (win8 w c8)) (G1 m d) (m (o1Loc d))
theorem outInv1_four : outInv1 m d w 4 = bigSep Finset.univ fun c8 : Fin 8 => o1Loc d ↦[outWin (win8 w c8)]{fullShare} G1 m d :=
  winInv_four (ℓ := o1Loc d) (fun c8 => outWin (win8 w c8)) (G1 m d) (m (o1Loc d))
theorem outInv1_peel (k : Fin 4) :
    outInv1 m d w k.val ⊢ iprop((o1Loc d ↦[outWin (win8 w (kwin k 0))]{fullShare} m (o1Loc d))
      ∗ (o1Loc d ↦[outWin (win8 w (kwin k 1))]{fullShare} m (o1Loc d)) ∗ outRest1 m d w k) :=
  Entails.of_eq (winInv_peel_eq (ℓ := o1Loc d) (fun c8 => outWin (win8 w c8)) (G1 m d) (m (o1Loc d)) k)
theorem outInv1_put (k : Fin 4) :
    iprop((o1Loc d ↦[outWin (win8 w (kwin k 0))]{fullShare} G1 m d)
      ∗ (o1Loc d ↦[outWin (win8 w (kwin k 1))]{fullShare} G1 m d) ∗ outRest1 m d w k) ⊢ outInv1 m d w (k.val + 1) :=
  Entails.of_eq (winInv_put_eq (ℓ := o1Loc d) (fun c8 => outWin (win8 w c8)) (G1 m d) (m (o1Loc d)) k)

theorem outInv2_zero : outInv2 m d w 0 = bigSep Finset.univ fun c8 : Fin 8 => o2Loc d ↦[outWin (win8 w c8)]{fullShare} m (o2Loc d) :=
  winInv_zero (ℓ := o2Loc d) (fun c8 => outWin (win8 w c8)) (G2 m d) (m (o2Loc d))
theorem outInv2_four : outInv2 m d w 4 = bigSep Finset.univ fun c8 : Fin 8 => o2Loc d ↦[outWin (win8 w c8)]{fullShare} G2 m d :=
  winInv_four (ℓ := o2Loc d) (fun c8 => outWin (win8 w c8)) (G2 m d) (m (o2Loc d))
theorem outInv2_peel (k : Fin 4) :
    outInv2 m d w k.val ⊢ iprop((o2Loc d ↦[outWin (win8 w (kwin k 0))]{fullShare} m (o2Loc d))
      ∗ (o2Loc d ↦[outWin (win8 w (kwin k 1))]{fullShare} m (o2Loc d)) ∗ outRest2 m d w k) :=
  Entails.of_eq (winInv_peel_eq (ℓ := o2Loc d) (fun c8 => outWin (win8 w c8)) (G2 m d) (m (o2Loc d)) k)
theorem outInv2_put (k : Fin 4) :
    iprop((o2Loc d ↦[outWin (win8 w (kwin k 0))]{fullShare} G2 m d)
      ∗ (o2Loc d ↦[outWin (win8 w (kwin k 1))]{fullShare} G2 m d) ∗ outRest2 m d w k) ⊢ outInv2 m d w (k.val + 1) :=
  Entails.of_eq (winInv_put_eq (ℓ := o2Loc d) (fun c8 => outWin (win8 w c8)) (G2 m d) (m (o2Loc d)) k)

end Cert.Proof.KIWin

end
-- ==== Proof.KILand.lean ====
/-
  What a tile's three landing buffers hold once its rows of the index arrays have been copied in, and where
  each word comes from.

  Worker w = 2 s + c copies rows 4 w … 4 w + 3 of each reshaped index array [128, 128] into a landing buffer
  [4, 128].  Entry (a, b) of the landing buffer is entry (4 w + a, b) of the reshaped array, whose row-major
  position 128 (4 w + a) + b = 512 w + 128 a + b is the position of word 512 w + 128 a + b of the index column
  [16384, 1] it was reshaped from.  The loads of sixteen words from a landing buffer read at (row, column) =
  (k, 16 g): loop trip k, group g.
-/
import proofs.«206842_g87686052315543_cont_sun_m_497_29_alg».proof.Proof.KIRes
import proofs.«206842_g87686052315543_cont_sun_m_497_29_alg».proof.Proof.Gen.KernelIdeal
import Idealize.ShloMosaic.Lib.ValueIdx
import Idealize.ShloMosaic.Lib.Pipeline.Value

noncomputable section

namespace Cert.Proof.KILand

open Cert.KernelIdeal Cert.KernelIdeal.Gen Cert.Proof.KIRes
open Idealize.ShloMosaic Idealize.ShloMosaic.ValueIdx
open Idealize.ShloMosaic.SparseCore (S V T)

variable {F : FTy → Type} (m : (ℓ : Loc nD τ sig) → Buf (Elt F) ℓ) (d : Dev nD) (L : grid0.Coords)

local notation "uid0W" => (Memref.whole Cert.KernelIdeal.main_v0_scv : Memref Cert.KernelIdeal.sig Kind.scVector Space.hbm Cert.KernelIdeal.S128x128 EltTy.i32)
local notation "uid1W" => (Memref.whole Cert.KernelIdeal.main_v1_scv : Memref Cert.KernelIdeal.sig Kind.scVector Space.hbm Cert.KernelIdeal.S128x128 EltTy.i32)
local notation "uid2W" => (Memref.whole Cert.KernelIdeal.main_v2_scv : Memref Cert.KernelIdeal.sig Kind.scVector Space.hbm Cert.KernelIdeal.S128x128 EltTy.i32)
local notation "l0W" => (Memref.whole Cert.KernelIdeal.cc0_scratch0 : Memref Cert.KernelIdeal.sig Kind.scVector Space.vmem Cert.KernelIdeal.S4x128 EltTy.i32)
local notation "l1W" => (Memref.whole Cert.KernelIdeal.cc0_scratch1 : Memref Cert.KernelIdeal.sig Kind.scVector Space.vmem Cert.KernelIdeal.S4x128 EltTy.i32)
local notation "l2W" => (Memref.whole Cert.KernelIdeal.cc0_scratch2 : Memref Cert.KernelIdeal.sig Kind.scVector Space.vmem Cert.KernelIdeal.S4x128 EltTy.i32)

/-! ## The rows a tile copies -/

/-- rows 4 w … 4 w + 3 of the reshaped index arrays, as the program spells the copies' sources -/
abbrev idRow0 (L : grid0.Coords) := (uid0W).slice (Rect.unit (s := S128x128) (k0_off1 L) S4x128.size (k0_off1_inb L)) (fun _ => rfl)
abbrev idRow1 (L : grid0.Coords) := (uid1W).slice (Rect.unit (s := S128x128) (k0_off1 L) S4x128.size (k0_off1_inb L)) (fun _ => rfl)
abbrev idRow2 (L : grid0.Coords) := (uid2W).slice (Rect.unit (s := S128x128) (k0_off1 L) S4x128.size (k0_off1_inb L)) (fun _ => rfl)

/-- The first row a tile copies is row 4 w. -/
theorem k0_off1_wid : k0_off1 L = ![4 * (wid L).val, 0] := by
  rw [k0_off1_eq]
  show ![8 * (L 1).val + 4 * (L 0).val, 0] = ![4 * (2 * (L 1).val + (L 0).val), 0]
  congr 1; omega

/-! ## What lands -/

/-- What landing buffer 0 holds after the copy: entry (a, b) is entry (4 w + a, b) of reshaped index array 0. -/
def lands0 : Buf (Elt F) ((V d (cV L) (jV L)).loc cc0_scratch0) := (idRow0 L).view.read (Elt F) (ids2_0 m d)

/-- The copy overwrites the whole landing buffer, so what it held before does not matter. -/
theorem write_lands0 (fs : Buf (Elt F) ((l0W).view.loc (V d (cV L) (jV L)))) :
    (l0W).view.write (Elt F) fs (ReadAs.same.apply ((idRow0 L).view.read (Elt F) (ids2_0 m d))) Finset.univ = lands0 m d L :=
  View.write_whole_univ _ _ _

/-- Word (a, b) of landing buffer 0 is word 512 w + 128 a + b of index column 0: both sit at row-major position
    128 (4 w + a) + b of the reshaped array. -/
theorem lands0_word (a : Fin 4) (b : Fin 128) :
    lands0 m d L (ix2 a b)
      = m (a0Loc d) (ix2 (⟨512 * (wid L).val + 128 * a.val + b.val, by have := (wid L).isLt; omega⟩ : Fin 16384) (0 : Fin 1)) := by
  unfold lands0
  rw [View.read_apply]
  refine (cast_eq _ _).trans ?_
  unfold ids2_0
  refine shapeCast_apply _ _ _ _ ?_
  refine (Shape.rowMajor_val_two (d := ![16384, 1]) _).trans ((Shape.rowMajor_val_two (d := ![128, 128]) _).trans ?_).symm
  show (k0_off1 L 0 + 1 * a.val) * 128 + (k0_off1 L 1 + 1 * b.val) = (512 * (wid L).val + 128 * a.val + b.val) * 1 + 0
  rw [k0_off1_wid]
  show (4 * (wid L).val + 1 * a.val) * 128 + (0 + 1 * b.val) = (512 * (wid L).val + 128 * a.val + b.val) * 1 + 0
  omega

/-- Every word that lands in buffer 0 names a row of table 0. -/
theorem lands0_lt (hpre : PreOK m) : ∀ j, (lands0 m d L j).toNat < 1000000 := by
  intro j
  have e := (congrArg (lands0 m d L) (eq_ix2 (n0 := 4) (n1 := 128) j)).trans (lands0_word m d L _ _)
  rw [e]
  exact (hpre d).1 _

/-- What landing buffer 1 holds after the copy: entry (a, b) is entry (4 w + a, b) of reshaped index array 1. -/
def lands1 : Buf (Elt F) ((V d (cV L) (jV L)).loc cc0_scratch1) := (idRow1 L).view.read (Elt F) (ids2_1 m d)

/-- The copy overwrites the whole landing buffer, so what it held before does not matter. -/
theorem write_lands1 (fs : Buf (Elt F) ((l1W).view.loc (V d (cV L) (jV L)))) :
    (l1W).view.write (Elt F) fs (ReadAs.same.apply ((idRow1 L).view.read (Elt F) (ids2_1 m d))) Finset.univ = lands1 m d L :=
  View.write_whole_univ _ _ _

/-- Word (a, b) of landing buffer 1 is word 512 w + 128 a + b of index column 1: both sit at row-major position
    128 (4 w + a) + b of the reshaped array. -/
theorem lands1_word (a : Fin 4) (b : Fin 128) :
    lands1 m d L (ix2 a b)
      = m (a1Loc d) (ix2 (⟨512 * (wid L).val + 128 * a.val + b.val, by have := (wid L).isLt; omega⟩ : Fin 16384) (0 : Fin 1)) := by
  unfold lands1
  rw [View.read_apply]
  refine (cast_eq _ _).trans ?_
  unfold ids2_1
  refine shapeCast_apply _ _ _ _ ?_
  refine (Shape.rowMajor_val_two (d := ![16384, 1]) _).trans ((Shape.rowMajor_val_two (d := ![128, 128]) _).trans ?_).symm
  show (k0_off1 L 0 + 1 * a.val) * 128 + (k0_off1 L 1 + 1 * b.val) = (512 * (wid L).val + 128 * a.val + b.val) * 1 + 0
  rw [k0_off1_wid]
  show (4 * (wid L).val + 1 * a.val) * 128 + (0 + 1 * b.val) = (512 * (wid L).val + 128 * a.val + b.val) * 1 + 0
  omega

/-- Every word that lands in buffer 1 names a row of table 1. -/
theorem lands1_lt (hpre : PreOK m) : ∀ j, (lands1 m d L j).toNat < 1000000 := by
  intro j
  have e := (congrArg (lands1 m d L) (eq_ix2 (n0 := 4) (n1 := 128) j)).trans (lands1_word m d L _ _)
  rw [e]
  exact (hpre d).2.1 _

/-- What landing buffer 2 holds after the copy: entry (a, b) is entry (4 w + a, b) of reshaped index array 2. -/
def lands2 : Buf (Elt F) ((V d (cV L) (jV L)).loc cc0_scratch2) := (idRow2 L).view.read (Elt F) (ids2_2 m d)

/-- The copy overwrites the whole landing buffer, so what it held before does not matter. -/
theorem write_lands2 (fs : Buf (Elt F) ((l2W).view.loc (V d (cV L) (jV L)))) :
    (l2W).view.write (Elt F) fs (ReadAs.same.apply ((idRow2 L).view.read (Elt F) (ids2_2 m d))) Finset.univ = lands2 m d L :=
  View.write_whole_univ _ _ _

/-- Word (a, b) of landing buffer 2 is word 512 w + 128 a + b of index column 2: both sit at row-major position
    128 (4 w + a) + b of the reshaped array. -/
theorem lands2_word (a : Fin 4) (b : Fin 128) :
    lands2 m d L (ix2 a b)
      = m (a2Loc d) (ix2 (⟨512 * (wid L).val + 128 * a.val + b.val, by have := (wid L).isLt; omega⟩ : Fin 16384) (0 : Fin 1)) := by
  unfold lands2
  rw [View.read_apply]
  refine (cast_eq _ _).trans ?_
  unfold ids2_2
  refine shapeCast_apply _ _ _ _ ?_
  refine (Shape.rowMajor_val_two (d := ![16384, 1]) _).trans ((Shape.rowMajor_val_two (d := ![128, 128]) _).trans ?_).symm
  show (k0_off1 L 0 + 1 * a.val) * 128 + (k0_off1 L 1 + 1 * b.val) = (512 * (wid L).val + 128 * a.val + b.val) * 1 + 0
  rw [k0_off1_wid]
  show (4 * (wid L).val + 1 * a.val) * 128 + (0 + 1 * b.val) = (512 * (wid L).val + 128 * a.val + b.val) * 1 + 0
  omega

/-- Every word that lands in buffer 2 names a row of table 2. -/
theorem lands2_lt (hpre : PreOK m) : ∀ j, (lands2 m d L j).toNat < 100000 := by
  intro j
  have e := (congrArg (lands2 m d L) (eq_ix2 (n0 := 4) (n1 := 128) j)).trans (lands2_word m d L _ _)
  rw [e]
  exact (hpre d).2.2 _

/-! ## Where the loads of sixteen index words read

In trip k of a loop the eight loads read the landing buffer at flat position 128 k + 16 g, g = 0 … 7, which the kernel's
word arithmetic splits as row (128 k + 16 g) / 128 = k and column (128 k + 16 g) % 128 = 16 g. -/

/-- the first lookup's loop -/
theorem k0_off2_eq : ∀ k : Fin k0_t1_loop.trips, k0_off2 k = ![k.val, 0] := by decide +kernel
theorem k0_off19_eq : ∀ k : Fin k0_t1_loop.trips, k0_off19 k = ![k.val, 16] := by decide +kernel
theorem k0_off36_eq : ∀ k : Fin k0_t1_loop.trips, k0_off36 k = ![k.val, 32] := by decide +kernel
theorem k0_off53_eq : ∀ k : Fin k0_t1_loop.trips, k0_off53 k = ![k.val, 48] := by decide +kernel
theorem k0_off70_eq : ∀ k : Fin k0_t1_loop.trips, k0_off70 k = ![k.val, 64] := by decide +kernel
theorem k0_off87_eq : ∀ k : Fin k0_t1_loop.trips, k0_off87 k = ![k.val, 80] := by decide +kernel
theorem k0_off104_eq : ∀ k : Fin k0_t1_loop.trips, k0_off104 k = ![k.val, 96] := by decide +kernel
theorem k0_off121_eq : ∀ k : Fin k0_t1_loop.trips, k0_off121 k = ![k.val, 112] := by decide +kernel
/-- the second lookup's loop -/
theorem k0_off266_eq : ∀ k : Fin k0_t2_loop.trips, k0_off266 k = ![k.val, 0] := by decide +kernel
theorem k0_off283_eq : ∀ k : Fin k0_t2_loop.trips, k0_off283 k = ![k.val, 16] := by decide +kernel
theorem k0_off300_eq : ∀ k : Fin k0_t2_loop.trips, k0_off300 k = ![k.val, 32] := by decide +kernel
theorem k0_off317_eq : ∀ k : Fin k0_t2_loop.trips, k0_off317 k = ![k.val, 48] := by decide +kernel
theorem k0_off334_eq : ∀ k : Fin k0_t2_loop.trips, k0_off334 k = ![k.val, 64] := by decide +kernel
theorem k0_off351_eq : ∀ k : Fin k0_t2_loop.trips, k0_off351 k = ![k.val, 80] := by decide +kernel
theorem k0_off368_eq : ∀ k : Fin k0_t2_loop.trips, k0_off368 k = ![k.val, 96] := by decide +kernel
theorem k0_off385_eq : ∀ k : Fin k0_t2_loop.trips, k0_off385 k = ![k.val, 112] := by decide +kernel
/-- the third lookup's loop -/
theorem k0_off530_eq : ∀ k : Fin k0_t3_loop.trips, k0_off530 k = ![k.val, 0] := by decide +kernel
theorem k0_off547_eq : ∀ k : Fin k0_t3_loop.trips, k0_off547 k = ![k.val, 16] := by decide +kernel
theorem k0_off564_eq : ∀ k : Fin k0_t3_loop.trips, k0_off564 k = ![k.val, 32] := by decide +kernel
theorem k0_off581_eq : ∀ k : Fin k0_t3_loop.trips, k0_off581 k = ![k.val, 48] := by decide +kernel
theorem k0_off598_eq : ∀ k : Fin k0_t3_loop.trips, k0_off598 k = ![k.val, 64] := by decide +kernel
theorem k0_off615_eq : ∀ k : Fin k0_t3_loop.trips, k0_off615 k = ![k.val, 80] := by decide +kernel
theorem k0_off632_eq : ∀ k : Fin k0_t3_loop.trips, k0_off632 k = ![k.val, 96] := by decide +kernel
theorem k0_off649_eq : ∀ k : Fin k0_t3_loop.trips, k0_off649 k = ![k.val, 112] := by decide +kernel

end Cert.Proof.KILand

end
-- ==== Proof.KIJoin.lean ====
/-
  One points-to as a list of pieces, and a list of pieces as one points-to.

  Separating conjunction is associative and commutative with unit `emp` up to equality, so an iterated conjunction over
  the numbers below `n` is the conjunction of the list of its `n` members in order.  A points-to over a set that is the
  union of a list of pairwise disjoint sets is the conjunction of the points-tos over the sets; pieces held at different
  contents join into one points-to at any contents that agree with each piece's on that piece's set.  A whole buffer's
  points-to splits, along its share, into a remainder and any number of read tokens.
-/
import proofs.«206842_g87686052315543_cont_sun_m_497_29_alg».proof.Proof.KIRes
import proofs.«206842_g87686052315543_cont_sun_m_497_29_alg».proof.Proof.Gen.KernelIdeal
import Idealize.ShloMosaic.Rules.PointsTo
import Idealize.ShloMosaic.Lib.Transfers
import Idealize.ShloMosaic.Lib.Exec.Geometry

noncomputable section

namespace Cert.Proof.KIJoin

open Cert.KernelIdeal Cert.KernelIdeal.Gen Cert.Proof.KIRes

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The laws of separating conjunction, as equations -/

theorem sepE_emp (a : sProp 𝕄) : iprop(a ∗ emp) = a := BI.equiv_iff.mp _root_.Idealize.SL.BI.sep_emp
theorem empE_sep (a : sProp 𝕄) : iprop(emp ∗ a) = a := BI.equiv_iff.mp _root_.Idealize.SL.BI.emp_sep
theorem sepE_comm (a b : sProp 𝕄) : iprop(a ∗ b) = iprop(b ∗ a) :=
  _root_.Idealize.SL.BI.sep_comm.antisymm _root_.Idealize.SL.BI.sep_comm
theorem sepE_assoc (a b c : sProp 𝕄) : iprop((a ∗ b) ∗ c) = iprop(a ∗ b ∗ c) :=
  _root_.Idealize.SL.BI.sep_assoc.antisymm _root_.Idealize.SL.BI.sep_assoc'

/-! ## A list of assertions, conjoined -/

/-- The separating conjunction of a list, right-nested, ending in `emp`. -/
def sepL : List (sProp 𝕄) → sProp 𝕄
  | [] => iprop(emp)
  | a :: l => iprop(a ∗ sepL l)

theorem sepL_nil : sepL ([] : List (sProp 𝕄)) = iprop(emp) := rfl
theorem sepL_cons (a : sProp 𝕄) (l : List (sProp 𝕄)) : sepL (a :: l) = iprop(a ∗ sepL l) := rfl

theorem sepL_append (l₁ l₂ : List (sProp 𝕄)) : sepL (l₁ ++ l₂) = iprop(sepL l₁ ∗ sepL l₂) := by
  induction l₁ with
  | nil => rw [List.nil_append, sepL_nil, empE_sep]
  | cons a l ih => rw [List.cons_append, sepL_cons, sepL_cons, ih, sepE_assoc]

/-- The conjunction over the numbers below `n` is the conjunction of the list of its members in order. -/
theorem bigSep_range_eq_sepL (n : ℕ) (Φ : ℕ → sProp 𝕄) : bigSep (Finset.range n) Φ = sepL ((List.range n).map Φ) := by
  induction n with
  | zero => rw [Finset.range_zero, bigSep_empty]; rfl
  | succ n ih =>
    rw [Finset.range_add_one, bigSep_insert Finset.notMem_range_self, ih, List.range_succ, List.map_append, sepL_append,
      List.map_singleton, sepL_cons, sepL_nil, sepE_emp]
    exact sepE_comm _ _

/-- A run of `a + b` numbers is its first `a` and the `b` after them. -/
theorem bigSep_range_add (a b : ℕ) (Φ : ℕ → sProp 𝕄) :
    bigSep (Finset.range (a + b)) Φ = iprop(bigSep (Finset.range a) Φ ∗ bigSep (Finset.range b) fun i => Φ (a + i)) := by
  induction b with
  | zero => rw [Nat.add_zero, Finset.range_zero, bigSep_empty]; exact (sepE_emp _).symm
  | succ b ih =>
    rw [← Nat.add_assoc, Finset.range_add_one, bigSep_insert Finset.notMem_range_self, ih,
      Finset.range_add_one (n := b), bigSep_insert Finset.notMem_range_self]
    show iprop(Φ (a + b) ∗ bigSep (Finset.range a) Φ ∗ bigSep (Finset.range b) fun i => Φ (a + i))
      = iprop(bigSep (Finset.range a) Φ ∗ Φ (a + b) ∗ bigSep (Finset.range b) fun i => Φ (a + i))
    rw [← sepE_assoc, ← sepE_assoc, sepE_comm (Φ (a + b))]

/-! ## One location's points-to over a list of sets -/

section Pieces

variable {ℓ : Loc nD τ sig}

/-- A set disjoint from every set of a list is disjoint from their union. -/
theorem disjoint_foldr_union (s : Finset (Idx ℓ)) (Ss : List (Finset (Idx ℓ))) (h : ∀ t ∈ Ss, Disjoint s t) :
    Disjoint s (Ss.foldr (· ∪ ·) ∅) := by
  induction Ss with
  | nil => exact Finset.disjoint_empty_right _
  | cons t Ss ih =>
    exact Finset.disjoint_union_right.2 ⟨h t List.mem_cons_self, ih fun u hu => h u (List.mem_cons_of_mem _ hu)⟩

/-- Along two disjoint sets, as an equation. -/
theorem pointsTo_union_eq {A B : Finset (Idx ℓ)} (q : PosShare TreeShare) (f : Buf (Elt F) ℓ) (h : Disjoint A B) :
    (ℓ ↦[A ∪ B]{q} f : sProp 𝕄) = iprop((ℓ ↦[A]{q} f) ∗ ℓ ↦[B]{q} f) :=
  have hu : (ℓ ↦[A ∪ B]{q} f : sProp 𝕄) ⊣⊢ iprop((ℓ ↦[A]{q} f) ∗ ℓ ↦[B]{q} f) := pointsTo_union h
  BI.equiv_iff.mp ⟨hu.1, hu.2⟩

/-- A points-to over the union of a list of pairwise disjoint sets is the list of the points-tos over the sets. -/
theorem split_list (Ss : List (Finset (Idx ℓ))) (S : Finset (Idx ℓ)) (q : PosShare TreeShare) (f : Buf (Elt F) ℓ)
    (hd : Ss.Pairwise Disjoint) (hc : Ss.foldr (· ∪ ·) ∅ = S) :
    (ℓ ↦[S]{q} f : sProp 𝕄) = sepL (Ss.map fun s => ℓ ↦[s]{q} f) := by
  induction Ss generalizing S with
  | nil =>
    subst hc
    rw [List.foldr_nil, pointsTo_empty]; rfl
  | cons s Ss ih =>
    subst hc
    rw [List.foldr_cons, pointsTo_union_eq q f (disjoint_foldr_union s Ss (List.pairwise_cons.1 hd).1),
      ih _ (List.pairwise_cons.1 hd).2 rfl, List.map_cons, sepL_cons]

/-- Pieces held at different contents are one points-to at any contents that agree with each piece's on its set. -/
theorem join_list_eq (Ss : List (Finset (Idx ℓ))) (cs : List (Buf (Elt F) ℓ)) (G : Buf (Elt F) ℓ) (S : Finset (Idx ℓ))
    (q : PosShare TreeShare) (hlen : cs.length = Ss.length) (hd : Ss.Pairwise Disjoint) (hc : Ss.foldr (· ∪ ·) ∅ = S)
    (hag : ∀ i (hi : i < Ss.length), ∀ x ∈ Ss[i], (cs[i]'(hlen ▸ hi)) x = G x) :
    sepL (List.zipWith (fun s c => (ℓ ↦[s]{q} c : sProp 𝕄)) Ss cs) = (ℓ ↦[S]{q} G : sProp 𝕄) := by
  induction Ss generalizing S cs with
  | nil =>
    subst hc
    rw [List.zipWith_nil_left, List.foldr_nil, pointsTo_empty]; rfl
  | cons s Ss ih =>
    match cs, hlen, hag with
    | c :: cs', hlen, hag =>
      subst hc
      have hlen' : cs'.length = Ss.length := Nat.succ.inj hlen
      rw [List.zipWith_cons_cons, sepL_cons, List.foldr_cons,
        pointsTo_union_eq q G (disjoint_foldr_union s Ss (List.pairwise_cons.1 hd).1),
        ih cs' _ hlen' (List.pairwise_cons.1 hd).2 rfl fun i hi x hx => hag (i + 1) (Nat.succ_lt_succ hi) x hx,
        pointsTo_congr (I := s) (f := c) (g := G) (fun x hx => hag 0 (Nat.succ_pos _) x hx)]

theorem join_list (Ss : List (Finset (Idx ℓ))) (cs : List (Buf (Elt F) ℓ)) (G : Buf (Elt F) ℓ) (S : Finset (Idx ℓ))
    (q : PosShare TreeShare) (hlen : cs.length = Ss.length) (hd : Ss.Pairwise Disjoint) (hc : Ss.foldr (· ∪ ·) ∅ = S)
    (hag : ∀ i (hi : i < Ss.length), ∀ x ∈ Ss[i], (cs[i]'(hlen ▸ hi)) x = G x) :
    sepL (List.zipWith (fun s c => (ℓ ↦[s]{q} c : sProp 𝕄)) Ss cs) ⊢ ℓ ↦[S]{q} G :=
  Entails.of_eq (join_list_eq Ss cs G S q hlen hd hc hag)

/-! ## A table's read tokens -/

/-- A whole buffer at share `q`: what is left after 144 read tokens beside the first 16 tokens, and the other 128 as a list. -/
theorem toks_split (ℓ : Loc nD τ sig) (q : PosShare TreeShare) (f : Buf (Elt F) ℓ) :
    (ℓ ↦{q} f : sProp 𝕄) ⊣⊢ iprop(((ℓ ↦{Transfers.shareDrop q 144} f) ∗ bigSep (Finset.range 16) (fun i => ℓ ↦{Transfers.shareTokN q i} f))
      ∗ sepL ((List.range 128).map fun i => ℓ ↦{Transfers.shareTokN q (16 + i)} f)) := by
  have h : (ℓ ↦{q} f : sProp 𝕄) ⊣⊢ _ := Transfers.pointsTo_toks_range (ℓ := ℓ) (S := Finset.univ) (f := f) q 144
  rw [show (144 : ℕ) = 16 + 128 from rfl, bigSep_range_add 16 128, ← sepE_assoc, bigSep_range_eq_sepL 128] at h
  exact h

end Pieces

/-! ## The rows of a [64, 64] view

Row `r` of a view of 64 rows of 64 entries is the view restricted to the rectangle of one row from row `r`, every column.
Different rows are disjoint (their rectangles are apart on the row axis, and a view places its indices injectively), and
every element of the view lies in the row its row coordinate names.  So the view's elements are the union of its 64 rows,
pairwise disjoint. -/

section Rows

theorem inb_row (r : ℕ) (hr : r < 64) : ∀ a, (![r, 0] : Fin 2 → Nat) a + S1x64.size a ≤ S64x64.size a := by
  intro a
  match a with
  | 0 => show r + 1 ≤ 64; omega
  | 1 => show 0 + 64 ≤ 64; omega

/-- One row, every column. -/
abbrev rowR (r : ℕ) (hr : r < 64) : Rect S64x64 := Rect.unit (s := S64x64) ![r, 0] S1x64.size (inb_row r hr)

theorem rowR_disjoint (r r' : ℕ) (hr : r < 64) (hr' : r' < 64) (h : r ≠ r') : Disjoint (rowR r hr).set (rowR r' hr').set := by
  refine Rect.disjoint_of_separated _ _ (0 : Fin 2) ?_
  rcases Nat.lt_or_gt_of_ne h with h | h
  · refine .inl (.inr ?_)
    show r + 1 * (1 - 1) < r'
    omega
  · refine .inr (.inr ?_)
    show r' + 1 * (1 - 1) < r
    omega

theorem mem_rowR (y : S64x64.Idx) : y ∈ (rowR (y 0).val (y 0).isLt).set := by
  refine Rect.mem_set_unit.2 fun a => ?_
  match a with
  | 0 => exact ⟨Nat.le_refl _, Nat.lt_succ_self _⟩
  | 1 => exact ⟨Nat.zero_le _, by have h : (y 1).val < 64 := (y 1).isLt; show (y 1).val < 0 + 64; omega⟩

/-- An element of a union of a list of sets is in one of them. -/
theorem mem_foldr_union {α : Type} [DecidableEq α] (Ls : List (Finset α)) (x : α) :
    x ∈ Ls.foldr (· ∪ ·) ∅ ↔ ∃ s ∈ Ls, x ∈ s := by
  induction Ls with
  | nil => simp
  | cons t Ls ih => rw [List.foldr_cons, Finset.mem_union, ih]; simp

variable {κ : Kind} (v : View sig κ Space.vmem S64x64 EltTy.f32)

/-- The element sets of the 64 rows, in order. -/
def rowSets : List (Finset v.ty.Idx) := List.ofFn fun r : Fin 64 => (v.slice (rowR r.val r.isLt)).set

theorem rowSets_length : (rowSets v).length = 64 := List.length_ofFn

theorem rowSets_pairwise : (rowSets v).Pairwise Disjoint := by
  unfold rowSets
  rw [List.pairwise_ofFn]
  intro i j hij
  rw [View.set_slice, View.set_slice, Finset.disjoint_map]
  exact rowR_disjoint _ _ _ _ (Nat.ne_of_lt hij)

theorem rowSets_cover : (rowSets v).foldr (· ∪ ·) ∅ = v.set := by
  ext x
  rw [mem_foldr_union]
  constructor
  · rintro ⟨s, hs, hx⟩
    obtain ⟨r, rfl⟩ := (List.mem_ofFn' _ _).1 hs
    exact View.set_slice_subset v _ hx
  · intro hx
    obtain ⟨y, -, rfl⟩ := Finset.mem_map.1 hx
    refine ⟨(v.slice (rowR (y 0).val (y 0).isLt)).set, (List.mem_ofFn' _ _).2 ⟨y 0, rfl⟩, ?_⟩
    rw [View.set_slice]
    exact Finset.mem_map_of_mem _ (mem_rowR y)

end Rows

/-! ## A list's conjunction without the closing `emp`, and a family over `Fin 64` as its 64 members -/

/-- The separating conjunction of a list, right-nested; a one-member list is its member. -/
def sepN : List (sProp 𝕄) → sProp 𝕄
  | [] => iprop(emp)
  | [a] => a
  | a :: b :: l => iprop(a ∗ sepN (b :: l))

theorem sepL_eq_sepN : ∀ l : List (sProp 𝕄), sepL l = sepN l
  | [] => rfl
  | [a] => sepE_emp a
  | a :: b :: l => by rw [sepL_cons, sepL_eq_sepN (b :: l)]; rfl

/-- A family over `Fin 64`, listed. -/
theorem ofFn64 {α : Type} (Φ : Fin 64 → α) :
    List.ofFn Φ = [Φ 0, Φ 1, Φ 2, Φ 3, Φ 4, Φ 5, Φ 6, Φ 7, Φ 8, Φ 9, Φ 10, Φ 11, Φ 12, Φ 13, Φ 14, Φ 15,
      Φ 16, Φ 17, Φ 18, Φ 19, Φ 20, Φ 21, Φ 22, Φ 23, Φ 24, Φ 25, Φ 26, Φ 27, Φ 28, Φ 29, Φ 30, Φ 31,
      Φ 32, Φ 33, Φ 34, Φ 35, Φ 36, Φ 37, Φ 38, Φ 39, Φ 40, Φ 41, Φ 42, Φ 43, Φ 44, Φ 45, Φ 46, Φ 47,
      Φ 48, Φ 49, Φ 50, Φ 51, Φ 52, Φ 53, Φ 54, Φ 55, Φ 56, Φ 57, Φ 58, Φ 59, Φ 60, Φ 61, Φ 62, Φ 63] := rfl

/-- The conjunction of a family over `Fin 64`, written out. -/
theorem sepN_ofFn64 (Φ : Fin 64 → sProp 𝕄) :
    sepN (List.ofFn Φ) = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15
      ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31
      ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47
      ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63) := by
  rw [ofFn64]; rfl

/-! ## A [64, 64] view held whole, and held row by row -/

section RowsPts

variable (c : Thread nD τ) (v : View sig c.2.kind Space.vmem S64x64 EltTy.f32)

/-- The view's elements held at `f` are its 64 rows held at `f`. -/
theorem rows_split (f : Buf (Elt F) (v.loc c)) :
    (v.loc c ↦[v.set]{fullShare} f : sProp 𝕄)
      = sepN (List.ofFn fun r : Fin 64 => (v.loc c ↦[(v.slice (rowR r.val r.isLt)).set]{fullShare} f : sProp 𝕄)) := by
  rw [split_list (rowSets v) v.set fullShare f (rowSets_pairwise v) (rowSets_cover v), sepL_eq_sepN]
  unfold rowSets
  rw [List.map_ofFn]
  rfl

/-- The 64 rows, row `r` held at contents that agree with `G` on row `r`, are the view's elements held at `G`. -/
theorem rows_join (cs : Fin 64 → Buf (Elt F) (v.loc c)) (G : Buf (Elt F) (v.loc c))
    (hag : ∀ (r : Fin 64), ∀ x ∈ (v.slice (rowR r.val r.isLt)).set, cs r x = G x) :
    sepN (List.ofFn fun r : Fin 64 => (v.loc c ↦[(v.slice (rowR r.val r.isLt)).set]{fullShare} cs r : sProp 𝕄))
      = (v.loc c ↦[v.set]{fullShare} G : sProp 𝕄) := by
  rw [rows_split c v G]
  refine congrArg sepN (congrArg List.ofFn (funext fun r => ?_))
  exact pointsTo_congr (hag r)

end RowsPts

/-! ## A [2, 64, 64] view and its two slots

Slot `b` is the rectangle of one plane from plane `b`, every row and column.  The two planes are apart on the first axis
and every element lies in the plane its first coordinate names, so a view of the whole array is held exactly when its
two slots are. -/

section TwoSlots

abbrev slotR0 : Rect S2x64x64 := Rect.unit (s := S2x64x64) ![0, 0, 0] S1x64x64.size inb_S2x64x64_S1x64x64_0_0_0
abbrev slotR1 : Rect S2x64x64 := Rect.unit (s := S2x64x64) ![1, 0, 0] S1x64x64.size inb_S2x64x64_S1x64x64_1_0_0

theorem slotR_disjoint : Disjoint slotR0.set slotR1.set :=
  Rect.disjoint_of_separated _ _ (0 : Fin 3) (.inl (.inr (by show 0 + 1 * (1 - 1) < 1; omega)))

theorem slotR_cover : slotR0.set ∪ slotR1.set = Finset.univ := by
  ext i
  simp only [Finset.mem_union, Finset.mem_univ, iff_true]
  have h0 : (i 0).val < 2 := (i 0).isLt
  have h1 : (i 1).val < 64 := (i 1).isLt
  have h2 : (i 2).val < 64 := (i 2).isLt
  rcases Nat.lt_or_ge (i 0).val 1 with h | h
  · refine .inl (Rect.mem_set_unit.2 fun a => ?_)
    match a with
    | 0 => exact ⟨Nat.zero_le _, by show (i 0).val < 0 + 1; omega⟩
    | 1 => exact ⟨Nat.zero_le _, by show (i 1).val < 0 + 64; omega⟩
    | 2 => exact ⟨Nat.zero_le _, by show (i 2).val < 0 + 64; omega⟩
  · refine .inr (Rect.mem_set_unit.2 fun a => ?_)
    match a with
    | 0 => exact ⟨h, by show (i 0).val < 1 + 1; omega⟩
    | 1 => exact ⟨Nat.zero_le _, by show (i 1).val < 0 + 64; omega⟩
    | 2 => exact ⟨Nat.zero_le _, by show (i 2).val < 0 + 64; omega⟩

variable (c : Thread nD τ) (w : View sig c.2.kind Space.vmem S2x64x64 EltTy.f32)

theorem slots_union_set : ((w.slice slotR0).set : Finset w.ty.Idx) ∪ ((w.slice slotR1).set : Finset w.ty.Idx) = w.set := by
  rw [View.set_slice, View.set_slice, ← Finset.map_union, slotR_cover]; rfl

theorem slots_disjoint_set : Disjoint ((w.slice slotR0).set : Finset w.ty.Idx) ((w.slice slotR1).set : Finset w.ty.Idx) := by
  rw [View.set_slice, View.set_slice, Finset.disjoint_map]; exact slotR_disjoint

/-- The whole view at `f` is its two slots at `f`. -/
theorem slots_split (q : PosShare TreeShare) (f : Buf (Elt F) (w.loc c)) :
    (w.loc c ↦[w.set]{q} f : sProp 𝕄)
      = iprop((w.loc c ↦[(w.slice slotR0).set]{q} f) ∗ (w.loc c ↦[(w.slice slotR1).set]{q} f)) :=
  (congrArg (fun s => (w.loc c ↦[s]{q} f : sProp 𝕄)) (slots_union_set c w).symm).trans
    (pointsTo_union_eq q f (slots_disjoint_set c w))

/-- The two slots at different contents are the whole view at the contents pieced from them. -/
theorem slots_join (q : PosShare TreeShare) (f0 f1 : Buf (Elt F) (w.loc c)) :
    iprop((w.loc c ↦[(w.slice slotR0).set]{q} f0) ∗ (w.loc c ↦[(w.slice slotR1).set]{q} f1))
      ⊢ (w.loc c ↦[w.set]{q} (((w.slice slotR1).set : Finset w.ty.Idx).piecewise f1 f0) : sProp 𝕄) :=
  (pointsTo_join (slots_disjoint_set c w)).trans
    (Entails.of_eq (congrArg (fun s => (w.loc c ↦[s]{q} (((w.slice slotR1).set : Finset w.ty.Idx).piecewise f1 f0) : sProp 𝕄))
      (slots_union_set c w)))

end TwoSlots

end Cert.Proof.KIJoin

end
-- ==== Proof.KIRows.lean ====
/-
  The staging buffer [2, 64, 64] held row by row.  Each slot [64, 64] is its 64 rows [1, 64]; a slot held at one
  contents is its 64 rows held at those contents, and 64 rows held at 64 contents are the slot held at the contents
  glued from them (entry (r, e) of the slot read from the r-th).
-/
import proofs.«206842_g87686052315543_cont_sun_m_497_29_alg».proof.Proof.KIRes
import proofs.«206842_g87686052315543_cont_sun_m_497_29_alg».proof.Proof.KIJoin
import Idealize.ShloMosaic.Lib.ValueIdx
import proofs.«206842_g87686052315543_cont_sun_m_497_29_alg».proof.Proof.Gen.KernelIdeal

noncomputable section

namespace Cert.Proof.KIRows

open Cert.KernelIdeal Cert.KernelIdeal.Gen Cert.Proof.KIRes

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ
local notation "bufW" => (Memref.whole Cert.KernelIdeal.cc0_scratch3 : Memref Cert.KernelIdeal.sig Kind.scVector Space.vmem Cert.KernelIdeal.S2x64x64 EltTy.f32)

/-- the two slots, as the program spells them -/
abbrev slotM0 : Memref sig .scVector .vmem S64x64 .f32 :=
  ((bufW).slice (Rect.unit (s := S2x64x64) ![0, 0, 0] S1x64x64.size inb_S2x64x64_S1x64x64_0_0_0) (fun _ => rfl)).squeeze S64x64 squeezes_S1x64x64_S64x64
abbrev slotM1 : Memref sig .scVector .vmem S64x64 .f32 :=
  ((bufW).slice (Rect.unit (s := S2x64x64) ![1, 0, 0] S1x64x64.size inb_S2x64x64_S1x64x64_1_0_0) (fun _ => rfl)).squeeze S64x64 squeezes_S1x64x64_S64x64

theorem inb_row (r : Fin 64) : ∀ a, (![r.val, 0] : Fin 2 → Nat) a + S1x64.size a ≤ S64x64.size a := by
  intro a; have := r.isLt; match a with
  | ⟨0, _⟩ => show r.val + 1 ≤ 64; omega
  | ⟨1, _⟩ => show 0 + 64 ≤ 64; omega
/-- row r of a slot, as the program spells it -/
abbrev rowM0 (r : Fin 64) : Memref sig .scVector .vmem S1x64 .f32 := (slotM0).slice (Rect.unit (s := S64x64) ![r.val, 0] S1x64.size (inb_row r)) (fun _ => rfl)
abbrev rowM1 (r : Fin 64) : Memref sig .scVector .vmem S1x64 .f32 := (slotM1).slice (Rect.unit (s := S64x64) ![r.val, 0] S1x64.size (inb_row r)) (fun _ => rfl)

variable (d : Dev nD) (L : grid0.Coords)

/-- the buffer's contents type, on the tile's thread -/
abbrev BufT : Type := Buf (Elt F) ((V d (cV L) (jV L)).loc cc0_scratch3)

/-- a slot held at f; a row held at c -/
abbrev slotPts0 (f : BufT (F := F) d L) : sProp 𝕄 := (slotM0).view.loc (V d (cV L) (jV L)) ↦[(slotM0).view.set]{fullShare} f
abbrev slotPts1 (f : BufT (F := F) d L) : sProp 𝕄 := (slotM1).view.loc (V d (cV L) (jV L)) ↦[(slotM1).view.set]{fullShare} f
abbrev rowPts0 (r : Fin 64) (c : BufT (F := F) d L) : sProp 𝕄 := (rowM0 r).view.loc (V d (cV L) (jV L)) ↦[(rowM0 r).view.set]{fullShare} c
abbrev rowPts1 (r : Fin 64) (c : BufT (F := F) d L) : sProp 𝕄 := (rowM1 r).view.loc (V d (cV L) (jV L)) ↦[(rowM1 r).view.set]{fullShare} c

/-- The contents glued from 64 rows' contents: the buffer entry in row r (of either slot) is read from the r-th. -/
def glue (cs : Fin 64 → BufT (F := F) d L) : BufT (F := F) d L := fun i => cs (i 1) i

/-- A slot at f is its 64 rows at f. -/
theorem slot0_split (f : BufT (F := F) d L) :
    slotPts0 d L f = iprop(rowPts0 d L 0 f ∗ rowPts0 d L 1 f ∗ rowPts0 d L 2 f ∗ rowPts0 d L 3 f ∗ rowPts0 d L 4 f ∗ rowPts0 d L 5 f ∗ rowPts0 d L 6 f ∗ rowPts0 d L 7 f ∗ rowPts0 d L 8 f ∗ rowPts0 d L 9 f ∗ rowPts0 d L 10 f ∗ rowPts0 d L 11 f ∗ rowPts0 d L 12 f ∗ rowPts0 d L 13 f ∗ rowPts0 d L 14 f ∗ rowPts0 d L 15 f ∗ rowPts0 d L 16 f ∗ rowPts0 d L 17 f ∗ rowPts0 d L 18 f ∗ rowPts0 d L 19 f ∗ rowPts0 d L 20 f ∗ rowPts0 d L 21 f ∗ rowPts0 d L 22 f ∗ rowPts0 d L 23 f ∗ rowPts0 d L 24 f ∗ rowPts0 d L 25 f ∗ rowPts0 d L 26 f ∗ rowPts0 d L 27 f ∗ rowPts0 d L 28 f ∗ rowPts0 d L 29 f ∗ rowPts0 d L 30 f ∗ rowPts0 d L 31 f ∗ rowPts0 d L 32 f ∗ rowPts0 d L 33 f ∗ rowPts0 d L 34 f ∗ rowPts0 d L 35 f ∗ rowPts0 d L 36 f ∗ rowPts0 d L 37 f ∗ rowPts0 d L 38 f ∗ rowPts0 d L 39 f ∗ rowPts0 d L 40 f ∗ rowPts0 d L 41 f ∗ rowPts0 d L 42 f ∗ rowPts0 d L 43 f ∗ rowPts0 d L 44 f ∗ rowPts0 d L 45 f ∗ rowPts0 d L 46 f ∗ rowPts0 d L 47 f ∗ rowPts0 d L 48 f ∗ rowPts0 d L 49 f ∗ rowPts0 d L 50 f ∗ rowPts0 d L 51 f ∗ rowPts0 d L 52 f ∗ rowPts0 d L 53 f ∗ rowPts0 d L 54 f ∗ rowPts0 d L 55 f ∗ rowPts0 d L 56 f ∗ rowPts0 d L 57 f ∗ rowPts0 d L 58 f ∗ rowPts0 d L 59 f ∗ rowPts0 d L 60 f ∗ rowPts0 d L 61 f ∗ rowPts0 d L 62 f ∗ rowPts0 d L 63 f) := by
  have h := KIJoin.rows_split (F := F) (V d (cV L) (jV L)) (slotM0).view f
  rw [KIJoin.sepN_ofFn64] at h
  exact h
theorem slot1_split (f : BufT (F := F) d L) :
    slotPts1 d L f = iprop(rowPts1 d L 0 f ∗ rowPts1 d L 1 f ∗ rowPts1 d L 2 f ∗ rowPts1 d L 3 f ∗ rowPts1 d L 4 f ∗ rowPts1 d L 5 f ∗ rowPts1 d L 6 f ∗ rowPts1 d L 7 f ∗ rowPts1 d L 8 f ∗ rowPts1 d L 9 f ∗ rowPts1 d L 10 f ∗ rowPts1 d L 11 f ∗ rowPts1 d L 12 f ∗ rowPts1 d L 13 f ∗ rowPts1 d L 14 f ∗ rowPts1 d L 15 f ∗ rowPts1 d L 16 f ∗ rowPts1 d L 17 f ∗ rowPts1 d L 18 f ∗ rowPts1 d L 19 f ∗ rowPts1 d L 20 f ∗ rowPts1 d L 21 f ∗ rowPts1 d L 22 f ∗ rowPts1 d L 23 f ∗ rowPts1 d L 24 f ∗ rowPts1 d L 25 f ∗ rowPts1 d L 26 f ∗ rowPts1 d L 27 f ∗ rowPts1 d L 28 f ∗ rowPts1 d L 29 f ∗ rowPts1 d L 30 f ∗ rowPts1 d L 31 f ∗ rowPts1 d L 32 f ∗ rowPts1 d L 33 f ∗ rowPts1 d L 34 f ∗ rowPts1 d L 35 f ∗ rowPts1 d L 36 f ∗ rowPts1 d L 37 f ∗ rowPts1 d L 38 f ∗ rowPts1 d L 39 f ∗ rowPts1 d L 40 f ∗ rowPts1 d L 41 f ∗ rowPts1 d L 42 f ∗ rowPts1 d L 43 f ∗ rowPts1 d L 44 f ∗ rowPts1 d L 45 f ∗ rowPts1 d L 46 f ∗ rowPts1 d L 47 f ∗ rowPts1 d L 48 f ∗ rowPts1 d L 49 f ∗ rowPts1 d L 50 f ∗ rowPts1 d L 51 f ∗ rowPts1 d L 52 f ∗ rowPts1 d L 53 f ∗ rowPts1 d L 54 f ∗ rowPts1 d L 55 f ∗ rowPts1 d L 56 f ∗ rowPts1 d L 57 f ∗ rowPts1 d L 58 f ∗ rowPts1 d L 59 f ∗ rowPts1 d L 60 f ∗ rowPts1 d L 61 f ∗ rowPts1 d L 62 f ∗ rowPts1 d L 63 f) := by
  have h := KIJoin.rows_split (F := F) (V d (cV L) (jV L)) (slotM1).view f
  rw [KIJoin.sepN_ofFn64] at h
  exact h

/-! Where a slot's entries sit in the buffer: entry (r, e) of a slot is in row r of the buffer, and so is every element of
    the slot's row r.  Hence the glued contents agree with the r-th contents on row r. -/

/-- Through slot 0, entry (r, e) has buffer row coordinate r. -/
theorem slot0_emb_coord (r e : Fin 64) : ((slotM0).view.emb (ix2 r e)) 1 = r := by
  have hk : Shape.reshapeEquiv squeezes_S1x64x64_S64x64.numel_eq (ix2 r e) = (ix3 (0 : Fin 1) r e : S1x64x64.Idx) :=
    Shape.reshapeEquiv_eq_of_rowMajor _ (by
      rw [Shape.rowMajor_val_three, Shape.rowMajor_val_two]
      show (0 * 64 + r.val) * 64 + e.val = r.val * 64 + e.val
      omega)
  show ((Rect.unit (s := S2x64x64) ![0, 0, 0] S1x64x64.size inb_S2x64x64_S1x64x64_0_0_0).emb
    (Shape.reshapeEquiv squeezes_S1x64x64_S64x64.numel_eq (ix2 r e))) 1 = r
  rw [hk]
  exact Fin.ext (by show 0 + 1 * r.val = r.val; omega)
/-- Through slot 1, entry (r, e) has buffer row coordinate r. -/
theorem slot1_emb_coord (r e : Fin 64) : ((slotM1).view.emb (ix2 r e)) 1 = r := by
  have hk : Shape.reshapeEquiv squeezes_S1x64x64_S64x64.numel_eq (ix2 r e) = (ix3 (0 : Fin 1) r e : S1x64x64.Idx) :=
    Shape.reshapeEquiv_eq_of_rowMajor _ (by
      rw [Shape.rowMajor_val_three, Shape.rowMajor_val_two]
      show (0 * 64 + r.val) * 64 + e.val = r.val * 64 + e.val
      omega)
  show ((Rect.unit (s := S2x64x64) ![1, 0, 0] S1x64x64.size inb_S2x64x64_S1x64x64_1_0_0).emb
    (Shape.reshapeEquiv squeezes_S1x64x64_S64x64.numel_eq (ix2 r e))) 1 = r
  rw [hk]
  exact Fin.ext (by show 0 + 1 * r.val = r.val; omega)

/-- On the elements of row r of slot 0 the glued contents are the r-th contents. -/
theorem glue_agree0 (cs : Fin 64 → BufT (F := F) d L) (r : Fin 64) :
    ∀ x ∈ ((slotM0).view.slice (KIJoin.rowR r.val r.isLt)).set, cs r x = glue d L cs x := by
  intro x hx
  obtain ⟨y, -, rfl⟩ := Finset.mem_map.1 hx
  have e : ((slotM0).view.slice (KIJoin.rowR r.val r.isLt)).emb y = (slotM0).view.emb (ix2 r (y 1)) := by
    show (slotM0).view.emb ((KIJoin.rowR r.val r.isLt).emb y) = _
    refine congrArg _ (funext fun a => Fin.ext ?_)
    match a with
    | ⟨0, _⟩ => have h : (y 0).val < 1 := (y 0).isLt; show r.val + 1 * (y 0).val = r.val; omega
    | ⟨1, _⟩ => show 0 + 1 * (y 1).val = (y 1).val; omega
  rw [e]
  exact (congrArg (fun k : Fin 64 => cs k ((slotM0).view.emb (ix2 r (y 1)))) (slot0_emb_coord r (y 1))).symm
theorem glue_agree1 (cs : Fin 64 → BufT (F := F) d L) (r : Fin 64) :
    ∀ x ∈ ((slotM1).view.slice (KIJoin.rowR r.val r.isLt)).set, cs r x = glue d L cs x := by
  intro x hx
  obtain ⟨y, -, rfl⟩ := Finset.mem_map.1 hx
  have e : ((slotM1).view.slice (KIJoin.rowR r.val r.isLt)).emb y = (slotM1).view.emb (ix2 r (y 1)) := by
    show (slotM1).view.emb ((KIJoin.rowR r.val r.isLt).emb y) = _
    refine congrArg _ (funext fun a => Fin.ext ?_)
    match a with
    | ⟨0, _⟩ => have h : (y 0).val < 1 := (y 0).isLt; show r.val + 1 * (y 0).val = r.val; omega
    | ⟨1, _⟩ => show 0 + 1 * (y 1).val = (y 1).val; omega
  rw [e]
  exact (congrArg (fun k : Fin 64 => cs k ((slotM1).view.emb (ix2 r (y 1)))) (slot1_emb_coord r (y 1))).symm

/-- 64 rows at 64 contents are the slot at the glued contents. -/
theorem slot0_join (c0 c1 c2 c3 c4 c5 c6 c7 c8 c9 c10 c11 c12 c13 c14 c15 c16 c17 c18 c19 c20 c21 c22 c23 c24 c25 c26 c27 c28 c29 c30 c31 c32 c33 c34 c35 c36 c37 c38 c39 c40 c41 c42 c43 c44 c45 c46 c47 c48 c49 c50 c51 c52 c53 c54 c55 c56 c57 c58 c59 c60 c61 c62 c63 : BufT (F := F) d L) :
    iprop(rowPts0 d L 0 c0 ∗ rowPts0 d L 1 c1 ∗ rowPts0 d L 2 c2 ∗ rowPts0 d L 3 c3 ∗ rowPts0 d L 4 c4 ∗ rowPts0 d L 5 c5 ∗ rowPts0 d L 6 c6 ∗ rowPts0 d L 7 c7 ∗ rowPts0 d L 8 c8 ∗ rowPts0 d L 9 c9 ∗ rowPts0 d L 10 c10 ∗ rowPts0 d L 11 c11 ∗ rowPts0 d L 12 c12 ∗ rowPts0 d L 13 c13 ∗ rowPts0 d L 14 c14 ∗ rowPts0 d L 15 c15 ∗ rowPts0 d L 16 c16 ∗ rowPts0 d L 17 c17 ∗ rowPts0 d L 18 c18 ∗ rowPts0 d L 19 c19 ∗ rowPts0 d L 20 c20 ∗ rowPts0 d L 21 c21 ∗ rowPts0 d L 22 c22 ∗ rowPts0 d L 23 c23 ∗ rowPts0 d L 24 c24 ∗ rowPts0 d L 25 c25 ∗ rowPts0 d L 26 c26 ∗ rowPts0 d L 27 c27 ∗ rowPts0 d L 28 c28 ∗ rowPts0 d L 29 c29 ∗ rowPts0 d L 30 c30 ∗ rowPts0 d L 31 c31 ∗ rowPts0 d L 32 c32 ∗ rowPts0 d L 33 c33 ∗ rowPts0 d L 34 c34 ∗ rowPts0 d L 35 c35 ∗ rowPts0 d L 36 c36 ∗ rowPts0 d L 37 c37 ∗ rowPts0 d L 38 c38 ∗ rowPts0 d L 39 c39 ∗ rowPts0 d L 40 c40 ∗ rowPts0 d L 41 c41 ∗ rowPts0 d L 42 c42 ∗ rowPts0 d L 43 c43 ∗ rowPts0 d L 44 c44 ∗ rowPts0 d L 45 c45 ∗ rowPts0 d L 46 c46 ∗ rowPts0 d L 47 c47 ∗ rowPts0 d L 48 c48 ∗ rowPts0 d L 49 c49 ∗ rowPts0 d L 50 c50 ∗ rowPts0 d L 51 c51 ∗ rowPts0 d L 52 c52 ∗ rowPts0 d L 53 c53 ∗ rowPts0 d L 54 c54 ∗ rowPts0 d L 55 c55 ∗ rowPts0 d L 56 c56 ∗ rowPts0 d L 57 c57 ∗ rowPts0 d L 58 c58 ∗ rowPts0 d L 59 c59 ∗ rowPts0 d L 60 c60 ∗ rowPts0 d L 61 c61 ∗ rowPts0 d L 62 c62 ∗ rowPts0 d L 63 c63)
      ⊢ slotPts0 d L (glue d L ![c0, c1, c2, c3, c4, c5, c6, c7, c8, c9, c10, c11, c12, c13, c14, c15, c16, c17, c18, c19, c20, c21, c22, c23, c24, c25, c26, c27, c28, c29, c30, c31, c32, c33, c34, c35, c36, c37, c38, c39, c40, c41, c42, c43, c44, c45, c46, c47, c48, c49, c50, c51, c52, c53, c54, c55, c56, c57, c58, c59, c60, c61, c62, c63]) := by
  have key : ∀ cs : Fin 64 → BufT (F := F) d L,
      KIJoin.sepN (List.ofFn fun r : Fin 64 => rowPts0 d L r (cs r)) = slotPts0 d L (glue d L cs) := fun cs =>
    KIJoin.rows_join (F := F) (V d (cV L) (jV L)) (slotM0).view cs (glue d L cs) (glue_agree0 d L cs)
  have h := key ![c0, c1, c2, c3, c4, c5, c6, c7, c8, c9, c10, c11, c12, c13, c14, c15, c16, c17, c18, c19, c20, c21, c22, c23, c24, c25, c26, c27, c28, c29, c30, c31, c32, c33, c34, c35, c36, c37, c38, c39, c40, c41, c42, c43, c44, c45, c46, c47, c48, c49, c50, c51, c52, c53, c54, c55, c56, c57, c58, c59, c60, c61, c62, c63]
  rw [KIJoin.sepN_ofFn64] at h
  simp only [Matrix.cons_val] at h
  exact Entails.of_eq h
theorem slot1_join (c0 c1 c2 c3 c4 c5 c6 c7 c8 c9 c10 c11 c12 c13 c14 c15 c16 c17 c18 c19 c20 c21 c22 c23 c24 c25 c26 c27 c28 c29 c30 c31 c32 c33 c34 c35 c36 c37 c38 c39 c40 c41 c42 c43 c44 c45 c46 c47 c48 c49 c50 c51 c52 c53 c54 c55 c56 c57 c58 c59 c60 c61 c62 c63 : BufT (F := F) d L) :
    iprop(rowPts1 d L 0 c0 ∗ rowPts1 d L 1 c1 ∗ rowPts1 d L 2 c2 ∗ rowPts1 d L 3 c3 ∗ rowPts1 d L 4 c4 ∗ rowPts1 d L 5 c5 ∗ rowPts1 d L 6 c6 ∗ rowPts1 d L 7 c7 ∗ rowPts1 d L 8 c8 ∗ rowPts1 d L 9 c9 ∗ rowPts1 d L 10 c10 ∗ rowPts1 d L 11 c11 ∗ rowPts1 d L 12 c12 ∗ rowPts1 d L 13 c13 ∗ rowPts1 d L 14 c14 ∗ rowPts1 d L 15 c15 ∗ rowPts1 d L 16 c16 ∗ rowPts1 d L 17 c17 ∗ rowPts1 d L 18 c18 ∗ rowPts1 d L 19 c19 ∗ rowPts1 d L 20 c20 ∗ rowPts1 d L 21 c21 ∗ rowPts1 d L 22 c22 ∗ rowPts1 d L 23 c23 ∗ rowPts1 d L 24 c24 ∗ rowPts1 d L 25 c25 ∗ rowPts1 d L 26 c26 ∗ rowPts1 d L 27 c27 ∗ rowPts1 d L 28 c28 ∗ rowPts1 d L 29 c29 ∗ rowPts1 d L 30 c30 ∗ rowPts1 d L 31 c31 ∗ rowPts1 d L 32 c32 ∗ rowPts1 d L 33 c33 ∗ rowPts1 d L 34 c34 ∗ rowPts1 d L 35 c35 ∗ rowPts1 d L 36 c36 ∗ rowPts1 d L 37 c37 ∗ rowPts1 d L 38 c38 ∗ rowPts1 d L 39 c39 ∗ rowPts1 d L 40 c40 ∗ rowPts1 d L 41 c41 ∗ rowPts1 d L 42 c42 ∗ rowPts1 d L 43 c43 ∗ rowPts1 d L 44 c44 ∗ rowPts1 d L 45 c45 ∗ rowPts1 d L 46 c46 ∗ rowPts1 d L 47 c47 ∗ rowPts1 d L 48 c48 ∗ rowPts1 d L 49 c49 ∗ rowPts1 d L 50 c50 ∗ rowPts1 d L 51 c51 ∗ rowPts1 d L 52 c52 ∗ rowPts1 d L 53 c53 ∗ rowPts1 d L 54 c54 ∗ rowPts1 d L 55 c55 ∗ rowPts1 d L 56 c56 ∗ rowPts1 d L 57 c57 ∗ rowPts1 d L 58 c58 ∗ rowPts1 d L 59 c59 ∗ rowPts1 d L 60 c60 ∗ rowPts1 d L 61 c61 ∗ rowPts1 d L 62 c62 ∗ rowPts1 d L 63 c63)
      ⊢ slotPts1 d L (glue d L ![c0, c1, c2, c3, c4, c5, c6, c7, c8, c9, c10, c11, c12, c13, c14, c15, c16, c17, c18, c19, c20, c21, c22, c23, c24, c25, c26, c27, c28, c29, c30, c31, c32, c33, c34, c35, c36, c37, c38, c39, c40, c41, c42, c43, c44, c45, c46, c47, c48, c49, c50, c51, c52, c53, c54, c55, c56, c57, c58, c59, c60, c61, c62, c63]) := by
  have key : ∀ cs : Fin 64 → BufT (F := F) d L,
      KIJoin.sepN (List.ofFn fun r : Fin 64 => rowPts1 d L r (cs r)) = slotPts1 d L (glue d L cs) := fun cs =>
    KIJoin.rows_join (F := F) (V d (cV L) (jV L)) (slotM1).view cs (glue d L cs) (glue_agree1 d L cs)
  have h := key ![c0, c1, c2, c3, c4, c5, c6, c7, c8, c9, c10, c11, c12, c13, c14, c15, c16, c17, c18, c19, c20, c21, c22, c23, c24, c25, c26, c27, c28, c29, c30, c31, c32, c33, c34, c35, c36, c37, c38, c39, c40, c41, c42, c43, c44, c45, c46, c47, c48, c49, c50, c51, c52, c53, c54, c55, c56, c57, c58, c59, c60, c61, c62, c63]
  rw [KIJoin.sepN_ofFn64] at h
  simp only [Matrix.cons_val] at h
  exact Entails.of_eq h

/-- The whole buffer is its two slots (at one contents; joined back at some contents). -/
theorem buf_split (f : BufT (F := F) d L) :
    ((bufW).view.loc (V d (cV L) (jV L)) ↦{fullShare} f : sProp 𝕄) = iprop(slotPts0 d L f ∗ slotPts1 d L f) := by
  have h := KIJoin.slots_split (F := F) (V d (cV L) (jV L)) (bufW).view fullShare f
  have e0 : (slotM0).view.set = ((bufW).view.slice KIJoin.slotR0).set := View.set_reshape _ _
  have e1 : (slotM1).view.set = ((bufW).view.slice KIJoin.slotR1).set := View.set_reshape _ _
  have hw : (bufW).view.set = Finset.univ := View.set_whole _
  rw [← e0, ← e1, hw] at h
  exact h
theorem buf_join (f0 f1 : BufT (F := F) d L) :
    iprop(slotPts0 d L f0 ∗ slotPts1 d L f1) ⊢ (iprop(∃ f, (bufW).view.loc (V d (cV L) (jV L)) ↦{fullShare} f) : sProp 𝕄) := by
  have h := KIJoin.slots_join (F := F) (V d (cV L) (jV L)) (bufW).view fullShare f0 f1
  have e0 : (slotM0).view.set = ((bufW).view.slice KIJoin.slotR0).set := View.set_reshape _ _
  have e1 : (slotM1).view.set = ((bufW).view.slice KIJoin.slotR1).set := View.set_reshape _ _
  have hw : (bufW).view.set = Finset.univ := View.set_whole _
  have h01 : iprop(slotPts0 d L f0 ∗ slotPts1 d L f1)
      = iprop(((bufW).view.loc (V d (cV L) (jV L)) ↦[((bufW).view.slice KIJoin.slotR0).set]{fullShare} f0)
        ∗ ((bufW).view.loc (V d (cV L) (jV L)) ↦[((bufW).view.slice KIJoin.slotR1).set]{fullShare} f1) : sProp 𝕄) := by
    rw [← e0, ← e1]
  refine (Entails.of_eq h01).trans (h.trans ?_)
  rw [hw]
  iintro H
  iexists _
  iexact H

/-- Reading the glued contents through a slot at (r, e) reads the r-th contents there. -/
theorem glue_slot0 (cs : Fin 64 → BufT (F := F) d L) (r e : Fin 64) :
    glue d L cs ((slotM0).view.emb (ix2 r e)) = cs r ((slotM0).view.emb (ix2 r e)) := by
  show cs (((slotM0).view.emb (ix2 r e)) 1) _ = _
  rw [slot0_emb_coord]
theorem glue_slot1 (cs : Fin 64 → BufT (F := F) d L) (r e : Fin 64) :
    glue d L cs ((slotM1).view.emb (ix2 r e)) = cs r ((slotM1).view.emb (ix2 r e)) := by
  show cs (((slotM1).view.emb (ix2 r e)) 1) _ = _
  rw [slot1_emb_coord]
/-- and a row's own whole write, read at the slot's (r, e), is the payload's entry e. -/
theorem row0_write (r e : Fin 64) (f : BufT (F := F) d L) (pay : S1x64.Idx → Elt F .f32) :
    ((rowM0 r).view.writes (Elt F) f [⟨Rect.whole S1x64, pay⟩]) ((slotM0).view.emb (ix2 r e)) = pay (ix2 (0 : Fin 1) e) := by
  have hidx : (slotM0).view.emb (ix2 r e) = ((rowM0 r).view.slice (Rect.whole S1x64)).emb (ix2 (0 : Fin 1) e) := by
    show (slotM0).view.emb (ix2 r e)
      = (slotM0).view.emb ((Rect.unit (s := S64x64) ![r.val, 0] S1x64.size (inb_row r)).emb ((Rect.whole S1x64).emb (ix2 (0 : Fin 1) e)))
    rw [Rect.emb_whole_apply]
    refine congrArg _ (funext fun a => Fin.ext ?_)
    match a with
    | ⟨0, _⟩ => show r.val = r.val + 1 * 0; omega
    | ⟨1, _⟩ => show e.val = 0 + 1 * e.val; omega
  rw [View.writes_singleton, hidx, View.write_emb_of_mem _ _ (Finset.mem_univ _)]
  rfl
theorem row1_write (r e : Fin 64) (f : BufT (F := F) d L) (pay : S1x64.Idx → Elt F .f32) :
    ((rowM1 r).view.writes (Elt F) f [⟨Rect.whole S1x64, pay⟩]) ((slotM1).view.emb (ix2 r e)) = pay (ix2 (0 : Fin 1) e) := by
  have hidx : (slotM1).view.emb (ix2 r e) = ((rowM1 r).view.slice (Rect.whole S1x64)).emb (ix2 (0 : Fin 1) e) := by
    show (slotM1).view.emb (ix2 r e)
      = (slotM1).view.emb ((Rect.unit (s := S64x64) ![r.val, 0] S1x64.size (inb_row r)).emb ((Rect.whole S1x64).emb (ix2 (0 : Fin 1) e)))
    rw [Rect.emb_whole_apply]
    refine congrArg _ (funext fun a => Fin.ext ?_)
    match a with
    | ⟨0, _⟩ => show r.val = r.val + 1 * 0; omega
    | ⟨1, _⟩ => show e.val = 0 + 1 * e.val; omega
  rw [View.writes_singleton, hidx, View.write_emb_of_mem _ _ (Finset.mem_univ _)]
  rfl

end Cert.Proof.KIRows

end
-- ==== Proof.KIInv.lean ====
/-
  What the kernel's three loops keep between trips, and the small facts their proofs share.
-/
import proofs.«206842_g87686052315543_cont_sun_m_497_29_alg».proof.Defs
import proofs.«206842_g87686052315543_cont_sun_m_497_29_alg».proof.Proof.KIRes
import proofs.«206842_g87686052315543_cont_sun_m_497_29_alg».proof.Proof.KIWin
import proofs.«206842_g87686052315543_cont_sun_m_497_29_alg».proof.Proof.KILand
import proofs.«206842_g87686052315543_cont_sun_m_497_29_alg».proof.Proof.KIRows
import proofs.«206842_g87686052315543_cont_sun_m_497_29_alg».proof.Proof.KIJoin
import Idealize.ShloMosaic.Lib.SparseCore.Launch
import Idealize.ShloMosaic.Lib.SparseCore.Ops
import Idealize.ShloMosaic.Lib.StableHlo.Run
import Idealize.ShloMosaic.Lib.Batch
import Idealize.ShloMosaic.Lib.Tactic
import Idealize.ShloMosaic.Lib.Pipeline.Kit
import proofs.«206842_g87686052315543_cont_sun_m_497_29_alg».proof.Proof.Gen.KernelIdeal

noncomputable section

namespace Cert.Proof.KIInv

open Cert.KernelIdeal Cert.KernelIdeal.Gen Cert.Proof.KIRes Cert.Proof.KIWin Cert.Proof.KILand Cert.Proof.KIRows Cert.Proof.KIJoin

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uidW" => (Memref.whole Cert.KernelIdeal.main_v0_scv : Memref Cert.KernelIdeal.sig Kind.scVector Space.hbm Cert.KernelIdeal.S128x128 EltTy.i32)
local notation "iidW" => (Memref.whole Cert.KernelIdeal.main_v1_scv : Memref Cert.KernelIdeal.sig Kind.scVector Space.hbm Cert.KernelIdeal.S128x128 EltTy.i32)
local notation "cidW" => (Memref.whole Cert.KernelIdeal.main_v2_scv : Memref Cert.KernelIdeal.sig Kind.scVector Space.hbm Cert.KernelIdeal.S128x128 EltTy.i32)
local notation "utW" => (Memref.whole Cert.KernelIdeal.main_arg3_scv : Memref Cert.KernelIdeal.sig Kind.scVector Space.hbm Cert.KernelIdeal.S1000000x64 EltTy.f32)
local notation "itW" => (Memref.whole Cert.KernelIdeal.main_arg4_scv : Memref Cert.KernelIdeal.sig Kind.scVector Space.hbm Cert.KernelIdeal.S1000000x64 EltTy.f32)
local notation "ctW" => (Memref.whole Cert.KernelIdeal.main_arg5_scv : Memref Cert.KernelIdeal.sig Kind.scVector Space.hbm Cert.KernelIdeal.S100000x64 EltTy.f32)
local notation "ouW" => (Memref.whole Cert.KernelIdeal.main_v3_0_scv : Memref Cert.KernelIdeal.sig Kind.scVector Space.hbm Cert.KernelIdeal.S16384x64 EltTy.f32)
local notation "oiW" => (Memref.whole Cert.KernelIdeal.main_v3_1_scv : Memref Cert.KernelIdeal.sig Kind.scVector Space.hbm Cert.KernelIdeal.S16384x64 EltTy.f32)
local notation "ocW" => (Memref.whole Cert.KernelIdeal.main_v3_2_scv : Memref Cert.KernelIdeal.sig Kind.scVector Space.hbm Cert.KernelIdeal.S16384x64 EltTy.f32)
local notation "l0W" => (Memref.whole Cert.KernelIdeal.cc0_scratch0 : Memref Cert.KernelIdeal.sig Kind.scVector Space.vmem Cert.KernelIdeal.S4x128 EltTy.i32)
local notation "l1W" => (Memref.whole Cert.KernelIdeal.cc0_scratch1 : Memref Cert.KernelIdeal.sig Kind.scVector Space.vmem Cert.KernelIdeal.S4x128 EltTy.i32)
local notation "l2W" => (Memref.whole Cert.KernelIdeal.cc0_scratch2 : Memref Cert.KernelIdeal.sig Kind.scVector Space.vmem Cert.KernelIdeal.S4x128 EltTy.i32)
local notation "bufW" => (Memref.whole Cert.KernelIdeal.cc0_scratch3 : Memref Cert.KernelIdeal.sig Kind.scVector Space.vmem Cert.KernelIdeal.S2x64x64 EltTy.f32)

variable [FloatOps F] (m : (ℓ : Loc nD τ sig) → Buf (Elt F) ℓ) (d : Dev nD) (L : grid0.Coords)

/-- a table row's placement is inside the table when its word names a row -/
theorem rowInb (Vn : ℕ) (v : BitVec 32) (h : v.toNat < Vn) :
    ∀ a, (![v.toNat, 0] : Fin 2 → Nat) a + S1x64.size a ≤ (⟨2, ![Vn, 64]⟩ : Shape).size a := by
  intro a
  match a with
  | ⟨0, _⟩ => show v.toNat + 1 ≤ Vn; omega
  | ⟨1, _⟩ => show 0 + 64 ≤ 64; omega

theorem rowInb2 (Vn : ℕ) (v : BitVec 32) (h : v.toNat < Vn) :
    (∀ a, (![v.toNat, 0] : Fin 2 → Nat) a + S1x64.size a ≤ (⟨2, ![Vn, 64]⟩ : Shape).size a)
    ∧ (∀ a, (![v.toNat, 0] : Fin 2 → Nat) a + S1x64.size a ≤ (⟨2, ![Vn, 64]⟩ : Shape).size a) :=
  ⟨rowInb Vn v h, rowInb Vn v h⟩

/-- the 128 read tokens a trip's 128 row copies read a table through (tokens 16 … 143 of the share) -/
def toks128 (ℓ : Loc nD τ sig) (q : PosShare TreeShare) (f : Buf (Elt F) ℓ) : sProp 𝕄 :=
  sepL ((List.range 128).map fun i => (ℓ ↦{Transfers.shareTokN q (16 + i)} f : sProp 𝕄))

omit [FloatOps F] in
/-- the tokens one by one -/
theorem toks128_unroll (ℓ : Loc nD τ sig) (q : PosShare TreeShare) (f : Buf (Elt F) ℓ) :
    toks128 ℓ q f = (iprop((ℓ ↦{Transfers.shareTokN q (16 + 0)} f) ∗ (ℓ ↦{Transfers.shareTokN q (16 + 1)} f) ∗ (ℓ ↦{Transfers.shareTokN q (16 + 2)} f) ∗ (ℓ ↦{Transfers.shareTokN q (16 + 3)} f) ∗ (ℓ ↦{Transfers.shareTokN q (16 + 4)} f) ∗ (ℓ ↦{Transfers.shareTokN q (16 + 5)} f) ∗ (ℓ ↦{Transfers.shareTokN q (16 + 6)} f) ∗ (ℓ ↦{Transfers.shareTokN q (16 + 7)} f) ∗ (ℓ ↦{Transfers.shareTokN q (16 + 8)} f) ∗ (ℓ ↦{Transfers.shareTokN q (16 + 9)} f) ∗ (ℓ ↦{Transfers.shareTokN q (16 + 10)} f) ∗ (ℓ ↦{Transfers.shareTokN q (16 + 11)} f) ∗ (ℓ ↦{Transfers.shareTokN q (16 + 12)} f) ∗ (ℓ ↦{Transfers.shareTokN q (16 + 13)} f) ∗ (ℓ ↦{Transfers.shareTokN q (16 + 14)} f) ∗ (ℓ ↦{Transfers.shareTokN q (16 + 15)} f) ∗ (ℓ ↦{Transfers.shareTokN q (16 + 16)} f) ∗ (ℓ ↦{Transfers.shareTokN q (16 + 17)} f) ∗ (ℓ ↦{Transfers.shareTokN q (16 + 18)} f) ∗ (ℓ ↦{Transfers.shareTokN q (16 + 19)} f) ∗ (ℓ ↦{Transfers.shareTokN q (16 + 20)} f) ∗ (ℓ ↦{Transfers.shareTokN q (16 + 21)} f) ∗ (ℓ ↦{Transfers.shareTokN q (16 + 22)} f) ∗ (ℓ ↦{Transfers.shareTokN q (16 + 23)} f) ∗ (ℓ ↦{Transfers.shareTokN q (16 + 24)} f) ∗ (ℓ ↦{Transfers.shareTokN q (16 + 25)} f) ∗ (ℓ ↦{Transfers.shareTokN q (16 + 26)} f) ∗ (ℓ ↦{Transfers.shareTokN q (16 + 27)} f) ∗ (ℓ ↦{Transfers.shareTokN q (16 + 28)} f) ∗ (ℓ ↦{Transfers.shareTokN q (16 + 29)} f) ∗ (ℓ ↦{Transfers.shareTokN q (16 + 30)} f) ∗ (ℓ ↦{Transfers.shareTokN q (16 + 31)} f) ∗ (ℓ ↦{Transfers.shareTokN q (16 + 32)} f) ∗ (ℓ ↦{Transfers.shareTokN q (16 + 33)} f) ∗ (ℓ ↦{Transfers.shareTokN q (16 + 34)} f) ∗ (ℓ ↦{Transfers.shareTokN q (16 + 35)} f) ∗ (ℓ ↦{Transfers.shareTokN q (16 + 36)} f) ∗ (ℓ ↦{Transfers.shareTokN q (16 + 37)} f) ∗ (ℓ ↦{Transfers.shareTokN q (16 + 38)} f) ∗ (ℓ ↦{Transfers.shareTokN q (16 + 39)} f) ∗ (ℓ ↦{Transfers.shareTokN q (16 + 40)} f) ∗ (ℓ ↦{Transfers.shareTokN q (16 + 41)} f) ∗ (ℓ ↦{Transfers.shareTokN q (16 + 42)} f) ∗ (ℓ ↦{Transfers.shareTokN q (16 + 43)} f) ∗ (ℓ ↦{Transfers.shareTokN q (16 + 44)} f) ∗ (ℓ ↦{Transfers.shareTokN q (16 + 45)} f) ∗ (ℓ ↦{Transfers.shareTokN q (16 + 46)} f) ∗ (ℓ ↦{Transfers.shareTokN q (16 + 47)} f) ∗ (ℓ ↦{Transfers.shareTokN q (16 + 48)} f) ∗ (ℓ ↦{Transfers.shareTokN q (16 + 49)} f) ∗ (ℓ ↦{Transfers.shareTokN q (16 + 50)} f) ∗ (ℓ ↦{Transfers.shareTokN q (16 + 51)} f) ∗ (ℓ ↦{Transfers.shareTokN q (16 + 52)} f) ∗ (ℓ ↦{Transfers.shareTokN q (16 + 53)} f) ∗ (ℓ ↦{Transfers.shareTokN q (16 + 54)} f) ∗ (ℓ ↦{Transfers.shareTokN q (16 + 55)} f) ∗ (ℓ ↦{Transfers.shareTokN q (16 + 56)} f) ∗ (ℓ ↦{Transfers.shareTokN q (16 + 57)} f) ∗ (ℓ ↦{Transfers.shareTokN q (16 + 58)} f) ∗ (ℓ ↦{Transfers.shareTokN q (16 + 59)} f) ∗ (ℓ ↦{Transfers.shareTokN q (16 + 60)} f) ∗ (ℓ ↦{Transfers.shareTokN q (16 + 61)} f) ∗ (ℓ ↦{Transfers.shareTokN q (16 + 62)} f) ∗ (ℓ ↦{Transfers.shareTokN q (16 + 63)} f) ∗ (ℓ ↦{Transfers.shareTokN q (16 + 64)} f) ∗ (ℓ ↦{Transfers.shareTokN q (16 + 65)} f) ∗ (ℓ ↦{Transfers.shareTokN q (16 + 66)} f) ∗ (ℓ ↦{Transfers.shareTokN q (16 + 67)} f) ∗ (ℓ ↦{Transfers.shareTokN q (16 + 68)} f) ∗ (ℓ ↦{Transfers.shareTokN q (16 + 69)} f) ∗ (ℓ ↦{Transfers.shareTokN q (16 + 70)} f) ∗ (ℓ ↦{Transfers.shareTokN q (16 + 71)} f) ∗ (ℓ ↦{Transfers.shareTokN q (16 + 72)} f) ∗ (ℓ ↦{Transfers.shareTokN q (16 + 73)} f) ∗ (ℓ ↦{Transfers.shareTokN q (16 + 74)} f) ∗ (ℓ ↦{Transfers.shareTokN q (16 + 75)} f) ∗ (ℓ ↦{Transfers.shareTokN q (16 + 76)} f) ∗ (ℓ ↦{Transfers.shareTokN q (16 + 77)} f) ∗ (ℓ ↦{Transfers.shareTokN q (16 + 78)} f) ∗ (ℓ ↦{Transfers.shareTokN q (16 + 79)} f) ∗ (ℓ ↦{Transfers.shareTokN q (16 + 80)} f) ∗ (ℓ ↦{Transfers.shareTokN q (16 + 81)} f) ∗ (ℓ ↦{Transfers.shareTokN q (16 + 82)} f) ∗ (ℓ ↦{Transfers.shareTokN q (16 + 83)} f) ∗ (ℓ ↦{Transfers.shareTokN q (16 + 84)} f) ∗ (ℓ ↦{Transfers.shareTokN q (16 + 85)} f) ∗ (ℓ ↦{Transfers.shareTokN q (16 + 86)} f) ∗ (ℓ ↦{Transfers.shareTokN q (16 + 87)} f) ∗ (ℓ ↦{Transfers.shareTokN q (16 + 88)} f) ∗ (ℓ ↦{Transfers.shareTokN q (16 + 89)} f) ∗ (ℓ ↦{Transfers.shareTokN q (16 + 90)} f) ∗ (ℓ ↦{Transfers.shareTokN q (16 + 91)} f) ∗ (ℓ ↦{Transfers.shareTokN q (16 + 92)} f) ∗ (ℓ ↦{Transfers.shareTokN q (16 + 93)} f) ∗ (ℓ ↦{Transfers.shareTokN q (16 + 94)} f) ∗ (ℓ ↦{Transfers.shareTokN q (16 + 95)} f) ∗ (ℓ ↦{Transfers.shareTokN q (16 + 96)} f) ∗ (ℓ ↦{Transfers.shareTokN q (16 + 97)} f) ∗ (ℓ ↦{Transfers.shareTokN q (16 + 98)} f) ∗ (ℓ ↦{Transfers.shareTokN q (16 + 99)} f) ∗ (ℓ ↦{Transfers.shareTokN q (16 + 100)} f) ∗ (ℓ ↦{Transfers.shareTokN q (16 + 101)} f) ∗ (ℓ ↦{Transfers.shareTokN q (16 + 102)} f) ∗ (ℓ ↦{Transfers.shareTokN q (16 + 103)} f) ∗ (ℓ ↦{Transfers.shareTokN q (16 + 104)} f) ∗ (ℓ ↦{Transfers.shareTokN q (16 + 105)} f) ∗ (ℓ ↦{Transfers.shareTokN q (16 + 106)} f) ∗ (ℓ ↦{Transfers.shareTokN q (16 + 107)} f) ∗ (ℓ ↦{Transfers.shareTokN q (16 + 108)} f) ∗ (ℓ ↦{Transfers.shareTokN q (16 + 109)} f) ∗ (ℓ ↦{Transfers.shareTokN q (16 + 110)} f) ∗ (ℓ ↦{Transfers.shareTokN q (16 + 111)} f) ∗ (ℓ ↦{Transfers.shareTokN q (16 + 112)} f) ∗ (ℓ ↦{Transfers.shareTokN q (16 + 113)} f) ∗ (ℓ ↦{Transfers.shareTokN q (16 + 114)} f) ∗ (ℓ ↦{Transfers.shareTokN q (16 + 115)} f) ∗ (ℓ ↦{Transfers.shareTokN q (16 + 116)} f) ∗ (ℓ ↦{Transfers.shareTokN q (16 + 117)} f) ∗ (ℓ ↦{Transfers.shareTokN q (16 + 118)} f) ∗ (ℓ ↦{Transfers.shareTokN q (16 + 119)} f) ∗ (ℓ ↦{Transfers.shareTokN q (16 + 120)} f) ∗ (ℓ ↦{Transfers.shareTokN q (16 + 121)} f) ∗ (ℓ ↦{Transfers.shareTokN q (16 + 122)} f) ∗ (ℓ ↦{Transfers.shareTokN q (16 + 123)} f) ∗ (ℓ ↦{Transfers.shareTokN q (16 + 124)} f) ∗ (ℓ ↦{Transfers.shareTokN q (16 + 125)} f) ∗ (ℓ ↦{Transfers.shareTokN q (16 + 126)} f) ∗ (ℓ ↦{Transfers.shareTokN q (16 + 127)} f) ∗ emp) : sProp 𝕄) := rfl

/-- what is left of a table's share beside the 128 tokens -/
def tokRest (ℓ : Loc nD τ sig) (q : PosShare TreeShare) (f : Buf (Elt F) ℓ) : sProp 𝕄 :=
  iprop((ℓ ↦{Transfers.shareDrop q 144} f) ∗ bigSep (Finset.range 16) (fun i => ℓ ↦{Transfers.shareTokN q i} f))

omit [FloatOps F] in
theorem toks_split' (ℓ : Loc nD τ sig) (q : PosShare TreeShare) (f : Buf (Elt F) ℓ) :
    (ℓ ↦{q} f : sProp 𝕄) ⊣⊢ iprop(tokRest ℓ q f ∗ toks128 ℓ q f) := toks_split ℓ q f

/-- What loop 1 keeps between trips: its index words landed, its table's read tokens, the staging slots,
    the ten semaphores at zero, its result's windows (those of the trips done at the lookup). -/
def inv1 (O : CellTallies nD τ sig (HIx 1)) (W : Waits sig (HIx 1)) (k : ℕ) (_ : PUnit) : sProp 𝕄 :=
  iprop(Transfers.MayWaits (V d (cV L) (jV L)) (none : HIx 1) O
    ∗ ((l0W).view.loc (V d (cV L) (jV L)) ↦{fullShare} lands0 m d L)
    ∗ toks128 ((utW).view.loc (V d (cV L) (jV L))) (Transfers.shareTok fullShare 32 (wid L)) (m (t3Loc d))
    ∗ (∃ f0, slotPts0 d L f0) ∗ (∃ f1, slotPts1 d L f1)
    ∗ semVal (V d (cV L) (jV L), SemLoc.dma cc0_scratch4.sem) 0
    ∗ semVal (V d (cV L) (jV L), SemLoc.dma cc0_scratch5.sem) 0
    ∗ semVal (V d (cV L) (jV L), SemLoc.dma cc0_scratch6.sem) 0
    ∗ semVal (V d (cV L) (jV L), SemLoc.dma cc0_scratch7.sem) 0
    ∗ semVal (V d (cV L) (jV L), SemLoc.dma cc0_scratch8.sem) 0
    ∗ semVal (V d (cV L) (jV L), SemLoc.dma cc0_scratch9.sem) 0
    ∗ semVal (V d (cV L) (jV L), SemLoc.dma cc0_scratch10.sem) 0
    ∗ semVal (V d (cV L) (jV L), SemLoc.dma cc0_scratch11.sem) 0
    ∗ semVal (V d (cV L) (jV L), SemLoc.dma cc0_scratch12.sem) 0
    ∗ semVal (V d (cV L) (jV L), SemLoc.dma cc0_scratch13.sem) 0
    ∗ outInv0 m d (wid L) k
    ∗ ∃ W', ⌜∀ p ∈ W', p ∈ W ∨ p.2 = none⌝ ∗ owes (V d (cV L) (jV L)) O W')

/-- What loop 2 keeps between trips: its index words landed, its table's read tokens, the staging slots,
    the ten semaphores at zero, its result's windows (those of the trips done at the lookup). -/
def inv2 (O : CellTallies nD τ sig (HIx 1)) (W : Waits sig (HIx 1)) (k : ℕ) (_ : PUnit) : sProp 𝕄 :=
  iprop(Transfers.MayWaits (V d (cV L) (jV L)) (none : HIx 1) O
    ∗ ((l1W).view.loc (V d (cV L) (jV L)) ↦{fullShare} lands1 m d L)
    ∗ toks128 ((itW).view.loc (V d (cV L) (jV L))) (Transfers.shareTok fullShare 32 (wid L)) (m (t4Loc d))
    ∗ (∃ f0, slotPts0 d L f0) ∗ (∃ f1, slotPts1 d L f1)
    ∗ semVal (V d (cV L) (jV L), SemLoc.dma cc0_scratch4.sem) 0
    ∗ semVal (V d (cV L) (jV L), SemLoc.dma cc0_scratch5.sem) 0
    ∗ semVal (V d (cV L) (jV L), SemLoc.dma cc0_scratch6.sem) 0
    ∗ semVal (V d (cV L) (jV L), SemLoc.dma cc0_scratch7.sem) 0
    ∗ semVal (V d (cV L) (jV L), SemLoc.dma cc0_scratch8.sem) 0
    ∗ semVal (V d (cV L) (jV L), SemLoc.dma cc0_scratch9.sem) 0
    ∗ semVal (V d (cV L) (jV L), SemLoc.dma cc0_scratch10.sem) 0
    ∗ semVal (V d (cV L) (jV L), SemLoc.dma cc0_scratch11.sem) 0
    ∗ semVal (V d (cV L) (jV L), SemLoc.dma cc0_scratch12.sem) 0
    ∗ semVal (V d (cV L) (jV L), SemLoc.dma cc0_scratch13.sem) 0
    ∗ outInv1 m d (wid L) k
    ∗ ∃ W', ⌜∀ p ∈ W', p ∈ W ∨ p.2 = none⌝ ∗ owes (V d (cV L) (jV L)) O W')

/-- What loop 3 keeps between trips: its index words landed, its table's read tokens, the staging slots,
    the ten semaphores at zero, its result's windows (those of the trips done at the lookup). -/
def inv3 (O : CellTallies nD τ sig (HIx 1)) (W : Waits sig (HIx 1)) (k : ℕ) (_ : PUnit) : sProp 𝕄 :=
  iprop(Transfers.MayWaits (V d (cV L) (jV L)) (none : HIx 1) O
    ∗ ((l2W).view.loc (V d (cV L) (jV L)) ↦{fullShare} lands2 m d L)
    ∗ toks128 ((ctW).view.loc (V d (cV L) (jV L))) (Transfers.shareTok fullShare 32 (wid L)) (m (t5Loc d))
    ∗ (∃ f0, slotPts0 d L f0) ∗ (∃ f1, slotPts1 d L f1)
    ∗ semVal (V d (cV L) (jV L), SemLoc.dma cc0_scratch4.sem) 0
    ∗ semVal (V d (cV L) (jV L), SemLoc.dma cc0_scratch5.sem) 0
    ∗ semVal (V d (cV L) (jV L), SemLoc.dma cc0_scratch6.sem) 0
    ∗ semVal (V d (cV L) (jV L), SemLoc.dma cc0_scratch7.sem) 0
    ∗ semVal (V d (cV L) (jV L), SemLoc.dma cc0_scratch8.sem) 0
    ∗ semVal (V d (cV L) (jV L), SemLoc.dma cc0_scratch9.sem) 0
    ∗ semVal (V d (cV L) (jV L), SemLoc.dma cc0_scratch10.sem) 0
    ∗ semVal (V d (cV L) (jV L), SemLoc.dma cc0_scratch11.sem) 0
    ∗ semVal (V d (cV L) (jV L), SemLoc.dma cc0_scratch12.sem) 0
    ∗ semVal (V d (cV L) (jV L), SemLoc.dma cc0_scratch13.sem) 0
    ∗ outInv2 m d (wid L) k
    ∗ ∃ W', ⌜∀ p ∈ W', p ∈ W ∨ p.2 = none⌝ ∗ owes (V d (cV L) (jV L)) O W')

omit [FloatOps F] in
theorem pts_l0 (f : Buf (Elt F) ((V d (cV L) (jV L)).loc cc0_scratch0)) :
    ((l0W).view.loc (V d (cV L) (jV L)) ↦{fullShare} f : sProp 𝕄) = (V d (cV L) (jV L)).loc cc0_scratch0 ↦{fullShare} f := rfl
omit [FloatOps F] in
theorem pts_l1 (f : Buf (Elt F) ((V d (cV L) (jV L)).loc cc0_scratch1)) :
    ((l1W).view.loc (V d (cV L) (jV L)) ↦{fullShare} f : sProp 𝕄) = (V d (cV L) (jV L)).loc cc0_scratch1 ↦{fullShare} f := rfl
omit [FloatOps F] in
theorem pts_l2 (f : Buf (Elt F) ((V d (cV L) (jV L)).loc cc0_scratch2)) :
    ((l2W).view.loc (V d (cV L) (jV L)) ↦{fullShare} f : sProp 𝕄) = (V d (cV L) (jV L)).loc cc0_scratch2 ↦{fullShare} f := rfl
omit [FloatOps F] in
theorem pts_buf (f : Buf (Elt F) ((V d (cV L) (jV L)).loc cc0_scratch3)) :
    ((bufW).view.loc (V d (cV L) (jV L)) ↦{fullShare} f : sProp 𝕄) = (V d (cV L) (jV L)).loc cc0_scratch3 ↦{fullShare} f := rfl

omit [FloatOps F] in
/-- a buffer held at contents equal to g is held at g -/
theorem pts_of_eq {ℓ : Loc nD τ sig} {q : PosShare TreeShare} (g : Buf (Elt F) ℓ) :
    (iprop(∃ f, ⌜f = g⌝ ∗ ℓ ↦{q} f) : sProp 𝕄) ⊢ ℓ ↦{q} g := by
  iintro ⟨%f, %h, H⟩
  subst h
  iexact H

/-- a recorded wait at index none keeps the waits within what the obligation allows -/
theorem waits_insert {W X : Waits sig (HIx 1)} (s : SemLoc sig) (h : ∀ p ∈ X, p ∈ W ∨ p.2 = none) :
    ∀ p ∈ insert (s, (default : HIx 1)) X, p ∈ W ∨ p.2 = none := by
  intro p hp
  rcases Finset.mem_insert.mp hp with rfl | hp
  · exact .inr rfl
  · exact h p hp

end Cert.Proof.KIInv

end
-- ==== Proof.KIOwn.lean ====
/-
  A vector subcore's own scoped storage, opened into the pieces the kernel names.
  On a vector subcore every one of the thirteen DMA semaphores is scoped and no regular semaphore is, so the thread's own
  cells are exactly the cells of the ten scratch semaphore arrays and the three region-allocated ones; its own buffers
  hold the four vector-memory scratch buffers. A `bigSep` over a set that holds a duplicate-free list of indices is the
  list's terms, in order, beside the `bigSep` over the set with the list erased (`bigSep_peel`, by induction on the
  list); the two equations are that lemma at the thirteen cells and at the four buffers.
-/
import proofs.«206842_g87686052315543_cont_sun_m_497_29_alg».proof.Proof.KIRes
import proofs.«206842_g87686052315543_cont_sun_m_497_29_alg».proof.Proof.Gen.KernelIdeal

noncomputable section

namespace Cert.Proof.KIOwn

open Cert.KernelIdeal Cert.KernelIdeal.Gen Cert.Proof.KIRes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Peeling a list of indices off a `bigSep` -/

section Peel

variable {M : Type} [URA M] {I : Type} [DecidableEq I]

/-- What is left of a set once a list's indices are erased one after another: the set's members not in the list. -/
theorem mem_foldl_erase : ∀ (l : List I) (s : Finset I) (i : I), i ∈ l.foldl Finset.erase s ↔ i ∈ s ∧ i ∉ l
  | [], s, i => by simp
  | a :: l, s, i => by
    rw [List.foldl_cons, mem_foldl_erase l (s.erase a) i, Finset.mem_erase, List.mem_cons, not_or]
    tauto

/-- A set that holds every index of a duplicate-free list: the `bigSep` over it is the list's terms, in the list's
    order, beside the `bigSep` over the set with the list's indices erased in that order. -/
theorem bigSep_peel (Φ : I → sProp M) : ∀ (l : List I) (s : Finset I), l.Nodup → (∀ i ∈ l, i ∈ s) →
    bigSep s Φ = l.foldr (fun i P => iprop(Φ i ∗ P)) (bigSep (l.foldl Finset.erase s) Φ)
  | [], s, _, _ => rfl
  | a :: l, s, hn, hm => by
    have hn' := List.nodup_cons.mp hn
    have ih := bigSep_peel Φ l (s.erase a) hn'.2 fun i hi =>
      Finset.mem_erase.mpr ⟨fun e => hn'.1 (e ▸ hi), hm i (List.mem_cons_of_mem _ hi)⟩
    show bigSep s Φ = iprop(Φ a ∗ l.foldr (fun i P => iprop(Φ i ∗ P)) (bigSep (l.foldl Finset.erase (s.erase a)) Φ))
    rw [← ih]
    exact SparseCore.bigSep_erase' (hm a List.mem_cons_self)

end Peel

variable (d : Dev nD) (L : grid0.Coords)

/-! ## The thirteen cells -/

/-- The DMA semaphores the kernel names, in the order it takes them: the ten scratch arrays', then the three
    region-allocated ones. -/
abbrev sems13 : List (DmaSem sig) :=
  [cc0_scratch4.sem, cc0_scratch5.sem, cc0_scratch6.sem, cc0_scratch7.sem, cc0_scratch8.sem,
   cc0_scratch9.sem, cc0_scratch10.sem, cc0_scratch11.sem, cc0_scratch12.sem, cc0_scratch13.sem,
   cc0_scoped0.sem, cc0_scoped1.sem, cc0_scoped2.sem]

theorem sems13_nodup : sems13.Nodup := by decide
/-- They are all of the pool, -/
theorem mem_sems13 : ∀ a : DmaSem sig, a ∈ sems13 := by decide
/-- each is scoped on a vector subcore, -/
theorem dma_scoped : ∀ a : DmaSem sig, (SemLoc.dma a : SemLoc sig).isScoped .scVector = true := by decide
/-- and no regular semaphore is. -/
theorem reg_not_scoped : ∀ s : Sem sig, (SemLoc.reg s : SemLoc sig).isScoped .scVector = false := by decide

/-- Their cells on the tile's thread. -/
abbrev cellsV : List (GSem nD τ sig) := sems13.map fun a => (V d (cV L) (jV L), SemLoc.dma a)

theorem cellsV_nodup : (cellsV d L).Nodup :=
  sems13_nodup.map fun _ _ e => SemLoc.dma.inj (Prod.mk.inj e).2

theorem cellsV_own : ∀ g ∈ cellsV d L, g ∈ ownCells (V d (cV L) (jV L)) := by
  intro g hg
  obtain ⟨a, _, rfl⟩ := List.mem_map.mp hg
  exact mem_ownCells.mpr ⟨rfl, dma_scoped a⟩

/-- Every own cell of the thread is one of the thirteen. -/
theorem own_cellsV : ∀ g ∈ ownCells (V d (cV L) (jV L)), g ∈ cellsV d L := by
  rintro ⟨thr, sm⟩ hg
  obtain ⟨h1, h2⟩ := mem_ownCells.mp hg
  obtain rfl : thr = V d (cV L) (jV L) := h1
  cases sm with
  | reg s => exact absurd ((reg_not_scoped s).symm.trans h2) (by decide)
  | dma a => exact List.mem_map.mpr ⟨a, mem_sems13 a, rfl⟩

/-- The thread's own cells at zero are the thirteen named cells at zero and the rest. -/
theorem ownSems0_V :
    (ownSems0 (V d (cV L) (jV L)) : sProp 𝕄)
      = iprop(semVal (V d (cV L) (jV L), SemLoc.dma cc0_scratch4.sem) 0 ∗ semVal (V d (cV L) (jV L), SemLoc.dma cc0_scratch5.sem) 0 ∗ semVal (V d (cV L) (jV L), SemLoc.dma cc0_scratch6.sem) 0
          ∗ semVal (V d (cV L) (jV L), SemLoc.dma cc0_scratch7.sem) 0 ∗ semVal (V d (cV L) (jV L), SemLoc.dma cc0_scratch8.sem) 0 ∗ semVal (V d (cV L) (jV L), SemLoc.dma cc0_scratch9.sem) 0
          ∗ semVal (V d (cV L) (jV L), SemLoc.dma cc0_scratch10.sem) 0 ∗ semVal (V d (cV L) (jV L), SemLoc.dma cc0_scratch11.sem) 0 ∗ semVal (V d (cV L) (jV L), SemLoc.dma cc0_scratch12.sem) 0
          ∗ semVal (V d (cV L) (jV L), SemLoc.dma cc0_scratch13.sem) 0 ∗ semVal (V d (cV L) (jV L), SemLoc.dma cc0_scoped0.sem) 0 ∗ semVal (V d (cV L) (jV L), SemLoc.dma cc0_scoped1.sem) 0
          ∗ semVal (V d (cV L) (jV L), SemLoc.dma cc0_scoped2.sem) 0
          ∗ bigSep ((((((((((((((ownCells (V d (cV L) (jV L))).erase (V d (cV L) (jV L), SemLoc.dma cc0_scratch4.sem)).erase (V d (cV L) (jV L), SemLoc.dma cc0_scratch5.sem)).erase (V d (cV L) (jV L), SemLoc.dma cc0_scratch6.sem)).erase (V d (cV L) (jV L), SemLoc.dma cc0_scratch7.sem)).erase (V d (cV L) (jV L), SemLoc.dma cc0_scratch8.sem)).erase (V d (cV L) (jV L), SemLoc.dma cc0_scratch9.sem)).erase (V d (cV L) (jV L), SemLoc.dma cc0_scratch10.sem)).erase (V d (cV L) (jV L), SemLoc.dma cc0_scratch11.sem)).erase (V d (cV L) (jV L), SemLoc.dma cc0_scratch12.sem)).erase (V d (cV L) (jV L), SemLoc.dma cc0_scratch13.sem)).erase (V d (cV L) (jV L), SemLoc.dma cc0_scoped0.sem)).erase (V d (cV L) (jV L), SemLoc.dma cc0_scoped1.sem)).erase (V d (cV L) (jV L), SemLoc.dma cc0_scoped2.sem))
              fun g => semVal g 0) := by
  have h := bigSep_peel (M := 𝕄) (fun g => semVal g 0) (cellsV d L) (ownCells (V d (cV L) (jV L))) (cellsV_nodup d L) (cellsV_own d L)
  simp only [cellsV, sems13, List.map_cons, List.map_nil, List.foldr_cons, List.foldr_nil, List.foldl_cons, List.foldl_nil] at h
  exact h

/-- There is no rest: the thirteen are all of the thread's own cells. -/
theorem ownCells_rest_empty :
    (((((((((((((ownCells (V d (cV L) (jV L))).erase (V d (cV L) (jV L), SemLoc.dma cc0_scratch4.sem)).erase (V d (cV L) (jV L), SemLoc.dma cc0_scratch5.sem)).erase (V d (cV L) (jV L), SemLoc.dma cc0_scratch6.sem)).erase (V d (cV L) (jV L), SemLoc.dma cc0_scratch7.sem)).erase (V d (cV L) (jV L), SemLoc.dma cc0_scratch8.sem)).erase (V d (cV L) (jV L), SemLoc.dma cc0_scratch9.sem)).erase (V d (cV L) (jV L), SemLoc.dma cc0_scratch10.sem)).erase (V d (cV L) (jV L), SemLoc.dma cc0_scratch11.sem)).erase (V d (cV L) (jV L), SemLoc.dma cc0_scratch12.sem)).erase (V d (cV L) (jV L), SemLoc.dma cc0_scratch13.sem)).erase (V d (cV L) (jV L), SemLoc.dma cc0_scoped0.sem)).erase (V d (cV L) (jV L), SemLoc.dma cc0_scoped1.sem)).erase (V d (cV L) (jV L), SemLoc.dma cc0_scoped2.sem)
      = (∅ : Finset (GSem nD τ sig)) := by
  refine Finset.eq_empty_of_forall_notMem fun g hg => ?_
  obtain ⟨ho, hn⟩ := (mem_foldl_erase (cellsV d L) (ownCells (V d (cV L) (jV L))) g).mp hg
  exact hn (own_cellsV d L g ho)

/-! ## The four scratch buffers -/

/-- The vector-memory scratch buffers the kernel names. -/
abbrev bufs4 : List (Ref sig .scVector) := [cc0_scratch0, cc0_scratch1, cc0_scratch2, cc0_scratch3]

theorem bufs4_nodup : bufs4.Nodup := by decide

/-- As buffers of the device, on the tile's vector subcore. -/
abbrev refsV : List (DevRef τ sig) := bufs4.map (Proc.scVector (cV L) (jV L)).devRef

theorem refsV_nodup : (refsV L).Nodup := bufs4_nodup.map (Proc.devRef_injective _)

theorem refsV_own : ∀ b ∈ refsV L, b ∈ ownRefs (τ := τ) (.scVector (cV L) (jV L)) := by
  intro b hb
  simp only [refsV, bufs4, List.map_cons, List.map_nil, List.mem_cons, List.not_mem_nil, or_false] at hb
  rcases hb with rfl | rfl | rfl | rfl <;> exact SparseCore.Cfg.mem_ownRefs_of_owner rfl

/-- The thread's own buffers, each whole at some contents, are the four scratch buffers and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  have h := bigSep_peel (M := 𝕄) (fun b => iprop(∃ f, ((d, b) : Loc nD τ sig) ↦{fullShare} f)) (refsV L)
    (ownRefs (τ := τ) (.scVector (cV L) (jV L))) (refsV_nodup L) (refsV_own L)
  simp only [refsV, bufs4, List.map_cons, List.map_nil, List.foldr_cons, List.foldr_nil, List.foldl_cons, List.foldl_nil] at h
  exact h

end Cert.Proof.KIOwn

end
-- ==== Proof.KIVal.lean ====
/-
  Reading at an index: the pure facts that turn what the copies left into the lookup.

  A lane of sixteen index words loaded from a landing buffer at (row, column) is the buffer's word at (row, column + lane).
  A table row read at row v has entry e at (v, e).  A result window written whole from rows so read holds the lookup.
-/
import proofs.«206842_g87686052315543_cont_sun_m_497_29_alg».proof.Proof.KIRes
import proofs.«206842_g87686052315543_cont_sun_m_497_29_alg».proof.Proof.KIWin
import proofs.«206842_g87686052315543_cont_sun_m_497_29_alg».proof.Proof.KILand
import proofs.«206842_g87686052315543_cont_sun_m_497_29_alg».proof.Proof.KIRows
import proofs.«206842_g87686052315543_cont_sun_m_497_29_alg».proof.Proof.Gen.KernelIdeal
import Idealize.ShloMosaic.Lib.ValueIdx
import Idealize.ShloMosaic.Lib.Pipeline.Value
import Idealize.ShloMosaic.Lib.Writes

noncomputable section

namespace Cert.Proof.KIVal

open Cert.KernelIdeal Cert.KernelIdeal.Gen Cert.Proof.KIRes
open Idealize.ShloMosaic Idealize.ShloMosaic.ValueIdx
open Idealize.ShloMosaic.SparseCore (S V T)
open Cert.Proof.KIWin Cert.Proof.KILand Cert.Proof.KIRows
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} (m : (ℓ : Loc nD τ sig) → Buf (Elt F) ℓ) (d : Dev nD) (L : grid0.Coords)

local notation "𝕄" => MT nD τ sig (HIx 1) (Elt F) ℕ UU ℕ
local notation "l0W" => (Memref.whole Cert.KernelIdeal.cc0_scratch0 : Memref Cert.KernelIdeal.sig Kind.scVector Space.vmem Cert.KernelIdeal.S4x128 EltTy.i32)
local notation "l1W" => (Memref.whole Cert.KernelIdeal.cc0_scratch1 : Memref Cert.KernelIdeal.sig Kind.scVector Space.vmem Cert.KernelIdeal.S4x128 EltTy.i32)
local notation "l2W" => (Memref.whole Cert.KernelIdeal.cc0_scratch2 : Memref Cert.KernelIdeal.sig Kind.scVector Space.vmem Cert.KernelIdeal.S4x128 EltTy.i32)
local notation "utW" => (Memref.whole Cert.KernelIdeal.main_arg3_scv : Memref Cert.KernelIdeal.sig Kind.scVector Space.hbm Cert.KernelIdeal.S1000000x64 EltTy.f32)
local notation "itW" => (Memref.whole Cert.KernelIdeal.main_arg4_scv : Memref Cert.KernelIdeal.sig Kind.scVector Space.hbm Cert.KernelIdeal.S1000000x64 EltTy.f32)
local notation "ctW" => (Memref.whole Cert.KernelIdeal.main_arg5_scv : Memref Cert.KernelIdeal.sig Kind.scVector Space.hbm Cert.KernelIdeal.S100000x64 EltTy.f32)

/-! ## One lane of a loaded index vector -/

/-- The block of sixteen words a load takes at (off 0, off 1) lies inside the [4, 128] buffer, and lane u inside the block. -/
theorem lane_row_lt {off : Fin 2 → ℕ} (h : ∀ a, off a + S1x16.size a ≤ S4x128.size a) : off 0 < 4 := by
  have h0 : off 0 + 1 ≤ 4 := h 0
  omega
theorem lane_lt {u : ℕ} (hs : S16.Slices ![u] S1) : u < 16 := by
  have h0 : u + 1 ≤ 16 := hs.2 0
  omega
theorem lane_col_lt {off : Fin 2 → ℕ} (h : ∀ a, off a + S1x16.size a ≤ S4x128.size a) {u : ℕ} (hs : S16.Slices ![u] S1) :
    off 1 + u < 128 := by
  have h1 : off 1 + 16 ≤ 128 := h 1
  have := lane_lt hs
  omega

/-- Through any view of shape [4, 128]: lane u of the sixteen words loaded at (off 0, off 1), flattened, is what the view reads
    at (off 0, off 1 + u). -/
theorem lane_read_view {κ : Kind} {sp : Space} (v : View sig κ sp S4x128 .i32) (fl : v.ty.Contents (Elt F)) (off : Fin 2 → ℕ)
    (h : ∀ a, off a + S1x16.size a ≤ S4x128.size a) (u : ℕ) (hs : S16.Slices ![u] S1) :
    extractAt ![0] (extractStridedSlice S1 ![u]
        (shapeCast S16 (v.readAt (Elt F) (Rect.unit (s := S4x128) off S1x16.size h).toLoadRect fl) shapeCasts_S1x16_S16) hs) inpos_S1_p0
      = v.read (Elt F) fl (ix2 (⟨off 0, lane_row_lt h⟩ : Fin 4) (⟨off 1 + u, lane_col_lt h hs⟩ : Fin 128)) := by
  have hu := lane_lt hs
  unfold extractAt
  refine (extractStridedSlice_apply ![u] _ hs _ (ix1 (⟨u, hu⟩ : Fin 16)) fun a => ?_).trans ?_
  · match a with
    | ⟨0, _⟩ => rfl
  refine (shapeCast_apply _ shapeCasts_S1x16_S16 _ (ix2 (0 : Fin 1) (⟨u, hu⟩ : Fin 16)) ?_).trans ?_
  · rw [Shape.rowMajor_val_two, Shape.rowMajor_val_one]
    show 0 * 16 + u = u
    omega
  rw [View.readAt_apply]
  refine congrArg (v.read (Elt F) fl) (funext fun a => Fin.ext ?_)
  match a with
  | ⟨0, _⟩ => show off 0 + 1 * 0 = off 0; omega
  | ⟨1, _⟩ => show off 1 + 1 * u = off 1 + u; omega

/-- The same through each landing buffer, whole: the buffer's own word at (off 0, off 1 + u). -/
theorem lane_read0 (fl : Buf (Elt F) ((l0W).view.loc (V d (cV L) (jV L)))) (off : Fin 2 → ℕ)
    (h : ∀ a, off a + S1x16.size a ≤ S4x128.size a) (u : ℕ) (hs : S16.Slices ![u] S1) :
    extractAt ![0] (extractStridedSlice S1 ![u]
        (shapeCast S16 ((l0W).view.readAt (Elt F) (Rect.unit (s := S4x128) off S1x16.size h).toLoadRect fl) shapeCasts_S1x16_S16) hs) inpos_S1_p0
      = fl (ix2 (⟨off 0, lane_row_lt h⟩ : Fin 4) (⟨off 1 + u, lane_col_lt h hs⟩ : Fin 128)) :=
  lane_read_view (l0W).view fl off h u hs
theorem lane_read1 (fl : Buf (Elt F) ((l1W).view.loc (V d (cV L) (jV L)))) (off : Fin 2 → ℕ)
    (h : ∀ a, off a + S1x16.size a ≤ S4x128.size a) (u : ℕ) (hs : S16.Slices ![u] S1) :
    extractAt ![0] (extractStridedSlice S1 ![u]
        (shapeCast S16 ((l1W).view.readAt (Elt F) (Rect.unit (s := S4x128) off S1x16.size h).toLoadRect fl) shapeCasts_S1x16_S16) hs) inpos_S1_p0
      = fl (ix2 (⟨off 0, lane_row_lt h⟩ : Fin 4) (⟨off 1 + u, lane_col_lt h hs⟩ : Fin 128)) :=
  lane_read_view (l1W).view fl off h u hs
theorem lane_read2 (fl : Buf (Elt F) ((l2W).view.loc (V d (cV L) (jV L)))) (off : Fin 2 → ℕ)
    (h : ∀ a, off a + S1x16.size a ≤ S4x128.size a) (u : ℕ) (hs : S16.Slices ![u] S1) :
    extractAt ![0] (extractStridedSlice S1 ![u]
        (shapeCast S16 ((l2W).view.readAt (Elt F) (Rect.unit (s := S4x128) off S1x16.size h).toLoadRect fl) shapeCasts_S1x16_S16) hs) inpos_S1_p0
      = fl (ix2 (⟨off 0, lane_row_lt h⟩ : Fin 4) (⟨off 1 + u, lane_col_lt h hs⟩ : Fin 128)) :=
  lane_read_view (l2W).view fl off h u hs

/-! ## The lanes of the index loads, by loop trip and group

In trip k the load of group g reads at (k, 16 g), so its lane u is the landing buffer's word (k, 16 g + u). -/

theorem lane_g_lt {g : ℕ} (hg : g < 8) {u : ℕ} (hs : S16.Slices ![u] S1) : 16 * g + u < 128 := by
  have := lane_lt hs
  omega

/-- A load at the offsets (kk, c), lane u: the view's word at (kk, c + u). -/
theorem lane_at_view {κ : Kind} {sp : Space} (v : View sig κ sp S4x128 .i32) (fl : v.ty.Contents (Elt F)) (off : Fin 2 → ℕ)
    (h : ∀ a, off a + S1x16.size a ≤ S4x128.size a) (u : ℕ) (hs : S16.Slices ![u] S1) (kk : Fin 4) (c : ℕ) (hc : c + u < 128)
    (e : off = ![kk.val, c]) :
    extractAt ![0] (extractStridedSlice S1 ![u]
        (shapeCast S16 (v.readAt (Elt F) (Rect.unit (s := S4x128) off S1x16.size h).toLoadRect fl) shapeCasts_S1x16_S16) hs) inpos_S1_p0
      = v.read (Elt F) fl (ix2 kk (⟨c + u, hc⟩ : Fin 128)) := by
  subst e
  exact lane_read_view v fl _ h u hs

/-- the first lookup's loop, groups 0 … 7 -/
theorem lane1_0 (k : Fin k0_t1_loop.trips) (fl : Buf (Elt F) ((l0W).view.loc (V d (cV L) (jV L)))) (u : ℕ) (hs : S16.Slices ![u] S1) :
    extractAt ![0] (extractStridedSlice S1 ![u]
        (shapeCast S16 ((l0W).view.readAt (Elt F) (Rect.unit (s := S4x128) (k0_off2 k) S1x16.size (k0_off2_inb k)).toLoadRect fl) shapeCasts_S1x16_S16) hs) inpos_S1_p0
      = fl (ix2 (Fin.cast trips1 k) (⟨16 * 0 + u, lane_g_lt (by decide) hs⟩ : Fin 128)) :=
  lane_at_view (l0W).view fl _ _ u hs (Fin.cast trips1 k) 0 (lane_g_lt (g := 0) (by decide) hs) (k0_off2_eq k)
theorem lane1_1 (k : Fin k0_t1_loop.trips) (fl : Buf (Elt F) ((l0W).view.loc (V d (cV L) (jV L)))) (u : ℕ) (hs : S16.Slices ![u] S1) :
    extractAt ![0] (extractStridedSlice S1 ![u]
        (shapeCast S16 ((l0W).view.readAt (Elt F) (Rect.unit (s := S4x128) (k0_off19 k) S1x16.size (k0_off19_inb k)).toLoadRect fl) shapeCasts_S1x16_S16) hs) inpos_S1_p0
      = fl (ix2 (Fin.cast trips1 k) (⟨16 * 1 + u, lane_g_lt (by decide) hs⟩ : Fin 128)) :=
  lane_at_view (l0W).view fl _ _ u hs (Fin.cast trips1 k) 16 (lane_g_lt (g := 1) (by decide) hs) (k0_off19_eq k)
theorem lane1_2 (k : Fin k0_t1_loop.trips) (fl : Buf (Elt F) ((l0W).view.loc (V d (cV L) (jV L)))) (u : ℕ) (hs : S16.Slices ![u] S1) :
    extractAt ![0] (extractStridedSlice S1 ![u]
        (shapeCast S16 ((l0W).view.readAt (Elt F) (Rect.unit (s := S4x128) (k0_off36 k) S1x16.size (k0_off36_inb k)).toLoadRect fl) shapeCasts_S1x16_S16) hs) inpos_S1_p0
      = fl (ix2 (Fin.cast trips1 k) (⟨16 * 2 + u, lane_g_lt (by decide) hs⟩ : Fin 128)) :=
  lane_at_view (l0W).view fl _ _ u hs (Fin.cast trips1 k) 32 (lane_g_lt (g := 2) (by decide) hs) (k0_off36_eq k)
theorem lane1_3 (k : Fin k0_t1_loop.trips) (fl : Buf (Elt F) ((l0W).view.loc (V d (cV L) (jV L)))) (u : ℕ) (hs : S16.Slices ![u] S1) :
    extractAt ![0] (extractStridedSlice S1 ![u]
        (shapeCast S16 ((l0W).view.readAt (Elt F) (Rect.unit (s := S4x128) (k0_off53 k) S1x16.size (k0_off53_inb k)).toLoadRect fl) shapeCasts_S1x16_S16) hs) inpos_S1_p0
      = fl (ix2 (Fin.cast trips1 k) (⟨16 * 3 + u, lane_g_lt (by decide) hs⟩ : Fin 128)) :=
  lane_at_view (l0W).view fl _ _ u hs (Fin.cast trips1 k) 48 (lane_g_lt (g := 3) (by decide) hs) (k0_off53_eq k)
theorem lane1_4 (k : Fin k0_t1_loop.trips) (fl : Buf (Elt F) ((l0W).view.loc (V d (cV L) (jV L)))) (u : ℕ) (hs : S16.Slices ![u] S1) :
    extractAt ![0] (extractStridedSlice S1 ![u]
        (shapeCast S16 ((l0W).view.readAt (Elt F) (Rect.unit (s := S4x128) (k0_off70 k) S1x16.size (k0_off70_inb k)).toLoadRect fl) shapeCasts_S1x16_S16) hs) inpos_S1_p0
      = fl (ix2 (Fin.cast trips1 k) (⟨16 * 4 + u, lane_g_lt (by decide) hs⟩ : Fin 128)) :=
  lane_at_view (l0W).view fl _ _ u hs (Fin.cast trips1 k) 64 (lane_g_lt (g := 4) (by decide) hs) (k0_off70_eq k)
theorem lane1_5 (k : Fin k0_t1_loop.trips) (fl : Buf (Elt F) ((l0W).view.loc (V d (cV L) (jV L)))) (u : ℕ) (hs : S16.Slices ![u] S1) :
    extractAt ![0] (extractStridedSlice S1 ![u]
        (shapeCast S16 ((l0W).view.readAt (Elt F) (Rect.unit (s := S4x128) (k0_off87 k) S1x16.size (k0_off87_inb k)).toLoadRect fl) shapeCasts_S1x16_S16) hs) inpos_S1_p0
      = fl (ix2 (Fin.cast trips1 k) (⟨16 * 5 + u, lane_g_lt (by decide) hs⟩ : Fin 128)) :=
  lane_at_view (l0W).view fl _ _ u hs (Fin.cast trips1 k) 80 (lane_g_lt (g := 5) (by decide) hs) (k0_off87_eq k)
theorem lane1_6 (k : Fin k0_t1_loop.trips) (fl : Buf (Elt F) ((l0W).view.loc (V d (cV L) (jV L)))) (u : ℕ) (hs : S16.Slices ![u] S1) :
    extractAt ![0] (extractStridedSlice S1 ![u]
        (shapeCast S16 ((l0W).view.readAt (Elt F) (Rect.unit (s := S4x128) (k0_off104 k) S1x16.size (k0_off104_inb k)).toLoadRect fl) shapeCasts_S1x16_S16) hs) inpos_S1_p0
      = fl (ix2 (Fin.cast trips1 k) (⟨16 * 6 + u, lane_g_lt (by decide) hs⟩ : Fin 128)) :=
  lane_at_view (l0W).view fl _ _ u hs (Fin.cast trips1 k) 96 (lane_g_lt (g := 6) (by decide) hs) (k0_off104_eq k)
theorem lane1_7 (k : Fin k0_t1_loop.trips) (fl : Buf (Elt F) ((l0W).view.loc (V d (cV L) (jV L)))) (u : ℕ) (hs : S16.Slices ![u] S1) :
    extractAt ![0] (extractStridedSlice S1 ![u]
        (shapeCast S16 ((l0W).view.readAt (Elt F) (Rect.unit (s := S4x128) (k0_off121 k) S1x16.size (k0_off121_inb k)).toLoadRect fl) shapeCasts_S1x16_S16) hs) inpos_S1_p0
      = fl (ix2 (Fin.cast trips1 k) (⟨16 * 7 + u, lane_g_lt (by decide) hs⟩ : Fin 128)) :=
  lane_at_view (l0W).view fl _ _ u hs (Fin.cast trips1 k) 112 (lane_g_lt (g := 7) (by decide) hs) (k0_off121_eq k)
/-- the second lookup's loop -/
theorem lane2_0 (k : Fin k0_t2_loop.trips) (fl : Buf (Elt F) ((l1W).view.loc (V d (cV L) (jV L)))) (u : ℕ) (hs : S16.Slices ![u] S1) :
    extractAt ![0] (extractStridedSlice S1 ![u]
        (shapeCast S16 ((l1W).view.readAt (Elt F) (Rect.unit (s := S4x128) (k0_off266 k) S1x16.size (k0_off266_inb k)).toLoadRect fl) shapeCasts_S1x16_S16) hs) inpos_S1_p0
      = fl (ix2 (Fin.cast trips2 k) (⟨16 * 0 + u, lane_g_lt (by decide) hs⟩ : Fin 128)) :=
  lane_at_view (l1W).view fl _ _ u hs (Fin.cast trips2 k) 0 (lane_g_lt (g := 0) (by decide) hs) (k0_off266_eq k)
theorem lane2_1 (k : Fin k0_t2_loop.trips) (fl : Buf (Elt F) ((l1W).view.loc (V d (cV L) (jV L)))) (u : ℕ) (hs : S16.Slices ![u] S1) :
    extractAt ![0] (extractStridedSlice S1 ![u]
        (shapeCast S16 ((l1W).view.readAt (Elt F) (Rect.unit (s := S4x128) (k0_off283 k) S1x16.size (k0_off283_inb k)).toLoadRect fl) shapeCasts_S1x16_S16) hs) inpos_S1_p0
      = fl (ix2 (Fin.cast trips2 k) (⟨16 * 1 + u, lane_g_lt (by decide) hs⟩ : Fin 128)) :=
  lane_at_view (l1W).view fl _ _ u hs (Fin.cast trips2 k) 16 (lane_g_lt (g := 1) (by decide) hs) (k0_off283_eq k)
theorem lane2_2 (k : Fin k0_t2_loop.trips) (fl : Buf (Elt F) ((l1W).view.loc (V d (cV L) (jV L)))) (u : ℕ) (hs : S16.Slices ![u] S1) :
    extractAt ![0] (extractStridedSlice S1 ![u]
        (shapeCast S16 ((l1W).view.readAt (Elt F) (Rect.unit (s := S4x128) (k0_off300 k) S1x16.size (k0_off300_inb k)).toLoadRect fl) shapeCasts_S1x16_S16) hs) inpos_S1_p0
      = fl (ix2 (Fin.cast trips2 k) (⟨16 * 2 + u, lane_g_lt (by decide) hs⟩ : Fin 128)) :=
  lane_at_view (l1W).view fl _ _ u hs (Fin.cast trips2 k) 32 (lane_g_lt (g := 2) (by decide) hs) (k0_off300_eq k)
theorem lane2_3 (k : Fin k0_t2_loop.trips) (fl : Buf (Elt F) ((l1W).view.loc (V d (cV L) (jV L)))) (u : ℕ) (hs : S16.Slices ![u] S1) :
    extractAt ![0] (extractStridedSlice S1 ![u]
        (shapeCast S16 ((l1W).view.readAt (Elt F) (Rect.unit (s := S4x128) (k0_off317 k) S1x16.size (k0_off317_inb k)).toLoadRect fl) shapeCasts_S1x16_S16) hs) inpos_S1_p0
      = fl (ix2 (Fin.cast trips2 k) (⟨16 * 3 + u, lane_g_lt (by decide) hs⟩ : Fin 128)) :=
  lane_at_view (l1W).view fl _ _ u hs (Fin.cast trips2 k) 48 (lane_g_lt (g := 3) (by decide) hs) (k0_off317_eq k)
theorem lane2_4 (k : Fin k0_t2_loop.trips) (fl : Buf (Elt F) ((l1W).view.loc (V d (cV L) (jV L)))) (u : ℕ) (hs : S16.Slices ![u] S1) :
    extractAt ![0] (extractStridedSlice S1 ![u]
        (shapeCast S16 ((l1W).view.readAt (Elt F) (Rect.unit (s := S4x128) (k0_off334 k) S1x16.size (k0_off334_inb k)).toLoadRect fl) shapeCasts_S1x16_S16) hs) inpos_S1_p0
      = fl (ix2 (Fin.cast trips2 k) (⟨16 * 4 + u, lane_g_lt (by decide) hs⟩ : Fin 128)) :=
  lane_at_view (l1W).view fl _ _ u hs (Fin.cast trips2 k) 64 (lane_g_lt (g := 4) (by decide) hs) (k0_off334_eq k)
theorem lane2_5 (k : Fin k0_t2_loop.trips) (fl : Buf (Elt F) ((l1W).view.loc (V d (cV L) (jV L)))) (u : ℕ) (hs : S16.Slices ![u] S1) :
    extractAt ![0] (extractStridedSlice S1 ![u]
        (shapeCast S16 ((l1W).view.readAt (Elt F) (Rect.unit (s := S4x128) (k0_off351 k) S1x16.size (k0_off351_inb k)).toLoadRect fl) shapeCasts_S1x16_S16) hs) inpos_S1_p0
      = fl (ix2 (Fin.cast trips2 k) (⟨16 * 5 + u, lane_g_lt (by decide) hs⟩ : Fin 128)) :=
  lane_at_view (l1W).view fl _ _ u hs (Fin.cast trips2 k) 80 (lane_g_lt (g := 5) (by decide) hs) (k0_off351_eq k)
theorem lane2_6 (k : Fin k0_t2_loop.trips) (fl : Buf (Elt F) ((l1W).view.loc (V d (cV L) (jV L)))) (u : ℕ) (hs : S16.Slices ![u] S1) :
    extractAt ![0] (extractStridedSlice S1 ![u]
        (shapeCast S16 ((l1W).view.readAt (Elt F) (Rect.unit (s := S4x128) (k0_off368 k) S1x16.size (k0_off368_inb k)).toLoadRect fl) shapeCasts_S1x16_S16) hs) inpos_S1_p0
      = fl (ix2 (Fin.cast trips2 k) (⟨16 * 6 + u, lane_g_lt (by decide) hs⟩ : Fin 128)) :=
  lane_at_view (l1W).view fl _ _ u hs (Fin.cast trips2 k) 96 (lane_g_lt (g := 6) (by decide) hs) (k0_off368_eq k)
theorem lane2_7 (k : Fin k0_t2_loop.trips) (fl : Buf (Elt F) ((l1W).view.loc (V d (cV L) (jV L)))) (u : ℕ) (hs : S16.Slices ![u] S1) :
    extractAt ![0] (extractStridedSlice S1 ![u]
        (shapeCast S16 ((l1W).view.readAt (Elt F) (Rect.unit (s := S4x128) (k0_off385 k) S1x16.size (k0_off385_inb k)).toLoadRect fl) shapeCasts_S1x16_S16) hs) inpos_S1_p0
      = fl (ix2 (Fin.cast trips2 k) (⟨16 * 7 + u, lane_g_lt (by decide) hs⟩ : Fin 128)) :=
  lane_at_view (l1W).view fl _ _ u hs (Fin.cast trips2 k) 112 (lane_g_lt (g := 7) (by decide) hs) (k0_off385_eq k)
/-- the third lookup's loop -/
theorem lane3_0 (k : Fin k0_t3_loop.trips) (fl : Buf (Elt F) ((l2W).view.loc (V d (cV L) (jV L)))) (u : ℕ) (hs : S16.Slices ![u] S1) :
    extractAt ![0] (extractStridedSlice S1 ![u]
        (shapeCast S16 ((l2W).view.readAt (Elt F) (Rect.unit (s := S4x128) (k0_off530 k) S1x16.size (k0_off530_inb k)).toLoadRect fl) shapeCasts_S1x16_S16) hs) inpos_S1_p0
      = fl (ix2 (Fin.cast trips3 k) (⟨16 * 0 + u, lane_g_lt (by decide) hs⟩ : Fin 128)) :=
  lane_at_view (l2W).view fl _ _ u hs (Fin.cast trips3 k) 0 (lane_g_lt (g := 0) (by decide) hs) (k0_off530_eq k)
theorem lane3_1 (k : Fin k0_t3_loop.trips) (fl : Buf (Elt F) ((l2W).view.loc (V d (cV L) (jV L)))) (u : ℕ) (hs : S16.Slices ![u] S1) :
    extractAt ![0] (extractStridedSlice S1 ![u]
        (shapeCast S16 ((l2W).view.readAt (Elt F) (Rect.unit (s := S4x128) (k0_off547 k) S1x16.size (k0_off547_inb k)).toLoadRect fl) shapeCasts_S1x16_S16) hs) inpos_S1_p0
      = fl (ix2 (Fin.cast trips3 k) (⟨16 * 1 + u, lane_g_lt (by decide) hs⟩ : Fin 128)) :=
  lane_at_view (l2W).view fl _ _ u hs (Fin.cast trips3 k) 16 (lane_g_lt (g := 1) (by decide) hs) (k0_off547_eq k)
theorem lane3_2 (k : Fin k0_t3_loop.trips) (fl : Buf (Elt F) ((l2W).view.loc (V d (cV L) (jV L)))) (u : ℕ) (hs : S16.Slices ![u] S1) :
    extractAt ![0] (extractStridedSlice S1 ![u]
        (shapeCast S16 ((l2W).view.readAt (Elt F) (Rect.unit (s := S4x128) (k0_off564 k) S1x16.size (k0_off564_inb k)).toLoadRect fl) shapeCasts_S1x16_S16) hs) inpos_S1_p0
      = fl (ix2 (Fin.cast trips3 k) (⟨16 * 2 + u, lane_g_lt (by decide) hs⟩ : Fin 128)) :=
  lane_at_view (l2W).view fl _ _ u hs (Fin.cast trips3 k) 32 (lane_g_lt (g := 2) (by decide) hs) (k0_off564_eq k)
theorem lane3_3 (k : Fin k0_t3_loop.trips) (fl : Buf (Elt F) ((l2W).view.loc (V d (cV L) (jV L)))) (u : ℕ) (hs : S16.Slices ![u] S1) :
    extractAt ![0] (extractStridedSlice S1 ![u]
        (shapeCast S16 ((l2W).view.readAt (Elt F) (Rect.unit (s := S4x128) (k0_off581 k) S1x16.size (k0_off581_inb k)).toLoadRect fl) shapeCasts_S1x16_S16) hs) inpos_S1_p0
      = fl (ix2 (Fin.cast trips3 k) (⟨16 * 3 + u, lane_g_lt (by decide) hs⟩ : Fin 128)) :=
  lane_at_view (l2W).view fl _ _ u hs (Fin.cast trips3 k) 48 (lane_g_lt (g := 3) (by decide) hs) (k0_off581_eq k)
theorem lane3_4 (k : Fin k0_t3_loop.trips) (fl : Buf (Elt F) ((l2W).view.loc (V d (cV L) (jV L)))) (u : ℕ) (hs : S16.Slices ![u] S1) :
    extractAt ![0] (extractStridedSlice S1 ![u]
        (shapeCast S16 ((l2W).view.readAt (Elt F) (Rect.unit (s := S4x128) (k0_off598 k) S1x16.size (k0_off598_inb k)).toLoadRect fl) shapeCasts_S1x16_S16) hs) inpos_S1_p0
      = fl (ix2 (Fin.cast trips3 k) (⟨16 * 4 + u, lane_g_lt (by decide) hs⟩ : Fin 128)) :=
  lane_at_view (l2W).view fl _ _ u hs (Fin.cast trips3 k) 64 (lane_g_lt (g := 4) (by decide) hs) (k0_off598_eq k)
theorem lane3_5 (k : Fin k0_t3_loop.trips) (fl : Buf (Elt F) ((l2W).view.loc (V d (cV L) (jV L)))) (u : ℕ) (hs : S16.Slices ![u] S1) :
    extractAt ![0] (extractStridedSlice S1 ![u]
        (shapeCast S16 ((l2W).view.readAt (Elt F) (Rect.unit (s := S4x128) (k0_off615 k) S1x16.size (k0_off615_inb k)).toLoadRect fl) shapeCasts_S1x16_S16) hs) inpos_S1_p0
      = fl (ix2 (Fin.cast trips3 k) (⟨16 * 5 + u, lane_g_lt (by decide) hs⟩ : Fin 128)) :=
  lane_at_view (l2W).view fl _ _ u hs (Fin.cast trips3 k) 80 (lane_g_lt (g := 5) (by decide) hs) (k0_off615_eq k)
theorem lane3_6 (k : Fin k0_t3_loop.trips) (fl : Buf (Elt F) ((l2W).view.loc (V d (cV L) (jV L)))) (u : ℕ) (hs : S16.Slices ![u] S1) :
    extractAt ![0] (extractStridedSlice S1 ![u]
        (shapeCast S16 ((l2W).view.readAt (Elt F) (Rect.unit (s := S4x128) (k0_off632 k) S1x16.size (k0_off632_inb k)).toLoadRect fl) shapeCasts_S1x16_S16) hs) inpos_S1_p0
      = fl (ix2 (Fin.cast trips3 k) (⟨16 * 6 + u, lane_g_lt (by decide) hs⟩ : Fin 128)) :=
  lane_at_view (l2W).view fl _ _ u hs (Fin.cast trips3 k) 96 (lane_g_lt (g := 6) (by decide) hs) (k0_off632_eq k)
theorem lane3_7 (k : Fin k0_t3_loop.trips) (fl : Buf (Elt F) ((l2W).view.loc (V d (cV L) (jV L)))) (u : ℕ) (hs : S16.Slices ![u] S1) :
    extractAt ![0] (extractStridedSlice S1 ![u]
        (shapeCast S16 ((l2W).view.readAt (Elt F) (Rect.unit (s := S4x128) (k0_off649 k) S1x16.size (k0_off649_inb k)).toLoadRect fl) shapeCasts_S1x16_S16) hs) inpos_S1_p0
      = fl (ix2 (Fin.cast trips3 k) (⟨16 * 7 + u, lane_g_lt (by decide) hs⟩ : Fin 128)) :=
  lane_at_view (l2W).view fl _ _ u hs (Fin.cast trips3 k) 112 (lane_g_lt (g := 7) (by decide) hs) (k0_off649_eq k)

/-! ## A table row read -/

/-- A row [1, 64] read from row n of any view of shape [V, 64]: entry e is what the view reads at (n, e). -/
theorem row_read_view {κ : Kind} {sp : Space} {Vh : ℕ} (v : View sig κ sp (⟨2, ![Vh, 64]⟩ : Shape) .f32) (ft : v.ty.Contents (Elt F)) (n : ℕ)
    (h : ∀ a, (![n, 0] : Fin 2 → Nat) a + S1x64.size a ≤ (⟨2, ![Vh, 64]⟩ : Shape).size a) (hn : n < Vh) (e : Fin 64) :
    (v.slice (Rect.unit (s := (⟨2, ![Vh, 64]⟩ : Shape)) ![n, 0] S1x64.size h)).read (Elt F) ft (ix2 (0 : Fin 1) e)
      = v.read (Elt F) ft (ix2 (⟨n, hn⟩ : Fin Vh) e) := by
  rw [View.read_apply, View.read_apply]
  refine congrArg (fun i => cast _ (ft (v.emb i))) (funext fun a => Fin.ext ?_)
  match a with
  | ⟨0, _⟩ => show n + 1 * 0 = n; omega
  | ⟨1, _⟩ => show 0 + 1 * e.val = e.val; omega

theorem tab_row_lt {Vh : ℕ} {n : ℕ} (h : ∀ a, (![n, 0] : Fin 2 → Nat) a + S1x64.size a ≤ (⟨2, ![Vh, 64]⟩ : Shape).size a) : n < Vh := by
  have h0 : n + 1 ≤ Vh := h 0
  omega

/-- Row v of each table, as the gather's source reads it: entry e is the table's entry (v, e). -/
theorem tab_read3 (ft : Buf (Elt F) ((utW).view.loc (V d (cV L) (jV L)))) (v : BitVec 32)
    (h : ∀ a, (![v.toNat, 0] : Fin 2 → Nat) a + S1x64.size a ≤ S1000000x64.size a) (e : Fin 64) :
    (ReadAs.same.apply (((utW).slice (Rect.unit (s := S1000000x64) ![v.toNat, 0] S1x64.size h) (fun _ => rfl)).view.read (Elt F) ft)) (ix2 (0 : Fin 1) e)
      = ft (ix2 (⟨v.toNat, tab_row_lt h⟩ : Fin 1000000) e) :=
  row_read_view (utW).view ft v.toNat h (tab_row_lt h) e
theorem tab_read4 (ft : Buf (Elt F) ((itW).view.loc (V d (cV L) (jV L)))) (v : BitVec 32)
    (h : ∀ a, (![v.toNat, 0] : Fin 2 → Nat) a + S1x64.size a ≤ S1000000x64.size a) (e : Fin 64) :
    (ReadAs.same.apply (((itW).slice (Rect.unit (s := S1000000x64) ![v.toNat, 0] S1x64.size h) (fun _ => rfl)).view.read (Elt F) ft)) (ix2 (0 : Fin 1) e)
      = ft (ix2 (⟨v.toNat, tab_row_lt h⟩ : Fin 1000000) e) :=
  row_read_view (itW).view ft v.toNat h (tab_row_lt h) e
theorem tab_read5 (ft : Buf (Elt F) ((ctW).view.loc (V d (cV L) (jV L)))) (v : BitVec 32)
    (h : ∀ a, (![v.toNat, 0] : Fin 2 → Nat) a + S1x64.size a ≤ S100000x64.size a) (e : Fin 64) :
    (ReadAs.same.apply (((ctW).slice (Rect.unit (s := S100000x64) ![v.toNat, 0] S1x64.size h) (fun _ => rfl)).view.read (Elt F) ft)) (ix2 (0 : Fin 1) e)
      = ft (ix2 (⟨v.toNat, tab_row_lt h⟩ : Fin 100000) e) :=
  row_read_view (ctW).view ft v.toNat h (tab_row_lt h) e

/-! ## The row a word names -/

/-- Entry e of the row of table 3 that the word w names: row w mod the table's height. -/
def rowAt3 (ft : Buf (Elt F) (t3Loc d)) (w : BitVec 32) (e : Fin 64) : Elt F .f32 :=
  ft (ix2 (⟨w.toNat % 1000000, Nat.mod_lt _ (by decide)⟩ : Fin 1000000) e)

/-- A row read at a word in range is the row the word names. -/
theorem tab_row3 (ft : Buf (Elt F) ((utW).view.loc (V d (cV L) (jV L)))) (v : BitVec 32)
    (h : ∀ a, (![v.toNat, 0] : Fin 2 → Nat) a + S1x64.size a ≤ S1000000x64.size a) (e : Fin 64) :
    (ReadAs.same.apply (((utW).slice (Rect.unit (s := S1000000x64) ![v.toNat, 0] S1x64.size h) (fun _ => rfl)).view.read (Elt F) ft)) (ix2 (0 : Fin 1) e)
      = rowAt3 d ft v e :=
  (tab_read3 d L ft v h e).trans
    (congrArg (fun x : Fin 1000000 => ft (ix2 x e)) (Fin.ext (Nat.mod_eq_of_lt (tab_row_lt h)).symm))

/-- Entry e of the row of table 4 that the word w names: row w mod the table's height. -/
def rowAt4 (ft : Buf (Elt F) (t4Loc d)) (w : BitVec 32) (e : Fin 64) : Elt F .f32 :=
  ft (ix2 (⟨w.toNat % 1000000, Nat.mod_lt _ (by decide)⟩ : Fin 1000000) e)

/-- A row read at a word in range is the row the word names. -/
theorem tab_row4 (ft : Buf (Elt F) ((itW).view.loc (V d (cV L) (jV L)))) (v : BitVec 32)
    (h : ∀ a, (![v.toNat, 0] : Fin 2 → Nat) a + S1x64.size a ≤ S1000000x64.size a) (e : Fin 64) :
    (ReadAs.same.apply (((itW).slice (Rect.unit (s := S1000000x64) ![v.toNat, 0] S1x64.size h) (fun _ => rfl)).view.read (Elt F) ft)) (ix2 (0 : Fin 1) e)
      = rowAt4 d ft v e :=
  (tab_read4 d L ft v h e).trans
    (congrArg (fun x : Fin 1000000 => ft (ix2 x e)) (Fin.ext (Nat.mod_eq_of_lt (tab_row_lt h)).symm))

/-- Entry e of the row of table 5 that the word w names: row w mod the table's height. -/
def rowAt5 (ft : Buf (Elt F) (t5Loc d)) (w : BitVec 32) (e : Fin 64) : Elt F .f32 :=
  ft (ix2 (⟨w.toNat % 100000, Nat.mod_lt _ (by decide)⟩ : Fin 100000) e)

/-- A row read at a word in range is the row the word names. -/
theorem tab_row5 (ft : Buf (Elt F) ((ctW).view.loc (V d (cV L) (jV L)))) (v : BitVec 32)
    (h : ∀ a, (![v.toNat, 0] : Fin 2 → Nat) a + S1x64.size a ≤ S100000x64.size a) (e : Fin 64) :
    (ReadAs.same.apply (((ctW).slice (Rect.unit (s := S100000x64) ![v.toNat, 0] S1x64.size h) (fun _ => rfl)).view.read (Elt F) ft)) (ix2 (0 : Fin 1) e)
      = rowAt5 d ft v e :=
  (tab_read5 d L ft v h e).trans
    (congrArg (fun x : Fin 100000 => ft (ix2 x e)) (Fin.ext (Nat.mod_eq_of_lt (tab_row_lt h)).symm))

/-! ## A whole write, read back -/

/-- Writing a view whole and reading the buffer at the place of the view's index y gives the payload at y (carried to the
    buffer's element type, which for a view given in full is the payload's own). -/
theorem writes_whole_emb {Val : EltTy → Type} {κ : Kind} {sp : Space} {s : Shape} {e : EltTy} (v : View sig κ sp s e)
    (f : v.ty.Contents Val) (pay : s.Idx → Val e) (y : s.Idx) :
    v.writes Val f [⟨Rect.whole s, pay⟩] (v.emb y) = cast (congrArg Val v.elt_eq.symm) (pay y) := by
  have hidx : v.emb y = (v.slice (Rect.whole s)).emb y := by
    show v.emb y = v.emb ((Rect.whole s).emb y)
    rw [Rect.emb_whole_apply]
  rw [View.writes_singleton, hidx, View.write_emb_of_mem _ _ (Finset.mem_univ _)]

/-! ## Where a result window's entry sits -/

theorem win1_row_lt (k : Fin k0_t1_loop.trips) (b : Fin 2) (r : Fin 64) :
    512 * (wid L).val + 128 * k.val + 64 * b.val + r.val < 16384 := by
  have hw := (wid L).isLt
  have hk : k.val < 4 := Nat.lt_of_lt_of_eq k.isLt trips1
  have hb := b.isLt
  have hr := r.isLt
  omega

/-- Entry (r, e) of the window trip k writes, first (b = 0) or second (b = 1), sits at row 512 w + 128 k + 64 b + r of the result. -/
theorem win1_emb (k : Fin k0_t1_loop.trips) (b : Fin 2) (r e : Fin 64) :
    (ouWin1 L k b).view.emb (ix2 r e)
      = ix2 (⟨512 * (wid L).val + 128 * k.val + 64 * b.val + r.val, win1_row_lt L k b r⟩ : Fin 16384) e := by
  funext a
  refine Fin.ext ?_
  match a with
  | ⟨0, _⟩ =>
    show k0_off202 L k (BitVec.ofNat 32 b.val) 0 + 1 * r.val = 512 * (wid L).val + 128 * k.val + 64 * b.val + r.val
    rw [k0_off202_eq]
    show 1024 * (L 1).val + 512 * (L 0).val + 128 * k.val + 64 * b.val + 1 * r.val
      = 512 * (2 * (L 1).val + (L 0).val) + 128 * k.val + 64 * b.val + r.val
    omega
  | ⟨1, _⟩ =>
    show k0_off202 L k (BitVec.ofNat 32 b.val) 1 + 1 * e.val = e.val
    rw [k0_off202_eq]
    show 0 + 1 * e.val = e.val
    omega

/-- Every element of the window is such an entry. -/
theorem mem_win1 (k : Fin k0_t1_loop.trips) (b : Fin 2) (i : (ouWin1 L k b).view.ty.Idx) (hi : i ∈ (ouWin1 L k b).view.set) :
    ∃ r e : Fin 64, i = (ouWin1 L k b).view.emb (ix2 r e) := by
  obtain ⟨y, -, rfl⟩ := Finset.mem_map.1 hi
  exact ⟨y 0, y 1, congrArg _ (eq_ix2 (n0 := 64) (n1 := 64) y)⟩

/-- A write of the whole window, read back at its entry (r, e), is the payload's entry (r, e). -/
theorem win1_write (k : Fin k0_t1_loop.trips) (b : Fin 2) (f : Buf (Elt F) ((ouWin1 L k b).view.loc (V d (cV L) (jV L))))
    (pay : S64x64.Idx → Elt F .f32) (r e : Fin 64) :
    (ouWin1 L k b).view.writes (Elt F) f [⟨Rect.whole S64x64, pay⟩] ((ouWin1 L k b).view.emb (ix2 r e)) = pay (ix2 r e) :=
  (writes_whole_emb (ouWin1 L k b).view f pay (ix2 r e)).trans (cast_eq _ _)

theorem win2_row_lt (k : Fin k0_t2_loop.trips) (b : Fin 2) (r : Fin 64) :
    512 * (wid L).val + 128 * k.val + 64 * b.val + r.val < 16384 := by
  have hw := (wid L).isLt
  have hk : k.val < 4 := Nat.lt_of_lt_of_eq k.isLt trips2
  have hb := b.isLt
  have hr := r.isLt
  omega

/-- Entry (r, e) of the window trip k writes, first (b = 0) or second (b = 1), sits at row 512 w + 128 k + 64 b + r of the result. -/
theorem win2_emb (k : Fin k0_t2_loop.trips) (b : Fin 2) (r e : Fin 64) :
    (oiWin2 L k b).view.emb (ix2 r e)
      = ix2 (⟨512 * (wid L).val + 128 * k.val + 64 * b.val + r.val, win2_row_lt L k b r⟩ : Fin 16384) e := by
  funext a
  refine Fin.ext ?_
  match a with
  | ⟨0, _⟩ =>
    show k0_off466 L k (BitVec.ofNat 32 b.val) 0 + 1 * r.val = 512 * (wid L).val + 128 * k.val + 64 * b.val + r.val
    rw [k0_off466_eq]
    show 1024 * (L 1).val + 512 * (L 0).val + 128 * k.val + 64 * b.val + 1 * r.val
      = 512 * (2 * (L 1).val + (L 0).val) + 128 * k.val + 64 * b.val + r.val
    omega
  | ⟨1, _⟩ =>
    show k0_off466 L k (BitVec.ofNat 32 b.val) 1 + 1 * e.val = e.val
    rw [k0_off466_eq]
    show 0 + 1 * e.val = e.val
    omega

/-- Every element of the window is such an entry. -/
theorem mem_win2 (k : Fin k0_t2_loop.trips) (b : Fin 2) (i : (oiWin2 L k b).view.ty.Idx) (hi : i ∈ (oiWin2 L k b).view.set) :
    ∃ r e : Fin 64, i = (oiWin2 L k b).view.emb (ix2 r e) := by
  obtain ⟨y, -, rfl⟩ := Finset.mem_map.1 hi
  exact ⟨y 0, y 1, congrArg _ (eq_ix2 (n0 := 64) (n1 := 64) y)⟩

/-- A write of the whole window, read back at its entry (r, e), is the payload's entry (r, e). -/
theorem win2_write (k : Fin k0_t2_loop.trips) (b : Fin 2) (f : Buf (Elt F) ((oiWin2 L k b).view.loc (V d (cV L) (jV L))))
    (pay : S64x64.Idx → Elt F .f32) (r e : Fin 64) :
    (oiWin2 L k b).view.writes (Elt F) f [⟨Rect.whole S64x64, pay⟩] ((oiWin2 L k b).view.emb (ix2 r e)) = pay (ix2 r e) :=
  (writes_whole_emb (oiWin2 L k b).view f pay (ix2 r e)).trans (cast_eq _ _)

theorem win3_row_lt (k : Fin k0_t3_loop.trips) (b : Fin 2) (r : Fin 64) :
    512 * (wid L).val + 128 * k.val + 64 * b.val + r.val < 16384 := by
  have hw := (wid L).isLt
  have hk : k.val < 4 := Nat.lt_of_lt_of_eq k.isLt trips3
  have hb := b.isLt
  have hr := r.isLt
  omega

/-- Entry (r, e) of the window trip k writes, first (b = 0) or second (b = 1), sits at row 512 w + 128 k + 64 b + r of the result. -/
theorem win3_emb (k : Fin k0_t3_loop.trips) (b : Fin 2) (r e : Fin 64) :
    (ocWin3 L k b).view.emb (ix2 r e)
      = ix2 (⟨512 * (wid L).val + 128 * k.val + 64 * b.val + r.val, win3_row_lt L k b r⟩ : Fin 16384) e := by
  funext a
  refine Fin.ext ?_
  match a with
  | ⟨0, _⟩ =>
    show k0_off730 L k (BitVec.ofNat 32 b.val) 0 + 1 * r.val = 512 * (wid L).val + 128 * k.val + 64 * b.val + r.val
    rw [k0_off730_eq]
    show 1024 * (L 1).val + 512 * (L 0).val + 128 * k.val + 64 * b.val + 1 * r.val
      = 512 * (2 * (L 1).val + (L 0).val) + 128 * k.val + 64 * b.val + r.val
    omega
  | ⟨1, _⟩ =>
    show k0_off730 L k (BitVec.ofNat 32 b.val) 1 + 1 * e.val = e.val
    rw [k0_off730_eq]
    show 0 + 1 * e.val = e.val
    omega

/-- Every element of the window is such an entry. -/
theorem mem_win3 (k : Fin k0_t3_loop.trips) (b : Fin 2) (i : (ocWin3 L k b).view.ty.Idx) (hi : i ∈ (ocWin3 L k b).view.set) :
    ∃ r e : Fin 64, i = (ocWin3 L k b).view.emb (ix2 r e) := by
  obtain ⟨y, -, rfl⟩ := Finset.mem_map.1 hi
  exact ⟨y 0, y 1, congrArg _ (eq_ix2 (n0 := 64) (n1 := 64) y)⟩

/-- A write of the whole window, read back at its entry (r, e), is the payload's entry (r, e). -/
theorem win3_write (k : Fin k0_t3_loop.trips) (b : Fin 2) (f : Buf (Elt F) ((ocWin3 L k b).view.loc (V d (cV L) (jV L))))
    (pay : S64x64.Idx → Elt F .f32) (r e : Fin 64) :
    (ocWin3 L k b).view.writes (Elt F) f [⟨Rect.whole S64x64, pay⟩] ((ocWin3 L k b).view.emb (ix2 r e)) = pay (ix2 r e) :=
  (writes_whole_emb (ocWin3 L k b).view f pay (ix2 r e)).trans (cast_eq _ _)

/-! ## The lookup at that entry -/

theorem out_row_lt (k : Fin 4) (b : Fin 2) (r : Fin 64) : 512 * (wid L).val + 128 * k.val + 64 * b.val + r.val < 16384 := by
  have hw := (wid L).isLt
  have hk := k.isLt
  have hb := b.isLt
  have hr := r.isLt
  omega
theorem land_col_lt (b : Fin 2) (r : Fin 64) : 64 * b.val + r.val < 128 := by
  have hb := b.isLt
  have hr := r.isLt
  omega

/-- Row 512 w + 128 k + 64 b + r of lookup 0 is the table row named by the word that landed at (k, 64 b + r). -/
theorem G0_at (k : Fin 4) (b : Fin 2) (r e : Fin 64) :
    G0 m d (ix2 (⟨512 * (wid L).val + 128 * k.val + 64 * b.val + r.val, out_row_lt L k b r⟩ : Fin 16384) e)
      = rowAt3 d (m (t3Loc d)) (lands0 m d L (ix2 k (⟨64 * b.val + r.val, land_col_lt b r⟩ : Fin 128))) e := by
  unfold G0 rowAt3
  rw [Spec.takeRows_apply, lands0_word]
  refine congrArg (fun x : Fin 1000000 => m (t3Loc d) (ix2 x e)) (Fin.ext ?_)
  refine congrArg (fun x : Fin 16384 => (m (a0Loc d) (ix2 x (0 : Fin 1))).toNat % 1000000) (Fin.ext ?_)
  show 512 * (wid L).val + 128 * k.val + 64 * b.val + r.val = 512 * (wid L).val + 128 * k.val + (64 * b.val + r.val)
  omega

/-- Row 512 w + 128 k + 64 b + r of lookup 1 is the table row named by the word that landed at (k, 64 b + r). -/
theorem G1_at (k : Fin 4) (b : Fin 2) (r e : Fin 64) :
    G1 m d (ix2 (⟨512 * (wid L).val + 128 * k.val + 64 * b.val + r.val, out_row_lt L k b r⟩ : Fin 16384) e)
      = rowAt4 d (m (t4Loc d)) (lands1 m d L (ix2 k (⟨64 * b.val + r.val, land_col_lt b r⟩ : Fin 128))) e := by
  unfold G1 rowAt4
  rw [Spec.takeRows_apply, lands1_word]
  refine congrArg (fun x : Fin 1000000 => m (t4Loc d) (ix2 x e)) (Fin.ext ?_)
  refine congrArg (fun x : Fin 16384 => (m (a1Loc d) (ix2 x (0 : Fin 1))).toNat % 1000000) (Fin.ext ?_)
  show 512 * (wid L).val + 128 * k.val + 64 * b.val + r.val = 512 * (wid L).val + 128 * k.val + (64 * b.val + r.val)
  omega

/-- Row 512 w + 128 k + 64 b + r of lookup 2 is the table row named by the word that landed at (k, 64 b + r). -/
theorem G2_at (k : Fin 4) (b : Fin 2) (r e : Fin 64) :
    G2 m d (ix2 (⟨512 * (wid L).val + 128 * k.val + 64 * b.val + r.val, out_row_lt L k b r⟩ : Fin 16384) e)
      = rowAt5 d (m (t5Loc d)) (lands2 m d L (ix2 k (⟨64 * b.val + r.val, land_col_lt b r⟩ : Fin 128))) e := by
  unfold G2 rowAt5
  rw [Spec.takeRows_apply, lands2_word]
  refine congrArg (fun x : Fin 100000 => m (t5Loc d) (ix2 x e)) (Fin.ext ?_)
  refine congrArg (fun x : Fin 16384 => (m (a2Loc d) (ix2 x (0 : Fin 1))).toNat % 100000) (Fin.ext ?_)
  show 512 * (wid L).val + 128 * k.val + 64 * b.val + r.val = 512 * (wid L).val + 128 * k.val + (64 * b.val + r.val)
  omega

/-! ## What a window written from those rows holds -/

/-- A window written whole with the rows its landed words name holds the lookup. -/
theorem win1_value (k : Fin k0_t1_loop.trips) (b : Fin 2) (pay : S64x64.Idx → Elt F .f32)
    (hpay : ∀ r e : Fin 64, pay (ix2 r e)
      = rowAt3 d (m (t3Loc d)) (lands0 m d L (ix2 (Fin.cast trips1 k) (⟨64 * b.val + r.val, land_col_lt b r⟩ : Fin 128))) e) :
    ∀ i ∈ (ouWin1 L k b).view.set, ((ouWin1 L k b).view.writes (Elt F) (m (o0Loc d)) [⟨Rect.whole S64x64, pay⟩]) i = G0 m d i := by
  intro i hi
  obtain ⟨r, e, rfl⟩ := mem_win1 L k b i hi
  rw [win1_write d L k b _ pay r e, hpay, win1_emb]
  exact (G0_at m d L (Fin.cast trips1 k) b r e).symm

/-- A window written whole with the rows its landed words name holds the lookup. -/
theorem win2_value (k : Fin k0_t2_loop.trips) (b : Fin 2) (pay : S64x64.Idx → Elt F .f32)
    (hpay : ∀ r e : Fin 64, pay (ix2 r e)
      = rowAt4 d (m (t4Loc d)) (lands1 m d L (ix2 (Fin.cast trips2 k) (⟨64 * b.val + r.val, land_col_lt b r⟩ : Fin 128))) e) :
    ∀ i ∈ (oiWin2 L k b).view.set, ((oiWin2 L k b).view.writes (Elt F) (m (o1Loc d)) [⟨Rect.whole S64x64, pay⟩]) i = G1 m d i := by
  intro i hi
  obtain ⟨r, e, rfl⟩ := mem_win2 L k b i hi
  rw [win2_write d L k b _ pay r e, hpay, win2_emb]
  exact (G1_at m d L (Fin.cast trips2 k) b r e).symm

/-- A window written whole with the rows its landed words name holds the lookup. -/
theorem win3_value (k : Fin k0_t3_loop.trips) (b : Fin 2) (pay : S64x64.Idx → Elt F .f32)
    (hpay : ∀ r e : Fin 64, pay (ix2 r e)
      = rowAt5 d (m (t5Loc d)) (lands2 m d L (ix2 (Fin.cast trips3 k) (⟨64 * b.val + r.val, land_col_lt b r⟩ : Fin 128))) e) :
    ∀ i ∈ (ocWin3 L k b).view.set, ((ocWin3 L k b).view.writes (Elt F) (m (o2Loc d)) [⟨Rect.whole S64x64, pay⟩]) i = G2 m d i := by
  intro i hi
  obtain ⟨r, e, rfl⟩ := mem_win3 L k b i hi
  rw [win3_write d L k b _ pay r e, hpay, win3_emb]
  exact (G2_at m d L (Fin.cast trips3 k) b r e).symm

/-! ## Contents that agree on the elements held -/

/-- Held at some contents that agree with g on the elements held is held at g. -/
theorem congr_ex {ℓ : Loc nD τ sig} {S : Finset (Idx ℓ)} {q : PosShare TreeShare} (g : Buf (Elt F) ℓ) :
    (iprop(∃ f, ⌜∀ i ∈ S, f i = g i⌝ ∗ ℓ ↦[S]{q} f) : sProp 𝕄) ⊢ ℓ ↦[S]{q} g := by
  iintro ⟨%f, %hf, H⟩
  have e : (ℓ ↦[S]{q} f : sProp 𝕄) = ℓ ↦[S]{q} g := pointsTo_congr hf
  rw [← e]
  iexact H

end Cert.Proof.KIVal

end
-- ==== Proof.KIReg1.lean ====
/-
  Loop 1 of the kernel, one trip.  The trip's 128 row copies are followed row by row: each row of a staging slot ends
  at the table row its index word names, the slot's 64 rows are joined, the slot is written to its window of the
  result, and the window then holds the lookup.
-/
import proofs.«206842_g87686052315543_cont_sun_m_497_29_alg».proof.Defs
import proofs.«206842_g87686052315543_cont_sun_m_497_29_alg».proof.Proof.KIRes
import proofs.«206842_g87686052315543_cont_sun_m_497_29_alg».proof.Proof.KIWin
import proofs.«206842_g87686052315543_cont_sun_m_497_29_alg».proof.Proof.KILand
import proofs.«206842_g87686052315543_cont_sun_m_497_29_alg».proof.Proof.KIRows
import proofs.«206842_g87686052315543_cont_sun_m_497_29_alg».proof.Proof.KIJoin
import proofs.«206842_g87686052315543_cont_sun_m_497_29_alg».proof.Proof.KIInv
import proofs.«206842_g87686052315543_cont_sun_m_497_29_alg».proof.Proof.KIVal
import Idealize.ShloMosaic.Lib.SparseCore.Launch
import Idealize.ShloMosaic.Lib.SparseCore.Ops
import Idealize.ShloMosaic.Lib.StableHlo.Run
import Idealize.ShloMosaic.Lib.Batch
import Idealize.ShloMosaic.Lib.Tactic
import Idealize.ShloMosaic.Lib.Pipeline.Kit
import proofs.«206842_g87686052315543_cont_sun_m_497_29_alg».proof.Proof.Gen.KernelIdeal
import proofs.«206842_g87686052315543_cont_sun_m_497_29_alg».proof.Proof.Gen.KernelIdeal.Skeleton

noncomputable section

namespace Cert.Proof.KIReg1

open Cert.KernelIdeal Cert.KernelIdeal.Gen Cert.Proof.KIRes Cert.Proof.KIWin Cert.Proof.KILand Cert.Proof.KIRows Cert.Proof.KIJoin Cert.Proof.KIInv Cert.Proof.KIVal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uidW" => (Memref.whole Cert.KernelIdeal.main_v0_scv : Memref Cert.KernelIdeal.sig Kind.scVector Space.hbm Cert.KernelIdeal.S128x128 EltTy.i32)
local notation "iidW" => (Memref.whole Cert.KernelIdeal.main_v1_scv : Memref Cert.KernelIdeal.sig Kind.scVector Space.hbm Cert.KernelIdeal.S128x128 EltTy.i32)
local notation "cidW" => (Memref.whole Cert.KernelIdeal.main_v2_scv : Memref Cert.KernelIdeal.sig Kind.scVector Space.hbm Cert.KernelIdeal.S128x128 EltTy.i32)
local notation "utW" => (Memref.whole Cert.KernelIdeal.main_arg3_scv : Memref Cert.KernelIdeal.sig Kind.scVector Space.hbm Cert.KernelIdeal.S1000000x64 EltTy.f32)
local notation "itW" => (Memref.whole Cert.KernelIdeal.main_arg4_scv : Memref Cert.KernelIdeal.sig Kind.scVector Space.hbm Cert.KernelIdeal.S1000000x64 EltTy.f32)
local notation "ctW" => (Memref.whole Cert.KernelIdeal.main_arg5_scv : Memref Cert.KernelIdeal.sig Kind.scVector Space.hbm Cert.KernelIdeal.S100000x64 EltTy.f32)
local notation "ouW" => (Memref.whole Cert.KernelIdeal.main_v3_0_scv : Memref Cert.KernelIdeal.sig Kind.scVector Space.hbm Cert.KernelIdeal.S16384x64 EltTy.f32)
local notation "oiW" => (Memref.whole Cert.KernelIdeal.main_v3_1_scv : Memref Cert.KernelIdeal.sig Kind.scVector Space.hbm Cert.KernelIdeal.S16384x64 EltTy.f32)
local notation "ocW" => (Memref.whole Cert.KernelIdeal.main_v3_2_scv : Memref Cert.KernelIdeal.sig Kind.scVector Space.hbm Cert.KernelIdeal.S16384x64 EltTy.f32)
local notation "l0W" => (Memref.whole Cert.KernelIdeal.cc0_scratch0 : Memref Cert.KernelIdeal.sig Kind.scVector Space.vmem Cert.KernelIdeal.S4x128 EltTy.i32)
local notation "l1W" => (Memref.whole Cert.KernelIdeal.cc0_scratch1 : Memref Cert.KernelIdeal.sig Kind.scVector Space.vmem Cert.KernelIdeal.S4x128 EltTy.i32)
local notation "l2W" => (Memref.whole Cert.KernelIdeal.cc0_scratch2 : Memref Cert.KernelIdeal.sig Kind.scVector Space.vmem Cert.KernelIdeal.S4x128 EltTy.i32)
local notation "bufW" => (Memref.whole Cert.KernelIdeal.cc0_scratch3 : Memref Cert.KernelIdeal.sig Kind.scVector Space.vmem Cert.KernelIdeal.S2x64x64 EltTy.f32)

variable [FloatOps F] (m : (ℓ : Loc nD τ sig) → Buf (Elt F) ℓ) (d : Dev nD) (L : grid0.Coords)

set_option maxRecDepth 65536 in
set_option maxHeartbeats 20000000 in
/-- One trip of loop 1: 128 rows of the table fetched into the two staging slots through 128 read tokens, each slot
    written out to its window of the result once all its rows have landed; the two windows then hold the lookup. -/
theorem region1 [∀ e, Nonempty (Elt F e)] (hpre : PreOK m) (O : CellTallies nD τ sig (HIx 1)) (W : Waits sig (HIx 1))
    (k : Fin k0_t1_loop.trips) (v2 : BitVec 32) :
    inv1 m d L O W (Fin.cast trips1 k).val ⟨⟩
      ⊢ wp frame (wpE (defs₀ (F := F)) 𝒱₀ (V d (cV L) (jV L)) none) Set.univ
          (k0_t1_body (F := F) L uidW (Memref.isWhole_whole _) iidW (Memref.isWhole_whole _) cidW (Memref.isWhole_whole _)
            utW (Memref.isWhole_whole _) itW (Memref.isWhole_whole _) ctW (Memref.isWhole_whole _)
            ouW (Memref.isWhole_whole _) oiW (Memref.isWhole_whole _) ocW (Memref.isWhole_whole _)
            l0W (Memref.isWhole_whole _) l1W (Memref.isWhole_whole _) l2W (Memref.isWhole_whole _) bufW (Memref.isWhole_whole _)
            cc0_scratch4 cc0_scratch5 cc0_scratch6 cc0_scratch7 cc0_scratch8 cc0_scratch9 cc0_scratch10 cc0_scratch11 cc0_scratch12 cc0_scratch13
            cc0_scoped0 cc0_scoped1 cc0_scoped2 v2 k ())
          (fun _ => inv1 m d L O W ((Fin.cast trips1 k).val + 1) ⟨⟩) := by
  have _p4 : Transfers.BatchOf (V d (cV L) (jV L)) (SemLoc.dma (sig := sig) cc0_scratch4.sem) 16 := trivial
  have _p5 : Transfers.BatchOf (V d (cV L) (jV L)) (SemLoc.dma (sig := sig) cc0_scratch5.sem) 16 := trivial
  have _p6 : Transfers.BatchOf (V d (cV L) (jV L)) (SemLoc.dma (sig := sig) cc0_scratch6.sem) 16 := trivial
  have _p7 : Transfers.BatchOf (V d (cV L) (jV L)) (SemLoc.dma (sig := sig) cc0_scratch7.sem) 16 := trivial
  have _p8 : Transfers.BatchOf (V d (cV L) (jV L)) (SemLoc.dma (sig := sig) cc0_scratch8.sem) 16 := trivial
  have _p9 : Transfers.BatchOf (V d (cV L) (jV L)) (SemLoc.dma (sig := sig) cc0_scratch9.sem) 16 := trivial
  have _p10 : Transfers.BatchOf (V d (cV L) (jV L)) (SemLoc.dma (sig := sig) cc0_scratch10.sem) 16 := trivial
  have _p11 : Transfers.BatchOf (V d (cV L) (jV L)) (SemLoc.dma (sig := sig) cc0_scratch11.sem) 16 := trivial
  have hfl := lands0_lt m d L hpre
  unfold inv1
  rw [toks128_unroll]
  iintro ⟨Hmw, Hl0, Htoks, ⟨%f0, Hslot0⟩, ⟨%f1, Hslot1⟩, Hs4, Hs5, Hs6, Hs7, Hs8, Hs9, Hs10, Hs11, Hs12, Hs13, Hout, %W', %hW', HO⟩
  icases Htoks with ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31, Hu32, Hu33, Hu34, Hu35, Hu36, Hu37, Hu38, Hu39, Hu40, Hu41, Hu42, Hu43, Hu44, Hu45, Hu46, Hu47, Hu48, Hu49, Hu50, Hu51, Hu52, Hu53, Hu54, Hu55, Hu56, Hu57, Hu58, Hu59, Hu60, Hu61, Hu62, Hu63, Hu64, Hu65, Hu66, Hu67, Hu68, Hu69, Hu70, Hu71, Hu72, Hu73, Hu74, Hu75, Hu76, Hu77, Hu78, Hu79, Hu80, Hu81, Hu82, Hu83, Hu84, Hu85, Hu86, Hu87, Hu88, Hu89, Hu90, Hu91, Hu92, Hu93, Hu94, Hu95, Hu96, Hu97, Hu98, Hu99, Hu100, Hu101, Hu102, Hu103, Hu104, Hu105, Hu106, Hu107, Hu108, Hu109, Hu110, Hu111, Hu112, Hu113, Hu114, Hu115, Hu116, Hu117, Hu118, Hu119, Hu120, Hu121, Hu122, Hu123, Hu124, Hu125, Hu126, Hu127, -⟩
  ihave Hrows0 := (Entails.of_eq (slot0_split d L f0)) $$ Hslot0
  icases Hrows0 with ⟨Hr0_0, Hr0_1, Hr0_2, Hr0_3, Hr0_4, Hr0_5, Hr0_6, Hr0_7, Hr0_8, Hr0_9, Hr0_10, Hr0_11, Hr0_12, Hr0_13, Hr0_14, Hr0_15, Hr0_16, Hr0_17, Hr0_18, Hr0_19, Hr0_20, Hr0_21, Hr0_22, Hr0_23, Hr0_24, Hr0_25, Hr0_26, Hr0_27, Hr0_28, Hr0_29, Hr0_30, Hr0_31, Hr0_32, Hr0_33, Hr0_34, Hr0_35, Hr0_36, Hr0_37, Hr0_38, Hr0_39, Hr0_40, Hr0_41, Hr0_42, Hr0_43, Hr0_44, Hr0_45, Hr0_46, Hr0_47, Hr0_48, Hr0_49, Hr0_50, Hr0_51, Hr0_52, Hr0_53, Hr0_54, Hr0_55, Hr0_56, Hr0_57, Hr0_58, Hr0_59, Hr0_60, Hr0_61, Hr0_62, Hr0_63⟩
  ihave Hrows1 := (Entails.of_eq (slot1_split d L f1)) $$ Hslot1
  icases Hrows1 with ⟨Hr1_0, Hr1_1, Hr1_2, Hr1_3, Hr1_4, Hr1_5, Hr1_6, Hr1_7, Hr1_8, Hr1_9, Hr1_10, Hr1_11, Hr1_12, Hr1_13, Hr1_14, Hr1_15, Hr1_16, Hr1_17, Hr1_18, Hr1_19, Hr1_20, Hr1_21, Hr1_22, Hr1_23, Hr1_24, Hr1_25, Hr1_26, Hr1_27, Hr1_28, Hr1_29, Hr1_30, Hr1_31, Hr1_32, Hr1_33, Hr1_34, Hr1_35, Hr1_36, Hr1_37, Hr1_38, Hr1_39, Hr1_40, Hr1_41, Hr1_42, Hr1_43, Hr1_44, Hr1_45, Hr1_46, Hr1_47, Hr1_48, Hr1_49, Hr1_50, Hr1_51, Hr1_52, Hr1_53, Hr1_54, Hr1_55, Hr1_56, Hr1_57, Hr1_58, Hr1_59, Hr1_60, Hr1_61, Hr1_62, Hr1_63⟩
  ihave Ho := (outInv0_peel m d (wid L) (Fin.cast trips1 k)) $$ Hout
  icases Ho with ⟨Ho0, Ho1, Hrest⟩
  ihave Ho0' := (Entails.of_eq (pts_ouWin1 (F := F) d L k 0 _).symm) $$ Ho0
  ihave Ho1' := (Entails.of_eq (pts_ouWin1 (F := F) d L k 1 _).symm) $$ Ho1
  unfold k0_t1_body
  sl_exec_parts (disch := first | exact rowInb2 _ _ (hfl _) | exact rowInb _ _ (hfl _))
  ihave HS0 := (slot0_join d L _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [Hr0_0 Hr0_1 Hr0_2 Hr0_3 Hr0_4 Hr0_5 Hr0_6 Hr0_7 Hr0_8 Hr0_9 Hr0_10 Hr0_11 Hr0_12 Hr0_13 Hr0_14 Hr0_15 Hr0_16 Hr0_17 Hr0_18 Hr0_19 Hr0_20 Hr0_21 Hr0_22 Hr0_23 Hr0_24 Hr0_25 Hr0_26 Hr0_27 Hr0_28 Hr0_29 Hr0_30 Hr0_31 Hr0_32 Hr0_33 Hr0_34 Hr0_35 Hr0_36 Hr0_37 Hr0_38 Hr0_39 Hr0_40 Hr0_41 Hr0_42 Hr0_43 Hr0_44 Hr0_45 Hr0_46 Hr0_47 Hr0_48 Hr0_49 Hr0_50 Hr0_51 Hr0_52 Hr0_53 Hr0_54 Hr0_55 Hr0_56 Hr0_57 Hr0_58 Hr0_59 Hr0_60 Hr0_61 Hr0_62 Hr0_63]
  · iframe
  sl_exec_parts (disch := first | exact rowInb2 _ _ (hfl _) | exact rowInb _ _ (hfl _))
  ihave HS1 := (slot1_join d L _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [Hr1_0 Hr1_1 Hr1_2 Hr1_3 Hr1_4 Hr1_5 Hr1_6 Hr1_7 Hr1_8 Hr1_9 Hr1_10 Hr1_11 Hr1_12 Hr1_13 Hr1_14 Hr1_15 Hr1_16 Hr1_17 Hr1_18 Hr1_19 Hr1_20 Hr1_21 Hr1_22 Hr1_23 Hr1_24 Hr1_25 Hr1_26 Hr1_27 Hr1_28 Hr1_29 Hr1_30 Hr1_31 Hr1_32 Hr1_33 Hr1_34 Hr1_35 Hr1_36 Hr1_37 Hr1_38 Hr1_39 Hr1_40 Hr1_41 Hr1_42 Hr1_43 Hr1_44 Hr1_45 Hr1_46 Hr1_47 Hr1_48 Hr1_49 Hr1_50 Hr1_51 Hr1_52 Hr1_53 Hr1_54 Hr1_55 Hr1_56 Hr1_57 Hr1_58 Hr1_59 Hr1_60 Hr1_61 Hr1_62 Hr1_63]
  · iframe
  sl_exec_parts (disch := first | exact rowInb2 _ _ (hfl _) | exact rowInb _ _ (hfl _))
  sl_step
  isplitl [Hmw]; · iexact Hmw
  isplitl [Hl0]; · iexact Hl0
  isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31 Hu32 Hu33 Hu34 Hu35 Hu36 Hu37 Hu38 Hu39 Hu40 Hu41 Hu42 Hu43 Hu44 Hu45 Hu46 Hu47 Hu48 Hu49 Hu50 Hu51 Hu52 Hu53 Hu54 Hu55 Hu56 Hu57 Hu58 Hu59 Hu60 Hu61 Hu62 Hu63 Hu64 Hu65 Hu66 Hu67 Hu68 Hu69 Hu70 Hu71 Hu72 Hu73 Hu74 Hu75 Hu76 Hu77 Hu78 Hu79 Hu80 Hu81 Hu82 Hu83 Hu84 Hu85 Hu86 Hu87 Hu88 Hu89 Hu90 Hu91 Hu92 Hu93 Hu94 Hu95 Hu96 Hu97 Hu98 Hu99 Hu100 Hu101 Hu102 Hu103 Hu104 Hu105 Hu106 Hu107 Hu108 Hu109 Hu110 Hu111 Hu112 Hu113 Hu114 Hu115 Hu116 Hu117 Hu118 Hu119 Hu120 Hu121 Hu122 Hu123 Hu124 Hu125 Hu126 Hu127]
  · iframe
  isplitl [HS0]; · iexists _; iexact HS0
  isplitl [HS1]; · iexists _; iexact HS1
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Ho0' Ho1' Hrest]
  · iapply (outInv0_put m d (wid L) (Fin.cast trips1 k))
    isplitl [Ho0']
    · iapply (Entails.of_eq (pts_ouWin1 (F := F) d L k 0 _))
      iapply (congr_ex (F := F) (G0 m d))
      iexists _; isplitr
      on_goal 2 => iexact Ho0'
      ipureintro
      refine win1_value m d L k 0 _ ?_
      intro r e
      show (slotM0).view.read (Elt F) (glue d L _) (ix2 r e) = _
      rw [View.read_apply, glue_slot0]
      fin_cases r
      · refine (cast_eq _ _).trans ((row0_write d L _ e _ _).trans ?_)
        unfold region1.sl.dma1
        exact (tab_row3 (F := F) d L (m (t3Loc d)) _ _ e).trans (congrArg (fun w => rowAt3 d (m (t3Loc d)) w e) (lane1_0 (F := F) d L k (lands0 m d L) 0 slices_S16_o0_S1))
      · refine (cast_eq _ _).trans ((row0_write d L _ e _ _).trans ?_)
        unfold region1.sl.dma2
        exact (tab_row3 (F := F) d L (m (t3Loc d)) _ _ e).trans (congrArg (fun w => rowAt3 d (m (t3Loc d)) w e) (lane1_0 (F := F) d L k (lands0 m d L) 1 slices_S16_o1_S1))
      · refine (cast_eq _ _).trans ((row0_write d L _ e _ _).trans ?_)
        unfold region1.sl.dma3
        exact (tab_row3 (F := F) d L (m (t3Loc d)) _ _ e).trans (congrArg (fun w => rowAt3 d (m (t3Loc d)) w e) (lane1_0 (F := F) d L k (lands0 m d L) 2 slices_S16_o2_S1))
      · refine (cast_eq _ _).trans ((row0_write d L _ e _ _).trans ?_)
        unfold region1.sl.dma4
        exact (tab_row3 (F := F) d L (m (t3Loc d)) _ _ e).trans (congrArg (fun w => rowAt3 d (m (t3Loc d)) w e) (lane1_0 (F := F) d L k (lands0 m d L) 3 slices_S16_o3_S1))
      · refine (cast_eq _ _).trans ((row0_write d L _ e _ _).trans ?_)
        unfold region1.sl.dma5
        exact (tab_row3 (F := F) d L (m (t3Loc d)) _ _ e).trans (congrArg (fun w => rowAt3 d (m (t3Loc d)) w e) (lane1_0 (F := F) d L k (lands0 m d L) 4 slices_S16_o4_S1))
      · refine (cast_eq _ _).trans ((row0_write d L _ e _ _).trans ?_)
        unfold region1.sl.dma6
        exact (tab_row3 (F := F) d L (m (t3Loc d)) _ _ e).trans (congrArg (fun w => rowAt3 d (m (t3Loc d)) w e) (lane1_0 (F := F) d L k (lands0 m d L) 5 slices_S16_o5_S1))
      · refine (cast_eq _ _).trans ((row0_write d L _ e _ _).trans ?_)
        unfold region1.sl.dma7
        exact (tab_row3 (F := F) d L (m (t3Loc d)) _ _ e).trans (congrArg (fun w => rowAt3 d (m (t3Loc d)) w e) (lane1_0 (F := F) d L k (lands0 m d L) 6 slices_S16_o6_S1))
      · refine (cast_eq _ _).trans ((row0_write d L _ e _ _).trans ?_)
        unfold region1.sl.dma8
        exact (tab_row3 (F := F) d L (m (t3Loc d)) _ _ e).trans (congrArg (fun w => rowAt3 d (m (t3Loc d)) w e) (lane1_0 (F := F) d L k (lands0 m d L) 7 slices_S16_o7_S1))
      · refine (cast_eq _ _).trans ((row0_write d L _ e _ _).trans ?_)
        unfold region1.sl.dma9
        exact (tab_row3 (F := F) d L (m (t3Loc d)) _ _ e).trans (congrArg (fun w => rowAt3 d (m (t3Loc d)) w e) (lane1_0 (F := F) d L k (lands0 m d L) 8 slices_S16_o8_S1))
      · refine (cast_eq _ _).trans ((row0_write d L _ e _ _).trans ?_)
        unfold region1.sl.dma10
        exact (tab_row3 (F := F) d L (m (t3Loc d)) _ _ e).trans (congrArg (fun w => rowAt3 d (m (t3Loc d)) w e) (lane1_0 (F := F) d L k (lands0 m d L) 9 slices_S16_o9_S1))
      · refine (cast_eq _ _).trans ((row0_write d L _ e _ _).trans ?_)
        unfold region1.sl.dma11
        exact (tab_row3 (F := F) d L (m (t3Loc d)) _ _ e).trans (congrArg (fun w => rowAt3 d (m (t3Loc d)) w e) (lane1_0 (F := F) d L k (lands0 m d L) 10 slices_S16_o10_S1))
      · refine (cast_eq _ _).trans ((row0_write d L _ e _ _).trans ?_)
        unfold region1.sl.dma12
        exact (tab_row3 (F := F) d L (m (t3Loc d)) _ _ e).trans (congrArg (fun w => rowAt3 d (m (t3Loc d)) w e) (lane1_0 (F := F) d L k (lands0 m d L) 11 slices_S16_o11_S1))
      · refine (cast_eq _ _).trans ((row0_write d L _ e _ _).trans ?_)
        unfold region1.sl.dma13
        exact (tab_row3 (F := F) d L (m (t3Loc d)) _ _ e).trans (congrArg (fun w => rowAt3 d (m (t3Loc d)) w e) (lane1_0 (F := F) d L k (lands0 m d L) 12 slices_S16_o12_S1))
      · refine (cast_eq _ _).trans ((row0_write d L _ e _ _).trans ?_)
        unfold region1.sl.dma14
        exact (tab_row3 (F := F) d L (m (t3Loc d)) _ _ e).trans (congrArg (fun w => rowAt3 d (m (t3Loc d)) w e) (lane1_0 (F := F) d L k (lands0 m d L) 13 slices_S16_o13_S1))
      · refine (cast_eq _ _).trans ((row0_write d L _ e _ _).trans ?_)
        unfold region1.sl.dma15
        exact (tab_row3 (F := F) d L (m (t3Loc d)) _ _ e).trans (congrArg (fun w => rowAt3 d (m (t3Loc d)) w e) (lane1_0 (F := F) d L k (lands0 m d L) 14 slices_S16_o14_S1))
      · refine (cast_eq _ _).trans ((row0_write d L _ e _ _).trans ?_)
        unfold region1.sl.dma16
        exact (tab_row3 (F := F) d L (m (t3Loc d)) _ _ e).trans (congrArg (fun w => rowAt3 d (m (t3Loc d)) w e) (lane1_0 (F := F) d L k (lands0 m d L) 15 slices_S16_o15_S1))
      · refine (cast_eq _ _).trans ((row0_write d L _ e _ _).trans ?_)
        unfold region1.sl.dma18
        exact (tab_row3 (F := F) d L (m (t3Loc d)) _ _ e).trans (congrArg (fun w => rowAt3 d (m (t3Loc d)) w e) (lane1_1 (F := F) d L k (lands0 m d L) 0 slices_S16_o0_S1))
      · refine (cast_eq _ _).trans ((row0_write d L _ e _ _).trans ?_)
        unfold region1.sl.dma19
        exact (tab_row3 (F := F) d L (m (t3Loc d)) _ _ e).trans (congrArg (fun w => rowAt3 d (m (t3Loc d)) w e) (lane1_1 (F := F) d L k (lands0 m d L) 1 slices_S16_o1_S1))
      · refine (cast_eq _ _).trans ((row0_write d L _ e _ _).trans ?_)
        unfold region1.sl.dma20
        exact (tab_row3 (F := F) d L (m (t3Loc d)) _ _ e).trans (congrArg (fun w => rowAt3 d (m (t3Loc d)) w e) (lane1_1 (F := F) d L k (lands0 m d L) 2 slices_S16_o2_S1))
      · refine (cast_eq _ _).trans ((row0_write d L _ e _ _).trans ?_)
        unfold region1.sl.dma21
        exact (tab_row3 (F := F) d L (m (t3Loc d)) _ _ e).trans (congrArg (fun w => rowAt3 d (m (t3Loc d)) w e) (lane1_1 (F := F) d L k (lands0 m d L) 3 slices_S16_o3_S1))
      · refine (cast_eq _ _).trans ((row0_write d L _ e _ _).trans ?_)
        unfold region1.sl.dma22
        exact (tab_row3 (F := F) d L (m (t3Loc d)) _ _ e).trans (congrArg (fun w => rowAt3 d (m (t3Loc d)) w e) (lane1_1 (F := F) d L k (lands0 m d L) 4 slices_S16_o4_S1))
      · refine (cast_eq _ _).trans ((row0_write d L _ e _ _).trans ?_)
        unfold region1.sl.dma23
        exact (tab_row3 (F := F) d L (m (t3Loc d)) _ _ e).trans (congrArg (fun w => rowAt3 d (m (t3Loc d)) w e) (lane1_1 (F := F) d L k (lands0 m d L) 5 slices_S16_o5_S1))
      · refine (cast_eq _ _).trans ((row0_write d L _ e _ _).trans ?_)
        unfold region1.sl.dma24
        exact (tab_row3 (F := F) d L (m (t3Loc d)) _ _ e).trans (congrArg (fun w => rowAt3 d (m (t3Loc d)) w e) (lane1_1 (F := F) d L k (lands0 m d L) 6 slices_S16_o6_S1))
      · refine (cast_eq _ _).trans ((row0_write d L _ e _ _).trans ?_)
        unfold region1.sl.dma25
        exact (tab_row3 (F := F) d L (m (t3Loc d)) _ _ e).trans (congrArg (fun w => rowAt3 d (m (t3Loc d)) w e) (lane1_1 (F := F) d L k (lands0 m d L) 7 slices_S16_o7_S1))
      · refine (cast_eq _ _).trans ((row0_write d L _ e _ _).trans ?_)
        unfold region1.sl.dma26
        exact (tab_row3 (F := F) d L (m (t3Loc d)) _ _ e).trans (congrArg (fun w => rowAt3 d (m (t3Loc d)) w e) (lane1_1 (F := F) d L k (lands0 m d L) 8 slices_S16_o8_S1))
      · refine (cast_eq _ _).trans ((row0_write d L _ e _ _).trans ?_)
        unfold region1.sl.dma27
        exact (tab_row3 (F := F) d L (m (t3Loc d)) _ _ e).trans (congrArg (fun w => rowAt3 d (m (t3Loc d)) w e) (lane1_1 (F := F) d L k (lands0 m d L) 9 slices_S16_o9_S1))
      · refine (cast_eq _ _).trans ((row0_write d L _ e _ _).trans ?_)
        unfold region1.sl.dma28
        exact (tab_row3 (F := F) d L (m (t3Loc d)) _ _ e).trans (congrArg (fun w => rowAt3 d (m (t3Loc d)) w e) (lane1_1 (F := F) d L k (lands0 m d L) 10 slices_S16_o10_S1))
      · refine (cast_eq _ _).trans ((row0_write d L _ e _ _).trans ?_)
        unfold region1.sl.dma29
        exact (tab_row3 (F := F) d L (m (t3Loc d)) _ _ e).trans (congrArg (fun w => rowAt3 d (m (t3Loc d)) w e) (lane1_1 (F := F) d L k (lands0 m d L) 11 slices_S16_o11_S1))
      · refine (cast_eq _ _).trans ((row0_write d L _ e _ _).trans ?_)
        unfold region1.sl.dma30
        exact (tab_row3 (F := F) d L (m (t3Loc d)) _ _ e).trans (congrArg (fun w => rowAt3 d (m (t3Loc d)) w e) (lane1_1 (F := F) d L k (lands0 m d L) 12 slices_S16_o12_S1))
      · refine (cast_eq _ _).trans ((row0_write d L _ e _ _).trans ?_)
        unfold region1.sl.dma31
        exact (tab_row3 (F := F) d L (m (t3Loc d)) _ _ e).trans (congrArg (fun w => rowAt3 d (m (t3Loc d)) w e) (lane1_1 (F := F) d L k (lands0 m d L) 13 slices_S16_o13_S1))
      · refine (cast_eq _ _).trans ((row0_write d L _ e _ _).trans ?_)
        unfold region1.sl.dma32
        exact (tab_row3 (F := F) d L (m (t3Loc d)) _ _ e).trans (congrArg (fun w => rowAt3 d (m (t3Loc d)) w e) (lane1_1 (F := F) d L k (lands0 m d L) 14 slices_S16_o14_S1))
      · refine (cast_eq _ _).trans ((row0_write d L _ e _ _).trans ?_)
        unfold region1.sl.dma33
        exact (tab_row3 (F := F) d L (m (t3Loc d)) _ _ e).trans (congrArg (fun w => rowAt3 d (m (t3Loc d)) w e) (lane1_1 (F := F) d L k (lands0 m d L) 15 slices_S16_o15_S1))
      · refine (cast_eq _ _).trans ((row0_write d L _ e _ _).trans ?_)
        unfold region1.sl.dma35
        exact (tab_row3 (F := F) d L (m (t3Loc d)) _ _ e).trans (congrArg (fun w => rowAt3 d (m (t3Loc d)) w e) (lane1_2 (F := F) d L k (lands0 m d L) 0 slices_S16_o0_S1))
      · refine (cast_eq _ _).trans ((row0_write d L _ e _ _).trans ?_)
        unfold region1.sl.dma36
        exact (tab_row3 (F := F) d L (m (t3Loc d)) _ _ e).trans (congrArg (fun w => rowAt3 d (m (t3Loc d)) w e) (lane1_2 (F := F) d L k (lands0 m d L) 1 slices_S16_o1_S1))
      · refine (cast_eq _ _).trans ((row0_write d L _ e _ _).trans ?_)
        unfold region1.sl.dma37
        exact (tab_row3 (F := F) d L (m (t3Loc d)) _ _ e).trans (congrArg (fun w => rowAt3 d (m (t3Loc d)) w e) (lane1_2 (F := F) d L k (lands0 m d L) 2 slices_S16_o2_S1))
      · refine (cast_eq _ _).trans ((row0_write d L _ e _ _).trans ?_)
        unfold region1.sl.dma38
        exact (tab_row3 (F := F) d L (m (t3Loc d)) _ _ e).trans (congrArg (fun w => rowAt3 d (m (t3Loc d)) w e) (lane1_2 (F := F) d L k (lands0 m d L) 3 slices_S16_o3_S1))
      · refine (cast_eq _ _).trans ((row0_write d L _ e _ _).trans ?_)
        unfold region1.sl.dma39
        exact (tab_row3 (F := F) d L (m (t3Loc d)) _ _ e).trans (congrArg (fun w => rowAt3 d (m (t3Loc d)) w e) (lane1_2 (F := F) d L k (lands0 m d L) 4 slices_S16_o4_S1))
      · refine (cast_eq _ _).trans ((row0_write d L _ e _ _).trans ?_)
        unfold region1.sl.dma40
        exact (tab_row3 (F := F) d L (m (t3Loc d)) _ _ e).trans (congrArg (fun w => rowAt3 d (m (t3Loc d)) w e) (lane1_2 (F := F) d L k (lands0 m d L) 5 slices_S16_o5_S1))
      · refine (cast_eq _ _).trans ((row0_write d L _ e _ _).trans ?_)
        unfold region1.sl.dma41
        exact (tab_row3 (F := F) d L (m (t3Loc d)) _ _ e).trans (congrArg (fun w => rowAt3 d (m (t3Loc d)) w e) (lane1_2 (F := F) d L k (lands0 m d L) 6 slices_S16_o6_S1))
      · refine (cast_eq _ _).trans ((row0_write d L _ e _ _).trans ?_)
        unfold region1.sl.dma42
        exact (tab_row3 (F := F) d L (m (t3Loc d)) _ _ e).trans (congrArg (fun w => rowAt3 d (m (t3Loc d)) w e) (lane1_2 (F := F) d L k (lands0 m d L) 7 slices_S16_o7_S1))
      · refine (cast_eq _ _).trans ((row0_write d L _ e _ _).trans ?_)
        unfold region1.sl.dma43
        exact (tab_row3 (F := F) d L (m (t3Loc d)) _ _ e).trans (congrArg (fun w => rowAt3 d (m (t3Loc d)) w e) (lane1_2 (F := F) d L k (lands0 m d L) 8 slices_S16_o8_S1))
      · refine (cast_eq _ _).trans ((row0_write d L _ e _ _).trans ?_)
        unfold region1.sl.dma44
        exact (tab_row3 (F := F) d L (m (t3Loc d)) _ _ e).trans (congrArg (fun w => rowAt3 d (m (t3Loc d)) w e) (lane1_2 (F := F) d L k (lands0 m d L) 9 slices_S16_o9_S1))
      · refine (cast_eq _ _).trans ((row0_write d L _ e _ _).trans ?_)
        unfold region1.sl.dma45
        exact (tab_row3 (F := F) d L (m (t3Loc d)) _ _ e).trans (congrArg (fun w => rowAt3 d (m (t3Loc d)) w e) (lane1_2 (F := F) d L k (lands0 m d L) 10 slices_S16_o10_S1))
      · refine (cast_eq _ _).trans ((row0_write d L _ e _ _).trans ?_)
        unfold region1.sl.dma46
        exact (tab_row3 (F := F) d L (m (t3Loc d)) _ _ e).trans (congrArg (fun w => rowAt3 d (m (t3Loc d)) w e) (lane1_2 (F := F) d L k (lands0 m d L) 11 slices_S16_o11_S1))
      · refine (cast_eq _ _).trans ((row0_write d L _ e _ _).trans ?_)
        unfold region1.sl.dma47
        exact (tab_row3 (F := F) d L (m (t3Loc d)) _ _ e).trans (congrArg (fun w => rowAt3 d (m (t3Loc d)) w e) (lane1_2 (F := F) d L k (lands0 m d L) 12 slices_S16_o12_S1))
      · refine (cast_eq _ _).trans ((row0_write d L _ e _ _).trans ?_)
        unfold region1.sl.dma48
        exact (tab_row3 (F := F) d L (m (t3Loc d)) _ _ e).trans (congrArg (fun w => rowAt3 d (m (t3Loc d)) w e) (lane1_2 (F := F) d L k (lands0 m d L) 13 slices_S16_o13_S1))
      · refine (cast_eq _ _).trans ((row0_write d L _ e _ _).trans ?_)
        unfold region1.sl.dma49
        exact (tab_row3 (F := F) d L (m (t3Loc d)) _ _ e).trans (congrArg (fun w => rowAt3 d (m (t3Loc d)) w e) (lane1_2 (F := F) d L k (lands0 m d L) 14 slices_S16_o14_S1))
      · refine (cast_eq _ _).trans ((row0_write d L _ e _ _).trans ?_)
        unfold region1.sl.dma50
        exact (tab_row3 (F := F) d L (m (t3Loc d)) _ _ e).trans (congrArg (fun w => rowAt3 d (m (t3Loc d)) w e) (lane1_2 (F := F) d L k (lands0 m d L) 15 slices_S16_o15_S1))
      · refine (cast_eq _ _).trans ((row0_write d L _ e _ _).trans ?_)
        unfold region1.sl.dma52
        exact (tab_row3 (F := F) d L (m (t3Loc d)) _ _ e).trans (congrArg (fun w => rowAt3 d (m (t3Loc d)) w e) (lane1_3 (F := F) d L k (lands0 m d L) 0 slices_S16_o0_S1))
      · refine (cast_eq _ _).trans ((row0_write d L _ e _ _).trans ?_)
        unfold region1.sl.dma53
        exact (tab_row3 (F := F) d L (m (t3Loc d)) _ _ e).trans (congrArg (fun w => rowAt3 d (m (t3Loc d)) w e) (lane1_3 (F := F) d L k (lands0 m d L) 1 slices_S16_o1_S1))
      · refine (cast_eq _ _).trans ((row0_write d L _ e _ _).trans ?_)
        unfold region1.sl.dma54
        exact (tab_row3 (F := F) d L (m (t3Loc d)) _ _ e).trans (congrArg (fun w => rowAt3 d (m (t3Loc d)) w e) (lane1_3 (F := F) d L k (lands0 m d L) 2 slices_S16_o2_S1))
      · refine (cast_eq _ _).trans ((row0_write d L _ e _ _).trans ?_)
        unfold region1.sl.dma55
        exact (tab_row3 (F := F) d L (m (t3Loc d)) _ _ e).trans (congrArg (fun w => rowAt3 d (m (t3Loc d)) w e) (lane1_3 (F := F) d L k (lands0 m d L) 3 slices_S16_o3_S1))
      · refine (cast_eq _ _).trans ((row0_write d L _ e _ _).trans ?_)
        unfold region1.sl.dma56
        exact (tab_row3 (F := F) d L (m (t3Loc d)) _ _ e).trans (congrArg (fun w => rowAt3 d (m (t3Loc d)) w e) (lane1_3 (F := F) d L k (lands0 m d L) 4 slices_S16_o4_S1))
      · refine (cast_eq _ _).trans ((row0_write d L _ e _ _).trans ?_)
        unfold region1.sl.dma57
        exact (tab_row3 (F := F) d L (m (t3Loc d)) _ _ e).trans (congrArg (fun w => rowAt3 d (m (t3Loc d)) w e) (lane1_3 (F := F) d L k (lands0 m d L) 5 slices_S16_o5_S1))
      · refine (cast_eq _ _).trans ((row0_write d L _ e _ _).trans ?_)
        unfold region1.sl.dma58
        exact (tab_row3 (F := F) d L (m (t3Loc d)) _ _ e).trans (congrArg (fun w => rowAt3 d (m (t3Loc d)) w e) (lane1_3 (F := F) d L k (lands0 m d L) 6 slices_S16_o6_S1))
      · refine (cast_eq _ _).trans ((row0_write d L _ e _ _).trans ?_)
        unfold region1.sl.dma59
        exact (tab_row3 (F := F) d L (m (t3Loc d)) _ _ e).trans (congrArg (fun w => rowAt3 d (m (t3Loc d)) w e) (lane1_3 (F := F) d L k (lands0 m d L) 7 slices_S16_o7_S1))
      · refine (cast_eq _ _).trans ((row0_write d L _ e _ _).trans ?_)
        unfold region1.sl.dma60
        exact (tab_row3 (F := F) d L (m (t3Loc d)) _ _ e).trans (congrArg (fun w => rowAt3 d (m (t3Loc d)) w e) (lane1_3 (F := F) d L k (lands0 m d L) 8 slices_S16_o8_S1))
      · refine (cast_eq _ _).trans ((row0_write d L _ e _ _).trans ?_)
        unfold region1.sl.dma61
        exact (tab_row3 (F := F) d L (m (t3Loc d)) _ _ e).trans (congrArg (fun w => rowAt3 d (m (t3Loc d)) w e) (lane1_3 (F := F) d L k (lands0 m d L) 9 slices_S16_o9_S1))
      · refine (cast_eq _ _).trans ((row0_write d L _ e _ _).trans ?_)
        unfold region1.sl.dma62
        exact (tab_row3 (F := F) d L (m (t3Loc d)) _ _ e).trans (congrArg (fun w => rowAt3 d (m (t3Loc d)) w e) (lane1_3 (F := F) d L k (lands0 m d L) 10 slices_S16_o10_S1))
      · refine (cast_eq _ _).trans ((row0_write d L _ e _ _).trans ?_)
        unfold region1.sl.dma63
        exact (tab_row3 (F := F) d L (m (t3Loc d)) _ _ e).trans (congrArg (fun w => rowAt3 d (m (t3Loc d)) w e) (lane1_3 (F := F) d L k (lands0 m d L) 11 slices_S16_o11_S1))
      · refine (cast_eq _ _).trans ((row0_write d L _ e _ _).trans ?_)
        unfold region1.sl.dma64
        exact (tab_row3 (F := F) d L (m (t3Loc d)) _ _ e).trans (congrArg (fun w => rowAt3 d (m (t3Loc d)) w e) (lane1_3 (F := F) d L k (lands0 m d L) 12 slices_S16_o12_S1))
      · refine (cast_eq _ _).trans ((row0_write d L _ e _ _).trans ?_)
        unfold region1.sl.dma65
        exact (tab_row3 (F := F) d L (m (t3Loc d)) _ _ e).trans (congrArg (fun w => rowAt3 d (m (t3Loc d)) w e) (lane1_3 (F := F) d L k (lands0 m d L) 13 slices_S16_o13_S1))
      · refine (cast_eq _ _).trans ((row0_write d L _ e _ _).trans ?_)
        unfold region1.sl.dma66
        exact (tab_row3 (F := F) d L (m (t3Loc d)) _ _ e).trans (congrArg (fun w => rowAt3 d (m (t3Loc d)) w e) (lane1_3 (F := F) d L k (lands0 m d L) 14 slices_S16_o14_S1))
      · refine (cast_eq _ _).trans ((row0_write d L _ e _ _).trans ?_)
        unfold region1.sl.dma67
        exact (tab_row3 (F := F) d L (m (t3Loc d)) _ _ e).trans (congrArg (fun w => rowAt3 d (m (t3Loc d)) w e) (lane1_3 (F := F) d L k (lands0 m d L) 15 slices_S16_o15_S1))
    isplitl [Ho1']
    · iapply (Entails.of_eq (pts_ouWin1 (F := F) d L k 1 _))
      iapply (congr_ex (F := F) (G0 m d))
      iexists _; isplitr
      on_goal 2 => iexact Ho1'
      ipureintro
      refine win1_value m d L k 1 _ ?_
      intro r e
      show (slotM1).view.read (Elt F) (glue d L _) (ix2 r e) = _
      rw [View.read_apply, glue_slot1]
      fin_cases r
      · refine (cast_eq _ _).trans ((row1_write d L _ e _ _).trans ?_)
        unfold region1.sl.dma69
        exact (tab_row3 (F := F) d L (m (t3Loc d)) _ _ e).trans (congrArg (fun w => rowAt3 d (m (t3Loc d)) w e) (lane1_4 (F := F) d L k (lands0 m d L) 0 slices_S16_o0_S1))
      · refine (cast_eq _ _).trans ((row1_write d L _ e _ _).trans ?_)
        unfold region1.sl.dma70
        exact (tab_row3 (F := F) d L (m (t3Loc d)) _ _ e).trans (congrArg (fun w => rowAt3 d (m (t3Loc d)) w e) (lane1_4 (F := F) d L k (lands0 m d L) 1 slices_S16_o1_S1))
      · refine (cast_eq _ _).trans ((row1_write d L _ e _ _).trans ?_)
        unfold region1.sl.dma71
        exact (tab_row3 (F := F) d L (m (t3Loc d)) _ _ e).trans (congrArg (fun w => rowAt3 d (m (t3Loc d)) w e) (lane1_4 (F := F) d L k (lands0 m d L) 2 slices_S16_o2_S1))
      · refine (cast_eq _ _).trans ((row1_write d L _ e _ _).trans ?_)
        unfold region1.sl.dma72
        exact (tab_row3 (F := F) d L (m (t3Loc d)) _ _ e).trans (congrArg (fun w => rowAt3 d (m (t3Loc d)) w e) (lane1_4 (F := F) d L k (lands0 m d L) 3 slices_S16_o3_S1))
      · refine (cast_eq _ _).trans ((row1_write d L _ e _ _).trans ?_)
        unfold region1.sl.dma73
        exact (tab_row3 (F := F) d L (m (t3Loc d)) _ _ e).trans (congrArg (fun w => rowAt3 d (m (t3Loc d)) w e) (lane1_4 (F := F) d L k (lands0 m d L) 4 slices_S16_o4_S1))
      · refine (cast_eq _ _).trans ((row1_write d L _ e _ _).trans ?_)
        unfold region1.sl.dma74
        exact (tab_row3 (F := F) d L (m (t3Loc d)) _ _ e).trans (congrArg (fun w => rowAt3 d (m (t3Loc d)) w e) (lane1_4 (F := F) d L k (lands0 m d L) 5 slices_S16_o5_S1))
      · refine (cast_eq _ _).trans ((row1_write d L _ e _ _).trans ?_)
        unfold region1.sl.dma75
        exact (tab_row3 (F := F) d L (m (t3Loc d)) _ _ e).trans (congrArg (fun w => rowAt3 d (m (t3Loc d)) w e) (lane1_4 (F := F) d L k (lands0 m d L) 6 slices_S16_o6_S1))
      · refine (cast_eq _ _).trans ((row1_write d L _ e _ _).trans ?_)
        unfold region1.sl.dma76
        exact (tab_row3 (F := F) d L (m (t3Loc d)) _ _ e).trans (congrArg (fun w => rowAt3 d (m (t3Loc d)) w e) (lane1_4 (F := F) d L k (lands0 m d L) 7 slices_S16_o7_S1))
      · refine (cast_eq _ _).trans ((row1_write d L _ e _ _).trans ?_)
        unfold region1.sl.dma77
        exact (tab_row3 (F := F) d L (m (t3Loc d)) _ _ e).trans (congrArg (fun w => rowAt3 d (m (t3Loc d)) w e) (lane1_4 (F := F) d L k (lands0 m d L) 8 slices_S16_o8_S1))
      · refine (cast_eq _ _).trans ((row1_write d L _ e _ _).trans ?_)
        unfold region1.sl.dma78
        exact (tab_row3 (F := F) d L (m (t3Loc d)) _ _ e).trans (congrArg (fun w => rowAt3 d (m (t3Loc d)) w e) (lane1_4 (F := F) d L k (lands0 m d L) 9 slices_S16_o9_S1))
      · refine (cast_eq _ _).trans ((row1_write d L _ e _ _).trans ?_)
        unfold region1.sl.dma79
        exact (tab_row3 (F := F) d L (m (t3Loc d)) _ _ e).trans (congrArg (fun w => rowAt3 d (m (t3Loc d)) w e) (lane1_4 (F := F) d L k (lands0 m d L) 10 slices_S16_o10_S1))
      · refine (cast_eq _ _).trans ((row1_write d L _ e _ _).trans ?_)
        unfold region1.sl.dma80
        exact (tab_row3 (F := F) d L (m (t3Loc d)) _ _ e).trans (congrArg (fun w => rowAt3 d (m (t3Loc d)) w e) (lane1_4 (F := F) d L k (lands0 m d L) 11 slices_S16_o11_S1))
      · refine (cast_eq _ _).trans ((row1_write d L _ e _ _).trans ?_)
        unfold region1.sl.dma81
        exact (tab_row3 (F := F) d L (m (t3Loc d)) _ _ e).trans (congrArg (fun w => rowAt3 d (m (t3Loc d)) w e) (lane1_4 (F := F) d L k (lands0 m d L) 12 slices_S16_o12_S1))
      · refine (cast_eq _ _).trans ((row1_write d L _ e _ _).trans ?_)
        unfold region1.sl.dma82
        exact (tab_row3 (F := F) d L (m (t3Loc d)) _ _ e).trans (congrArg (fun w => rowAt3 d (m (t3Loc d)) w e) (lane1_4 (F := F) d L k (lands0 m d L) 13 slices_S16_o13_S1))
      · refine (cast_eq _ _).trans ((row1_write d L _ e _ _).trans ?_)
        unfold region1.sl.dma83
        exact (tab_row3 (F := F) d L (m (t3Loc d)) _ _ e).trans (congrArg (fun w => rowAt3 d (m (t3Loc d)) w e) (lane1_4 (F := F) d L k (lands0 m d L) 14 slices_S16_o14_S1))
      · refine (cast_eq _ _).trans ((row1_write d L _ e _ _).trans ?_)
        unfold region1.sl.dma84
        exact (tab_row3 (F := F) d L (m (t3Loc d)) _ _ e).trans (congrArg (fun w => rowAt3 d (m (t3Loc d)) w e) (lane1_4 (F := F) d L k (lands0 m d L) 15 slices_S16_o15_S1))
      · refine (cast_eq _ _).trans ((row1_write d L _ e _ _).trans ?_)
        unfold region1.sl.dma86
        exact (tab_row3 (F := F) d L (m (t3Loc d)) _ _ e).trans (congrArg (fun w => rowAt3 d (m (t3Loc d)) w e) (lane1_5 (F := F) d L k (lands0 m d L) 0 slices_S16_o0_S1))
      · refine (cast_eq _ _).trans ((row1_write d L _ e _ _).trans ?_)
        unfold region1.sl.dma87
        exact (tab_row3 (F := F) d L (m (t3Loc d)) _ _ e).trans (congrArg (fun w => rowAt3 d (m (t3Loc d)) w e) (lane1_5 (F := F) d L k (lands0 m d L) 1 slices_S16_o1_S1))
      · refine (cast_eq _ _).trans ((row1_write d L _ e _ _).trans ?_)
        unfold region1.sl.dma88
        exact (tab_row3 (F := F) d L (m (t3Loc d)) _ _ e).trans (congrArg (fun w => rowAt3 d (m (t3Loc d)) w e) (lane1_5 (F := F) d L k (lands0 m d L) 2 slices_S16_o2_S1))
      · refine (cast_eq _ _).trans ((row1_write d L _ e _ _).trans ?_)
        unfold region1.sl.dma89
        exact (tab_row3 (F := F) d L (m (t3Loc d)) _ _ e).trans (congrArg (fun w => rowAt3 d (m (t3Loc d)) w e) (lane1_5 (F := F) d L k (lands0 m d L) 3 slices_S16_o3_S1))
      · refine (cast_eq _ _).trans ((row1_write d L _ e _ _).trans ?_)
        unfold region1.sl.dma90
        exact (tab_row3 (F := F) d L (m (t3Loc d)) _ _ e).trans (congrArg (fun w => rowAt3 d (m (t3Loc d)) w e) (lane1_5 (F := F) d L k (lands0 m d L) 4 slices_S16_o4_S1))
      · refine (cast_eq _ _).trans ((row1_write d L _ e _ _).trans ?_)
        unfold region1.sl.dma91
        exact (tab_row3 (F := F) d L (m (t3Loc d)) _ _ e).trans (congrArg (fun w => rowAt3 d (m (t3Loc d)) w e) (lane1_5 (F := F) d L k (lands0 m d L) 5 slices_S16_o5_S1))
      · refine (cast_eq _ _).trans ((row1_write d L _ e _ _).trans ?_)
        unfold region1.sl.dma92
        exact (tab_row3 (F := F) d L (m (t3Loc d)) _ _ e).trans (congrArg (fun w => rowAt3 d (m (t3Loc d)) w e) (lane1_5 (F := F) d L k (lands0 m d L) 6 slices_S16_o6_S1))
      · refine (cast_eq _ _).trans ((row1_write d L _ e _ _).trans ?_)
        unfold region1.sl.dma93
        exact (tab_row3 (F := F) d L (m (t3Loc d)) _ _ e).trans (congrArg (fun w => rowAt3 d (m (t3Loc d)) w e) (lane1_5 (F := F) d L k (lands0 m d L) 7 slices_S16_o7_S1))
      · refine (cast_eq _ _).trans ((row1_write d L _ e _ _).trans ?_)
        unfold region1.sl.dma94
        exact (tab_row3 (F := F) d L (m (t3Loc d)) _ _ e).trans (congrArg (fun w => rowAt3 d (m (t3Loc d)) w e) (lane1_5 (F := F) d L k (lands0 m d L) 8 slices_S16_o8_S1))
      · refine (cast_eq _ _).trans ((row1_write d L _ e _ _).trans ?_)
        unfold region1.sl.dma95
        exact (tab_row3 (F := F) d L (m (t3Loc d)) _ _ e).trans (congrArg (fun w => rowAt3 d (m (t3Loc d)) w e) (lane1_5 (F := F) d L k (lands0 m d L) 9 slices_S16_o9_S1))
      · refine (cast_eq _ _).trans ((row1_write d L _ e _ _).trans ?_)
        unfold region1.sl.dma96
        exact (tab_row3 (F := F) d L (m (t3Loc d)) _ _ e).trans (congrArg (fun w => rowAt3 d (m (t3Loc d)) w e) (lane1_5 (F := F) d L k (lands0 m d L) 10 slices_S16_o10_S1))
      · refine (cast_eq _ _).trans ((row1_write d L _ e _ _).trans ?_)
        unfold region1.sl.dma97
        exact (tab_row3 (F := F) d L (m (t3Loc d)) _ _ e).trans (congrArg (fun w => rowAt3 d (m (t3Loc d)) w e) (lane1_5 (F := F) d L k (lands0 m d L) 11 slices_S16_o11_S1))
      · refine (cast_eq _ _).trans ((row1_write d L _ e _ _).trans ?_)
        unfold region1.sl.dma98
        exact (tab_row3 (F := F) d L (m (t3Loc d)) _ _ e).trans (congrArg (fun w => rowAt3 d (m (t3Loc d)) w e) (lane1_5 (F := F) d L k (lands0 m d L) 12 slices_S16_o12_S1))
      · refine (cast_eq _ _).trans ((row1_write d L _ e _ _).trans ?_)
        unfold region1.sl.dma99
        exact (tab_row3 (F := F) d L (m (t3Loc d)) _ _ e).trans (congrArg (fun w => rowAt3 d (m (t3Loc d)) w e) (lane1_5 (F := F) d L k (lands0 m d L) 13 slices_S16_o13_S1))
      · refine (cast_eq _ _).trans ((row1_write d L _ e _ _).trans ?_)
        unfold region1.sl.dma100
        exact (tab_row3 (F := F) d L (m (t3Loc d)) _ _ e).trans (congrArg (fun w => rowAt3 d (m (t3Loc d)) w e) (lane1_5 (F := F) d L k (lands0 m d L) 14 slices_S16_o14_S1))
      · refine (cast_eq _ _).trans ((row1_write d L _ e _ _).trans ?_)
        unfold region1.sl.dma101
        exact (tab_row3 (F := F) d L (m (t3Loc d)) _ _ e).trans (congrArg (fun w => rowAt3 d (m (t3Loc d)) w e) (lane1_5 (F := F) d L k (lands0 m d L) 15 slices_S16_o15_S1))
      · refine (cast_eq _ _).trans ((row1_write d L _ e _ _).trans ?_)
        unfold region1.sl.dma103
        exact (tab_row3 (F := F) d L (m (t3Loc d)) _ _ e).trans (congrArg (fun w => rowAt3 d (m (t3Loc d)) w e) (lane1_6 (F := F) d L k (lands0 m d L) 0 slices_S16_o0_S1))
      · refine (cast_eq _ _).trans ((row1_write d L _ e _ _).trans ?_)
        unfold region1.sl.dma104
        exact (tab_row3 (F := F) d L (m (t3Loc d)) _ _ e).trans (congrArg (fun w => rowAt3 d (m (t3Loc d)) w e) (lane1_6 (F := F) d L k (lands0 m d L) 1 slices_S16_o1_S1))
      · refine (cast_eq _ _).trans ((row1_write d L _ e _ _).trans ?_)
        unfold region1.sl.dma105
        exact (tab_row3 (F := F) d L (m (t3Loc d)) _ _ e).trans (congrArg (fun w => rowAt3 d (m (t3Loc d)) w e) (lane1_6 (F := F) d L k (lands0 m d L) 2 slices_S16_o2_S1))
      · refine (cast_eq _ _).trans ((row1_write d L _ e _ _).trans ?_)
        unfold region1.sl.dma106
        exact (tab_row3 (F := F) d L (m (t3Loc d)) _ _ e).trans (congrArg (fun w => rowAt3 d (m (t3Loc d)) w e) (lane1_6 (F := F) d L k (lands0 m d L) 3 slices_S16_o3_S1))
      · refine (cast_eq _ _).trans ((row1_write d L _ e _ _).trans ?_)
        unfold region1.sl.dma107
        exact (tab_row3 (F := F) d L (m (t3Loc d)) _ _ e).trans (congrArg (fun w => rowAt3 d (m (t3Loc d)) w e) (lane1_6 (F := F) d L k (lands0 m d L) 4 slices_S16_o4_S1))
      · refine (cast_eq _ _).trans ((row1_write d L _ e _ _).trans ?_)
        unfold region1.sl.dma108
        exact (tab_row3 (F := F) d L (m (t3Loc d)) _ _ e).trans (congrArg (fun w => rowAt3 d (m (t3Loc d)) w e) (lane1_6 (F := F) d L k (lands0 m d L) 5 slices_S16_o5_S1))
      · refine (cast_eq _ _).trans ((row1_write d L _ e _ _).trans ?_)
        unfold region1.sl.dma109
        exact (tab_row3 (F := F) d L (m (t3Loc d)) _ _ e).trans (congrArg (fun w => rowAt3 d (m (t3Loc d)) w e) (lane1_6 (F := F) d L k (lands0 m d L) 6 slices_S16_o6_S1))
      · refine (cast_eq _ _).trans ((row1_write d L _ e _ _).trans ?_)
        unfold region1.sl.dma110
        exact (tab_row3 (F := F) d L (m (t3Loc d)) _ _ e).trans (congrArg (fun w => rowAt3 d (m (t3Loc d)) w e) (lane1_6 (F := F) d L k (lands0 m d L) 7 slices_S16_o7_S1))
      · refine (cast_eq _ _).trans ((row1_write d L _ e _ _).trans ?_)
        unfold region1.sl.dma111
        exact (tab_row3 (F := F) d L (m (t3Loc d)) _ _ e).trans (congrArg (fun w => rowAt3 d (m (t3Loc d)) w e) (lane1_6 (F := F) d L k (lands0 m d L) 8 slices_S16_o8_S1))
      · refine (cast_eq _ _).trans ((row1_write d L _ e _ _).trans ?_)
        unfold region1.sl.dma112
        exact (tab_row3 (F := F) d L (m (t3Loc d)) _ _ e).trans (congrArg (fun w => rowAt3 d (m (t3Loc d)) w e) (lane1_6 (F := F) d L k (lands0 m d L) 9 slices_S16_o9_S1))
      · refine (cast_eq _ _).trans ((row1_write d L _ e _ _).trans ?_)
        unfold region1.sl.dma113
        exact (tab_row3 (F := F) d L (m (t3Loc d)) _ _ e).trans (congrArg (fun w => rowAt3 d (m (t3Loc d)) w e) (lane1_6 (F := F) d L k (lands0 m d L) 10 slices_S16_o10_S1))
      · refine (cast_eq _ _).trans ((row1_write d L _ e _ _).trans ?_)
        unfold region1.sl.dma114
        exact (tab_row3 (F := F) d L (m (t3Loc d)) _ _ e).trans (congrArg (fun w => rowAt3 d (m (t3Loc d)) w e) (lane1_6 (F := F) d L k (lands0 m d L) 11 slices_S16_o11_S1))
      · refine (cast_eq _ _).trans ((row1_write d L _ e _ _).trans ?_)
        unfold region1.sl.dma115
        exact (tab_row3 (F := F) d L (m (t3Loc d)) _ _ e).trans (congrArg (fun w => rowAt3 d (m (t3Loc d)) w e) (lane1_6 (F := F) d L k (lands0 m d L) 12 slices_S16_o12_S1))
      · refine (cast_eq _ _).trans ((row1_write d L _ e _ _).trans ?_)
        unfold region1.sl.dma116
        exact (tab_row3 (F := F) d L (m (t3Loc d)) _ _ e).trans (congrArg (fun w => rowAt3 d (m (t3Loc d)) w e) (lane1_6 (F := F) d L k (lands0 m d L) 13 slices_S16_o13_S1))
      · refine (cast_eq _ _).trans ((row1_write d L _ e _ _).trans ?_)
        unfold region1.sl.dma117
        exact (tab_row3 (F := F) d L (m (t3Loc d)) _ _ e).trans (congrArg (fun w => rowAt3 d (m (t3Loc d)) w e) (lane1_6 (F := F) d L k (lands0 m d L) 14 slices_S16_o14_S1))
      · refine (cast_eq _ _).trans ((row1_write d L _ e _ _).trans ?_)
        unfold region1.sl.dma118
        exact (tab_row3 (F := F) d L (m (t3Loc d)) _ _ e).trans (congrArg (fun w => rowAt3 d (m (t3Loc d)) w e) (lane1_6 (F := F) d L k (lands0 m d L) 15 slices_S16_o15_S1))
      · refine (cast_eq _ _).trans ((row1_write d L _ e _ _).trans ?_)
        unfold region1.sl.dma120
        exact (tab_row3 (F := F) d L (m (t3Loc d)) _ _ e).trans (congrArg (fun w => rowAt3 d (m (t3Loc d)) w e) (lane1_7 (F := F) d L k (lands0 m d L) 0 slices_S16_o0_S1))
      · refine (cast_eq _ _).trans ((row1_write d L _ e _ _).trans ?_)
        unfold region1.sl.dma121
        exact (tab_row3 (F := F) d L (m (t3Loc d)) _ _ e).trans (congrArg (fun w => rowAt3 d (m (t3Loc d)) w e) (lane1_7 (F := F) d L k (lands0 m d L) 1 slices_S16_o1_S1))
      · refine (cast_eq _ _).trans ((row1_write d L _ e _ _).trans ?_)
        unfold region1.sl.dma122
        exact (tab_row3 (F := F) d L (m (t3Loc d)) _ _ e).trans (congrArg (fun w => rowAt3 d (m (t3Loc d)) w e) (lane1_7 (F := F) d L k (lands0 m d L) 2 slices_S16_o2_S1))
      · refine (cast_eq _ _).trans ((row1_write d L _ e _ _).trans ?_)
        unfold region1.sl.dma123
        exact (tab_row3 (F := F) d L (m (t3Loc d)) _ _ e).trans (congrArg (fun w => rowAt3 d (m (t3Loc d)) w e) (lane1_7 (F := F) d L k (lands0 m d L) 3 slices_S16_o3_S1))
      · refine (cast_eq _ _).trans ((row1_write d L _ e _ _).trans ?_)
        unfold region1.sl.dma124
        exact (tab_row3 (F := F) d L (m (t3Loc d)) _ _ e).trans (congrArg (fun w => rowAt3 d (m (t3Loc d)) w e) (lane1_7 (F := F) d L k (lands0 m d L) 4 slices_S16_o4_S1))
      · refine (cast_eq _ _).trans ((row1_write d L _ e _ _).trans ?_)
        unfold region1.sl.dma125
        exact (tab_row3 (F := F) d L (m (t3Loc d)) _ _ e).trans (congrArg (fun w => rowAt3 d (m (t3Loc d)) w e) (lane1_7 (F := F) d L k (lands0 m d L) 5 slices_S16_o5_S1))
      · refine (cast_eq _ _).trans ((row1_write d L _ e _ _).trans ?_)
        unfold region1.sl.dma126
        exact (tab_row3 (F := F) d L (m (t3Loc d)) _ _ e).trans (congrArg (fun w => rowAt3 d (m (t3Loc d)) w e) (lane1_7 (F := F) d L k (lands0 m d L) 6 slices_S16_o6_S1))
      · refine (cast_eq _ _).trans ((row1_write d L _ e _ _).trans ?_)
        unfold region1.sl.dma127
        exact (tab_row3 (F := F) d L (m (t3Loc d)) _ _ e).trans (congrArg (fun w => rowAt3 d (m (t3Loc d)) w e) (lane1_7 (F := F) d L k (lands0 m d L) 7 slices_S16_o7_S1))
      · refine (cast_eq _ _).trans ((row1_write d L _ e _ _).trans ?_)
        unfold region1.sl.dma128
        exact (tab_row3 (F := F) d L (m (t3Loc d)) _ _ e).trans (congrArg (fun w => rowAt3 d (m (t3Loc d)) w e) (lane1_7 (F := F) d L k (lands0 m d L) 8 slices_S16_o8_S1))
      · refine (cast_eq _ _).trans ((row1_write d L _ e _ _).trans ?_)
        unfold region1.sl.dma129
        exact (tab_row3 (F := F) d L (m (t3Loc d)) _ _ e).trans (congrArg (fun w => rowAt3 d (m (t3Loc d)) w e) (lane1_7 (F := F) d L k (lands0 m d L) 9 slices_S16_o9_S1))
      · refine (cast_eq _ _).trans ((row1_write d L _ e _ _).trans ?_)
        unfold region1.sl.dma130
        exact (tab_row3 (F := F) d L (m (t3Loc d)) _ _ e).trans (congrArg (fun w => rowAt3 d (m (t3Loc d)) w e) (lane1_7 (F := F) d L k (lands0 m d L) 10 slices_S16_o10_S1))
      · refine (cast_eq _ _).trans ((row1_write d L _ e _ _).trans ?_)
        unfold region1.sl.dma131
        exact (tab_row3 (F := F) d L (m (t3Loc d)) _ _ e).trans (congrArg (fun w => rowAt3 d (m (t3Loc d)) w e) (lane1_7 (F := F) d L k (lands0 m d L) 11 slices_S16_o11_S1))
      · refine (cast_eq _ _).trans ((row1_write d L _ e _ _).trans ?_)
        unfold region1.sl.dma132
        exact (tab_row3 (F := F) d L (m (t3Loc d)) _ _ e).trans (congrArg (fun w => rowAt3 d (m (t3Loc d)) w e) (lane1_7 (F := F) d L k (lands0 m d L) 12 slices_S16_o12_S1))
      · refine (cast_eq _ _).trans ((row1_write d L _ e _ _).trans ?_)
        unfold region1.sl.dma133
        exact (tab_row3 (F := F) d L (m (t3Loc d)) _ _ e).trans (congrArg (fun w => rowAt3 d (m (t3Loc d)) w e) (lane1_7 (F := F) d L k (lands0 m d L) 13 slices_S16_o13_S1))
      · refine (cast_eq _ _).trans ((row1_write d L _ e _ _).trans ?_)
        unfold region1.sl.dma134
        exact (tab_row3 (F := F) d L (m (t3Loc d)) _ _ e).trans (congrArg (fun w => rowAt3 d (m (t3Loc d)) w e) (lane1_7 (F := F) d L k (lands0 m d L) 14 slices_S16_o14_S1))
      · refine (cast_eq _ _).trans ((row1_write d L _ e _ _).trans ?_)
        unfold region1.sl.dma135
        exact (tab_row3 (F := F) d L (m (t3Loc d)) _ _ e).trans (congrArg (fun w => rowAt3 d (m (t3Loc d)) w e) (lane1_7 (F := F) d L k (lands0 m d L) 15 slices_S16_o15_S1))
    iexact Hrest
  iexists _; isplitr
  on_goal 2 => iexact HO
  ipureintro
  repeat' (first | exact hW' | refine waits_insert _ ?_)

end Cert.Proof.KIReg1

end
-- ==== Proof.KIReg2.lean ====
/-
  Loop 2 of the kernel, one trip.  The trip's 128 row copies are followed row by row: each row of a staging slot ends
  at the table row its index word names, the slot's 64 rows are joined, the slot is written to its window of the
  result, and the window then holds the lookup.
-/
import proofs.«206842_g87686052315543_cont_sun_m_497_29_alg».proof.Defs
import proofs.«206842_g87686052315543_cont_sun_m_497_29_alg».proof.Proof.KIRes
import proofs.«206842_g87686052315543_cont_sun_m_497_29_alg».proof.Proof.KIWin
import proofs.«206842_g87686052315543_cont_sun_m_497_29_alg».proof.Proof.KILand
import proofs.«206842_g87686052315543_cont_sun_m_497_29_alg».proof.Proof.KIRows
import proofs.«206842_g87686052315543_cont_sun_m_497_29_alg».proof.Proof.KIJoin
import proofs.«206842_g87686052315543_cont_sun_m_497_29_alg».proof.Proof.KIInv
import proofs.«206842_g87686052315543_cont_sun_m_497_29_alg».proof.Proof.KIVal
import Idealize.ShloMosaic.Lib.SparseCore.Launch
import Idealize.ShloMosaic.Lib.SparseCore.Ops
import Idealize.ShloMosaic.Lib.StableHlo.Run
import Idealize.ShloMosaic.Lib.Batch
import Idealize.ShloMosaic.Lib.Tactic
import Idealize.ShloMosaic.Lib.Pipeline.Kit
import proofs.«206842_g87686052315543_cont_sun_m_497_29_alg».proof.Proof.Gen.KernelIdeal
import proofs.«206842_g87686052315543_cont_sun_m_497_29_alg».proof.Proof.Gen.KernelIdeal.Skeleton

noncomputable section

namespace Cert.Proof.KIReg2

open Cert.KernelIdeal Cert.KernelIdeal.Gen Cert.Proof.KIRes Cert.Proof.KIWin Cert.Proof.KILand Cert.Proof.KIRows Cert.Proof.KIJoin Cert.Proof.KIInv Cert.Proof.KIVal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uidW" => (Memref.whole Cert.KernelIdeal.main_v0_scv : Memref Cert.KernelIdeal.sig Kind.scVector Space.hbm Cert.KernelIdeal.S128x128 EltTy.i32)
local notation "iidW" => (Memref.whole Cert.KernelIdeal.main_v1_scv : Memref Cert.KernelIdeal.sig Kind.scVector Space.hbm Cert.KernelIdeal.S128x128 EltTy.i32)
local notation "cidW" => (Memref.whole Cert.KernelIdeal.main_v2_scv : Memref Cert.KernelIdeal.sig Kind.scVector Space.hbm Cert.KernelIdeal.S128x128 EltTy.i32)
local notation "utW" => (Memref.whole Cert.KernelIdeal.main_arg3_scv : Memref Cert.KernelIdeal.sig Kind.scVector Space.hbm Cert.KernelIdeal.S1000000x64 EltTy.f32)
local notation "itW" => (Memref.whole Cert.KernelIdeal.main_arg4_scv : Memref Cert.KernelIdeal.sig Kind.scVector Space.hbm Cert.KernelIdeal.S1000000x64 EltTy.f32)
local notation "ctW" => (Memref.whole Cert.KernelIdeal.main_arg5_scv : Memref Cert.KernelIdeal.sig Kind.scVector Space.hbm Cert.KernelIdeal.S100000x64 EltTy.f32)
local notation "ouW" => (Memref.whole Cert.KernelIdeal.main_v3_0_scv : Memref Cert.KernelIdeal.sig Kind.scVector Space.hbm Cert.KernelIdeal.S16384x64 EltTy.f32)
local notation "oiW" => (Memref.whole Cert.KernelIdeal.main_v3_1_scv : Memref Cert.KernelIdeal.sig Kind.scVector Space.hbm Cert.KernelIdeal.S16384x64 EltTy.f32)
local notation "ocW" => (Memref.whole Cert.KernelIdeal.main_v3_2_scv : Memref Cert.KernelIdeal.sig Kind.scVector Space.hbm Cert.KernelIdeal.S16384x64 EltTy.f32)
local notation "l0W" => (Memref.whole Cert.KernelIdeal.cc0_scratch0 : Memref Cert.KernelIdeal.sig Kind.scVector Space.vmem Cert.KernelIdeal.S4x128 EltTy.i32)
local notation "l1W" => (Memref.whole Cert.KernelIdeal.cc0_scratch1 : Memref Cert.KernelIdeal.sig Kind.scVector Space.vmem Cert.KernelIdeal.S4x128 EltTy.i32)
local notation "l2W" => (Memref.whole Cert.KernelIdeal.cc0_scratch2 : Memref Cert.KernelIdeal.sig Kind.scVector Space.vmem Cert.KernelIdeal.S4x128 EltTy.i32)
local notation "bufW" => (Memref.whole Cert.KernelIdeal.cc0_scratch3 : Memref Cert.KernelIdeal.sig Kind.scVector Space.vmem Cert.KernelIdeal.S2x64x64 EltTy.f32)

variable [FloatOps F] (m : (ℓ : Loc nD τ sig) → Buf (Elt F) ℓ) (d : Dev nD) (L : grid0.Coords)

set_option maxRecDepth 65536 in
set_option maxHeartbeats 20000000 in
/-- One trip of loop 2: 128 rows of the table fetched into the two staging slots through 128 read tokens, each slot
    written out to its window of the result once all its rows have landed; the two windows then hold the lookup. -/
theorem region2 [∀ e, Nonempty (Elt F e)] (hpre : PreOK m) (O : CellTallies nD τ sig (HIx 1)) (W : Waits sig (HIx 1))
    (k : Fin k0_t2_loop.trips) (v2 : BitVec 32) :
    inv2 m d L O W (Fin.cast trips2 k).val ⟨⟩
      ⊢ wp frame (wpE (defs₀ (F := F)) 𝒱₀ (V d (cV L) (jV L)) none) Set.univ
          (k0_t2_body (F := F) L uidW (Memref.isWhole_whole _) iidW (Memref.isWhole_whole _) cidW (Memref.isWhole_whole _)
            utW (Memref.isWhole_whole _) itW (Memref.isWhole_whole _) ctW (Memref.isWhole_whole _)
            ouW (Memref.isWhole_whole _) oiW (Memref.isWhole_whole _) ocW (Memref.isWhole_whole _)
            l0W (Memref.isWhole_whole _) l1W (Memref.isWhole_whole _) l2W (Memref.isWhole_whole _) bufW (Memref.isWhole_whole _)
            cc0_scratch4 cc0_scratch5 cc0_scratch6 cc0_scratch7 cc0_scratch8 cc0_scratch9 cc0_scratch10 cc0_scratch11 cc0_scratch12 cc0_scratch13
            cc0_scoped0 cc0_scoped1 cc0_scoped2 v2 k ())
          (fun _ => inv2 m d L O W ((Fin.cast trips2 k).val + 1) ⟨⟩) := by
  have _p4 : Transfers.BatchOf (V d (cV L) (jV L)) (SemLoc.dma (sig := sig) cc0_scratch4.sem) 16 := trivial
  have _p5 : Transfers.BatchOf (V d (cV L) (jV L)) (SemLoc.dma (sig := sig) cc0_scratch5.sem) 16 := trivial
  have _p6 : Transfers.BatchOf (V d (cV L) (jV L)) (SemLoc.dma (sig := sig) cc0_scratch6.sem) 16 := trivial
  have _p7 : Transfers.BatchOf (V d (cV L) (jV L)) (SemLoc.dma (sig := sig) cc0_scratch7.sem) 16 := trivial
  have _p8 : Transfers.BatchOf (V d (cV L) (jV L)) (SemLoc.dma (sig := sig) cc0_scratch8.sem) 16 := trivial
  have _p9 : Transfers.BatchOf (V d (cV L) (jV L)) (SemLoc.dma (sig := sig) cc0_scratch9.sem) 16 := trivial
  have _p10 : Transfers.BatchOf (V d (cV L) (jV L)) (SemLoc.dma (sig := sig) cc0_scratch10.sem) 16 := trivial
  have _p11 : Transfers.BatchOf (V d (cV L) (jV L)) (SemLoc.dma (sig := sig) cc0_scratch11.sem) 16 := trivial
  have hfl := lands1_lt m d L hpre
  unfold inv2
  rw [toks128_unroll]
  iintro ⟨Hmw, Hl0, Htoks, ⟨%f0, Hslot0⟩, ⟨%f1, Hslot1⟩, Hs4, Hs5, Hs6, Hs7, Hs8, Hs9, Hs10, Hs11, Hs12, Hs13, Hout, %W', %hW', HO⟩
  icases Htoks with ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31, Hu32, Hu33, Hu34, Hu35, Hu36, Hu37, Hu38, Hu39, Hu40, Hu41, Hu42, Hu43, Hu44, Hu45, Hu46, Hu47, Hu48, Hu49, Hu50, Hu51, Hu52, Hu53, Hu54, Hu55, Hu56, Hu57, Hu58, Hu59, Hu60, Hu61, Hu62, Hu63, Hu64, Hu65, Hu66, Hu67, Hu68, Hu69, Hu70, Hu71, Hu72, Hu73, Hu74, Hu75, Hu76, Hu77, Hu78, Hu79, Hu80, Hu81, Hu82, Hu83, Hu84, Hu85, Hu86, Hu87, Hu88, Hu89, Hu90, Hu91, Hu92, Hu93, Hu94, Hu95, Hu96, Hu97, Hu98, Hu99, Hu100, Hu101, Hu102, Hu103, Hu104, Hu105, Hu106, Hu107, Hu108, Hu109, Hu110, Hu111, Hu112, Hu113, Hu114, Hu115, Hu116, Hu117, Hu118, Hu119, Hu120, Hu121, Hu122, Hu123, Hu124, Hu125, Hu126, Hu127, -⟩
  ihave Hrows0 := (Entails.of_eq (slot0_split d L f0)) $$ Hslot0
  icases Hrows0 with ⟨Hr0_0, Hr0_1, Hr0_2, Hr0_3, Hr0_4, Hr0_5, Hr0_6, Hr0_7, Hr0_8, Hr0_9, Hr0_10, Hr0_11, Hr0_12, Hr0_13, Hr0_14, Hr0_15, Hr0_16, Hr0_17, Hr0_18, Hr0_19, Hr0_20, Hr0_21, Hr0_22, Hr0_23, Hr0_24, Hr0_25, Hr0_26, Hr0_27, Hr0_28, Hr0_29, Hr0_30, Hr0_31, Hr0_32, Hr0_33, Hr0_34, Hr0_35, Hr0_36, Hr0_37, Hr0_38, Hr0_39, Hr0_40, Hr0_41, Hr0_42, Hr0_43, Hr0_44, Hr0_45, Hr0_46, Hr0_47, Hr0_48, Hr0_49, Hr0_50, Hr0_51, Hr0_52, Hr0_53, Hr0_54, Hr0_55, Hr0_56, Hr0_57, Hr0_58, Hr0_59, Hr0_60, Hr0_61, Hr0_62, Hr0_63⟩
  ihave Hrows1 := (Entails.of_eq (slot1_split d L f1)) $$ Hslot1
  icases Hrows1 with ⟨Hr1_0, Hr1_1, Hr1_2, Hr1_3, Hr1_4, Hr1_5, Hr1_6, Hr1_7, Hr1_8, Hr1_9, Hr1_10, Hr1_11, Hr1_12, Hr1_13, Hr1_14, Hr1_15, Hr1_16, Hr1_17, Hr1_18, Hr1_19, Hr1_20, Hr1_21, Hr1_22, Hr1_23, Hr1_24, Hr1_25, Hr1_26, Hr1_27, Hr1_28, Hr1_29, Hr1_30, Hr1_31, Hr1_32, Hr1_33, Hr1_34, Hr1_35, Hr1_36, Hr1_37, Hr1_38, Hr1_39, Hr1_40, Hr1_41, Hr1_42, Hr1_43, Hr1_44, Hr1_45, Hr1_46, Hr1_47, Hr1_48, Hr1_49, Hr1_50, Hr1_51, Hr1_52, Hr1_53, Hr1_54, Hr1_55, Hr1_56, Hr1_57, Hr1_58, Hr1_59, Hr1_60, Hr1_61, Hr1_62, Hr1_63⟩
  ihave Ho := (outInv1_peel m d (wid L) (Fin.cast trips2 k)) $$ Hout
  icases Ho with ⟨Ho0, Ho1, Hrest⟩
  ihave Ho0' := (Entails.of_eq (pts_oiWin2 (F := F) d L k 0 _).symm) $$ Ho0
  ihave Ho1' := (Entails.of_eq (pts_oiWin2 (F := F) d L k 1 _).symm) $$ Ho1
  unfold k0_t2_body
  sl_exec_parts (disch := first | exact rowInb2 _ _ (hfl _) | exact rowInb _ _ (hfl _))
  ihave HS0 := (slot0_join d L _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [Hr0_0 Hr0_1 Hr0_2 Hr0_3 Hr0_4 Hr0_5 Hr0_6 Hr0_7 Hr0_8 Hr0_9 Hr0_10 Hr0_11 Hr0_12 Hr0_13 Hr0_14 Hr0_15 Hr0_16 Hr0_17 Hr0_18 Hr0_19 Hr0_20 Hr0_21 Hr0_22 Hr0_23 Hr0_24 Hr0_25 Hr0_26 Hr0_27 Hr0_28 Hr0_29 Hr0_30 Hr0_31 Hr0_32 Hr0_33 Hr0_34 Hr0_35 Hr0_36 Hr0_37 Hr0_38 Hr0_39 Hr0_40 Hr0_41 Hr0_42 Hr0_43 Hr0_44 Hr0_45 Hr0_46 Hr0_47 Hr0_48 Hr0_49 Hr0_50 Hr0_51 Hr0_52 Hr0_53 Hr0_54 Hr0_55 Hr0_56 Hr0_57 Hr0_58 Hr0_59 Hr0_60 Hr0_61 Hr0_62 Hr0_63]
  · iframe
  sl_exec_parts (disch := first | exact rowInb2 _ _ (hfl _) | exact rowInb _ _ (hfl _))
  ihave HS1 := (slot1_join d L _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [Hr1_0 Hr1_1 Hr1_2 Hr1_3 Hr1_4 Hr1_5 Hr1_6 Hr1_7 Hr1_8 Hr1_9 Hr1_10 Hr1_11 Hr1_12 Hr1_13 Hr1_14 Hr1_15 Hr1_16 Hr1_17 Hr1_18 Hr1_19 Hr1_20 Hr1_21 Hr1_22 Hr1_23 Hr1_24 Hr1_25 Hr1_26 Hr1_27 Hr1_28 Hr1_29 Hr1_30 Hr1_31 Hr1_32 Hr1_33 Hr1_34 Hr1_35 Hr1_36 Hr1_37 Hr1_38 Hr1_39 Hr1_40 Hr1_41 Hr1_42 Hr1_43 Hr1_44 Hr1_45 Hr1_46 Hr1_47 Hr1_48 Hr1_49 Hr1_50 Hr1_51 Hr1_52 Hr1_53 Hr1_54 Hr1_55 Hr1_56 Hr1_57 Hr1_58 Hr1_59 Hr1_60 Hr1_61 Hr1_62 Hr1_63]
  · iframe
  sl_exec_parts (disch := first | exact rowInb2 _ _ (hfl _) | exact rowInb _ _ (hfl _))
  sl_step
  isplitl [Hmw]; · iexact Hmw
  isplitl [Hl0]; · iexact Hl0
  isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31 Hu32 Hu33 Hu34 Hu35 Hu36 Hu37 Hu38 Hu39 Hu40 Hu41 Hu42 Hu43 Hu44 Hu45 Hu46 Hu47 Hu48 Hu49 Hu50 Hu51 Hu52 Hu53 Hu54 Hu55 Hu56 Hu57 Hu58 Hu59 Hu60 Hu61 Hu62 Hu63 Hu64 Hu65 Hu66 Hu67 Hu68 Hu69 Hu70 Hu71 Hu72 Hu73 Hu74 Hu75 Hu76 Hu77 Hu78 Hu79 Hu80 Hu81 Hu82 Hu83 Hu84 Hu85 Hu86 Hu87 Hu88 Hu89 Hu90 Hu91 Hu92 Hu93 Hu94 Hu95 Hu96 Hu97 Hu98 Hu99 Hu100 Hu101 Hu102 Hu103 Hu104 Hu105 Hu106 Hu107 Hu108 Hu109 Hu110 Hu111 Hu112 Hu113 Hu114 Hu115 Hu116 Hu117 Hu118 Hu119 Hu120 Hu121 Hu122 Hu123 Hu124 Hu125 Hu126 Hu127]
  · iframe
  isplitl [HS0]; · iexists _; iexact HS0
  isplitl [HS1]; · iexists _; iexact HS1
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Ho0' Ho1' Hrest]
  · iapply (outInv1_put m d (wid L) (Fin.cast trips2 k))
    isplitl [Ho0']
    · iapply (Entails.of_eq (pts_oiWin2 (F := F) d L k 0 _))
      iapply (congr_ex (F := F) (G1 m d))
      iexists _; isplitr
      on_goal 2 => iexact Ho0'
      ipureintro
      refine win2_value m d L k 0 _ ?_
      intro r e
      show (slotM0).view.read (Elt F) (glue d L _) (ix2 r e) = _
      rw [View.read_apply, glue_slot0]
      fin_cases r
      · refine (cast_eq _ _).trans ((row0_write d L _ e _ _).trans ?_)
        unfold region2.sl.dma1
        exact (tab_row4 (F := F) d L (m (t4Loc d)) _ _ e).trans (congrArg (fun w => rowAt4 d (m (t4Loc d)) w e) (lane2_0 (F := F) d L k (lands1 m d L) 0 slices_S16_o0_S1))
      · refine (cast_eq _ _).trans ((row0_write d L _ e _ _).trans ?_)
        unfold region2.sl.dma2
        exact (tab_row4 (F := F) d L (m (t4Loc d)) _ _ e).trans (congrArg (fun w => rowAt4 d (m (t4Loc d)) w e) (lane2_0 (F := F) d L k (lands1 m d L) 1 slices_S16_o1_S1))
      · refine (cast_eq _ _).trans ((row0_write d L _ e _ _).trans ?_)
        unfold region2.sl.dma3
        exact (tab_row4 (F := F) d L (m (t4Loc d)) _ _ e).trans (congrArg (fun w => rowAt4 d (m (t4Loc d)) w e) (lane2_0 (F := F) d L k (lands1 m d L) 2 slices_S16_o2_S1))
      · refine (cast_eq _ _).trans ((row0_write d L _ e _ _).trans ?_)
        unfold region2.sl.dma4
        exact (tab_row4 (F := F) d L (m (t4Loc d)) _ _ e).trans (congrArg (fun w => rowAt4 d (m (t4Loc d)) w e) (lane2_0 (F := F) d L k (lands1 m d L) 3 slices_S16_o3_S1))
      · refine (cast_eq _ _).trans ((row0_write d L _ e _ _).trans ?_)
        unfold region2.sl.dma5
        exact (tab_row4 (F := F) d L (m (t4Loc d)) _ _ e).trans (congrArg (fun w => rowAt4 d (m (t4Loc d)) w e) (lane2_0 (F := F) d L k (lands1 m d L) 4 slices_S16_o4_S1))
      · refine (cast_eq _ _).trans ((row0_write d L _ e _ _).trans ?_)
        unfold region2.sl.dma6
        exact (tab_row4 (F := F) d L (m (t4Loc d)) _ _ e).trans (congrArg (fun w => rowAt4 d (m (t4Loc d)) w e) (lane2_0 (F := F) d L k (lands1 m d L) 5 slices_S16_o5_S1))
      · refine (cast_eq _ _).trans ((row0_write d L _ e _ _).trans ?_)
        unfold region2.sl.dma7
        exact (tab_row4 (F := F) d L (m (t4Loc d)) _ _ e).trans (congrArg (fun w => rowAt4 d (m (t4Loc d)) w e) (lane2_0 (F := F) d L k (lands1 m d L) 6 slices_S16_o6_S1))
      · refine (cast_eq _ _).trans ((row0_write d L _ e _ _).trans ?_)
        unfold region2.sl.dma8
        exact (tab_row4 (F := F) d L (m (t4Loc d)) _ _ e).trans (congrArg (fun w => rowAt4 d (m (t4Loc d)) w e) (lane2_0 (F := F) d L k (lands1 m d L) 7 slices_S16_o7_S1))
      · refine (cast_eq _ _).trans ((row0_write d L _ e _ _).trans ?_)
        unfold region2.sl.dma9
        exact (tab_row4 (F := F) d L (m (t4Loc d)) _ _ e).trans (congrArg (fun w => rowAt4 d (m (t4Loc d)) w e) (lane2_0 (F := F) d L k (lands1 m d L) 8 slices_S16_o8_S1))
      · refine (cast_eq _ _).trans ((row0_write d L _ e _ _).trans ?_)
        unfold region2.sl.dma10
        exact (tab_row4 (F := F) d L (m (t4Loc d)) _ _ e).trans (congrArg (fun w => rowAt4 d (m (t4Loc d)) w e) (lane2_0 (F := F) d L k (lands1 m d L) 9 slices_S16_o9_S1))
      · refine (cast_eq _ _).trans ((row0_write d L _ e _ _).trans ?_)
        unfold region2.sl.dma11
        exact (tab_row4 (F := F) d L (m (t4Loc d)) _ _ e).trans (congrArg (fun w => rowAt4 d (m (t4Loc d)) w e) (lane2_0 (F := F) d L k (lands1 m d L) 10 slices_S16_o10_S1))
      · refine (cast_eq _ _).trans ((row0_write d L _ e _ _).trans ?_)
        unfold region2.sl.dma12
        exact (tab_row4 (F := F) d L (m (t4Loc d)) _ _ e).trans (congrArg (fun w => rowAt4 d (m (t4Loc d)) w e) (lane2_0 (F := F) d L k (lands1 m d L) 11 slices_S16_o11_S1))
      · refine (cast_eq _ _).trans ((row0_write d L _ e _ _).trans ?_)
        unfold region2.sl.dma13
        exact (tab_row4 (F := F) d L (m (t4Loc d)) _ _ e).trans (congrArg (fun w => rowAt4 d (m (t4Loc d)) w e) (lane2_0 (F := F) d L k (lands1 m d L) 12 slices_S16_o12_S1))
      · refine (cast_eq _ _).trans ((row0_write d L _ e _ _).trans ?_)
        unfold region2.sl.dma14
        exact (tab_row4 (F := F) d L (m (t4Loc d)) _ _ e).trans (congrArg (fun w => rowAt4 d (m (t4Loc d)) w e) (lane2_0 (F := F) d L k (lands1 m d L) 13 slices_S16_o13_S1))
      · refine (cast_eq _ _).trans ((row0_write d L _ e _ _).trans ?_)
        unfold region2.sl.dma15
        exact (tab_row4 (F := F) d L (m (t4Loc d)) _ _ e).trans (congrArg (fun w => rowAt4 d (m (t4Loc d)) w e) (lane2_0 (F := F) d L k (lands1 m d L) 14 slices_S16_o14_S1))
      · refine (cast_eq _ _).trans ((row0_write d L _ e _ _).trans ?_)
        unfold region2.sl.dma16
        exact (tab_row4 (F := F) d L (m (t4Loc d)) _ _ e).trans (congrArg (fun w => rowAt4 d (m (t4Loc d)) w e) (lane2_0 (F := F) d L k (lands1 m d L) 15 slices_S16_o15_S1))
      · refine (cast_eq _ _).trans ((row0_write d L _ e _ _).trans ?_)
        unfold region2.sl.dma18
        exact (tab_row4 (F := F) d L (m (t4Loc d)) _ _ e).trans (congrArg (fun w => rowAt4 d (m (t4Loc d)) w e) (lane2_1 (F := F) d L k (lands1 m d L) 0 slices_S16_o0_S1))
      · refine (cast_eq _ _).trans ((row0_write d L _ e _ _).trans ?_)
        unfold region2.sl.dma19
        exact (tab_row4 (F := F) d L (m (t4Loc d)) _ _ e).trans (congrArg (fun w => rowAt4 d (m (t4Loc d)) w e) (lane2_1 (F := F) d L k (lands1 m d L) 1 slices_S16_o1_S1))
      · refine (cast_eq _ _).trans ((row0_write d L _ e _ _).trans ?_)
        unfold region2.sl.dma20
        exact (tab_row4 (F := F) d L (m (t4Loc d)) _ _ e).trans (congrArg (fun w => rowAt4 d (m (t4Loc d)) w e) (lane2_1 (F := F) d L k (lands1 m d L) 2 slices_S16_o2_S1))
      · refine (cast_eq _ _).trans ((row0_write d L _ e _ _).trans ?_)
        unfold region2.sl.dma21
        exact (tab_row4 (F := F) d L (m (t4Loc d)) _ _ e).trans (congrArg (fun w => rowAt4 d (m (t4Loc d)) w e) (lane2_1 (F := F) d L k (lands1 m d L) 3 slices_S16_o3_S1))
      · refine (cast_eq _ _).trans ((row0_write d L _ e _ _).trans ?_)
        unfold region2.sl.dma22
        exact (tab_row4 (F := F) d L (m (t4Loc d)) _ _ e).trans (congrArg (fun w => rowAt4 d (m (t4Loc d)) w e) (lane2_1 (F := F) d L k (lands1 m d L) 4 slices_S16_o4_S1))
      · refine (cast_eq _ _).trans ((row0_write d L _ e _ _).trans ?_)
        unfold region2.sl.dma23
        exact (tab_row4 (F := F) d L (m (t4Loc d)) _ _ e).trans (congrArg (fun w => rowAt4 d (m (t4Loc d)) w e) (lane2_1 (F := F) d L k (lands1 m d L) 5 slices_S16_o5_S1))
      · refine (cast_eq _ _).trans ((row0_write d L _ e _ _).trans ?_)
        unfold region2.sl.dma24
        exact (tab_row4 (F := F) d L (m (t4Loc d)) _ _ e).trans (congrArg (fun w => rowAt4 d (m (t4Loc d)) w e) (lane2_1 (F := F) d L k (lands1 m d L) 6 slices_S16_o6_S1))
      · refine (cast_eq _ _).trans ((row0_write d L _ e _ _).trans ?_)
        unfold region2.sl.dma25
        exact (tab_row4 (F := F) d L (m (t4Loc d)) _ _ e).trans (congrArg (fun w => rowAt4 d (m (t4Loc d)) w e) (lane2_1 (F := F) d L k (lands1 m d L) 7 slices_S16_o7_S1))
      · refine (cast_eq _ _).trans ((row0_write d L _ e _ _).trans ?_)
        unfold region2.sl.dma26
        exact (tab_row4 (F := F) d L (m (t4Loc d)) _ _ e).trans (congrArg (fun w => rowAt4 d (m (t4Loc d)) w e) (lane2_1 (F := F) d L k (lands1 m d L) 8 slices_S16_o8_S1))
      · refine (cast_eq _ _).trans ((row0_write d L _ e _ _).trans ?_)
        unfold region2.sl.dma27
        exact (tab_row4 (F := F) d L (m (t4Loc d)) _ _ e).trans (congrArg (fun w => rowAt4 d (m (t4Loc d)) w e) (lane2_1 (F := F) d L k (lands1 m d L) 9 slices_S16_o9_S1))
      · refine (cast_eq _ _).trans ((row0_write d L _ e _ _).trans ?_)
        unfold region2.sl.dma28
        exact (tab_row4 (F := F) d L (m (t4Loc d)) _ _ e).trans (congrArg (fun w => rowAt4 d (m (t4Loc d)) w e) (lane2_1 (F := F) d L k (lands1 m d L) 10 slices_S16_o10_S1))
      · refine (cast_eq _ _).trans ((row0_write d L _ e _ _).trans ?_)
        unfold region2.sl.dma29
        exact (tab_row4 (F := F) d L (m (t4Loc d)) _ _ e).trans (congrArg (fun w => rowAt4 d (m (t4Loc d)) w e) (lane2_1 (F := F) d L k (lands1 m d L) 11 slices_S16_o11_S1))
      · refine (cast_eq _ _).trans ((row0_write d L _ e _ _).trans ?_)
        unfold region2.sl.dma30
        exact (tab_row4 (F := F) d L (m (t4Loc d)) _ _ e).trans (congrArg (fun w => rowAt4 d (m (t4Loc d)) w e) (lane2_1 (F := F) d L k (lands1 m d L) 12 slices_S16_o12_S1))
      · refine (cast_eq _ _).trans ((row0_write d L _ e _ _).trans ?_)
        unfold region2.sl.dma31
        exact (tab_row4 (F := F) d L (m (t4Loc d)) _ _ e).trans (congrArg (fun w => rowAt4 d (m (t4Loc d)) w e) (lane2_1 (F := F) d L k (lands1 m d L) 13 slices_S16_o13_S1))
      · refine (cast_eq _ _).trans ((row0_write d L _ e _ _).trans ?_)
        unfold region2.sl.dma32
        exact (tab_row4 (F := F) d L (m (t4Loc d)) _ _ e).trans (congrArg (fun w => rowAt4 d (m (t4Loc d)) w e) (lane2_1 (F := F) d L k (lands1 m d L) 14 slices_S16_o14_S1))
      · refine (cast_eq _ _).trans ((row0_write d L _ e _ _).trans ?_)
        unfold region2.sl.dma33
        exact (tab_row4 (F := F) d L (m (t4Loc d)) _ _ e).trans (congrArg (fun w => rowAt4 d (m (t4Loc d)) w e) (lane2_1 (F := F) d L k (lands1 m d L) 15 slices_S16_o15_S1))
      · refine (cast_eq _ _).trans ((row0_write d L _ e _ _).trans ?_)
        unfold region2.sl.dma35
        exact (tab_row4 (F := F) d L (m (t4Loc d)) _ _ e).trans (congrArg (fun w => rowAt4 d (m (t4Loc d)) w e) (lane2_2 (F := F) d L k (lands1 m d L) 0 slices_S16_o0_S1))
      · refine (cast_eq _ _).trans ((row0_write d L _ e _ _).trans ?_)
        unfold region2.sl.dma36
        exact (tab_row4 (F := F) d L (m (t4Loc d)) _ _ e).trans (congrArg (fun w => rowAt4 d (m (t4Loc d)) w e) (lane2_2 (F := F) d L k (lands1 m d L) 1 slices_S16_o1_S1))
      · refine (cast_eq _ _).trans ((row0_write d L _ e _ _).trans ?_)
        unfold region2.sl.dma37
        exact (tab_row4 (F := F) d L (m (t4Loc d)) _ _ e).trans (congrArg (fun w => rowAt4 d (m (t4Loc d)) w e) (lane2_2 (F := F) d L k (lands1 m d L) 2 slices_S16_o2_S1))
      · refine (cast_eq _ _).trans ((row0_write d L _ e _ _).trans ?_)
        unfold region2.sl.dma38
        exact (tab_row4 (F := F) d L (m (t4Loc d)) _ _ e).trans (congrArg (fun w => rowAt4 d (m (t4Loc d)) w e) (lane2_2 (F := F) d L k (lands1 m d L) 3 slices_S16_o3_S1))
      · refine (cast_eq _ _).trans ((row0_write d L _ e _ _).trans ?_)
        unfold region2.sl.dma39
        exact (tab_row4 (F := F) d L (m (t4Loc d)) _ _ e).trans (congrArg (fun w => rowAt4 d (m (t4Loc d)) w e) (lane2_2 (F := F) d L k (lands1 m d L) 4 slices_S16_o4_S1))
      · refine (cast_eq _ _).trans ((row0_write d L _ e _ _).trans ?_)
        unfold region2.sl.dma40
        exact (tab_row4 (F := F) d L (m (t4Loc d)) _ _ e).trans (congrArg (fun w => rowAt4 d (m (t4Loc d)) w e) (lane2_2 (F := F) d L k (lands1 m d L) 5 slices_S16_o5_S1))
      · refine (cast_eq _ _).trans ((row0_write d L _ e _ _).trans ?_)
        unfold region2.sl.dma41
        exact (tab_row4 (F := F) d L (m (t4Loc d)) _ _ e).trans (congrArg (fun w => rowAt4 d (m (t4Loc d)) w e) (lane2_2 (F := F) d L k (lands1 m d L) 6 slices_S16_o6_S1))
      · refine (cast_eq _ _).trans ((row0_write d L _ e _ _).trans ?_)
        unfold region2.sl.dma42
        exact (tab_row4 (F := F) d L (m (t4Loc d)) _ _ e).trans (congrArg (fun w => rowAt4 d (m (t4Loc d)) w e) (lane2_2 (F := F) d L k (lands1 m d L) 7 slices_S16_o7_S1))
      · refine (cast_eq _ _).trans ((row0_write d L _ e _ _).trans ?_)
        unfold region2.sl.dma43
        exact (tab_row4 (F := F) d L (m (t4Loc d)) _ _ e).trans (congrArg (fun w => rowAt4 d (m (t4Loc d)) w e) (lane2_2 (F := F) d L k (lands1 m d L) 8 slices_S16_o8_S1))
      · refine (cast_eq _ _).trans ((row0_write d L _ e _ _).trans ?_)
        unfold region2.sl.dma44
        exact (tab_row4 (F := F) d L (m (t4Loc d)) _ _ e).trans (congrArg (fun w => rowAt4 d (m (t4Loc d)) w e) (lane2_2 (F := F) d L k (lands1 m d L) 9 slices_S16_o9_S1))
      · refine (cast_eq _ _).trans ((row0_write d L _ e _ _).trans ?_)
        unfold region2.sl.dma45
        exact (tab_row4 (F := F) d L (m (t4Loc d)) _ _ e).trans (congrArg (fun w => rowAt4 d (m (t4Loc d)) w e) (lane2_2 (F := F) d L k (lands1 m d L) 10 slices_S16_o10_S1))
      · refine (cast_eq _ _).trans ((row0_write d L _ e _ _).trans ?_)
        unfold region2.sl.dma46
        exact (tab_row4 (F := F) d L (m (t4Loc d)) _ _ e).trans (congrArg (fun w => rowAt4 d (m (t4Loc d)) w e) (lane2_2 (F := F) d L k (lands1 m d L) 11 slices_S16_o11_S1))
      · refine (cast_eq _ _).trans ((row0_write d L _ e _ _).trans ?_)
        unfold region2.sl.dma47
        exact (tab_row4 (F := F) d L (m (t4Loc d)) _ _ e).trans (congrArg (fun w => rowAt4 d (m (t4Loc d)) w e) (lane2_2 (F := F) d L k (lands1 m d L) 12 slices_S16_o12_S1))
      · refine (cast_eq _ _).trans ((row0_write d L _ e _ _).trans ?_)
        unfold region2.sl.dma48
        exact (tab_row4 (F := F) d L (m (t4Loc d)) _ _ e).trans (congrArg (fun w => rowAt4 d (m (t4Loc d)) w e) (lane2_2 (F := F) d L k (lands1 m d L) 13 slices_S16_o13_S1))
      · refine (cast_eq _ _).trans ((row0_write d L _ e _ _).trans ?_)
        unfold region2.sl.dma49
        exact (tab_row4 (F := F) d L (m (t4Loc d)) _ _ e).trans (congrArg (fun w => rowAt4 d (m (t4Loc d)) w e) (lane2_2 (F := F) d L k (lands1 m d L) 14 slices_S16_o14_S1))
      · refine (cast_eq _ _).trans ((row0_write d L _ e _ _).trans ?_)
        unfold region2.sl.dma50
        exact (tab_row4 (F := F) d L (m (t4Loc d)) _ _ e).trans (congrArg (fun w => rowAt4 d (m (t4Loc d)) w e) (lane2_2 (F := F) d L k (lands1 m d L) 15 slices_S16_o15_S1))
      · refine (cast_eq _ _).trans ((row0_write d L _ e _ _).trans ?_)
        unfold region2.sl.dma52
        exact (tab_row4 (F := F) d L (m (t4Loc d)) _ _ e).trans (congrArg (fun w => rowAt4 d (m (t4Loc d)) w e) (lane2_3 (F := F) d L k (lands1 m d L) 0 slices_S16_o0_S1))
      · refine (cast_eq _ _).trans ((row0_write d L _ e _ _).trans ?_)
        unfold region2.sl.dma53
        exact (tab_row4 (F := F) d L (m (t4Loc d)) _ _ e).trans (congrArg (fun w => rowAt4 d (m (t4Loc d)) w e) (lane2_3 (F := F) d L k (lands1 m d L) 1 slices_S16_o1_S1))
      · refine (cast_eq _ _).trans ((row0_write d L _ e _ _).trans ?_)
        unfold region2.sl.dma54
        exact (tab_row4 (F := F) d L (m (t4Loc d)) _ _ e).trans (congrArg (fun w => rowAt4 d (m (t4Loc d)) w e) (lane2_3 (F := F) d L k (lands1 m d L) 2 slices_S16_o2_S1))
      · refine (cast_eq _ _).trans ((row0_write d L _ e _ _).trans ?_)
        unfold region2.sl.dma55
        exact (tab_row4 (F := F) d L (m (t4Loc d)) _ _ e).trans (congrArg (fun w => rowAt4 d (m (t4Loc d)) w e) (lane2_3 (F := F) d L k (lands1 m d L) 3 slices_S16_o3_S1))
      · refine (cast_eq _ _).trans ((row0_write d L _ e _ _).trans ?_)
        unfold region2.sl.dma56
        exact (tab_row4 (F := F) d L (m (t4Loc d)) _ _ e).trans (congrArg (fun w => rowAt4 d (m (t4Loc d)) w e) (lane2_3 (F := F) d L k (lands1 m d L) 4 slices_S16_o4_S1))
      · refine (cast_eq _ _).trans ((row0_write d L _ e _ _).trans ?_)
        unfold region2.sl.dma57
        exact (tab_row4 (F := F) d L (m (t4Loc d)) _ _ e).trans (congrArg (fun w => rowAt4 d (m (t4Loc d)) w e) (lane2_3 (F := F) d L k (lands1 m d L) 5 slices_S16_o5_S1))
      · refine (cast_eq _ _).trans ((row0_write d L _ e _ _).trans ?_)
        unfold region2.sl.dma58
        exact (tab_row4 (F := F) d L (m (t4Loc d)) _ _ e).trans (congrArg (fun w => rowAt4 d (m (t4Loc d)) w e) (lane2_3 (F := F) d L k (lands1 m d L) 6 slices_S16_o6_S1))
      · refine (cast_eq _ _).trans ((row0_write d L _ e _ _).trans ?_)
        unfold region2.sl.dma59
        exact (tab_row4 (F := F) d L (m (t4Loc d)) _ _ e).trans (congrArg (fun w => rowAt4 d (m (t4Loc d)) w e) (lane2_3 (F := F) d L k (lands1 m d L) 7 slices_S16_o7_S1))
      · refine (cast_eq _ _).trans ((row0_write d L _ e _ _).trans ?_)
        unfold region2.sl.dma60
        exact (tab_row4 (F := F) d L (m (t4Loc d)) _ _ e).trans (congrArg (fun w => rowAt4 d (m (t4Loc d)) w e) (lane2_3 (F := F) d L k (lands1 m d L) 8 slices_S16_o8_S1))
      · refine (cast_eq _ _).trans ((row0_write d L _ e _ _).trans ?_)
        unfold region2.sl.dma61
        exact (tab_row4 (F := F) d L (m (t4Loc d)) _ _ e).trans (congrArg (fun w => rowAt4 d (m (t4Loc d)) w e) (lane2_3 (F := F) d L k (lands1 m d L) 9 slices_S16_o9_S1))
      · refine (cast_eq _ _).trans ((row0_write d L _ e _ _).trans ?_)
        unfold region2.sl.dma62
        exact (tab_row4 (F := F) d L (m (t4Loc d)) _ _ e).trans (congrArg (fun w => rowAt4 d (m (t4Loc d)) w e) (lane2_3 (F := F) d L k (lands1 m d L) 10 slices_S16_o10_S1))
      · refine (cast_eq _ _).trans ((row0_write d L _ e _ _).trans ?_)
        unfold region2.sl.dma63
        exact (tab_row4 (F := F) d L (m (t4Loc d)) _ _ e).trans (congrArg (fun w => rowAt4 d (m (t4Loc d)) w e) (lane2_3 (F := F) d L k (lands1 m d L) 11 slices_S16_o11_S1))
      · refine (cast_eq _ _).trans ((row0_write d L _ e _ _).trans ?_)
        unfold region2.sl.dma64
        exact (tab_row4 (F := F) d L (m (t4Loc d)) _ _ e).trans (congrArg (fun w => rowAt4 d (m (t4Loc d)) w e) (lane2_3 (F := F) d L k (lands1 m d L) 12 slices_S16_o12_S1))
      · refine (cast_eq _ _).trans ((row0_write d L _ e _ _).trans ?_)
        unfold region2.sl.dma65
        exact (tab_row4 (F := F) d L (m (t4Loc d)) _ _ e).trans (congrArg (fun w => rowAt4 d (m (t4Loc d)) w e) (lane2_3 (F := F) d L k (lands1 m d L) 13 slices_S16_o13_S1))
      · refine (cast_eq _ _).trans ((row0_write d L _ e _ _).trans ?_)
        unfold region2.sl.dma66
        exact (tab_row4 (F := F) d L (m (t4Loc d)) _ _ e).trans (congrArg (fun w => rowAt4 d (m (t4Loc d)) w e) (lane2_3 (F := F) d L k (lands1 m d L) 14 slices_S16_o14_S1))
      · refine (cast_eq _ _).trans ((row0_write d L _ e _ _).trans ?_)
        unfold region2.sl.dma67
        exact (tab_row4 (F := F) d L (m (t4Loc d)) _ _ e).trans (congrArg (fun w => rowAt4 d (m (t4Loc d)) w e) (lane2_3 (F := F) d L k (lands1 m d L) 15 slices_S16_o15_S1))
    isplitl [Ho1']
    · iapply (Entails.of_eq (pts_oiWin2 (F := F) d L k 1 _))
      iapply (congr_ex (F := F) (G1 m d))
      iexists _; isplitr
      on_goal 2 => iexact Ho1'
      ipureintro
      refine win2_value m d L k 1 _ ?_
      intro r e
      show (slotM1).view.read (Elt F) (glue d L _) (ix2 r e) = _
      rw [View.read_apply, glue_slot1]
      fin_cases r
      · refine (cast_eq _ _).trans ((row1_write d L _ e _ _).trans ?_)
        unfold region2.sl.dma69
        exact (tab_row4 (F := F) d L (m (t4Loc d)) _ _ e).trans (congrArg (fun w => rowAt4 d (m (t4Loc d)) w e) (lane2_4 (F := F) d L k (lands1 m d L) 0 slices_S16_o0_S1))
      · refine (cast_eq _ _).trans ((row1_write d L _ e _ _).trans ?_)
        unfold region2.sl.dma70
        exact (tab_row4 (F := F) d L (m (t4Loc d)) _ _ e).trans (congrArg (fun w => rowAt4 d (m (t4Loc d)) w e) (lane2_4 (F := F) d L k (lands1 m d L) 1 slices_S16_o1_S1))
      · refine (cast_eq _ _).trans ((row1_write d L _ e _ _).trans ?_)
        unfold region2.sl.dma71
        exact (tab_row4 (F := F) d L (m (t4Loc d)) _ _ e).trans (congrArg (fun w => rowAt4 d (m (t4Loc d)) w e) (lane2_4 (F := F) d L k (lands1 m d L) 2 slices_S16_o2_S1))
      · refine (cast_eq _ _).trans ((row1_write d L _ e _ _).trans ?_)
        unfold region2.sl.dma72
        exact (tab_row4 (F := F) d L (m (t4Loc d)) _ _ e).trans (congrArg (fun w => rowAt4 d (m (t4Loc d)) w e) (lane2_4 (F := F) d L k (lands1 m d L) 3 slices_S16_o3_S1))
      · refine (cast_eq _ _).trans ((row1_write d L _ e _ _).trans ?_)
        unfold region2.sl.dma73
        exact (tab_row4 (F := F) d L (m (t4Loc d)) _ _ e).trans (congrArg (fun w => rowAt4 d (m (t4Loc d)) w e) (lane2_4 (F := F) d L k (lands1 m d L) 4 slices_S16_o4_S1))
      · refine (cast_eq _ _).trans ((row1_write d L _ e _ _).trans ?_)
        unfold region2.sl.dma74
        exact (tab_row4 (F := F) d L (m (t4Loc d)) _ _ e).trans (congrArg (fun w => rowAt4 d (m (t4Loc d)) w e) (lane2_4 (F := F) d L k (lands1 m d L) 5 slices_S16_o5_S1))
      · refine (cast_eq _ _).trans ((row1_write d L _ e _ _).trans ?_)
        unfold region2.sl.dma75
        exact (tab_row4 (F := F) d L (m (t4Loc d)) _ _ e).trans (congrArg (fun w => rowAt4 d (m (t4Loc d)) w e) (lane2_4 (F := F) d L k (lands1 m d L) 6 slices_S16_o6_S1))
      · refine (cast_eq _ _).trans ((row1_write d L _ e _ _).trans ?_)
        unfold region2.sl.dma76
        exact (tab_row4 (F := F) d L (m (t4Loc d)) _ _ e).trans (congrArg (fun w => rowAt4 d (m (t4Loc d)) w e) (lane2_4 (F := F) d L k (lands1 m d L) 7 slices_S16_o7_S1))
      · refine (cast_eq _ _).trans ((row1_write d L _ e _ _).trans ?_)
        unfold region2.sl.dma77
        exact (tab_row4 (F := F) d L (m (t4Loc d)) _ _ e).trans (congrArg (fun w => rowAt4 d (m (t4Loc d)) w e) (lane2_4 (F := F) d L k (lands1 m d L) 8 slices_S16_o8_S1))
      · refine (cast_eq _ _).trans ((row1_write d L _ e _ _).trans ?_)
        unfold region2.sl.dma78
        exact (tab_row4 (F := F) d L (m (t4Loc d)) _ _ e).trans (congrArg (fun w => rowAt4 d (m (t4Loc d)) w e) (lane2_4 (F := F) d L k (lands1 m d L) 9 slices_S16_o9_S1))
      · refine (cast_eq _ _).trans ((row1_write d L _ e _ _).trans ?_)
        unfold region2.sl.dma79
        exact (tab_row4 (F := F) d L (m (t4Loc d)) _ _ e).trans (congrArg (fun w => rowAt4 d (m (t4Loc d)) w e) (lane2_4 (F := F) d L k (lands1 m d L) 10 slices_S16_o10_S1))
      · refine (cast_eq _ _).trans ((row1_write d L _ e _ _).trans ?_)
        unfold region2.sl.dma80
        exact (tab_row4 (F := F) d L (m (t4Loc d)) _ _ e).trans (congrArg (fun w => rowAt4 d (m (t4Loc d)) w e) (lane2_4 (F := F) d L k (lands1 m d L) 11 slices_S16_o11_S1))
      · refine (cast_eq _ _).trans ((row1_write d L _ e _ _).trans ?_)
        unfold region2.sl.dma81
        exact (tab_row4 (F := F) d L (m (t4Loc d)) _ _ e).trans (congrArg (fun w => rowAt4 d (m (t4Loc d)) w e) (lane2_4 (F := F) d L k (lands1 m d L) 12 slices_S16_o12_S1))
      · refine (cast_eq _ _).trans ((row1_write d L _ e _ _).trans ?_)
        unfold region2.sl.dma82
        exact (tab_row4 (F := F) d L (m (t4Loc d)) _ _ e).trans (congrArg (fun w => rowAt4 d (m (t4Loc d)) w e) (lane2_4 (F := F) d L k (lands1 m d L) 13 slices_S16_o13_S1))
      · refine (cast_eq _ _).trans ((row1_write d L _ e _ _).trans ?_)
        unfold region2.sl.dma83
        exact (tab_row4 (F := F) d L (m (t4Loc d)) _ _ e).trans (congrArg (fun w => rowAt4 d (m (t4Loc d)) w e) (lane2_4 (F := F) d L k (lands1 m d L) 14 slices_S16_o14_S1))
      · refine (cast_eq _ _).trans ((row1_write d L _ e _ _).trans ?_)
        unfold region2.sl.dma84
        exact (tab_row4 (F := F) d L (m (t4Loc d)) _ _ e).trans (congrArg (fun w => rowAt4 d (m (t4Loc d)) w e) (lane2_4 (F := F) d L k (lands1 m d L) 15 slices_S16_o15_S1))
      · refine (cast_eq _ _).trans ((row1_write d L _ e _ _).trans ?_)
        unfold region2.sl.dma86
        exact (tab_row4 (F := F) d L (m (t4Loc d)) _ _ e).trans (congrArg (fun w => rowAt4 d (m (t4Loc d)) w e) (lane2_5 (F := F) d L k (lands1 m d L) 0 slices_S16_o0_S1))
      · refine (cast_eq _ _).trans ((row1_write d L _ e _ _).trans ?_)
        unfold region2.sl.dma87
        exact (tab_row4 (F := F) d L (m (t4Loc d)) _ _ e).trans (congrArg (fun w => rowAt4 d (m (t4Loc d)) w e) (lane2_5 (F := F) d L k (lands1 m d L) 1 slices_S16_o1_S1))
      · refine (cast_eq _ _).trans ((row1_write d L _ e _ _).trans ?_)
        unfold region2.sl.dma88
        exact (tab_row4 (F := F) d L (m (t4Loc d)) _ _ e).trans (congrArg (fun w => rowAt4 d (m (t4Loc d)) w e) (lane2_5 (F := F) d L k (lands1 m d L) 2 slices_S16_o2_S1))
      · refine (cast_eq _ _).trans ((row1_write d L _ e _ _).trans ?_)
        unfold region2.sl.dma89
        exact (tab_row4 (F := F) d L (m (t4Loc d)) _ _ e).trans (congrArg (fun w => rowAt4 d (m (t4Loc d)) w e) (lane2_5 (F := F) d L k (lands1 m d L) 3 slices_S16_o3_S1))
      · refine (cast_eq _ _).trans ((row1_write d L _ e _ _).trans ?_)
        unfold region2.sl.dma90
        exact (tab_row4 (F := F) d L (m (t4Loc d)) _ _ e).trans (congrArg (fun w => rowAt4 d (m (t4Loc d)) w e) (lane2_5 (F := F) d L k (lands1 m d L) 4 slices_S16_o4_S1))
      · refine (cast_eq _ _).trans ((row1_write d L _ e _ _).trans ?_)
        unfold region2.sl.dma91
        exact (tab_row4 (F := F) d L (m (t4Loc d)) _ _ e).trans (congrArg (fun w => rowAt4 d (m (t4Loc d)) w e) (lane2_5 (F := F) d L k (lands1 m d L) 5 slices_S16_o5_S1))
      · refine (cast_eq _ _).trans ((row1_write d L _ e _ _).trans ?_)
        unfold region2.sl.dma92
        exact (tab_row4 (F := F) d L (m (t4Loc d)) _ _ e).trans (congrArg (fun w => rowAt4 d (m (t4Loc d)) w e) (lane2_5 (F := F) d L k (lands1 m d L) 6 slices_S16_o6_S1))
      · refine (cast_eq _ _).trans ((row1_write d L _ e _ _).trans ?_)
        unfold region2.sl.dma93
        exact (tab_row4 (F := F) d L (m (t4Loc d)) _ _ e).trans (congrArg (fun w => rowAt4 d (m (t4Loc d)) w e) (lane2_5 (F := F) d L k (lands1 m d L) 7 slices_S16_o7_S1))
      · refine (cast_eq _ _).trans ((row1_write d L _ e _ _).trans ?_)
        unfold region2.sl.dma94
        exact (tab_row4 (F := F) d L (m (t4Loc d)) _ _ e).trans (congrArg (fun w => rowAt4 d (m (t4Loc d)) w e) (lane2_5 (F := F) d L k (lands1 m d L) 8 slices_S16_o8_S1))
      · refine (cast_eq _ _).trans ((row1_write d L _ e _ _).trans ?_)
        unfold region2.sl.dma95
        exact (tab_row4 (F := F) d L (m (t4Loc d)) _ _ e).trans (congrArg (fun w => rowAt4 d (m (t4Loc d)) w e) (lane2_5 (F := F) d L k (lands1 m d L) 9 slices_S16_o9_S1))
      · refine (cast_eq _ _).trans ((row1_write d L _ e _ _).trans ?_)
        unfold region2.sl.dma96
        exact (tab_row4 (F := F) d L (m (t4Loc d)) _ _ e).trans (congrArg (fun w => rowAt4 d (m (t4Loc d)) w e) (lane2_5 (F := F) d L k (lands1 m d L) 10 slices_S16_o10_S1))
      · refine (cast_eq _ _).trans ((row1_write d L _ e _ _).trans ?_)
        unfold region2.sl.dma97
        exact (tab_row4 (F := F) d L (m (t4Loc d)) _ _ e).trans (congrArg (fun w => rowAt4 d (m (t4Loc d)) w e) (lane2_5 (F := F) d L k (lands1 m d L) 11 slices_S16_o11_S1))
      · refine (cast_eq _ _).trans ((row1_write d L _ e _ _).trans ?_)
        unfold region2.sl.dma98
        exact (tab_row4 (F := F) d L (m (t4Loc d)) _ _ e).trans (congrArg (fun w => rowAt4 d (m (t4Loc d)) w e) (lane2_5 (F := F) d L k (lands1 m d L) 12 slices_S16_o12_S1))
      · refine (cast_eq _ _).trans ((row1_write d L _ e _ _).trans ?_)
        unfold region2.sl.dma99
        exact (tab_row4 (F := F) d L (m (t4Loc d)) _ _ e).trans (congrArg (fun w => rowAt4 d (m (t4Loc d)) w e) (lane2_5 (F := F) d L k (lands1 m d L) 13 slices_S16_o13_S1))
      · refine (cast_eq _ _).trans ((row1_write d L _ e _ _).trans ?_)
        unfold region2.sl.dma100
        exact (tab_row4 (F := F) d L (m (t4Loc d)) _ _ e).trans (congrArg (fun w => rowAt4 d (m (t4Loc d)) w e) (lane2_5 (F := F) d L k (lands1 m d L) 14 slices_S16_o14_S1))
      · refine (cast_eq _ _).trans ((row1_write d L _ e _ _).trans ?_)
        unfold region2.sl.dma101
        exact (tab_row4 (F := F) d L (m (t4Loc d)) _ _ e).trans (congrArg (fun w => rowAt4 d (m (t4Loc d)) w e) (lane2_5 (F := F) d L k (lands1 m d L) 15 slices_S16_o15_S1))
      · refine (cast_eq _ _).trans ((row1_write d L _ e _ _).trans ?_)
        unfold region2.sl.dma103
        exact (tab_row4 (F := F) d L (m (t4Loc d)) _ _ e).trans (congrArg (fun w => rowAt4 d (m (t4Loc d)) w e) (lane2_6 (F := F) d L k (lands1 m d L) 0 slices_S16_o0_S1))
      · refine (cast_eq _ _).trans ((row1_write d L _ e _ _).trans ?_)
        unfold region2.sl.dma104
        exact (tab_row4 (F := F) d L (m (t4Loc d)) _ _ e).trans (congrArg (fun w => rowAt4 d (m (t4Loc d)) w e) (lane2_6 (F := F) d L k (lands1 m d L) 1 slices_S16_o1_S1))
      · refine (cast_eq _ _).trans ((row1_write d L _ e _ _).trans ?_)
        unfold region2.sl.dma105
        exact (tab_row4 (F := F) d L (m (t4Loc d)) _ _ e).trans (congrArg (fun w => rowAt4 d (m (t4Loc d)) w e) (lane2_6 (F := F) d L k (lands1 m d L) 2 slices_S16_o2_S1))
      · refine (cast_eq _ _).trans ((row1_write d L _ e _ _).trans ?_)
        unfold region2.sl.dma106
        exact (tab_row4 (F := F) d L (m (t4Loc d)) _ _ e).trans (congrArg (fun w => rowAt4 d (m (t4Loc d)) w e) (lane2_6 (F := F) d L k (lands1 m d L) 3 slices_S16_o3_S1))
      · refine (cast_eq _ _).trans ((row1_write d L _ e _ _).trans ?_)
        unfold region2.sl.dma107
        exact (tab_row4 (F := F) d L (m (t4Loc d)) _ _ e).trans (congrArg (fun w => rowAt4 d (m (t4Loc d)) w e) (lane2_6 (F := F) d L k (lands1 m d L) 4 slices_S16_o4_S1))
      · refine (cast_eq _ _).trans ((row1_write d L _ e _ _).trans ?_)
        unfold region2.sl.dma108
        exact (tab_row4 (F := F) d L (m (t4Loc d)) _ _ e).trans (congrArg (fun w => rowAt4 d (m (t4Loc d)) w e) (lane2_6 (F := F) d L k (lands1 m d L) 5 slices_S16_o5_S1))
      · refine (cast_eq _ _).trans ((row1_write d L _ e _ _).trans ?_)
        unfold region2.sl.dma109
        exact (tab_row4 (F := F) d L (m (t4Loc d)) _ _ e).trans (congrArg (fun w => rowAt4 d (m (t4Loc d)) w e) (lane2_6 (F := F) d L k (lands1 m d L) 6 slices_S16_o6_S1))
      · refine (cast_eq _ _).trans ((row1_write d L _ e _ _).trans ?_)
        unfold region2.sl.dma110
        exact (tab_row4 (F := F) d L (m (t4Loc d)) _ _ e).trans (congrArg (fun w => rowAt4 d (m (t4Loc d)) w e) (lane2_6 (F := F) d L k (lands1 m d L) 7 slices_S16_o7_S1))
      · refine (cast_eq _ _).trans ((row1_write d L _ e _ _).trans ?_)
        unfold region2.sl.dma111
        exact (tab_row4 (F := F) d L (m (t4Loc d)) _ _ e).trans (congrArg (fun w => rowAt4 d (m (t4Loc d)) w e) (lane2_6 (F := F) d L k (lands1 m d L) 8 slices_S16_o8_S1))
      · refine (cast_eq _ _).trans ((row1_write d L _ e _ _).trans ?_)
        unfold region2.sl.dma112
        exact (tab_row4 (F := F) d L (m (t4Loc d)) _ _ e).trans (congrArg (fun w => rowAt4 d (m (t4Loc d)) w e) (lane2_6 (F := F) d L k (lands1 m d L) 9 slices_S16_o9_S1))
      · refine (cast_eq _ _).trans ((row1_write d L _ e _ _).trans ?_)
        unfold region2.sl.dma113
        exact (tab_row4 (F := F) d L (m (t4Loc d)) _ _ e).trans (congrArg (fun w => rowAt4 d (m (t4Loc d)) w e) (lane2_6 (F := F) d L k (lands1 m d L) 10 slices_S16_o10_S1))
      · refine (cast_eq _ _).trans ((row1_write d L _ e _ _).trans ?_)
        unfold region2.sl.dma114
        exact (tab_row4 (F := F) d L (m (t4Loc d)) _ _ e).trans (congrArg (fun w => rowAt4 d (m (t4Loc d)) w e) (lane2_6 (F := F) d L k (lands1 m d L) 11 slices_S16_o11_S1))
      · refine (cast_eq _ _).trans ((row1_write d L _ e _ _).trans ?_)
        unfold region2.sl.dma115
        exact (tab_row4 (F := F) d L (m (t4Loc d)) _ _ e).trans (congrArg (fun w => rowAt4 d (m (t4Loc d)) w e) (lane2_6 (F := F) d L k (lands1 m d L) 12 slices_S16_o12_S1))
      · refine (cast_eq _ _).trans ((row1_write d L _ e _ _).trans ?_)
        unfold region2.sl.dma116
        exact (tab_row4 (F := F) d L (m (t4Loc d)) _ _ e).trans (congrArg (fun w => rowAt4 d (m (t4Loc d)) w e) (lane2_6 (F := F) d L k (lands1 m d L) 13 slices_S16_o13_S1))
      · refine (cast_eq _ _).trans ((row1_write d L _ e _ _).trans ?_)
        unfold region2.sl.dma117
        exact (tab_row4 (F := F) d L (m (t4Loc d)) _ _ e).trans (congrArg (fun w => rowAt4 d (m (t4Loc d)) w e) (lane2_6 (F := F) d L k (lands1 m d L) 14 slices_S16_o14_S1))
      · refine (cast_eq _ _).trans ((row1_write d L _ e _ _).trans ?_)
        unfold region2.sl.dma118
        exact (tab_row4 (F := F) d L (m (t4Loc d)) _ _ e).trans (congrArg (fun w => rowAt4 d (m (t4Loc d)) w e) (lane2_6 (F := F) d L k (lands1 m d L) 15 slices_S16_o15_S1))
      · refine (cast_eq _ _).trans ((row1_write d L _ e _ _).trans ?_)
        unfold region2.sl.dma120
        exact (tab_row4 (F := F) d L (m (t4Loc d)) _ _ e).trans (congrArg (fun w => rowAt4 d (m (t4Loc d)) w e) (lane2_7 (F := F) d L k (lands1 m d L) 0 slices_S16_o0_S1))
      · refine (cast_eq _ _).trans ((row1_write d L _ e _ _).trans ?_)
        unfold region2.sl.dma121
        exact (tab_row4 (F := F) d L (m (t4Loc d)) _ _ e).trans (congrArg (fun w => rowAt4 d (m (t4Loc d)) w e) (lane2_7 (F := F) d L k (lands1 m d L) 1 slices_S16_o1_S1))
      · refine (cast_eq _ _).trans ((row1_write d L _ e _ _).trans ?_)
        unfold region2.sl.dma122
        exact (tab_row4 (F := F) d L (m (t4Loc d)) _ _ e).trans (congrArg (fun w => rowAt4 d (m (t4Loc d)) w e) (lane2_7 (F := F) d L k (lands1 m d L) 2 slices_S16_o2_S1))
      · refine (cast_eq _ _).trans ((row1_write d L _ e _ _).trans ?_)
        unfold region2.sl.dma123
        exact (tab_row4 (F := F) d L (m (t4Loc d)) _ _ e).trans (congrArg (fun w => rowAt4 d (m (t4Loc d)) w e) (lane2_7 (F := F) d L k (lands1 m d L) 3 slices_S16_o3_S1))
      · refine (cast_eq _ _).trans ((row1_write d L _ e _ _).trans ?_)
        unfold region2.sl.dma124
        exact (tab_row4 (F := F) d L (m (t4Loc d)) _ _ e).trans (congrArg (fun w => rowAt4 d (m (t4Loc d)) w e) (lane2_7 (F := F) d L k (lands1 m d L) 4 slices_S16_o4_S1))
      · refine (cast_eq _ _).trans ((row1_write d L _ e _ _).trans ?_)
        unfold region2.sl.dma125
        exact (tab_row4 (F := F) d L (m (t4Loc d)) _ _ e).trans (congrArg (fun w => rowAt4 d (m (t4Loc d)) w e) (lane2_7 (F := F) d L k (lands1 m d L) 5 slices_S16_o5_S1))
      · refine (cast_eq _ _).trans ((row1_write d L _ e _ _).trans ?_)
        unfold region2.sl.dma126
        exact (tab_row4 (F := F) d L (m (t4Loc d)) _ _ e).trans (congrArg (fun w => rowAt4 d (m (t4Loc d)) w e) (lane2_7 (F := F) d L k (lands1 m d L) 6 slices_S16_o6_S1))
      · refine (cast_eq _ _).trans ((row1_write d L _ e _ _).trans ?_)
        unfold region2.sl.dma127
        exact (tab_row4 (F := F) d L (m (t4Loc d)) _ _ e).trans (congrArg (fun w => rowAt4 d (m (t4Loc d)) w e) (lane2_7 (F := F) d L k (lands1 m d L) 7 slices_S16_o7_S1))
      · refine (cast_eq _ _).trans ((row1_write d L _ e _ _).trans ?_)
        unfold region2.sl.dma128
        exact (tab_row4 (F := F) d L (m (t4Loc d)) _ _ e).trans (congrArg (fun w => rowAt4 d (m (t4Loc d)) w e) (lane2_7 (F := F) d L k (lands1 m d L) 8 slices_S16_o8_S1))
      · refine (cast_eq _ _).trans ((row1_write d L _ e _ _).trans ?_)
        unfold region2.sl.dma129
        exact (tab_row4 (F := F) d L (m (t4Loc d)) _ _ e).trans (congrArg (fun w => rowAt4 d (m (t4Loc d)) w e) (lane2_7 (F := F) d L k (lands1 m d L) 9 slices_S16_o9_S1))
      · refine (cast_eq _ _).trans ((row1_write d L _ e _ _).trans ?_)
        unfold region2.sl.dma130
        exact (tab_row4 (F := F) d L (m (t4Loc d)) _ _ e).trans (congrArg (fun w => rowAt4 d (m (t4Loc d)) w e) (lane2_7 (F := F) d L k (lands1 m d L) 10 slices_S16_o10_S1))
      · refine (cast_eq _ _).trans ((row1_write d L _ e _ _).trans ?_)
        unfold region2.sl.dma131
        exact (tab_row4 (F := F) d L (m (t4Loc d)) _ _ e).trans (congrArg (fun w => rowAt4 d (m (t4Loc d)) w e) (lane2_7 (F := F) d L k (lands1 m d L) 11 slices_S16_o11_S1))
      · refine (cast_eq _ _).trans ((row1_write d L _ e _ _).trans ?_)
        unfold region2.sl.dma132
        exact (tab_row4 (F := F) d L (m (t4Loc d)) _ _ e).trans (congrArg (fun w => rowAt4 d (m (t4Loc d)) w e) (lane2_7 (F := F) d L k (lands1 m d L) 12 slices_S16_o12_S1))
      · refine (cast_eq _ _).trans ((row1_write d L _ e _ _).trans ?_)
        unfold region2.sl.dma133
        exact (tab_row4 (F := F) d L (m (t4Loc d)) _ _ e).trans (congrArg (fun w => rowAt4 d (m (t4Loc d)) w e) (lane2_7 (F := F) d L k (lands1 m d L) 13 slices_S16_o13_S1))
      · refine (cast_eq _ _).trans ((row1_write d L _ e _ _).trans ?_)
        unfold region2.sl.dma134
        exact (tab_row4 (F := F) d L (m (t4Loc d)) _ _ e).trans (congrArg (fun w => rowAt4 d (m (t4Loc d)) w e) (lane2_7 (F := F) d L k (lands1 m d L) 14 slices_S16_o14_S1))
      · refine (cast_eq _ _).trans ((row1_write d L _ e _ _).trans ?_)
        unfold region2.sl.dma135
        exact (tab_row4 (F := F) d L (m (t4Loc d)) _ _ e).trans (congrArg (fun w => rowAt4 d (m (t4Loc d)) w e) (lane2_7 (F := F) d L k (lands1 m d L) 15 slices_S16_o15_S1))
    iexact Hrest
  iexists _; isplitr
  on_goal 2 => iexact HO
  ipureintro
  repeat' (first | exact hW' | refine waits_insert _ ?_)

end Cert.Proof.KIReg2

end
-- ==== Proof.KIReg3.lean ====
/-
  Loop 3 of the kernel, one trip.  The trip's 128 row copies are followed row by row: each row of a staging slot ends
  at the table row its index word names, the slot's 64 rows are joined, the slot is written to its window of the
  result, and the window then holds the lookup.
-/
import proofs.«206842_g87686052315543_cont_sun_m_497_29_alg».proof.Defs
import proofs.«206842_g87686052315543_cont_sun_m_497_29_alg».proof.Proof.KIRes
import proofs.«206842_g87686052315543_cont_sun_m_497_29_alg».proof.Proof.KIWin
import proofs.«206842_g87686052315543_cont_sun_m_497_29_alg».proof.Proof.KILand
import proofs.«206842_g87686052315543_cont_sun_m_497_29_alg».proof.Proof.KIRows
import proofs.«206842_g87686052315543_cont_sun_m_497_29_alg».proof.Proof.KIJoin
import proofs.«206842_g87686052315543_cont_sun_m_497_29_alg».proof.Proof.KIInv
import proofs.«206842_g87686052315543_cont_sun_m_497_29_alg».proof.Proof.KIVal
import Idealize.ShloMosaic.Lib.SparseCore.Launch
import Idealize.ShloMosaic.Lib.SparseCore.Ops
import Idealize.ShloMosaic.Lib.StableHlo.Run
import Idealize.ShloMosaic.Lib.Batch
import Idealize.ShloMosaic.Lib.Tactic
import Idealize.ShloMosaic.Lib.Pipeline.Kit
import proofs.«206842_g87686052315543_cont_sun_m_497_29_alg».proof.Proof.Gen.KernelIdeal
import proofs.«206842_g87686052315543_cont_sun_m_497_29_alg».proof.Proof.Gen.KernelIdeal.Skeleton

noncomputable section

namespace Cert.Proof.KIReg3

open Cert.KernelIdeal Cert.KernelIdeal.Gen Cert.Proof.KIRes Cert.Proof.KIWin Cert.Proof.KILand Cert.Proof.KIRows Cert.Proof.KIJoin Cert.Proof.KIInv Cert.Proof.KIVal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uidW" => (Memref.whole Cert.KernelIdeal.main_v0_scv : Memref Cert.KernelIdeal.sig Kind.scVector Space.hbm Cert.KernelIdeal.S128x128 EltTy.i32)
local notation "iidW" => (Memref.whole Cert.KernelIdeal.main_v1_scv : Memref Cert.KernelIdeal.sig Kind.scVector Space.hbm Cert.KernelIdeal.S128x128 EltTy.i32)
local notation "cidW" => (Memref.whole Cert.KernelIdeal.main_v2_scv : Memref Cert.KernelIdeal.sig Kind.scVector Space.hbm Cert.KernelIdeal.S128x128 EltTy.i32)
local notation "utW" => (Memref.whole Cert.KernelIdeal.main_arg3_scv : Memref Cert.KernelIdeal.sig Kind.scVector Space.hbm Cert.KernelIdeal.S1000000x64 EltTy.f32)
local notation "itW" => (Memref.whole Cert.KernelIdeal.main_arg4_scv : Memref Cert.KernelIdeal.sig Kind.scVector Space.hbm Cert.KernelIdeal.S1000000x64 EltTy.f32)
local notation "ctW" => (Memref.whole Cert.KernelIdeal.main_arg5_scv : Memref Cert.KernelIdeal.sig Kind.scVector Space.hbm Cert.KernelIdeal.S100000x64 EltTy.f32)
local notation "ouW" => (Memref.whole Cert.KernelIdeal.main_v3_0_scv : Memref Cert.KernelIdeal.sig Kind.scVector Space.hbm Cert.KernelIdeal.S16384x64 EltTy.f32)
local notation "oiW" => (Memref.whole Cert.KernelIdeal.main_v3_1_scv : Memref Cert.KernelIdeal.sig Kind.scVector Space.hbm Cert.KernelIdeal.S16384x64 EltTy.f32)
local notation "ocW" => (Memref.whole Cert.KernelIdeal.main_v3_2_scv : Memref Cert.KernelIdeal.sig Kind.scVector Space.hbm Cert.KernelIdeal.S16384x64 EltTy.f32)
local notation "l0W" => (Memref.whole Cert.KernelIdeal.cc0_scratch0 : Memref Cert.KernelIdeal.sig Kind.scVector Space.vmem Cert.KernelIdeal.S4x128 EltTy.i32)
local notation "l1W" => (Memref.whole Cert.KernelIdeal.cc0_scratch1 : Memref Cert.KernelIdeal.sig Kind.scVector Space.vmem Cert.KernelIdeal.S4x128 EltTy.i32)
local notation "l2W" => (Memref.whole Cert.KernelIdeal.cc0_scratch2 : Memref Cert.KernelIdeal.sig Kind.scVector Space.vmem Cert.KernelIdeal.S4x128 EltTy.i32)
local notation "bufW" => (Memref.whole Cert.KernelIdeal.cc0_scratch3 : Memref Cert.KernelIdeal.sig Kind.scVector Space.vmem Cert.KernelIdeal.S2x64x64 EltTy.f32)

variable [FloatOps F] (m : (ℓ : Loc nD τ sig) → Buf (Elt F) ℓ) (d : Dev nD) (L : grid0.Coords)

set_option maxRecDepth 65536 in
set_option maxHeartbeats 20000000 in
/-- One trip of loop 3: 128 rows of the table fetched into the two staging slots through 128 read tokens, each slot
    written out to its window of the result once all its rows have landed; the two windows then hold the lookup. -/
theorem region3 [∀ e, Nonempty (Elt F e)] (hpre : PreOK m) (O : CellTallies nD τ sig (HIx 1)) (W : Waits sig (HIx 1))
    (k : Fin k0_t3_loop.trips) (v2 : BitVec 32) (c0 : BitVec 32) :
    inv3 m d L O W (Fin.cast trips3 k).val ⟨⟩
      ⊢ wp frame (wpE (defs₀ (F := F)) 𝒱₀ (V d (cV L) (jV L)) none) Set.univ
          (k0_t3_body (F := F) L uidW (Memref.isWhole_whole _) iidW (Memref.isWhole_whole _) cidW (Memref.isWhole_whole _)
            utW (Memref.isWhole_whole _) itW (Memref.isWhole_whole _) ctW (Memref.isWhole_whole _)
            ouW (Memref.isWhole_whole _) oiW (Memref.isWhole_whole _) ocW (Memref.isWhole_whole _)
            l0W (Memref.isWhole_whole _) l1W (Memref.isWhole_whole _) l2W (Memref.isWhole_whole _) bufW (Memref.isWhole_whole _)
            cc0_scratch4 cc0_scratch5 cc0_scratch6 cc0_scratch7 cc0_scratch8 cc0_scratch9 cc0_scratch10 cc0_scratch11 cc0_scratch12 cc0_scratch13
            cc0_scoped0 cc0_scoped1 cc0_scoped2 v2 c0 k ())
          (fun _ => inv3 m d L O W ((Fin.cast trips3 k).val + 1) ⟨⟩) := by
  have _p4 : Transfers.BatchOf (V d (cV L) (jV L)) (SemLoc.dma (sig := sig) cc0_scratch4.sem) 16 := trivial
  have _p5 : Transfers.BatchOf (V d (cV L) (jV L)) (SemLoc.dma (sig := sig) cc0_scratch5.sem) 16 := trivial
  have _p6 : Transfers.BatchOf (V d (cV L) (jV L)) (SemLoc.dma (sig := sig) cc0_scratch6.sem) 16 := trivial
  have _p7 : Transfers.BatchOf (V d (cV L) (jV L)) (SemLoc.dma (sig := sig) cc0_scratch7.sem) 16 := trivial
  have _p8 : Transfers.BatchOf (V d (cV L) (jV L)) (SemLoc.dma (sig := sig) cc0_scratch8.sem) 16 := trivial
  have _p9 : Transfers.BatchOf (V d (cV L) (jV L)) (SemLoc.dma (sig := sig) cc0_scratch9.sem) 16 := trivial
  have _p10 : Transfers.BatchOf (V d (cV L) (jV L)) (SemLoc.dma (sig := sig) cc0_scratch10.sem) 16 := trivial
  have _p11 : Transfers.BatchOf (V d (cV L) (jV L)) (SemLoc.dma (sig := sig) cc0_scratch11.sem) 16 := trivial
  have hfl := lands2_lt m d L hpre
  unfold inv3
  rw [toks128_unroll]
  iintro ⟨Hmw, Hl0, Htoks, ⟨%f0, Hslot0⟩, ⟨%f1, Hslot1⟩, Hs4, Hs5, Hs6, Hs7, Hs8, Hs9, Hs10, Hs11, Hs12, Hs13, Hout, %W', %hW', HO⟩
  icases Htoks with ⟨Hu0, Hu1, Hu2, Hu3, Hu4, Hu5, Hu6, Hu7, Hu8, Hu9, Hu10, Hu11, Hu12, Hu13, Hu14, Hu15, Hu16, Hu17, Hu18, Hu19, Hu20, Hu21, Hu22, Hu23, Hu24, Hu25, Hu26, Hu27, Hu28, Hu29, Hu30, Hu31, Hu32, Hu33, Hu34, Hu35, Hu36, Hu37, Hu38, Hu39, Hu40, Hu41, Hu42, Hu43, Hu44, Hu45, Hu46, Hu47, Hu48, Hu49, Hu50, Hu51, Hu52, Hu53, Hu54, Hu55, Hu56, Hu57, Hu58, Hu59, Hu60, Hu61, Hu62, Hu63, Hu64, Hu65, Hu66, Hu67, Hu68, Hu69, Hu70, Hu71, Hu72, Hu73, Hu74, Hu75, Hu76, Hu77, Hu78, Hu79, Hu80, Hu81, Hu82, Hu83, Hu84, Hu85, Hu86, Hu87, Hu88, Hu89, Hu90, Hu91, Hu92, Hu93, Hu94, Hu95, Hu96, Hu97, Hu98, Hu99, Hu100, Hu101, Hu102, Hu103, Hu104, Hu105, Hu106, Hu107, Hu108, Hu109, Hu110, Hu111, Hu112, Hu113, Hu114, Hu115, Hu116, Hu117, Hu118, Hu119, Hu120, Hu121, Hu122, Hu123, Hu124, Hu125, Hu126, Hu127, -⟩
  ihave Hrows0 := (Entails.of_eq (slot0_split d L f0)) $$ Hslot0
  icases Hrows0 with ⟨Hr0_0, Hr0_1, Hr0_2, Hr0_3, Hr0_4, Hr0_5, Hr0_6, Hr0_7, Hr0_8, Hr0_9, Hr0_10, Hr0_11, Hr0_12, Hr0_13, Hr0_14, Hr0_15, Hr0_16, Hr0_17, Hr0_18, Hr0_19, Hr0_20, Hr0_21, Hr0_22, Hr0_23, Hr0_24, Hr0_25, Hr0_26, Hr0_27, Hr0_28, Hr0_29, Hr0_30, Hr0_31, Hr0_32, Hr0_33, Hr0_34, Hr0_35, Hr0_36, Hr0_37, Hr0_38, Hr0_39, Hr0_40, Hr0_41, Hr0_42, Hr0_43, Hr0_44, Hr0_45, Hr0_46, Hr0_47, Hr0_48, Hr0_49, Hr0_50, Hr0_51, Hr0_52, Hr0_53, Hr0_54, Hr0_55, Hr0_56, Hr0_57, Hr0_58, Hr0_59, Hr0_60, Hr0_61, Hr0_62, Hr0_63⟩
  ihave Hrows1 := (Entails.of_eq (slot1_split d L f1)) $$ Hslot1
  icases Hrows1 with ⟨Hr1_0, Hr1_1, Hr1_2, Hr1_3, Hr1_4, Hr1_5, Hr1_6, Hr1_7, Hr1_8, Hr1_9, Hr1_10, Hr1_11, Hr1_12, Hr1_13, Hr1_14, Hr1_15, Hr1_16, Hr1_17, Hr1_18, Hr1_19, Hr1_20, Hr1_21, Hr1_22, Hr1_23, Hr1_24, Hr1_25, Hr1_26, Hr1_27, Hr1_28, Hr1_29, Hr1_30, Hr1_31, Hr1_32, Hr1_33, Hr1_34, Hr1_35, Hr1_36, Hr1_37, Hr1_38, Hr1_39, Hr1_40, Hr1_41, Hr1_42, Hr1_43, Hr1_44, Hr1_45, Hr1_46, Hr1_47, Hr1_48, Hr1_49, Hr1_50, Hr1_51, Hr1_52, Hr1_53, Hr1_54, Hr1_55, Hr1_56, Hr1_57, Hr1_58, Hr1_59, Hr1_60, Hr1_61, Hr1_62, Hr1_63⟩
  ihave Ho := (outInv2_peel m d (wid L) (Fin.cast trips3 k)) $$ Hout
  icases Ho with ⟨Ho0, Ho1, Hrest⟩
  ihave Ho0' := (Entails.of_eq (pts_ocWin3 (F := F) d L k 0 _).symm) $$ Ho0
  ihave Ho1' := (Entails.of_eq (pts_ocWin3 (F := F) d L k 1 _).symm) $$ Ho1
  unfold k0_t3_body
  sl_exec_parts (disch := first | exact rowInb2 _ _ (hfl _) | exact rowInb _ _ (hfl _))
  ihave HS0 := (slot0_join d L _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [Hr0_0 Hr0_1 Hr0_2 Hr0_3 Hr0_4 Hr0_5 Hr0_6 Hr0_7 Hr0_8 Hr0_9 Hr0_10 Hr0_11 Hr0_12 Hr0_13 Hr0_14 Hr0_15 Hr0_16 Hr0_17 Hr0_18 Hr0_19 Hr0_20 Hr0_21 Hr0_22 Hr0_23 Hr0_24 Hr0_25 Hr0_26 Hr0_27 Hr0_28 Hr0_29 Hr0_30 Hr0_31 Hr0_32 Hr0_33 Hr0_34 Hr0_35 Hr0_36 Hr0_37 Hr0_38 Hr0_39 Hr0_40 Hr0_41 Hr0_42 Hr0_43 Hr0_44 Hr0_45 Hr0_46 Hr0_47 Hr0_48 Hr0_49 Hr0_50 Hr0_51 Hr0_52 Hr0_53 Hr0_54 Hr0_55 Hr0_56 Hr0_57 Hr0_58 Hr0_59 Hr0_60 Hr0_61 Hr0_62 Hr0_63]
  · iframe
  sl_exec_parts (disch := first | exact rowInb2 _ _ (hfl _) | exact rowInb _ _ (hfl _))
  ihave HS1 := (slot1_join d L _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [Hr1_0 Hr1_1 Hr1_2 Hr1_3 Hr1_4 Hr1_5 Hr1_6 Hr1_7 Hr1_8 Hr1_9 Hr1_10 Hr1_11 Hr1_12 Hr1_13 Hr1_14 Hr1_15 Hr1_16 Hr1_17 Hr1_18 Hr1_19 Hr1_20 Hr1_21 Hr1_22 Hr1_23 Hr1_24 Hr1_25 Hr1_26 Hr1_27 Hr1_28 Hr1_29 Hr1_30 Hr1_31 Hr1_32 Hr1_33 Hr1_34 Hr1_35 Hr1_36 Hr1_37 Hr1_38 Hr1_39 Hr1_40 Hr1_41 Hr1_42 Hr1_43 Hr1_44 Hr1_45 Hr1_46 Hr1_47 Hr1_48 Hr1_49 Hr1_50 Hr1_51 Hr1_52 Hr1_53 Hr1_54 Hr1_55 Hr1_56 Hr1_57 Hr1_58 Hr1_59 Hr1_60 Hr1_61 Hr1_62 Hr1_63]
  · iframe
  sl_exec_parts (disch := first | exact rowInb2 _ _ (hfl _) | exact rowInb _ _ (hfl _))
  sl_step
  isplitl [Hmw]; · iexact Hmw
  isplitl [Hl0]; · iexact Hl0
  isplitl [Hu0 Hu1 Hu2 Hu3 Hu4 Hu5 Hu6 Hu7 Hu8 Hu9 Hu10 Hu11 Hu12 Hu13 Hu14 Hu15 Hu16 Hu17 Hu18 Hu19 Hu20 Hu21 Hu22 Hu23 Hu24 Hu25 Hu26 Hu27 Hu28 Hu29 Hu30 Hu31 Hu32 Hu33 Hu34 Hu35 Hu36 Hu37 Hu38 Hu39 Hu40 Hu41 Hu42 Hu43 Hu44 Hu45 Hu46 Hu47 Hu48 Hu49 Hu50 Hu51 Hu52 Hu53 Hu54 Hu55 Hu56 Hu57 Hu58 Hu59 Hu60 Hu61 Hu62 Hu63 Hu64 Hu65 Hu66 Hu67 Hu68 Hu69 Hu70 Hu71 Hu72 Hu73 Hu74 Hu75 Hu76 Hu77 Hu78 Hu79 Hu80 Hu81 Hu82 Hu83 Hu84 Hu85 Hu86 Hu87 Hu88 Hu89 Hu90 Hu91 Hu92 Hu93 Hu94 Hu95 Hu96 Hu97 Hu98 Hu99 Hu100 Hu101 Hu102 Hu103 Hu104 Hu105 Hu106 Hu107 Hu108 Hu109 Hu110 Hu111 Hu112 Hu113 Hu114 Hu115 Hu116 Hu117 Hu118 Hu119 Hu120 Hu121 Hu122 Hu123 Hu124 Hu125 Hu126 Hu127]
  · iframe
  isplitl [HS0]; · iexists _; iexact HS0
  isplitl [HS1]; · iexists _; iexact HS1
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Ho0' Ho1' Hrest]
  · iapply (outInv2_put m d (wid L) (Fin.cast trips3 k))
    isplitl [Ho0']
    · iapply (Entails.of_eq (pts_ocWin3 (F := F) d L k 0 _))
      iapply (congr_ex (F := F) (G2 m d))
      iexists _; isplitr
      on_goal 2 => iexact Ho0'
      ipureintro
      refine win3_value m d L k 0 _ ?_
      intro r e
      show (slotM0).view.read (Elt F) (glue d L _) (ix2 r e) = _
      rw [View.read_apply, glue_slot0]
      fin_cases r
      · refine (cast_eq _ _).trans ((row0_write d L _ e _ _).trans ?_)
        unfold region3.sl.dma1
        exact (tab_row5 (F := F) d L (m (t5Loc d)) _ _ e).trans (congrArg (fun w => rowAt5 d (m (t5Loc d)) w e) (lane3_0 (F := F) d L k (lands2 m d L) 0 slices_S16_o0_S1))
      · refine (cast_eq _ _).trans ((row0_write d L _ e _ _).trans ?_)
        unfold region3.sl.dma2
        exact (tab_row5 (F := F) d L (m (t5Loc d)) _ _ e).trans (congrArg (fun w => rowAt5 d (m (t5Loc d)) w e) (lane3_0 (F := F) d L k (lands2 m d L) 1 slices_S16_o1_S1))
      · refine (cast_eq _ _).trans ((row0_write d L _ e _ _).trans ?_)
        unfold region3.sl.dma3
        exact (tab_row5 (F := F) d L (m (t5Loc d)) _ _ e).trans (congrArg (fun w => rowAt5 d (m (t5Loc d)) w e) (lane3_0 (F := F) d L k (lands2 m d L) 2 slices_S16_o2_S1))
      · refine (cast_eq _ _).trans ((row0_write d L _ e _ _).trans ?_)
        unfold region3.sl.dma4
        exact (tab_row5 (F := F) d L (m (t5Loc d)) _ _ e).trans (congrArg (fun w => rowAt5 d (m (t5Loc d)) w e) (lane3_0 (F := F) d L k (lands2 m d L) 3 slices_S16_o3_S1))
      · refine (cast_eq _ _).trans ((row0_write d L _ e _ _).trans ?_)
        unfold region3.sl.dma5
        exact (tab_row5 (F := F) d L (m (t5Loc d)) _ _ e).trans (congrArg (fun w => rowAt5 d (m (t5Loc d)) w e) (lane3_0 (F := F) d L k (lands2 m d L) 4 slices_S16_o4_S1))
      · refine (cast_eq _ _).trans ((row0_write d L _ e _ _).trans ?_)
        unfold region3.sl.dma6
        exact (tab_row5 (F := F) d L (m (t5Loc d)) _ _ e).trans (congrArg (fun w => rowAt5 d (m (t5Loc d)) w e) (lane3_0 (F := F) d L k (lands2 m d L) 5 slices_S16_o5_S1))
      · refine (cast_eq _ _).trans ((row0_write d L _ e _ _).trans ?_)
        unfold region3.sl.dma7
        exact (tab_row5 (F := F) d L (m (t5Loc d)) _ _ e).trans (congrArg (fun w => rowAt5 d (m (t5Loc d)) w e) (lane3_0 (F := F) d L k (lands2 m d L) 6 slices_S16_o6_S1))
      · refine (cast_eq _ _).trans ((row0_write d L _ e _ _).trans ?_)
        unfold region3.sl.dma8
        exact (tab_row5 (F := F) d L (m (t5Loc d)) _ _ e).trans (congrArg (fun w => rowAt5 d (m (t5Loc d)) w e) (lane3_0 (F := F) d L k (lands2 m d L) 7 slices_S16_o7_S1))
      · refine (cast_eq _ _).trans ((row0_write d L _ e _ _).trans ?_)
        unfold region3.sl.dma9
        exact (tab_row5 (F := F) d L (m (t5Loc d)) _ _ e).trans (congrArg (fun w => rowAt5 d (m (t5Loc d)) w e) (lane3_0 (F := F) d L k (lands2 m d L) 8 slices_S16_o8_S1))
      · refine (cast_eq _ _).trans ((row0_write d L _ e _ _).trans ?_)
        unfold region3.sl.dma10
        exact (tab_row5 (F := F) d L (m (t5Loc d)) _ _ e).trans (congrArg (fun w => rowAt5 d (m (t5Loc d)) w e) (lane3_0 (F := F) d L k (lands2 m d L) 9 slices_S16_o9_S1))
      · refine (cast_eq _ _).trans ((row0_write d L _ e _ _).trans ?_)
        unfold region3.sl.dma11
        exact (tab_row5 (F := F) d L (m (t5Loc d)) _ _ e).trans (congrArg (fun w => rowAt5 d (m (t5Loc d)) w e) (lane3_0 (F := F) d L k (lands2 m d L) 10 slices_S16_o10_S1))
      · refine (cast_eq _ _).trans ((row0_write d L _ e _ _).trans ?_)
        unfold region3.sl.dma12
        exact (tab_row5 (F := F) d L (m (t5Loc d)) _ _ e).trans (congrArg (fun w => rowAt5 d (m (t5Loc d)) w e) (lane3_0 (F := F) d L k (lands2 m d L) 11 slices_S16_o11_S1))
      · refine (cast_eq _ _).trans ((row0_write d L _ e _ _).trans ?_)
        unfold region3.sl.dma13
        exact (tab_row5 (F := F) d L (m (t5Loc d)) _ _ e).trans (congrArg (fun w => rowAt5 d (m (t5Loc d)) w e) (lane3_0 (F := F) d L k (lands2 m d L) 12 slices_S16_o12_S1))
      · refine (cast_eq _ _).trans ((row0_write d L _ e _ _).trans ?_)
        unfold region3.sl.dma14
        exact (tab_row5 (F := F) d L (m (t5Loc d)) _ _ e).trans (congrArg (fun w => rowAt5 d (m (t5Loc d)) w e) (lane3_0 (F := F) d L k (lands2 m d L) 13 slices_S16_o13_S1))
      · refine (cast_eq _ _).trans ((row0_write d L _ e _ _).trans ?_)
        unfold region3.sl.dma15
        exact (tab_row5 (F := F) d L (m (t5Loc d)) _ _ e).trans (congrArg (fun w => rowAt5 d (m (t5Loc d)) w e) (lane3_0 (F := F) d L k (lands2 m d L) 14 slices_S16_o14_S1))
      · refine (cast_eq _ _).trans ((row0_write d L _ e _ _).trans ?_)
        unfold region3.sl.dma16
        exact (tab_row5 (F := F) d L (m (t5Loc d)) _ _ e).trans (congrArg (fun w => rowAt5 d (m (t5Loc d)) w e) (lane3_0 (F := F) d L k (lands2 m d L) 15 slices_S16_o15_S1))
      · refine (cast_eq _ _).trans ((row0_write d L _ e _ _).trans ?_)
        unfold region3.sl.dma18
        exact (tab_row5 (F := F) d L (m (t5Loc d)) _ _ e).trans (congrArg (fun w => rowAt5 d (m (t5Loc d)) w e) (lane3_1 (F := F) d L k (lands2 m d L) 0 slices_S16_o0_S1))
      · refine (cast_eq _ _).trans ((row0_write d L _ e _ _).trans ?_)
        unfold region3.sl.dma19
        exact (tab_row5 (F := F) d L (m (t5Loc d)) _ _ e).trans (congrArg (fun w => rowAt5 d (m (t5Loc d)) w e) (lane3_1 (F := F) d L k (lands2 m d L) 1 slices_S16_o1_S1))
      · refine (cast_eq _ _).trans ((row0_write d L _ e _ _).trans ?_)
        unfold region3.sl.dma20
        exact (tab_row5 (F := F) d L (m (t5Loc d)) _ _ e).trans (congrArg (fun w => rowAt5 d (m (t5Loc d)) w e) (lane3_1 (F := F) d L k (lands2 m d L) 2 slices_S16_o2_S1))
      · refine (cast_eq _ _).trans ((row0_write d L _ e _ _).trans ?_)
        unfold region3.sl.dma21
        exact (tab_row5 (F := F) d L (m (t5Loc d)) _ _ e).trans (congrArg (fun w => rowAt5 d (m (t5Loc d)) w e) (lane3_1 (F := F) d L k (lands2 m d L) 3 slices_S16_o3_S1))
      · refine (cast_eq _ _).trans ((row0_write d L _ e _ _).trans ?_)
        unfold region3.sl.dma22
        exact (tab_row5 (F := F) d L (m (t5Loc d)) _ _ e).trans (congrArg (fun w => rowAt5 d (m (t5Loc d)) w e) (lane3_1 (F := F) d L k (lands2 m d L) 4 slices_S16_o4_S1))
      · refine (cast_eq _ _).trans ((row0_write d L _ e _ _).trans ?_)
        unfold region3.sl.dma23
        exact (tab_row5 (F := F) d L (m (t5Loc d)) _ _ e).trans (congrArg (fun w => rowAt5 d (m (t5Loc d)) w e) (lane3_1 (F := F) d L k (lands2 m d L) 5 slices_S16_o5_S1))
      · refine (cast_eq _ _).trans ((row0_write d L _ e _ _).trans ?_)
        unfold region3.sl.dma24
        exact (tab_row5 (F := F) d L (m (t5Loc d)) _ _ e).trans (congrArg (fun w => rowAt5 d (m (t5Loc d)) w e) (lane3_1 (F := F) d L k (lands2 m d L) 6 slices_S16_o6_S1))
      · refine (cast_eq _ _).trans ((row0_write d L _ e _ _).trans ?_)
        unfold region3.sl.dma25
        exact (tab_row5 (F := F) d L (m (t5Loc d)) _ _ e).trans (congrArg (fun w => rowAt5 d (m (t5Loc d)) w e) (lane3_1 (F := F) d L k (lands2 m d L) 7 slices_S16_o7_S1))
      · refine (cast_eq _ _).trans ((row0_write d L _ e _ _).trans ?_)
        unfold region3.sl.dma26
        exact (tab_row5 (F := F) d L (m (t5Loc d)) _ _ e).trans (congrArg (fun w => rowAt5 d (m (t5Loc d)) w e) (lane3_1 (F := F) d L k (lands2 m d L) 8 slices_S16_o8_S1))
      · refine (cast_eq _ _).trans ((row0_write d L _ e _ _).trans ?_)
        unfold region3.sl.dma27
        exact (tab_row5 (F := F) d L (m (t5Loc d)) _ _ e).trans (congrArg (fun w => rowAt5 d (m (t5Loc d)) w e) (lane3_1 (F := F) d L k (lands2 m d L) 9 slices_S16_o9_S1))
      · refine (cast_eq _ _).trans ((row0_write d L _ e _ _).trans ?_)
        unfold region3.sl.dma28
        exact (tab_row5 (F := F) d L (m (t5Loc d)) _ _ e).trans (congrArg (fun w => rowAt5 d (m (t5Loc d)) w e) (lane3_1 (F := F) d L k (lands2 m d L) 10 slices_S16_o10_S1))
      · refine (cast_eq _ _).trans ((row0_write d L _ e _ _).trans ?_)
        unfold region3.sl.dma29
        exact (tab_row5 (F := F) d L (m (t5Loc d)) _ _ e).trans (congrArg (fun w => rowAt5 d (m (t5Loc d)) w e) (lane3_1 (F := F) d L k (lands2 m d L) 11 slices_S16_o11_S1))
      · refine (cast_eq _ _).trans ((row0_write d L _ e _ _).trans ?_)
        unfold region3.sl.dma30
        exact (tab_row5 (F := F) d L (m (t5Loc d)) _ _ e).trans (congrArg (fun w => rowAt5 d (m (t5Loc d)) w e) (lane3_1 (F := F) d L k (lands2 m d L) 12 slices_S16_o12_S1))
      · refine (cast_eq _ _).trans ((row0_write d L _ e _ _).trans ?_)
        unfold region3.sl.dma31
        exact (tab_row5 (F := F) d L (m (t5Loc d)) _ _ e).trans (congrArg (fun w => rowAt5 d (m (t5Loc d)) w e) (lane3_1 (F := F) d L k (lands2 m d L) 13 slices_S16_o13_S1))
      · refine (cast_eq _ _).trans ((row0_write d L _ e _ _).trans ?_)
        unfold region3.sl.dma32
        exact (tab_row5 (F := F) d L (m (t5Loc d)) _ _ e).trans (congrArg (fun w => rowAt5 d (m (t5Loc d)) w e) (lane3_1 (F := F) d L k (lands2 m d L) 14 slices_S16_o14_S1))
      · refine (cast_eq _ _).trans ((row0_write d L _ e _ _).trans ?_)
        unfold region3.sl.dma33
        exact (tab_row5 (F := F) d L (m (t5Loc d)) _ _ e).trans (congrArg (fun w => rowAt5 d (m (t5Loc d)) w e) (lane3_1 (F := F) d L k (lands2 m d L) 15 slices_S16_o15_S1))
      · refine (cast_eq _ _).trans ((row0_write d L _ e _ _).trans ?_)
        unfold region3.sl.dma35
        exact (tab_row5 (F := F) d L (m (t5Loc d)) _ _ e).trans (congrArg (fun w => rowAt5 d (m (t5Loc d)) w e) (lane3_2 (F := F) d L k (lands2 m d L) 0 slices_S16_o0_S1))
      · refine (cast_eq _ _).trans ((row0_write d L _ e _ _).trans ?_)
        unfold region3.sl.dma36
        exact (tab_row5 (F := F) d L (m (t5Loc d)) _ _ e).trans (congrArg (fun w => rowAt5 d (m (t5Loc d)) w e) (lane3_2 (F := F) d L k (lands2 m d L) 1 slices_S16_o1_S1))
      · refine (cast_eq _ _).trans ((row0_write d L _ e _ _).trans ?_)
        unfold region3.sl.dma37
        exact (tab_row5 (F := F) d L (m (t5Loc d)) _ _ e).trans (congrArg (fun w => rowAt5 d (m (t5Loc d)) w e) (lane3_2 (F := F) d L k (lands2 m d L) 2 slices_S16_o2_S1))
      · refine (cast_eq _ _).trans ((row0_write d L _ e _ _).trans ?_)
        unfold region3.sl.dma38
        exact (tab_row5 (F := F) d L (m (t5Loc d)) _ _ e).trans (congrArg (fun w => rowAt5 d (m (t5Loc d)) w e) (lane3_2 (F := F) d L k (lands2 m d L) 3 slices_S16_o3_S1))
      · refine (cast_eq _ _).trans ((row0_write d L _ e _ _).trans ?_)
        unfold region3.sl.dma39
        exact (tab_row5 (F := F) d L (m (t5Loc d)) _ _ e).trans (congrArg (fun w => rowAt5 d (m (t5Loc d)) w e) (lane3_2 (F := F) d L k (lands2 m d L) 4 slices_S16_o4_S1))
      · refine (cast_eq _ _).trans ((row0_write d L _ e _ _).trans ?_)
        unfold region3.sl.dma40
        exact (tab_row5 (F := F) d L (m (t5Loc d)) _ _ e).trans (congrArg (fun w => rowAt5 d (m (t5Loc d)) w e) (lane3_2 (F := F) d L k (lands2 m d L) 5 slices_S16_o5_S1))
      · refine (cast_eq _ _).trans ((row0_write d L _ e _ _).trans ?_)
        unfold region3.sl.dma41
        exact (tab_row5 (F := F) d L (m (t5Loc d)) _ _ e).trans (congrArg (fun w => rowAt5 d (m (t5Loc d)) w e) (lane3_2 (F := F) d L k (lands2 m d L) 6 slices_S16_o6_S1))
      · refine (cast_eq _ _).trans ((row0_write d L _ e _ _).trans ?_)
        unfold region3.sl.dma42
        exact (tab_row5 (F := F) d L (m (t5Loc d)) _ _ e).trans (congrArg (fun w => rowAt5 d (m (t5Loc d)) w e) (lane3_2 (F := F) d L k (lands2 m d L) 7 slices_S16_o7_S1))
      · refine (cast_eq _ _).trans ((row0_write d L _ e _ _).trans ?_)
        unfold region3.sl.dma43
        exact (tab_row5 (F := F) d L (m (t5Loc d)) _ _ e).trans (congrArg (fun w => rowAt5 d (m (t5Loc d)) w e) (lane3_2 (F := F) d L k (lands2 m d L) 8 slices_S16_o8_S1))
      · refine (cast_eq _ _).trans ((row0_write d L _ e _ _).trans ?_)
        unfold region3.sl.dma44
        exact (tab_row5 (F := F) d L (m (t5Loc d)) _ _ e).trans (congrArg (fun w => rowAt5 d (m (t5Loc d)) w e) (lane3_2 (F := F) d L k (lands2 m d L) 9 slices_S16_o9_S1))
      · refine (cast_eq _ _).trans ((row0_write d L _ e _ _).trans ?_)
        unfold region3.sl.dma45
        exact (tab_row5 (F := F) d L (m (t5Loc d)) _ _ e).trans (congrArg (fun w => rowAt5 d (m (t5Loc d)) w e) (lane3_2 (F := F) d L k (lands2 m d L) 10 slices_S16_o10_S1))
      · refine (cast_eq _ _).trans ((row0_write d L _ e _ _).trans ?_)
        unfold region3.sl.dma46
        exact (tab_row5 (F := F) d L (m (t5Loc d)) _ _ e).trans (congrArg (fun w => rowAt5 d (m (t5Loc d)) w e) (lane3_2 (F := F) d L k (lands2 m d L) 11 slices_S16_o11_S1))
      · refine (cast_eq _ _).trans ((row0_write d L _ e _ _).trans ?_)
        unfold region3.sl.dma47
        exact (tab_row5 (F := F) d L (m (t5Loc d)) _ _ e).trans (congrArg (fun w => rowAt5 d (m (t5Loc d)) w e) (lane3_2 (F := F) d L k (lands2 m d L) 12 slices_S16_o12_S1))
      · refine (cast_eq _ _).trans ((row0_write d L _ e _ _).trans ?_)
        unfold region3.sl.dma48
        exact (tab_row5 (F := F) d L (m (t5Loc d)) _ _ e).trans (congrArg (fun w => rowAt5 d (m (t5Loc d)) w e) (lane3_2 (F := F) d L k (lands2 m d L) 13 slices_S16_o13_S1))
      · refine (cast_eq _ _).trans ((row0_write d L _ e _ _).trans ?_)
        unfold region3.sl.dma49
        exact (tab_row5 (F := F) d L (m (t5Loc d)) _ _ e).trans (congrArg (fun w => rowAt5 d (m (t5Loc d)) w e) (lane3_2 (F := F) d L k (lands2 m d L) 14 slices_S16_o14_S1))
      · refine (cast_eq _ _).trans ((row0_write d L _ e _ _).trans ?_)
        unfold region3.sl.dma50
        exact (tab_row5 (F := F) d L (m (t5Loc d)) _ _ e).trans (congrArg (fun w => rowAt5 d (m (t5Loc d)) w e) (lane3_2 (F := F) d L k (lands2 m d L) 15 slices_S16_o15_S1))
      · refine (cast_eq _ _).trans ((row0_write d L _ e _ _).trans ?_)
        unfold region3.sl.dma52
        exact (tab_row5 (F := F) d L (m (t5Loc d)) _ _ e).trans (congrArg (fun w => rowAt5 d (m (t5Loc d)) w e) (lane3_3 (F := F) d L k (lands2 m d L) 0 slices_S16_o0_S1))
      · refine (cast_eq _ _).trans ((row0_write d L _ e _ _).trans ?_)
        unfold region3.sl.dma53
        exact (tab_row5 (F := F) d L (m (t5Loc d)) _ _ e).trans (congrArg (fun w => rowAt5 d (m (t5Loc d)) w e) (lane3_3 (F := F) d L k (lands2 m d L) 1 slices_S16_o1_S1))
      · refine (cast_eq _ _).trans ((row0_write d L _ e _ _).trans ?_)
        unfold region3.sl.dma54
        exact (tab_row5 (F := F) d L (m (t5Loc d)) _ _ e).trans (congrArg (fun w => rowAt5 d (m (t5Loc d)) w e) (lane3_3 (F := F) d L k (lands2 m d L) 2 slices_S16_o2_S1))
      · refine (cast_eq _ _).trans ((row0_write d L _ e _ _).trans ?_)
        unfold region3.sl.dma55
        exact (tab_row5 (F := F) d L (m (t5Loc d)) _ _ e).trans (congrArg (fun w => rowAt5 d (m (t5Loc d)) w e) (lane3_3 (F := F) d L k (lands2 m d L) 3 slices_S16_o3_S1))
      · refine (cast_eq _ _).trans ((row0_write d L _ e _ _).trans ?_)
        unfold region3.sl.dma56
        exact (tab_row5 (F := F) d L (m (t5Loc d)) _ _ e).trans (congrArg (fun w => rowAt5 d (m (t5Loc d)) w e) (lane3_3 (F := F) d L k (lands2 m d L) 4 slices_S16_o4_S1))
      · refine (cast_eq _ _).trans ((row0_write d L _ e _ _).trans ?_)
        unfold region3.sl.dma57
        exact (tab_row5 (F := F) d L (m (t5Loc d)) _ _ e).trans (congrArg (fun w => rowAt5 d (m (t5Loc d)) w e) (lane3_3 (F := F) d L k (lands2 m d L) 5 slices_S16_o5_S1))
      · refine (cast_eq _ _).trans ((row0_write d L _ e _ _).trans ?_)
        unfold region3.sl.dma58
        exact (tab_row5 (F := F) d L (m (t5Loc d)) _ _ e).trans (congrArg (fun w => rowAt5 d (m (t5Loc d)) w e) (lane3_3 (F := F) d L k (lands2 m d L) 6 slices_S16_o6_S1))
      · refine (cast_eq _ _).trans ((row0_write d L _ e _ _).trans ?_)
        unfold region3.sl.dma59
        exact (tab_row5 (F := F) d L (m (t5Loc d)) _ _ e).trans (congrArg (fun w => rowAt5 d (m (t5Loc d)) w e) (lane3_3 (F := F) d L k (lands2 m d L) 7 slices_S16_o7_S1))
      · refine (cast_eq _ _).trans ((row0_write d L _ e _ _).trans ?_)
        unfold region3.sl.dma60
        exact (tab_row5 (F := F) d L (m (t5Loc d)) _ _ e).trans (congrArg (fun w => rowAt5 d (m (t5Loc d)) w e) (lane3_3 (F := F) d L k (lands2 m d L) 8 slices_S16_o8_S1))
      · refine (cast_eq _ _).trans ((row0_write d L _ e _ _).trans ?_)
        unfold region3.sl.dma61
        exact (tab_row5 (F := F) d L (m (t5Loc d)) _ _ e).trans (congrArg (fun w => rowAt5 d (m (t5Loc d)) w e) (lane3_3 (F := F) d L k (lands2 m d L) 9 slices_S16_o9_S1))
      · refine (cast_eq _ _).trans ((row0_write d L _ e _ _).trans ?_)
        unfold region3.sl.dma62
        exact (tab_row5 (F := F) d L (m (t5Loc d)) _ _ e).trans (congrArg (fun w => rowAt5 d (m (t5Loc d)) w e) (lane3_3 (F := F) d L k (lands2 m d L) 10 slices_S16_o10_S1))
      · refine (cast_eq _ _).trans ((row0_write d L _ e _ _).trans ?_)
        unfold region3.sl.dma63
        exact (tab_row5 (F := F) d L (m (t5Loc d)) _ _ e).trans (congrArg (fun w => rowAt5 d (m (t5Loc d)) w e) (lane3_3 (F := F) d L k (lands2 m d L) 11 slices_S16_o11_S1))
      · refine (cast_eq _ _).trans ((row0_write d L _ e _ _).trans ?_)
        unfold region3.sl.dma64
        exact (tab_row5 (F := F) d L (m (t5Loc d)) _ _ e).trans (congrArg (fun w => rowAt5 d (m (t5Loc d)) w e) (lane3_3 (F := F) d L k (lands2 m d L) 12 slices_S16_o12_S1))
      · refine (cast_eq _ _).trans ((row0_write d L _ e _ _).trans ?_)
        unfold region3.sl.dma65
        exact (tab_row5 (F := F) d L (m (t5Loc d)) _ _ e).trans (congrArg (fun w => rowAt5 d (m (t5Loc d)) w e) (lane3_3 (F := F) d L k (lands2 m d L) 13 slices_S16_o13_S1))
      · refine (cast_eq _ _).trans ((row0_write d L _ e _ _).trans ?_)
        unfold region3.sl.dma66
        exact (tab_row5 (F := F) d L (m (t5Loc d)) _ _ e).trans (congrArg (fun w => rowAt5 d (m (t5Loc d)) w e) (lane3_3 (F := F) d L k (lands2 m d L) 14 slices_S16_o14_S1))
      · refine (cast_eq _ _).trans ((row0_write d L _ e _ _).trans ?_)
        unfold region3.sl.dma67
        exact (tab_row5 (F := F) d L (m (t5Loc d)) _ _ e).trans (congrArg (fun w => rowAt5 d (m (t5Loc d)) w e) (lane3_3 (F := F) d L k (lands2 m d L) 15 slices_S16_o15_S1))
    isplitl [Ho1']
    · iapply (Entails.of_eq (pts_ocWin3 (F := F) d L k 1 _))
      iapply (congr_ex (F := F) (G2 m d))
      iexists _; isplitr
      on_goal 2 => iexact Ho1'
      ipureintro
      refine win3_value m d L k 1 _ ?_
      intro r e
      show (slotM1).view.read (Elt F) (glue d L _) (ix2 r e) = _
      rw [View.read_apply, glue_slot1]
      fin_cases r
      · refine (cast_eq _ _).trans ((row1_write d L _ e _ _).trans ?_)
        unfold region3.sl.dma69
        exact (tab_row5 (F := F) d L (m (t5Loc d)) _ _ e).trans (congrArg (fun w => rowAt5 d (m (t5Loc d)) w e) (lane3_4 (F := F) d L k (lands2 m d L) 0 slices_S16_o0_S1))
      · refine (cast_eq _ _).trans ((row1_write d L _ e _ _).trans ?_)
        unfold region3.sl.dma70
        exact (tab_row5 (F := F) d L (m (t5Loc d)) _ _ e).trans (congrArg (fun w => rowAt5 d (m (t5Loc d)) w e) (lane3_4 (F := F) d L k (lands2 m d L) 1 slices_S16_o1_S1))
      · refine (cast_eq _ _).trans ((row1_write d L _ e _ _).trans ?_)
        unfold region3.sl.dma71
        exact (tab_row5 (F := F) d L (m (t5Loc d)) _ _ e).trans (congrArg (fun w => rowAt5 d (m (t5Loc d)) w e) (lane3_4 (F := F) d L k (lands2 m d L) 2 slices_S16_o2_S1))
      · refine (cast_eq _ _).trans ((row1_write d L _ e _ _).trans ?_)
        unfold region3.sl.dma72
        exact (tab_row5 (F := F) d L (m (t5Loc d)) _ _ e).trans (congrArg (fun w => rowAt5 d (m (t5Loc d)) w e) (lane3_4 (F := F) d L k (lands2 m d L) 3 slices_S16_o3_S1))
      · refine (cast_eq _ _).trans ((row1_write d L _ e _ _).trans ?_)
        unfold region3.sl.dma73
        exact (tab_row5 (F := F) d L (m (t5Loc d)) _ _ e).trans (congrArg (fun w => rowAt5 d (m (t5Loc d)) w e) (lane3_4 (F := F) d L k (lands2 m d L) 4 slices_S16_o4_S1))
      · refine (cast_eq _ _).trans ((row1_write d L _ e _ _).trans ?_)
        unfold region3.sl.dma74
        exact (tab_row5 (F := F) d L (m (t5Loc d)) _ _ e).trans (congrArg (fun w => rowAt5 d (m (t5Loc d)) w e) (lane3_4 (F := F) d L k (lands2 m d L) 5 slices_S16_o5_S1))
      · refine (cast_eq _ _).trans ((row1_write d L _ e _ _).trans ?_)
        unfold region3.sl.dma75
        exact (tab_row5 (F := F) d L (m (t5Loc d)) _ _ e).trans (congrArg (fun w => rowAt5 d (m (t5Loc d)) w e) (lane3_4 (F := F) d L k (lands2 m d L) 6 slices_S16_o6_S1))
      · refine (cast_eq _ _).trans ((row1_write d L _ e _ _).trans ?_)
        unfold region3.sl.dma76
        exact (tab_row5 (F := F) d L (m (t5Loc d)) _ _ e).trans (congrArg (fun w => rowAt5 d (m (t5Loc d)) w e) (lane3_4 (F := F) d L k (lands2 m d L) 7 slices_S16_o7_S1))
      · refine (cast_eq _ _).trans ((row1_write d L _ e _ _).trans ?_)
        unfold region3.sl.dma77
        exact (tab_row5 (F := F) d L (m (t5Loc d)) _ _ e).trans (congrArg (fun w => rowAt5 d (m (t5Loc d)) w e) (lane3_4 (F := F) d L k (lands2 m d L) 8 slices_S16_o8_S1))
      · refine (cast_eq _ _).trans ((row1_write d L _ e _ _).trans ?_)
        unfold region3.sl.dma78
        exact (tab_row5 (F := F) d L (m (t5Loc d)) _ _ e).trans (congrArg (fun w => rowAt5 d (m (t5Loc d)) w e) (lane3_4 (F := F) d L k (lands2 m d L) 9 slices_S16_o9_S1))
      · refine (cast_eq _ _).trans ((row1_write d L _ e _ _).trans ?_)
        unfold region3.sl.dma79
        exact (tab_row5 (F := F) d L (m (t5Loc d)) _ _ e).trans (congrArg (fun w => rowAt5 d (m (t5Loc d)) w e) (lane3_4 (F := F) d L k (lands2 m d L) 10 slices_S16_o10_S1))
      · refine (cast_eq _ _).trans ((row1_write d L _ e _ _).trans ?_)
        unfold region3.sl.dma80
        exact (tab_row5 (F := F) d L (m (t5Loc d)) _ _ e).trans (congrArg (fun w => rowAt5 d (m (t5Loc d)) w e) (lane3_4 (F := F) d L k (lands2 m d L) 11 slices_S16_o11_S1))
      · refine (cast_eq _ _).trans ((row1_write d L _ e _ _).trans ?_)
        unfold region3.sl.dma81
        exact (tab_row5 (F := F) d L (m (t5Loc d)) _ _ e).trans (congrArg (fun w => rowAt5 d (m (t5Loc d)) w e) (lane3_4 (F := F) d L k (lands2 m d L) 12 slices_S16_o12_S1))
      · refine (cast_eq _ _).trans ((row1_write d L _ e _ _).trans ?_)
        unfold region3.sl.dma82
        exact (tab_row5 (F := F) d L (m (t5Loc d)) _ _ e).trans (congrArg (fun w => rowAt5 d (m (t5Loc d)) w e) (lane3_4 (F := F) d L k (lands2 m d L) 13 slices_S16_o13_S1))
      · refine (cast_eq _ _).trans ((row1_write d L _ e _ _).trans ?_)
        unfold region3.sl.dma83
        exact (tab_row5 (F := F) d L (m (t5Loc d)) _ _ e).trans (congrArg (fun w => rowAt5 d (m (t5Loc d)) w e) (lane3_4 (F := F) d L k (lands2 m d L) 14 slices_S16_o14_S1))
      · refine (cast_eq _ _).trans ((row1_write d L _ e _ _).trans ?_)
        unfold region3.sl.dma84
        exact (tab_row5 (F := F) d L (m (t5Loc d)) _ _ e).trans (congrArg (fun w => rowAt5 d (m (t5Loc d)) w e) (lane3_4 (F := F) d L k (lands2 m d L) 15 slices_S16_o15_S1))
      · refine (cast_eq _ _).trans ((row1_write d L _ e _ _).trans ?_)
        unfold region3.sl.dma86
        exact (tab_row5 (F := F) d L (m (t5Loc d)) _ _ e).trans (congrArg (fun w => rowAt5 d (m (t5Loc d)) w e) (lane3_5 (F := F) d L k (lands2 m d L) 0 slices_S16_o0_S1))
      · refine (cast_eq _ _).trans ((row1_write d L _ e _ _).trans ?_)
        unfold region3.sl.dma87
        exact (tab_row5 (F := F) d L (m (t5Loc d)) _ _ e).trans (congrArg (fun w => rowAt5 d (m (t5Loc d)) w e) (lane3_5 (F := F) d L k (lands2 m d L) 1 slices_S16_o1_S1))
      · refine (cast_eq _ _).trans ((row1_write d L _ e _ _).trans ?_)
        unfold region3.sl.dma88
        exact (tab_row5 (F := F) d L (m (t5Loc d)) _ _ e).trans (congrArg (fun w => rowAt5 d (m (t5Loc d)) w e) (lane3_5 (F := F) d L k (lands2 m d L) 2 slices_S16_o2_S1))
      · refine (cast_eq _ _).trans ((row1_write d L _ e _ _).trans ?_)
        unfold region3.sl.dma89
        exact (tab_row5 (F := F) d L (m (t5Loc d)) _ _ e).trans (congrArg (fun w => rowAt5 d (m (t5Loc d)) w e) (lane3_5 (F := F) d L k (lands2 m d L) 3 slices_S16_o3_S1))
      · refine (cast_eq _ _).trans ((row1_write d L _ e _ _).trans ?_)
        unfold region3.sl.dma90
        exact (tab_row5 (F := F) d L (m (t5Loc d)) _ _ e).trans (congrArg (fun w => rowAt5 d (m (t5Loc d)) w e) (lane3_5 (F := F) d L k (lands2 m d L) 4 slices_S16_o4_S1))
      · refine (cast_eq _ _).trans ((row1_write d L _ e _ _).trans ?_)
        unfold region3.sl.dma91
        exact (tab_row5 (F := F) d L (m (t5Loc d)) _ _ e).trans (congrArg (fun w => rowAt5 d (m (t5Loc d)) w e) (lane3_5 (F := F) d L k (lands2 m d L) 5 slices_S16_o5_S1))
      · refine (cast_eq _ _).trans ((row1_write d L _ e _ _).trans ?_)
        unfold region3.sl.dma92
        exact (tab_row5 (F := F) d L (m (t5Loc d)) _ _ e).trans (congrArg (fun w => rowAt5 d (m (t5Loc d)) w e) (lane3_5 (F := F) d L k (lands2 m d L) 6 slices_S16_o6_S1))
      · refine (cast_eq _ _).trans ((row1_write d L _ e _ _).trans ?_)
        unfold region3.sl.dma93
        exact (tab_row5 (F := F) d L (m (t5Loc d)) _ _ e).trans (congrArg (fun w => rowAt5 d (m (t5Loc d)) w e) (lane3_5 (F := F) d L k (lands2 m d L) 7 slices_S16_o7_S1))
      · refine (cast_eq _ _).trans ((row1_write d L _ e _ _).trans ?_)
        unfold region3.sl.dma94
        exact (tab_row5 (F := F) d L (m (t5Loc d)) _ _ e).trans (congrArg (fun w => rowAt5 d (m (t5Loc d)) w e) (lane3_5 (F := F) d L k (lands2 m d L) 8 slices_S16_o8_S1))
      · refine (cast_eq _ _).trans ((row1_write d L _ e _ _).trans ?_)
        unfold region3.sl.dma95
        exact (tab_row5 (F := F) d L (m (t5Loc d)) _ _ e).trans (congrArg (fun w => rowAt5 d (m (t5Loc d)) w e) (lane3_5 (F := F) d L k (lands2 m d L) 9 slices_S16_o9_S1))
      · refine (cast_eq _ _).trans ((row1_write d L _ e _ _).trans ?_)
        unfold region3.sl.dma96
        exact (tab_row5 (F := F) d L (m (t5Loc d)) _ _ e).trans (congrArg (fun w => rowAt5 d (m (t5Loc d)) w e) (lane3_5 (F := F) d L k (lands2 m d L) 10 slices_S16_o10_S1))
      · refine (cast_eq _ _).trans ((row1_write d L _ e _ _).trans ?_)
        unfold region3.sl.dma97
        exact (tab_row5 (F := F) d L (m (t5Loc d)) _ _ e).trans (congrArg (fun w => rowAt5 d (m (t5Loc d)) w e) (lane3_5 (F := F) d L k (lands2 m d L) 11 slices_S16_o11_S1))
      · refine (cast_eq _ _).trans ((row1_write d L _ e _ _).trans ?_)
        unfold region3.sl.dma98
        exact (tab_row5 (F := F) d L (m (t5Loc d)) _ _ e).trans (congrArg (fun w => rowAt5 d (m (t5Loc d)) w e) (lane3_5 (F := F) d L k (lands2 m d L) 12 slices_S16_o12_S1))
      · refine (cast_eq _ _).trans ((row1_write d L _ e _ _).trans ?_)
        unfold region3.sl.dma99
        exact (tab_row5 (F := F) d L (m (t5Loc d)) _ _ e).trans (congrArg (fun w => rowAt5 d (m (t5Loc d)) w e) (lane3_5 (F := F) d L k (lands2 m d L) 13 slices_S16_o13_S1))
      · refine (cast_eq _ _).trans ((row1_write d L _ e _ _).trans ?_)
        unfold region3.sl.dma100
        exact (tab_row5 (F := F) d L (m (t5Loc d)) _ _ e).trans (congrArg (fun w => rowAt5 d (m (t5Loc d)) w e) (lane3_5 (F := F) d L k (lands2 m d L) 14 slices_S16_o14_S1))
      · refine (cast_eq _ _).trans ((row1_write d L _ e _ _).trans ?_)
        unfold region3.sl.dma101
        exact (tab_row5 (F := F) d L (m (t5Loc d)) _ _ e).trans (congrArg (fun w => rowAt5 d (m (t5Loc d)) w e) (lane3_5 (F := F) d L k (lands2 m d L) 15 slices_S16_o15_S1))
      · refine (cast_eq _ _).trans ((row1_write d L _ e _ _).trans ?_)
        unfold region3.sl.dma103
        exact (tab_row5 (F := F) d L (m (t5Loc d)) _ _ e).trans (congrArg (fun w => rowAt5 d (m (t5Loc d)) w e) (lane3_6 (F := F) d L k (lands2 m d L) 0 slices_S16_o0_S1))
      · refine (cast_eq _ _).trans ((row1_write d L _ e _ _).trans ?_)
        unfold region3.sl.dma104
        exact (tab_row5 (F := F) d L (m (t5Loc d)) _ _ e).trans (congrArg (fun w => rowAt5 d (m (t5Loc d)) w e) (lane3_6 (F := F) d L k (lands2 m d L) 1 slices_S16_o1_S1))
      · refine (cast_eq _ _).trans ((row1_write d L _ e _ _).trans ?_)
        unfold region3.sl.dma105
        exact (tab_row5 (F := F) d L (m (t5Loc d)) _ _ e).trans (congrArg (fun w => rowAt5 d (m (t5Loc d)) w e) (lane3_6 (F := F) d L k (lands2 m d L) 2 slices_S16_o2_S1))
      · refine (cast_eq _ _).trans ((row1_write d L _ e _ _).trans ?_)
        unfold region3.sl.dma106
        exact (tab_row5 (F := F) d L (m (t5Loc d)) _ _ e).trans (congrArg (fun w => rowAt5 d (m (t5Loc d)) w e) (lane3_6 (F := F) d L k (lands2 m d L) 3 slices_S16_o3_S1))
      · refine (cast_eq _ _).trans ((row1_write d L _ e _ _).trans ?_)
        unfold region3.sl.dma107
        exact (tab_row5 (F := F) d L (m (t5Loc d)) _ _ e).trans (congrArg (fun w => rowAt5 d (m (t5Loc d)) w e) (lane3_6 (F := F) d L k (lands2 m d L) 4 slices_S16_o4_S1))
      · refine (cast_eq _ _).trans ((row1_write d L _ e _ _).trans ?_)
        unfold region3.sl.dma108
        exact (tab_row5 (F := F) d L (m (t5Loc d)) _ _ e).trans (congrArg (fun w => rowAt5 d (m (t5Loc d)) w e) (lane3_6 (F := F) d L k (lands2 m d L) 5 slices_S16_o5_S1))
      · refine (cast_eq _ _).trans ((row1_write d L _ e _ _).trans ?_)
        unfold region3.sl.dma109
        exact (tab_row5 (F := F) d L (m (t5Loc d)) _ _ e).trans (congrArg (fun w => rowAt5 d (m (t5Loc d)) w e) (lane3_6 (F := F) d L k (lands2 m d L) 6 slices_S16_o6_S1))
      · refine (cast_eq _ _).trans ((row1_write d L _ e _ _).trans ?_)
        unfold region3.sl.dma110
        exact (tab_row5 (F := F) d L (m (t5Loc d)) _ _ e).trans (congrArg (fun w => rowAt5 d (m (t5Loc d)) w e) (lane3_6 (F := F) d L k (lands2 m d L) 7 slices_S16_o7_S1))
      · refine (cast_eq _ _).trans ((row1_write d L _ e _ _).trans ?_)
        unfold region3.sl.dma111
        exact (tab_row5 (F := F) d L (m (t5Loc d)) _ _ e).trans (congrArg (fun w => rowAt5 d (m (t5Loc d)) w e) (lane3_6 (F := F) d L k (lands2 m d L) 8 slices_S16_o8_S1))
      · refine (cast_eq _ _).trans ((row1_write d L _ e _ _).trans ?_)
        unfold region3.sl.dma112
        exact (tab_row5 (F := F) d L (m (t5Loc d)) _ _ e).trans (congrArg (fun w => rowAt5 d (m (t5Loc d)) w e) (lane3_6 (F := F) d L k (lands2 m d L) 9 slices_S16_o9_S1))
      · refine (cast_eq _ _).trans ((row1_write d L _ e _ _).trans ?_)
        unfold region3.sl.dma113
        exact (tab_row5 (F := F) d L (m (t5Loc d)) _ _ e).trans (congrArg (fun w => rowAt5 d (m (t5Loc d)) w e) (lane3_6 (F := F) d L k (lands2 m d L) 10 slices_S16_o10_S1))
      · refine (cast_eq _ _).trans ((row1_write d L _ e _ _).trans ?_)
        unfold region3.sl.dma114
        exact (tab_row5 (F := F) d L (m (t5Loc d)) _ _ e).trans (congrArg (fun w => rowAt5 d (m (t5Loc d)) w e) (lane3_6 (F := F) d L k (lands2 m d L) 11 slices_S16_o11_S1))
      · refine (cast_eq _ _).trans ((row1_write d L _ e _ _).trans ?_)
        unfold region3.sl.dma115
        exact (tab_row5 (F := F) d L (m (t5Loc d)) _ _ e).trans (congrArg (fun w => rowAt5 d (m (t5Loc d)) w e) (lane3_6 (F := F) d L k (lands2 m d L) 12 slices_S16_o12_S1))
      · refine (cast_eq _ _).trans ((row1_write d L _ e _ _).trans ?_)
        unfold region3.sl.dma116
        exact (tab_row5 (F := F) d L (m (t5Loc d)) _ _ e).trans (congrArg (fun w => rowAt5 d (m (t5Loc d)) w e) (lane3_6 (F := F) d L k (lands2 m d L) 13 slices_S16_o13_S1))
      · refine (cast_eq _ _).trans ((row1_write d L _ e _ _).trans ?_)
        unfold region3.sl.dma117
        exact (tab_row5 (F := F) d L (m (t5Loc d)) _ _ e).trans (congrArg (fun w => rowAt5 d (m (t5Loc d)) w e) (lane3_6 (F := F) d L k (lands2 m d L) 14 slices_S16_o14_S1))
      · refine (cast_eq _ _).trans ((row1_write d L _ e _ _).trans ?_)
        unfold region3.sl.dma118
        exact (tab_row5 (F := F) d L (m (t5Loc d)) _ _ e).trans (congrArg (fun w => rowAt5 d (m (t5Loc d)) w e) (lane3_6 (F := F) d L k (lands2 m d L) 15 slices_S16_o15_S1))
      · refine (cast_eq _ _).trans ((row1_write d L _ e _ _).trans ?_)
        unfold region3.sl.dma120
        exact (tab_row5 (F := F) d L (m (t5Loc d)) _ _ e).trans (congrArg (fun w => rowAt5 d (m (t5Loc d)) w e) (lane3_7 (F := F) d L k (lands2 m d L) 0 slices_S16_o0_S1))
      · refine (cast_eq _ _).trans ((row1_write d L _ e _ _).trans ?_)
        unfold region3.sl.dma121
        exact (tab_row5 (F := F) d L (m (t5Loc d)) _ _ e).trans (congrArg (fun w => rowAt5 d (m (t5Loc d)) w e) (lane3_7 (F := F) d L k (lands2 m d L) 1 slices_S16_o1_S1))
      · refine (cast_eq _ _).trans ((row1_write d L _ e _ _).trans ?_)
        unfold region3.sl.dma122
        exact (tab_row5 (F := F) d L (m (t5Loc d)) _ _ e).trans (congrArg (fun w => rowAt5 d (m (t5Loc d)) w e) (lane3_7 (F := F) d L k (lands2 m d L) 2 slices_S16_o2_S1))
      · refine (cast_eq _ _).trans ((row1_write d L _ e _ _).trans ?_)
        unfold region3.sl.dma123
        exact (tab_row5 (F := F) d L (m (t5Loc d)) _ _ e).trans (congrArg (fun w => rowAt5 d (m (t5Loc d)) w e) (lane3_7 (F := F) d L k (lands2 m d L) 3 slices_S16_o3_S1))
      · refine (cast_eq _ _).trans ((row1_write d L _ e _ _).trans ?_)
        unfold region3.sl.dma124
        exact (tab_row5 (F := F) d L (m (t5Loc d)) _ _ e).trans (congrArg (fun w => rowAt5 d (m (t5Loc d)) w e) (lane3_7 (F := F) d L k (lands2 m d L) 4 slices_S16_o4_S1))
      · refine (cast_eq _ _).trans ((row1_write d L _ e _ _).trans ?_)
        unfold region3.sl.dma125
        exact (tab_row5 (F := F) d L (m (t5Loc d)) _ _ e).trans (congrArg (fun w => rowAt5 d (m (t5Loc d)) w e) (lane3_7 (F := F) d L k (lands2 m d L) 5 slices_S16_o5_S1))
      · refine (cast_eq _ _).trans ((row1_write d L _ e _ _).trans ?_)
        unfold region3.sl.dma126
        exact (tab_row5 (F := F) d L (m (t5Loc d)) _ _ e).trans (congrArg (fun w => rowAt5 d (m (t5Loc d)) w e) (lane3_7 (F := F) d L k (lands2 m d L) 6 slices_S16_o6_S1))
      · refine (cast_eq _ _).trans ((row1_write d L _ e _ _).trans ?_)
        unfold region3.sl.dma127
        exact (tab_row5 (F := F) d L (m (t5Loc d)) _ _ e).trans (congrArg (fun w => rowAt5 d (m (t5Loc d)) w e) (lane3_7 (F := F) d L k (lands2 m d L) 7 slices_S16_o7_S1))
      · refine (cast_eq _ _).trans ((row1_write d L _ e _ _).trans ?_)
        unfold region3.sl.dma128
        exact (tab_row5 (F := F) d L (m (t5Loc d)) _ _ e).trans (congrArg (fun w => rowAt5 d (m (t5Loc d)) w e) (lane3_7 (F := F) d L k (lands2 m d L) 8 slices_S16_o8_S1))
      · refine (cast_eq _ _).trans ((row1_write d L _ e _ _).trans ?_)
        unfold region3.sl.dma129
        exact (tab_row5 (F := F) d L (m (t5Loc d)) _ _ e).trans (congrArg (fun w => rowAt5 d (m (t5Loc d)) w e) (lane3_7 (F := F) d L k (lands2 m d L) 9 slices_S16_o9_S1))
      · refine (cast_eq _ _).trans ((row1_write d L _ e _ _).trans ?_)
        unfold region3.sl.dma130
        exact (tab_row5 (F := F) d L (m (t5Loc d)) _ _ e).trans (congrArg (fun w => rowAt5 d (m (t5Loc d)) w e) (lane3_7 (F := F) d L k (lands2 m d L) 10 slices_S16_o10_S1))
      · refine (cast_eq _ _).trans ((row1_write d L _ e _ _).trans ?_)
        unfold region3.sl.dma131
        exact (tab_row5 (F := F) d L (m (t5Loc d)) _ _ e).trans (congrArg (fun w => rowAt5 d (m (t5Loc d)) w e) (lane3_7 (F := F) d L k (lands2 m d L) 11 slices_S16_o11_S1))
      · refine (cast_eq _ _).trans ((row1_write d L _ e _ _).trans ?_)
        unfold region3.sl.dma132
        exact (tab_row5 (F := F) d L (m (t5Loc d)) _ _ e).trans (congrArg (fun w => rowAt5 d (m (t5Loc d)) w e) (lane3_7 (F := F) d L k (lands2 m d L) 12 slices_S16_o12_S1))
      · refine (cast_eq _ _).trans ((row1_write d L _ e _ _).trans ?_)
        unfold region3.sl.dma133
        exact (tab_row5 (F := F) d L (m (t5Loc d)) _ _ e).trans (congrArg (fun w => rowAt5 d (m (t5Loc d)) w e) (lane3_7 (F := F) d L k (lands2 m d L) 13 slices_S16_o13_S1))
      · refine (cast_eq _ _).trans ((row1_write d L _ e _ _).trans ?_)
        unfold region3.sl.dma134
        exact (tab_row5 (F := F) d L (m (t5Loc d)) _ _ e).trans (congrArg (fun w => rowAt5 d (m (t5Loc d)) w e) (lane3_7 (F := F) d L k (lands2 m d L) 14 slices_S16_o14_S1))
      · refine (cast_eq _ _).trans ((row1_write d L _ e _ _).trans ?_)
        unfold region3.sl.dma135
        exact (tab_row5 (F := F) d L (m (t5Loc d)) _ _ e).trans (congrArg (fun w => rowAt5 d (m (t5Loc d)) w e) (lane3_7 (F := F) d L k (lands2 m d L) 15 slices_S16_o15_S1))
    iexact Hrest
  iexists _; isplitr
  on_goal 2 => iexact HO
  ipureintro
  repeat' (first | exact hW' | refine waits_insert _ ?_)

end Cert.Proof.KIReg3

end
-- ==== Proof.KIBody.lean ====
/-
  One tile's task, whole: the three index rows fetched, then the three loops (one per table), each trip fetching 128
  table rows into the staging slots and writing them out; the tile's result windows end at the lookups.
-/
import proofs.«206842_g87686052315543_cont_sun_m_497_29_alg».proof.Defs
import proofs.«206842_g87686052315543_cont_sun_m_497_29_alg».proof.Proof.KIRes
import proofs.«206842_g87686052315543_cont_sun_m_497_29_alg».proof.Proof.KIWin
import proofs.«206842_g87686052315543_cont_sun_m_497_29_alg».proof.Proof.KILand
import proofs.«206842_g87686052315543_cont_sun_m_497_29_alg».proof.Proof.KIRows
import proofs.«206842_g87686052315543_cont_sun_m_497_29_alg».proof.Proof.KIJoin
import proofs.«206842_g87686052315543_cont_sun_m_497_29_alg».proof.Proof.KIInv
import proofs.«206842_g87686052315543_cont_sun_m_497_29_alg».proof.Proof.KIOwn
import proofs.«206842_g87686052315543_cont_sun_m_497_29_alg».proof.Proof.KILaunchP
import proofs.«206842_g87686052315543_cont_sun_m_497_29_alg».proof.Proof.KIReg1
import proofs.«206842_g87686052315543_cont_sun_m_497_29_alg».proof.Proof.KIReg2
import proofs.«206842_g87686052315543_cont_sun_m_497_29_alg».proof.Proof.KIReg3
import Idealize.ShloMosaic.Lib.SparseCore.Launch
import Idealize.ShloMosaic.Lib.SparseCore.Ops
import Idealize.ShloMosaic.Lib.StableHlo.Run
import Idealize.ShloMosaic.Lib.Batch
import Idealize.ShloMosaic.Lib.Tactic
import Idealize.ShloMosaic.Lib.Pipeline.Kit
import proofs.«206842_g87686052315543_cont_sun_m_497_29_alg».proof.Proof.Gen.KernelIdeal
import proofs.«206842_g87686052315543_cont_sun_m_497_29_alg».proof.Proof.Gen.KernelIdeal.Skeleton

noncomputable section

namespace Cert.Proof.KIBody

open Cert.KernelIdeal Cert.KernelIdeal.Gen Cert.Proof.KIRes Cert.Proof.KIWin Cert.Proof.KILand Cert.Proof.KIRows Cert.Proof.KIJoin Cert.Proof.KIInv Cert.Proof.KIReg1 Cert.Proof.KIReg2 Cert.Proof.KIReg3

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uidW" => (Memref.whole Cert.KernelIdeal.main_v0_scv : Memref Cert.KernelIdeal.sig Kind.scVector Space.hbm Cert.KernelIdeal.S128x128 EltTy.i32)
local notation "iidW" => (Memref.whole Cert.KernelIdeal.main_v1_scv : Memref Cert.KernelIdeal.sig Kind.scVector Space.hbm Cert.KernelIdeal.S128x128 EltTy.i32)
local notation "cidW" => (Memref.whole Cert.KernelIdeal.main_v2_scv : Memref Cert.KernelIdeal.sig Kind.scVector Space.hbm Cert.KernelIdeal.S128x128 EltTy.i32)
local notation "utW" => (Memref.whole Cert.KernelIdeal.main_arg3_scv : Memref Cert.KernelIdeal.sig Kind.scVector Space.hbm Cert.KernelIdeal.S1000000x64 EltTy.f32)
local notation "itW" => (Memref.whole Cert.KernelIdeal.main_arg4_scv : Memref Cert.KernelIdeal.sig Kind.scVector Space.hbm Cert.KernelIdeal.S1000000x64 EltTy.f32)
local notation "ctW" => (Memref.whole Cert.KernelIdeal.main_arg5_scv : Memref Cert.KernelIdeal.sig Kind.scVector Space.hbm Cert.KernelIdeal.S100000x64 EltTy.f32)
local notation "ouW" => (Memref.whole Cert.KernelIdeal.main_v3_0_scv : Memref Cert.KernelIdeal.sig Kind.scVector Space.hbm Cert.KernelIdeal.S16384x64 EltTy.f32)
local notation "oiW" => (Memref.whole Cert.KernelIdeal.main_v3_1_scv : Memref Cert.KernelIdeal.sig Kind.scVector Space.hbm Cert.KernelIdeal.S16384x64 EltTy.f32)
local notation "ocW" => (Memref.whole Cert.KernelIdeal.main_v3_2_scv : Memref Cert.KernelIdeal.sig Kind.scVector Space.hbm Cert.KernelIdeal.S16384x64 EltTy.f32)
local notation "l0W" => (Memref.whole Cert.KernelIdeal.cc0_scratch0 : Memref Cert.KernelIdeal.sig Kind.scVector Space.vmem Cert.KernelIdeal.S4x128 EltTy.i32)
local notation "l1W" => (Memref.whole Cert.KernelIdeal.cc0_scratch1 : Memref Cert.KernelIdeal.sig Kind.scVector Space.vmem Cert.KernelIdeal.S4x128 EltTy.i32)
local notation "l2W" => (Memref.whole Cert.KernelIdeal.cc0_scratch2 : Memref Cert.KernelIdeal.sig Kind.scVector Space.vmem Cert.KernelIdeal.S4x128 EltTy.i32)
local notation "bufW" => (Memref.whole Cert.KernelIdeal.cc0_scratch3 : Memref Cert.KernelIdeal.sig Kind.scVector Space.vmem Cert.KernelIdeal.S2x64x64 EltTy.f32)

variable [FloatOps F] (m : (ℓ : Loc nD τ sig) → Buf (Elt F) ℓ) (d : Dev nD) (L : grid0.Coords)

set_option maxRecDepth 65536 in
set_option maxHeartbeats 20000000 in
/-- One tile's task. -/
theorem tile_body [∀ e, Nonempty (Elt F e)] (hpre : PreOK m) : TileBody m := by
  intro d L O W hO
  rw [(K (F := F)).scopedBufs_V Cert.Proof.KILaunchP.facts d (cV L) (jV L), SparseCore.Cfg.scopedSems0_V (Val := Elt F) d (cV L) (jV L),
    Cert.Proof.KIOwn.ownSems0_V, Cert.Proof.KIOwn.ownBufs_V, Cert.Proof.KIOwn.ownCells_rest_empty, bigSep_empty]
  unfold tileGo
  rw [cc0__gather3_eq_skeleton]; unfold cc0__gather3_skel
  iintro ⟨#Hlv, -, ⟨Hv0, Hv1, Hv2, Ht3, Ht4, Ht5, Hou, Hoi, Hoc⟩, ⟨⟨%fl0, Hl0⟩, ⟨%fl1, Hl1⟩, ⟨%fl2, Hl2⟩, ⟨%fb, Hbuf⟩, Hbufs⟩,
    ⟨Hs4, Hs5, Hs6, Hs7, Hs8, Hs9, Hs10, Hs11, Hs12, Hs13, Hc0, Hc1, Hc2, -⟩, HO⟩
  ihave Hmw0 := ((K (F := F)).mayWaits_none (thr := V d (cV L) (jV L)) hO) $$ Hlv
  ihave Hi0 := (Entails.of_eq (pts_idRow0 (F := F) d L _).symm) $$ Hv0
  ihave Hi1 := (Entails.of_eq (pts_idRow1 (F := F) d L _).symm) $$ Hv1
  ihave Hi2 := (Entails.of_eq (pts_idRow2 (F := F) d L _).symm) $$ Hv2
  ihave Hl0 := (Entails.of_eq (pts_l0 (F := F) d L _).symm) $$ Hl0
  ihave Hl1 := (Entails.of_eq (pts_l1 (F := F) d L _).symm) $$ Hl1
  ihave Hl2 := (Entails.of_eq (pts_l2 (F := F) d L _).symm) $$ Hl2
  ihave Hbuf := (Entails.of_eq ((pts_buf (F := F) d L _).symm.trans (buf_split d L fb))) $$ Hbuf
  icases Hbuf with ⟨Hslot0, Hslot1⟩
  sl_exec_parts

  -- loop 1
  ihave Hk := (toks_split' (F := F) _ _ _).1 $$ Ht3
  icases Hk with ⟨Hkr1, Hkt1⟩
  sl_for (inv1 m d L O W) $$ [Hmw0 Hl0 Hkt1 Hslot0 Hslot1 Hs4 Hs5 Hs6 Hs7 Hs8 Hs9 Hs10 Hs11 Hs12 Hs13 Hou HO]
  case region => exact fun k _ => region1 m d L hpre O W k _
  · unfold inv1
    isplitl [Hmw0]; · iexact Hmw0
    isplitl [Hl0]
    · iapply (pts_of_eq (F := F) (lands0 m d L))
      iexists _; isplitr
      on_goal 2 => iexact Hl0
      ipureintro; exact write_lands0 m d L _
    isplitl [Hkt1]; · iexact Hkt1
    isplitl [Hslot0]; · iexists _; iexact Hslot0
    isplitl [Hslot1]; · iexists _; iexact Hslot1
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hou]; · rw [outInv0_zero]; iexact Hou
    iexists _; isplitr
    on_goal 2 => iexact HO
    ipureintro; exact waits_insert _ (waits_insert _ (waits_insert _ (fun p hp => Or.inl hp)))
  iintro %_ HI
  unfold inv1
  icases HI with ⟨Hmw1, Hl0, Hkt1, ⟨%fz0_1, Hslot0⟩, ⟨%fz1_1, Hslot1⟩, Hs4, Hs5, Hs6, Hs7, Hs8, Hs9, Hs10, Hs11, Hs12, Hs13, Hou, %Wn1, %hWcur1, HO⟩

  sl_exec_parts

  -- loop 2
  ihave Hk := (toks_split' (F := F) _ _ _).1 $$ Ht4
  icases Hk with ⟨Hkr2, Hkt2⟩
  sl_for (inv2 m d L O W) $$ [Hmw1 Hl1 Hkt2 Hslot0 Hslot1 Hs4 Hs5 Hs6 Hs7 Hs8 Hs9 Hs10 Hs11 Hs12 Hs13 Hoi HO]
  case region => exact fun k _ => region2 m d L hpre O W k _
  · unfold inv2
    isplitl [Hmw1]; · iexact Hmw1
    isplitl [Hl1]
    · iapply (pts_of_eq (F := F) (lands1 m d L))
      iexists _; isplitr
      on_goal 2 => iexact Hl1
      ipureintro; exact write_lands1 m d L _
    isplitl [Hkt2]; · iexact Hkt2
    isplitl [Hslot0]; · iexists _; iexact Hslot0
    isplitl [Hslot1]; · iexists _; iexact Hslot1
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hoi]; · rw [outInv1_zero]; iexact Hoi
    iexists _; isplitr
    on_goal 2 => iexact HO
    ipureintro; exact hWcur1
  iintro %_ HI
  unfold inv2
  icases HI with ⟨Hmw2, Hl1, Hkt2, ⟨%fz0_2, Hslot0⟩, ⟨%fz1_2, Hslot1⟩, Hs4, Hs5, Hs6, Hs7, Hs8, Hs9, Hs10, Hs11, Hs12, Hs13, Hoi, %Wn2, %hWcur2, HO⟩

  sl_exec_parts

  -- loop 3
  ihave Hk := (toks_split' (F := F) _ _ _).1 $$ Ht5
  icases Hk with ⟨Hkr3, Hkt3⟩
  sl_for (inv3 m d L O W) $$ [Hmw2 Hl2 Hkt3 Hslot0 Hslot1 Hs4 Hs5 Hs6 Hs7 Hs8 Hs9 Hs10 Hs11 Hs12 Hs13 Hoc HO]
  case region => exact fun k _ => region3 m d L hpre O W k _ _
  · unfold inv3
    isplitl [Hmw2]; · iexact Hmw2
    isplitl [Hl2]
    · iapply (pts_of_eq (F := F) (lands2 m d L))
      iexists _; isplitr
      on_goal 2 => iexact Hl2
      ipureintro; exact write_lands2 m d L _
    isplitl [Hkt3]; · iexact Hkt3
    isplitl [Hslot0]; · iexists _; iexact Hslot0
    isplitl [Hslot1]; · iexists _; iexact Hslot1
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hoc]; · rw [outInv2_zero]; iexact Hoc
    iexists _; isplitr
    on_goal 2 => iexact HO
    ipureintro; exact hWcur2
  iintro %_ HI
  unfold inv3
  icases HI with ⟨Hmw3, Hl2, Hkt3, ⟨%fz0_3, Hslot0⟩, ⟨%fz1_3, Hslot1⟩, Hs4, Hs5, Hs6, Hs7, Hs8, Hs9, Hs10, Hs11, Hs12, Hs13, Hoc, %Wn3, %hWcur3, HO⟩

  sl_exec_parts
  sl_step
  -- the three results' windows now hold the lookups
  ihave Hou := (Entails.of_eq ((congrArg (outInv0 m d (wid L)) (show Scf.trips k0_t1_loop.lb k0_t1_loop.ub k0_t1_loop.st = 4 from trips1)).trans (outInv0_four m d (wid L)))) $$ Hou
  ihave Hoi := (Entails.of_eq ((congrArg (outInv1 m d (wid L)) (show Scf.trips k0_t2_loop.lb k0_t2_loop.ub k0_t2_loop.st = 4 from trips2)).trans (outInv1_four m d (wid L)))) $$ Hoi
  ihave Hoc := (Entails.of_eq ((congrArg (outInv2 m d (wid L)) (show Scf.trips k0_t3_loop.lb k0_t3_loop.ub k0_t3_loop.st = 4 from trips3)).trans (outInv2_four m d (wid L)))) $$ Hoc
  -- each table's share is whole again
  ihave Ht3 := (toks_split' (F := F) (t3Loc d) _ _).2 $$ [Hkr1 Hkt1]
  · isplitl [Hkr1] <;> iassumption
  ihave Ht4 := (toks_split' (F := F) (t4Loc d) _ _).2 $$ [Hkr2 Hkt2]
  · isplitl [Hkr2] <;> iassumption
  ihave Ht5 := (toks_split' (F := F) (t5Loc d) _ _).2 $$ [Hkr3 Hkt3]
  · isplitl [Hkr3] <;> iassumption
  ihave Hv0 := (Entails.of_eq (pts_idRow0 (F := F) d L _)) $$ Hi0
  ihave Hv1 := (Entails.of_eq (pts_idRow1 (F := F) d L _)) $$ Hi1
  ihave Hv2 := (Entails.of_eq (pts_idRow2 (F := F) d L _)) $$ Hi2
  isplitl [Hv0 Hv1 Hv2 Ht3 Ht4 Ht5 Hou Hoi Hoc]
  · unfold tileTd
    isplitl [Hv0]; · iexact Hv0
    isplitl [Hv1]; · iexact Hv1
    isplitl [Hv2]; · iexact Hv2
    isplitl [Ht3]; · iexact Ht3
    isplitl [Ht4]; · iexact Ht4
    isplitl [Ht5]; · iexact Ht5
    isplitl [Hou]; · iexact Hou
    isplitl [Hoi]; · iexact Hoi
    iexact Hoc
  isplitl [Hl0 Hl1 Hl2 Hslot0 Hslot1 Hbufs]
  · isplitl [Hl0]; · iexists _; iexact Hl0
    isplitl [Hl1]; · iexists _; iexact Hl1
    isplitl [Hl2]; · iexists _; iexact Hl2
    isplitl [Hslot0 Hslot1]
    · iapply (buf_join d L _ _)
      isplitl [Hslot0] <;> iassumption
    iexact Hbufs
  isplitl [Hs4 Hs5 Hs6 Hs7 Hs8 Hs9 Hs10 Hs11 Hs12 Hs13 Hc0 Hc1 Hc2]
  · isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hc0]; · iexact Hc0
    isplitl [Hc1]; · iexact Hc1
    isplitl [Hc2]; · iexact Hc2
    iempintro
  iexists Wn3; isplitr
  · ipureintro; exact hWcur3
  · iexact HO

end Cert.Proof.KIBody

end
-- ==== Proof.lean ====
/-
  The certificate: a SparseCore kernel that looks up three embedding tables (for each of 16384 index words, row
  ids[j] of its table, 64 entries) against three jnp.take.  Both programs leave, in each result, row j equal to the
  table's row named by index word j (the word read modulo the table's height, which is the word itself under the
  precondition's ranges): the kernel because each of its 32 tiles copies its 512 words into a landing buffer, then for
  each table copies the 512 named rows, 128 per trip through two staging slots, into its own 512 rows of the result;
  the reference because under the ranges its wrap, mask and clamp do nothing and its gather reads the named row.
  The frames are the same runs with the values dropped; the idealized kernel is the kernel's own text, so preserves
  holds trivially.
-/
import proofs.«206842_g87686052315543_cont_sun_m_497_29_alg».proof.Defs
import proofs.«206842_g87686052315543_cont_sun_m_497_29_alg».proof.Proof.Asm
import proofs.«206842_g87686052315543_cont_sun_m_497_29_alg».proof.Proof.KBody
import proofs.«206842_g87686052315543_cont_sun_m_497_29_alg».proof.Proof.KIBody

noncomputable section

namespace Cert.Proof

theorem claim : Cert.Claim :=
  Cert.Proof.Asm.claim_of_bodies (fun m h => Cert.Proof.KBody.tile_body m h) (fun m h => Cert.Proof.KIBody.tile_body m h)

end Cert.Proof

end
